-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S6x128x128 : Shape := ⟨3, ![6, 128, 128]⟩
abbrev S6x128 : Shape := ⟨2, ![6, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v43 : IVec S_ 1) (main_v47 : IVec S600000 1) (main_v51 : IVec S600000 1) : IVec S_ 1 :=
  let main_v52 : IVec S600000 1 := andi main_v47 main_v51
  let main_c_18 : IVec S_ 1 := constantI S_ 1 1#1
  let main_v53 : IVec S_ 1 := (fun x v => Host.reduce IntOp.andi x v reducesTo_S600000_S_d0 h_S_) main_v52 main_c_18
  let main_v54 : IVec S_ 1 := andi main_v43 main_v53
  main_v54

def fn_part2 {F : FTy → Type} [FloatOps F] (main_arg1 : IVec S2x600000 32) (main_arg9 : FVec F S64x4 .f32) (main_arg10 : FVec F S4 .f32) (main_v33 : IVec S_ 1) : IVec S_ 1 :=
  let main_v34 : FVec F S64x4 .f32 := Host.absf main_arg9
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : IVec S1x600000 32 := (extractStridedSlice S1x600000 ![0, 0] · slices_S2x600000_S1x600000_0_0) main_arg1
  let main_v45 : IVec S600000 32 := shapeCast S600000 main_v44 shapeCasts_S1x600000_S600000
  let main_c_16 : IVec S_ 32 := constantI S_ 32 0#32
  let main_v46 : IVec S600000 32 := broadcastInDim S600000 ![] bcast_S_S600000 main_c_16
  let main_v47 : IVec S600000 1 := cmpi .sge main_v45 main_v46
  let main_v48 : IVec S1x600000 32 := (extractStridedSlice S1x600000 ![0, 0] · slices_S2x600000_S1x600000_0_0) main_arg1
  let main_v49 : IVec S600000 32 := shapeCast S600000 main_v48 shapeCasts_S1x600000_S600000
  let main_c_17 : IVec S_ 32 := constantI S_ 32 100000#32
  let main_v50 : IVec S600000 32 := broadcastInDim S600000 ![] bcast_S_S600000 main_c_17
  let main_v51 : IVec S600000 1 := cmpi .slt main_v49 main_v50
  fn_part3 (F := F) main_v43 main_v47 main_v51

def fn_part1 {F : FTy → Type} [FloatOps F] (main_arg1 : IVec S2x600000 32) (main_arg6 : FVec F S6x128 .f32) (main_arg7 : FVec F S128x64 .f32) (main_arg8 : FVec F S64 .f32) (main_arg9 : FVec F S64x4 .f32) (main_arg10 : FVec F S4 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S6x128 .f32 := Host.absf main_arg6
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x600000 32) (main_arg2 : IVec S100000 32) (main_arg3 : FVec F S6x128x128 .f32) (main_arg4 : FVec F S6x128 .f32) (main_arg5 : FVec F S6x128 .f32) (main_arg6 : FVec F S6x128 .f32) (main_arg7 : FVec F S128x64 .f32) (main_arg8 : FVec F S64 .f32) (main_arg9 : FVec F S64x4 .f32) (main_arg10 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6x128x128 .f32 := Host.absf main_arg3
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128 .f32 := Host.absf main_arg4
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S6x128 .f32 := Host.absf main_arg5
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S6x128x128 : Shape := ⟨3, ![6, 128, 128]⟩
abbrev S6x128 : Shape := ⟨2, ![6, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S5000x128 : Shape := ⟨2, ![5000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64x1 : Shape := ⟨2, ![64, 1]⟩
abbrev S1x64 : Shape := ⟨2, ![1, 64]⟩
abbrev S1x4 : Shape := ⟨2, ![1, 4]⟩
abbrev S64x64 : Shape := ⟨2, ![64, 64]⟩

abbrev nBuf : Space → Nat
  | .hbm => 364
  | .vmem => 138
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S6x128x128, .f32⟩
  | 4 => ⟨S6x128, .f32⟩
  | 5 => ⟨S6x128, .f32⟩
  | 6 => ⟨S6x128, .f32⟩
  | 7 => ⟨S128x64, .f32⟩
  | 8 => ⟨S64, .f32⟩
  | 9 => ⟨S64x4, .f32⟩
  | 10 => ⟨S4, .f32⟩
  | 11 => ⟨S1x600000, .i32⟩
  | 12 => ⟨S600000, .i32⟩
  | 13 => ⟨S1x600000, .i32⟩
  | 14 => ⟨S600000, .i32⟩
  | 15 => ⟨S1x128x128, .f32⟩
  | 16 => ⟨S128x128, .f32⟩
  | 17 => ⟨S100000x128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S1, .i32⟩
  | 27 => ⟨S_, .i32⟩
  | 28 => ⟨S600000x1, .i32⟩
  | 29 => ⟨S600000x1, .i1⟩
  | 30 => ⟨S1x1, .i32⟩
  | 31 => ⟨S600000x1, .i32⟩
  | 32 => ⟨S600000x1, .i1⟩
  | 33 => ⟨S600000x1, .i1⟩
  | 34 => ⟨S_, .i1⟩
  | 35 => ⟨S600000, .i1⟩
  | 36 => ⟨S600000x128, .f32⟩
  | 37 => ⟨S600000x128, .i1⟩
  | 38 => ⟨S_, .f32⟩
  | 39 => ⟨S600000x128, .f32⟩
  | 40 => ⟨S600000x128, .f32⟩
  | 41 => ⟨S_, .f32⟩
  | 42 => ⟨S100000x128, .f32⟩
  | 43 => ⟨S600000x1, .i32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S1x128, .f32⟩
  | 50 => ⟨S1x128, .f32⟩
  | 51 => ⟨S128, .f32⟩
  | 52 => ⟨S128, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S1x128, .f32⟩
  | 67 => ⟨S1x128, .f32⟩
  | 68 => ⟨S1x128, .f32⟩
  | 69 => ⟨S100000x128, .f32⟩
  | 70 => ⟨S1x128x128, .f32⟩
  | 71 => ⟨S128x128, .f32⟩
  | 72 => ⟨S100000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S1, .i32⟩
  | 82 => ⟨S_, .i32⟩
  | 83 => ⟨S600000x1, .i32⟩
  | 84 => ⟨S600000x1, .i1⟩
  | 85 => ⟨S1x1, .i32⟩
  | 86 => ⟨S600000x1, .i32⟩
  | 87 => ⟨S600000x1, .i1⟩
  | 88 => ⟨S600000x1, .i1⟩
  | 89 => ⟨S_, .i1⟩
  | 90 => ⟨S600000, .i1⟩
  | 91 => ⟨S600000x128, .f32⟩
  | 92 => ⟨S600000x128, .i1⟩
  | 93 => ⟨S_, .f32⟩
  | 94 => ⟨S600000x128, .f32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S1x128, .f32⟩
  | 105 => ⟨S1x128, .f32⟩
  | 106 => ⟨S128, .f32⟩
  | 107 => ⟨S128, .f32⟩
  | 108 => ⟨S_, .f32⟩
  | 109 => ⟨S128, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S100000x128, .f32⟩
  | 125 => ⟨S1x128x128, .f32⟩
  | 126 => ⟨S128x128, .f32⟩
  | 127 => ⟨S100000x128, .f32⟩
  | _ => ⟨S100000x128, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S1, .i32⟩
  | 9 => ⟨S_, .i32⟩
  | 10 => ⟨S600000x1, .i32⟩
  | 11 => ⟨S600000x1, .i1⟩
  | 12 => ⟨S1x1, .i32⟩
  | 13 => ⟨S600000x1, .i32⟩
  | 14 => ⟨S600000x1, .i1⟩
  | 15 => ⟨S600000x1, .i1⟩
  | 16 => ⟨S_, .i1⟩
  | 17 => ⟨S600000, .i1⟩
  | 18 => ⟨S600000x128, .f32⟩
  | 19 => ⟨S600000x128, .i1⟩
  | 20 => ⟨S_, .f32⟩
  | 21 => ⟨S600000x128, .f32⟩
  | 22 => ⟨S600000x128, .f32⟩
  | 23 => ⟨S_, .f32⟩
  | 24 => ⟨S100000x128, .f32⟩
  | 25 => ⟨S600000x1, .i32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S1x128, .f32⟩
  | 32 => ⟨S1x128, .f32⟩
  | 33 => ⟨S128, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S1x128, .f32⟩
  | 49 => ⟨S1x128, .f32⟩
  | 50 => ⟨S1x128, .f32⟩
  | 51 => ⟨S100000x128, .f32⟩
  | 52 => ⟨S1x128x128, .f32⟩
  | 53 => ⟨S128x128, .f32⟩
  | 54 => ⟨S100000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S1, .i32⟩
  | 64 => ⟨S_, .i32⟩
  | 65 => ⟨S600000x1, .i32⟩
  | 66 => ⟨S600000x1, .i1⟩
  | 67 => ⟨S1x1, .i32⟩
  | 68 => ⟨S600000x1, .i32⟩
  | 69 => ⟨S600000x1, .i1⟩
  | 70 => ⟨S600000x1, .i1⟩
  | 71 => ⟨S_, .i1⟩
  | 72 => ⟨S600000, .i1⟩
  | 73 => ⟨S600000x128, .f32⟩
  | 74 => ⟨S600000x128, .i1⟩
  | 75 => ⟨S_, .f32⟩
  | 76 => ⟨S600000x128, .f32⟩
  | 77 => ⟨S600000x128, .f32⟩
  | 78 => ⟨S_, .f32⟩
  | 79 => ⟨S100000x128, .f32⟩
  | 80 => ⟨S600000x1, .i32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S1x128, .f32⟩
  | 87 => ⟨S1x128, .f32⟩
  | 88 => ⟨S128, .f32⟩
  | 89 => ⟨S128, .f32⟩
  | 90 => ⟨S_, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S100000x128, .f32⟩
  | 107 => ⟨S1x128x128, .f32⟩
  | 108 => ⟨S128x128, .f32⟩
  | 109 => ⟨S100000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S1, .i32⟩
  | 119 => ⟨S_, .i32⟩
  | 120 => ⟨S600000x1, .i32⟩
  | 121 => ⟨S600000x1, .i1⟩
  | 122 => ⟨S1x1, .i32⟩
  | 123 => ⟨S600000x1, .i32⟩
  | 124 => ⟨S600000x1, .i1⟩
  | 125 => ⟨S600000x1, .i1⟩
  | 126 => ⟨S_, .i1⟩
  | 127 => ⟨S600000, .i1⟩
  | _ => ⟨S100000x128, .f32⟩

abbrev hbmTy0_2 (i : Nat) : BufTy := match i % 128 with
  | 0 => ⟨S600000x128, .f32⟩
  | 1 => ⟨S600000x128, .i1⟩
  | 2 => ⟨S_, .f32⟩
  | 3 => ⟨S600000x128, .f32⟩
  | 4 => ⟨S600000x128, .f32⟩
  | 5 => ⟨S_, .f32⟩
  | 6 => ⟨S100000x128, .f32⟩
  | 7 => ⟨S600000x1, .i32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S1x128, .f32⟩
  | 14 => ⟨S1x128, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S1x128x128, .f32⟩
  | 35 => ⟨S128x128, .f32⟩
  | 36 => ⟨S100000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S1, .i32⟩
  | 46 => ⟨S_, .i32⟩
  | 47 => ⟨S600000x1, .i32⟩
  | 48 => ⟨S600000x1, .i1⟩
  | 49 => ⟨S1x1, .i32⟩
  | 50 => ⟨S600000x1, .i32⟩
  | 51 => ⟨S600000x1, .i1⟩
  | 52 => ⟨S600000x1, .i1⟩
  | 53 => ⟨S_, .i1⟩
  | 54 => ⟨S600000, .i1⟩
  | 55 => ⟨S600000x128, .f32⟩
  | 56 => ⟨S600000x128, .i1⟩
  | 57 => ⟨S_, .f32⟩
  | 58 => ⟨S600000x128, .f32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S1x128, .f32⟩
  | 65 => ⟨S128, .f32⟩
  | 66 => ⟨S1x128, .f32⟩
  | 67 => ⟨S100000x128, .f32⟩
  | 68 => ⟨S1x128, .f32⟩
  | 69 => ⟨S1x128, .f32⟩
  | 70 => ⟨S128, .f32⟩
  | 71 => ⟨S128, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S_, .f32⟩
  | 90 => ⟨S64x128, .f32⟩
  | 91 => ⟨S100000x1, .i32⟩
  | 92 => ⟨S64x128, .f32⟩
  | 93 => ⟨S_, .f32⟩
  | 94 => ⟨S100000, .f32⟩
  | 95 => ⟨S_, .f32⟩
  | 96 => ⟨S64, .f32⟩
  | 97 => ⟨S100000x1, .i32⟩
  | 98 => ⟨S64, .f32⟩
  | 99 => ⟨S_, .f32⟩
  | 100 => ⟨S64, .f32⟩
  | 101 => ⟨S64, .f32⟩
  | 102 => ⟨S64x1, .f32⟩
  | 103 => ⟨S64x128, .f32⟩
  | 104 => ⟨S64x128, .f32⟩
  | 105 => ⟨S1x64, .f32⟩
  | 106 => ⟨S1x4, .f32⟩
  | 107 => ⟨S64x4, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S5000x128, .f32⟩
  | 1 => ⟨S5000x128, .f32⟩
  | 2 => ⟨S128x128, .f32⟩
  | 3 => ⟨S5000x128, .f32⟩
  | 4 => ⟨S5000x128, .f32⟩
  | 5 => ⟨S5000x128, .f32⟩
  | 6 => ⟨S5000x128, .f32⟩
  | 7 => ⟨S1x128, .f32⟩
  | 8 => ⟨S5000x128, .f32⟩
  | 9 => ⟨S5000x128, .f32⟩
  | 10 => ⟨S1x128, .f32⟩
  | 11 => ⟨S1x128, .f32⟩
  | 12 => ⟨S1x128, .f32⟩
  | 13 => ⟨S1x128, .f32⟩
  | 14 => ⟨S5000x128, .f32⟩
  | 15 => ⟨S5000x128, .f32⟩
  | 16 => ⟨S1x128, .f32⟩
  | 17 => ⟨S1x128, .f32⟩
  | 18 => ⟨S1x128, .f32⟩
  | 19 => ⟨S1x128, .f32⟩
  | 20 => ⟨S5000x128, .f32⟩
  | 21 => ⟨S5000x128, .f32⟩
  | 22 => ⟨S5000x128, .f32⟩
  | 23 => ⟨S5000x128, .f32⟩
  | 24 => ⟨S128x128, .f32⟩
  | 25 => ⟨S5000x128, .f32⟩
  | 26 => ⟨S5000x128, .f32⟩
  | 27 => ⟨S5000x128, .f32⟩
  | 28 => ⟨S5000x128, .f32⟩
  | 29 => ⟨S1x128, .f32⟩
  | 30 => ⟨S5000x128, .f32⟩
  | 31 => ⟨S5000x128, .f32⟩
  | 32 => ⟨S1x128, .f32⟩
  | 33 => ⟨S1x128, .f32⟩
  | 34 => ⟨S1x128, .f32⟩
  | 35 => ⟨S1x128, .f32⟩
  | 36 => ⟨S5000x128, .f32⟩
  | 37 => ⟨S5000x128, .f32⟩
  | 38 => ⟨S1x128, .f32⟩
  | 39 => ⟨S1x128, .f32⟩
  | 40 => ⟨S1x128, .f32⟩
  | 41 => ⟨S1x128, .f32⟩
  | 42 => ⟨S5000x128, .f32⟩
  | 43 => ⟨S5000x128, .f32⟩
  | 44 => ⟨S5000x128, .f32⟩
  | 45 => ⟨S5000x128, .f32⟩
  | 46 => ⟨S128x128, .f32⟩
  | 47 => ⟨S5000x128, .f32⟩
  | 48 => ⟨S5000x128, .f32⟩
  | 49 => ⟨S5000x128, .f32⟩
  | 50 => ⟨S5000x128, .f32⟩
  | 51 => ⟨S1x128, .f32⟩
  | 52 => ⟨S5000x128, .f32⟩
  | 53 => ⟨S5000x128, .f32⟩
  | 54 => ⟨S1x128, .f32⟩
  | 55 => ⟨S1x128, .f32⟩
  | 56 => ⟨S1x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S1x128, .f32⟩
  | 63 => ⟨S1x128, .f32⟩
  | 64 => ⟨S5000x128, .f32⟩
  | 65 => ⟨S5000x128, .f32⟩
  | 66 => ⟨S5000x128, .f32⟩
  | 67 => ⟨S5000x128, .f32⟩
  | 68 => ⟨S128x128, .f32⟩
  | 69 => ⟨S5000x128, .f32⟩
  | 70 => ⟨S5000x128, .f32⟩
  | 71 => ⟨S5000x128, .f32⟩
  | 72 => ⟨S5000x128, .f32⟩
  | 73 => ⟨S1x128, .f32⟩
  | 74 => ⟨S5000x128, .f32⟩
  | 75 => ⟨S5000x128, .f32⟩
  | 76 => ⟨S1x128, .f32⟩
  | 77 => ⟨S1x128, .f32⟩
  | 78 => ⟨S1x128, .f32⟩
  | 79 => ⟨S1x128, .f32⟩
  | 80 => ⟨S5000x128, .f32⟩
  | 81 => ⟨S5000x128, .f32⟩
  | 82 => ⟨S1x128, .f32⟩
  | 83 => ⟨S1x128, .f32⟩
  | 84 => ⟨S1x128, .f32⟩
  | 85 => ⟨S1x128, .f32⟩
  | 86 => ⟨S5000x128, .f32⟩
  | 87 => ⟨S5000x128, .f32⟩
  | 88 => ⟨S5000x128, .f32⟩
  | 89 => ⟨S5000x128, .f32⟩
  | 90 => ⟨S128x128, .f32⟩
  | 91 => ⟨S5000x128, .f32⟩
  | 92 => ⟨S5000x128, .f32⟩
  | 93 => ⟨S5000x128, .f32⟩
  | 94 => ⟨S5000x128, .f32⟩
  | 95 => ⟨S1x128, .f32⟩
  | 96 => ⟨S5000x128, .f32⟩
  | 97 => ⟨S5000x128, .f32⟩
  | 98 => ⟨S1x128, .f32⟩
  | 99 => ⟨S1x128, .f32⟩
  | 100 => ⟨S1x128, .f32⟩
  | 101 => ⟨S1x128, .f32⟩
  | 102 => ⟨S5000x128, .f32⟩
  | 103 => ⟨S5000x128, .f32⟩
  | 104 => ⟨S1x128, .f32⟩
  | 105 => ⟨S1x128, .f32⟩
  | 106 => ⟨S1x128, .f32⟩
  | 107 => ⟨S1x128, .f32⟩
  | 108 => ⟨S5000x128, .f32⟩
  | 109 => ⟨S5000x128, .f32⟩
  | 110 => ⟨S5000x128, .f32⟩
  | 111 => ⟨S5000x128, .f32⟩
  | 112 => ⟨S128x128, .f32⟩
  | 113 => ⟨S5000x128, .f32⟩
  | 114 => ⟨S5000x128, .f32⟩
  | 115 => ⟨S5000x128, .f32⟩
  | 116 => ⟨S5000x128, .f32⟩
  | 117 => ⟨S1x128, .f32⟩
  | 118 => ⟨S5000x128, .f32⟩
  | 119 => ⟨S5000x128, .f32⟩
  | 120 => ⟨S1x128, .f32⟩
  | 121 => ⟨S1x128, .f32⟩
  | 122 => ⟨S1x128, .f32⟩
  | 123 => ⟨S1x128, .f32⟩
  | 124 => ⟨S5000x128, .f32⟩
  | 125 => ⟨S5000x128, .f32⟩
  | 126 => ⟨S1x128, .f32⟩
  | 127 => ⟨S1x128, .f32⟩
  | _ => ⟨S100000x128, .f32⟩

abbrev vmemTy0_1 (i : Nat) : BufTy := match i % 128 with
  | 0 => ⟨S1x128, .f32⟩
  | 1 => ⟨S1x128, .f32⟩
  | 2 => ⟨S5000x128, .f32⟩
  | 3 => ⟨S5000x128, .f32⟩
  | 4 => ⟨S64x128, .f32⟩
  | 5 => ⟨S128x64, .f32⟩
  | 6 => ⟨S1x64, .f32⟩
  | 7 => ⟨S64x4, .f32⟩
  | 8 => ⟨S1x4, .f32⟩
  | 9 => ⟨S64x4, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14_0 : Ref sig .tc := ⟨.hbm, 48, rfl⟩
abbrev main_v14_1 : Ref sig .tc := ⟨.hbm, 49, rfl⟩
abbrev main_v14_2 : Ref sig .tc := ⟨.hbm, 50, rfl⟩
abbrev main_v15 : Ref sig .tc := ⟨.hbm, 51, rfl⟩
abbrev main_v16 : Ref sig .tc := ⟨.hbm, 52, rfl⟩
abbrev main_cst_0 : Ref sig .tc := ⟨.hbm, 53, rfl⟩
abbrev main_v17 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v35 : Ref sig .tc := ⟨.hbm, 95, rfl⟩
abbrev main_cst_2 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42_0 : Ref sig .tc := ⟨.hbm, 103, rfl⟩
abbrev main_v42_1 : Ref sig .tc := ⟨.hbm, 104, rfl⟩
abbrev main_v42_2 : Ref sig .tc := ⟨.hbm, 105, rfl⟩
abbrev main_v43 : Ref sig .tc := ⟨.hbm, 106, rfl⟩
abbrev main_v44 : Ref sig .tc := ⟨.hbm, 107, rfl⟩
abbrev main_cst_3 : Ref sig .tc := ⟨.hbm, 108, rfl⟩
abbrev main_v45 : Ref sig .tc := ⟨.hbm, 109, rfl⟩
abbrev main_v46 : Ref sig .tc := ⟨.hbm, 110, rfl⟩
abbrev main_cst_4 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_call2_c : Ref sig .tc := ⟨.hbm, 128, rfl⟩
abbrev main_call2_v0 : Ref sig .tc := ⟨.hbm, 129, rfl⟩
abbrev main_call2_v1 : Ref sig .tc := ⟨.hbm, 130, rfl⟩
abbrev main_call2_c_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_c_1 : Ref sig .tc := ⟨.hbm, 136, rfl⟩
abbrev main_call2_c_2 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_c_3 : Ref sig .tc := ⟨.hbm, 144, rfl⟩
abbrev main_call2_v12 : Ref sig .tc := ⟨.hbm, 145, rfl⟩
abbrev main_call2_v13 : Ref sig .tc := ⟨.hbm, 146, rfl⟩
abbrev main_call2_v14 : Ref sig .tc := ⟨.hbm, 147, rfl⟩
abbrev main_call2_cst : Ref sig .tc := ⟨.hbm, 148, rfl⟩
abbrev main_call2_v15 : Ref sig .tc := ⟨.hbm, 149, rfl⟩
abbrev main_v63 : Ref sig .tc := ⟨.hbm, 150, rfl⟩
abbrev main_cst_5 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70_0 : Ref sig .tc := ⟨.hbm, 158, rfl⟩
abbrev main_v70_1 : Ref sig .tc := ⟨.hbm, 159, rfl⟩
abbrev main_v70_2 : Ref sig .tc := ⟨.hbm, 160, rfl⟩
abbrev main_v71 : Ref sig .tc := ⟨.hbm, 161, rfl⟩
abbrev main_v72 : Ref sig .tc := ⟨.hbm, 162, rfl⟩
abbrev main_cst_6 : Ref sig .tc := ⟨.hbm, 163, rfl⟩
abbrev main_v73 : Ref sig .tc := ⟨.hbm, 164, rfl⟩
abbrev main_v74 : Ref sig .tc := ⟨.hbm, 165, rfl⟩
abbrev main_cst_7 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_call3_c : Ref sig .tc := ⟨.hbm, 183, rfl⟩
abbrev main_call3_v0 : Ref sig .tc := ⟨.hbm, 184, rfl⟩
abbrev main_call3_v1 : Ref sig .tc := ⟨.hbm, 185, rfl⟩
abbrev main_call3_c_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_c_1 : Ref sig .tc := ⟨.hbm, 191, rfl⟩
abbrev main_call3_c_2 : Ref sig .tc := ⟨.hbm, 192, rfl⟩
abbrev main_call3_v6 : Ref sig .tc := ⟨.hbm, 193, rfl⟩
abbrev main_call3_v7 : Ref sig .tc := ⟨.hbm, 194, rfl⟩
abbrev main_call3_v8 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_c_3 : Ref sig .tc := ⟨.hbm, 199, rfl⟩
abbrev main_call3_v12 : Ref sig .tc := ⟨.hbm, 200, rfl⟩
abbrev main_call3_v13 : Ref sig .tc := ⟨.hbm, 201, rfl⟩
abbrev main_call3_v14 : Ref sig .tc := ⟨.hbm, 202, rfl⟩
abbrev main_call3_cst : Ref sig .tc := ⟨.hbm, 203, rfl⟩
abbrev main_call3_v15 : Ref sig .tc := ⟨.hbm, 204, rfl⟩
abbrev main_v91 : Ref sig .tc := ⟨.hbm, 205, rfl⟩
abbrev main_cst_8 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98_0 : Ref sig .tc := ⟨.hbm, 213, rfl⟩
abbrev main_v98_1 : Ref sig .tc := ⟨.hbm, 214, rfl⟩
abbrev main_v98_2 : Ref sig .tc := ⟨.hbm, 215, rfl⟩
abbrev main_v99 : Ref sig .tc := ⟨.hbm, 216, rfl⟩
abbrev main_v100 : Ref sig .tc := ⟨.hbm, 217, rfl⟩
abbrev main_cst_9 : Ref sig .tc := ⟨.hbm, 218, rfl⟩
abbrev main_v101 : Ref sig .tc := ⟨.hbm, 219, rfl⟩
abbrev main_v102 : Ref sig .tc := ⟨.hbm, 220, rfl⟩
abbrev main_cst_10 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_call4_c : Ref sig .tc := ⟨.hbm, 238, rfl⟩
abbrev main_call4_v0 : Ref sig .tc := ⟨.hbm, 239, rfl⟩
abbrev main_call4_v1 : Ref sig .tc := ⟨.hbm, 240, rfl⟩
abbrev main_call4_c_0 : Ref sig .tc := ⟨.hbm, 241, rfl⟩
abbrev main_call4_v2 : Ref sig .tc := ⟨.hbm, 242, rfl⟩
abbrev main_call4_v3 : Ref sig .tc := ⟨.hbm, 243, rfl⟩
abbrev main_call4_v4 : Ref sig .tc := ⟨.hbm, 244, rfl⟩
abbrev main_call4_v5 : Ref sig .tc := ⟨.hbm, 245, rfl⟩
abbrev main_call4_c_1 : Ref sig .tc := ⟨.hbm, 246, rfl⟩
abbrev main_call4_c_2 : Ref sig .tc := ⟨.hbm, 247, rfl⟩
abbrev main_call4_v6 : Ref sig .tc := ⟨.hbm, 248, rfl⟩
abbrev main_call4_v7 : Ref sig .tc := ⟨.hbm, 249, rfl⟩
abbrev main_call4_v8 : Ref sig .tc := ⟨.hbm, 250, rfl⟩
abbrev main_call4_v9 : Ref sig .tc := ⟨.hbm, 251, rfl⟩
abbrev main_call4_v10 : Ref sig .tc := ⟨.hbm, 252, rfl⟩
abbrev main_call4_v11 : Ref sig .tc := ⟨.hbm, 253, rfl⟩
abbrev main_call4_c_3 : Ref sig .tc := ⟨.hbm, 254, rfl⟩
abbrev main_call4_v12 : Ref sig .tc := ⟨.hbm, 255, rfl⟩
abbrev main_call4_v13 : Ref sig .tc := ⟨.hbm, 256, rfl⟩
abbrev main_call4_v14 : Ref sig .tc := ⟨.hbm, 257, rfl⟩
abbrev main_call4_cst : Ref sig .tc := ⟨.hbm, 258, rfl⟩
abbrev main_call4_v15 : Ref sig .tc := ⟨.hbm, 259, rfl⟩
abbrev main_v119 : Ref sig .tc := ⟨.hbm, 260, rfl⟩
abbrev main_cst_11 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126_0 : Ref sig .tc := ⟨.hbm, 268, rfl⟩
abbrev main_v126_1 : Ref sig .tc := ⟨.hbm, 269, rfl⟩
abbrev main_v126_2 : Ref sig .tc := ⟨.hbm, 270, rfl⟩
abbrev main_v127 : Ref sig .tc := ⟨.hbm, 271, rfl⟩
abbrev main_v128 : Ref sig .tc := ⟨.hbm, 272, rfl⟩
abbrev main_cst_12 : Ref sig .tc := ⟨.hbm, 273, rfl⟩
abbrev main_v129 : Ref sig .tc := ⟨.hbm, 274, rfl⟩
abbrev main_v130 : Ref sig .tc := ⟨.hbm, 275, rfl⟩
abbrev main_cst_13 : Ref sig .tc := ⟨.hbm, 276, rfl⟩
abbrev main_v131 : Ref sig .tc := ⟨.hbm, 277, rfl⟩
abbrev main_v132 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_call5_c : Ref sig .tc := ⟨.hbm, 293, rfl⟩
abbrev main_call5_v0 : Ref sig .tc := ⟨.hbm, 294, rfl⟩
abbrev main_call5_v1 : Ref sig .tc := ⟨.hbm, 295, rfl⟩
abbrev main_call5_c_0 : Ref sig .tc := ⟨.hbm, 296, rfl⟩
abbrev main_call5_v2 : Ref sig .tc := ⟨.hbm, 297, rfl⟩
abbrev main_call5_v3 : Ref sig .tc := ⟨.hbm, 298, rfl⟩
abbrev main_call5_v4 : Ref sig .tc := ⟨.hbm, 299, rfl⟩
abbrev main_call5_v5 : Ref sig .tc := ⟨.hbm, 300, rfl⟩
abbrev main_call5_c_1 : Ref sig .tc := ⟨.hbm, 301, rfl⟩
abbrev main_call5_c_2 : Ref sig .tc := ⟨.hbm, 302, rfl⟩
abbrev main_call5_v6 : Ref sig .tc := ⟨.hbm, 303, rfl⟩
abbrev main_call5_v7 : Ref sig .tc := ⟨.hbm, 304, rfl⟩
abbrev main_call5_v8 : Ref sig .tc := ⟨.hbm, 305, rfl⟩
abbrev main_call5_v9 : Ref sig .tc := ⟨.hbm, 306, rfl⟩
abbrev main_call5_v10 : Ref sig .tc := ⟨.hbm, 307, rfl⟩
abbrev main_call5_v11 : Ref sig .tc := ⟨.hbm, 308, rfl⟩
abbrev main_call5_c_3 : Ref sig .tc := ⟨.hbm, 309, rfl⟩
abbrev main_call5_v12 : Ref sig .tc := ⟨.hbm, 310, rfl⟩
abbrev main_call5_v13 : Ref sig .tc := ⟨.hbm, 311, rfl⟩
abbrev main_call5_v14 : Ref sig .tc := ⟨.hbm, 312, rfl⟩
abbrev main_call5_cst : Ref sig .tc := ⟨.hbm, 313, rfl⟩
abbrev main_call5_v15 : Ref sig .tc := ⟨.hbm, 314, rfl⟩
abbrev main_v147 : Ref sig .tc := ⟨.hbm, 315, rfl⟩
abbrev main_cst_14 : Ref sig .tc := ⟨.hbm, 316, rfl⟩
abbrev main_v148 : Ref sig .tc := ⟨.hbm, 317, rfl⟩
abbrev main_v149 : Ref sig .tc := ⟨.hbm, 318, rfl⟩
abbrev main_v150 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_v154_0 : Ref sig .tc := ⟨.hbm, 323, rfl⟩
abbrev main_v154_1 : Ref sig .tc := ⟨.hbm, 324, rfl⟩
abbrev main_v154_2 : Ref sig .tc := ⟨.hbm, 325, rfl⟩
abbrev main_v155 : Ref sig .tc := ⟨.hbm, 326, rfl⟩
abbrev main_v156 : Ref sig .tc := ⟨.hbm, 327, rfl⟩
abbrev main_cst_15 : Ref sig .tc := ⟨.hbm, 328, rfl⟩
abbrev main_v157 : Ref sig .tc := ⟨.hbm, 329, rfl⟩
abbrev main_v158 : Ref sig .tc := ⟨.hbm, 330, rfl⟩
abbrev main_cst_16 : Ref sig .tc := ⟨.hbm, 331, rfl⟩
abbrev main_v159 : Ref sig .tc := ⟨.hbm, 332, rfl⟩
abbrev main_v160 : Ref sig .tc := ⟨.hbm, 333, rfl⟩
abbrev main_v161 : Ref sig .tc := ⟨.hbm, 334, rfl⟩
abbrev main_v162 : Ref sig .tc := ⟨.hbm, 335, rfl⟩
abbrev main_v163 : Ref sig .tc := ⟨.hbm, 336, rfl⟩
abbrev main_v164 : Ref sig .tc := ⟨.hbm, 337, rfl⟩
abbrev main_v165 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_cst_17 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_cst_18 : Ref sig .tc := ⟨.hbm, 349, rfl⟩
abbrev main_v175 : Ref sig .tc := ⟨.hbm, 350, rfl⟩
abbrev main_cst_19 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_cst_20 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩
abbrev main_v182 : Ref sig .tc := ⟨.hbm, 359, rfl⟩
abbrev main_v183 : Ref sig .tc := ⟨.hbm, 360, rfl⟩
abbrev main_v184 : Ref sig .tc := ⟨.hbm, 361, rfl⟩
abbrev main_v185 : Ref sig .tc := ⟨.hbm, 362, rfl⟩
abbrev main_v186 : Ref sig .tc := ⟨.hbm, 363, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_scratch0 : Ref sig .tc := ⟨.vmem, 34, rfl⟩
abbrev cc4_scratch1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg4_0 : Ref sig .tc := ⟨.vmem, 55, rfl⟩
abbrev cc7_scratch0 : Ref sig .tc := ⟨.vmem, 56, rfl⟩
abbrev cc7_scratch1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg2_0 : Ref sig .tc := ⟨.vmem, 74, rfl⟩
abbrev cc10_stg2_1 : Ref sig .tc := ⟨.vmem, 75, rfl⟩
abbrev cc10_stg3_0 : Ref sig .tc := ⟨.vmem, 76, rfl⟩
abbrev cc10_stg4_0 : Ref sig .tc := ⟨.vmem, 77, rfl⟩
abbrev cc10_scratch0 : Ref sig .tc := ⟨.vmem, 78, rfl⟩
abbrev cc10_scratch1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg2_0 : Ref sig .tc := ⟨.vmem, 83, rfl⟩
abbrev cc11_stg3_0 : Ref sig .tc := ⟨.vmem, 84, rfl⟩
abbrev cc11_stg4_0 : Ref sig .tc := ⟨.vmem, 85, rfl⟩
abbrev cc11_stg5_0 : Ref sig .tc := ⟨.vmem, 86, rfl⟩
abbrev cc11_stg5_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg2_0 : Ref sig .tc := ⟨.vmem, 91, rfl⟩
abbrev cc12_stg2_1 : Ref sig .tc := ⟨.vmem, 92, rfl⟩
abbrev cc13_stg0_0 : Ref sig .tc := ⟨.vmem, 93, rfl⟩
abbrev cc13_stg0_1 : Ref sig .tc := ⟨.vmem, 94, rfl⟩
abbrev cc13_stg1_0 : Ref sig .tc := ⟨.vmem, 95, rfl⟩
abbrev cc13_stg2_0 : Ref sig .tc := ⟨.vmem, 96, rfl⟩
abbrev cc13_stg2_1 : Ref sig .tc := ⟨.vmem, 97, rfl⟩
abbrev cc13_stg3_0 : Ref sig .tc := ⟨.vmem, 98, rfl⟩
abbrev cc13_stg4_0 : Ref sig .tc := ⟨.vmem, 99, rfl⟩
abbrev cc13_scratch0 : Ref sig .tc := ⟨.vmem, 100, rfl⟩
abbrev cc13_scratch1 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg4_0 : Ref sig .tc := ⟨.vmem, 107, rfl⟩
abbrev cc14_stg5_0 : Ref sig .tc := ⟨.vmem, 108, rfl⟩
abbrev cc14_stg5_1 : Ref sig .tc := ⟨.vmem, 109, rfl⟩
abbrev cc15_stg0_0 : Ref sig .tc := ⟨.vmem, 110, rfl⟩
abbrev cc15_stg0_1 : Ref sig .tc := ⟨.vmem, 111, rfl⟩
abbrev cc15_stg1_0 : Ref sig .tc := ⟨.vmem, 112, rfl⟩
abbrev cc15_stg2_0 : Ref sig .tc := ⟨.vmem, 113, rfl⟩
abbrev cc15_stg2_1 : Ref sig .tc := ⟨.vmem, 114, rfl⟩
abbrev cc16_stg0_0 : Ref sig .tc := ⟨.vmem, 115, rfl⟩
abbrev cc16_stg0_1 : Ref sig .tc := ⟨.vmem, 116, rfl⟩
abbrev cc16_stg1_0 : Ref sig .tc := ⟨.vmem, 117, rfl⟩
abbrev cc16_stg2_0 : Ref sig .tc := ⟨.vmem, 118, rfl⟩
abbrev cc16_stg2_1 : Ref sig .tc := ⟨.vmem, 119, rfl⟩
abbrev cc16_stg3_0 : Ref sig .tc := ⟨.vmem, 120, rfl⟩
abbrev cc16_stg4_0 : Ref sig .tc := ⟨.vmem, 121, rfl⟩
abbrev cc16_scratch0 : Ref sig .tc := ⟨.vmem, 122, rfl⟩
abbrev cc16_scratch1 : Ref sig .tc := ⟨.vmem, 123, rfl⟩
abbrev cc17_stg0_0 : Ref sig .tc := ⟨.vmem, 124, rfl⟩
abbrev cc17_stg0_1 : Ref sig .tc := ⟨.vmem, 125, rfl⟩
abbrev cc17_stg1_0 : Ref sig .tc := ⟨.vmem, 126, rfl⟩
abbrev cc17_stg2_0 : Ref sig .tc := ⟨.vmem, 127, rfl⟩
abbrev cc17_stg3_0 : Ref sig .tc := ⟨.vmem, 128, rfl⟩
abbrev cc17_stg4_0 : Ref sig .tc := ⟨.vmem, 129, rfl⟩
abbrev cc17_stg5_0 : Ref sig .tc := ⟨.vmem, 130, rfl⟩
abbrev cc17_stg5_1 : Ref sig .tc := ⟨.vmem, 131, rfl⟩
abbrev cc18_stg0_0 : Ref sig .tc := ⟨.vmem, 132, rfl⟩
abbrev cc18_stg1_0 : Ref sig .tc := ⟨.vmem, 133, rfl⟩
abbrev cc18_stg2_0 : Ref sig .tc := ⟨.vmem, 134, rfl⟩
abbrev cc18_stg3_0 : Ref sig .tc := ⟨.vmem, 135, rfl⟩
abbrev cc18_stg4_0 : Ref sig .tc := ⟨.vmem, 136, rfl⟩
abbrev cc18_stg5_0 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc10_sem3_0 : DmaSem sig := 70
abbrev cc10_sem4_0 : DmaSem sig := 71
abbrev cc11_sem0_0 : DmaSem sig := 72
abbrev cc11_sem0_1 : DmaSem sig := 73
abbrev cc11_sem1_0 : DmaSem sig := 74
abbrev cc11_sem2_0 : DmaSem sig := 75
abbrev cc11_sem3_0 : DmaSem sig := 76
abbrev cc11_sem4_0 : DmaSem sig := 77
abbrev cc11_sem5_0 : DmaSem sig := 78
abbrev cc11_sem5_1 : DmaSem sig := 79
abbrev cc12_sem0_0 : DmaSem sig := 80
abbrev cc12_sem0_1 : DmaSem sig := 81
abbrev cc12_sem1_0 : DmaSem sig := 82
abbrev cc12_sem2_0 : DmaSem sig := 83
abbrev cc12_sem2_1 : DmaSem sig := 84
abbrev cc13_sem0_0 : DmaSem sig := 85
abbrev cc13_sem0_1 : DmaSem sig := 86
abbrev cc13_sem1_0 : DmaSem sig := 87
abbrev cc13_sem2_0 : DmaSem sig := 88
abbrev cc13_sem2_1 : DmaSem sig := 89
abbrev cc13_sem3_0 : DmaSem sig := 90
abbrev cc13_sem4_0 : DmaSem sig := 91
abbrev cc14_sem0_0 : DmaSem sig := 92
abbrev cc14_sem0_1 : DmaSem sig := 93
abbrev cc14_sem1_0 : DmaSem sig := 94
abbrev cc14_sem2_0 : DmaSem sig := 95
abbrev cc14_sem3_0 : DmaSem sig := 96
abbrev cc14_sem4_0 : DmaSem sig := 97
abbrev cc14_sem5_0 : DmaSem sig := 98
abbrev cc14_sem5_1 : DmaSem sig := 99
abbrev cc15_sem0_0 : DmaSem sig := 100
abbrev cc15_sem0_1 : DmaSem sig := 101
abbrev cc15_sem1_0 : DmaSem sig := 102
abbrev cc15_sem2_0 : DmaSem sig := 103
abbrev cc15_sem2_1 : DmaSem sig := 104
abbrev cc16_sem0_0 : DmaSem sig := 105
abbrev cc16_sem0_1 : DmaSem sig := 106
abbrev cc16_sem1_0 : DmaSem sig := 107
abbrev cc16_sem2_0 : DmaSem sig := 108
abbrev cc16_sem2_1 : DmaSem sig := 109
abbrev cc16_sem3_0 : DmaSem sig := 110
abbrev cc16_sem4_0 : DmaSem sig := 111
abbrev cc17_sem0_0 : DmaSem sig := 112
abbrev cc17_sem0_1 : DmaSem sig := 113
abbrev cc17_sem1_0 : DmaSem sig := 114
abbrev cc17_sem2_0 : DmaSem sig := 115
abbrev cc17_sem3_0 : DmaSem sig := 116
abbrev cc17_sem4_0 : DmaSem sig := 117
abbrev cc17_sem5_0 : DmaSem sig := 118
abbrev cc17_sem5_1 : DmaSem sig := 119
abbrev cc18_sem0_0 : DmaSem sig := 120
abbrev cc18_sem1_0 : DmaSem sig := 121
abbrev cc18_sem2_0 : DmaSem sig := 122
abbrev cc18_sem3_0 : DmaSem sig := 123
abbrev cc18_sem4_0 : DmaSem sig := 124
abbrev cc18_sem5_0 : DmaSem sig := 125

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def k13_cond2 (i : grid13.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![20], ![false]⟩

def k16_cond2 (i : grid16.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S5000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev grid17 : Pipeline.Grid := ⟨1, ![20], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S5000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 1 → Memref sig .tc .vmem S64x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![false]

abbrev stage18_1 : Fin 1 → Memref sig .tc .vmem S128x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S64x4 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x4 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S64x4 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S6x128x128_S1x128x128_0_0_0 : S6x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  slices_S6x128_S1x128_0_0 : S6x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S128 : S_.BroadcastsInDim S128 (![] : Fin 0 → Fin S128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S4_S1x4 : S4.ShapeCasts S1x4
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  shapeCasts_S64_S64x1 : S64.ShapeCasts S64x1
  broadcasts_S64x1_S64x4 : S64x1.Broadcasts S64x4
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x4_S64x4_1_0_0_1_n_n_wf : DotDims.WF S64x64 S64x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S100000x128.size a
  hwx10_2 : ∀ i : grid10.Coords, EltTy.bits .f32 = 32 ∨ (Rect.block (s := S100000x128) S5000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S100000x128.size a
  hwx12_2 : ∀ i : grid12.Coords, EltTy.bits .f32 = 32 ∨ (Rect.block (s := S100000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S100000x128.size a
  hwx13_2 : ∀ i : grid13.Coords, EltTy.bits .f32 = 32 ∨ (Rect.block (s := S100000x128) S5000x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S100000x128.size a
  hwx14_5 : ∀ i : grid14.Coords, EltTy.bits .f32 = 32 ∨ (Rect.block (s := S100000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x128.size a ≤ S100000x128.size a
  hwx15_2 : ∀ i : grid15.Coords, EltTy.bits .f32 = 32 ∨ (Rect.block (s := S100000x128) S5000x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x128.size a ≤ S100000x128.size a
  hwx16_2 : ∀ i : grid16.Coords, EltTy.bits .f32 = 32 ∨ (Rect.block (s := S100000x128) S5000x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S100000x128.size a
  hwx17_0 : ∀ i : grid17.Coords, EltTy.bits .f32 = 32 ∨ (Rect.block (s := S100000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x128.size a ≤ S1x128.size a
  hwx17_4 : ∀ i : grid17.Coords, EltTy.bits .f32 = 32 ∨ (Rect.block (s := S1x128) S1x128.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S5000x128.size a ≤ S100000x128.size a
  hwx17_5 : ∀ i : grid17.Coords, EltTy.bits .f32 = 32 ∨ (Rect.block (s := S100000x128) S5000x128.size (cc17_transform_5 i) (hinb17_5 i)).WholeWords (EltTy.packing .f32)
  hrank18 : 0 < grid18.rank
  hstage18_0 : ∀ j, (stage18_0 j).IsWhole
  nbuf18_0 : grid18.bufCount reads18_0 true = 1
  hreads18_0 : ∀ i i' : grid18.Coords, (∀ a, reads18_0 a = true → i a = i' a) → cc18_transform_0 i = cc18_transform_0 i'
  hinb18_0 : ∀ (i : grid18.Coords) a, (cc18_transform_0 i a + 1) * S64x128.size a ≤ S64x128.size a
  hwx18_0 : ∀ i : grid18.Coords, EltTy.bits .f32 = 32 ∨ (Rect.block (s := S64x128) S64x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x64.size a ≤ S128x64.size a
  hwx18_1 : ∀ i : grid18.Coords, EltTy.bits .f32 = 32 ∨ (Rect.block (s := S128x64) S128x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S64x4.size a ≤ S64x4.size a
  hwx18_3 : ∀ i : grid18.Coords, EltTy.bits .f32 = 32 ∨ (Rect.block (s := S64x4) S64x4.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x4.size a ≤ S1x4.size a
  hwx18_4 : ∀ i : grid18.Coords, EltTy.bits .f32 = 32 ∨ (Rect.block (s := S1x4) S1x4.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S64x4.size a ≤ S64x4.size a
  hwx18_5 : ∀ i : grid18.Coords, EltTy.bits .f32 = 32 ∨ (Rect.block (s := S64x4) S64x4.size (cc18_transform_5 i) (hinb18_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v14_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v42_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v62) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v69) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70_0) S5000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v70_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v70_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun i => !(k7_cond2 i == 1#1) | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v70_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v85) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v86) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v87) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v87) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v89) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v90) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v94) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v97) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v98_0) S5000x128.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v98_1) S1x128.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v98_2) S1x128.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun i => !(k10_cond2 i == 1#1) | 4 => fun i => !(k10_cond2 i == 1#1) | ⟨_ + 5, h⟩ => absurd h (Nat.not_lt.2 (Nat.le_add_left _ _))

abbrev win11_0 : Pipeline.Window sig grid11 :=
  Pipeline.Window.ofSpec (Memref.whole main_v98_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v111) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v112) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v113) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v114) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v115) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v115) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v117) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v118) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v122) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v125) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v126_0) S5000x128.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v126_1) S1x128.size cc13_transform_3 reads13_3 true true 1 stage13_3 sem13_3
    hrank13 hreads13_3 hinb13_3 nbuf13_3 (Memref.isWhole_whole _) hwx13_3 hstage13_3

abbrev win13_4 : Pipeline.Window sig grid13 :=
  Pipeline.Window.ofSpec (Memref.whole main_v126_2) S1x128.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev idle13 : Fin 5 → grid13.Coords → Bool := fun | 0 => fun _ => false | 1 => fun _ => false | 2 => fun _ => false | 3 => fun i => !(k13_cond2 i == 1#1) | 4 => fun i => !(k13_cond2 i == 1#1) | ⟨_ + 5, h⟩ => absurd h (Nat.not_lt.2 (Nat.le_add_left _ _))

abbrev win14_0 : Pipeline.Window sig grid14 :=
  Pipeline.Window.ofSpec (Memref.whole main_v126_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v139) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v140) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v141) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v142) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v143) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v143) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v145) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v146) S5000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v150) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v153) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v154_0) S5000x128.size cc16_transform_2 reads16_2 true false 2 stage16_2 sem16_2
    hrank16 hreads16_2 hinb16_2 nbuf16_2 (Memref.isWhole_whole _) hwx16_2 hstage16_2

abbrev win16_3 : Pipeline.Window sig grid16 :=
  Pipeline.Window.ofSpec (Memref.whole main_v154_1) S1x128.size cc16_transform_3 reads16_3 true true 1 stage16_3 sem16_3
    hrank16 hreads16_3 hinb16_3 nbuf16_3 (Memref.isWhole_whole _) hwx16_3 hstage16_3

abbrev win16_4 : Pipeline.Window sig grid16 :=
  Pipeline.Window.ofSpec (Memref.whole main_v154_2) S1x128.size cc16_transform_4 reads16_4 true true 1 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev idle16 : Fin 5 → grid16.Coords → Bool := fun | 0 => fun _ => false | 1 => fun _ => false | 2 => fun _ => false | 3 => fun i => !(k16_cond2 i == 1#1) | 4 => fun i => !(k16_cond2 i == 1#1) | ⟨_ + 5, h⟩ => absurd h (Nat.not_lt.2 (Nat.le_add_left _ _))

abbrev win17_0 : Pipeline.Window sig grid17 :=
  Pipeline.Window.ofSpec (Memref.whole main_v154_0) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v167) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v168) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v169) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v170) S1x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v171) S5000x128.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v183) S64x128.size cc18_transform_0 reads18_0 false true 1 stage18_0 sem18_0
    hrank18 hreads18_0 hinb18_0 nbuf18_0 (Memref.isWhole_whole _) hwx18_0 hstage18_0

abbrev win18_1 : Pipeline.Window sig grid18 :=
  Pipeline.Window.ofSpec (Memref.whole main_arg7) S128x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v184) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg9) S64x4.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v185) S1x4.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v186) S64x4.size cc18_transform_5 reads18_5 true true 1 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S6x128x128 : Shape := ⟨3, ![6, 128, 128]⟩
abbrev S6x128 : Shape := ⟨2, ![6, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩
abbrev S1x4 : Shape := ⟨2, ![1, 4]⟩

abbrev nBuf : Space → Nat
  | .hbm => 486
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S6x128x128, .f32⟩
  | 4 => ⟨S6x128, .f32⟩
  | 5 => ⟨S6x128, .f32⟩
  | 6 => ⟨S6x128, .f32⟩
  | 7 => ⟨S128x64, .f32⟩
  | 8 => ⟨S64, .f32⟩
  | 9 => ⟨S64x4, .f32⟩
  | 10 => ⟨S4, .f32⟩
  | 11 => ⟨S1x600000, .i32⟩
  | 12 => ⟨S600000, .i32⟩
  | 13 => ⟨S1x600000, .i32⟩
  | 14 => ⟨S600000, .i32⟩
  | 15 => ⟨S1x128x128, .f32⟩
  | 16 => ⟨S128x128, .f32⟩
  | 17 => ⟨S100000x128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S100000x128, .f32⟩
  | 29 => ⟨S600000x1, .i32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128x128, .f32⟩
  | 88 => ⟨S128x128, .f32⟩
  | 89 => ⟨S100000x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S100000x128, .f32⟩
  | 101 => ⟨S600000x1, .i32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S1x128x128, .f32⟩
  | 104 => ⟨S128x128, .f32⟩
  | 105 => ⟨S100000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S100000x128, .f32⟩

abbrev hbmTy0_3 (i : Nat) : BufTy := match i % 128 with
  | 0 => ⟨S600000, .i32⟩
  | 1 => ⟨S600000x1, .i32⟩
  | 2 => ⟨S600000x128, .f32⟩
  | 3 => ⟨S_, .f32⟩
  | 4 => ⟨S100000x128, .f32⟩
  | 5 => ⟨S600000x1, .i32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S100000x128, .f32⟩
  | 28 => ⟨S100000x128, .f32⟩
  | 29 => ⟨S100000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S64x128, .f32⟩
  | 65 => ⟨S100000x1, .i32⟩
  | 66 => ⟨S64x128, .f32⟩
  | 67 => ⟨S_, .f32⟩
  | 68 => ⟨S100000, .f32⟩
  | 69 => ⟨S_, .f32⟩
  | 70 => ⟨S64, .f32⟩
  | 71 => ⟨S100000x1, .i32⟩
  | 72 => ⟨S64, .f32⟩
  | 73 => ⟨S_, .f32⟩
  | 74 => ⟨S64, .f32⟩
  | 75 => ⟨S64, .f32⟩
  | 76 => ⟨S64x1, .f32⟩
  | 77 => ⟨S64x128, .f32⟩
  | 78 => ⟨S64x128, .f32⟩
  | 79 => ⟨S64x64, .f32⟩
  | 80 => ⟨S1x64, .f32⟩
  | 81 => ⟨S64x64, .f32⟩
  | 82 => ⟨S64x64, .f32⟩
  | 83 => ⟨S64x4, .f32⟩
  | 84 => ⟨S1x4, .f32⟩
  | 85 => ⟨S64x4, .f32⟩
  | 86 => ⟨S64x4, .f32⟩
  | 87 => ⟨S_, .f32⟩
  | 88 => ⟨S64, .f32⟩
  | 89 => ⟨S_, .f32⟩
  | 90 => ⟨S64, .f32⟩
  | 91 => ⟨S64, .f32⟩
  | 92 => ⟨S64x1, .f32⟩
  | 93 => ⟨S64x4, .f32⟩
  | 94 => ⟨S64x4, .f32⟩
  | 95 => ⟨S64x4, .f32⟩
  | 96 => ⟨S_, .f32⟩
  | 97 => ⟨S64, .f32⟩
  | 98 => ⟨S64x1, .f32⟩
  | 99 => ⟨S64x1, .f32⟩
  | 100 => ⟨S64x4, .f32⟩
  | 101 => ⟨S64x4, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_cst_1 : Ref sig .tc := ⟨.hbm, 55, rfl⟩
abbrev main_call1_v8 : Ref sig .tc := ⟨.hbm, 56, rfl⟩
abbrev main_call1_cst_2 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_cst_3 : Ref sig .tc := ⟨.hbm, 61, rfl⟩
abbrev main_call1_v12 : Ref sig .tc := ⟨.hbm, 62, rfl⟩
abbrev main_call1_cst_4 : Ref sig .tc := ⟨.hbm, 63, rfl⟩
abbrev main_call1_call0_v0 : Ref sig .tc := ⟨.hbm, 64, rfl⟩
abbrev main_call1_call0_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_4 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_5 : Ref sig .tc := ⟨.hbm, 90, rfl⟩
abbrev main_v49 : Ref sig .tc := ⟨.hbm, 91, rfl⟩
abbrev main_v50 : Ref sig .tc := ⟨.hbm, 92, rfl⟩
abbrev main_c_6 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_7 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_call2_cst : Ref sig .tc := ⟨.hbm, 108, rfl⟩
abbrev main_call2_v0 : Ref sig .tc := ⟨.hbm, 109, rfl⟩
abbrev main_v64 : Ref sig .tc := ⟨.hbm, 110, rfl⟩
abbrev main_cst_8 : Ref sig .tc := ⟨.hbm, 111, rfl⟩
abbrev main_v65 : Ref sig .tc := ⟨.hbm, 112, rfl⟩
abbrev main_cst_9 : Ref sig .tc := ⟨.hbm, 113, rfl⟩
abbrev main_v66 : Ref sig .tc := ⟨.hbm, 114, rfl⟩
abbrev main_v67 : Ref sig .tc := ⟨.hbm, 115, rfl⟩
abbrev main_c_10 : Ref sig .tc := ⟨.hbm, 116, rfl⟩
abbrev main_call3_cst : Ref sig .tc := ⟨.hbm, 117, rfl⟩
abbrev main_call3_v0 : Ref sig .tc := ⟨.hbm, 118, rfl⟩
abbrev main_call3_v1 : Ref sig .tc := ⟨.hbm, 119, rfl⟩
abbrev main_call3_cst_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_v7 : Ref sig .tc := ⟨.hbm, 126, rfl⟩
abbrev main_call3_cst_1 : Ref sig .tc := ⟨.hbm, 127, rfl⟩
abbrev main_call3_v8 : Ref sig .tc := ⟨.hbm, 128, rfl⟩
abbrev main_call3_cst_2 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_cst_3 : Ref sig .tc := ⟨.hbm, 133, rfl⟩
abbrev main_call3_v12 : Ref sig .tc := ⟨.hbm, 134, rfl⟩
abbrev main_call3_cst_4 : Ref sig .tc := ⟨.hbm, 135, rfl⟩
abbrev main_call3_call0_v0 : Ref sig .tc := ⟨.hbm, 136, rfl⟩
abbrev main_call3_call0_v1 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_11 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_c_12 : Ref sig .tc := ⟨.hbm, 162, rfl⟩
abbrev main_v91 : Ref sig .tc := ⟨.hbm, 163, rfl⟩
abbrev main_v92 : Ref sig .tc := ⟨.hbm, 164, rfl⟩
abbrev main_c_13 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_14 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_call4_cst : Ref sig .tc := ⟨.hbm, 180, rfl⟩
abbrev main_call4_v0 : Ref sig .tc := ⟨.hbm, 181, rfl⟩
abbrev main_v106 : Ref sig .tc := ⟨.hbm, 182, rfl⟩
abbrev main_cst_15 : Ref sig .tc := ⟨.hbm, 183, rfl⟩
abbrev main_v107 : Ref sig .tc := ⟨.hbm, 184, rfl⟩
abbrev main_cst_16 : Ref sig .tc := ⟨.hbm, 185, rfl⟩
abbrev main_v108 : Ref sig .tc := ⟨.hbm, 186, rfl⟩
abbrev main_v109 : Ref sig .tc := ⟨.hbm, 187, rfl⟩
abbrev main_c_17 : Ref sig .tc := ⟨.hbm, 188, rfl⟩
abbrev main_call5_cst : Ref sig .tc := ⟨.hbm, 189, rfl⟩
abbrev main_call5_v0 : Ref sig .tc := ⟨.hbm, 190, rfl⟩
abbrev main_call5_v1 : Ref sig .tc := ⟨.hbm, 191, rfl⟩
abbrev main_call5_cst_0 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_v6 : Ref sig .tc := ⟨.hbm, 197, rfl⟩
abbrev main_call5_v7 : Ref sig .tc := ⟨.hbm, 198, rfl⟩
abbrev main_call5_cst_1 : Ref sig .tc := ⟨.hbm, 199, rfl⟩
abbrev main_call5_v8 : Ref sig .tc := ⟨.hbm, 200, rfl⟩
abbrev main_call5_cst_2 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_cst_3 : Ref sig .tc := ⟨.hbm, 205, rfl⟩
abbrev main_call5_v12 : Ref sig .tc := ⟨.hbm, 206, rfl⟩
abbrev main_call5_cst_4 : Ref sig .tc := ⟨.hbm, 207, rfl⟩
abbrev main_call5_call0_v0 : Ref sig .tc := ⟨.hbm, 208, rfl⟩
abbrev main_call5_call0_v1 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_cst_18 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_c_19 : Ref sig .tc := ⟨.hbm, 234, rfl⟩
abbrev main_v133 : Ref sig .tc := ⟨.hbm, 235, rfl⟩
abbrev main_v134 : Ref sig .tc := ⟨.hbm, 236, rfl⟩
abbrev main_c_20 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_21 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_call6_cst : Ref sig .tc := ⟨.hbm, 252, rfl⟩
abbrev main_call6_v0 : Ref sig .tc := ⟨.hbm, 253, rfl⟩
abbrev main_v148 : Ref sig .tc := ⟨.hbm, 254, rfl⟩
abbrev main_cst_22 : Ref sig .tc := ⟨.hbm, 255, rfl⟩
abbrev main_v149 : Ref sig .tc := ⟨.hbm, 256, rfl⟩
abbrev main_cst_23 : Ref sig .tc := ⟨.hbm, 257, rfl⟩
abbrev main_v150 : Ref sig .tc := ⟨.hbm, 258, rfl⟩
abbrev main_v151 : Ref sig .tc := ⟨.hbm, 259, rfl⟩
abbrev main_c_24 : Ref sig .tc := ⟨.hbm, 260, rfl⟩
abbrev main_call7_cst : Ref sig .tc := ⟨.hbm, 261, rfl⟩
abbrev main_call7_v0 : Ref sig .tc := ⟨.hbm, 262, rfl⟩
abbrev main_call7_v1 : Ref sig .tc := ⟨.hbm, 263, rfl⟩
abbrev main_call7_cst_0 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_call7_v5 : Ref sig .tc := ⟨.hbm, 268, rfl⟩
abbrev main_call7_v6 : Ref sig .tc := ⟨.hbm, 269, rfl⟩
abbrev main_call7_v7 : Ref sig .tc := ⟨.hbm, 270, rfl⟩
abbrev main_call7_cst_1 : Ref sig .tc := ⟨.hbm, 271, rfl⟩
abbrev main_call7_v8 : Ref sig .tc := ⟨.hbm, 272, rfl⟩
abbrev main_call7_cst_2 : Ref sig .tc := ⟨.hbm, 273, rfl⟩
abbrev main_call7_v9 : Ref sig .tc := ⟨.hbm, 274, rfl⟩
abbrev main_call7_v10 : Ref sig .tc := ⟨.hbm, 275, rfl⟩
abbrev main_call7_v11 : Ref sig .tc := ⟨.hbm, 276, rfl⟩
abbrev main_call7_cst_3 : Ref sig .tc := ⟨.hbm, 277, rfl⟩
abbrev main_call7_v12 : Ref sig .tc := ⟨.hbm, 278, rfl⟩
abbrev main_call7_cst_4 : Ref sig .tc := ⟨.hbm, 279, rfl⟩
abbrev main_call7_call0_v0 : Ref sig .tc := ⟨.hbm, 280, rfl⟩
abbrev main_call7_call0_v1 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_cst_25 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_v167 : Ref sig .tc := ⟨.hbm, 298, rfl⟩
abbrev main_v168 : Ref sig .tc := ⟨.hbm, 299, rfl⟩
abbrev main_v169 : Ref sig .tc := ⟨.hbm, 300, rfl⟩
abbrev main_v170 : Ref sig .tc := ⟨.hbm, 301, rfl⟩
abbrev main_v171 : Ref sig .tc := ⟨.hbm, 302, rfl⟩
abbrev main_v172 : Ref sig .tc := ⟨.hbm, 303, rfl⟩
abbrev main_v173 : Ref sig .tc := ⟨.hbm, 304, rfl⟩
abbrev main_v174 : Ref sig .tc := ⟨.hbm, 305, rfl⟩
abbrev main_c_26 : Ref sig .tc := ⟨.hbm, 306, rfl⟩
abbrev main_v175 : Ref sig .tc := ⟨.hbm, 307, rfl⟩
abbrev main_v176 : Ref sig .tc := ⟨.hbm, 308, rfl⟩
abbrev main_c_27 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_cst_28 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_call8_cst : Ref sig .tc := ⟨.hbm, 324, rfl⟩
abbrev main_call8_v0 : Ref sig .tc := ⟨.hbm, 325, rfl⟩
abbrev main_v190 : Ref sig .tc := ⟨.hbm, 326, rfl⟩
abbrev main_cst_29 : Ref sig .tc := ⟨.hbm, 327, rfl⟩
abbrev main_v191 : Ref sig .tc := ⟨.hbm, 328, rfl⟩
abbrev main_cst_30 : Ref sig .tc := ⟨.hbm, 329, rfl⟩
abbrev main_v192 : Ref sig .tc := ⟨.hbm, 330, rfl⟩
abbrev main_v193 : Ref sig .tc := ⟨.hbm, 331, rfl⟩
abbrev main_c_31 : Ref sig .tc := ⟨.hbm, 332, rfl⟩
abbrev main_call9_cst : Ref sig .tc := ⟨.hbm, 333, rfl⟩
abbrev main_call9_v0 : Ref sig .tc := ⟨.hbm, 334, rfl⟩
abbrev main_call9_v1 : Ref sig .tc := ⟨.hbm, 335, rfl⟩
abbrev main_call9_cst_0 : Ref sig .tc := ⟨.hbm, 336, rfl⟩
abbrev main_call9_v2 : Ref sig .tc := ⟨.hbm, 337, rfl⟩
abbrev main_call9_v3 : Ref sig .tc := ⟨.hbm, 338, rfl⟩
abbrev main_call9_v4 : Ref sig .tc := ⟨.hbm, 339, rfl⟩
abbrev main_call9_v5 : Ref sig .tc := ⟨.hbm, 340, rfl⟩
abbrev main_call9_v6 : Ref sig .tc := ⟨.hbm, 341, rfl⟩
abbrev main_call9_v7 : Ref sig .tc := ⟨.hbm, 342, rfl⟩
abbrev main_call9_cst_1 : Ref sig .tc := ⟨.hbm, 343, rfl⟩
abbrev main_call9_v8 : Ref sig .tc := ⟨.hbm, 344, rfl⟩
abbrev main_call9_cst_2 : Ref sig .tc := ⟨.hbm, 345, rfl⟩
abbrev main_call9_v9 : Ref sig .tc := ⟨.hbm, 346, rfl⟩
abbrev main_call9_v10 : Ref sig .tc := ⟨.hbm, 347, rfl⟩
abbrev main_call9_v11 : Ref sig .tc := ⟨.hbm, 348, rfl⟩
abbrev main_call9_cst_3 : Ref sig .tc := ⟨.hbm, 349, rfl⟩
abbrev main_call9_v12 : Ref sig .tc := ⟨.hbm, 350, rfl⟩
abbrev main_call9_cst_4 : Ref sig .tc := ⟨.hbm, 351, rfl⟩
abbrev main_call9_call0_v0 : Ref sig .tc := ⟨.hbm, 352, rfl⟩
abbrev main_call9_call0_v1 : Ref sig .tc := ⟨.hbm, 353, rfl⟩
abbrev main_v194 : Ref sig .tc := ⟨.hbm, 354, rfl⟩
abbrev main_v195 : Ref sig .tc := ⟨.hbm, 355, rfl⟩
abbrev main_v196 : Ref sig .tc := ⟨.hbm, 356, rfl⟩
abbrev main_v197 : Ref sig .tc := ⟨.hbm, 357, rfl⟩
abbrev main_cst_32 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_c_33 : Ref sig .tc := ⟨.hbm, 378, rfl⟩
abbrev main_v217 : Ref sig .tc := ⟨.hbm, 379, rfl⟩
abbrev main_v218 : Ref sig .tc := ⟨.hbm, 380, rfl⟩
abbrev main_c_34 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_v223 : Ref sig .tc := ⟨.hbm, 386, rfl⟩
abbrev main_cst_35 : Ref sig .tc := ⟨.hbm, 387, rfl⟩
abbrev main_v224 : Ref sig .tc := ⟨.hbm, 388, rfl⟩
abbrev main_v225 : Ref sig .tc := ⟨.hbm, 389, rfl⟩
abbrev main_v226 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_v230 : Ref sig .tc := ⟨.hbm, 394, rfl⟩
abbrev main_v231 : Ref sig .tc := ⟨.hbm, 395, rfl⟩
abbrev main_call10_cst : Ref sig .tc := ⟨.hbm, 396, rfl⟩
abbrev main_call10_v0 : Ref sig .tc := ⟨.hbm, 397, rfl⟩
abbrev main_v232 : Ref sig .tc := ⟨.hbm, 398, rfl⟩
abbrev main_cst_36 : Ref sig .tc := ⟨.hbm, 399, rfl⟩
abbrev main_v233 : Ref sig .tc := ⟨.hbm, 400, rfl⟩
abbrev main_cst_37 : Ref sig .tc := ⟨.hbm, 401, rfl⟩
abbrev main_v234 : Ref sig .tc := ⟨.hbm, 402, rfl⟩
abbrev main_v235 : Ref sig .tc := ⟨.hbm, 403, rfl⟩
abbrev main_c_38 : Ref sig .tc := ⟨.hbm, 404, rfl⟩
abbrev main_call11_cst : Ref sig .tc := ⟨.hbm, 405, rfl⟩
abbrev main_call11_v0 : Ref sig .tc := ⟨.hbm, 406, rfl⟩
abbrev main_call11_v1 : Ref sig .tc := ⟨.hbm, 407, rfl⟩
abbrev main_call11_cst_0 : Ref sig .tc := ⟨.hbm, 408, rfl⟩
abbrev main_call11_v2 : Ref sig .tc := ⟨.hbm, 409, rfl⟩
abbrev main_call11_v3 : Ref sig .tc := ⟨.hbm, 410, rfl⟩
abbrev main_call11_v4 : Ref sig .tc := ⟨.hbm, 411, rfl⟩
abbrev main_call11_v5 : Ref sig .tc := ⟨.hbm, 412, rfl⟩
abbrev main_call11_v6 : Ref sig .tc := ⟨.hbm, 413, rfl⟩
abbrev main_call11_v7 : Ref sig .tc := ⟨.hbm, 414, rfl⟩
abbrev main_call11_cst_1 : Ref sig .tc := ⟨.hbm, 415, rfl⟩
abbrev main_call11_v8 : Ref sig .tc := ⟨.hbm, 416, rfl⟩
abbrev main_call11_cst_2 : Ref sig .tc := ⟨.hbm, 417, rfl⟩
abbrev main_call11_v9 : Ref sig .tc := ⟨.hbm, 418, rfl⟩
abbrev main_call11_v10 : Ref sig .tc := ⟨.hbm, 419, rfl⟩
abbrev main_call11_v11 : Ref sig .tc := ⟨.hbm, 420, rfl⟩
abbrev main_call11_cst_3 : Ref sig .tc := ⟨.hbm, 421, rfl⟩
abbrev main_call11_v12 : Ref sig .tc := ⟨.hbm, 422, rfl⟩
abbrev main_call11_cst_4 : Ref sig .tc := ⟨.hbm, 423, rfl⟩
abbrev main_call11_call0_v0 : Ref sig .tc := ⟨.hbm, 424, rfl⟩
abbrev main_call11_call0_v1 : Ref sig .tc := ⟨.hbm, 425, rfl⟩
abbrev main_v236 : Ref sig .tc := ⟨.hbm, 426, rfl⟩
abbrev main_v237 : Ref sig .tc := ⟨.hbm, 427, rfl⟩
abbrev main_v238 : Ref sig .tc := ⟨.hbm, 428, rfl⟩
abbrev main_v239 : Ref sig .tc := ⟨.hbm, 429, rfl⟩
abbrev main_cst_39 : Ref sig .tc := ⟨.hbm, 430, rfl⟩
abbrev main_v240 : Ref sig .tc := ⟨.hbm, 431, rfl⟩
abbrev main_v241 : Ref sig .tc := ⟨.hbm, 432, rfl⟩
abbrev main_v242 : Ref sig .tc := ⟨.hbm, 433, rfl⟩
abbrev main_v243 : Ref sig .tc := ⟨.hbm, 434, rfl⟩
abbrev main_v244 : Ref sig .tc := ⟨.hbm, 435, rfl⟩
abbrev main_v245 : Ref sig .tc := ⟨.hbm, 436, rfl⟩
abbrev main_v246 : Ref sig .tc := ⟨.hbm, 437, rfl⟩
abbrev main_v247 : Ref sig .tc := ⟨.hbm, 438, rfl⟩
abbrev main_v248 : Ref sig .tc := ⟨.hbm, 439, rfl⟩
abbrev main_v249 : Ref sig .tc := ⟨.hbm, 440, rfl⟩
abbrev main_v250 : Ref sig .tc := ⟨.hbm, 441, rfl⟩
abbrev main_v251 : Ref sig .tc := ⟨.hbm, 442, rfl⟩
abbrev main_v252 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_cst_40 : Ref sig .tc := ⟨.hbm, 447, rfl⟩
abbrev main_v256 : Ref sig .tc := ⟨.hbm, 448, rfl⟩
abbrev main_v257 : Ref sig .tc := ⟨.hbm, 449, rfl⟩
abbrev main_v258 : Ref sig .tc := ⟨.hbm, 450, rfl⟩
abbrev main_cst_41 : Ref sig .tc := ⟨.hbm, 451, rfl⟩
abbrev main_v259 : Ref sig .tc := ⟨.hbm, 452, rfl⟩
abbrev main_cst_42 : Ref sig .tc := ⟨.hbm, 453, rfl⟩
abbrev main_v260 : Ref sig .tc := ⟨.hbm, 454, rfl⟩
abbrev main_v261 : Ref sig .tc := ⟨.hbm, 455, rfl⟩
abbrev main_v262 : Ref sig .tc := ⟨.hbm, 456, rfl⟩
abbrev main_cst_43 : Ref sig .tc := ⟨.hbm, 457, rfl⟩
abbrev main_v263 : Ref sig .tc := ⟨.hbm, 458, rfl⟩
abbrev main_v264 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_v275 : Ref sig .tc := ⟨.hbm, 470, rfl⟩
abbrev main_call12_cst : Ref sig .tc := ⟨.hbm, 471, rfl⟩
abbrev main_call12_v0 : Ref sig .tc := ⟨.hbm, 472, rfl⟩
abbrev main_call12_cst_0 : Ref sig .tc := ⟨.hbm, 473, rfl⟩
abbrev main_call12_v1 : Ref sig .tc := ⟨.hbm, 474, rfl⟩
abbrev main_call12_v2 : Ref sig .tc := ⟨.hbm, 475, rfl⟩
abbrev main_call12_v3 : Ref sig .tc := ⟨.hbm, 476, rfl⟩
abbrev main_call12_v4 : Ref sig .tc := ⟨.hbm, 477, rfl⟩
abbrev main_call12_v5 : Ref sig .tc := ⟨.hbm, 478, rfl⟩
abbrev main_call12_v6 : Ref sig .tc := ⟨.hbm, 479, rfl⟩
abbrev main_call12_cst_1 : Ref sig .tc := ⟨.hbm, 480, rfl⟩
abbrev main_call12_v7 : Ref sig .tc := ⟨.hbm, 481, rfl⟩
abbrev main_call12_v8 : Ref sig .tc := ⟨.hbm, 482, rfl⟩
abbrev main_call12_v9 : Ref sig .tc := ⟨.hbm, 483, rfl⟩
abbrev main_call12_v10 : Ref sig .tc := ⟨.hbm, 484, rfl⟩
abbrev main_v276 : Ref sig .tc := ⟨.hbm, 485, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S6x128x128_S1x128x128_0_0_0 : S6x128x128.Slices ![0, 0, 0] S1x128x128
  shapeCasts_S1x128x128_S128x128 : S1x128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  reducesTo_S64x4_S64_d1 : S64x4.ReducesTo [1] S64
  bcast_S64x1_S64x4_0_1 : S64x1.BroadcastsInDim S64x4 (![0, 1] : Fin 2 → Fin S64x4.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x4_S64x4_1_0_0_1_n_n_wf : DotDims.WF S64x64 S64x4 S64x4 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf

class Facts : Prop extends Facts₀ where

variable [Facts]
-- ==== Proof.K.RegM0.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile, fetched at every point): its current staging buffer holds its block at every point,
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only): its staging buffer holds its block at
    every point, fetched there or not — unfetched, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row tile. -/
abbrev r0_0 : Rect S5000x128 := Rect.unit (s := S5000x128) ![0, 0] S5000x128.size inb_S5000x128_S5000x128_0_0
/-- The whole weight matrix. -/
abbrev r0_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out0_2 (x0 : Vec F S5000x128 .f32) (x1 : Vec F S128x128 .f32) : Vec F S5000x128 .f32 :=
  View.canon [⟨r0_0, k0_pay1 (View.ld x0 r0_0) (View.ld x1 r0_1)⟩]

/-- The one store is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents x0, x1 and the output's at anything, runs to
    the continuation holding the inputs' as they were and the output's at out0_2 of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Nothing is owed at any point. -/
theorem owed0 (c : Dev nD) (t) : (dat0 V c).owed t = 0 := rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out -/

/-- Entry: the generator register at some state and the scoped rest are the region's invariant at the first point. -/
theorem hin0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Exit: the invariant at the last point gives them back. -/
theorem hout0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.Kernel.Hand
-- ==== Proof.K.RegS1.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB1 : Rect S5000x128 := Rect.unit (s := S5000x128) ![0, 0] S5000x128.size inb_S5000x128_S5000x128_0_0
/-- The whole (1,128) row. -/
abbrev rS1 : Rect S1x128 := Rect.unit (s := S1x128) ![0, 0] S1x128.size inb_S1x128_S1x128_0_0

/-! ## The body's branch conditions -/

/-- The first conditional's condition (the point is the first of the grid). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional's condition (the point is the last of the grid). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## What the body leaves, as closed terms over the payloads -/

/-- Window 2's buffer after the body: the pointwise maximum with zero of (tile + bias row). -/
def out1_2 (x0 : Vec F S5000x128 .f32) (x1 : Vec F S1x128 .f32) : Vec F S5000x128 .f32 :=
  View.canon [⟨rB1, k1_pay3 (View.ld x0 rB1) (View.ld x1 rS1)⟩]

/-- The sum accumulator after the first point: zeroed, then the tile's column sums added. -/
def sA1_0 (x0 : Vec F S5000x128 .f32) (x1 : Vec F S1x128 .f32) : Vec F S1x128 .f32 :=
  View.canon [⟨rS1, k1_pay4 (View.ld x0 rB1) (View.ld x1 rS1) (k1_pay1 (F := F))⟩, ⟨rS1, k1_pay1 (F := F)⟩]
/-- The sum-of-squares accumulator after the first point. -/
def sA1_1 (x0 : Vec F S5000x128 .f32) (x1 : Vec F S1x128 .f32) : Vec F S1x128 .f32 :=
  View.canon [⟨rS1, k1_pay5 (View.ld x0 rB1) (View.ld x1 rS1) (k1_pay2 (F := F))⟩, ⟨rS1, k1_pay2 (F := F)⟩]
/-- The sum accumulator after a later point, from what the point before left (`s`). -/
def sB1_0 (x0 : Vec F S5000x128 .f32) (x1 : Vec F S1x128 .f32) (s : Vec F S1x128 .f32) : Vec F S1x128 .f32 :=
  View.canon [⟨rS1, k1_pay4 (View.ld x0 rB1) (View.ld x1 rS1) (View.ld s rS1)⟩]
/-- The sum-of-squares accumulator after a later point, from what the point before left. -/
def sB1_1 (x0 : Vec F S5000x128 .f32) (x1 : Vec F S1x128 .f32) (s : Vec F S1x128 .f32) : Vec F S1x128 .f32 :=
  View.canon [⟨rS1, k1_pay5 (View.ld x0 rB1) (View.ld x1 rS1) (View.ld s rS1)⟩]
/-- Windows 3 and 4's buffers after the last point: the accumulators as that point leaves them. -/
abbrev out1_3 (x0 : Vec F S5000x128 .f32) (x1 : Vec F S1x128 .f32) (s : Vec F S1x128 .f32) : Vec F S1x128 .f32 := sB1_0 x0 x1 s
abbrev out1_4 (x0 : Vec F S5000x128 .f32) (x1 : Vec F S1x128 .f32) (s : Vec F S1x128 .f32) : Vec F S1x128 .f32 := sB1_1 x0 x1 s

theorem coverB1 (p0 : Vec F S5000x128 .f32) (y : S5000x128.Idx) :
    ∃ pc ∈ ([⟨rB1, p0⟩] : List (View.Piece (Elt F) S5000x128 .f32)), y ∈ pc.1.set :=
  View.cover_of_tiled [⟨rB1, p0⟩] S5000x128.size (by rfl) y
theorem coverS1 (p0 : Vec F S1x128 .f32) (y : S1x128.Idx) :
    ∃ pc ∈ ([⟨rS1, p0⟩] : List (View.Piece (Elt F) S1x128 .f32)), y ∈ pc.1.set :=
  View.cover_of_tiled [⟨rS1, p0⟩] S1x128.size (by rfl) y
theorem coverS1' (p0 p1 : Vec F S1x128 .f32) (y : S1x128.Idx) :
    ∃ pc ∈ ([⟨rS1, p0⟩, ⟨rS1, p1⟩] : List (View.Piece (Elt F) S1x128 .f32)), y ∈ pc.1.set := by
  obtain ⟨pc, hm, hy⟩ := coverS1 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel1_A (c : Dev nD) (E : Set ℕ) (i : grid1.Coords) (hc0 : cond1_0 i) (hc1 : ¬cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare y3 ∗ owns (c : Thread nD τ) arg5 fullShare y4
            ∗ owns (c : Thread nD τ) arg6 fullShare (sA1_0 x0 x1) ∗ owns (c : Thread nD τ) arg7 fullShare (sA1_1 x0 x1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS1' (F := F) _ _)
  iexists _; isplitr
  swap; · iexact H7
  ipureintro; sl_unfold_run_names; rw [View.readCov_cons_toLoadRect]; exact View.read_writes_eq_canon _ _ _ (coverS1' (F := F) _ _)

set_option maxHeartbeats 2000000 in
/-- A MIDDLE POINT: both accumulators, at what the point before left, are added to; windows 3 and 4 are left as found. -/
theorem sound_kernel1_B (c : Dev nD) (E : Set ℕ) (i : grid1.Coords) (hc0 : ¬cond1_0 i) (hc1 : ¬cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare y3 ∗ owns (c : Thread nD τ) arg5 fullShare y4
            ∗ owns (c : Thread nD τ) arg6 fullShare (sB1_0 x0 x1 s0) ∗ owns (c : Thread nD τ) arg7 fullShare (sB1_1 x0 x1 s1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS1 (F := F) _)
  iexists _; isplitr
  swap; · iexact H7
  ipureintro; exact View.read_writes_eq_canon _ _ _ (coverS1 (F := F) _)

set_option maxHeartbeats 2000000 in
/-- THE LAST POINT: both accumulators are added to and then copied into windows 3 and 4, held at anything. -/
theorem sound_kernel1_C (c : Dev nD) (E : Set ℕ) (i : grid1.Coords) (hc0 : ¬cond1_0 i) (hc1 : cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare (sB1_0 x0 x1 s0) ∗ owns (c : Thread nD τ) arg5 fullShare (sB1_1 x0 x1 s1)
            ∗ owns (c : Thread nD τ) arg6 fullShare (sB1_0 x0 x1 s0) ∗ owns (c : Thread nD τ) arg7 fullShare (sB1_1 x0 x1 s1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists _; isplitr
    swap; · iexact H3
    ipureintro; sl_unfold_run_names; rw [View.readCov_cons_toLoadRect]; exact View.read_writes_eq_canon _ _ _ (coverS1 (F := F) _)
  isplitl [H4]
  · iexists _; isplitr
    swap; · iexact H4
    ipureintro; sl_unfold_run_names; rw [View.readCov_cons_toLoadRect]; exact View.read_writes_eq_canon _ _ _ (coverS1 (F := F) _)
  isplitl [H6]
  · iexists _; isplitr
    swap; · iexact H6
    ipureintro; sl_unfold_run_names; exact View.read_writes_eq_canon _ _ _ (coverS1 (F := F) _)
  iexists _; isplitr
  swap; · iexact H7
  ipureintro; sl_unfold_run_names; exact View.read_writes_eq_canon _ _ _ (coverS1 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, fetched at the first point only: its block index never moves) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two carried accumulators -/

/-- The two accumulator operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- THE ACCUMULATION. What the two accumulators (the column sums and the column sums of squares of the tiles so far)
    hold after the body at position `n`: zeroed and added to at the first point, added to at every later one. -/
def souts1 (c : Dev nD) : (n : ℕ) → n < cfg1.N → Vec F S1x128 .f32 × Vec F S1x128 .f32
  | 0, hn => (sA1_0 (iblk1 V c 0 ⟨0, hn⟩) (iblk1 V c 1 ⟨0, hn⟩), sA1_1 (iblk1 V c 0 ⟨0, hn⟩) (iblk1 V c 1 ⟨0, hn⟩))
  | n + 1, hn =>
    (sB1_0 (iblk1 V c 0 ⟨n + 1, hn⟩) (iblk1 V c 1 ⟨n + 1, hn⟩) (souts1 c n (Nat.lt_of_succ_lt hn)).1,
     sB1_1 (iblk1 V c 0 ⟨n + 1, hn⟩) (iblk1 V c 1 ⟨n + 1, hn⟩) (souts1 c n (Nat.lt_of_succ_lt hn)).2)

theorem souts1_zero (c : Dev nD) (t : Fin cfg1.N) (h0 : t.val = 0) :
    souts1 V c t.val t.isLt = (sA1_0 (iblk1 V c 0 t) (iblk1 V c 1 t), sA1_1 (iblk1 V c 0 t) (iblk1 V c 1 t)) := by
  obtain ⟨n, hn⟩ := t
  cases n with
  | zero => exact rfl
  | succ n => exact absurd h0 (Nat.succ_ne_zero _)

theorem souts1_pos (c : Dev nD) (t : Fin cfg1.N) (h0 : t.val ≠ 0) :
    souts1 V c t.val t.isLt =
      (sB1_0 (iblk1 V c 0 t) (iblk1 V c 1 t) (souts1 V c (t.val - 1) (Nat.lt_of_le_of_lt (Nat.sub_le _ _) t.isLt)).1,
       sB1_1 (iblk1 V c 0 t) (iblk1 V c 1 t) (souts1 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts1`), the rest of the scoped rest unopened, and the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((owns (c : Thread nD τ) scM1_0 fullShare (souts1 V c n hn).1 ∗ owns (c : Thread nD τ) scM1_1 fullShare (souts1 V c n hn).2)
      ∗ Pipeline.scopedRestBut (Ix := Unit) (Name := ℕ) (U := UR sig nD τ) (Lvl := ℕ) (Val := Elt F) spec1 c [cc1_scratch0, cc1_scratch1] ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop((owns (c : Thread nD τ) scM1_0 fullShare (souts1 V c n hn).1 ∗ owns (c : Thread nD τ) scM1_1 fullShare (souts1 V c n hn).2)
      ∗ Pipeline.scopedRestBut (Ix := Unit) (Name := ℕ) (U := UR sig nD τ) (Lvl := ℕ) (Val := Elt F) spec1 c [cc1_scratch0, cc1_scratch1] ∗ (∃ r, prngReg c r)) := rfl

theorem PhiS1_pos (c : Dev nD) (n : ℕ) (h : n ≤ cfg1.N) (hz : n ≠ 0) :
    PhiS1 V c n h = iprop((owns (c : Thread nD τ) scM1_0 fullShare (souts1 V c (n - 1) (by omega)).1 ∗ owns (c : Thread nD τ) scM1_1 fullShare (souts1 V c (n - 1) (by omega)).2)
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-- The scoped rest with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => (souts1 V c t.val t.isLt).1
    | ⟨4, _⟩ => (souts1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = (souts1 V c t.val t.isLt).1 := by dsimp only [dat1]
theorem after1_4 (c : Dev nD) (t : Fin cfg1.N) : (dat1 V c).after 4 t = (souts1 V c t.val t.isLt).2 := by dsimp only [dat1]

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Entry and exit -/

/-- What the launch hands the region is the invariant before the first point. -/
theorem hin1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives them back: the accumulators' named contents are forgotten. -/
theorem hout1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 20 = 0
  · have hz : t.val = 0 := by omega
    have hnc1 : ¬cond1_1 (grid1.coords t) := fun h => by have := (hcond1_1 t).mp h; omega
    rw [Dat.leavesExact_idle (dat1 V c) 3 t (idleAt1_3 t hnc1) (noFlush1_3 t hnc1),
      Dat.leavesExact_idle (dat1 V c) 4 t (idleAt1_4 t hnc1) (noFlush1_4 t hnc1)]
    rw [souts1_zero V c t hz]
    dsimp only
    rw [PhiS1_castSucc V c t, PhiS1_zero V c _ _ hz, scopedRest1_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel1_A c Set.univ (grid1.coords t) ((hcond1_0 t).mpr h0) hnc1 _ _ _ _ _ _ _ _ _ _ _ _ _ _ (iblk1 V c 0 t) (iblk1 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond1_0 (grid1.coords t) := fun h => h0 ((hcond1_0 t).mp h)
    by_cases h1 : t.val % 20 = 19
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [souts1_pos V c t hz]
      dsimp only
      rw [PhiS1_castSucc V c t, PhiS1_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel1_C c Set.univ (grid1.coords t) hnc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond1_1 (grid1.coords t) := fun h => h1 ((hcond1_1 t).mp h)
      rw [Dat.leavesExact_idle (dat1 V c) 3 t (idleAt1_3 t hnc1) (noFlush1_3 t hnc1),
        Dat.leavesExact_idle (dat1 V c) 4 t (idleAt1_4 t hnc1) (noFlush1_4 t hnc1)]
      rw [souts1_pos V c t hz]
      dsimp only
      rw [PhiS1_castSucc V c t, PhiS1_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel1_B c Set.univ (grid1.coords t) hnc0 hnc1 _ _ _ _ _ _ _ _ _ _ _ _ _ _ (iblk1 V c 0 t) (iblk1 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.RegB2.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out2_5 (x0 : Vec F S5000x128 .f32) (x1 x2 x3 x4 : Vec F S1x128 .f32) : Vec F S5000x128 .f32 :=
  View.canon [⟨r2_0, k2_pay1 (View.ld x2 r2_1) (View.ld x0 r2_0) (View.ld x1 r2_1) (View.ld x3 r2_1) (View.ld x4 r2_1)⟩]

/-- The store tiles the buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Nothing is owed at any point. -/
theorem owed2 (c : Dev nD) (t) : (dat2 V c).owed t = 0 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the region's invariant and out -/

/-- Entry: the generator register at some state and the scoped rest make the invariant at the first point. -/
theorem hin2 (c : Dev nD) :
    (iprop((∃ r, prngReg c r) ∗ Pipeline.scopedRest (Ix := Unit) (Name := ℕ) (U := UR sig nD τ) (Lvl := ℕ) spec2 c) : sProp 𝕄)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Exit: the invariant at the last point gives them back. -/
theorem hout2 (c : Dev nD) :
    (dat2 V c).Φ (Fin.last cfg2.N)
      ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = Pipeline.ΦA spec2 c from rfl]; unfold Pipeline.ΦA
  iintro ⟨Hr, Hp⟩
  isplitl [Hp]; · iexact Hp
  iexact Hr

end Cert.Kernel.Hand
-- ==== Proof.K.RegM3.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row tile, fetched at every point): its current staging buffer holds its block at every point,
    for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole weight matrix, fetched at the first point only): its staging buffer holds its block at
    every point, fetched there or not — unfetched, the block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole row tile. -/
abbrev r3_0 : Rect S5000x128 := Rect.unit (s := S5000x128) ![0, 0] S5000x128.size inb_S5000x128_S5000x128_0_0
/-- The whole weight matrix. -/
abbrev r3_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out3_2 (x0 : Vec F S5000x128 .f32) (x1 : Vec F S128x128 .f32) : Vec F S5000x128 .f32 :=
  View.canon [⟨r3_0, k3_pay1 (View.ld x0 r3_0) (View.ld x1 r3_1)⟩]

/-- The one store is the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents x0, x1 and the output's at anything, runs to
    the continuation holding the inputs' as they were and the output's at out3_2 of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 0 on core c: the arrays as the region finds them (V); after the body at point t each
    input's buffer at its block and the output's at out3_2 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Nothing is owed at any point. -/
theorem owed3 (c : Dev nD) (t) : (dat3 V c).owed t = 0 := rfl

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out -/

/-- Entry: the generator register at some state and the scoped rest are the region's invariant at the first point. -/
theorem hin3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Exit: the invariant at the last point gives them back. -/
theorem hout3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.Kernel.Hand
-- ==== Proof.K.RegS4.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB4 : Rect S5000x128 := Rect.unit (s := S5000x128) ![0, 0] S5000x128.size inb_S5000x128_S5000x128_0_0
/-- The whole (1,128) row. -/
abbrev rS4 : Rect S1x128 := Rect.unit (s := S1x128) ![0, 0] S1x128.size inb_S1x128_S1x128_0_0

/-! ## The body's branch conditions -/

/-- The first conditional's condition (the point is the first of the grid). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)
/-- The second conditional's condition (the point is the last of the grid). -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## What the body leaves, as closed terms over the payloads -/

/-- Window 2's buffer after the body: the pointwise maximum with zero of (tile + bias row). -/
def out4_2 (x0 : Vec F S5000x128 .f32) (x1 : Vec F S1x128 .f32) : Vec F S5000x128 .f32 :=
  View.canon [⟨rB4, k4_pay3 (View.ld x0 rB4) (View.ld x1 rS4)⟩]

/-- The sum accumulator after the first point: zeroed, then the tile's column sums added. -/
def sA4_0 (x0 : Vec F S5000x128 .f32) (x1 : Vec F S1x128 .f32) : Vec F S1x128 .f32 :=
  View.canon [⟨rS4, k4_pay4 (View.ld x0 rB4) (View.ld x1 rS4) (k4_pay1 (F := F))⟩, ⟨rS4, k4_pay1 (F := F)⟩]
/-- The sum-of-squares accumulator after the first point. -/
def sA4_1 (x0 : Vec F S5000x128 .f32) (x1 : Vec F S1x128 .f32) : Vec F S1x128 .f32 :=
  View.canon [⟨rS4, k4_pay5 (View.ld x0 rB4) (View.ld x1 rS4) (k4_pay2 (F := F))⟩, ⟨rS4, k4_pay2 (F := F)⟩]
/-- The sum accumulator after a later point, from what the point before left (`s`). -/
def sB4_0 (x0 : Vec F S5000x128 .f32) (x1 : Vec F S1x128 .f32) (s : Vec F S1x128 .f32) : Vec F S1x128 .f32 :=
  View.canon [⟨rS4, k4_pay4 (View.ld x0 rB4) (View.ld x1 rS4) (View.ld s rS4)⟩]
/-- The sum-of-squares accumulator after a later point, from what the point before left. -/
def sB4_1 (x0 : Vec F S5000x128 .f32) (x1 : Vec F S1x128 .f32) (s : Vec F S1x128 .f32) : Vec F S1x128 .f32 :=
  View.canon [⟨rS4, k4_pay5 (View.ld x0 rB4) (View.ld x1 rS4) (View.ld s rS4)⟩]
/-- Windows 3 and 4's buffers after the last point: the accumulators as that point leaves them. -/
abbrev out4_3 (x0 : Vec F S5000x128 .f32) (x1 : Vec F S1x128 .f32) (s : Vec F S1x128 .f32) : Vec F S1x128 .f32 := sB4_0 x0 x1 s
abbrev out4_4 (x0 : Vec F S5000x128 .f32) (x1 : Vec F S1x128 .f32) (s : Vec F S1x128 .f32) : Vec F S1x128 .f32 := sB4_1 x0 x1 s

theorem coverB4 (p0 : Vec F S5000x128 .f32) (y : S5000x128.Idx) :
    ∃ pc ∈ ([⟨rB4, p0⟩] : List (View.Piece (Elt F) S5000x128 .f32)), y ∈ pc.1.set :=
  View.cover_of_tiled [⟨rB4, p0⟩] S5000x128.size (by rfl) y
theorem coverS4 (p0 : Vec F S1x128 .f32) (y : S1x128.Idx) :
    ∃ pc ∈ ([⟨rS4, p0⟩] : List (View.Piece (Elt F) S1x128 .f32)), y ∈ pc.1.set :=
  View.cover_of_tiled [⟨rS4, p0⟩] S1x128.size (by rfl) y
theorem coverS4' (p0 p1 : Vec F S1x128 .f32) (y : S1x128.Idx) :
    ∃ pc ∈ ([⟨rS4, p0⟩, ⟨rS4, p1⟩] : List (View.Piece (Elt F) S1x128 .f32)), y ∈ pc.1.set := by
  obtain ⟨pc, hm, hy⟩ := coverS4 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel4_A (c : Dev nD) (E : Set ℕ) (i : grid4.Coords) (hc0 : cond4_0 i) (hc1 : ¬cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare y3 ∗ owns (c : Thread nD τ) arg5 fullShare y4
            ∗ owns (c : Thread nD τ) arg6 fullShare (sA4_0 x0 x1) ∗ owns (c : Thread nD τ) arg7 fullShare (sA4_1 x0 x1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS4' (F := F) _ _)
  iexists _; isplitr
  swap; · iexact H7
  ipureintro; sl_unfold_run_names; rw [View.readCov_cons_toLoadRect]; exact View.read_writes_eq_canon _ _ _ (coverS4' (F := F) _ _)

set_option maxHeartbeats 2000000 in
/-- A MIDDLE POINT: both accumulators, at what the point before left, are added to; windows 3 and 4 are left as found. -/
theorem sound_kernel4_B (c : Dev nD) (E : Set ℕ) (i : grid4.Coords) (hc0 : ¬cond4_0 i) (hc1 : ¬cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare y3 ∗ owns (c : Thread nD τ) arg5 fullShare y4
            ∗ owns (c : Thread nD τ) arg6 fullShare (sB4_0 x0 x1 s0) ∗ owns (c : Thread nD τ) arg7 fullShare (sB4_1 x0 x1 s1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS4 (F := F) _)
  iexists _; isplitr
  swap; · iexact H7
  ipureintro; exact View.read_writes_eq_canon _ _ _ (coverS4 (F := F) _)

set_option maxHeartbeats 2000000 in
/-- THE LAST POINT: both accumulators are added to and then copied into windows 3 and 4, held at anything. -/
theorem sound_kernel4_C (c : Dev nD) (E : Set ℕ) (i : grid4.Coords) (hc0 : ¬cond4_0 i) (hc1 : cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare (sB4_0 x0 x1 s0) ∗ owns (c : Thread nD τ) arg5 fullShare (sB4_1 x0 x1 s1)
            ∗ owns (c : Thread nD τ) arg6 fullShare (sB4_0 x0 x1 s0) ∗ owns (c : Thread nD τ) arg7 fullShare (sB4_1 x0 x1 s1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists _; isplitr
    swap; · iexact H3
    ipureintro; sl_unfold_run_names; rw [View.readCov_cons_toLoadRect]; exact View.read_writes_eq_canon _ _ _ (coverS4 (F := F) _)
  isplitl [H4]
  · iexists _; isplitr
    swap; · iexact H4
    ipureintro; sl_unfold_run_names; rw [View.readCov_cons_toLoadRect]; exact View.read_writes_eq_canon _ _ _ (coverS4 (F := F) _)
  isplitl [H6]
  · iexists _; isplitr
    swap; · iexact H6
    ipureintro; sl_unfold_run_names; exact View.read_writes_eq_canon _ _ _ (coverS4 (F := F) _)
  iexists _; isplitr
  swap; · iexact H7
  ipureintro; sl_unfold_run_names; exact View.read_writes_eq_canon _ _ _ (coverS4 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, fetched at the first point only: its block index never moves) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two carried accumulators -/

/-- The two accumulator operands: whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-- THE ACCUMULATION. What the two accumulators (the column sums and the column sums of squares of the tiles so far)
    hold after the body at position `n`: zeroed and added to at the first point, added to at every later one. -/
def souts4 (c : Dev nD) : (n : ℕ) → n < cfg4.N → Vec F S1x128 .f32 × Vec F S1x128 .f32
  | 0, hn => (sA4_0 (iblk4 V c 0 ⟨0, hn⟩) (iblk4 V c 1 ⟨0, hn⟩), sA4_1 (iblk4 V c 0 ⟨0, hn⟩) (iblk4 V c 1 ⟨0, hn⟩))
  | n + 1, hn =>
    (sB4_0 (iblk4 V c 0 ⟨n + 1, hn⟩) (iblk4 V c 1 ⟨n + 1, hn⟩) (souts4 c n (Nat.lt_of_succ_lt hn)).1,
     sB4_1 (iblk4 V c 0 ⟨n + 1, hn⟩) (iblk4 V c 1 ⟨n + 1, hn⟩) (souts4 c n (Nat.lt_of_succ_lt hn)).2)

theorem souts4_zero (c : Dev nD) (t : Fin cfg4.N) (h0 : t.val = 0) :
    souts4 V c t.val t.isLt = (sA4_0 (iblk4 V c 0 t) (iblk4 V c 1 t), sA4_1 (iblk4 V c 0 t) (iblk4 V c 1 t)) := by
  obtain ⟨n, hn⟩ := t
  cases n with
  | zero => exact rfl
  | succ n => exact absurd h0 (Nat.succ_ne_zero _)

theorem souts4_pos (c : Dev nD) (t : Fin cfg4.N) (h0 : t.val ≠ 0) :
    souts4 V c t.val t.isLt =
      (sB4_0 (iblk4 V c 0 t) (iblk4 V c 1 t) (souts4 V c (t.val - 1) (Nat.lt_of_le_of_lt (Nat.sub_le _ _) t.isLt)).1,
       sB4_1 (iblk4 V c 0 t) (iblk4 V c 1 t) (souts4 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts4`), the rest of the scoped rest unopened, and the generator register at some state. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((owns (c : Thread nD τ) scM4_0 fullShare (souts4 V c n hn).1 ∗ owns (c : Thread nD τ) scM4_1 fullShare (souts4 V c n hn).2)
      ∗ Pipeline.scopedRestBut (Ix := Unit) (Name := ℕ) (U := UR sig nD τ) (Lvl := ℕ) (Val := Elt F) spec4 c [cc4_scratch0, cc4_scratch1] ∗ (∃ r, prngReg c r))

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) spec4 c) := by
  subst hz; rfl

theorem PhiS4_succ (c : Dev nD) (n : ℕ) (hn : n < cfg4.N) :
    PhiS4 V c (n + 1) hn = iprop((owns (c : Thread nD τ) scM4_0 fullShare (souts4 V c n hn).1 ∗ owns (c : Thread nD τ) scM4_1 fullShare (souts4 V c n hn).2)
      ∗ Pipeline.scopedRestBut (Ix := Unit) (Name := ℕ) (U := UR sig nD τ) (Lvl := ℕ) (Val := Elt F) spec4 c [cc4_scratch0, cc4_scratch1] ∗ (∃ r, prngReg c r)) := rfl

theorem PhiS4_pos (c : Dev nD) (n : ℕ) (h : n ≤ cfg4.N) (hz : n ≠ 0) :
    PhiS4 V c n h = iprop((owns (c : Thread nD τ) scM4_0 fullShare (souts4 V c (n - 1) (by omega)).1 ∗ owns (c : Thread nD τ) scM4_1 fullShare (souts4 V c (n - 1) (by omega)).2)
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-- The scoped rest with the two accumulators as memrefs owned at some contents. -/
theorem scopedRest4_owns (c : Dev nD) :
    (Pipeline.scopedRest (Ix := Unit) (Name := ℕ) (U := UR sig nD τ) (Lvl := ℕ) (Val := Elt F) spec4 c : sProp 𝕄)
      = iprop(((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => (souts4 V c t.val t.isLt).1
    | ⟨4, _⟩ => (souts4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = (souts4 V c t.val t.isLt).1 := by dsimp only [dat4]
theorem after4_4 (c : Dev nD) (t : Fin cfg4.N) : (dat4 V c).after 4 t = (souts4 V c t.val t.isLt).2 := by dsimp only [dat4]

theorem owed4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Entry and exit -/

/-- What the launch hands the region is the invariant before the first point. -/
theorem hin4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the accumulators' named contents are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  by_cases h0 : t.val % 20 = 0
  · have hz : t.val = 0 := by omega
    have hnc1 : ¬cond4_1 (grid4.coords t) := fun h => by have := (hcond4_1 t).mp h; omega
    rw [Dat.leavesExact_idle (dat4 V c) 3 t (idleAt4_3 t hnc1) (noFlush4_3 t hnc1),
      Dat.leavesExact_idle (dat4 V c) 4 t (idleAt4_4 t hnc1) (noFlush4_4 t hnc1)]
    rw [souts4_zero V c t hz]
    dsimp only
    rw [PhiS4_castSucc V c t, PhiS4_zero V c _ _ hz, scopedRest4_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel4_A c Set.univ (grid4.coords t) ((hcond4_0 t).mpr h0) hnc1 _ _ _ _ _ _ _ _ _ _ _ _ _ _ (iblk4 V c 0 t) (iblk4 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond4_0 (grid4.coords t) := fun h => h0 ((hcond4_0 t).mp h)
    by_cases h1 : t.val % 20 = 19
    · have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [souts4_pos V c t hz]
      dsimp only
      rw [PhiS4_castSucc V c t, PhiS4_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_C c Set.univ (grid4.coords t) hnc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond4_1 (grid4.coords t) := fun h => h1 ((hcond4_1 t).mp h)
      rw [Dat.leavesExact_idle (dat4 V c) 3 t (idleAt4_3 t hnc1) (noFlush4_3 t hnc1),
        Dat.leavesExact_idle (dat4 V c) 4 t (idleAt4_4 t hnc1) (noFlush4_4 t hnc1)]
      rw [souts4_pos V c t hz]
      dsimp only
      rw [PhiS4_castSucc V c t, PhiS4_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_B c Set.univ (grid4.coords t) hnc0 hnc1 _ _ _ _ _ _ _ _ _ _ _ _ _ _ (iblk4 V c 0 t) (iblk4 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.RegB5.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out5_5 (x0 : Vec F S5000x128 .f32) (x1 x2 x3 x4 : Vec F S1x128 .f32) : Vec F S5000x128 .f32 :=
  View.canon [⟨r5_0, k5_pay1 (View.ld x2 r5_1) (View.ld x0 r5_0) (View.ld x1 r5_1) (View.ld x3 r5_1) (View.ld x4 r5_1)⟩]

/-- The store tiles the buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 2 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Nothing is owed at any point. -/
theorem owed5 (c : Dev nD) (t) : (dat5 V c).owed t = 0 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in
/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the region's invariant and out -/

/-- Entry: the generator register at some state and the scoped rest make the invariant at the first point. -/
theorem hin5 (c : Dev nD) :
    (iprop((∃ r, prngReg c r) ∗ Pipeline.scopedRest (Ix := Unit) (Name := ℕ) (U := UR sig nD τ) (Lvl := ℕ) spec5 c) : sProp 𝕄)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Exit: the invariant at the last point gives them back. -/
theorem hout5 (c : Dev nD) :
    (dat5 V c).Φ (Fin.last cfg5.N)
      ⊢ (iprop((∃ r, prngReg c r) ∗ Pipeline.scopedRest (Ix := Unit) (Name := ℕ) (U := UR sig nD τ) (Lvl := ℕ) spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.Kernel.Hand
-- ==== Proof.K.RegM6.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row tile, fetched at every point): its current staging buffer holds its block at every point,
    for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole weight matrix, fetched at the first point only): its staging buffer holds its block at
    every point, fetched there or not — unfetched, the block index has not moved and the body left the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole row tile. -/
abbrev r6_0 : Rect S5000x128 := Rect.unit (s := S5000x128) ![0, 0] S5000x128.size inb_S5000x128_S5000x128_0_0
/-- The whole weight matrix. -/
abbrev r6_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out6_2 (x0 : Vec F S5000x128 .f32) (x1 : Vec F S128x128 .f32) : Vec F S5000x128 .f32 :=
  View.canon [⟨r6_0, k6_pay1 (View.ld x0 r6_0) (View.ld x1 r6_1)⟩]

/-- The one store is the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents x0, x1 and the output's at anything, runs to
    the continuation holding the inputs' as they were and the output's at out6_2 of the inputs'. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 0 on core c: the arrays as the region finds them (V); after the body at point t each
    input's buffer at its block and the output's at out6_2 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Nothing is owed at any point. -/
theorem owed6 (c : Dev nD) (t) : (dat6 V c).owed t = 0 := rfl

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out -/

/-- Entry: the generator register at some state and the scoped rest are the region's invariant at the first point. -/
theorem hin6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- Exit: the invariant at the last point gives them back. -/
theorem hout6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last _) = Pipeline.ΦA spec6 c from rfl]; unfold Pipeline.ΦA
  iintro ⟨Hr, Hp⟩
  isplitl [Hp]; · iexact Hp
  iexact Hr

end Cert.Kernel.Hand
-- ==== Proof.K.RegS7.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB7 : Rect S5000x128 := Rect.unit (s := S5000x128) ![0, 0] S5000x128.size inb_S5000x128_S5000x128_0_0
/-- The whole (1,128) row. -/
abbrev rS7 : Rect S1x128 := Rect.unit (s := S1x128) ![0, 0] S1x128.size inb_S1x128_S1x128_0_0

/-! ## The body's branch conditions -/

/-- The first conditional's condition (the point is the first of the grid). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 20 = 0 :=
  (by decide +kernel : ∀ t : Fin grid7.N, cond7_0 (grid7.coords t) ↔ t.val % 20 = 0)
/-- The second conditional's condition (the point is the last of the grid). -/
abbrev cond7_1 (i : grid7.Coords) : Prop := k7_cond2 i = 1#1
theorem hcond7_1 : ∀ t : Fin cfg7.N, cond7_1 (grid7.coords t) ↔ t.val % 20 = 19 :=
  (by decide +kernel : ∀ t : Fin grid7.N, cond7_1 (grid7.coords t) ↔ t.val % 20 = 19)

/-! ## What the body leaves, as closed terms over the payloads -/

/-- Window 2's buffer after the body: the pointwise maximum with zero of (tile + bias row). -/
def out7_2 (x0 : Vec F S5000x128 .f32) (x1 : Vec F S1x128 .f32) : Vec F S5000x128 .f32 :=
  View.canon [⟨rB7, k7_pay3 (View.ld x0 rB7) (View.ld x1 rS7)⟩]

/-- The sum accumulator after the first point: zeroed, then the tile's column sums added. -/
def sA7_0 (x0 : Vec F S5000x128 .f32) (x1 : Vec F S1x128 .f32) : Vec F S1x128 .f32 :=
  View.canon [⟨rS7, k7_pay4 (View.ld x0 rB7) (View.ld x1 rS7) (k7_pay1 (F := F))⟩, ⟨rS7, k7_pay1 (F := F)⟩]
/-- The sum-of-squares accumulator after the first point. -/
def sA7_1 (x0 : Vec F S5000x128 .f32) (x1 : Vec F S1x128 .f32) : Vec F S1x128 .f32 :=
  View.canon [⟨rS7, k7_pay5 (View.ld x0 rB7) (View.ld x1 rS7) (k7_pay2 (F := F))⟩, ⟨rS7, k7_pay2 (F := F)⟩]
/-- The sum accumulator after a later point, from what the point before left (`s`). -/
def sB7_0 (x0 : Vec F S5000x128 .f32) (x1 : Vec F S1x128 .f32) (s : Vec F S1x128 .f32) : Vec F S1x128 .f32 :=
  View.canon [⟨rS7, k7_pay4 (View.ld x0 rB7) (View.ld x1 rS7) (View.ld s rS7)⟩]
/-- The sum-of-squares accumulator after a later point, from what the point before left. -/
def sB7_1 (x0 : Vec F S5000x128 .f32) (x1 : Vec F S1x128 .f32) (s : Vec F S1x128 .f32) : Vec F S1x128 .f32 :=
  View.canon [⟨rS7, k7_pay5 (View.ld x0 rB7) (View.ld x1 rS7) (View.ld s rS7)⟩]
/-- Windows 3 and 4's buffers after the last point: the accumulators as that point leaves them. -/
abbrev out7_3 (x0 : Vec F S5000x128 .f32) (x1 : Vec F S1x128 .f32) (s : Vec F S1x128 .f32) : Vec F S1x128 .f32 := sB7_0 x0 x1 s
abbrev out7_4 (x0 : Vec F S5000x128 .f32) (x1 : Vec F S1x128 .f32) (s : Vec F S1x128 .f32) : Vec F S1x128 .f32 := sB7_1 x0 x1 s

theorem coverB7 (p0 : Vec F S5000x128 .f32) (y : S5000x128.Idx) :
    ∃ pc ∈ ([⟨rB7, p0⟩] : List (View.Piece (Elt F) S5000x128 .f32)), y ∈ pc.1.set :=
  View.cover_of_tiled [⟨rB7, p0⟩] S5000x128.size (by rfl) y
theorem coverS7 (p0 : Vec F S1x128 .f32) (y : S1x128.Idx) :
    ∃ pc ∈ ([⟨rS7, p0⟩] : List (View.Piece (Elt F) S1x128 .f32)), y ∈ pc.1.set :=
  View.cover_of_tiled [⟨rS7, p0⟩] S1x128.size (by rfl) y
theorem coverS7' (p0 p1 : Vec F S1x128 .f32) (y : S1x128.Idx) :
    ∃ pc ∈ ([⟨rS7, p0⟩, ⟨rS7, p1⟩] : List (View.Piece (Elt F) S1x128 .f32)), y ∈ pc.1.set := by
  obtain ⟨pc, hm, hy⟩ := coverS7 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel7_A (c : Dev nD) (E : Set ℕ) (i : grid7.Coords) (hc0 : cond7_0 i) (hc1 : ¬cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare y3 ∗ owns (c : Thread nD τ) arg5 fullShare y4
            ∗ owns (c : Thread nD τ) arg6 fullShare (sA7_0 x0 x1) ∗ owns (c : Thread nD τ) arg7 fullShare (sA7_1 x0 x1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS7' (F := F) _ _)
  iexists _; isplitr
  swap; · iexact H7
  ipureintro; sl_unfold_run_names; rw [View.readCov_cons_toLoadRect]; exact View.read_writes_eq_canon _ _ _ (coverS7' (F := F) _ _)

set_option maxHeartbeats 2000000 in
/-- A MIDDLE POINT: both accumulators, at what the point before left, are added to; windows 3 and 4 are left as found. -/
theorem sound_kernel7_B (c : Dev nD) (E : Set ℕ) (i : grid7.Coords) (hc0 : ¬cond7_0 i) (hc1 : ¬cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare y3 ∗ owns (c : Thread nD τ) arg5 fullShare y4
            ∗ owns (c : Thread nD τ) arg6 fullShare (sB7_0 x0 x1 s0) ∗ owns (c : Thread nD τ) arg7 fullShare (sB7_1 x0 x1 s1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS7 (F := F) _)
  iexists _; isplitr
  swap; · iexact H7
  ipureintro; exact View.read_writes_eq_canon _ _ _ (coverS7 (F := F) _)

set_option maxHeartbeats 2000000 in
/-- THE LAST POINT: both accumulators are added to and then copied into windows 3 and 4, held at anything. -/
theorem sound_kernel7_C (c : Dev nD) (E : Set ℕ) (i : grid7.Coords) (hc0 : ¬cond7_0 i) (hc1 : cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare (sB7_0 x0 x1 s0) ∗ owns (c : Thread nD τ) arg5 fullShare (sB7_1 x0 x1 s1)
            ∗ owns (c : Thread nD τ) arg6 fullShare (sB7_0 x0 x1 s0) ∗ owns (c : Thread nD τ) arg7 fullShare (sB7_1 x0 x1 s1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists _; isplitr
    swap; · iexact H3
    ipureintro; sl_unfold_run_names; rw [View.readCov_cons_toLoadRect]; exact View.read_writes_eq_canon _ _ _ (coverS7 (F := F) _)
  isplitl [H4]
  · iexists _; isplitr
    swap; · iexact H4
    ipureintro; sl_unfold_run_names; rw [View.readCov_cons_toLoadRect]; exact View.read_writes_eq_canon _ _ _ (coverS7 (F := F) _)
  isplitl [H6]
  · iexists _; isplitr
    swap; · iexact H6
    ipureintro; sl_unfold_run_names; exact View.read_writes_eq_canon _ _ _ (coverS7 (F := F) _)
  iexists _; isplitr
  swap; · iexact H7
  ipureintro; sl_unfold_run_names; exact View.read_writes_eq_canon _ _ _ (coverS7 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is `V`'s and
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, fetched at the first point only: its block index never moves) likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two carried accumulators -/

/-- The two accumulator operands: whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-- THE ACCUMULATION. What the two accumulators (the column sums and the column sums of squares of the tiles so far)
    hold after the body at position `n`: zeroed and added to at the first point, added to at every later one. -/
def souts7 (c : Dev nD) : (n : ℕ) → n < cfg7.N → Vec F S1x128 .f32 × Vec F S1x128 .f32
  | 0, hn => (sA7_0 (iblk7 V c 0 ⟨0, hn⟩) (iblk7 V c 1 ⟨0, hn⟩), sA7_1 (iblk7 V c 0 ⟨0, hn⟩) (iblk7 V c 1 ⟨0, hn⟩))
  | n + 1, hn =>
    (sB7_0 (iblk7 V c 0 ⟨n + 1, hn⟩) (iblk7 V c 1 ⟨n + 1, hn⟩) (souts7 c n (Nat.lt_of_succ_lt hn)).1,
     sB7_1 (iblk7 V c 0 ⟨n + 1, hn⟩) (iblk7 V c 1 ⟨n + 1, hn⟩) (souts7 c n (Nat.lt_of_succ_lt hn)).2)

theorem souts7_zero (c : Dev nD) (t : Fin cfg7.N) (h0 : t.val = 0) :
    souts7 V c t.val t.isLt = (sA7_0 (iblk7 V c 0 t) (iblk7 V c 1 t), sA7_1 (iblk7 V c 0 t) (iblk7 V c 1 t)) := by
  obtain ⟨n, hn⟩ := t
  cases n with
  | zero => exact rfl
  | succ n => exact absurd h0 (Nat.succ_ne_zero _)

theorem souts7_pos (c : Dev nD) (t : Fin cfg7.N) (h0 : t.val ≠ 0) :
    souts7 V c t.val t.isLt =
      (sB7_0 (iblk7 V c 0 t) (iblk7 V c 1 t) (souts7 V c (t.val - 1) (Nat.lt_of_le_of_lt (Nat.sub_le _ _) t.isLt)).1,
       sB7_1 (iblk7 V c 0 t) (iblk7 V c 1 t) (souts7 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts7`), the rest of the scoped rest unopened, and the generator register at some state. -/
def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) spec7 c)
  | n + 1, hn => iprop((owns (c : Thread nD τ) scM7_0 fullShare (souts7 V c n hn).1 ∗ owns (c : Thread nD τ) scM7_1 fullShare (souts7 V c n hn).2)
      ∗ Pipeline.scopedRestBut (Ix := Unit) (Name := ℕ) (U := UR sig nD τ) (Lvl := ℕ) (Val := Elt F) spec7 c [cc7_scratch0, cc7_scratch1] ∗ (∃ r, prngReg c r))

theorem PhiS7_zero (c : Dev nD) (n : ℕ) (h : n ≤ cfg7.N) (hz : n = 0) :
    PhiS7 V c n h = iprop((∃ r, prngReg c r) ∗ Pipeline.scopedRest (Ix := Unit) (Name := ℕ) (U := UR sig nD τ) (Lvl := ℕ) spec7 c) := by
  subst hz; rfl

theorem PhiS7_succ (c : Dev nD) (n : ℕ) (hn : n < cfg7.N) :
    PhiS7 V c (n + 1) hn = iprop((owns (c : Thread nD τ) scM7_0 fullShare (souts7 V c n hn).1 ∗ owns (c : Thread nD τ) scM7_1 fullShare (souts7 V c n hn).2)
      ∗ Pipeline.scopedRestBut (Ix := Unit) (Name := ℕ) (U := UR sig nD τ) (Lvl := ℕ) (Val := Elt F) spec7 c [cc7_scratch0, cc7_scratch1] ∗ (∃ r, prngReg c r)) := rfl

theorem PhiS7_pos (c : Dev nD) (n : ℕ) (h : n ≤ cfg7.N) (hz : n ≠ 0) :
    PhiS7 V c n h = iprop((owns (c : Thread nD τ) scM7_0 fullShare (souts7 V c (n - 1) (by omega)).1 ∗ owns (c : Thread nD τ) scM7_1 fullShare (souts7 V c (n - 1) (by omega)).2)
      ∗ Pipeline.scopedRestBut (Ix := Unit) (Name := ℕ) (U := UR sig nD τ) (Lvl := ℕ) (Val := Elt F) spec7 c [cc7_scratch0, cc7_scratch1] ∗ (∃ r, prngReg c r)) := by
  cases n with
  | zero => exact absurd rfl hz
  | succ n => rfl

/-- The scoped rest with the two accumulators as memrefs owned at some contents. -/
theorem scopedRest7_owns (c : Dev nD) :
    (Pipeline.scopedRest (Ix := Unit) (Name := ℕ) (U := UR sig nD τ) (Lvl := ℕ) (Val := Elt F) spec7 c : sProp 𝕄)
      = iprop(((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
    | ⟨3, _⟩ => (souts7 V c t.val t.isLt).1
    | ⟨4, _⟩ => (souts7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem after7_3 (c : Dev nD) (t : Fin cfg7.N) : (dat7 V c).after 3 t = (souts7 V c t.val t.isLt).1 := by dsimp only [dat7]
theorem after7_4 (c : Dev nD) (t : Fin cfg7.N) : (dat7 V c).after 4 t = (souts7 V c t.val t.isLt).2 := by dsimp only [dat7]

theorem owed7 (c : Dev nD) (t : Fin (cfg7.N + 1)) : (dat7 V c).owed t = 0 := rfl

theorem PhiS7_castSucc (c : Dev nD) (t : Fin cfg7.N) :
    (dat7 V c).Φ t.castSucc = PhiS7 V c t.val (Nat.le_of_lt t.isLt) := by
  dsimp only [dat7]; simp only [Fin.coe_castSucc]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## Entry and exit -/

/-- What the launch hands the region is the invariant before the first point. -/
theorem hin7 (c : Dev nD) :
    (iprop((∃ r, prngReg c r) ∗ Pipeline.scopedRest (Ix := Unit) (Name := ℕ) (U := UR sig nD τ) (Lvl := ℕ) spec7 c) : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives them back: the accumulators' named contents are forgotten. -/
theorem hout7 (c : Dev nD) :
    (dat7 V c).Φ (Fin.last cfg7.N) ⊢ (iprop((∃ r, prngReg c r) ∗ Pipeline.scopedRest (Ix := Unit) (Name := ℕ) (U := UR sig nD τ) (Lvl := ℕ) spec7 c) : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 20 := N_7; omega), scopedRest7_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem idleAt7_4 : ∀ t : Fin cfg7.N, ¬cond7_1 (grid7.coords t) → cfg7.idle 4 (grid7.coords t) = true := by decide +kernel
theorem noFlush7_3 : ∀ t : Fin cfg7.N, ¬cond7_1 (grid7.coords t) → (cfg7.win 3).flush t = false := by decide +kernel
theorem noFlush7_4 : ∀ t : Fin cfg7.N, ¬cond7_1 (grid7.coords t) → (cfg7.win 4).flush t = false := by decide +kernel
theorem liveAt7_3 : ∀ t : Fin cfg7.N, cond7_1 (grid7.coords t) → cfg7.idle 3 (grid7.coords t) = false := by decide +kernel
theorem liveAt7_4 : ∀ t : Fin cfg7.N, cond7_1 (grid7.coords t) → cfg7.idle 4 (grid7.coords t) = false := by decide +kernel

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  by_cases h0 : t.val % 20 = 0
  · have hz : t.val = 0 := by omega
    have hnc1 : ¬cond7_1 (grid7.coords t) := fun h => by have := (hcond7_1 t).mp h; omega
    rw [Dat.leavesExact_idle (dat7 V c) 3 t (idleAt7_3 t hnc1) (noFlush7_3 t hnc1),
      Dat.leavesExact_idle (dat7 V c) 4 t (idleAt7_4 t hnc1) (noFlush7_4 t hnc1)]
    rw [souts7_zero V c t hz]
    dsimp only
    rw [PhiS7_castSucc V c t, PhiS7_zero V c _ _ hz, scopedRest7_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel7_A c Set.univ (grid7.coords t) ((hcond7_0 t).mpr h0) hnc1 _ _ _ _ _ _ _ _ _ _ _ _ _ _ (iblk7 V c 0 t) (iblk7 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond7_0 (grid7.coords t) := fun h => h0 ((hcond7_0 t).mp h)
    by_cases h1 : t.val % 20 = 19
    · have hc1 : cond7_1 (grid7.coords t) := (hcond7_1 t).mpr h1
      rw [show (dat7 V c).leavesExact 3 t = owns (c : Thread nD τ) (st7_3 t) fullShare ((dat7 V c).after 3 t) from by
        unfold Dat.leavesExact; rw [liveAt7_3 t hc1], after7_3]
      rw [show (dat7 V c).leavesExact 4 t = owns (c : Thread nD τ) (st7_4 t) fullShare ((dat7 V c).after 4 t) from by
        unfold Dat.leavesExact; rw [liveAt7_4 t hc1], after7_4]
      rw [souts7_pos V c t hz]
      dsimp only
      rw [PhiS7_castSucc V c t, PhiS7_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel7_C c Set.univ (grid7.coords t) hnc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond7_1 (grid7.coords t) := fun h => h1 ((hcond7_1 t).mp h)
      rw [Dat.leavesExact_idle (dat7 V c) 3 t (idleAt7_3 t hnc1) (noFlush7_3 t hnc1),
        Dat.leavesExact_idle (dat7 V c) 4 t (idleAt7_4 t hnc1) (noFlush7_4 t hnc1)]
      rw [souts7_pos V c t hz]
      dsimp only
      rw [PhiS7_castSucc V c t, PhiS7_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel7_B c Set.univ (grid7.coords t) hnc0 hnc1 _ _ _ _ _ _ _ _ _ _ _ _ _ _ (iblk7 V c 0 t) (iblk7 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.Kernel.Hand

end
-- ==== Proof.K.RegB8.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: unfetched, the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: unfetched, the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S5000x128 := Rect.unit (s := S5000x128) ![0, 0] S5000x128.size inb_S5000x128_S5000x128_0_0
abbrev r8_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out8_5 (x0 : Vec F S5000x128 .f32) (x1 x2 x3 x4 : Vec F S1x128 .f32) : Vec F S5000x128 .f32 :=
  View.canon [⟨r8_0, k8_pay1 (View.ld x2 r8_1) (View.ld x0 r8_0) (View.ld x1 r8_1) (View.ld x3 r8_1) (View.ld x4 r8_1)⟩]

/-- The store tiles the buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents `xW` and the output's at anything, runs to
    the continuation holding the inputs' as they were and the output's at `out8_5` of the inputs'. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 2 on core `c`: the arrays as the region finds them (`V`); after the body at point
    `t` each input's buffer at its block and the output's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t =
    out8_5 (iblk8 V c 0 t) (iblk8 V c 1 t) (iblk8 V c 2 t) (iblk8 V c 3 t) (iblk8 V c 4 t) := by dsimp only [dat8]

/-- Nothing is owed at any point. -/
theorem owed8 (c : Dev nD) (t) : (dat8 V c).owed t = 0 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

set_option maxHeartbeats 1000000 in
/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the region's invariant and out -/

/-- Entry: the generator register at some state and the scoped rest make the invariant at the first point. -/
theorem hin8 (c : Dev nD) :
    (iprop((∃ r, prngReg c r) ∗ Pipeline.scopedRest (Ix := Unit) (Name := ℕ) (U := UR sig nD τ) (Lvl := ℕ) spec8 c) : sProp 𝕄)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Exit: the invariant at the last point gives them back. -/
theorem hout8 (c : Dev nD) :
    (dat8 V c).Φ (Fin.last cfg8.N)
      ⊢ (iprop((∃ r, prngReg c r) ∗ Pipeline.scopedRest (Ix := Unit) (Name := ℕ) (U := UR sig nD τ) (Lvl := ℕ) spec8 c) : sProp 𝕄) := by
  rw [show (dat8 V c).Φ (Fin.last cfg8.N) = Pipeline.ΦA spec8 c from rfl]; unfold Pipeline.ΦA
  iintro ⟨Hr, Hp⟩
  isplitl [Hp]; · iexact Hp
  iexact Hr

end Cert.Kernel.Hand
-- ==== Proof.K.RegM9.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row tile, fetched at every point): its current staging buffer holds its block at every point,
    for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the whole weight matrix, fetched at the first point only): its staging buffer holds its block at
    every point, fetched there or not — unfetched, the block index has not moved and the body left the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole row tile. -/
abbrev r9_0 : Rect S5000x128 := Rect.unit (s := S5000x128) ![0, 0] S5000x128.size inb_S5000x128_S5000x128_0_0
/-- The whole weight matrix. -/
abbrev r9_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out9_2 (x0 : Vec F S5000x128 .f32) (x1 : Vec F S128x128 .f32) : Vec F S5000x128 .f32 :=
  View.canon [⟨r9_0, k9_pay1 (View.ld x0 r9_0) (View.ld x1 r9_1)⟩]

/-- The one store is the whole buffer, so it covers it. -/
theorem cover9_2 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at read contents x0, x1 and the output's at anything, runs to
    the continuation holding the inputs' as they were and the output's at out9_2 of the inputs'. -/
theorem sound_kernel9 (c : Dev nD) (E : Set ℕ) (i : grid9.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 0 on core c: the arrays as the region finds them (V); after the body at point t each
    input's buffer at its block and the output's at out9_2 of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Nothing is owed at any point. -/
theorem owed9 (c : Dev nD) (t) : (dat9 V c).owed t = 0 := rfl

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## Into the invariant and out -/

/-- Entry: the generator register at some state and the scoped rest are the region's invariant at the first point. -/
theorem hin9 (c : Dev nD) :
    (iprop((∃ r, prngReg c r) ∗ Pipeline.scopedRest (Ix := Unit) (Name := ℕ) (U := UR sig nD τ) (Lvl := ℕ) (Val := Elt F) spec9 c) : sProp 𝕄)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- Exit: the invariant at the last point gives them back. -/
theorem hout9 (c : Dev nD) :
    (dat9 V c).Φ (Fin.last cfg9.N)
      ⊢ (iprop((∃ r, prngReg c r) ∗ Pipeline.scopedRest (Ix := Unit) (Name := ℕ) (U := UR sig nD τ) (Lvl := ℕ) (Val := Elt F) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

end Cert.Kernel.Hand
-- ==== Proof.K.RegS10.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB10 : Rect S5000x128 := Rect.unit (s := S5000x128) ![0, 0] S5000x128.size inb_S5000x128_S5000x128_0_0
/-- The whole (1,128) row. -/
abbrev rS10 : Rect S1x128 := Rect.unit (s := S1x128) ![0, 0] S1x128.size inb_S1x128_S1x128_0_0

/-! ## The body's branch conditions -/

/-- The first conditional's condition (the point is the first of the grid). -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 20 = 0 :=
  (by decide +kernel : ∀ t : Fin grid10.N, cond10_0 (grid10.coords t) ↔ t.val % 20 = 0)
/-- The second conditional's condition (the point is the last of the grid). -/
abbrev cond10_1 (i : grid10.Coords) : Prop := k10_cond2 i = 1#1
theorem hcond10_1 : ∀ t : Fin cfg10.N, cond10_1 (grid10.coords t) ↔ t.val % 20 = 19 :=
  (by decide +kernel : ∀ t : Fin grid10.N, cond10_1 (grid10.coords t) ↔ t.val % 20 = 19)

/-! ## What the body leaves, as closed terms over the payloads -/

/-- Window 2's buffer after the body: the pointwise maximum with zero of (tile + bias row). -/
def out10_2 (x0 : Vec F S5000x128 .f32) (x1 : Vec F S1x128 .f32) : Vec F S5000x128 .f32 :=
  View.canon [⟨rB10, k10_pay3 (View.ld x0 rB10) (View.ld x1 rS10)⟩]

/-- The sum accumulator after the first point: zeroed, then the tile's column sums added. -/
def sA10_0 (x0 : Vec F S5000x128 .f32) (x1 : Vec F S1x128 .f32) : Vec F S1x128 .f32 :=
  View.canon [⟨rS10, k10_pay4 (View.ld x0 rB10) (View.ld x1 rS10) (k10_pay1 (F := F))⟩, ⟨rS10, k10_pay1 (F := F)⟩]
/-- The sum-of-squares accumulator after the first point. -/
def sA10_1 (x0 : Vec F S5000x128 .f32) (x1 : Vec F S1x128 .f32) : Vec F S1x128 .f32 :=
  View.canon [⟨rS10, k10_pay5 (View.ld x0 rB10) (View.ld x1 rS10) (k10_pay2 (F := F))⟩, ⟨rS10, k10_pay2 (F := F)⟩]
/-- The sum accumulator after a later point, from what the point before left (`s`). -/
def sB10_0 (x0 : Vec F S5000x128 .f32) (x1 : Vec F S1x128 .f32) (s : Vec F S1x128 .f32) : Vec F S1x128 .f32 :=
  View.canon [⟨rS10, k10_pay4 (View.ld x0 rB10) (View.ld x1 rS10) (View.ld s rS10)⟩]
/-- The sum-of-squares accumulator after a later point, from what the point before left. -/
def sB10_1 (x0 : Vec F S5000x128 .f32) (x1 : Vec F S1x128 .f32) (s : Vec F S1x128 .f32) : Vec F S1x128 .f32 :=
  View.canon [⟨rS10, k10_pay5 (View.ld x0 rB10) (View.ld x1 rS10) (View.ld s rS10)⟩]
/-- Windows 3 and 4's buffers after the last point: the accumulators as that point leaves them. -/
abbrev out10_3 (x0 : Vec F S5000x128 .f32) (x1 : Vec F S1x128 .f32) (s : Vec F S1x128 .f32) : Vec F S1x128 .f32 := sB10_0 x0 x1 s
abbrev out10_4 (x0 : Vec F S5000x128 .f32) (x1 : Vec F S1x128 .f32) (s : Vec F S1x128 .f32) : Vec F S1x128 .f32 := sB10_1 x0 x1 s

theorem coverB10 (p0 : Vec F S5000x128 .f32) (y : S5000x128.Idx) :
    ∃ pc ∈ ([⟨rB10, p0⟩] : List (View.Piece (Elt F) S5000x128 .f32)), y ∈ pc.1.set :=
  View.cover_of_tiled [⟨rB10, p0⟩] S5000x128.size (by rfl) y
theorem coverS10 (p0 : Vec F S1x128 .f32) (y : S1x128.Idx) :
    ∃ pc ∈ ([⟨rS10, p0⟩] : List (View.Piece (Elt F) S1x128 .f32)), y ∈ pc.1.set :=
  View.cover_of_tiled [⟨rS10, p0⟩] S1x128.size (by rfl) y
theorem coverS10' (p0 p1 : Vec F S1x128 .f32) (y : S1x128.Idx) :
    ∃ pc ∈ ([⟨rS10, p0⟩, ⟨rS10, p1⟩] : List (View.Piece (Elt F) S1x128 .f32)), y ∈ pc.1.set := by
  obtain ⟨pc, hm, hy⟩ := coverS10 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel10_A (c : Dev nD) (E : Set ℕ) (i : grid10.Coords) (hc0 : cond10_0 i) (hc1 : ¬cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare y3 ∗ owns (c : Thread nD τ) arg5 fullShare y4
            ∗ owns (c : Thread nD τ) arg6 fullShare (sA10_0 x0 x1) ∗ owns (c : Thread nD τ) arg7 fullShare (sA10_1 x0 x1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS10' (F := F) _ _)
  iexists _; isplitr
  swap; · iexact H7
  ipureintro; sl_unfold_run_names; rw [View.readCov_cons_toLoadRect]; exact View.read_writes_eq_canon _ _ _ (coverS10' (F := F) _ _)

set_option maxHeartbeats 2000000 in
/-- A MIDDLE POINT: both accumulators, at what the point before left, are added to; windows 3 and 4 are left as found. -/
theorem sound_kernel10_B (c : Dev nD) (E : Set ℕ) (i : grid10.Coords) (hc0 : ¬cond10_0 i) (hc1 : ¬cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare y3 ∗ owns (c : Thread nD τ) arg5 fullShare y4
            ∗ owns (c : Thread nD τ) arg6 fullShare (sB10_0 x0 x1 s0) ∗ owns (c : Thread nD τ) arg7 fullShare (sB10_1 x0 x1 s1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS10 (F := F) _)
  iexists _; isplitr
  swap; · iexact H7
  ipureintro; exact View.read_writes_eq_canon _ _ _ (coverS10 (F := F) _)

set_option maxHeartbeats 2000000 in
/-- THE LAST POINT: both accumulators are added to and then copied into windows 3 and 4, held at anything. -/
theorem sound_kernel10_C (c : Dev nD) (E : Set ℕ) (i : grid10.Coords) (hc0 : ¬cond10_0 i) (hc1 : cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare (sB10_0 x0 x1 s0) ∗ owns (c : Thread nD τ) arg5 fullShare (sB10_1 x0 x1 s1)
            ∗ owns (c : Thread nD τ) arg6 fullShare (sB10_0 x0 x1 s0) ∗ owns (c : Thread nD τ) arg7 fullShare (sB10_1 x0 x1 s1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists _; isplitr
    swap; · iexact H3
    ipureintro; sl_unfold_run_names; rw [View.readCov_cons_toLoadRect]; exact View.read_writes_eq_canon _ _ _ (coverS10 (F := F) _)
  isplitl [H4]
  · iexists _; isplitr
    swap; · iexact H4
    ipureintro; sl_unfold_run_names; rw [View.readCov_cons_toLoadRect]; exact View.read_writes_eq_canon _ _ _ (coverS10 (F := F) _)
  isplitl [H6]
  · iexists _; isplitr
    swap; · iexact H6
    ipureintro; sl_unfold_run_names; exact View.read_writes_eq_canon _ _ _ (coverS10 (F := F) _)
  iexists _; isplitr
  swap; · iexact H7
  ipureintro; sl_unfold_run_names; exact View.read_writes_eq_canon _ _ _ (coverS10 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is `V`'s and
    whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the bias row, fetched at the first point only: its block index never moves) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The two carried accumulators -/

/-- The two accumulator operands: whole scoped buffers of the kernel's own, passed beside the windows. -/
abbrev scM10_0 : Memref sig .tc .vmem S1x128 .f32 := Memref.whole cc10_scratch0
abbrev scM10_1 : Memref sig .tc .vmem S1x128 .f32 := Memref.whole cc10_scratch1

/-- THE ACCUMULATION. What the two accumulators (the column sums and the column sums of squares of the tiles so far)
    hold after the body at position `n`: zeroed and added to at the first point, added to at every later one. -/
def souts10 (c : Dev nD) : (n : ℕ) → n < cfg10.N → Vec F S1x128 .f32 × Vec F S1x128 .f32
  | 0, hn => (sA10_0 (iblk10 V c 0 ⟨0, hn⟩) (iblk10 V c 1 ⟨0, hn⟩), sA10_1 (iblk10 V c 0 ⟨0, hn⟩) (iblk10 V c 1 ⟨0, hn⟩))
  | n + 1, hn =>
    (sB10_0 (iblk10 V c 0 ⟨n + 1, hn⟩) (iblk10 V c 1 ⟨n + 1, hn⟩) (souts10 c n (Nat.lt_of_succ_lt hn)).1,
     sB10_1 (iblk10 V c 0 ⟨n + 1, hn⟩) (iblk10 V c 1 ⟨n + 1, hn⟩) (souts10 c n (Nat.lt_of_succ_lt hn)).2)

theorem souts10_zero (c : Dev nD) (t : Fin cfg10.N) (h0 : t.val = 0) :
    souts10 V c t.val t.isLt = (sA10_0 (iblk10 V c 0 t) (iblk10 V c 1 t), sA10_1 (iblk10 V c 0 t) (iblk10 V c 1 t)) := by
  obtain ⟨n, hn⟩ := t
  cases n with
  | zero => exact rfl
  | succ n => exact absurd h0 (Nat.succ_ne_zero _)

theorem souts10_pos (c : Dev nD) (t : Fin cfg10.N) (h0 : t.val ≠ 0) :
    souts10 V c t.val t.isLt =
      (sB10_0 (iblk10 V c 0 t) (iblk10 V c 1 t) (souts10 V c (t.val - 1) (Nat.lt_of_le_of_lt (Nat.sub_le _ _) t.isLt)).1,
       sB10_1 (iblk10 V c 0 t) (iblk10 V c 1 t) (souts10 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts10`), the rest of the scoped rest unopened, and the generator register at some state. -/
def PhiS10 (c : Dev nD) : (n : ℕ) → n ≤ cfg10.N → sProp 𝕄
  | 0, _ => iprop((∃ r, prngReg c r) ∗ Pipeline.scopedRest (Ix := Unit) (Name := ℕ) (U := UR sig nD τ) (Lvl := ℕ) spec10 c)
  | n + 1, hn => iprop((owns (c : Thread nD τ) scM10_0 fullShare (souts10 V c n hn).1 ∗ owns (c : Thread nD τ) scM10_1 fullShare (souts10 V c n hn).2)
      ∗ Pipeline.scopedRestBut (Ix := Unit) (Name := ℕ) (U := UR sig nD τ) (Lvl := ℕ) (Val := Elt F) spec10 c [cc10_scratch0, cc10_scratch1] ∗ (∃ r, prngReg c r))

theorem PhiS10_zero (c : Dev nD) (n : ℕ) (h : n ≤ cfg10.N) (hz : n = 0) :
    PhiS10 V c n h = iprop((∃ r, prngReg c r) ∗ Pipeline.scopedRest (Ix := Unit) (Name := ℕ) (U := UR sig nD τ) (Lvl := ℕ) spec10 c) := by
  subst hz; rfl

theorem PhiS10_succ (c : Dev nD) (n : ℕ) (hn : n < cfg10.N) :
    PhiS10 V c (n + 1) hn = iprop((owns (c : Thread nD τ) scM10_0 fullShare (souts10 V c n hn).1 ∗ owns (c : Thread nD τ) scM10_1 fullShare (souts10 V c n hn).2)
      ∗ Pipeline.scopedRestBut (Ix := Unit) (Name := ℕ) (U := UR sig nD τ) (Lvl := ℕ) (Val := Elt F) spec10 c [cc10_scratch0, cc10_scratch1] ∗ (∃ r, prngReg c r)) := rfl

theorem PhiS10_pos (c : Dev nD) (n : ℕ) (h : n ≤ cfg10.N) (hz : n ≠ 0) :
    PhiS10 V c n h = iprop((owns (c : Thread nD τ) scM10_0 fullShare (souts10 V c (n - 1) (by omega)).1 ∗ owns (c : Thread nD τ) scM10_1 fullShare (souts10 V c (n - 1) (by omega)).2)
      ∗ Pipeline.scopedRestBut (Ix := Unit) (Name := ℕ) (U := UR sig nD τ) (Lvl := ℕ) (Val := Elt F) spec10 c [cc10_scratch0, cc10_scratch1] ∗ (∃ r, prngReg c r)) := by
  cases n with
  | zero => exact absurd rfl hz
  | succ n => rfl

/-- The scoped rest with the two accumulators as memrefs owned at some contents. -/
theorem scopedRest10_owns (c : Dev nD) :
    (Pipeline.scopedRest (Ix := Unit) (Name := ℕ) (U := UR sig nD τ) (Lvl := ℕ) (Val := Elt F) spec10 c : sProp 𝕄)
      = iprop(((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) := by
  rw [scopedRest10_split]; simp only [scM10_0, scM10_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS10`;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
    | ⟨3, _⟩ => (souts10 V c t.val t.isLt).1
    | ⟨4, _⟩ => (souts10 V c t.val t.isLt).2
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]
theorem after10_3 (c : Dev nD) (t : Fin cfg10.N) : (dat10 V c).after 3 t = (souts10 V c t.val t.isLt).1 := by dsimp only [dat10]
theorem after10_4 (c : Dev nD) (t : Fin cfg10.N) : (dat10 V c).after 4 t = (souts10 V c t.val t.isLt).2 := by dsimp only [dat10]

theorem owed10 (c : Dev nD) (t : Fin (cfg10.N + 1)) : (dat10 V c).owed t = 0 := rfl

theorem PhiS10_castSucc (c : Dev nD) (t : Fin cfg10.N) :
    (dat10 V c).Φ t.castSucc = PhiS10 V c t.val (Nat.le_of_lt t.isLt) := by
  dsimp only [dat10]; simp only [Fin.coe_castSucc]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## Entry and exit -/

/-- What the launch hands the region is the invariant before the first point. -/
theorem hin10 (c : Dev nD) :
    (iprop((∃ r, prngReg c r) ∗ Pipeline.scopedRest (Ix := Unit) (Name := ℕ) (U := UR sig nD τ) (Lvl := ℕ) spec10 c) : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives them back: the accumulators' named contents are forgotten. -/
theorem hout10 (c : Dev nD) :
    (dat10 V c).Φ (Fin.last cfg10.N) ⊢ (iprop((∃ r, prngReg c r) ∗ Pipeline.scopedRest (Ix := Unit) (Name := ℕ) (U := UR sig nD τ) (Lvl := ℕ) spec10 c) : sProp 𝕄) := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 20 := N_10; omega), scopedRest10_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem idleAt10_4 : ∀ t : Fin cfg10.N, ¬cond10_1 (grid10.coords t) → cfg10.idle 4 (grid10.coords t) = true := by decide +kernel
theorem noFlush10_3 : ∀ t : Fin cfg10.N, ¬cond10_1 (grid10.coords t) → (cfg10.win 3).flush t = false := by decide +kernel
theorem noFlush10_4 : ∀ t : Fin cfg10.N, ¬cond10_1 (grid10.coords t) → (cfg10.win 4).flush t = false := by decide +kernel
theorem liveAt10_3 : ∀ t : Fin cfg10.N, cond10_1 (grid10.coords t) → cfg10.idle 3 (grid10.coords t) = false := by decide +kernel
theorem liveAt10_4 : ∀ t : Fin cfg10.N, cond10_1 (grid10.coords t) → cfg10.idle 4 (grid10.coords t) = false := by decide +kernel

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 20 := lt_of_lt_of_eq t.isLt (show cfg10.N = 20 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  by_cases h0 : t.val % 20 = 0
  · have hz : t.val = 0 := by omega
    have hnc1 : ¬cond10_1 (grid10.coords t) := fun h => by have := (hcond10_1 t).mp h; omega
    rw [Dat.leavesExact_idle (dat10 V c) 3 t (idleAt10_3 t hnc1) (noFlush10_3 t hnc1),
      Dat.leavesExact_idle (dat10 V c) 4 t (idleAt10_4 t hnc1) (noFlush10_4 t hnc1)]
    rw [souts10_zero V c t hz]
    dsimp only
    rw [PhiS10_castSucc V c t, PhiS10_zero V c _ _ hz, scopedRest10_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel10_A c Set.univ (grid10.coords t) ((hcond10_0 t).mpr h0) hnc1 _ _ _ _ _ _ _ _ _ _ _ _ _ _ (iblk10 V c 0 t) (iblk10 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond10_0 (grid10.coords t) := fun h => h0 ((hcond10_0 t).mp h)
    by_cases h1 : t.val % 20 = 19
    · have hc1 : cond10_1 (grid10.coords t) := (hcond10_1 t).mpr h1
      rw [show (dat10 V c).leavesExact 3 t = owns (c : Thread nD τ) (st10_3 t) fullShare ((dat10 V c).after 3 t) from by
        unfold Dat.leavesExact; rw [liveAt10_3 t hc1], after10_3]
      rw [show (dat10 V c).leavesExact 4 t = owns (c : Thread nD τ) (st10_4 t) fullShare ((dat10 V c).after 4 t) from by
        unfold Dat.leavesExact; rw [liveAt10_4 t hc1], after10_4]
      rw [souts10_pos V c t hz]
      dsimp only
      rw [PhiS10_castSucc V c t, PhiS10_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel10_C c Set.univ (grid10.coords t) hnc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond10_1 (grid10.coords t) := fun h => h1 ((hcond10_1 t).mp h)
      rw [Dat.leavesExact_idle (dat10 V c) 3 t (idleAt10_3 t hnc1) (noFlush10_3 t hnc1),
        Dat.leavesExact_idle (dat10 V c) 4 t (idleAt10_4 t hnc1) (noFlush10_4 t hnc1)]
      rw [souts10_pos V c t hz]
      dsimp only
      rw [PhiS10_castSucc V c t, PhiS10_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel10_B c Set.univ (grid10.coords t) hnc0 hnc1 _ _ _ _ _ _ _ _ _ _ _ _ _ _ (iblk10 V c 0 t) (iblk10 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region

end Cert.Kernel.Hand

end
-- ==== Proof.K.RegB11.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s and whose body leaves the block in place: unfetched, the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s and whose body leaves the block in place: unfetched, the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s and whose body leaves the block in place: unfetched, the block index has not moved. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s and whose body leaves the block in place: unfetched, the block index has not moved. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s and whose body leaves the block in place: unfetched, the block index has not moved. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x128 := Rect.unit (s := S5000x128) ![0, 0] S5000x128.size inb_S5000x128_S5000x128_0_0
abbrev r11_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out11_5 (x0 : Vec F S5000x128 .f32) (x1 x2 x3 x4 : Vec F S1x128 .f32) : Vec F S5000x128 .f32 :=
  View.canon [⟨r11_0, k11_pay1 (View.ld x2 r11_1) (View.ld x0 r11_0) (View.ld x1 r11_1) (View.ld x3 r11_1) (View.ld x4 r11_1)⟩]

/-- The store tiles the buffer, so it covers it. -/
theorem cover11_5 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E
          (cc11__bn_kernel i arg1 harg1 arg2 harg2 arg3 harg3 arg4 harg4 arg5 harg5 arg6 harg6) K := by
  simp only [cc11__bn_kernel_eq_skeleton]; unfold cc11__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 2 on core `c`: the arrays as the region finds them (`V`); after the body at point
    `t` each input's buffer at its block and the output's at `out11_5` of the input blocks; the invariant the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out11_5 (iblk11 V c 0 t) (iblk11 V c 1 t) (iblk11 V c 2 t) (iblk11 V c 3 t) (iblk11 V c 4 t) := by dsimp only [dat11]

/-- Nothing is owed at any point. -/
theorem owed11 (c : Dev nD) (t) : (dat11 V c).owed t = 0 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

set_option maxHeartbeats 1000000 in
/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## Into the region's invariant and out -/

/-- Entry: the generator register at some state and the scoped rest make the invariant at the first point. -/
theorem hin11 (c : Dev nD) :
    (iprop((∃ r, prngReg c r) ∗ Pipeline.scopedRest (Ix := Unit) (Name := ℕ) (U := UR sig nD τ) (Lvl := ℕ) spec11 c) : sProp 𝕄)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Exit: the invariant at the last point gives them back. -/
theorem hout11 (c : Dev nD) :
    (dat11 V c).Φ (Fin.last cfg11.N)
      ⊢ (iprop((∃ r, prngReg c r) ∗ Pipeline.scopedRest (Ix := Unit) (Name := ℕ) (U := UR sig nD τ) (Lvl := ℕ) spec11 c) : sProp 𝕄) := by
  rw [show (dat11 V c).Φ (Fin.last cfg11.N) = Pipeline.ΦA spec11 c from rfl]; unfold Pipeline.ΦA
  iintro ⟨Hr, Hp⟩
  isplitl [Hp]; · iexact Hp
  iexact Hr

end Cert.Kernel.Hand
-- ==== Proof.K.RegM12.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row tile, fetched at every point): its current staging buffer holds its block at every point,
    for any proof data whose array is V's and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the whole weight matrix, fetched at the first point only): its staging buffer holds its block at
    every point, fetched there or not — unfetched, the block index has not moved and the body left the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole row tile. -/
abbrev r12_0 : Rect S5000x128 := Rect.unit (s := S5000x128) ![0, 0] S5000x128.size inb_S5000x128_S5000x128_0_0
/-- The whole weight matrix. -/
abbrev r12_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out12_2 (x0 : Vec F S5000x128 .f32) (x1 : Vec F S128x128 .f32) : Vec F S5000x128 .f32 :=
  View.canon [⟨r12_0, k12_pay1 (View.ld x0 r12_0) (View.ld x1 r12_1)⟩]

/-- The one store is the whole buffer, so it covers it. -/
theorem cover12_2 (p0 : Vec F S5000x128 .f32) (y : S5000x128.Idx) :
    ∃ pc ∈ ([⟨r12_0, p0⟩] : List (View.Piece (Elt F) S5000x128 .f32)), y ∈ pc.1.set :=
  View.cover_of_tiled [⟨r12_0, p0⟩] S5000x128.size (by rfl) y

/-! ## The body's triple -/

set_option maxHeartbeats 1000000 in
/-- The kernel body on whole staging memrefs, the inputs' at read contents x0, x1 and the output's at anything, runs to
    the continuation holding the inputs' as they were and the output's at out12_2 of the inputs'. -/
theorem sound_kernel12 (c : Dev nD) (E : Set ℕ) (i : grid12.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 0 on core c: the arrays as the region finds them (V); after the body at point t each
    input's buffer at its block and the output's at out12_2 of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Nothing is owed at any point. -/
theorem owed12 (c : Dev nD) (t) : (dat12 V c).owed t = 0 := rfl

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the body's triple applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out -/

/-- Entry: the generator register at some state and the scoped rest are the region's invariant at the first point. -/
theorem hin12 (c : Dev nD) :
    (iprop((∃ r, prngReg c r) ∗ Pipeline.scopedRest (Ix := Unit) (Name := ℕ) (U := UR sig nD τ) (Lvl := ℕ) (Val := Elt F) spec12 c) : sProp 𝕄)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

/-- Exit: the invariant at the last point gives them back. -/
theorem hout12 (c : Dev nD) :
    (dat12 V c).Φ (Fin.last cfg12.N)
      ⊢ (iprop((∃ r, prngReg c r) ∗ Pipeline.scopedRest (Ix := Unit) (Name := ℕ) (U := UR sig nD τ) (Lvl := ℕ) (Val := Elt F) spec12 c) : sProp 𝕄) := by
  rw [show (dat12 V c).Φ (Fin.last _) = Pipeline.ΦA spec12 c from rfl]; unfold Pipeline.ΦA
  iintro ⟨Hr, Hp⟩
  isplitl [Hp]; · iexact Hp
  iexact Hr

end Cert.Kernel.Hand
-- ==== Proof.K.RegS13.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB13 : Rect S5000x128 := Rect.unit (s := S5000x128) ![0, 0] S5000x128.size inb_S5000x128_S5000x128_0_0
/-- The whole (1,128) row. -/
abbrev rS13 : Rect S1x128 := Rect.unit (s := S1x128) ![0, 0] S1x128.size inb_S1x128_S1x128_0_0

/-! ## The body's branch conditions -/

/-- The first conditional's condition (the point is the first of the grid). -/
abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val % 20 = 0 :=
  (by decide +kernel : ∀ t : Fin grid13.N, cond13_0 (grid13.coords t) ↔ t.val % 20 = 0)
/-- The second conditional's condition (the point is the last of the grid). -/
abbrev cond13_1 (i : grid13.Coords) : Prop := k13_cond2 i = 1#1
theorem hcond13_1 : ∀ t : Fin cfg13.N, cond13_1 (grid13.coords t) ↔ t.val % 20 = 19 :=
  (by decide +kernel : ∀ t : Fin grid13.N, cond13_1 (grid13.coords t) ↔ t.val % 20 = 19)

/-! ## What the body leaves, as closed terms over the payloads -/

/-- Window 2's buffer after the body: the pointwise maximum with zero of (tile + bias row). -/
def out13_2 (x0 : Vec F S5000x128 .f32) (x1 : Vec F S1x128 .f32) : Vec F S5000x128 .f32 :=
  View.canon [⟨rB13, k13_pay3 (View.ld x0 rB13) (View.ld x1 rS13)⟩]

/-- The sum accumulator after the first point: zeroed, then the tile's column sums added. -/
def sA13_0 (x0 : Vec F S5000x128 .f32) (x1 : Vec F S1x128 .f32) : Vec F S1x128 .f32 :=
  View.canon [⟨rS13, k13_pay4 (View.ld x0 rB13) (View.ld x1 rS13) (k13_pay1 (F := F))⟩, ⟨rS13, k13_pay1 (F := F)⟩]
/-- The sum-of-squares accumulator after the first point. -/
def sA13_1 (x0 : Vec F S5000x128 .f32) (x1 : Vec F S1x128 .f32) : Vec F S1x128 .f32 :=
  View.canon [⟨rS13, k13_pay5 (View.ld x0 rB13) (View.ld x1 rS13) (k13_pay2 (F := F))⟩, ⟨rS13, k13_pay2 (F := F)⟩]
/-- The sum accumulator after a later point, from what the point before left (`s`). -/
def sB13_0 (x0 : Vec F S5000x128 .f32) (x1 : Vec F S1x128 .f32) (s : Vec F S1x128 .f32) : Vec F S1x128 .f32 :=
  View.canon [⟨rS13, k13_pay4 (View.ld x0 rB13) (View.ld x1 rS13) (View.ld s rS13)⟩]
/-- The sum-of-squares accumulator after a later point, from what the point before left. -/
def sB13_1 (x0 : Vec F S5000x128 .f32) (x1 : Vec F S1x128 .f32) (s : Vec F S1x128 .f32) : Vec F S1x128 .f32 :=
  View.canon [⟨rS13, k13_pay5 (View.ld x0 rB13) (View.ld x1 rS13) (View.ld s rS13)⟩]
/-- Windows 3 and 4's buffers after the last point: the accumulators as that point leaves them. -/
abbrev out13_3 (x0 : Vec F S5000x128 .f32) (x1 : Vec F S1x128 .f32) (s : Vec F S1x128 .f32) : Vec F S1x128 .f32 := sB13_0 x0 x1 s
abbrev out13_4 (x0 : Vec F S5000x128 .f32) (x1 : Vec F S1x128 .f32) (s : Vec F S1x128 .f32) : Vec F S1x128 .f32 := sB13_1 x0 x1 s

theorem coverB13 (p0 : Vec F S5000x128 .f32) (y : S5000x128.Idx) :
    ∃ pc ∈ ([⟨rB13, p0⟩] : List (View.Piece (Elt F) S5000x128 .f32)), y ∈ pc.1.set :=
  View.cover_of_tiled [⟨rB13, p0⟩] S5000x128.size (by rfl) y
theorem coverS13 (p0 : Vec F S1x128 .f32) (y : S1x128.Idx) :
    ∃ pc ∈ ([⟨rS13, p0⟩] : List (View.Piece (Elt F) S1x128 .f32)), y ∈ pc.1.set :=
  View.cover_of_tiled [⟨rS13, p0⟩] S1x128.size (by rfl) y
theorem coverS13' (p0 p1 : Vec F S1x128 .f32) (y : S1x128.Idx) :
    ∃ pc ∈ ([⟨rS13, p0⟩, ⟨rS13, p1⟩] : List (View.Piece (Elt F) S1x128 .f32)), y ∈ pc.1.set := by
  obtain ⟨pc, hm, hy⟩ := coverS13 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel13_A (c : Dev nD) (E : Set ℕ) (i : grid13.Coords) (hc0 : cond13_0 i) (hc1 : ¬cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare y3 ∗ owns (c : Thread nD τ) arg5 fullShare y4
            ∗ owns (c : Thread nD τ) arg6 fullShare (sA13_0 x0 x1) ∗ owns (c : Thread nD τ) arg7 fullShare (sA13_1 x0 x1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS13' (F := F) _ _)
  iexists _; isplitr
  swap; · iexact H7
  ipureintro; sl_unfold_run_names; rw [View.readCov_cons_toLoadRect]; exact View.read_writes_eq_canon _ _ _ (coverS13' (F := F) _ _)

set_option maxHeartbeats 2000000 in
/-- A MIDDLE POINT: both accumulators, at what the point before left, are added to; windows 3 and 4 are left as found. -/
theorem sound_kernel13_B (c : Dev nD) (E : Set ℕ) (i : grid13.Coords) (hc0 : ¬cond13_0 i) (hc1 : ¬cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare y3 ∗ owns (c : Thread nD τ) arg5 fullShare y4
            ∗ owns (c : Thread nD τ) arg6 fullShare (sB13_0 x0 x1 s0) ∗ owns (c : Thread nD τ) arg7 fullShare (sB13_1 x0 x1 s1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS13 (F := F) _)
  iexists _; isplitr
  swap; · iexact H7
  ipureintro; exact View.read_writes_eq_canon _ _ _ (coverS13 (F := F) _)

set_option maxHeartbeats 2000000 in
/-- THE LAST POINT: both accumulators are added to and then copied into windows 3 and 4, held at anything. -/
theorem sound_kernel13_C (c : Dev nD) (E : Set ℕ) (i : grid13.Coords) (hc0 : ¬cond13_0 i) (hc1 : cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare (sB13_0 x0 x1 s0) ∗ owns (c : Thread nD τ) arg5 fullShare (sB13_1 x0 x1 s1)
            ∗ owns (c : Thread nD τ) arg6 fullShare (sB13_0 x0 x1 s0) ∗ owns (c : Thread nD τ) arg7 fullShare (sB13_1 x0 x1 s1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists _; isplitr
    swap; · iexact H3
    ipureintro; sl_unfold_run_names; rw [View.readCov_cons_toLoadRect]; exact View.read_writes_eq_canon _ _ _ (coverS13 (F := F) _)
  isplitl [H4]
  · iexists _; isplitr
    swap; · iexact H4
    ipureintro; sl_unfold_run_names; rw [View.readCov_cons_toLoadRect]; exact View.read_writes_eq_canon _ _ _ (coverS13 (F := F) _)
  isplitl [H6]
  · iexists _; isplitr
    swap; · iexact H6
    ipureintro; sl_unfold_run_names; exact View.read_writes_eq_canon _ _ _ (coverS13 (F := F) _)
  iexists _; isplitr
  swap; · iexact H7
  ipureintro; sl_unfold_run_names; exact View.read_writes_eq_canon _ _ _ (coverS13 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, for any proof data whose array is `V`'s and
    whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1 (the bias row, fetched at the first point only: its block index never moves) likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The two carried accumulators -/

/-- The two accumulator operands: whole scoped buffers of the kernel's own, passed beside the windows. -/
abbrev scM13_0 : Memref sig .tc .vmem S1x128 .f32 := Memref.whole cc13_scratch0
abbrev scM13_1 : Memref sig .tc .vmem S1x128 .f32 := Memref.whole cc13_scratch1

/-- THE ACCUMULATION. What the two accumulators (the column sums and the column sums of squares of the tiles so far)
    hold after the body at position `n`: zeroed and added to at the first point, added to at every later one. -/
def souts13 (c : Dev nD) : (n : ℕ) → n < cfg13.N → Vec F S1x128 .f32 × Vec F S1x128 .f32
  | 0, hn => (sA13_0 (iblk13 V c 0 ⟨0, hn⟩) (iblk13 V c 1 ⟨0, hn⟩), sA13_1 (iblk13 V c 0 ⟨0, hn⟩) (iblk13 V c 1 ⟨0, hn⟩))
  | n + 1, hn =>
    (sB13_0 (iblk13 V c 0 ⟨n + 1, hn⟩) (iblk13 V c 1 ⟨n + 1, hn⟩) (souts13 c n (Nat.lt_of_succ_lt hn)).1,
     sB13_1 (iblk13 V c 0 ⟨n + 1, hn⟩) (iblk13 V c 1 ⟨n + 1, hn⟩) (souts13 c n (Nat.lt_of_succ_lt hn)).2)

theorem souts13_zero (c : Dev nD) (t : Fin cfg13.N) (h0 : t.val = 0) :
    souts13 V c t.val t.isLt = (sA13_0 (iblk13 V c 0 t) (iblk13 V c 1 t), sA13_1 (iblk13 V c 0 t) (iblk13 V c 1 t)) := by
  obtain ⟨n, hn⟩ := t
  cases n with
  | zero => exact rfl
  | succ n => exact absurd h0 (Nat.succ_ne_zero _)

theorem souts13_pos (c : Dev nD) (t : Fin cfg13.N) (h0 : t.val ≠ 0) :
    souts13 V c t.val t.isLt =
      (sB13_0 (iblk13 V c 0 t) (iblk13 V c 1 t) (souts13 V c (t.val - 1) (Nat.lt_of_le_of_lt (Nat.sub_le _ _) t.isLt)).1,
       sB13_1 (iblk13 V c 0 t) (iblk13 V c 1 t) (souts13 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts13`), the rest of the scoped rest unopened, and the generator register at some state. -/
def PhiS13 (c : Dev nD) : (n : ℕ) → n ≤ cfg13.N → sProp 𝕄
  | 0, _ => iprop((∃ r, prngReg c r) ∗ Pipeline.scopedRest (Ix := Unit) (Name := ℕ) (U := UR sig nD τ) (Lvl := ℕ) spec13 c)
  | n + 1, hn => iprop((owns (c : Thread nD τ) scM13_0 fullShare (souts13 V c n hn).1 ∗ owns (c : Thread nD τ) scM13_1 fullShare (souts13 V c n hn).2)
      ∗ Pipeline.scopedRestBut (Ix := Unit) (Name := ℕ) (U := UR sig nD τ) (Lvl := ℕ) (Val := Elt F) spec13 c [cc13_scratch0, cc13_scratch1] ∗ (∃ r, prngReg c r))

theorem PhiS13_zero (c : Dev nD) (n : ℕ) (h : n ≤ cfg13.N) (hz : n = 0) :
    PhiS13 V c n h = iprop((∃ r, prngReg c r) ∗ Pipeline.scopedRest (Ix := Unit) (Name := ℕ) (U := UR sig nD τ) (Lvl := ℕ) spec13 c) := by
  subst hz; rfl

theorem PhiS13_succ (c : Dev nD) (n : ℕ) (hn : n < cfg13.N) :
    PhiS13 V c (n + 1) hn = iprop((owns (c : Thread nD τ) scM13_0 fullShare (souts13 V c n hn).1 ∗ owns (c : Thread nD τ) scM13_1 fullShare (souts13 V c n hn).2)
      ∗ Pipeline.scopedRestBut (Ix := Unit) (Name := ℕ) (U := UR sig nD τ) (Lvl := ℕ) (Val := Elt F) spec13 c [cc13_scratch0, cc13_scratch1] ∗ (∃ r, prngReg c r)) := rfl

theorem PhiS13_pos (c : Dev nD) (n : ℕ) (h : n ≤ cfg13.N) (hz : n ≠ 0) :
    PhiS13 V c n h = iprop((owns (c : Thread nD τ) scM13_0 fullShare (souts13 V c (n - 1) (by omega)).1 ∗ owns (c : Thread nD τ) scM13_1 fullShare (souts13 V c (n - 1) (by omega)).2)
      ∗ Pipeline.scopedRestBut (Ix := Unit) (Name := ℕ) (U := UR sig nD τ) (Lvl := ℕ) (Val := Elt F) spec13 c [cc13_scratch0, cc13_scratch1] ∗ (∃ r, prngReg c r)) := by
  cases n with
  | zero => exact absurd rfl hz
  | succ n => rfl

/-- The scoped rest with the two accumulators as memrefs owned at some contents. -/
theorem scopedRest13_owns (c : Dev nD) :
    (Pipeline.scopedRest (Ix := Unit) (Name := ℕ) (U := UR sig nD τ) (Lvl := ℕ) (Val := Elt F) spec13 c : sProp 𝕄)
      = iprop(((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) := by
  rw [scopedRest13_split]; simp only [scM13_0, scM13_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS13`;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
    | ⟨3, _⟩ => (souts13 V c t.val t.isLt).1
    | ⟨4, _⟩ => (souts13 V c t.val t.isLt).2
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem after13_3 (c : Dev nD) (t : Fin cfg13.N) : (dat13 V c).after 3 t = (souts13 V c t.val t.isLt).1 := by dsimp only [dat13]
theorem after13_4 (c : Dev nD) (t : Fin cfg13.N) : (dat13 V c).after 4 t = (souts13 V c t.val t.isLt).2 := by dsimp only [dat13]

theorem owed13 (c : Dev nD) (t : Fin (cfg13.N + 1)) : (dat13 V c).owed t = 0 := rfl

theorem PhiS13_castSucc (c : Dev nD) (t : Fin cfg13.N) :
    (dat13 V c).Φ t.castSucc = PhiS13 V c t.val (Nat.le_of_lt t.isLt) := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## Entry and exit -/

/-- What the launch hands the region is the invariant before the first point. -/
theorem hin13 (c : Dev nD) :
    (iprop((∃ r, prngReg c r) ∗ Pipeline.scopedRest (Ix := Unit) (Name := ℕ) (U := UR sig nD τ) (Lvl := ℕ) spec13 c) : sProp 𝕄) ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives them back: the accumulators' named contents are forgotten. -/
theorem hout13 (c : Dev nD) :
    (dat13 V c).Φ (Fin.last cfg13.N) ⊢ (iprop((∃ r, prngReg c r) ∗ Pipeline.scopedRest (Ix := Unit) (Name := ℕ) (U := UR sig nD τ) (Lvl := ℕ) spec13 c) : sProp 𝕄) := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 20 := N_13; omega), scopedRest13_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem idleAt13_3 : ∀ t : Fin cfg13.N, ¬cond13_1 (grid13.coords t) → cfg13.idle 3 (grid13.coords t) = true := by decide +kernel
theorem idleAt13_4 : ∀ t : Fin cfg13.N, ¬cond13_1 (grid13.coords t) → cfg13.idle 4 (grid13.coords t) = true := by decide +kernel
theorem noFlush13_3 : ∀ t : Fin cfg13.N, ¬cond13_1 (grid13.coords t) → (cfg13.win 3).flush t = false := by decide +kernel
theorem noFlush13_4 : ∀ t : Fin cfg13.N, ¬cond13_1 (grid13.coords t) → (cfg13.win 4).flush t = false := by decide +kernel
theorem liveAt13_3 : ∀ t : Fin cfg13.N, cond13_1 (grid13.coords t) → cfg13.idle 3 (grid13.coords t) = false := by decide +kernel
theorem liveAt13_4 : ∀ t : Fin cfg13.N, cond13_1 (grid13.coords t) → cfg13.idle 4 (grid13.coords t) = false := by decide +kernel

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [show (dat13 V c).leavesExact 2 t = owns (c : Thread nD τ) (st13_2 t) fullShare ((dat13 V c).after 2 t) from by
    unfold Dat.leavesExact; rw [liveAt13_2 t], after13_2]
  by_cases h0 : t.val % 20 = 0
  · have hz : t.val = 0 := by omega
    have hnc1 : ¬cond13_1 (grid13.coords t) := fun h => by have := (hcond13_1 t).mp h; omega
    rw [Dat.leavesExact_idle (dat13 V c) 3 t (idleAt13_3 t hnc1) (noFlush13_3 t hnc1),
      Dat.leavesExact_idle (dat13 V c) 4 t (idleAt13_4 t hnc1) (noFlush13_4 t hnc1)]
    rw [souts13_zero V c t hz]
    dsimp only
    rw [PhiS13_castSucc V c t, PhiS13_zero V c _ _ hz, scopedRest13_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel13_A c Set.univ (grid13.coords t) ((hcond13_0 t).mpr h0) hnc1 _ _ _ _ _ _ _ _ _ _ _ _ _ _ (iblk13 V c 0 t) (iblk13 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond13_0 (grid13.coords t) := fun h => h0 ((hcond13_0 t).mp h)
    by_cases h1 : t.val % 20 = 19
    · have hc1 : cond13_1 (grid13.coords t) := (hcond13_1 t).mpr h1
      rw [show (dat13 V c).leavesExact 3 t = owns (c : Thread nD τ) (st13_3 t) fullShare ((dat13 V c).after 3 t) from by
        unfold Dat.leavesExact; rw [liveAt13_3 t hc1], after13_3]
      rw [show (dat13 V c).leavesExact 4 t = owns (c : Thread nD τ) (st13_4 t) fullShare ((dat13 V c).after 4 t) from by
        unfold Dat.leavesExact; rw [liveAt13_4 t hc1], after13_4]
      rw [souts13_pos V c t hz]
      dsimp only
      rw [PhiS13_castSucc V c t, PhiS13_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel13_C c Set.univ (grid13.coords t) hnc0 hc1 _ _ _ _ _ _ _ _ _ _ _ _ _ _ (iblk13 V c 0 t) (iblk13 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond13_1 (grid13.coords t) := fun h => h1 ((hcond13_1 t).mp h)
      rw [Dat.leavesExact_idle (dat13 V c) 3 t (idleAt13_3 t hnc1) (noFlush13_3 t hnc1),
        Dat.leavesExact_idle (dat13 V c) 4 t (idleAt13_4 t hnc1) (noFlush13_4 t hnc1)]
      rw [souts13_pos V c t hz]
      dsimp only
      rw [PhiS13_castSucc V c t, PhiS13_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel13_B c Set.univ (grid13.coords t) hnc0 hnc1 _ _ _ _ _ _ _ _ _ _ _ _ _ _ (iblk13 V c 0 t) (iblk13 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

end Cert.Kernel.Hand

end
-- ==== Proof.K.RegB14.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s and whose body leaves the block in place: unfetched, the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s and whose body leaves the block in place: unfetched, the block index has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s and whose body leaves the block in place: unfetched, the block index has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s and whose body leaves the block in place: unfetched, the block index has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s and whose body leaves the block in place: unfetched, the block index has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

abbrev r14_0 : Rect S5000x128 := Rect.unit (s := S5000x128) ![0, 0] S5000x128.size inb_S5000x128_S5000x128_0_0
abbrev r14_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out14_5 (x0 : Vec F S5000x128 .f32) (x1 x2 x3 x4 : Vec F S1x128 .f32) : Vec F S5000x128 .f32 :=
  View.canon [⟨r14_0, k14_pay1 (View.ld x2 r14_1) (View.ld x0 r14_0) (View.ld x1 r14_1) (View.ld x3 r14_1) (View.ld x4 r14_1)⟩]

/-- The store tiles the buffer, so it covers it. -/
theorem cover14_5 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `xW` and the output's at anything, runs to
    the continuation holding the inputs' as they were and the output's at `out14_5` of the inputs'. -/
theorem sound_kernel14 (c : Dev nD) (E : Set ℕ) (i : grid14.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__bn_kernel i arg1 harg1 arg2 harg2 arg3 harg3 arg4 harg4 arg5 harg5 arg6 harg6) K := by
  simp only [cc14__bn_kernel_eq_skeleton]; unfold cc14__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 2 on core `c`: the arrays as the region finds them (`V`); after the body at point
    `t` each input's buffer at its block and the output's at `out14_5` of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t =
    out14_5 (iblk14 V c 0 t) (iblk14 V c 1 t) (iblk14 V c 2 t) (iblk14 V c 3 t) (iblk14 V c 4 t) := by dsimp only [dat14]

/-- Nothing is owed at any point. -/
theorem owed14 (c : Dev nD) (t) : (dat14 V c).owed t = 0 := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

set_option maxHeartbeats 1000000 in
/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## Into the region's invariant and out -/

/-- Entry: the generator register at some state and the scoped rest make the invariant at the first point. -/
theorem hin14 (c : Dev nD) :
    (iprop((∃ r, prngReg c r) ∗ Pipeline.scopedRest (Ix := Unit) (Name := ℕ) (U := UR sig nD τ) (Lvl := ℕ) spec14 c) : sProp 𝕄)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- Exit: the invariant at the last point gives them back. -/
theorem hout14 (c : Dev nD) :
    (dat14 V c).Φ (Fin.last cfg14.N)
      ⊢ (iprop((∃ r, prngReg c r) ∗ Pipeline.scopedRest (Ix := Unit) (Name := ℕ) (U := UR sig nD τ) (Lvl := ℕ) spec14 c) : sProp 𝕄) := by
  rw [show (dat14 V c).Φ (Fin.last cfg14.N) = Pipeline.ΦA spec14 c from rfl]; unfold Pipeline.ΦA
  iintro ⟨Hr, Hp⟩
  isplitl [Hp]; · iexact Hp
  iexact Hr

end Cert.Kernel.Hand
-- ==== Proof.K.RegM15.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the row tile, fetched at every point): its current staging buffer holds its block at every point,
    for any proof data whose array is V's and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1 (the whole weight matrix, fetched at the first point only): its staging buffer holds its block at
    every point, fetched there or not — unfetched, the block index has not moved and the body left the block in place. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole row tile. -/
abbrev r15_0 : Rect S5000x128 := Rect.unit (s := S5000x128) ![0, 0] S5000x128.size inb_S5000x128_S5000x128_0_0
/-- The whole weight matrix. -/
abbrev r15_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out15_2 (x0 : Vec F S5000x128 .f32) (x1 : Vec F S128x128 .f32) : Vec F S5000x128 .f32 :=
  View.canon [⟨r15_0, k15_pay1 (View.ld x0 r15_0) (View.ld x1 r15_1)⟩]

/-- The one store is the whole buffer, so it covers it. -/
theorem cover15_2 (p0 : Vec F S5000x128 .f32) (y : S5000x128.Idx) :
    ∃ pc ∈ ([⟨r15_0, p0⟩] : List (View.Piece (Elt F) S5000x128 .f32)), y ∈ pc.1.set :=
  View.cover_of_tiled [⟨r15_0, p0⟩] S5000x128.size (by rfl) y

/-! ## The body's triple -/

set_option maxHeartbeats 1000000 in
/-- The kernel body on whole staging memrefs, the inputs' at read contents x0, x1 and the output's at anything, runs to
    the continuation holding the inputs' as they were and the output's at out15_2 of the inputs'. -/
theorem sound_kernel15 (c : Dev nD) (E : Set ℕ) (i : grid15.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-! ## The pipeline's proof data -/

/-- The proof data of pipeline 0 on core c: the arrays as the region finds them (V); after the body at point t each
    input's buffer at its block and the output's at out15_2 of the input blocks; the invariant the scoped rest and the
    generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

/-- Nothing is owed at any point. -/
theorem owed15 (c : Dev nD) (t) : (dat15 V c).owed t = 0 := rfl

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so the body's triple applies; the invariant and what
    the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ (grid15.coords t) _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-! ## Into the invariant and out -/

/-- Entry: the generator register at some state and the scoped rest are the region's invariant at the first point. -/
theorem hin15 (c : Dev nD) :
    (iprop((∃ r, prngReg c r) ∗ Pipeline.scopedRest (Ix := Unit) (Name := ℕ) (U := UR sig nD τ) (Lvl := ℕ) (Val := Elt F) spec15 c) : sProp 𝕄)
      ⊢ (dat15 V c).Φ 0 := by
  rw [show (dat15 V c).Φ 0 = Pipeline.ΦA spec15 c from rfl]; unfold Pipeline.ΦA
  iintro ⟨Hp, Hr⟩
  isplitl [Hr]; · iexact Hr
  iexact Hp

/-- Exit: the invariant at the last point gives them back. -/
theorem hout15 (c : Dev nD) :
    (dat15 V c).Φ (Fin.last cfg15.N)
      ⊢ (iprop((∃ r, prngReg c r) ∗ Pipeline.scopedRest (Ix := Unit) (Name := ℕ) (U := UR sig nD τ) (Lvl := ℕ) (Val := Elt F) spec15 c) : sProp 𝕄) := by
  rw [show (dat15 V c).Φ (Fin.last _) = Pipeline.ΦA spec15 c from rfl]; unfold Pipeline.ΦA
  iintro ⟨Hr, Hp⟩
  isplitl [Hp]; · iexact Hp
  iexact Hr

end Cert.Kernel.Hand
-- ==== Proof.K.RegS16.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB16 : Rect S5000x128 := Rect.unit (s := S5000x128) ![0, 0] S5000x128.size inb_S5000x128_S5000x128_0_0
/-- The whole (1,128) row. -/
abbrev rS16 : Rect S1x128 := Rect.unit (s := S1x128) ![0, 0] S1x128.size inb_S1x128_S1x128_0_0

/-! ## The body's branch conditions -/

/-- The first conditional's condition (the point is the first of the grid). -/
abbrev cond16_0 (i : grid16.Coords) : Prop := (Scalar.cmpi .ne (Scalar.extui (Scalar.cmpi .eq (BitVec.ofNat 32 (i 0).val) 0#32)) 0#32) = 1#1
theorem hcond16_0 : ∀ t : Fin cfg16.N, cond16_0 (grid16.coords t) ↔ t.val % 20 = 0 :=
  (by decide +kernel : ∀ t : Fin grid16.N, cond16_0 (grid16.coords t) ↔ t.val % 20 = 0)
/-- The second conditional's condition (the point is the last of the grid). -/
abbrev cond16_1 (i : grid16.Coords) : Prop := k16_cond2 i = 1#1
theorem hcond16_1 : ∀ t : Fin cfg16.N, cond16_1 (grid16.coords t) ↔ t.val % 20 = 19 :=
  (by decide +kernel : ∀ t : Fin grid16.N, cond16_1 (grid16.coords t) ↔ t.val % 20 = 19)

/-! ## What the body leaves, as closed terms over the payloads -/

/-- Window 2's buffer after the body: the pointwise maximum with zero of (tile + bias row). -/
def out16_2 (x0 : Vec F S5000x128 .f32) (x1 : Vec F S1x128 .f32) : Vec F S5000x128 .f32 :=
  View.canon [⟨rB16, k16_pay3 (View.ld x0 rB16) (View.ld x1 rS16)⟩]

/-- The sum accumulator after the first point: zeroed, then the tile's column sums added. -/
def sA16_0 (x0 : Vec F S5000x128 .f32) (x1 : Vec F S1x128 .f32) : Vec F S1x128 .f32 :=
  View.canon [⟨rS16, k16_pay4 (View.ld x0 rB16) (View.ld x1 rS16) (k16_pay1 (F := F))⟩, ⟨rS16, k16_pay1 (F := F)⟩]
/-- The sum-of-squares accumulator after the first point. -/
def sA16_1 (x0 : Vec F S5000x128 .f32) (x1 : Vec F S1x128 .f32) : Vec F S1x128 .f32 :=
  View.canon [⟨rS16, k16_pay5 (View.ld x0 rB16) (View.ld x1 rS16) (k16_pay2 (F := F))⟩, ⟨rS16, k16_pay2 (F := F)⟩]
/-- The sum accumulator after a later point, from what the point before left (`s`). -/
def sB16_0 (x0 : Vec F S5000x128 .f32) (x1 : Vec F S1x128 .f32) (s : Vec F S1x128 .f32) : Vec F S1x128 .f32 :=
  View.canon [⟨rS16, k16_pay4 (View.ld x0 rB16) (View.ld x1 rS16) (View.ld s rS16)⟩]
/-- The sum-of-squares accumulator after a later point, from what the point before left. -/
def sB16_1 (x0 : Vec F S5000x128 .f32) (x1 : Vec F S1x128 .f32) (s : Vec F S1x128 .f32) : Vec F S1x128 .f32 :=
  View.canon [⟨rS16, k16_pay5 (View.ld x0 rB16) (View.ld x1 rS16) (View.ld s rS16)⟩]
/-- Windows 3 and 4's buffers after the last point: the accumulators as that point leaves them. -/
abbrev out16_3 (x0 : Vec F S5000x128 .f32) (x1 : Vec F S1x128 .f32) (s : Vec F S1x128 .f32) : Vec F S1x128 .f32 := sB16_0 x0 x1 s
abbrev out16_4 (x0 : Vec F S5000x128 .f32) (x1 : Vec F S1x128 .f32) (s : Vec F S1x128 .f32) : Vec F S1x128 .f32 := sB16_1 x0 x1 s

theorem coverB16 (p0 : Vec F S5000x128 .f32) (y : S5000x128.Idx) :
    ∃ pc ∈ ([⟨rB16, p0⟩] : List (View.Piece (Elt F) S5000x128 .f32)), y ∈ pc.1.set :=
  View.cover_of_tiled [⟨rB16, p0⟩] S5000x128.size (by rfl) y
theorem coverS16 (p0 : Vec F S1x128 .f32) (y : S1x128.Idx) :
    ∃ pc ∈ ([⟨rS16, p0⟩] : List (View.Piece (Elt F) S1x128 .f32)), y ∈ pc.1.set :=
  View.cover_of_tiled [⟨rS16, p0⟩] S1x128.size (by rfl) y
theorem coverS16' (p0 p1 : Vec F S1x128 .f32) (y : S1x128.Idx) :
    ∃ pc ∈ ([⟨rS16, p0⟩, ⟨rS16, p1⟩] : List (View.Piece (Elt F) S1x128 .f32)), y ∈ pc.1.set := by
  obtain ⟨pc, hm, hy⟩ := coverS16 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel16_A (c : Dev nD) (E : Set ℕ) (i : grid16.Coords) (hc0 : cond16_0 i) (hc1 : ¬cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare y3 ∗ owns (c : Thread nD τ) arg5 fullShare y4
            ∗ owns (c : Thread nD τ) arg6 fullShare (sA16_0 x0 x1) ∗ owns (c : Thread nD τ) arg7 fullShare (sA16_1 x0 x1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS16' (F := F) _ _)
  iexists _; isplitr
  swap; · iexact H7
  ipureintro; sl_unfold_run_names; rw [View.readCov_cons_toLoadRect]; exact View.read_writes_eq_canon _ _ _ (coverS16' (F := F) _ _)

set_option maxHeartbeats 2000000 in
/-- A MIDDLE POINT: both accumulators, at what the point before left, are added to; windows 3 and 4 are left as found. -/
theorem sound_kernel16_B (c : Dev nD) (E : Set ℕ) (i : grid16.Coords) (hc0 : ¬cond16_0 i) (hc1 : ¬cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare y3 ∗ owns (c : Thread nD τ) arg5 fullShare y4
            ∗ owns (c : Thread nD τ) arg6 fullShare (sB16_0 x0 x1 s0) ∗ owns (c : Thread nD τ) arg7 fullShare (sB16_1 x0 x1 s1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS16 (F := F) _)
  iexists _; isplitr
  swap; · iexact H7
  ipureintro; exact View.read_writes_eq_canon _ _ _ (coverS16 (F := F) _)

set_option maxHeartbeats 2000000 in
/-- THE LAST POINT: both accumulators are added to and then copied into windows 3 and 4, held at anything. -/
theorem sound_kernel16_C (c : Dev nD) (E : Set ℕ) (i : grid16.Coords) (hc0 : ¬cond16_0 i) (hc1 : cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare (sB16_0 x0 x1 s0) ∗ owns (c : Thread nD τ) arg5 fullShare (sB16_1 x0 x1 s1)
            ∗ owns (c : Thread nD τ) arg6 fullShare (sB16_0 x0 x1 s0) ∗ owns (c : Thread nD τ) arg7 fullShare (sB16_1 x0 x1 s1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists _; isplitr
    swap; · iexact H3
    ipureintro; sl_unfold_run_names; rw [View.readCov_cons_toLoadRect]; exact View.read_writes_eq_canon _ _ _ (coverS16 (F := F) _)
  isplitl [H4]
  · iexists _; isplitr
    swap; · iexact H4
    ipureintro; sl_unfold_run_names; rw [View.readCov_cons_toLoadRect]; exact View.read_writes_eq_canon _ _ _ (coverS16 (F := F) _)
  isplitl [H6]
  · iexists _; isplitr
    swap; · iexact H6
    ipureintro; sl_unfold_run_names; exact View.read_writes_eq_canon _ _ _ (coverS16 (F := F) _)
  iexists _; isplitr
  swap; · iexact H7
  ipureintro; sl_unfold_run_names; exact View.read_writes_eq_canon _ _ _ (coverS16 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, for any proof data whose array is `V`'s and
    whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1 (the bias row, fetched at the first point only: its block index never moves) likewise. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## The two carried accumulators -/

/-- The two accumulator operands: whole scoped buffers of the kernel's own, passed beside the windows. -/
abbrev scM16_0 : Memref sig .tc .vmem S1x128 .f32 := Memref.whole cc16_scratch0
abbrev scM16_1 : Memref sig .tc .vmem S1x128 .f32 := Memref.whole cc16_scratch1

/-- THE ACCUMULATION. What the two accumulators (the column sums and the column sums of squares of the tiles so far)
    hold after the body at position `n`: zeroed and added to at the first point, added to at every later one. -/
def souts16 (c : Dev nD) : (n : ℕ) → n < cfg16.N → Vec F S1x128 .f32 × Vec F S1x128 .f32
  | 0, hn => (sA16_0 (iblk16 V c 0 ⟨0, hn⟩) (iblk16 V c 1 ⟨0, hn⟩), sA16_1 (iblk16 V c 0 ⟨0, hn⟩) (iblk16 V c 1 ⟨0, hn⟩))
  | n + 1, hn =>
    (sB16_0 (iblk16 V c 0 ⟨n + 1, hn⟩) (iblk16 V c 1 ⟨n + 1, hn⟩) (souts16 c n (Nat.lt_of_succ_lt hn)).1,
     sB16_1 (iblk16 V c 0 ⟨n + 1, hn⟩) (iblk16 V c 1 ⟨n + 1, hn⟩) (souts16 c n (Nat.lt_of_succ_lt hn)).2)

theorem souts16_zero (c : Dev nD) (t : Fin cfg16.N) (h0 : t.val = 0) :
    souts16 V c t.val t.isLt = (sA16_0 (iblk16 V c 0 t) (iblk16 V c 1 t), sA16_1 (iblk16 V c 0 t) (iblk16 V c 1 t)) := by
  obtain ⟨n, hn⟩ := t
  cases n with
  | zero => exact rfl
  | succ n => exact absurd h0 (Nat.succ_ne_zero _)

theorem souts16_pos (c : Dev nD) (t : Fin cfg16.N) (h0 : t.val ≠ 0) :
    souts16 V c t.val t.isLt =
      (sB16_0 (iblk16 V c 0 t) (iblk16 V c 1 t) (souts16 V c (t.val - 1) (Nat.lt_of_le_of_lt (Nat.sub_le _ _) t.isLt)).1,
       sB16_1 (iblk16 V c 0 t) (iblk16 V c 1 t) (souts16 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts16`), the rest of the scoped rest unopened, and the generator register at some state. -/
def PhiS16 (c : Dev nD) : (n : ℕ) → n ≤ cfg16.N → sProp 𝕄
  | 0, _ => iprop((∃ r, prngReg c r) ∗ Pipeline.scopedRest (Ix := Unit) (Name := ℕ) (U := UR sig nD τ) (Lvl := ℕ) spec16 c)
  | n + 1, hn => iprop((owns (c : Thread nD τ) scM16_0 fullShare (souts16 V c n hn).1 ∗ owns (c : Thread nD τ) scM16_1 fullShare (souts16 V c n hn).2)
      ∗ Pipeline.scopedRestBut (Ix := Unit) (Name := ℕ) (U := UR sig nD τ) (Lvl := ℕ) (Val := Elt F) spec16 c [cc16_scratch0, cc16_scratch1] ∗ (∃ r, prngReg c r))

theorem PhiS16_zero (c : Dev nD) (n : ℕ) (h : n ≤ cfg16.N) (hz : n = 0) :
    PhiS16 V c n h = iprop((∃ r, prngReg c r) ∗ Pipeline.scopedRest (Ix := Unit) (Name := ℕ) (U := UR sig nD τ) (Lvl := ℕ) spec16 c) := by
  subst hz; rfl

theorem PhiS16_succ (c : Dev nD) (n : ℕ) (hn : n < cfg16.N) :
    PhiS16 V c (n + 1) hn = iprop((owns (c : Thread nD τ) scM16_0 fullShare (souts16 V c n hn).1 ∗ owns (c : Thread nD τ) scM16_1 fullShare (souts16 V c n hn).2)
      ∗ Pipeline.scopedRestBut (Ix := Unit) (Name := ℕ) (U := UR sig nD τ) (Lvl := ℕ) (Val := Elt F) spec16 c [cc16_scratch0, cc16_scratch1] ∗ (∃ r, prngReg c r)) := rfl

theorem PhiS16_pos (c : Dev nD) (n : ℕ) (h : n ≤ cfg16.N) (hz : n ≠ 0) :
    PhiS16 V c n h = iprop((owns (c : Thread nD τ) scM16_0 fullShare (souts16 V c (n - 1) (by omega)).1 ∗ owns (c : Thread nD τ) scM16_1 fullShare (souts16 V c (n - 1) (by omega)).2)
      ∗ Pipeline.scopedRestBut (Ix := Unit) (Name := ℕ) (U := UR sig nD τ) (Lvl := ℕ) (Val := Elt F) spec16 c [cc16_scratch0, cc16_scratch1] ∗ (∃ r, prngReg c r)) := by
  cases n with
  | zero => exact absurd rfl hz
  | succ n => rfl

/-- The scoped rest with the two accumulators as memrefs owned at some contents. -/
theorem scopedRest16_owns (c : Dev nD) :
    (Pipeline.scopedRest (Ix := Unit) (Name := ℕ) (U := UR sig nD τ) (Lvl := ℕ) (Val := Elt F) spec16 c : sProp 𝕄)
      = iprop(((∃ d, owns (c : Thread nD τ) scM16_0 fullShare d) ∗ (∃ d, owns (c : Thread nD τ) scM16_1 fullShare d))
          ∗ Pipeline.scopedRestBut (Ix := Unit) (Name := ℕ) (U := UR sig nD τ) (Lvl := ℕ) (Val := Elt F) spec16 c [cc16_scratch0, cc16_scratch1]) := by
  rw [scopedRest16_split]; simp only [scM16_0, scM16_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS16`;
    nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
    | ⟨3, _⟩ => (souts16 V c t.val t.isLt).1
    | ⟨4, _⟩ => (souts16 V c t.val t.isLt).2
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]
theorem after16_3 (c : Dev nD) (t : Fin cfg16.N) : (dat16 V c).after 3 t = (souts16 V c t.val t.isLt).1 := by dsimp only [dat16]
theorem after16_4 (c : Dev nD) (t : Fin cfg16.N) : (dat16 V c).after 4 t = (souts16 V c t.val t.isLt).2 := by dsimp only [dat16]

theorem owed16 (c : Dev nD) (t : Fin (cfg16.N + 1)) : (dat16 V c).owed t = 0 := rfl

theorem PhiS16_castSucc (c : Dev nD) (t : Fin cfg16.N) :
    (dat16 V c).Φ t.castSucc = PhiS16 V c t.val (Nat.le_of_lt t.isLt) := by
  dsimp only [dat16]; simp only [Fin.coe_castSucc]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## Entry and exit -/

/-- What the launch hands the region is the invariant before the first point. -/
theorem hin16 (c : Dev nD) :
    (iprop((∃ r, prngReg c r) ∗ Pipeline.scopedRest (Ix := Unit) (Name := ℕ) (U := UR sig nD τ) (Lvl := ℕ) spec16 c) : sProp 𝕄) ⊢ (dat16 V c).Φ 0 := by
  rw [show (dat16 V c).Φ 0 = PhiS16 V c 0 (Nat.zero_le _) from rfl, PhiS16_zero V c 0 _ rfl]
  try exact Idealize.SL.BI.Entails.refl _

/-- After the last point the invariant gives them back: the accumulators' named contents are forgotten. -/
theorem hout16 (c : Dev nD) :
    (dat16 V c).Φ (Fin.last cfg16.N) ⊢ (iprop((∃ r, prngReg c r) ∗ Pipeline.scopedRest (Ix := Unit) (Name := ℕ) (U := UR sig nD τ) (Lvl := ℕ) spec16 c) : sProp 𝕄) := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 20 := N_16; omega), scopedRest16_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem idleAt16_3 : ∀ t : Fin cfg16.N, ¬cond16_1 (grid16.coords t) → cfg16.idle 3 (grid16.coords t) = true := by decide +kernel
theorem idleAt16_4 : ∀ t : Fin cfg16.N, ¬cond16_1 (grid16.coords t) → cfg16.idle 4 (grid16.coords t) = true := by decide +kernel
theorem noFlush16_3 : ∀ t : Fin cfg16.N, ¬cond16_1 (grid16.coords t) → (cfg16.win 3).flush t = false := by decide +kernel
theorem noFlush16_4 : ∀ t : Fin cfg16.N, ¬cond16_1 (grid16.coords t) → (cfg16.win 4).flush t = false := by decide +kernel
theorem liveAt16_3 : ∀ t : Fin cfg16.N, cond16_1 (grid16.coords t) → cfg16.idle 3 (grid16.coords t) = false := by decide +kernel
theorem liveAt16_4 : ∀ t : Fin cfg16.N, cond16_1 (grid16.coords t) → cfg16.idle 4 (grid16.coords t) = false := by decide +kernel

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 20 := lt_of_lt_of_eq t.isLt (show cfg16.N = 20 from N_16)
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [show (dat16 V c).leavesExact 2 t = owns (c : Thread nD τ) (st16_2 t) fullShare ((dat16 V c).after 2 t) from by
    unfold Dat.leavesExact; rw [liveAt16_2 t], after16_2]
  by_cases h0 : t.val % 20 = 0
  · have hz : t.val = 0 := by omega
    have hnc1 : ¬cond16_1 (grid16.coords t) := fun h => by have := (hcond16_1 t).mp h; omega
    rw [Dat.leavesExact_idle (dat16 V c) 3 t (idleAt16_3 t hnc1) (noFlush16_3 t hnc1),
      Dat.leavesExact_idle (dat16 V c) 4 t (idleAt16_4 t hnc1) (noFlush16_4 t hnc1)]
    rw [souts16_zero V c t hz]
    dsimp only
    rw [PhiS16_castSucc V c t, PhiS16_zero V c _ _ hz, scopedRest16_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel16_A c Set.univ (grid16.coords t) ((hcond16_0 t).mpr h0) hnc1 _ _ _ _ _ _ _ _ _ _ _ _ _ _ (iblk16 V c 0 t) (iblk16 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond16_0 (grid16.coords t) := fun h => h0 ((hcond16_0 t).mp h)
    by_cases h1 : t.val % 20 = 19
    · have hc1 : cond16_1 (grid16.coords t) := (hcond16_1 t).mpr h1
      rw [show (dat16 V c).leavesExact 3 t = owns (c : Thread nD τ) (st16_3 t) fullShare ((dat16 V c).after 3 t) from by
        unfold Dat.leavesExact; rw [liveAt16_3 t hc1], after16_3]
      rw [show (dat16 V c).leavesExact 4 t = owns (c : Thread nD τ) (st16_4 t) fullShare ((dat16 V c).after 4 t) from by
        unfold Dat.leavesExact; rw [liveAt16_4 t hc1], after16_4]
      rw [souts16_pos V c t hz]
      dsimp only
      rw [PhiS16_castSucc V c t, PhiS16_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel16_C c Set.univ (grid16.coords t) hnc0 hc1 _ _ _ _ _ _ _ _ _ _ _ _ _ _ (iblk16 V c 0 t) (iblk16 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond16_1 (grid16.coords t) := fun h => h1 ((hcond16_1 t).mp h)
      rw [Dat.leavesExact_idle (dat16 V c) 3 t (idleAt16_3 t hnc1) (noFlush16_3 t hnc1),
        Dat.leavesExact_idle (dat16 V c) 4 t (idleAt16_4 t hnc1) (noFlush16_4 t hnc1)]
      rw [souts16_pos V c t hz]
      dsimp only
      rw [PhiS16_castSucc V c t, PhiS16_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel16_B c Set.univ (grid16.coords t) hnc0 hnc1 _ _ _ _ _ _ _ _ _ _ _ _ _ _ (iblk16 V c 0 t) (iblk16 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region

end Cert.Kernel.Hand

end
-- ==== Proof.K.RegB17.lean ====
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for any proof
    data whose array is `V`'s and whose body leaves the block in place: unfetched, the block index has not moved. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's current staging buffer holds its block at every point, fetched there or not, for any proof
    data whose array is `V`'s and whose body leaves the block in place: unfetched, the block index has not moved. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's current staging buffer holds its block at every point, fetched there or not, for any proof
    data whose array is `V`'s and whose body leaves the block in place: unfetched, the block index has not moved. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's current staging buffer holds its block at every point, fetched there or not, for any proof
    data whose array is `V`'s and whose body leaves the block in place: unfetched, the block index has not moved. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- Input window 4's current staging buffer holds its block at every point, fetched there or not, for any proof
    data whose array is `V`'s and whose body leaves the block in place: unfetched, the block index has not moved. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

abbrev r17_0 : Rect S5000x128 := Rect.unit (s := S5000x128) ![0, 0] S5000x128.size inb_S5000x128_S5000x128_0_0
abbrev r17_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out17_5 (x0 : Vec F S5000x128 .f32) (x1 x2 x3 x4 : Vec F S1x128 .f32) : Vec F S5000x128 .f32 :=
  View.canon [⟨r17_0, k17_pay1 (View.ld x2 r17_1) (View.ld x0 r17_0) (View.ld x1 r17_1) (View.ld x3 r17_1) (View.ld x4 r17_1)⟩]

/-- The store tiles the buffer, so it covers it. -/
theorem cover17_5 (p0 : Vec F S5000x128 .f32) (y : S5000x128.Idx) :
    ∃ pc ∈ ([⟨r17_0, p0⟩] : List (View.Piece (Elt F) S5000x128 .f32)), y ∈ pc.1.set :=
  View.cover_of_tiled [⟨r17_0, p0⟩] S5000x128.size (by rfl) y

/-! ## The body's triple -/

set_option maxHeartbeats 1000000 in
/-- The kernel body on whole staging memrefs, the inputs' at read contents `xW` and the output's at anything, runs to
    the continuation holding the inputs' as they were and the output's at `out17_5` of the inputs'. -/
theorem sound_kernel17 (c : Dev nD) (E : Set ℕ) (i : grid17.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out17_5 x0 x1 x2 x3 x4)) -∗ K ⟨⟩))
      ⊢ wp frame (wpE (defs₀ (F := F)) Variants.none c none) E
          (cc17__bn_kernel i arg1 harg1 arg2 harg2 arg3 harg3 arg4 harg4 arg5 harg5 arg6 harg6) K := by
  simp only [cc17__bn_kernel_eq_skeleton]; unfold cc17__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-! ## The pipeline's proof data -/

/-- The proof data of pipeline 2 on core `c`: the arrays as the region finds them (`V`); after the body at point
    `t` each input's buffer at its block and the output's at `out17_5` of the input blocks; the invariant the scoped
    rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t =
    out17_5 (iblk17 V c 0 t) (iblk17 V c 1 t) (iblk17 V c 2 t) (iblk17 V c 3 t) (iblk17 V c 4 t) := by dsimp only [dat17]

/-- Nothing is owed at any point. -/
theorem owed17 (c : Dev nD) (t) : (dat17 V c).owed t = 0 := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

set_option maxHeartbeats 1000000 in
/-- The body at any point: the inputs' memrefs hold their blocks (`before17_W`), so `sound_kernel17` applies; the
    invariant and the core's `owes` pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ _ _ _ _ _ _ _ _ _ _ _ _ _ (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation17 (c : Dev nD) : BodyObligation (dat17 (F := F) V c) (defs₀ (F := F)) Variants.none () Set.univ := fun t => by
  rw [bigSep_W17, bigSep_W17]
  exact sound_body17 V c t

/-! ## Into the region's invariant and out -/

/-- Entry: the generator register at some state and the scoped rest make the invariant at the first point. -/
theorem hin17 (c : Dev nD) :
    (iprop((∃ r, prngReg c r) ∗ Pipeline.scopedRest (Ix := Unit) (Name := ℕ) (U := UR sig nD τ) (Lvl := ℕ) spec17 c) : sProp 𝕄)
      ⊢ (dat17 V c).Φ 0 := by
  rw [show (dat17 V c).Φ 0 = Pipeline.ΦA spec17 c from rfl]; unfold Pipeline.ΦA
  iintro ⟨Hp, Hr⟩
  isplitl [Hr]; · iexact Hr
  iexact Hp

/-- Exit: the invariant at the last point gives them back. -/
theorem hout17 (c : Dev nD) :
    (dat17 V c).Φ (Fin.last cfg17.N)
      ⊢ (iprop((∃ r, prngReg c r) ∗ Pipeline.scopedRest (Ix := Unit) (Name := ℕ) (U := UR sig nD τ) (Lvl := ℕ) spec17 c) : sProp 𝕄) := by
  rw [show (dat17 V c).Φ (Fin.last cfg17.N) = Pipeline.ΦA spec17 c from rfl]; unfold Pipeline.ΦA
  iintro ⟨Hr, Hp⟩
  isplitl [Hp]; · iexact Hp
  iexact Hr

end Cert.Kernel.Hand
-- ==== Proof.K.RegL18.lean ====
/- The half of region 18 of @main (custom_call 18, the MLP head: two matrix products with their biases and a
   log-softmax along the last axis), at a PARAMETER `V`, the TensorCore's buffer contents when the region is entered.
   One grid point; six windows, each a whole array; the body loads the five inputs and stores the whole output block. -/
import proofs.«400512_j87187836109057_1_alg».proof.Proof.Gen.Kernel.Launch
import proofs.«400512_j87187836109057_1_alg».proof.Proof.Gen.Kernel.Skeleton
import proofs.«400512_j87187836109057_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, for any proof data whose array is
    `V`'s and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's current staging buffer holds its block at every point, for any proof data whose array is
    `V`'s and whose body leaves the block in place. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's current staging buffer holds its block at every point, for any proof data whose array is
    `V`'s and whose body leaves the block in place. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's current staging buffer holds its block at every point, for any proof data whose array is
    `V`'s and whose body leaves the block in place. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's current staging buffer holds its block at every point, for any proof data whose array is
    `V`'s and whose body leaves the block in place. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

abbrev r18_0 : Rect S64x4 := Rect.unit (s := S64x4) ![0, 0] S64x4.size inb_S64x4_S64x4_0_0
abbrev r18_1 : Rect S64x128 := Rect.unit (s := S64x128) ![0, 0] S64x128.size inb_S64x128_S64x128_0_0
abbrev r18_2 : Rect S128x64 := Rect.unit (s := S128x64) ![0, 0] S128x64.size inb_S128x64_S128x64_0_0
abbrev r18_3 : Rect S1x64 := Rect.unit (s := S1x64) ![0, 0] S1x64.size inb_S1x64_S1x64_0_0
abbrev r18_4 : Rect S1x4 := Rect.unit (s := S1x4) ![0, 0] S1x4.size inb_S1x4_S1x4_0_0

/-! ## What the body leaves in the output window's buffer -/

/-- Window 5's staging buffer after the body, from the input windows' blocks: its one store, the whole block, of the
    payload of the five whole-block loads. -/
def out18_5 (x0 : Vec F S64x128 .f32) (x1 : Vec F S128x64 .f32) (x2 : Vec F S1x64 .f32) (x3 : Vec F S64x4 .f32) (x4 : Vec F S1x4 .f32) : Vec F S64x4 .f32 :=
  View.canon [⟨r18_0, k18_pay1 (View.ld x0 r18_1) (View.ld x1 r18_2) (View.ld x2 r18_3) (View.ld x3 r18_0) (View.ld x4 r18_4)⟩]

/-- The store tiles the buffer, so it covers it. -/
theorem cover18_5 (p0 : Vec F S64x4 .f32) (y : S64x4.Idx) :
    ∃ pc ∈ ([⟨r18_0, p0⟩] : List (View.Piece (Elt F) S64x4 .f32)), y ∈ pc.1.set :=
  View.cover_of_tiled [⟨r18_0, p0⟩] S64x4.size (by rfl) y

/-! ## The body's triple -/

set_option maxHeartbeats 1000000 in
/-- The kernel body on whole staging memrefs, the inputs' at read contents and the output's at anything, runs to the
    continuation holding the inputs' as they were and the output's at `out18_5` of the inputs'. -/
theorem sound_kernel18 (c : Dev nD) (E : Set ℕ) (i : grid18.Coords)
    (arg0 : Memref sig .tc .vmem S64x128 .f32) (harg0 : arg0.IsWhole) (arg1 : Memref sig .tc .vmem S128x64 .f32) (harg1 : arg1.IsWhole)
    (arg2 : Memref sig .tc .vmem S1x64 .f32) (harg2 : arg2.IsWhole) (arg3 : Memref sig .tc .vmem S64x4 .f32) (harg3 : arg3.IsWhole)
    (arg4 : Memref sig .tc .vmem S1x4 .f32) (harg4 : arg4.IsWhole) (arg5 : Memref sig .tc .vmem S64x4 .f32) (harg5 : arg5.IsWhole)
    (x0 : Vec F S64x128 .f32) (x1 : Vec F S128x64 .f32) (x2 : Vec F S1x64 .f32) (x3 : Vec F S64x4 .f32) (x4 : Vec F S1x4 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out18_5 x0 x1 x2 x3 x4)) -∗ K ⟨⟩))
      ⊢ wp frame (wpE (defs₀ (F := F)) Variants.none c none) E (cc18__mlp_kernel i arg0 harg0 arg1 harg1 arg2 harg2 arg3 harg3 arg4 harg4 arg5 harg5) K := by
  simp only [cc18__mlp_kernel_eq_skeleton]; unfold cc18__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover18_5 (F := F) _)

/-! ## The pipeline's proof data -/

/-- The proof data of pipeline 18 on core `c`: the arrays as the region finds them (`V`); after the body each input's
    buffer at its block and the output's at `out18_5` of the input blocks; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]

/-- Nothing is owed at any point. -/
theorem owed18 (c : Dev nD) (t) : (dat18 V c).owed t = 0 := rfl

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

set_option maxHeartbeats 1000000 in
/-- The body at any point: the inputs' memrefs hold their blocks, so `sound_kernel18` applies; the invariant and the
    core's `owes` pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

/-! ## The invariant at the region's two ends -/

/-- Entry: the generator register at some state and the scoped rest make the invariant. -/
theorem hin18 (c : Dev nD) :
    (iprop((∃ r, prngReg c r) ∗ Pipeline.scopedRest (Ix := Unit) (Name := ℕ) (U := UR sig nD τ) (Lvl := ℕ) spec18 c) : sProp 𝕄) ⊢ (dat18 V c).Φ 0 := by
  rw [show (dat18 V c).Φ 0 = Pipeline.ΦA spec18 c from rfl]; unfold Pipeline.ΦA
  iintro ⟨Hp, Hr⟩
  isplitl [Hr]; · iexact Hr
  iexact Hp

/-- Exit: the invariant gives them back. -/
theorem hout18 (c : Dev nD) :
    (dat18 V c).Φ (Fin.last cfg18.N) ⊢ (iprop((∃ r, prngReg c r) ∗ Pipeline.scopedRest (Ix := Unit) (Name := ℕ) (U := UR sig nD τ) (Lvl := ℕ) spec18 c) : sProp 𝕄) := by
  rw [show (dat18 V c).Φ (Fin.last cfg18.N) = Pipeline.ΦA spec18 c from rfl]; unfold Pipeline.ΦA
  iintro ⟨Hr, Hp⟩
  isplitl [Hp]; · iexact Hp
  iexact Hr

end Cert.Kernel.Hand

end
-- ==== Proof.K.RunW.lean ====
/- The buffers' contents at every boundary between two items of @main (19 kernel regions among 25 host stretches), as a
   fold from the launch memory: a host stretch's result, a region's arrays at what its write-backs leave. Each
   argument array is read back through the fold to its launch contents. Generic in the float interpretation. -/
import proofs.«400512_j87187836109057_1_alg».proof.Proof.K.RegionsP
import proofs.«400512_j87187836109057_1_alg».proof.Proof.K.RegM0
import proofs.«400512_j87187836109057_1_alg».proof.Proof.K.RegS1
import proofs.«400512_j87187836109057_1_alg».proof.Proof.K.RegB2
import proofs.«400512_j87187836109057_1_alg».proof.Proof.K.RegM3
import proofs.«400512_j87187836109057_1_alg».proof.Proof.K.RegS4
import proofs.«400512_j87187836109057_1_alg».proof.Proof.K.RegB5
import proofs.«400512_j87187836109057_1_alg».proof.Proof.K.RegM6
import proofs.«400512_j87187836109057_1_alg».proof.Proof.K.RegS7
import proofs.«400512_j87187836109057_1_alg».proof.Proof.K.RegB8
import proofs.«400512_j87187836109057_1_alg».proof.Proof.K.RegM9
import proofs.«400512_j87187836109057_1_alg».proof.Proof.K.RegS10
import proofs.«400512_j87187836109057_1_alg».proof.Proof.K.RegB11
import proofs.«400512_j87187836109057_1_alg».proof.Proof.K.RegM12
import proofs.«400512_j87187836109057_1_alg».proof.Proof.K.RegS13
import proofs.«400512_j87187836109057_1_alg».proof.Proof.K.RegB14
import proofs.«400512_j87187836109057_1_alg».proof.Proof.K.RegM15
import proofs.«400512_j87187836109057_1_alg».proof.Proof.K.RegS16
import proofs.«400512_j87187836109057_1_alg».proof.Proof.K.RegB17
import proofs.«400512_j87187836109057_1_alg».proof.Proof.K.RegL18
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between two items of the program: a fold from the launch memory -/

/-- Core c's buffers at launch. -/
abbrev W0 : Dev nD → Valuation τ sig (Elt F) := fun c b => m (c, b)

/-- After item 0, the host stretch hostOps0. -/
abbrev W1 : Dev nD → Valuation τ sig (Elt F) := fun c => StableHlo.after hostOps0 (W0 m c)
/-- The stretch leaves every buffer it does not write as it was. -/
theorem W1_of (c : Dev nD) (r : Ref sig .tc) (hr : r ∉ GenP.hostOps0_W) :
    W1 m c (Proc.devRef .tc r) = W0 m c (Proc.devRef .tc r) :=
  StableHlo.after_of_writes_sub hostOps0 _ GenP.hostOps0_writes hr

/-- The contents region 0 is entered from, read at the TensorCore's references. -/
abbrev V1 : (c : Dev nD) → (b : Ref sig .tc) → Buf (Elt F) ((c : Thread nD τ).loc b) := fun c b => W1 m c b
/-- After item 1, region 0: its windows' arrays at what the pipeline leaves (an input as entered, an output with every
    write-back folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The contents region 0 leaves, read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The region leaves every buffer that is no output window's array as it was: an input window's array is only read. -/
theorem W2_of (c : Dev nD) (r : Ref sig .tc) (hr : ∀ w : Fin cfg0.W, (cfg0.win w).isOut = true → Pipeline.arrRef spec0 w ≠ r) :
    W2 m c (Proc.devRef .tc r) = W1 m c (Proc.devRef .tc r) := by
  by_cases hx : ∃ w, Pipeline.arrRef spec0 w = r
  · obtain ⟨w, rfl⟩ := hx
    have hin : (cfg0.win w).isOut = false := by
      cases hb : (cfg0.win w).isOut
      · rfl
      · exact absurd rfl (hr w hb)
    exact (W2_arr m c w).trans (((dat0 (V1 m) c).arrAt_in w hin _).trans (A_eq0 (V1 m) c w))
  · exact W2_of_ne m c r fun w e => hx ⟨w, e⟩

/-- After item 2, the host stretch hostOps1. -/
abbrev W3 : Dev nD → Valuation τ sig (Elt F) := fun c => StableHlo.after hostOps1 (W2 m c)
/-- The stretch leaves every buffer it does not write as it was. -/
theorem W3_of (c : Dev nD) (r : Ref sig .tc) (hr : r ∉ GenP.hostOps1_W) :
    W3 m c (Proc.devRef .tc r) = W2 m c (Proc.devRef .tc r) :=
  StableHlo.after_of_writes_sub hostOps1 _ GenP.hostOps1_writes hr

/-- After item 3, the host stretch hostOps1_1. -/
abbrev W4 : Dev nD → Valuation τ sig (Elt F) := fun c => StableHlo.after hostOps1_1 (W3 m c)
/-- The stretch leaves every buffer it does not write as it was. -/
theorem W4_of (c : Dev nD) (r : Ref sig .tc) (hr : r ∉ GenP.hostOps1_1_W) :
    W4 m c (Proc.devRef .tc r) = W3 m c (Proc.devRef .tc r) :=
  StableHlo.after_of_writes_sub hostOps1_1 _ GenP.hostOps1_1_writes hr

/-- The contents region 1 is entered from, read at the TensorCore's references. -/
abbrev V4 : (c : Dev nD) → (b : Ref sig .tc) → Buf (Elt F) ((c : Thread nD τ).loc b) := fun c b => W4 m c b
/-- After item 4, region 1: its windows' arrays at what the pipeline leaves (an input as entered, an output with every
    write-back folded in), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The contents region 1 leaves, read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- The region leaves every buffer that is no output window's array as it was: an input window's array is only read. -/
theorem W5_of (c : Dev nD) (r : Ref sig .tc) (hr : ∀ w : Fin cfg1.W, (cfg1.win w).isOut = true → Pipeline.arrRef spec1 w ≠ r) :
    W5 m c (Proc.devRef .tc r) = W4 m c (Proc.devRef .tc r) := by
  by_cases hx : ∃ w, Pipeline.arrRef spec1 w = r
  · obtain ⟨w, rfl⟩ := hx
    have hin : (cfg1.win w).isOut = false := by
      cases hb : (cfg1.win w).isOut
      · rfl
      · exact absurd rfl (hr w hb)
    exact (W5_arr m c w).trans (((dat1 (V4 m) c).arrAt_in w hin _).trans (A_eq1 (V4 m) c w))
  · exact W5_of_ne m c r fun w e => hx ⟨w, e⟩

/-- After item 5, the host stretch hostOps2. -/
abbrev W6 : Dev nD → Valuation τ sig (Elt F) := fun c => StableHlo.after hostOps2 (W5 m c)
/-- The stretch leaves every buffer it does not write as it was. -/
theorem W6_of (c : Dev nD) (r : Ref sig .tc) (hr : r ∉ GenP.hostOps2_W) :
    W6 m c (Proc.devRef .tc r) = W5 m c (Proc.devRef .tc r) :=
  StableHlo.after_of_writes_sub hostOps2 _ GenP.hostOps2_writes hr

/-- The contents region 2 is entered from, read at the TensorCore's references. -/
abbrev V6 : (c : Dev nD) → (b : Ref sig .tc) → Buf (Elt F) ((c : Thread nD τ).loc b) := fun c b => W6 m c b
/-- After item 6, region 2: its windows' arrays at what the pipeline leaves (an input as entered, an output with every
    write-back folded in), every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The contents region 2 leaves, read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- The region leaves every buffer that is no output window's array as it was: an input window's array is only read. -/
theorem W7_of (c : Dev nD) (r : Ref sig .tc) (hr : ∀ w : Fin cfg2.W, (cfg2.win w).isOut = true → Pipeline.arrRef spec2 w ≠ r) :
    W7 m c (Proc.devRef .tc r) = W6 m c (Proc.devRef .tc r) := by
  by_cases hx : ∃ w, Pipeline.arrRef spec2 w = r
  · obtain ⟨w, rfl⟩ := hx
    have hin : (cfg2.win w).isOut = false := by
      cases hb : (cfg2.win w).isOut
      · rfl
      · exact absurd rfl (hr w hb)
    exact (W7_arr m c w).trans (((dat2 (V6 m) c).arrAt_in w hin _).trans (A_eq2 (V6 m) c w))
  · exact W7_of_ne m c r fun w e => hx ⟨w, e⟩

/-- After item 7, the host stretch hostOps3. -/
abbrev W8 : Dev nD → Valuation τ sig (Elt F) := fun c => StableHlo.after hostOps3 (W7 m c)
/-- The stretch leaves every buffer it does not write as it was. -/
theorem W8_of (c : Dev nD) (r : Ref sig .tc) (hr : r ∉ GenP.hostOps3_W) :
    W8 m c (Proc.devRef .tc r) = W7 m c (Proc.devRef .tc r) :=
  StableHlo.after_of_writes_sub hostOps3 _ GenP.hostOps3_writes hr

/-- The contents region 3 is entered from, read at the TensorCore's references. -/
abbrev V8 : (c : Dev nD) → (b : Ref sig .tc) → Buf (Elt F) ((c : Thread nD τ).loc b) := fun c b => W8 m c b
/-- After item 8, region 3: its windows' arrays at what the pipeline leaves (an input as entered, an output with every
    write-back folded in), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The contents region 3 leaves, read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)
/-- The region leaves every buffer that is no output window's array as it was: an input window's array is only read. -/
theorem W9_of (c : Dev nD) (r : Ref sig .tc) (hr : ∀ w : Fin cfg3.W, (cfg3.win w).isOut = true → Pipeline.arrRef spec3 w ≠ r) :
    W9 m c (Proc.devRef .tc r) = W8 m c (Proc.devRef .tc r) := by
  by_cases hx : ∃ w, Pipeline.arrRef spec3 w = r
  · obtain ⟨w, rfl⟩ := hx
    have hin : (cfg3.win w).isOut = false := by
      cases hb : (cfg3.win w).isOut
      · rfl
      · exact absurd rfl (hr w hb)
    exact (W9_arr m c w).trans (((dat3 (V8 m) c).arrAt_in w hin _).trans (A_eq3 (V8 m) c w))
  · exact W9_of_ne m c r fun w e => hx ⟨w, e⟩

/-- After item 9, the host stretch hostOps4. -/
abbrev W10 : Dev nD → Valuation τ sig (Elt F) := fun c => StableHlo.after hostOps4 (W9 m c)
/-- The stretch leaves every buffer it does not write as it was. -/
theorem W10_of (c : Dev nD) (r : Ref sig .tc) (hr : r ∉ GenP.hostOps4_W) :
    W10 m c (Proc.devRef .tc r) = W9 m c (Proc.devRef .tc r) :=
  StableHlo.after_of_writes_sub hostOps4 _ GenP.hostOps4_writes hr

/-- After item 10, the host stretch hostOps4_1. -/
abbrev W11 : Dev nD → Valuation τ sig (Elt F) := fun c => StableHlo.after hostOps4_1 (W10 m c)
/-- The stretch leaves every buffer it does not write as it was. -/
theorem W11_of (c : Dev nD) (r : Ref sig .tc) (hr : r ∉ GenP.hostOps4_1_W) :
    W11 m c (Proc.devRef .tc r) = W10 m c (Proc.devRef .tc r) :=
  StableHlo.after_of_writes_sub hostOps4_1 _ GenP.hostOps4_1_writes hr

/-- The contents region 4 is entered from, read at the TensorCore's references. -/
abbrev V11 : (c : Dev nD) → (b : Ref sig .tc) → Buf (Elt F) ((c : Thread nD τ).loc b) := fun c b => W11 m c b
/-- After item 11, region 4: its windows' arrays at what the pipeline leaves (an input as entered, an output with every
    write-back folded in), every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- The contents region 4 leaves, read at the TensorCore's references. -/
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- The region leaves every buffer that is no output window's array as it was: an input window's array is only read. -/
theorem W12_of (c : Dev nD) (r : Ref sig .tc) (hr : ∀ w : Fin cfg4.W, (cfg4.win w).isOut = true → Pipeline.arrRef spec4 w ≠ r) :
    W12 m c (Proc.devRef .tc r) = W11 m c (Proc.devRef .tc r) := by
  by_cases hx : ∃ w, Pipeline.arrRef spec4 w = r
  · obtain ⟨w, rfl⟩ := hx
    have hin : (cfg4.win w).isOut = false := by
      cases hb : (cfg4.win w).isOut
      · rfl
      · exact absurd rfl (hr w hb)
    exact (W12_arr m c w).trans (((dat4 (V11 m) c).arrAt_in w hin _).trans (A_eq4 (V11 m) c w))
  · exact W12_of_ne m c r fun w e => hx ⟨w, e⟩

/-- After item 12, the host stretch hostOps5. -/
abbrev W13 : Dev nD → Valuation τ sig (Elt F) := fun c => StableHlo.after hostOps5 (W12 m c)
/-- The stretch leaves every buffer it does not write as it was. -/
theorem W13_of (c : Dev nD) (r : Ref sig .tc) (hr : r ∉ GenP.hostOps5_W) :
    W13 m c (Proc.devRef .tc r) = W12 m c (Proc.devRef .tc r) :=
  StableHlo.after_of_writes_sub hostOps5 _ GenP.hostOps5_writes hr

/-- The contents region 5 is entered from, read at the TensorCore's references. -/
abbrev V13 : (c : Dev nD) → (b : Ref sig .tc) → Buf (Elt F) ((c : Thread nD τ).loc b) := fun c b => W13 m c b
/-- After item 13, region 5: its windows' arrays at what the pipeline leaves (an input as entered, an output with every
    write-back folded in), every other buffer as entered. -/
def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
/-- The contents region 5 leaves, read at the TensorCore's references. -/
abbrev V14 : (c : Dev nD) → (b : Ref sig .tc) → Buf (Elt F) ((c : Thread nD τ).loc b) := fun c b => W14 m c b
theorem hF5 (c : Dev nD) (w : Fin cfg5.W) : (dat5 (V13 m) c).arrAt w cfg5.N = V14 m c (Pipeline.arrRef spec5 w) :=
  (W14_arr m c w).symm
theorem hrest5 (c : Dev nD) : ∀ b, b ∉ Finset.univ.image (Pipeline.arrRef spec5) → V14 m c b = V13 m c b :=
  fun b hb => W14_of_ne m c b fun w e => hb (Finset.mem_image.mpr ⟨w, Finset.mem_univ _, e⟩)
/-- The region leaves every buffer that is no output window's array as it was: an input window's array is only read. -/
theorem W14_of (c : Dev nD) (r : Ref sig .tc) (hr : ∀ w : Fin cfg5.W, (cfg5.win w).isOut = true → Pipeline.arrRef spec5 w ≠ r) :
    W14 m c (Proc.devRef .tc r) = W13 m c (Proc.devRef .tc r) := by
  by_cases hx : ∃ w, Pipeline.arrRef spec5 w = r
  · obtain ⟨w, rfl⟩ := hx
    have hin : (cfg5.win w).isOut = false := by
      cases hb : (cfg5.win w).isOut
      · rfl
      · exact absurd rfl (hr w hb)
    exact (W14_arr m c w).trans (((dat5 (V13 m) c).arrAt_in w hin _).trans (A_eq5 (V13 m) c w))
  · exact W14_of_ne m c r fun w e => hx ⟨w, e⟩

/-- After item 14, the host stretch hostOps6. -/
abbrev W15 : Dev nD → Valuation τ sig (Elt F) := fun c => StableHlo.after hostOps6 (W14 m c)
/-- The stretch leaves every buffer it does not write as it was. -/
theorem W15_of (c : Dev nD) (r : Ref sig .tc) (hr : r ∉ GenP.hostOps6_W) :
    W15 m c (Proc.devRef .tc r) = W14 m c (Proc.devRef .tc r) :=
  StableHlo.after_of_writes_sub hostOps6 _ GenP.hostOps6_writes hr

/-- The contents region 6 is entered from, read at the TensorCore's references. -/
abbrev V15 : (c : Dev nD) → (b : Ref sig .tc) → Buf (Elt F) ((c : Thread nD τ).loc b) := fun c b => W15 m c b
/-- After item 15, region 6: its windows' arrays at what the pipeline leaves (an input as entered, an output with every
    write-back folded in), every other buffer as entered. -/
def W16 (c : Dev nD) : Valuation τ sig (Elt F) :=
  Pipeline.withArrays spec6 c (W15 m c) fun w => (dat6 (V15 m) c).arrAt w cfg6.N
theorem W16_arr (c : Dev nD) (w : Fin cfg6.W) :
    W16 m c (Proc.devRef .tc (Pipeline.arrRef spec6 w)) = (dat6 (V15 m) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
/-- The contents region 6 leaves, read at the TensorCore's references. -/
abbrev V16 : (c : Dev nD) → (b : Ref sig .tc) → Buf (Elt F) ((c : Thread nD τ).loc b) := fun c b => W16 m c b
theorem hF6 (c : Dev nD) (w : Fin cfg6.W) : (dat6 (V15 m) c).arrAt w cfg6.N = V16 m c (Pipeline.arrRef spec6 w) :=
  (W16_arr m c w).symm
theorem hrest6 (c : Dev nD) : ∀ b, b ∉ Finset.univ.image (Pipeline.arrRef spec6) → V16 m c b = V15 m c b :=
  fun b hb => W16_of_ne m c b fun w e => hb (Finset.mem_image.mpr ⟨w, Finset.mem_univ _, e⟩)
/-- The region leaves every buffer that is no output window's array as it was: an input window's array is only read. -/
theorem W16_of (c : Dev nD) (r : Ref sig .tc) (hr : ∀ w : Fin cfg6.W, (cfg6.win w).isOut = true → Pipeline.arrRef spec6 w ≠ r) :
    W16 m c (Proc.devRef .tc r) = W15 m c (Proc.devRef .tc r) := by
  by_cases hx : ∃ w, Pipeline.arrRef spec6 w = r
  · obtain ⟨w, rfl⟩ := hx
    have hin : (cfg6.win w).isOut = false := by
      cases hb : (cfg6.win w).isOut
      · rfl
      · exact absurd rfl (hr w hb)
    exact (W16_arr m c w).trans (((dat6 (V15 m) c).arrAt_in w hin _).trans (A_eq6 (V15 m) c w))
  · exact W16_of_ne m c r fun w e => hx ⟨w, e⟩

/-- After item 16, the host stretch hostOps7. -/
abbrev W17 : Dev nD → Valuation τ sig (Elt F) := fun c => StableHlo.after hostOps7 (W16 m c)
/-- The stretch leaves every buffer it does not write as it was. -/
theorem W17_of (c : Dev nD) (r : Ref sig .tc) (hr : r ∉ GenP.hostOps7_W) :
    W17 m c (Proc.devRef .tc r) = W16 m c (Proc.devRef .tc r) :=
  StableHlo.after_of_writes_sub hostOps7 _ GenP.hostOps7_writes hr

/-- After item 17, the host stretch hostOps7_1. -/
abbrev W18 : Dev nD → Valuation τ sig (Elt F) := fun c => StableHlo.after hostOps7_1 (W17 m c)
/-- The stretch leaves every buffer it does not write as it was. -/
theorem W18_of (c : Dev nD) (r : Ref sig .tc) (hr : r ∉ GenP.hostOps7_1_W) :
    W18 m c (Proc.devRef .tc r) = W17 m c (Proc.devRef .tc r) :=
  StableHlo.after_of_writes_sub hostOps7_1 _ GenP.hostOps7_1_writes hr

/-- The contents region 7 is entered from, read at the TensorCore's references. -/
abbrev V18 : (c : Dev nD) → (b : Ref sig .tc) → Buf (Elt F) ((c : Thread nD τ).loc b) := fun c b => W18 m c b
/-- After item 18, region 7: its windows' arrays at what the pipeline leaves (an input as entered, an output with every
    write-back folded in), every other buffer as entered. -/
def W19 (c : Dev nD) : Valuation τ sig (Elt F) :=
  Pipeline.withArrays spec7 c (W18 m c) fun w => (dat7 (V18 m) c).arrAt w cfg7.N
theorem W19_arr (c : Dev nD) (w : Fin cfg7.W) :
    W19 m c (Proc.devRef .tc (Pipeline.arrRef spec7 w)) = (dat7 (V18 m) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m c (Proc.devRef .tc b) = W18 m c (Proc.devRef .tc b) := by
  unfold W19; exact Pipeline.withArrays_of_ne spec7 c _ _ b hb
/-- The contents region 7 leaves, read at the TensorCore's references. -/
abbrev V19 : (c : Dev nD) → (b : Ref sig .tc) → Buf (Elt F) ((c : Thread nD τ).loc b) := fun c b => W19 m c b
theorem hF7 (c : Dev nD) (w : Fin cfg7.W) : (dat7 (V18 m) c).arrAt w cfg7.N = V19 m c (Pipeline.arrRef spec7 w) :=
  (W19_arr m c w).symm
theorem hrest7 (c : Dev nD) : ∀ b, b ∉ Finset.univ.image (Pipeline.arrRef spec7) → V19 m c b = V18 m c b :=
  fun b hb => W19_of_ne m c b fun w e => hb (Finset.mem_image.mpr ⟨w, Finset.mem_univ _, e⟩)
/-- The region leaves every buffer that is no output window's array as it was: an input window's array is only read. -/
theorem W19_of (c : Dev nD) (r : Ref sig .tc) (hr : ∀ w : Fin cfg7.W, (cfg7.win w).isOut = true → Pipeline.arrRef spec7 w ≠ r) :
    W19 m c (Proc.devRef .tc r) = W18 m c (Proc.devRef .tc r) := by
  by_cases hx : ∃ w, Pipeline.arrRef spec7 w = r
  · obtain ⟨w, rfl⟩ := hx
    have hin : (cfg7.win w).isOut = false := by
      cases hb : (cfg7.win w).isOut
      · rfl
      · exact absurd rfl (hr w hb)
    exact (W19_arr m c w).trans (((dat7 (V18 m) c).arrAt_in w hin _).trans (A_eq7 (V18 m) c w))
  · exact W19_of_ne m c r fun w e => hx ⟨w, e⟩

/-- After item 19, the host stretch hostOps8. -/
abbrev W20 : Dev nD → Valuation τ sig (Elt F) := fun c => StableHlo.after hostOps8 (W19 m c)
/-- The stretch leaves every buffer it does not write as it was. -/
theorem W20_of (c : Dev nD) (r : Ref sig .tc) (hr : r ∉ GenP.hostOps8_W) :
    W20 m c (Proc.devRef .tc r) = W19 m c (Proc.devRef .tc r) :=
  StableHlo.after_of_writes_sub hostOps8 _ GenP.hostOps8_writes hr

/-- The contents region 8 is entered from, read at the TensorCore's references. -/
abbrev V20 : (c : Dev nD) → (b : Ref sig .tc) → Buf (Elt F) ((c : Thread nD τ).loc b) := fun c b => W20 m c b
/-- After item 20, region 8: its windows' arrays at what the pipeline leaves (an input as entered, an output with every
    write-back folded in), every other buffer as entered. -/
def W21 (c : Dev nD) : Valuation τ sig (Elt F) :=
  Pipeline.withArrays spec8 c (W20 m c) fun w => (dat8 (V20 m) c).arrAt w cfg8.N
theorem W21_arr (c : Dev nD) (w : Fin cfg8.W) :
    W21 m c (Proc.devRef .tc (Pipeline.arrRef spec8 w)) = (dat8 (V20 m) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m c (Proc.devRef .tc b) = W20 m c (Proc.devRef .tc b) := by
  unfold W21; exact Pipeline.withArrays_of_ne spec8 c _ _ b hb
/-- The contents region 8 leaves, read at the TensorCore's references. -/
abbrev V21 : (c : Dev nD) → (b : Ref sig .tc) → Buf (Elt F) ((c : Thread nD τ).loc b) := fun c b => W21 m c b
theorem hF8 (c : Dev nD) (w : Fin cfg8.W) : (dat8 (V20 m) c).arrAt w cfg8.N = V21 m c (Pipeline.arrRef spec8 w) :=
  (W21_arr m c w).symm
theorem hrest8 (c : Dev nD) : ∀ b, b ∉ Finset.univ.image (Pipeline.arrRef spec8) → V21 m c b = V20 m c b :=
  fun b hb => W21_of_ne m c b fun w e => hb (Finset.mem_image.mpr ⟨w, Finset.mem_univ _, e⟩)
/-- The region leaves every buffer that is no output window's array as it was: an input window's array is only read. -/
theorem W21_of (c : Dev nD) (r : Ref sig .tc) (hr : ∀ w : Fin cfg8.W, (cfg8.win w).isOut = true → Pipeline.arrRef spec8 w ≠ r) :
    W21 m c (Proc.devRef .tc r) = W20 m c (Proc.devRef .tc r) := by
  by_cases hx : ∃ w, Pipeline.arrRef spec8 w = r
  · obtain ⟨w, rfl⟩ := hx
    have hin : (cfg8.win w).isOut = false := by
      cases hb : (cfg8.win w).isOut
      · rfl
      · exact absurd rfl (hr w hb)
    exact (W21_arr m c w).trans (((dat8 (V20 m) c).arrAt_in w hin _).trans (A_eq8 (V20 m) c w))
  · exact W21_of_ne m c r fun w e => hx ⟨w, e⟩

/-- After item 21, the host stretch hostOps9. -/
abbrev W22 : Dev nD → Valuation τ sig (Elt F) := fun c => StableHlo.after hostOps9 (W21 m c)
/-- The stretch leaves every buffer it does not write as it was. -/
theorem W22_of (c : Dev nD) (r : Ref sig .tc) (hr : r ∉ GenP.hostOps9_W) :
    W22 m c (Proc.devRef .tc r) = W21 m c (Proc.devRef .tc r) :=
  StableHlo.after_of_writes_sub hostOps9 _ GenP.hostOps9_writes hr

/-- The contents region 9 is entered from, read at the TensorCore's references. -/
abbrev V22 : (c : Dev nD) → (b : Ref sig .tc) → Buf (Elt F) ((c : Thread nD τ).loc b) := fun c b => W22 m c b
/-- After item 22, region 9: its windows' arrays at what the pipeline leaves (an input as entered, an output with every
    write-back folded in), every other buffer as entered. -/
def W23 (c : Dev nD) : Valuation τ sig (Elt F) :=
  Pipeline.withArrays spec9 c (W22 m c) fun w => (dat9 (V22 m) c).arrAt w cfg9.N
theorem W23_arr (c : Dev nD) (w : Fin cfg9.W) :
    W23 m c (Proc.devRef .tc (Pipeline.arrRef spec9 w)) = (dat9 (V22 m) c).arrAt w cfg9.N := by
  unfold W23; exact Pipeline.withArrays_arr spec9 launch9.win.arr_inj c _ _ w
theorem W23_of_ne (c : Dev nD) (b : Ref sig .tc) (hb : ∀ w, Pipeline.arrRef spec9 w ≠ b) :
    W23 m c (Proc.devRef .tc b) = W22 m c (Proc.devRef .tc b) := by
  unfold W23; exact Pipeline.withArrays_of_ne spec9 c _ _ b hb
/-- The contents region 9 leaves, read at the TensorCore's references. -/
abbrev V23 : (c : Dev nD) → (b : Ref sig .tc) → Buf (Elt F) ((c : Thread nD τ).loc b) := fun c b => W23 m c b
theorem hF9 (c : Dev nD) (w : Fin cfg9.W) : (dat9 (V22 m) c).arrAt w cfg9.N = V23 m c (Pipeline.arrRef spec9 w) :=
  (W23_arr m c w).symm
theorem hrest9 (c : Dev nD) : ∀ b, b ∉ Finset.univ.image (Pipeline.arrRef spec9) → V23 m c b = V22 m c b :=
  fun b hb => W23_of_ne m c b fun w e => hb (Finset.mem_image.mpr ⟨w, Finset.mem_univ _, e⟩)
/-- The region leaves every buffer that is no output window's array as it was: an input window's array is only read. -/
theorem W23_of (c : Dev nD) (r : Ref sig .tc) (hr : ∀ w : Fin cfg9.W, (cfg9.win w).isOut = true → Pipeline.arrRef spec9 w ≠ r) :
    W23 m c (Proc.devRef .tc r) = W22 m c (Proc.devRef .tc r) := by
  by_cases hx : ∃ w, Pipeline.arrRef spec9 w = r
  · obtain ⟨w, rfl⟩ := hx
    have hin : (cfg9.win w).isOut = false := by
      cases hb : (cfg9.win w).isOut
      · rfl
      · exact absurd rfl (hr w hb)
    exact (W23_arr m c w).trans (((dat9 (V22 m) c).arrAt_in w hin _).trans (A_eq9 (V22 m) c w))
  · exact W23_of_ne m c r fun w e => hx ⟨w, e⟩

/-- After item 23, the host stretch hostOps10. -/
abbrev W24 : Dev nD → Valuation τ sig (Elt F) := fun c => StableHlo.after hostOps10 (W23 m c)
/-- The stretch leaves every buffer it does not write as it was. -/
theorem W24_of (c : Dev nD) (r : Ref sig .tc) (hr : r ∉ GenP.hostOps10_W) :
    W24 m c (Proc.devRef .tc r) = W23 m c (Proc.devRef .tc r) :=
  StableHlo.after_of_writes_sub hostOps10 _ GenP.hostOps10_writes hr

/-- After item 24, the host stretch hostOps10_1. -/
abbrev W25 : Dev nD → Valuation τ sig (Elt F) := fun c => StableHlo.after hostOps10_1 (W24 m c)
/-- The stretch leaves every buffer it does not write as it was. -/
theorem W25_of (c : Dev nD) (r : Ref sig .tc) (hr : r ∉ GenP.hostOps10_1_W) :
    W25 m c (Proc.devRef .tc r) = W24 m c (Proc.devRef .tc r) :=
  StableHlo.after_of_writes_sub hostOps10_1 _ GenP.hostOps10_1_writes hr

/-- The contents region 10 is entered from, read at the TensorCore's references. -/
abbrev V25 : (c : Dev nD) → (b : Ref sig .tc) → Buf (Elt F) ((c : Thread nD τ).loc b) := fun c b => W25 m c b
/-- After item 25, region 10: its windows' arrays at what the pipeline leaves (an input as entered, an output with every
    write-back folded in), every other buffer as entered. -/
def W26 (c : Dev nD) : Valuation τ sig (Elt F) :=
  Pipeline.withArrays spec10 c (W25 m c) fun w => (dat10 (V25 m) c).arrAt w cfg10.N
theorem W26_arr (c : Dev nD) (w : Fin cfg10.W) :
    W26 m c (Proc.devRef .tc (Pipeline.arrRef spec10 w)) = (dat10 (V25 m) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m c (Proc.devRef .tc b) = W25 m c (Proc.devRef .tc b) := by
  unfold W26; exact Pipeline.withArrays_of_ne spec10 c _ _ b hb
/-- The contents region 10 leaves, read at the TensorCore's references. -/
abbrev V26 : (c : Dev nD) → (b : Ref sig .tc) → Buf (Elt F) ((c : Thread nD τ).loc b) := fun c b => W26 m c b
theorem hF10 (c : Dev nD) (w : Fin cfg10.W) : (dat10 (V25 m) c).arrAt w cfg10.N = V26 m c (Pipeline.arrRef spec10 w) :=
  (W26_arr m c w).symm
theorem hrest10 (c : Dev nD) : ∀ b, b ∉ Finset.univ.image (Pipeline.arrRef spec10) → V26 m c b = V25 m c b :=
  fun b hb => W26_of_ne m c b fun w e => hb (Finset.mem_image.mpr ⟨w, Finset.mem_univ _, e⟩)
/-- The region leaves every buffer that is no output window's array as it was: an input window's array is only read. -/
theorem W26_of (c : Dev nD) (r : Ref sig .tc) (hr : ∀ w : Fin cfg10.W, (cfg10.win w).isOut = true → Pipeline.arrRef spec10 w ≠ r) :
    W26 m c (Proc.devRef .tc r) = W25 m c (Proc.devRef .tc r) := by
  by_cases hx : ∃ w, Pipeline.arrRef spec10 w = r
  · obtain ⟨w, rfl⟩ := hx
    have hin : (cfg10.win w).isOut = false := by
      cases hb : (cfg10.win w).isOut
      · rfl
      · exact absurd rfl (hr w hb)
    exact (W26_arr m c w).trans (((dat10 (V25 m) c).arrAt_in w hin _).trans (A_eq10 (V25 m) c w))
  · exact W26_of_ne m c r fun w e => hx ⟨w, e⟩

/-- After item 26, the host stretch hostOps11. -/
abbrev W27 : Dev nD → Valuation τ sig (Elt F) := fun c => StableHlo.after hostOps11 (W26 m c)
/-- The stretch leaves every buffer it does not write as it was. -/
theorem W27_of (c : Dev nD) (r : Ref sig .tc) (hr : r ∉ GenP.hostOps11_W) :
    W27 m c (Proc.devRef .tc r) = W26 m c (Proc.devRef .tc r) :=
  StableHlo.after_of_writes_sub hostOps11 _ GenP.hostOps11_writes hr

/-- The contents region 11 is entered from, read at the TensorCore's references. -/
abbrev V27 : (c : Dev nD) → (b : Ref sig .tc) → Buf (Elt F) ((c : Thread nD τ).loc b) := fun c b => W27 m c b
/-- After item 27, region 11: its windows' arrays at what the pipeline leaves (an input as entered, an output with every
    write-back folded in), every other buffer as entered. -/
def W28 (c : Dev nD) : Valuation τ sig (Elt F) :=
  Pipeline.withArrays spec11 c (W27 m c) fun w => (dat11 (V27 m) c).arrAt w cfg11.N
theorem W28_arr (c : Dev nD) (w : Fin cfg11.W) :
    W28 m c (Proc.devRef .tc (Pipeline.arrRef spec11 w)) = (dat11 (V27 m) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m c (Proc.devRef .tc b) = W27 m c (Proc.devRef .tc b) := by
  unfold W28; exact Pipeline.withArrays_of_ne spec11 c _ _ b hb
/-- The contents region 11 leaves, read at the TensorCore's references. -/
abbrev V28 : (c : Dev nD) → (b : Ref sig .tc) → Buf (Elt F) ((c : Thread nD τ).loc b) := fun c b => W28 m c b
theorem hF11 (c : Dev nD) (w : Fin cfg11.W) : (dat11 (V27 m) c).arrAt w cfg11.N = V28 m c (Pipeline.arrRef spec11 w) :=
  (W28_arr m c w).symm
theorem hrest11 (c : Dev nD) : ∀ b, b ∉ Finset.univ.image (Pipeline.arrRef spec11) → V28 m c b = V27 m c b :=
  fun b hb => W28_of_ne m c b fun w e => hb (Finset.mem_image.mpr ⟨w, Finset.mem_univ _, e⟩)
/-- The region leaves every buffer that is no output window's array as it was: an input window's array is only read. -/
theorem W28_of (c : Dev nD) (r : Ref sig .tc) (hr : ∀ w : Fin cfg11.W, (cfg11.win w).isOut = true → Pipeline.arrRef spec11 w ≠ r) :
    W28 m c (Proc.devRef .tc r) = W27 m c (Proc.devRef .tc r) := by
  by_cases hx : ∃ w, Pipeline.arrRef spec11 w = r
  · obtain ⟨w, rfl⟩ := hx
    have hin : (cfg11.win w).isOut = false := by
      cases hb : (cfg11.win w).isOut
      · rfl
      · exact absurd rfl (hr w hb)
    exact (W28_arr m c w).trans (((dat11 (V27 m) c).arrAt_in w hin _).trans (A_eq11 (V27 m) c w))
  · exact W28_of_ne m c r fun w e => hx ⟨w, e⟩

/-- After item 28, the host stretch hostOps12. -/
abbrev W29 : Dev nD → Valuation τ sig (Elt F) := fun c => StableHlo.after hostOps12 (W28 m c)
/-- The stretch leaves every buffer it does not write as it was. -/
theorem W29_of (c : Dev nD) (r : Ref sig .tc) (hr : r ∉ GenP.hostOps12_W) :
    W29 m c (Proc.devRef .tc r) = W28 m c (Proc.devRef .tc r) :=
  StableHlo.after_of_writes_sub hostOps12 _ GenP.hostOps12_writes hr

/-- The contents region 12 is entered from, read at the TensorCore's references. -/
abbrev V29 : (c : Dev nD) → (b : Ref sig .tc) → Buf (Elt F) ((c : Thread nD τ).loc b) := fun c b => W29 m c b
/-- After item 29, region 12: its windows' arrays at what the pipeline leaves (an input as entered, an output with every
    write-back folded in), every other buffer as entered. -/
def W30 (c : Dev nD) : Valuation τ sig (Elt F) :=
  Pipeline.withArrays spec12 c (W29 m c) fun w => (dat12 (V29 m) c).arrAt w cfg12.N
theorem W30_arr (c : Dev nD) (w : Fin cfg12.W) :
    W30 m c (Proc.devRef .tc (Pipeline.arrRef spec12 w)) = (dat12 (V29 m) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m c (Proc.devRef .tc b) = W29 m c (Proc.devRef .tc b) := by
  unfold W30; exact Pipeline.withArrays_of_ne spec12 c _ _ b hb
/-- The contents region 12 leaves, read at the TensorCore's references. -/
abbrev V30 : (c : Dev nD) → (b : Ref sig .tc) → Buf (Elt F) ((c : Thread nD τ).loc b) := fun c b => W30 m c b
theorem hF12 (c : Dev nD) (w : Fin cfg12.W) : (dat12 (V29 m) c).arrAt w cfg12.N = V30 m c (Pipeline.arrRef spec12 w) :=
  (W30_arr m c w).symm
theorem hrest12 (c : Dev nD) : ∀ b, b ∉ Finset.univ.image (Pipeline.arrRef spec12) → V30 m c b = V29 m c b :=
  fun b hb => W30_of_ne m c b fun w e => hb (Finset.mem_image.mpr ⟨w, Finset.mem_univ _, e⟩)
/-- The region leaves every buffer that is no output window's array as it was: an input window's array is only read. -/
theorem W30_of (c : Dev nD) (r : Ref sig .tc) (hr : ∀ w : Fin cfg12.W, (cfg12.win w).isOut = true → Pipeline.arrRef spec12 w ≠ r) :
    W30 m c (Proc.devRef .tc r) = W29 m c (Proc.devRef .tc r) := by
  by_cases hx : ∃ w, Pipeline.arrRef spec12 w = r
  · obtain ⟨w, rfl⟩ := hx
    have hin : (cfg12.win w).isOut = false := by
      cases hb : (cfg12.win w).isOut
      · rfl
      · exact absurd rfl (hr w hb)
    exact (W30_arr m c w).trans (((dat12 (V29 m) c).arrAt_in w hin _).trans (A_eq12 (V29 m) c w))
  · exact W30_of_ne m c r fun w e => hx ⟨w, e⟩

/-- After item 30, the host stretch hostOps13. -/
abbrev W31 : Dev nD → Valuation τ sig (Elt F) := fun c => StableHlo.after hostOps13 (W30 m c)
/-- The stretch leaves every buffer it does not write as it was. -/
theorem W31_of (c : Dev nD) (r : Ref sig .tc) (hr : r ∉ GenP.hostOps13_W) :
    W31 m c (Proc.devRef .tc r) = W30 m c (Proc.devRef .tc r) :=
  StableHlo.after_of_writes_sub hostOps13 _ GenP.hostOps13_writes hr

/-- After item 31, the host stretch hostOps13_1. -/
abbrev W32 : Dev nD → Valuation τ sig (Elt F) := fun c => StableHlo.after hostOps13_1 (W31 m c)
/-- The stretch leaves every buffer it does not write as it was. -/
theorem W32_of (c : Dev nD) (r : Ref sig .tc) (hr : r ∉ GenP.hostOps13_1_W) :
    W32 m c (Proc.devRef .tc r) = W31 m c (Proc.devRef .tc r) :=
  StableHlo.after_of_writes_sub hostOps13_1 _ GenP.hostOps13_1_writes hr

/-- The contents region 13 is entered from, read at the TensorCore's references. -/
abbrev V32 : (c : Dev nD) → (b : Ref sig .tc) → Buf (Elt F) ((c : Thread nD τ).loc b) := fun c b => W32 m c b
/-- After item 32, region 13: its windows' arrays at what the pipeline leaves (an input as entered, an output with every
    write-back folded in), every other buffer as entered. -/
def W33 (c : Dev nD) : Valuation τ sig (Elt F) :=
  Pipeline.withArrays spec13 c (W32 m c) fun w => (dat13 (V32 m) c).arrAt w cfg13.N
theorem W33_arr (c : Dev nD) (w : Fin cfg13.W) :
    W33 m c (Proc.devRef .tc (Pipeline.arrRef spec13 w)) = (dat13 (V32 m) c).arrAt w cfg13.N := by
  unfold W33; exact Pipeline.withArrays_arr spec13 launch13.win.arr_inj c _ _ w
theorem W33_of_ne (c : Dev nD) (b : Ref sig .tc) (hb : ∀ w, Pipeline.arrRef spec13 w ≠ b) :
    W33 m c (Proc.devRef .tc b) = W32 m c (Proc.devRef .tc b) := by
  unfold W33; exact Pipeline.withArrays_of_ne spec13 c _ _ b hb
/-- The contents region 13 leaves, read at the TensorCore's references. -/
abbrev V33 : (c : Dev nD) → (b : Ref sig .tc) → Buf (Elt F) ((c : Thread nD τ).loc b) := fun c b => W33 m c b
theorem hF13 (c : Dev nD) (w : Fin cfg13.W) : (dat13 (V32 m) c).arrAt w cfg13.N = V33 m c (Pipeline.arrRef spec13 w) :=
  (W33_arr m c w).symm
theorem hrest13 (c : Dev nD) : ∀ b, b ∉ Finset.univ.image (Pipeline.arrRef spec13) → V33 m c b = V32 m c b :=
  fun b hb => W33_of_ne m c b fun w e => hb (Finset.mem_image.mpr ⟨w, Finset.mem_univ _, e⟩)
/-- The region leaves every buffer that is no output window's array as it was: an input window's array is only read. -/
theorem W33_of (c : Dev nD) (r : Ref sig .tc) (hr : ∀ w : Fin cfg13.W, (cfg13.win w).isOut = true → Pipeline.arrRef spec13 w ≠ r) :
    W33 m c (Proc.devRef .tc r) = W32 m c (Proc.devRef .tc r) := by
  by_cases hx : ∃ w, Pipeline.arrRef spec13 w = r
  · obtain ⟨w, rfl⟩ := hx
    have hin : (cfg13.win w).isOut = false := by
      cases hb : (cfg13.win w).isOut
      · rfl
      · exact absurd rfl (hr w hb)
    exact (W33_arr m c w).trans (((dat13 (V32 m) c).arrAt_in w hin _).trans (A_eq13 (V32 m) c w))
  · exact W33_of_ne m c r fun w e => hx ⟨w, e⟩

/-- After item 33, the host stretch hostOps14. -/
abbrev W34 : Dev nD → Valuation τ sig (Elt F) := fun c => StableHlo.after hostOps14 (W33 m c)
/-- The stretch leaves every buffer it does not write as it was. -/
theorem W34_of (c : Dev nD) (r : Ref sig .tc) (hr : r ∉ GenP.hostOps14_W) :
    W34 m c (Proc.devRef .tc r) = W33 m c (Proc.devRef .tc r) :=
  StableHlo.after_of_writes_sub hostOps14 _ GenP.hostOps14_writes hr

/-- The contents region 14 is entered from, read at the TensorCore's references. -/
abbrev V34 : (c : Dev nD) → (b : Ref sig .tc) → Buf (Elt F) ((c : Thread nD τ).loc b) := fun c b => W34 m c b
/-- After item 34, region 14: its windows' arrays at what the pipeline leaves (an input as entered, an output with every
    write-back folded in), every other buffer as entered. -/
def W35 (c : Dev nD) : Valuation τ sig (Elt F) :=
  Pipeline.withArrays spec14 c (W34 m c) fun w => (dat14 (V34 m) c).arrAt w cfg14.N
theorem W35_arr (c : Dev nD) (w : Fin cfg14.W) :
    W35 m c (Proc.devRef .tc (Pipeline.arrRef spec14 w)) = (dat14 (V34 m) c).arrAt w cfg14.N := by
  unfold W35; exact Pipeline.withArrays_arr spec14 launch14.win.arr_inj c _ _ w
theorem W35_of_ne (c : Dev nD) (b : Ref sig .tc) (hb : ∀ w, Pipeline.arrRef spec14 w ≠ b) :
    W35 m c (Proc.devRef .tc b) = W34 m c (Proc.devRef .tc b) := by
  unfold W35; exact Pipeline.withArrays_of_ne spec14 c _ _ b hb
/-- The contents region 14 leaves, read at the TensorCore's references. -/
abbrev V35 : (c : Dev nD) → (b : Ref sig .tc) → Buf (Elt F) ((c : Thread nD τ).loc b) := fun c b => W35 m c b
theorem hF14 (c : Dev nD) (w : Fin cfg14.W) : (dat14 (V34 m) c).arrAt w cfg14.N = V35 m c (Pipeline.arrRef spec14 w) :=
  (W35_arr m c w).symm
theorem hrest14 (c : Dev nD) : ∀ b, b ∉ Finset.univ.image (Pipeline.arrRef spec14) → V35 m c b = V34 m c b :=
  fun b hb => W35_of_ne m c b fun w e => hb (Finset.mem_image.mpr ⟨w, Finset.mem_univ _, e⟩)
/-- The region leaves every buffer that is no output window's array as it was: an input window's array is only read. -/
theorem W35_of (c : Dev nD) (r : Ref sig .tc) (hr : ∀ w : Fin cfg14.W, (cfg14.win w).isOut = true → Pipeline.arrRef spec14 w ≠ r) :
    W35 m c (Proc.devRef .tc r) = W34 m c (Proc.devRef .tc r) := by
  by_cases hx : ∃ w, Pipeline.arrRef spec14 w = r
  · obtain ⟨w, rfl⟩ := hx
    have hin : (cfg14.win w).isOut = false := by
      cases hb : (cfg14.win w).isOut
      · rfl
      · exact absurd rfl (hr w hb)
    exact (W35_arr m c w).trans (((dat14 (V34 m) c).arrAt_in w hin _).trans (A_eq14 (V34 m) c w))
  · exact W35_of_ne m c r fun w e => hx ⟨w, e⟩

/-- After item 35, the host stretch hostOps15. -/
abbrev W36 : Dev nD → Valuation τ sig (Elt F) := fun c => StableHlo.after hostOps15 (W35 m c)
/-- The stretch leaves every buffer it does not write as it was. -/
theorem W36_of (c : Dev nD) (r : Ref sig .tc) (hr : r ∉ GenP.hostOps15_W) :
    W36 m c (Proc.devRef .tc r) = W35 m c (Proc.devRef .tc r) :=
  StableHlo.after_of_writes_sub hostOps15 _ GenP.hostOps15_writes hr

/-- The contents region 15 is entered from, read at the TensorCore's references. -/
abbrev V36 : (c : Dev nD) → (b : Ref sig .tc) → Buf (Elt F) ((c : Thread nD τ).loc b) := fun c b => W36 m c b
/-- After item 36, region 15: its windows' arrays at what the pipeline leaves (an input as entered, an output with every
    write-back folded in), every other buffer as entered. -/
def W37 (c : Dev nD) : Valuation τ sig (Elt F) :=
  Pipeline.withArrays spec15 c (W36 m c) fun w => (dat15 (V36 m) c).arrAt w cfg15.N
theorem W37_arr (c : Dev nD) (w : Fin cfg15.W) :
    W37 m c (Proc.devRef .tc (Pipeline.arrRef spec15 w)) = (dat15 (V36 m) c).arrAt w cfg15.N := by
  unfold W37; exact Pipeline.withArrays_arr spec15 launch15.win.arr_inj c _ _ w
theorem W37_of_ne (c : Dev nD) (b : Ref sig .tc) (hb : ∀ w, Pipeline.arrRef spec15 w ≠ b) :
    W37 m c (Proc.devRef .tc b) = W36 m c (Proc.devRef .tc b) := by
  unfold W37; exact Pipeline.withArrays_of_ne spec15 c _ _ b hb
/-- The contents region 15 leaves, read at the TensorCore's references. -/
abbrev V37 : (c : Dev nD) → (b : Ref sig .tc) → Buf (Elt F) ((c : Thread nD τ).loc b) := fun c b => W37 m c b
theorem hF15 (c : Dev nD) (w : Fin cfg15.W) : (dat15 (V36 m) c).arrAt w cfg15.N = V37 m c (Pipeline.arrRef spec15 w) :=
  (W37_arr m c w).symm
theorem hrest15 (c : Dev nD) : ∀ b, b ∉ Finset.univ.image (Pipeline.arrRef spec15) → V37 m c b = V36 m c b :=
  fun b hb => W37_of_ne m c b fun w e => hb (Finset.mem_image.mpr ⟨w, Finset.mem_univ _, e⟩)
/-- The region leaves every buffer that is no output window's array as it was: an input window's array is only read. -/
theorem W37_of (c : Dev nD) (r : Ref sig .tc) (hr : ∀ w : Fin cfg15.W, (cfg15.win w).isOut = true → Pipeline.arrRef spec15 w ≠ r) :
    W37 m c (Proc.devRef .tc r) = W36 m c (Proc.devRef .tc r) := by
  by_cases hx : ∃ w, Pipeline.arrRef spec15 w = r
  · obtain ⟨w, rfl⟩ := hx
    have hin : (cfg15.win w).isOut = false := by
      cases hb : (cfg15.win w).isOut
      · rfl
      · exact absurd rfl (hr w hb)
    exact (W37_arr m c w).trans (((dat15 (V36 m) c).arrAt_in w hin _).trans (A_eq15 (V36 m) c w))
  · exact W37_of_ne m c r fun w e => hx ⟨w, e⟩

/-- After item 37, the host stretch hostOps16. -/
abbrev W38 : Dev nD → Valuation τ sig (Elt F) := fun c => StableHlo.after hostOps16 (W37 m c)
/-- The stretch leaves every buffer it does not write as it was. -/
theorem W38_of (c : Dev nD) (r : Ref sig .tc) (hr : r ∉ GenP.hostOps16_W) :
    W38 m c (Proc.devRef .tc r) = W37 m c (Proc.devRef .tc r) :=
  StableHlo.after_of_writes_sub hostOps16 _ GenP.hostOps16_writes hr

/-- After item 38, the host stretch hostOps16_1. -/
abbrev W39 : Dev nD → Valuation τ sig (Elt F) := fun c => StableHlo.after hostOps16_1 (W38 m c)
/-- The stretch leaves every buffer it does not write as it was. -/
theorem W39_of (c : Dev nD) (r : Ref sig .tc) (hr : r ∉ GenP.hostOps16_1_W) :
    W39 m c (Proc.devRef .tc r) = W38 m c (Proc.devRef .tc r) :=
  StableHlo.after_of_writes_sub hostOps16_1 _ GenP.hostOps16_1_writes hr

/-- The contents region 16 is entered from, read at the TensorCore's references. -/
abbrev V39 : (c : Dev nD) → (b : Ref sig .tc) → Buf (Elt F) ((c : Thread nD τ).loc b) := fun c b => W39 m c b
/-- After item 39, region 16: its windows' arrays at what the pipeline leaves (an input as entered, an output with every
    write-back folded in), every other buffer as entered. -/
def W40 (c : Dev nD) : Valuation τ sig (Elt F) :=
  Pipeline.withArrays spec16 c (W39 m c) fun w => (dat16 (V39 m) c).arrAt w cfg16.N
theorem W40_arr (c : Dev nD) (w : Fin cfg16.W) :
    W40 m c (Proc.devRef .tc (Pipeline.arrRef spec16 w)) = (dat16 (V39 m) c).arrAt w cfg16.N := by
  unfold W40; exact Pipeline.withArrays_arr spec16 launch16.win.arr_inj c _ _ w
theorem W40_of_ne (c : Dev nD) (b : Ref sig .tc) (hb : ∀ w, Pipeline.arrRef spec16 w ≠ b) :
    W40 m c (Proc.devRef .tc b) = W39 m c (Proc.devRef .tc b) := by
  unfold W40; exact Pipeline.withArrays_of_ne spec16 c _ _ b hb
/-- The contents region 16 leaves, read at the TensorCore's references. -/
abbrev V40 : (c : Dev nD) → (b : Ref sig .tc) → Buf (Elt F) ((c : Thread nD τ).loc b) := fun c b => W40 m c b
theorem hF16 (c : Dev nD) (w : Fin cfg16.W) : (dat16 (V39 m) c).arrAt w cfg16.N = V40 m c (Pipeline.arrRef spec16 w) :=
  (W40_arr m c w).symm
theorem hrest16 (c : Dev nD) : ∀ b, b ∉ Finset.univ.image (Pipeline.arrRef spec16) → V40 m c b = V39 m c b :=
  fun b hb => W40_of_ne m c b fun w e => hb (Finset.mem_image.mpr ⟨w, Finset.mem_univ _, e⟩)
/-- The region leaves every buffer that is no output window's array as it was: an input window's array is only read. -/
theorem W40_of (c : Dev nD) (r : Ref sig .tc) (hr : ∀ w : Fin cfg16.W, (cfg16.win w).isOut = true → Pipeline.arrRef spec16 w ≠ r) :
    W40 m c (Proc.devRef .tc r) = W39 m c (Proc.devRef .tc r) := by
  by_cases hx : ∃ w, Pipeline.arrRef spec16 w = r
  · obtain ⟨w, rfl⟩ := hx
    have hin : (cfg16.win w).isOut = false := by
      cases hb : (cfg16.win w).isOut
      · rfl
      · exact absurd rfl (hr w hb)
    exact (W40_arr m c w).trans (((dat16 (V39 m) c).arrAt_in w hin _).trans (A_eq16 (V39 m) c w))
  · exact W40_of_ne m c r fun w e => hx ⟨w, e⟩

/-- After item 40, the host stretch hostOps17. -/
abbrev W41 : Dev nD → Valuation τ sig (Elt F) := fun c => StableHlo.after hostOps17 (W40 m c)
/-- The stretch leaves every buffer it does not write as it was. -/
theorem W41_of (c : Dev nD) (r : Ref sig .tc) (hr : r ∉ GenP.hostOps17_W) :
    W41 m c (Proc.devRef .tc r) = W40 m c (Proc.devRef .tc r) :=
  StableHlo.after_of_writes_sub hostOps17 _ GenP.hostOps17_writes hr

/-- The contents region 17 is entered from, read at the TensorCore's references. -/
abbrev V41 : (c : Dev nD) → (b : Ref sig .tc) → Buf (Elt F) ((c : Thread nD τ).loc b) := fun c b => W41 m c b
/-- After item 41, region 17: its windows' arrays at what the pipeline leaves (an input as entered, an output with every
    write-back folded in), every other buffer as entered. -/
def W42 (c : Dev nD) : Valuation τ sig (Elt F) :=
  Pipeline.withArrays spec17 c (W41 m c) fun w => (dat17 (V41 m) c).arrAt w cfg17.N
theorem W42_arr (c : Dev nD) (w : Fin cfg17.W) :
    W42 m c (Proc.devRef .tc (Pipeline.arrRef spec17 w)) = (dat17 (V41 m) c).arrAt w cfg17.N := by
  unfold W42; exact Pipeline.withArrays_arr spec17 launch17.win.arr_inj c _ _ w
theorem W42_of_ne (c : Dev nD) (b : Ref sig .tc) (hb : ∀ w, Pipeline.arrRef spec17 w ≠ b) :
    W42 m c (Proc.devRef .tc b) = W41 m c (Proc.devRef .tc b) := by
  unfold W42; exact Pipeline.withArrays_of_ne spec17 c _ _ b hb
/-- The contents region 17 leaves, read at the TensorCore's references. -/
abbrev V42 : (c : Dev nD) → (b : Ref sig .tc) → Buf (Elt F) ((c : Thread nD τ).loc b) := fun c b => W42 m c b
theorem hF17 (c : Dev nD) (w : Fin cfg17.W) : (dat17 (V41 m) c).arrAt w cfg17.N = V42 m c (Pipeline.arrRef spec17 w) :=
  (W42_arr m c w).symm
theorem hrest17 (c : Dev nD) : ∀ b, b ∉ Finset.univ.image (Pipeline.arrRef spec17) → V42 m c b = V41 m c b :=
  fun b hb => W42_of_ne m c b fun w e => hb (Finset.mem_image.mpr ⟨w, Finset.mem_univ _, e⟩)
/-- The region leaves every buffer that is no output window's array as it was: an input window's array is only read. -/
theorem W42_of (c : Dev nD) (r : Ref sig .tc) (hr : ∀ w : Fin cfg17.W, (cfg17.win w).isOut = true → Pipeline.arrRef spec17 w ≠ r) :
    W42 m c (Proc.devRef .tc r) = W41 m c (Proc.devRef .tc r) := by
  by_cases hx : ∃ w, Pipeline.arrRef spec17 w = r
  · obtain ⟨w, rfl⟩ := hx
    have hin : (cfg17.win w).isOut = false := by
      cases hb : (cfg17.win w).isOut
      · rfl
      · exact absurd rfl (hr w hb)
    exact (W42_arr m c w).trans (((dat17 (V41 m) c).arrAt_in w hin _).trans (A_eq17 (V41 m) c w))
  · exact W42_of_ne m c r fun w e => hx ⟨w, e⟩

/-- After item 42, the host stretch hostOps18. -/
abbrev W43 : Dev nD → Valuation τ sig (Elt F) := fun c => StableHlo.after hostOps18 (W42 m c)
/-- The stretch leaves every buffer it does not write as it was. -/
theorem W43_of (c : Dev nD) (r : Ref sig .tc) (hr : r ∉ GenP.hostOps18_W) :
    W43 m c (Proc.devRef .tc r) = W42 m c (Proc.devRef .tc r) :=
  StableHlo.after_of_writes_sub hostOps18 _ GenP.hostOps18_writes hr

/-- The contents region 18 is entered from, read at the TensorCore's references. -/
abbrev V43 : (c : Dev nD) → (b : Ref sig .tc) → Buf (Elt F) ((c : Thread nD τ).loc b) := fun c b => W43 m c b
/-- After item 43, region 18: its windows' arrays at what the pipeline leaves (an input as entered, an output with every
    write-back folded in), every other buffer as entered. -/
def W44 (c : Dev nD) : Valuation τ sig (Elt F) :=
  Pipeline.withArrays spec18 c (W43 m c) fun w => (dat18 (V43 m) c).arrAt w cfg18.N
theorem W44_arr (c : Dev nD) (w : Fin cfg18.W) :
    W44 m c (Proc.devRef .tc (Pipeline.arrRef spec18 w)) = (dat18 (V43 m) c).arrAt w cfg18.N := by
  unfold W44; exact Pipeline.withArrays_arr spec18 launch18.win.arr_inj c _ _ w
theorem W44_of_ne (c : Dev nD) (b : Ref sig .tc) (hb : ∀ w, Pipeline.arrRef spec18 w ≠ b) :
    W44 m c (Proc.devRef .tc b) = W43 m c (Proc.devRef .tc b) := by
  unfold W44; exact Pipeline.withArrays_of_ne spec18 c _ _ b hb
/-- The contents region 18 leaves, read at the TensorCore's references. -/
abbrev V44 : (c : Dev nD) → (b : Ref sig .tc) → Buf (Elt F) ((c : Thread nD τ).loc b) := fun c b => W44 m c b
theorem hF18 (c : Dev nD) (w : Fin cfg18.W) : (dat18 (V43 m) c).arrAt w cfg18.N = V44 m c (Pipeline.arrRef spec18 w) :=
  (W44_arr m c w).symm
theorem hrest18 (c : Dev nD) : ∀ b, b ∉ Finset.univ.image (Pipeline.arrRef spec18) → V44 m c b = V43 m c b :=
  fun b hb => W44_of_ne m c b fun w e => hb (Finset.mem_image.mpr ⟨w, Finset.mem_univ _, e⟩)
/-- The region leaves every buffer that is no output window's array as it was: an input window's array is only read. -/
theorem W44_of (c : Dev nD) (r : Ref sig .tc) (hr : ∀ w : Fin cfg18.W, (cfg18.win w).isOut = true → Pipeline.arrRef spec18 w ≠ r) :
    W44 m c (Proc.devRef .tc r) = W43 m c (Proc.devRef .tc r) := by
  by_cases hx : ∃ w, Pipeline.arrRef spec18 w = r
  · obtain ⟨w, rfl⟩ := hx
    have hin : (cfg18.win w).isOut = false := by
      cases hb : (cfg18.win w).isOut
      · rfl
      · exact absurd rfl (hr w hb)
    exact (W44_arr m c w).trans (((dat18 (V43 m) c).arrAt_in w hin _).trans (A_eq18 (V43 m) c w))
  · exact W44_of_ne m c r fun w e => hx ⟨w, e⟩

/-! ## The arguments end as launched: no host stretch writes one, and a region reads one at most through an input window -/

theorem W44_main_arg0 (c : Dev nD) : W44 m c (Proc.devRef .tc main_arg0) = m ((c : Thread nD τ).loc main_arg0) :=
  (W44_of m c main_arg0 (by decide)).trans <|
  (W43_of m c main_arg0 (by decide)).trans <|
  (W42_of m c main_arg0 (by decide)).trans <|
  (W41_of m c main_arg0 (by decide)).trans <|
  (W40_of m c main_arg0 (by decide)).trans <|
  (W39_of m c main_arg0 (by decide)).trans <|
  (W38_of m c main_arg0 (by decide)).trans <|
  (W37_of m c main_arg0 (by decide)).trans <|
  (W36_of m c main_arg0 (by decide)).trans <|
  (W35_of m c main_arg0 (by decide)).trans <|
  (W34_of m c main_arg0 (by decide)).trans <|
  (W33_of m c main_arg0 (by decide)).trans <|
  (W32_of m c main_arg0 (by decide)).trans <|
  (W31_of m c main_arg0 (by decide)).trans <|
  (W30_of m c main_arg0 (by decide)).trans <|
  (W29_of m c main_arg0 (by decide)).trans <|
  (W28_of m c main_arg0 (by decide)).trans <|
  (W27_of m c main_arg0 (by decide)).trans <|
  (W26_of m c main_arg0 (by decide)).trans <|
  (W25_of m c main_arg0 (by decide)).trans <|
  (W24_of m c main_arg0 (by decide)).trans <|
  (W23_of m c main_arg0 (by decide)).trans <|
  (W22_of m c main_arg0 (by decide)).trans <|
  (W21_of m c main_arg0 (by decide)).trans <|
  (W20_of m c main_arg0 (by decide)).trans <|
  (W19_of m c main_arg0 (by decide)).trans <|
  (W18_of m c main_arg0 (by decide)).trans <|
  (W17_of m c main_arg0 (by decide)).trans <|
  (W16_of m c main_arg0 (by decide)).trans <|
  (W15_of m c main_arg0 (by decide)).trans <|
  (W14_of m c main_arg0 (by decide)).trans <|
  (W13_of m c main_arg0 (by decide)).trans <|
  (W12_of m c main_arg0 (by decide)).trans <|
  (W11_of m c main_arg0 (by decide)).trans <|
  (W10_of m c main_arg0 (by decide)).trans <|
  (W9_of m c main_arg0 (by decide)).trans <|
  (W8_of m c main_arg0 (by decide)).trans <|
  (W7_of m c main_arg0 (by decide)).trans <|
  (W6_of m c main_arg0 (by decide)).trans <|
  (W5_of m c main_arg0 (by decide)).trans <|
  (W4_of m c main_arg0 (by decide)).trans <|
  (W3_of m c main_arg0 (by decide)).trans <|
  (W2_of m c main_arg0 (by decide)).trans <|
  (W1_of m c main_arg0 (by decide)).trans rfl

theorem W44_main_arg1 (c : Dev nD) : W44 m c (Proc.devRef .tc main_arg1) = m ((c : Thread nD τ).loc main_arg1) :=
  (W44_of m c main_arg1 (by decide)).trans <|
  (W43_of m c main_arg1 (by decide)).trans <|
  (W42_of m c main_arg1 (by decide)).trans <|
  (W41_of m c main_arg1 (by decide)).trans <|
  (W40_of m c main_arg1 (by decide)).trans <|
  (W39_of m c main_arg1 (by decide)).trans <|
  (W38_of m c main_arg1 (by decide)).trans <|
  (W37_of m c main_arg1 (by decide)).trans <|
  (W36_of m c main_arg1 (by decide)).trans <|
  (W35_of m c main_arg1 (by decide)).trans <|
  (W34_of m c main_arg1 (by decide)).trans <|
  (W33_of m c main_arg1 (by decide)).trans <|
  (W32_of m c main_arg1 (by decide)).trans <|
  (W31_of m c main_arg1 (by decide)).trans <|
  (W30_of m c main_arg1 (by decide)).trans <|
  (W29_of m c main_arg1 (by decide)).trans <|
  (W28_of m c main_arg1 (by decide)).trans <|
  (W27_of m c main_arg1 (by decide)).trans <|
  (W26_of m c main_arg1 (by decide)).trans <|
  (W25_of m c main_arg1 (by decide)).trans <|
  (W24_of m c main_arg1 (by decide)).trans <|
  (W23_of m c main_arg1 (by decide)).trans <|
  (W22_of m c main_arg1 (by decide)).trans <|
  (W21_of m c main_arg1 (by decide)).trans <|
  (W20_of m c main_arg1 (by decide)).trans <|
  (W19_of m c main_arg1 (by decide)).trans <|
  (W18_of m c main_arg1 (by decide)).trans <|
  (W17_of m c main_arg1 (by decide)).trans <|
  (W16_of m c main_arg1 (by decide)).trans <|
  (W15_of m c main_arg1 (by decide)).trans <|
  (W14_of m c main_arg1 (by decide)).trans <|
  (W13_of m c main_arg1 (by decide)).trans <|
  (W12_of m c main_arg1 (by decide)).trans <|
  (W11_of m c main_arg1 (by decide)).trans <|
  (W10_of m c main_arg1 (by decide)).trans <|
  (W9_of m c main_arg1 (by decide)).trans <|
  (W8_of m c main_arg1 (by decide)).trans <|
  (W7_of m c main_arg1 (by decide)).trans <|
  (W6_of m c main_arg1 (by decide)).trans <|
  (W5_of m c main_arg1 (by decide)).trans <|
  (W4_of m c main_arg1 (by decide)).trans <|
  (W3_of m c main_arg1 (by decide)).trans <|
  (W2_of m c main_arg1 (by decide)).trans <|
  (W1_of m c main_arg1 (by decide)).trans rfl

theorem W44_main_arg2 (c : Dev nD) : W44 m c (Proc.devRef .tc main_arg2) = m ((c : Thread nD τ).loc main_arg2) :=
  (W44_of m c main_arg2 (by decide)).trans <|
  (W43_of m c main_arg2 (by decide)).trans <|
  (W42_of m c main_arg2 (by decide)).trans <|
  (W41_of m c main_arg2 (by decide)).trans <|
  (W40_of m c main_arg2 (by decide)).trans <|
  (W39_of m c main_arg2 (by decide)).trans <|
  (W38_of m c main_arg2 (by decide)).trans <|
  (W37_of m c main_arg2 (by decide)).trans <|
  (W36_of m c main_arg2 (by decide)).trans <|
  (W35_of m c main_arg2 (by decide)).trans <|
  (W34_of m c main_arg2 (by decide)).trans <|
  (W33_of m c main_arg2 (by decide)).trans <|
  (W32_of m c main_arg2 (by decide)).trans <|
  (W31_of m c main_arg2 (by decide)).trans <|
  (W30_of m c main_arg2 (by decide)).trans <|
  (W29_of m c main_arg2 (by decide)).trans <|
  (W28_of m c main_arg2 (by decide)).trans <|
  (W27_of m c main_arg2 (by decide)).trans <|
  (W26_of m c main_arg2 (by decide)).trans <|
  (W25_of m c main_arg2 (by decide)).trans <|
  (W24_of m c main_arg2 (by decide)).trans <|
  (W23_of m c main_arg2 (by decide)).trans <|
  (W22_of m c main_arg2 (by decide)).trans <|
  (W21_of m c main_arg2 (by decide)).trans <|
  (W20_of m c main_arg2 (by decide)).trans <|
  (W19_of m c main_arg2 (by decide)).trans <|
  (W18_of m c main_arg2 (by decide)).trans <|
  (W17_of m c main_arg2 (by decide)).trans <|
  (W16_of m c main_arg2 (by decide)).trans <|
  (W15_of m c main_arg2 (by decide)).trans <|
  (W14_of m c main_arg2 (by decide)).trans <|
  (W13_of m c main_arg2 (by decide)).trans <|
  (W12_of m c main_arg2 (by decide)).trans <|
  (W11_of m c main_arg2 (by decide)).trans <|
  (W10_of m c main_arg2 (by decide)).trans <|
  (W9_of m c main_arg2 (by decide)).trans <|
  (W8_of m c main_arg2 (by decide)).trans <|
  (W7_of m c main_arg2 (by decide)).trans <|
  (W6_of m c main_arg2 (by decide)).trans <|
  (W5_of m c main_arg2 (by decide)).trans <|
  (W4_of m c main_arg2 (by decide)).trans <|
  (W3_of m c main_arg2 (by decide)).trans <|
  (W2_of m c main_arg2 (by decide)).trans <|
  (W1_of m c main_arg2 (by decide)).trans rfl

theorem W44_main_arg3 (c : Dev nD) : W44 m c (Proc.devRef .tc main_arg3) = m ((c : Thread nD τ).loc main_arg3) :=
  (W44_of m c main_arg3 (by decide)).trans <|
  (W43_of m c main_arg3 (by decide)).trans <|
  (W42_of m c main_arg3 (by decide)).trans <|
  (W41_of m c main_arg3 (by decide)).trans <|
  (W40_of m c main_arg3 (by decide)).trans <|
  (W39_of m c main_arg3 (by decide)).trans <|
  (W38_of m c main_arg3 (by decide)).trans <|
  (W37_of m c main_arg3 (by decide)).trans <|
  (W36_of m c main_arg3 (by decide)).trans <|
  (W35_of m c main_arg3 (by decide)).trans <|
  (W34_of m c main_arg3 (by decide)).trans <|
  (W33_of m c main_arg3 (by decide)).trans <|
  (W32_of m c main_arg3 (by decide)).trans <|
  (W31_of m c main_arg3 (by decide)).trans <|
  (W30_of m c main_arg3 (by decide)).trans <|
  (W29_of m c main_arg3 (by decide)).trans <|
  (W28_of m c main_arg3 (by decide)).trans <|
  (W27_of m c main_arg3 (by decide)).trans <|
  (W26_of m c main_arg3 (by decide)).trans <|
  (W25_of m c main_arg3 (by decide)).trans <|
  (W24_of m c main_arg3 (by decide)).trans <|
  (W23_of m c main_arg3 (by decide)).trans <|
  (W22_of m c main_arg3 (by decide)).trans <|
  (W21_of m c main_arg3 (by decide)).trans <|
  (W20_of m c main_arg3 (by decide)).trans <|
  (W19_of m c main_arg3 (by decide)).trans <|
  (W18_of m c main_arg3 (by decide)).trans <|
  (W17_of m c main_arg3 (by decide)).trans <|
  (W16_of m c main_arg3 (by decide)).trans <|
  (W15_of m c main_arg3 (by decide)).trans <|
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl

theorem W44_main_arg4 (c : Dev nD) : W44 m c (Proc.devRef .tc main_arg4) = m ((c : Thread nD τ).loc main_arg4) :=
  (W44_of m c main_arg4 (by decide)).trans <|
  (W43_of m c main_arg4 (by decide)).trans <|
  (W42_of m c main_arg4 (by decide)).trans <|
  (W41_of m c main_arg4 (by decide)).trans <|
  (W40_of m c main_arg4 (by decide)).trans <|
  (W39_of m c main_arg4 (by decide)).trans <|
  (W38_of m c main_arg4 (by decide)).trans <|
  (W37_of m c main_arg4 (by decide)).trans <|
  (W36_of m c main_arg4 (by decide)).trans <|
  (W35_of m c main_arg4 (by decide)).trans <|
  (W34_of m c main_arg4 (by decide)).trans <|
  (W33_of m c main_arg4 (by decide)).trans <|
  (W32_of m c main_arg4 (by decide)).trans <|
  (W31_of m c main_arg4 (by decide)).trans <|
  (W30_of m c main_arg4 (by decide)).trans <|
  (W29_of m c main_arg4 (by decide)).trans <|
  (W28_of m c main_arg4 (by decide)).trans <|
  (W27_of m c main_arg4 (by decide)).trans <|
  (W26_of m c main_arg4 (by decide)).trans <|
  (W25_of m c main_arg4 (by decide)).trans <|
  (W24_of m c main_arg4 (by decide)).trans <|
  (W23_of m c main_arg4 (by decide)).trans <|
  (W22_of m c main_arg4 (by decide)).trans <|
  (W21_of m c main_arg4 (by decide)).trans <|
  (W20_of m c main_arg4 (by decide)).trans <|
  (W19_of m c main_arg4 (by decide)).trans <|
  (W18_of m c main_arg4 (by decide)).trans <|
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl

theorem W44_main_arg5 (c : Dev nD) : W44 m c (Proc.devRef .tc main_arg5) = m ((c : Thread nD τ).loc main_arg5) :=
  (W44_of m c main_arg5 (by decide)).trans <|
  (W43_of m c main_arg5 (by decide)).trans <|
  (W42_of m c main_arg5 (by decide)).trans <|
  (W41_of m c main_arg5 (by decide)).trans <|
  (W40_of m c main_arg5 (by decide)).trans <|
  (W39_of m c main_arg5 (by decide)).trans <|
  (W38_of m c main_arg5 (by decide)).trans <|
  (W37_of m c main_arg5 (by decide)).trans <|
  (W36_of m c main_arg5 (by decide)).trans <|
  (W35_of m c main_arg5 (by decide)).trans <|
  (W34_of m c main_arg5 (by decide)).trans <|
  (W33_of m c main_arg5 (by decide)).trans <|
  (W32_of m c main_arg5 (by decide)).trans <|
  (W31_of m c main_arg5 (by decide)).trans <|
  (W30_of m c main_arg5 (by decide)).trans <|
  (W29_of m c main_arg5 (by decide)).trans <|
  (W28_of m c main_arg5 (by decide)).trans <|
  (W27_of m c main_arg5 (by decide)).trans <|
  (W26_of m c main_arg5 (by decide)).trans <|
  (W25_of m c main_arg5 (by decide)).trans <|
  (W24_of m c main_arg5 (by decide)).trans <|
  (W23_of m c main_arg5 (by decide)).trans <|
  (W22_of m c main_arg5 (by decide)).trans <|
  (W21_of m c main_arg5 (by decide)).trans <|
  (W20_of m c main_arg5 (by decide)).trans <|
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl

theorem W44_main_arg6 (c : Dev nD) : W44 m c (Proc.devRef .tc main_arg6) = m ((c : Thread nD τ).loc main_arg6) :=
  (W44_of m c main_arg6 (by decide)).trans <|
  (W43_of m c main_arg6 (by decide)).trans <|
  (W42_of m c main_arg6 (by decide)).trans <|
  (W41_of m c main_arg6 (by decide)).trans <|
  (W40_of m c main_arg6 (by decide)).trans <|
  (W39_of m c main_arg6 (by decide)).trans <|
  (W38_of m c main_arg6 (by decide)).trans <|
  (W37_of m c main_arg6 (by decide)).trans <|
  (W36_of m c main_arg6 (by decide)).trans <|
  (W35_of m c main_arg6 (by decide)).trans <|
  (W34_of m c main_arg6 (by decide)).trans <|
  (W33_of m c main_arg6 (by decide)).trans <|
  (W32_of m c main_arg6 (by decide)).trans <|
  (W31_of m c main_arg6 (by decide)).trans <|
  (W30_of m c main_arg6 (by decide)).trans <|
  (W29_of m c main_arg6 (by decide)).trans <|
  (W28_of m c main_arg6 (by decide)).trans <|
  (W27_of m c main_arg6 (by decide)).trans <|
  (W26_of m c main_arg6 (by decide)).trans <|
  (W25_of m c main_arg6 (by decide)).trans <|
  (W24_of m c main_arg6 (by decide)).trans <|
  (W23_of m c main_arg6 (by decide)).trans <|
  (W22_of m c main_arg6 (by decide)).trans <|
  (W21_of m c main_arg6 (by decide)).trans <|
  (W20_of m c main_arg6 (by decide)).trans <|
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl

theorem W44_main_arg7 (c : Dev nD) : W44 m c (Proc.devRef .tc main_arg7) = m ((c : Thread nD τ).loc main_arg7) :=
  (W44_of m c main_arg7 (by decide)).trans <|
  (W43_of m c main_arg7 (by decide)).trans <|
  (W42_of m c main_arg7 (by decide)).trans <|
  (W41_of m c main_arg7 (by decide)).trans <|
  (W40_of m c main_arg7 (by decide)).trans <|
  (W39_of m c main_arg7 (by decide)).trans <|
  (W38_of m c main_arg7 (by decide)).trans <|
  (W37_of m c main_arg7 (by decide)).trans <|
  (W36_of m c main_arg7 (by decide)).trans <|
  (W35_of m c main_arg7 (by decide)).trans <|
  (W34_of m c main_arg7 (by decide)).trans <|
  (W33_of m c main_arg7 (by decide)).trans <|
  (W32_of m c main_arg7 (by decide)).trans <|
  (W31_of m c main_arg7 (by decide)).trans <|
  (W30_of m c main_arg7 (by decide)).trans <|
  (W29_of m c main_arg7 (by decide)).trans <|
  (W28_of m c main_arg7 (by decide)).trans <|
  (W27_of m c main_arg7 (by decide)).trans <|
  (W26_of m c main_arg7 (by decide)).trans <|
  (W25_of m c main_arg7 (by decide)).trans <|
  (W24_of m c main_arg7 (by decide)).trans <|
  (W23_of m c main_arg7 (by decide)).trans <|
  (W22_of m c main_arg7 (by decide)).trans <|
  (W21_of m c main_arg7 (by decide)).trans <|
  (W20_of m c main_arg7 (by decide)).trans <|
  (W19_of m c main_arg7 (by decide)).trans <|
  (W18_of m c main_arg7 (by decide)).trans <|
  (W17_of m c main_arg7 (by decide)).trans <|
  (W16_of m c main_arg7 (by decide)).trans <|
  (W15_of m c main_arg7 (by decide)).trans <|
  (W14_of m c main_arg7 (by decide)).trans <|
  (W13_of m c main_arg7 (by decide)).trans <|
  (W12_of m c main_arg7 (by decide)).trans <|
  (W11_of m c main_arg7 (by decide)).trans <|
  (W10_of m c main_arg7 (by decide)).trans <|
  (W9_of m c main_arg7 (by decide)).trans <|
  (W8_of m c main_arg7 (by decide)).trans <|
  (W7_of m c main_arg7 (by decide)).trans <|
  (W6_of m c main_arg7 (by decide)).trans <|
  (W5_of m c main_arg7 (by decide)).trans <|
  (W4_of m c main_arg7 (by decide)).trans <|
  (W3_of m c main_arg7 (by decide)).trans <|
  (W2_of m c main_arg7 (by decide)).trans <|
  (W1_of m c main_arg7 (by decide)).trans rfl

theorem W44_main_arg8 (c : Dev nD) : W44 m c (Proc.devRef .tc main_arg8) = m ((c : Thread nD τ).loc main_arg8) :=
  (W44_of m c main_arg8 (by decide)).trans <|
  (W43_of m c main_arg8 (by decide)).trans <|
  (W42_of m c main_arg8 (by decide)).trans <|
  (W41_of m c main_arg8 (by decide)).trans <|
  (W40_of m c main_arg8 (by decide)).trans <|
  (W39_of m c main_arg8 (by decide)).trans <|
  (W38_of m c main_arg8 (by decide)).trans <|
  (W37_of m c main_arg8 (by decide)).trans <|
  (W36_of m c main_arg8 (by decide)).trans <|
  (W35_of m c main_arg8 (by decide)).trans <|
  (W34_of m c main_arg8 (by decide)).trans <|
  (W33_of m c main_arg8 (by decide)).trans <|
  (W32_of m c main_arg8 (by decide)).trans <|
  (W31_of m c main_arg8 (by decide)).trans <|
  (W30_of m c main_arg8 (by decide)).trans <|
  (W29_of m c main_arg8 (by decide)).trans <|
  (W28_of m c main_arg8 (by decide)).trans <|
  (W27_of m c main_arg8 (by decide)).trans <|
  (W26_of m c main_arg8 (by decide)).trans <|
  (W25_of m c main_arg8 (by decide)).trans <|
  (W24_of m c main_arg8 (by decide)).trans <|
  (W23_of m c main_arg8 (by decide)).trans <|
  (W22_of m c main_arg8 (by decide)).trans <|
  (W21_of m c main_arg8 (by decide)).trans <|
  (W20_of m c main_arg8 (by decide)).trans <|
  (W19_of m c main_arg8 (by decide)).trans <|
  (W18_of m c main_arg8 (by decide)).trans <|
  (W17_of m c main_arg8 (by decide)).trans <|
  (W16_of m c main_arg8 (by decide)).trans <|
  (W15_of m c main_arg8 (by decide)).trans <|
  (W14_of m c main_arg8 (by decide)).trans <|
  (W13_of m c main_arg8 (by decide)).trans <|
  (W12_of m c main_arg8 (by decide)).trans <|
  (W11_of m c main_arg8 (by decide)).trans <|
  (W10_of m c main_arg8 (by decide)).trans <|
  (W9_of m c main_arg8 (by decide)).trans <|
  (W8_of m c main_arg8 (by decide)).trans <|
  (W7_of m c main_arg8 (by decide)).trans <|
  (W6_of m c main_arg8 (by decide)).trans <|
  (W5_of m c main_arg8 (by decide)).trans <|
  (W4_of m c main_arg8 (by decide)).trans <|
  (W3_of m c main_arg8 (by decide)).trans <|
  (W2_of m c main_arg8 (by decide)).trans <|
  (W1_of m c main_arg8 (by decide)).trans rfl

theorem W44_main_arg9 (c : Dev nD) : W44 m c (Proc.devRef .tc main_arg9) = m ((c : Thread nD τ).loc main_arg9) :=
  (W44_of m c main_arg9 (by decide)).trans <|
  (W43_of m c main_arg9 (by decide)).trans <|
  (W42_of m c main_arg9 (by decide)).trans <|
  (W41_of m c main_arg9 (by decide)).trans <|
  (W40_of m c main_arg9 (by decide)).trans <|
  (W39_of m c main_arg9 (by decide)).trans <|
  (W38_of m c main_arg9 (by decide)).trans <|
  (W37_of m c main_arg9 (by decide)).trans <|
  (W36_of m c main_arg9 (by decide)).trans <|
  (W35_of m c main_arg9 (by decide)).trans <|
  (W34_of m c main_arg9 (by decide)).trans <|
  (W33_of m c main_arg9 (by decide)).trans <|
  (W32_of m c main_arg9 (by decide)).trans <|
  (W31_of m c main_arg9 (by decide)).trans <|
  (W30_of m c main_arg9 (by decide)).trans <|
  (W29_of m c main_arg9 (by decide)).trans <|
  (W28_of m c main_arg9 (by decide)).trans <|
  (W27_of m c main_arg9 (by decide)).trans <|
  (W26_of m c main_arg9 (by decide)).trans <|
  (W25_of m c main_arg9 (by decide)).trans <|
  (W24_of m c main_arg9 (by decide)).trans <|
  (W23_of m c main_arg9 (by decide)).trans <|
  (W22_of m c main_arg9 (by decide)).trans <|
  (W21_of m c main_arg9 (by decide)).trans <|
  (W20_of m c main_arg9 (by decide)).trans <|
  (W19_of m c main_arg9 (by decide)).trans <|
  (W18_of m c main_arg9 (by decide)).trans <|
  (W17_of m c main_arg9 (by decide)).trans <|
  (W16_of m c main_arg9 (by decide)).trans <|
  (W15_of m c main_arg9 (by decide)).trans <|
  (W14_of m c main_arg9 (by decide)).trans <|
  (W13_of m c main_arg9 (by decide)).trans <|
  (W12_of m c main_arg9 (by decide)).trans <|
  (W11_of m c main_arg9 (by decide)).trans <|
  (W10_of m c main_arg9 (by decide)).trans <|
  (W9_of m c main_arg9 (by decide)).trans <|
  (W8_of m c main_arg9 (by decide)).trans <|
  (W7_of m c main_arg9 (by decide)).trans <|
  (W6_of m c main_arg9 (by decide)).trans <|
  (W5_of m c main_arg9 (by decide)).trans <|
  (W4_of m c main_arg9 (by decide)).trans <|
  (W3_of m c main_arg9 (by decide)).trans <|
  (W2_of m c main_arg9 (by decide)).trans <|
  (W1_of m c main_arg9 (by decide)).trans rfl

theorem W44_main_arg10 (c : Dev nD) : W44 m c (Proc.devRef .tc main_arg10) = m ((c : Thread nD τ).loc main_arg10) :=
  (W44_of m c main_arg10 (by decide)).trans <|
  (W43_of m c main_arg10 (by decide)).trans <|
  (W42_of m c main_arg10 (by decide)).trans <|
  (W41_of m c main_arg10 (by decide)).trans <|
  (W40_of m c main_arg10 (by decide)).trans <|
  (W39_of m c main_arg10 (by decide)).trans <|
  (W38_of m c main_arg10 (by decide)).trans <|
  (W37_of m c main_arg10 (by decide)).trans <|
  (W36_of m c main_arg10 (by decide)).trans <|
  (W35_of m c main_arg10 (by decide)).trans <|
  (W34_of m c main_arg10 (by decide)).trans <|
  (W33_of m c main_arg10 (by decide)).trans <|
  (W32_of m c main_arg10 (by decide)).trans <|
  (W31_of m c main_arg10 (by decide)).trans <|
  (W30_of m c main_arg10 (by decide)).trans <|
  (W29_of m c main_arg10 (by decide)).trans <|
  (W28_of m c main_arg10 (by decide)).trans <|
  (W27_of m c main_arg10 (by decide)).trans <|
  (W26_of m c main_arg10 (by decide)).trans <|
  (W25_of m c main_arg10 (by decide)).trans <|
  (W24_of m c main_arg10 (by decide)).trans <|
  (W23_of m c main_arg10 (by decide)).trans <|
  (W22_of m c main_arg10 (by decide)).trans <|
  (W21_of m c main_arg10 (by decide)).trans <|
  (W20_of m c main_arg10 (by decide)).trans <|
  (W19_of m c main_arg10 (by decide)).trans <|
  (W18_of m c main_arg10 (by decide)).trans <|
  (W17_of m c main_arg10 (by decide)).trans <|
  (W16_of m c main_arg10 (by decide)).trans <|
  (W15_of m c main_arg10 (by decide)).trans <|
  (W14_of m c main_arg10 (by decide)).trans <|
  (W13_of m c main_arg10 (by decide)).trans <|
  (W12_of m c main_arg10 (by decide)).trans <|
  (W11_of m c main_arg10 (by decide)).trans <|
  (W10_of m c main_arg10 (by decide)).trans <|
  (W9_of m c main_arg10 (by decide)).trans <|
  (W8_of m c main_arg10 (by decide)).trans <|
  (W7_of m c main_arg10 (by decide)).trans <|
  (W6_of m c main_arg10 (by decide)).trans <|
  (W5_of m c main_arg10 (by decide)).trans <|
  (W4_of m c main_arg10 (by decide)).trans <|
  (W3_of m c main_arg10 (by decide)).trans <|
  (W2_of m c main_arg10 (by decide)).trans <|
  (W1_of m c main_arg10 (by decide)).trans rfl

end Cert.Kernel.Hand

end
-- ==== Proof.K.RunRegs.lean ====
/- Each of @main's 19 kernel regions as a segment over the thread state "every unscoped buffer at the boundary's
   contents, the generator register at some state, nothing owed": the region's arrays are split out of the unscoped
   buffers at entry and put back at the exit contents. With the proof data family and the host stretches' segments. -/
import proofs.«400512_j87187836109057_1_alg».proof.Proof.K.RunW
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- The prefetched tables' admissible contents: no pipeline has a table. -/
abbrev adm : (p : Fin 19) → (pcfgs (F := F) p).Adm := fun p => (cfgs p).toPCfg_adm
/-- Every pipeline's proof data, each at its region's entry contents: a literal match, so that the library's pinned
    configuration at a numeral reduces to the printed one. -/
def pdats : (p : Fin 19) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V8 m) c
  | ⟨4, _⟩ => fun c => dat4 (V11 m) c
  | ⟨5, _⟩ => fun c => dat5 (V13 m) c
  | ⟨6, _⟩ => fun c => dat6 (V15 m) c
  | ⟨7, _⟩ => fun c => dat7 (V18 m) c
  | ⟨8, _⟩ => fun c => dat8 (V20 m) c
  | ⟨9, _⟩ => fun c => dat9 (V22 m) c
  | ⟨10, _⟩ => fun c => dat10 (V25 m) c
  | ⟨11, _⟩ => fun c => dat11 (V27 m) c
  | ⟨12, _⟩ => fun c => dat12 (V29 m) c
  | ⟨13, _⟩ => fun c => dat13 (V32 m) c
  | ⟨14, _⟩ => fun c => dat14 (V34 m) c
  | ⟨15, _⟩ => fun c => dat15 (V36 m) c
  | ⟨16, _⟩ => fun c => dat16 (V39 m) c
  | ⟨17, _⟩ => fun c => dat17 (V41 m) c
  | ⟨18, _⟩ => fun c => dat18 (V43 m) c
  | ⟨_ + 19, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends at those
    references at the stretch's result from W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W44 m c) ∗ ∃ r, prngReg c r)

/-! ## The regions as segments -/

-- applying a library lemma stated over the pinned configuration unifies with the printed one only when unification may
-- unfold plain definitions in a metavariable's type
set_option backward.isDefEq.respectTransparency.types false in
/-- Region 0 over the thread state: entered from every unscoped buffer at W1, left at W2. Its arrays are split out of
    the unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    isplitl [Hp]; · iexact Hp
    iexact Hr
  hout c := by
    rw [Pipeline.ownSems0_none, show (pdats m 0 c).Φ (Fin.last _) = (dat0 (V1 m) c).Φ (Fin.last cfg0.N) from rfl]
    iintro H
    ihave H' := (hout0 (V1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at W4, left at W5. Its arrays are split out of
    the unscoped buffers and put back at the exit contents; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun c t => owed1 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun w => A_eq1 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V4 m) c).Φ 0 from rfl]
    iintro ⟨Hp, -, Hr⟩
    iapply (hin1 (V4 m) c)
    isplitl [Hp]; · iexact Hp
    iexact Hr
  hout c := by
    rw [Pipeline.ownSems0_none, show (pdats m 1 c).Φ (Fin.last _) = (dat1 (V4 m) c).Φ (Fin.last cfg1.N) from rfl]
    iintro H
    ihave H' := (hout1 (V4 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at W6, left at W7. Its arrays are split out of
    the unscoped buffers and put back at the exit contents; the generator register goes into the region's invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun c t => owed2 (V6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun w => A_eq2 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V6 m) c).Φ 0 from rfl]
    iintro ⟨Hp, -, Hr⟩
    iapply (hin2 (V6 m) c)
    isplitl [Hp]; · iexact Hp
    iexact Hr
  hout c := by
    rw [Pipeline.ownSems0_none, show (pdats m 2 c).Φ (Fin.last _) = (dat2 (V6 m) c).Φ (Fin.last cfg2.N) from rfl]
    iintro H
    ihave H' := (hout2 (V6 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at W8, left at W9. Its arrays are split out of
    the unscoped buffers and put back at the exit contents; the generator register goes into the region's invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun c t => owed3 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun w => A_eq3 (V8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    iintro ⟨Hp, -, Hr⟩
    iapply (hin3 (V8 m) c)
    isplitl [Hp]; · iexact Hp
    iexact Hr
  hout c := by
    rw [Pipeline.ownSems0_none, show (pdats m 3 c).Φ (Fin.last _) = (dat3 (V8 m) c).Φ (Fin.last cfg3.N) from rfl]
    iintro H
    ihave H' := (hout3 (V8 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 4 over the thread state: entered from every unscoped buffer at W11, left at W12. Its arrays are split out of
    the unscoped buffers and put back at the exit contents; the generator register goes into the region's invariant and
    comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun c t => owed4 (V11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun w => A_eq4 (V11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V11 m) c).Φ 0 from rfl]
    iintro ⟨Hp, -, Hr⟩
    iapply (hin4 (V11 m) c)
    isplitl [Hp]; · iexact Hp
    iexact Hr
  hout c := by
    rw [Pipeline.ownSems0_none, show (pdats m 4 c).Φ (Fin.last _) = (dat4 (V11 m) c).Φ (Fin.last cfg4.N) from rfl]
    iintro H
    ihave H' := (hout4 (V11 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at W13, left at W14. Its arrays are split out of
    the unscoped buffers and put back at the exit contents; the generator register goes into the region's invariant and
    comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m) c).loose
  hwaits := Pipeline.hwaits_of_owed_zero _ _ _ _ L lv 5 fun c t => owed5 (V13 m) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (V13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V13 m c) fun w => A_eq5 (V13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V13 m) c).Φ 0 from rfl]
    iintro ⟨Hp, -, Hr⟩
    iapply (hin5 (V13 m) c)
    isplitl [Hp]; · iexact Hp
    iexact Hr
  hout c := by
    rw [Pipeline.ownSems0_none, show (pdats m 5 c).Φ (Fin.last _) = (dat5 (V13 m) c).Φ (Fin.last cfg5.N) from rfl]
    iintro H
    ihave H' := (hout5 (V13 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V13 m c) (V14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at W15, left at W16. Its arrays are split out of
    the unscoped buffers and put back at the exit contents; the generator register goes into the region's invariant and
    comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m) c).loose
  hwaits := Pipeline.hwaits_of_owed_zero _ _ _ _ L lv 6 fun c t => owed6 (V15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (V15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V15 m c) fun w => A_eq6 (V15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V15 m) c).Φ 0 from rfl]
    iintro ⟨Hp, -, Hr⟩
    iapply (hin6 (V15 m) c)
    isplitl [Hp]; · iexact Hp
    iexact Hr
  hout c := by
    rw [Pipeline.ownSems0_none, show (pdats m 6 c).Φ (Fin.last _) = (dat6 (V15 m) c).Φ (Fin.last cfg6.N) from rfl]
    iintro H
    ihave H' := (hout6 (V15 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V15 m c) (V16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at W18, left at W19. Its arrays are split out of
    the unscoped buffers and put back at the exit contents; the generator register goes into the region's invariant and
    comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m) c).loose
  hwaits := Pipeline.hwaits_of_owed_zero _ _ _ _ L lv 7 fun c t => owed7 (V18 m) c t
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec7 c (V18 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V18 m c) fun w => A_eq7 (V18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (V18 m) c).Φ 0 from rfl]
    iintro ⟨Hp, -, Hr⟩
    iapply (hin7 (V18 m) c)
    isplitl [Hp]; · iexact Hp
    iexact Hr
  hout c := by
    rw [Pipeline.ownSems0_none, show (pdats m 7 c).Φ (Fin.last _) = (dat7 (V18 m) c).Φ (Fin.last cfg7.N) from rfl]
    iintro H
    ihave H' := (hout7 (V18 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V18 m c) (V19 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 8 over the thread state: entered from every unscoped buffer at W20, left at W21. Its arrays are split out of
    the unscoped buffers and put back at the exit contents; the generator register goes into the region's invariant and
    comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m) c).loose
  hwaits := Pipeline.hwaits_of_owed_zero _ _ _ _ L lv 8 fun c t => owed8 (V20 m) c t
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec8 c (V20 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V20 m c) fun w => A_eq8 (V20 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (V20 m) c).Φ 0 from rfl]
    iintro ⟨Hp, -, Hr⟩
    iapply (hin8 (V20 m) c)
    isplitl [Hp]; · iexact Hp
    iexact Hr
  hout c := by
    rw [Pipeline.ownSems0_none, show (pdats m 8 c).Φ (Fin.last _) = (dat8 (V20 m) c).Φ (Fin.last cfg8.N) from rfl]
    iintro H
    ihave H' := (hout8 (V20 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V20 m c) (V21 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 9 over the thread state: entered from every unscoped buffer at W22, left at W23. Its arrays are split out of
    the unscoped buffers and put back at the exit contents; the generator register goes into the region's invariant and
    comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V22 m) c).loose
  hwaits := Pipeline.hwaits_of_owed_zero _ _ _ _ L lv 9 fun c t => owed9 (V22 m) c t
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec9 c (V22 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V22 m c) fun w => A_eq9 (V22 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (V22 m) c).Φ 0 from rfl]
    iintro ⟨Hp, -, Hr⟩
    iapply (hin9 (V22 m) c)
    isplitl [Hp]; · iexact Hp
    iexact Hr
  hout c := by
    rw [Pipeline.ownSems0_none, show (pdats m 9 c).Φ (Fin.last _) = (dat9 (V22 m) c).Φ (Fin.last cfg9.N) from rfl]
    iintro H
    ihave H' := (hout9 (V22 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V22 m c) (V23 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 10 over the thread state: entered from every unscoped buffer at W25, left at W26. Its arrays are split out of
    the unscoped buffers and put back at the exit contents; the generator register goes into the region's invariant and
    comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m) c).loose
  hwaits := Pipeline.hwaits_of_owed_zero _ _ _ _ L lv 10 fun c t => owed10 (V25 m) c t
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (V25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V25 m c) fun w => A_eq10 (V25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (V25 m) c).Φ 0 from rfl]
    iintro ⟨Hp, -, Hr⟩
    iapply (hin10 (V25 m) c)
    isplitl [Hp]; · iexact Hp
    iexact Hr
  hout c := by
    rw [Pipeline.ownSems0_none, show (pdats m 10 c).Φ (Fin.last _) = (dat10 (V25 m) c).Φ (Fin.last cfg10.N) from rfl]
    iintro H
    ihave H' := (hout10 (V25 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V25 m c) (V26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 11 over the thread state: entered from every unscoped buffer at W27, left at W28. Its arrays are split out of
    the unscoped buffers and put back at the exit contents; the generator register goes into the region's invariant and
    comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m) c).loose
  hwaits := Pipeline.hwaits_of_owed_zero _ _ _ _ L lv 11 fun c t => owed11 (V27 m) c t
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec11 c (V27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V27 m c) fun w => A_eq11 (V27 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (V27 m) c).Φ 0 from rfl]
    iintro ⟨Hp, -, Hr⟩
    iapply (hin11 (V27 m) c)
    isplitl [Hp]; · iexact Hp
    iexact Hr
  hout c := by
    rw [Pipeline.ownSems0_none, show (pdats m 11 c).Φ (Fin.last _) = (dat11 (V27 m) c).Φ (Fin.last cfg11.N) from rfl]
    iintro H
    ihave H' := (hout11 (V27 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V27 m c) (V28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 12 over the thread state: entered from every unscoped buffer at W29, left at W30. Its arrays are split out of
    the unscoped buffers and put back at the exit contents; the generator register goes into the region's invariant and
    comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m) c).loose
  hwaits := Pipeline.hwaits_of_owed_zero _ _ _ _ L lv 12 fun c t => owed12 (V29 m) c t
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec12 c (V29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V29 m c) fun w => A_eq12 (V29 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (V29 m) c).Φ 0 from rfl]
    iintro ⟨Hp, -, Hr⟩
    iapply (hin12 (V29 m) c)
    isplitl [Hp]; · iexact Hp
    iexact Hr
  hout c := by
    rw [Pipeline.ownSems0_none, show (pdats m 12 c).Φ (Fin.last _) = (dat12 (V29 m) c).Φ (Fin.last cfg12.N) from rfl]
    iintro H
    ihave H' := (hout12 (V29 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V29 m c) (V30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 13 over the thread state: entered from every unscoped buffer at W32, left at W33. Its arrays are split out of
    the unscoped buffers and put back at the exit contents; the generator register goes into the region's invariant and
    comes back; nothing is owed; the kernel has no semaphore of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V32 m) c).loose
  hwaits := Pipeline.hwaits_of_owed_zero _ _ _ _ L lv 13 fun c t => owed13 (V32 m) c t
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec13 c (V32 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V32 m c) fun w => A_eq13 (V32 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (V32 m) c).Φ 0 from rfl]
    iintro ⟨Hp, -, Hr⟩
    iapply (hin13 (V32 m) c)
    isplitl [Hp]; · iexact Hp
    iexact Hr
  hout c := by
    rw [Pipeline.ownSems0_none, show (pdats m 13 c).Φ (Fin.last _) = (dat13 (V32 m) c).Φ (Fin.last cfg13.N) from rfl]
    iintro H
    ihave H' := (hout13 (V32 m) c) $$ H
    icases H' with ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V32 m c) (V33 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 14 over the thread state: entered from every unscoped buffer at W34, left at W35. Its arrays are split out of
    the unscoped buffers and put back at the exit contents; the generator register goes into the region's invariant and
    comes back; nothing is owed; the kernel has no semaphore of its own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V34 m) c).loose
  hwaits := Pipeline.hwaits_of_owed_zero _ _ _ _ L lv 14 fun c t => owed14 (V34 m) c t
  pre c := iprop(StableHlo.held (c : Thread nD τ) (Pipeline.ucRefs τ sig) (W34 m c) ∗ R c)
  post c := iprop(StableHlo.held (c : Thread nD τ) (Pipeline.ucRefs τ sig) (W35 m c) ∗ R c)
  X c := iprop(∃ r, prngReg c r)
  Y c := iprop(∃ r, prngReg c r)
  Z c := Pipeline.unscopedRest (Ix := Unit) (Name := ℕ) (U := UR sig nD τ) (Lvl := ℕ) spec14 c (V34 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V34 m c) fun w => A_eq14 (V34 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = (dat14 (V34 m) c).Φ 0 from rfl]
    iintro ⟨Hp, -, Hr⟩
    iapply (hin14 (V34 m) c)
    isplitl [Hp]; · iexact Hp
    iexact Hr
  hout c := by
    rw [Pipeline.ownSems0_none, show (pdats m 14 c).Φ (Fin.last _) = (dat14 (V34 m) c).Φ (Fin.last cfg14.N) from rfl]
    iintro H
    ihave H' := (hout14 (V34 m) c) $$ H
    icases H' with ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V34 m c) (V35 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 15 over the thread state: entered from every unscoped buffer at W36, left at W37. Its arrays are split out of
    the unscoped buffers and put back at the exit contents; the generator register goes into the region's invariant and
    comes back; nothing is owed; the kernel has no semaphore of its own. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V36 m) c).loose
  hwaits := Pipeline.hwaits_of_owed_zero _ _ _ _ L lv 15 fun c t => owed15 (V36 m) c t
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec15 c (V36 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (V36 m c) fun w => A_eq15 (V36 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = (dat15 (V36 m) c).Φ 0 from rfl]
    iintro ⟨Hp, -, Hr⟩
    iapply (hin15 (V36 m) c)
    isplitl [Hp]; · iexact Hp
    iexact Hr
  hout c := by
    rw [Pipeline.ownSems0_none, show (pdats m 15 c).Φ (Fin.last _) = (dat15 (V36 m) c).Φ (Fin.last cfg15.N) from rfl]
    iintro H
    ihave H' := (hout15 (V36 m) c) $$ H
    icases H' with ⟨Hp, Hr⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (V36 m c) (V37 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 16 over the thread state: entered from every unscoped buffer at W39, left at W40. Its arrays are split out of
    the unscoped buffers and put back at the exit contents; the generator register goes into the region's invariant and
    comes back; nothing is owed; the kernel has no semaphore of its own. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V39 m) c).loose
  hwaits := Pipeline.hwaits_of_owed_zero _ _ _ _ L lv 16 fun c t => owed16 (V39 m) c t
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec16 c (V39 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (V39 m c) fun w => A_eq16 (V39 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = (dat16 (V39 m) c).Φ 0 from rfl]
    iintro ⟨Hp, -, Hr⟩
    iapply (hin16 (V39 m) c)
    isplitl [Hp]; · iexact Hp
    iexact Hr
  hout c := by
    rw [Pipeline.ownSems0_none, show (pdats m 16 c).Φ (Fin.last _) = (dat16 (V39 m) c).Φ (Fin.last cfg16.N) from rfl]
    iintro H
    ihave H' := (hout16 (V39 m) c) $$ H
    icases H' with ⟨Hp, Hr⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (V39 m c) (V40 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 17 over the thread state: entered from every unscoped buffer at W41, left at W42. Its arrays are split out of
    the unscoped buffers and put back at the exit contents; the generator register goes into the region's invariant and
    comes back; nothing is owed; the kernel has no semaphore of its own. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V41 m) c).loose
  hwaits := Pipeline.hwaits_of_owed_zero _ _ _ _ L lv 17 fun c t => owed17 (V41 m) c t
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec17 c (V41 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (V41 m c) fun w => A_eq17 (V41 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = (dat17 (V41 m) c).Φ 0 from rfl]
    iintro ⟨Hp, -, Hr⟩
    iapply (hin17 (V41 m) c)
    isplitl [Hp]; · iexact Hp
    iexact Hr
  hout c := by
    rw [Pipeline.ownSems0_none, show (pdats m 17 c).Φ (Fin.last _) = (dat17 (V41 m) c).Φ (Fin.last cfg17.N) from rfl]
    iintro H
    ihave H' := (hout17 (V41 m) c) $$ H
    icases H' with ⟨Hp, Hr⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (V41 m c) (V42 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 18 over the thread state: entered from every unscoped buffer at W43, left at W44. Its arrays are split out of
    the unscoped buffers and put back at the exit contents; the generator register goes into the region's invariant and
    comes back; nothing is owed; the kernel has no semaphore of its own. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V43 m) c).loose
  hwaits := Pipeline.hwaits_of_owed_zero _ _ _ _ L lv 18 fun c t => owed18 (V43 m) c t
  pre c := iprop(StableHlo.held (c : Thread nD τ) (Pipeline.ucRefs τ sig) (W43 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec18 c (V43 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (V43 m c) fun w => A_eq18 (V43 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = (dat18 (V43 m) c).Φ 0 from rfl]
    iintro ⟨Hp, -, Hr⟩
    iapply (hin18 (V43 m) c)
    isplitl [Hp]; · iexact Hp
    iexact Hr
  hout c := by
    rw [Pipeline.ownSems0_none, show (pdats m 18 c).Φ (Fin.last _) = (dat18 (V43 m) c).Φ (Fin.last cfg18.N) from rfl]
    iintro H
    ihave H' := (hout18 (V43 m) c) $$ H
    icases H' with ⟨Hp, Hr⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (V43 m c) (V44 m c) ((pdats m 18 c).arrAt · cfg18.N) (hF18 m c) (hrest18 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/- The run of @main: its 44 items as segments, the program as the run of the segments, and the launch. Every weakly
   fair execution terminates; the result buffer holds what the fold of contents says, every argument is as launched. -/
import proofs.«400512_j87187836109057_1_alg».proof.Proof.K.RunRegs
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## @main as segments, and the launch -/

/-- @main's 44 items in order: a host segment per stretch from its boundary's contents, a region per kernel call. -/
abbrev segs : List (Pipeline.Seg (pcfgs (F := F)) adm (pdats m) () defs₀ 𝒱₀ L lv) :=
  [
    .host (hseg hostOps0 hostOps0_sub GenP.hostOps0_fresh (W0 m)),
    .region (reg0 m),
    .host (hseg hostOps1 hostOps1_sub GenP.hostOps1_fresh (W2 m)),
    .host (hseg hostOps1_1 hostOps1_1_sub GenP.hostOps1_1_fresh (W3 m)),
    .region (reg1 m),
    .host (hseg hostOps2 hostOps2_sub GenP.hostOps2_fresh (W5 m)),
    .region (reg2 m),
    .host (hseg hostOps3 hostOps3_sub GenP.hostOps3_fresh (W7 m)),
    .region (reg3 m),
    .host (hseg hostOps4 hostOps4_sub GenP.hostOps4_fresh (W9 m)),
    .host (hseg hostOps4_1 hostOps4_1_sub GenP.hostOps4_1_fresh (W10 m)),
    .region (reg4 m),
    .host (hseg hostOps5 hostOps5_sub GenP.hostOps5_fresh (W12 m)),
    .region (reg5 m),
    .host (hseg hostOps6 hostOps6_sub GenP.hostOps6_fresh (W14 m)),
    .region (reg6 m),
    .host (hseg hostOps7 hostOps7_sub GenP.hostOps7_fresh (W16 m)),
    .host (hseg hostOps7_1 hostOps7_1_sub GenP.hostOps7_1_fresh (W17 m)),
    .region (reg7 m),
    .host (hseg hostOps8 hostOps8_sub GenP.hostOps8_fresh (W19 m)),
    .region (reg8 m),
    .host (hseg hostOps9 hostOps9_sub GenP.hostOps9_fresh (W21 m)),
    .region (reg9 m),
    .host (hseg hostOps10 hostOps10_sub GenP.hostOps10_fresh (W23 m)),
    .host (hseg hostOps10_1 hostOps10_1_sub GenP.hostOps10_1_fresh (W24 m)),
    .region (reg10 m),
    .host (hseg hostOps11 hostOps11_sub GenP.hostOps11_fresh (W26 m)),
    .region (reg11 m),
    .host (hseg hostOps12 hostOps12_sub GenP.hostOps12_fresh (W28 m)),
    .region (reg12 m),
    .host (hseg hostOps13 hostOps13_sub GenP.hostOps13_fresh (W30 m)),
    .host (hseg hostOps13_1 hostOps13_1_sub GenP.hostOps13_1_fresh (W31 m)),
    .region (reg13 m),
    .host (hseg hostOps14 hostOps14_sub GenP.hostOps14_fresh (W33 m)),
    .region (reg14 m),
    .host (hseg hostOps15 hostOps15_sub GenP.hostOps15_fresh (W35 m)),
    .region (reg15 m),
    .host (hseg hostOps16 hostOps16_sub GenP.hostOps16_fresh (W37 m)),
    .host (hseg hostOps16_1 hostOps16_1_sub GenP.hostOps16_1_fresh (W38 m)),
    .region (reg16 m),
    .host (hseg hostOps17 hostOps17_sub GenP.hostOps17_fresh (W40 m)),
    .region (reg17 m),
    .host (hseg hostOps18 hostOps18_sub GenP.hostOps18_fresh (W42 m)),
    .region (reg18 m) ]

-- the launch lemma's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting; in every final state the result buffer holds what the fold of contents
    says and every argument array is as launched. -/
theorem run : θ_run defs (onTc (τ := τ) (main (F := F))) ⟨m, fun _ => 0, ρ⟩ (fun r => ∀ c : Dev nD,
      r.2.mem ((c.tc : Thread nD τ).loc main_v186) = W44 m c (Proc.devRef .tc main_v186)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          StableHlo.seq hostOps16_1,
          Prog.lift (.customCall (Pipeline.entry 16) ()),
          StableHlo.seq hostOps17,
          Prog.lift (.customCall (Pipeline.entry 17) ()),
          StableHlo.seq hostOps18,
          Prog.lift (.customCall (Pipeline.entry 18) ()) ] from rfl]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W44 m c b)
    (hfin := fun c s' => by
      iintro ⟨⟨Hh, -⟩, HSI⟩
      unfold StableHlo.held
      imodintro
      iapply (pointsTo_read_all (Pipeline.ucRefs τ sig) (fun b => (((c : Thread nD τ)).1, b)) (W44 m c) s')
      isplitl [Hh] <;> iassumption)
    (hQ := fun s h c =>
      ⟨(h c _ (mem_uc main_v186 (by decide))),
       (h c _ (mem_uc main_arg0 (by decide))).trans (W44_main_arg0 m c),
       (h c _ (mem_uc main_arg1 (by decide))).trans (W44_main_arg1 m c),
       (h c _ (mem_uc main_arg2 (by decide))).trans (W44_main_arg2 m c),
       (h c _ (mem_uc main_arg3 (by decide))).trans (W44_main_arg3 m c),
       (h c _ (mem_uc main_arg4 (by decide))).trans (W44_main_arg4 m c),
       (h c _ (mem_uc main_arg5 (by decide))).trans (W44_main_arg5 m c),
       (h c _ (mem_uc main_arg6 (by decide))).trans (W44_main_arg6 m c),
       (h c _ (mem_uc main_arg7 (by decide))).trans (W44_main_arg7 m c),
       (h c _ (mem_uc main_arg8 (by decide))).trans (W44_main_arg8 m c),
       (h c _ (mem_uc main_arg9 (by decide))).trans (W44_main_arg9 m c),
       (h c _ (mem_uc main_arg10 (by decide))).trans (W44_main_arg10 m c)⟩)

/-- info: 'Cert.Kernel.Hand.run' depends on axioms: [propext, Classical.choice, Quot.sound] -/
#guard_msgs in #print axioms run

end Cert.Kernel.Hand

end
-- ==== Proof.KI.RegM0.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile, fetched at every point): its current staging buffer holds its block at every point,
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only): its staging buffer holds its block at
    every point, fetched there or not — unfetched, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row tile. -/
abbrev r0_0 : Rect S5000x128 := Rect.unit (s := S5000x128) ![0, 0] S5000x128.size inb_S5000x128_S5000x128_0_0
/-- The whole weight matrix. -/
abbrev r0_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out0_2 (x0 : Vec F S5000x128 .f32) (x1 : Vec F S128x128 .f32) : Vec F S5000x128 .f32 :=
  View.canon [⟨r0_0, k0_pay1 (View.ld x0 r0_0) (View.ld x1 r0_1)⟩]

/-- The one store is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents x0, x1 and the output's at anything, runs to
    the continuation holding the inputs' as they were and the output's at out0_2 of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Nothing is owed at any point. -/
theorem owed0 (c : Dev nD) (t) : (dat0 V c).owed t = 0 := rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out -/

/-- Entry: the generator register at some state and the scoped rest are the region's invariant at the first point. -/
theorem hin0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Exit: the invariant at the last point gives them back. -/
theorem hout0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

end Cert.KernelIdeal.Hand
-- ==== Proof.KI.RegS1.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB1 : Rect S5000x128 := Rect.unit (s := S5000x128) ![0, 0] S5000x128.size inb_S5000x128_S5000x128_0_0
/-- The whole (1,128) row. -/
abbrev rS1 : Rect S1x128 := Rect.unit (s := S1x128) ![0, 0] S1x128.size inb_S1x128_S1x128_0_0

/-! ## The body's branch conditions -/

/-- The first conditional's condition (the point is the first of the grid). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional's condition (the point is the last of the grid). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## What the body leaves, as closed terms over the payloads -/

/-- Window 2's buffer after the body: the pointwise maximum with zero of (tile + bias row). -/
def out1_2 (x0 : Vec F S5000x128 .f32) (x1 : Vec F S1x128 .f32) : Vec F S5000x128 .f32 :=
  View.canon [⟨rB1, k1_pay3 (View.ld x0 rB1) (View.ld x1 rS1)⟩]

/-- The sum accumulator after the first point: zeroed, then the tile's column sums added. -/
def sA1_0 (x0 : Vec F S5000x128 .f32) (x1 : Vec F S1x128 .f32) : Vec F S1x128 .f32 :=
  View.canon [⟨rS1, k1_pay4 (View.ld x0 rB1) (View.ld x1 rS1) (k1_pay1 (F := F))⟩, ⟨rS1, k1_pay1 (F := F)⟩]
/-- The sum-of-squares accumulator after the first point. -/
def sA1_1 (x0 : Vec F S5000x128 .f32) (x1 : Vec F S1x128 .f32) : Vec F S1x128 .f32 :=
  View.canon [⟨rS1, k1_pay5 (View.ld x0 rB1) (View.ld x1 rS1) (k1_pay2 (F := F))⟩, ⟨rS1, k1_pay2 (F := F)⟩]
/-- The sum accumulator after a later point, from what the point before left (`s`). -/
def sB1_0 (x0 : Vec F S5000x128 .f32) (x1 : Vec F S1x128 .f32) (s : Vec F S1x128 .f32) : Vec F S1x128 .f32 :=
  View.canon [⟨rS1, k1_pay4 (View.ld x0 rB1) (View.ld x1 rS1) (View.ld s rS1)⟩]
/-- The sum-of-squares accumulator after a later point, from what the point before left. -/
def sB1_1 (x0 : Vec F S5000x128 .f32) (x1 : Vec F S1x128 .f32) (s : Vec F S1x128 .f32) : Vec F S1x128 .f32 :=
  View.canon [⟨rS1, k1_pay5 (View.ld x0 rB1) (View.ld x1 rS1) (View.ld s rS1)⟩]
/-- Windows 3 and 4's buffers after the last point: the accumulators as that point leaves them. -/
abbrev out1_3 (x0 : Vec F S5000x128 .f32) (x1 : Vec F S1x128 .f32) (s : Vec F S1x128 .f32) : Vec F S1x128 .f32 := sB1_0 x0 x1 s
abbrev out1_4 (x0 : Vec F S5000x128 .f32) (x1 : Vec F S1x128 .f32) (s : Vec F S1x128 .f32) : Vec F S1x128 .f32 := sB1_1 x0 x1 s

theorem coverB1 (p0 : Vec F S5000x128 .f32) (y : S5000x128.Idx) :
    ∃ pc ∈ ([⟨rB1, p0⟩] : List (View.Piece (Elt F) S5000x128 .f32)), y ∈ pc.1.set :=
  View.cover_of_tiled [⟨rB1, p0⟩] S5000x128.size (by rfl) y
theorem coverS1 (p0 : Vec F S1x128 .f32) (y : S1x128.Idx) :
    ∃ pc ∈ ([⟨rS1, p0⟩] : List (View.Piece (Elt F) S1x128 .f32)), y ∈ pc.1.set :=
  View.cover_of_tiled [⟨rS1, p0⟩] S1x128.size (by rfl) y
theorem coverS1' (p0 p1 : Vec F S1x128 .f32) (y : S1x128.Idx) :
    ∃ pc ∈ ([⟨rS1, p0⟩, ⟨rS1, p1⟩] : List (View.Piece (Elt F) S1x128 .f32)), y ∈ pc.1.set := by
  obtain ⟨pc, hm, hy⟩ := coverS1 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel1_A (c : Dev nD) (E : Set ℕ) (i : grid1.Coords) (hc0 : cond1_0 i) (hc1 : ¬cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare y3 ∗ owns (c : Thread nD τ) arg5 fullShare y4
            ∗ owns (c : Thread nD τ) arg6 fullShare (sA1_0 x0 x1) ∗ owns (c : Thread nD τ) arg7 fullShare (sA1_1 x0 x1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS1' (F := F) _ _)
  iexists _; isplitr
  swap; · iexact H7
  ipureintro; sl_unfold_run_names; rw [View.readCov_cons_toLoadRect]; exact View.read_writes_eq_canon _ _ _ (coverS1' (F := F) _ _)

set_option maxHeartbeats 2000000 in
/-- A MIDDLE POINT: both accumulators, at what the point before left, are added to; windows 3 and 4 are left as found. -/
theorem sound_kernel1_B (c : Dev nD) (E : Set ℕ) (i : grid1.Coords) (hc0 : ¬cond1_0 i) (hc1 : ¬cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare y3 ∗ owns (c : Thread nD τ) arg5 fullShare y4
            ∗ owns (c : Thread nD τ) arg6 fullShare (sB1_0 x0 x1 s0) ∗ owns (c : Thread nD τ) arg7 fullShare (sB1_1 x0 x1 s1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS1 (F := F) _)
  iexists _; isplitr
  swap; · iexact H7
  ipureintro; exact View.read_writes_eq_canon _ _ _ (coverS1 (F := F) _)

set_option maxHeartbeats 2000000 in
/-- THE LAST POINT: both accumulators are added to and then copied into windows 3 and 4, held at anything. -/
theorem sound_kernel1_C (c : Dev nD) (E : Set ℕ) (i : grid1.Coords) (hc0 : ¬cond1_0 i) (hc1 : cond1_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare (sB1_0 x0 x1 s0) ∗ owns (c : Thread nD τ) arg5 fullShare (sB1_1 x0 x1 s1)
            ∗ owns (c : Thread nD τ) arg6 fullShare (sB1_0 x0 x1 s0) ∗ owns (c : Thread nD τ) arg7 fullShare (sB1_1 x0 x1 s1)) -∗ K ⟨⟩))
      ⊢ wp frame (wpE (defs₀ (F := F)) Variants.none c none) E (cc1__relu_stats_kernel i arg1 harg1 arg2 harg2 arg3 harg3 arg4 harg4 arg5 harg5 arg6 harg6 arg7 harg7) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB1 (F := F) _)
  isplitl [H3]
  · iexists _; isplitr
    swap; · iexact H3
    ipureintro; sl_unfold_run_names; rw [View.readCov_cons_toLoadRect]; exact View.read_writes_eq_canon _ _ _ (coverS1 (F := F) _)
  isplitl [H4]
  · iexists _; isplitr
    swap; · iexact H4
    ipureintro; sl_unfold_run_names; rw [View.readCov_cons_toLoadRect]; exact View.read_writes_eq_canon _ _ _ (coverS1 (F := F) _)
  isplitl [H6]
  · iexists _; isplitr
    swap; · iexact H6
    ipureintro; sl_unfold_run_names; exact View.read_writes_eq_canon _ _ _ (coverS1 (F := F) _)
  iexists _; isplitr
  swap; · iexact H7
  ipureintro; sl_unfold_run_names; exact View.read_writes_eq_canon _ _ _ (coverS1 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, fetched at the first point only: its block index never moves) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two carried accumulators -/

/-- The two accumulator operands: whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- THE ACCUMULATION. What the two accumulators (the column sums and the column sums of squares of the tiles so far)
    hold after the body at position `n`: zeroed and added to at the first point, added to at every later one. -/
def souts1 (c : Dev nD) : (n : ℕ) → n < cfg1.N → Vec F S1x128 .f32 × Vec F S1x128 .f32
  | 0, hn => (sA1_0 (iblk1 V c 0 ⟨0, hn⟩) (iblk1 V c 1 ⟨0, hn⟩), sA1_1 (iblk1 V c 0 ⟨0, hn⟩) (iblk1 V c 1 ⟨0, hn⟩))
  | n + 1, hn =>
    (sB1_0 (iblk1 V c 0 ⟨n + 1, hn⟩) (iblk1 V c 1 ⟨n + 1, hn⟩) (souts1 c n (Nat.lt_of_succ_lt hn)).1,
     sB1_1 (iblk1 V c 0 ⟨n + 1, hn⟩) (iblk1 V c 1 ⟨n + 1, hn⟩) (souts1 c n (Nat.lt_of_succ_lt hn)).2)

theorem souts1_zero (c : Dev nD) (t : Fin cfg1.N) (h0 : t.val = 0) :
    souts1 V c t.val t.isLt = (sA1_0 (iblk1 V c 0 t) (iblk1 V c 1 t), sA1_1 (iblk1 V c 0 t) (iblk1 V c 1 t)) := by
  obtain ⟨n, hn⟩ := t
  cases n with
  | zero => exact rfl
  | succ n => exact absurd h0 (Nat.succ_ne_zero _)

theorem souts1_pos (c : Dev nD) (t : Fin cfg1.N) (h0 : t.val ≠ 0) :
    souts1 V c t.val t.isLt =
      (sB1_0 (iblk1 V c 0 t) (iblk1 V c 1 t) (souts1 V c (t.val - 1) (Nat.lt_of_le_of_lt (Nat.sub_le _ _) t.isLt)).1,
       sB1_1 (iblk1 V c 0 t) (iblk1 V c 1 t) (souts1 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts1`), the rest of the scoped rest unopened, and the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((owns (c : Thread nD τ) scM1_0 fullShare (souts1 V c n hn).1 ∗ owns (c : Thread nD τ) scM1_1 fullShare (souts1 V c n hn).2)
      ∗ Pipeline.scopedRestBut (Ix := Unit) (Name := ℕ) (U := UR sig nD τ) (Lvl := ℕ) (Val := Elt F) spec1 c [cc1_scratch0, cc1_scratch1] ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop((owns (c : Thread nD τ) scM1_0 fullShare (souts1 V c n hn).1 ∗ owns (c : Thread nD τ) scM1_1 fullShare (souts1 V c n hn).2)
      ∗ Pipeline.scopedRestBut (Ix := Unit) (Name := ℕ) (U := UR sig nD τ) (Lvl := ℕ) (Val := Elt F) spec1 c [cc1_scratch0, cc1_scratch1] ∗ (∃ r, prngReg c r)) := rfl

theorem PhiS1_pos (c : Dev nD) (n : ℕ) (h : n ≤ cfg1.N) (hz : n ≠ 0) :
    PhiS1 V c n h = iprop((owns (c : Thread nD τ) scM1_0 fullShare (souts1 V c (n - 1) (by omega)).1 ∗ owns (c : Thread nD τ) scM1_1 fullShare (souts1 V c (n - 1) (by omega)).2)
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-- The scoped rest with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => (souts1 V c t.val t.isLt).1
    | ⟨4, _⟩ => (souts1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = (souts1 V c t.val t.isLt).1 := by dsimp only [dat1]
theorem after1_4 (c : Dev nD) (t : Fin cfg1.N) : (dat1 V c).after 4 t = (souts1 V c t.val t.isLt).2 := by dsimp only [dat1]

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## Entry and exit -/

/-- What the launch hands the region is the invariant before the first point. -/
theorem hin1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives them back: the accumulators' named contents are forgotten. -/
theorem hout1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 20 = 0
  · have hz : t.val = 0 := by omega
    have hnc1 : ¬cond1_1 (grid1.coords t) := fun h => by have := (hcond1_1 t).mp h; omega
    rw [Dat.leavesExact_idle (dat1 V c) 3 t (idleAt1_3 t hnc1) (noFlush1_3 t hnc1),
      Dat.leavesExact_idle (dat1 V c) 4 t (idleAt1_4 t hnc1) (noFlush1_4 t hnc1)]
    rw [souts1_zero V c t hz]
    dsimp only
    rw [PhiS1_castSucc V c t, PhiS1_zero V c _ _ hz, scopedRest1_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel1_A c Set.univ (grid1.coords t) ((hcond1_0 t).mpr h0) hnc1 _ _ _ _ _ _ _ _ _ _ _ _ _ _ (iblk1 V c 0 t) (iblk1 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond1_0 (grid1.coords t) := fun h => h0 ((hcond1_0 t).mp h)
    by_cases h1 : t.val % 20 = 19
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3]
      rw [show (dat1 V c).leavesExact 4 t = owns (c : Thread nD τ) (st1_4 t) fullShare ((dat1 V c).after 4 t) from by
        unfold Dat.leavesExact; rw [liveAt1_4 t hc1], after1_4]
      rw [souts1_pos V c t hz]
      dsimp only
      rw [PhiS1_castSucc V c t, PhiS1_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel1_C c Set.univ (grid1.coords t) hnc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond1_1 (grid1.coords t) := fun h => h1 ((hcond1_1 t).mp h)
      rw [Dat.leavesExact_idle (dat1 V c) 3 t (idleAt1_3 t hnc1) (noFlush1_3 t hnc1),
        Dat.leavesExact_idle (dat1 V c) 4 t (idleAt1_4 t hnc1) (noFlush1_4 t hnc1)]
      rw [souts1_pos V c t hz]
      dsimp only
      rw [PhiS1_castSucc V c t, PhiS1_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel1_B c Set.univ (grid1.coords t) hnc0 hnc1 _ _ _ _ _ _ _ _ _ _ _ _ _ _ (iblk1 V c 0 t) (iblk1 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.RegB2.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out2_5 (x0 : Vec F S5000x128 .f32) (x1 x2 x3 x4 : Vec F S1x128 .f32) : Vec F S5000x128 .f32 :=
  View.canon [⟨r2_0, k2_pay1 (View.ld x2 r2_1) (View.ld x0 r2_0) (View.ld x1 r2_1) (View.ld x3 r2_1) (View.ld x4 r2_1)⟩]

/-- The store tiles the buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Nothing is owed at any point. -/
theorem owed2 (c : Dev nD) (t) : (dat2 V c).owed t = 0 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the region's invariant and out -/

/-- Entry: the generator register at some state and the scoped rest make the invariant at the first point. -/
theorem hin2 (c : Dev nD) :
    (iprop((∃ r, prngReg c r) ∗ Pipeline.scopedRest (Ix := Unit) (Name := ℕ) (U := UR sig nD τ) (Lvl := ℕ) spec2 c) : sProp 𝕄)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Exit: the invariant at the last point gives them back. -/
theorem hout2 (c : Dev nD) :
    (dat2 V c).Φ (Fin.last cfg2.N)
      ⊢ (iprop((∃ r, prngReg c r) ∗ Pipeline.scopedRest (Ix := Unit) (Name := ℕ) (U := UR sig nD τ) (Lvl := ℕ) spec2 c) : sProp 𝕄) := by
  rw [show (dat2 V c).Φ (Fin.last cfg2.N) = Pipeline.ΦA spec2 c from rfl]; unfold Pipeline.ΦA
  iintro ⟨Hr, Hp⟩
  isplitl [Hp]; · iexact Hp
  iexact Hr

end Cert.KernelIdeal.Hand
-- ==== Proof.KI.RegM3.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row tile, fetched at every point): its current staging buffer holds its block at every point,
    for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole weight matrix, fetched at the first point only): its staging buffer holds its block at
    every point, fetched there or not — unfetched, the block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole row tile. -/
abbrev r3_0 : Rect S5000x128 := Rect.unit (s := S5000x128) ![0, 0] S5000x128.size inb_S5000x128_S5000x128_0_0
/-- The whole weight matrix. -/
abbrev r3_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out3_2 (x0 : Vec F S5000x128 .f32) (x1 : Vec F S128x128 .f32) : Vec F S5000x128 .f32 :=
  View.canon [⟨r3_0, k3_pay1 (View.ld x0 r3_0) (View.ld x1 r3_1)⟩]

/-- The one store is the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents x0, x1 and the output's at anything, runs to
    the continuation holding the inputs' as they were and the output's at out3_2 of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 0 on core c: the arrays as the region finds them (V); after the body at point t each
    input's buffer at its block and the output's at out3_2 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Nothing is owed at any point. -/
theorem owed3 (c : Dev nD) (t) : (dat3 V c).owed t = 0 := rfl

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out -/

/-- Entry: the generator register at some state and the scoped rest are the region's invariant at the first point. -/
theorem hin3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- Exit: the invariant at the last point gives them back. -/
theorem hout3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

end Cert.KernelIdeal.Hand
-- ==== Proof.KI.RegS4.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB4 : Rect S5000x128 := Rect.unit (s := S5000x128) ![0, 0] S5000x128.size inb_S5000x128_S5000x128_0_0
/-- The whole (1,128) row. -/
abbrev rS4 : Rect S1x128 := Rect.unit (s := S1x128) ![0, 0] S1x128.size inb_S1x128_S1x128_0_0

/-! ## The body's branch conditions -/

/-- The first conditional's condition (the point is the first of the grid). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)
/-- The second conditional's condition (the point is the last of the grid). -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## What the body leaves, as closed terms over the payloads -/

/-- Window 2's buffer after the body: the pointwise maximum with zero of (tile + bias row). -/
def out4_2 (x0 : Vec F S5000x128 .f32) (x1 : Vec F S1x128 .f32) : Vec F S5000x128 .f32 :=
  View.canon [⟨rB4, k4_pay3 (View.ld x0 rB4) (View.ld x1 rS4)⟩]

/-- The sum accumulator after the first point: zeroed, then the tile's column sums added. -/
def sA4_0 (x0 : Vec F S5000x128 .f32) (x1 : Vec F S1x128 .f32) : Vec F S1x128 .f32 :=
  View.canon [⟨rS4, k4_pay4 (View.ld x0 rB4) (View.ld x1 rS4) (k4_pay1 (F := F))⟩, ⟨rS4, k4_pay1 (F := F)⟩]
/-- The sum-of-squares accumulator after the first point. -/
def sA4_1 (x0 : Vec F S5000x128 .f32) (x1 : Vec F S1x128 .f32) : Vec F S1x128 .f32 :=
  View.canon [⟨rS4, k4_pay5 (View.ld x0 rB4) (View.ld x1 rS4) (k4_pay2 (F := F))⟩, ⟨rS4, k4_pay2 (F := F)⟩]
/-- The sum accumulator after a later point, from what the point before left (`s`). -/
def sB4_0 (x0 : Vec F S5000x128 .f32) (x1 : Vec F S1x128 .f32) (s : Vec F S1x128 .f32) : Vec F S1x128 .f32 :=
  View.canon [⟨rS4, k4_pay4 (View.ld x0 rB4) (View.ld x1 rS4) (View.ld s rS4)⟩]
/-- The sum-of-squares accumulator after a later point, from what the point before left. -/
def sB4_1 (x0 : Vec F S5000x128 .f32) (x1 : Vec F S1x128 .f32) (s : Vec F S1x128 .f32) : Vec F S1x128 .f32 :=
  View.canon [⟨rS4, k4_pay5 (View.ld x0 rB4) (View.ld x1 rS4) (View.ld s rS4)⟩]
/-- Windows 3 and 4's buffers after the last point: the accumulators as that point leaves them. -/
abbrev out4_3 (x0 : Vec F S5000x128 .f32) (x1 : Vec F S1x128 .f32) (s : Vec F S1x128 .f32) : Vec F S1x128 .f32 := sB4_0 x0 x1 s
abbrev out4_4 (x0 : Vec F S5000x128 .f32) (x1 : Vec F S1x128 .f32) (s : Vec F S1x128 .f32) : Vec F S1x128 .f32 := sB4_1 x0 x1 s

theorem coverB4 (p0 : Vec F S5000x128 .f32) (y : S5000x128.Idx) :
    ∃ pc ∈ ([⟨rB4, p0⟩] : List (View.Piece (Elt F) S5000x128 .f32)), y ∈ pc.1.set :=
  View.cover_of_tiled [⟨rB4, p0⟩] S5000x128.size (by rfl) y
theorem coverS4 (p0 : Vec F S1x128 .f32) (y : S1x128.Idx) :
    ∃ pc ∈ ([⟨rS4, p0⟩] : List (View.Piece (Elt F) S1x128 .f32)), y ∈ pc.1.set :=
  View.cover_of_tiled [⟨rS4, p0⟩] S1x128.size (by rfl) y
theorem coverS4' (p0 p1 : Vec F S1x128 .f32) (y : S1x128.Idx) :
    ∃ pc ∈ ([⟨rS4, p0⟩, ⟨rS4, p1⟩] : List (View.Piece (Elt F) S1x128 .f32)), y ∈ pc.1.set := by
  obtain ⟨pc, hm, hy⟩ := coverS4 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel4_A (c : Dev nD) (E : Set ℕ) (i : grid4.Coords) (hc0 : cond4_0 i) (hc1 : ¬cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare y3 ∗ owns (c : Thread nD τ) arg5 fullShare y4
            ∗ owns (c : Thread nD τ) arg6 fullShare (sA4_0 x0 x1) ∗ owns (c : Thread nD τ) arg7 fullShare (sA4_1 x0 x1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS4' (F := F) _ _)
  iexists _; isplitr
  swap; · iexact H7
  ipureintro; sl_unfold_run_names; rw [View.readCov_cons_toLoadRect]; exact View.read_writes_eq_canon _ _ _ (coverS4' (F := F) _ _)

set_option maxHeartbeats 2000000 in
/-- A MIDDLE POINT: both accumulators, at what the point before left, are added to; windows 3 and 4 are left as found. -/
theorem sound_kernel4_B (c : Dev nD) (E : Set ℕ) (i : grid4.Coords) (hc0 : ¬cond4_0 i) (hc1 : ¬cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare y3 ∗ owns (c : Thread nD τ) arg5 fullShare y4
            ∗ owns (c : Thread nD τ) arg6 fullShare (sB4_0 x0 x1 s0) ∗ owns (c : Thread nD τ) arg7 fullShare (sB4_1 x0 x1 s1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS4 (F := F) _)
  iexists _; isplitr
  swap; · iexact H7
  ipureintro; exact View.read_writes_eq_canon _ _ _ (coverS4 (F := F) _)

set_option maxHeartbeats 2000000 in
/-- THE LAST POINT: both accumulators are added to and then copied into windows 3 and 4, held at anything. -/
theorem sound_kernel4_C (c : Dev nD) (E : Set ℕ) (i : grid4.Coords) (hc0 : ¬cond4_0 i) (hc1 : cond4_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare (sB4_0 x0 x1 s0) ∗ owns (c : Thread nD τ) arg5 fullShare (sB4_1 x0 x1 s1)
            ∗ owns (c : Thread nD τ) arg6 fullShare (sB4_0 x0 x1 s0) ∗ owns (c : Thread nD τ) arg7 fullShare (sB4_1 x0 x1 s1)) -∗ K ⟨⟩))
      ⊢ wp frame (wpE (defs₀ (F := F)) Variants.none c none) E (cc4__relu_stats_kernel i arg1 harg1 arg2 harg2 arg3 harg3 arg4 harg4 arg5 harg5 arg6 harg6 arg7 harg7) K := by
  simp only [cc4__relu_stats_kernel_eq_skeleton]; unfold cc4__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB4 (F := F) _)
  isplitl [H3]
  · iexists _; isplitr
    swap; · iexact H3
    ipureintro; sl_unfold_run_names; rw [View.readCov_cons_toLoadRect]; exact View.read_writes_eq_canon _ _ _ (coverS4 (F := F) _)
  isplitl [H4]
  · iexists _; isplitr
    swap; · iexact H4
    ipureintro; sl_unfold_run_names; rw [View.readCov_cons_toLoadRect]; exact View.read_writes_eq_canon _ _ _ (coverS4 (F := F) _)
  isplitl [H6]
  · iexists _; isplitr
    swap; · iexact H6
    ipureintro; sl_unfold_run_names; exact View.read_writes_eq_canon _ _ _ (coverS4 (F := F) _)
  iexists _; isplitr
  swap; · iexact H7
  ipureintro; sl_unfold_run_names; exact View.read_writes_eq_canon _ _ _ (coverS4 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, fetched at the first point only: its block index never moves) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two carried accumulators -/

/-- The two accumulator operands: whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-- THE ACCUMULATION. What the two accumulators (the column sums and the column sums of squares of the tiles so far)
    hold after the body at position `n`: zeroed and added to at the first point, added to at every later one. -/
def souts4 (c : Dev nD) : (n : ℕ) → n < cfg4.N → Vec F S1x128 .f32 × Vec F S1x128 .f32
  | 0, hn => (sA4_0 (iblk4 V c 0 ⟨0, hn⟩) (iblk4 V c 1 ⟨0, hn⟩), sA4_1 (iblk4 V c 0 ⟨0, hn⟩) (iblk4 V c 1 ⟨0, hn⟩))
  | n + 1, hn =>
    (sB4_0 (iblk4 V c 0 ⟨n + 1, hn⟩) (iblk4 V c 1 ⟨n + 1, hn⟩) (souts4 c n (Nat.lt_of_succ_lt hn)).1,
     sB4_1 (iblk4 V c 0 ⟨n + 1, hn⟩) (iblk4 V c 1 ⟨n + 1, hn⟩) (souts4 c n (Nat.lt_of_succ_lt hn)).2)

theorem souts4_zero (c : Dev nD) (t : Fin cfg4.N) (h0 : t.val = 0) :
    souts4 V c t.val t.isLt = (sA4_0 (iblk4 V c 0 t) (iblk4 V c 1 t), sA4_1 (iblk4 V c 0 t) (iblk4 V c 1 t)) := by
  obtain ⟨n, hn⟩ := t
  cases n with
  | zero => exact rfl
  | succ n => exact absurd h0 (Nat.succ_ne_zero _)

theorem souts4_pos (c : Dev nD) (t : Fin cfg4.N) (h0 : t.val ≠ 0) :
    souts4 V c t.val t.isLt =
      (sB4_0 (iblk4 V c 0 t) (iblk4 V c 1 t) (souts4 V c (t.val - 1) (Nat.lt_of_le_of_lt (Nat.sub_le _ _) t.isLt)).1,
       sB4_1 (iblk4 V c 0 t) (iblk4 V c 1 t) (souts4 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts4`), the rest of the scoped rest unopened, and the generator register at some state. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((owns (c : Thread nD τ) scM4_0 fullShare (souts4 V c n hn).1 ∗ owns (c : Thread nD τ) scM4_1 fullShare (souts4 V c n hn).2)
      ∗ Pipeline.scopedRestBut (Ix := Unit) (Name := ℕ) (U := UR sig nD τ) (Lvl := ℕ) (Val := Elt F) spec4 c [cc4_scratch0, cc4_scratch1] ∗ (∃ r, prngReg c r))

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) spec4 c) := by
  subst hz; rfl

theorem PhiS4_succ (c : Dev nD) (n : ℕ) (hn : n < cfg4.N) :
    PhiS4 V c (n + 1) hn = iprop((owns (c : Thread nD τ) scM4_0 fullShare (souts4 V c n hn).1 ∗ owns (c : Thread nD τ) scM4_1 fullShare (souts4 V c n hn).2)
      ∗ Pipeline.scopedRestBut (Ix := Unit) (Name := ℕ) (U := UR sig nD τ) (Lvl := ℕ) (Val := Elt F) spec4 c [cc4_scratch0, cc4_scratch1] ∗ (∃ r, prngReg c r)) := rfl

theorem PhiS4_pos (c : Dev nD) (n : ℕ) (h : n ≤ cfg4.N) (hz : n ≠ 0) :
    PhiS4 V c n h = iprop((owns (c : Thread nD τ) scM4_0 fullShare (souts4 V c (n - 1) (by omega)).1 ∗ owns (c : Thread nD τ) scM4_1 fullShare (souts4 V c (n - 1) (by omega)).2)
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-- The scoped rest with the two accumulators as memrefs owned at some contents. -/
theorem scopedRest4_owns (c : Dev nD) :
    (Pipeline.scopedRest (Ix := Unit) (Name := ℕ) (U := UR sig nD τ) (Lvl := ℕ) (Val := Elt F) spec4 c : sProp 𝕄)
      = iprop(((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => (souts4 V c t.val t.isLt).1
    | ⟨4, _⟩ => (souts4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = (souts4 V c t.val t.isLt).1 := by dsimp only [dat4]
theorem after4_4 (c : Dev nD) (t : Fin cfg4.N) : (dat4 V c).after 4 t = (souts4 V c t.val t.isLt).2 := by dsimp only [dat4]

theorem owed4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## Entry and exit -/

/-- What the launch hands the region is the invariant before the first point. -/
theorem hin4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the accumulators' named contents are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  by_cases h0 : t.val % 20 = 0
  · have hz : t.val = 0 := by omega
    have hnc1 : ¬cond4_1 (grid4.coords t) := fun h => by have := (hcond4_1 t).mp h; omega
    rw [Dat.leavesExact_idle (dat4 V c) 3 t (idleAt4_3 t hnc1) (noFlush4_3 t hnc1),
      Dat.leavesExact_idle (dat4 V c) 4 t (idleAt4_4 t hnc1) (noFlush4_4 t hnc1)]
    rw [souts4_zero V c t hz]
    dsimp only
    rw [PhiS4_castSucc V c t, PhiS4_zero V c _ _ hz, scopedRest4_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel4_A c Set.univ (grid4.coords t) ((hcond4_0 t).mpr h0) hnc1 _ _ _ _ _ _ _ _ _ _ _ _ _ _ (iblk4 V c 0 t) (iblk4 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond4_0 (grid4.coords t) := fun h => h0 ((hcond4_0 t).mp h)
    by_cases h1 : t.val % 20 = 19
    · have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3]
      rw [show (dat4 V c).leavesExact 4 t = owns (c : Thread nD τ) (st4_4 t) fullShare ((dat4 V c).after 4 t) from by
        unfold Dat.leavesExact; rw [liveAt4_4 t hc1], after4_4]
      rw [souts4_pos V c t hz]
      dsimp only
      rw [PhiS4_castSucc V c t, PhiS4_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_C c Set.univ (grid4.coords t) hnc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond4_1 (grid4.coords t) := fun h => h1 ((hcond4_1 t).mp h)
      rw [Dat.leavesExact_idle (dat4 V c) 3 t (idleAt4_3 t hnc1) (noFlush4_3 t hnc1),
        Dat.leavesExact_idle (dat4 V c) 4 t (idleAt4_4 t hnc1) (noFlush4_4 t hnc1)]
      rw [souts4_pos V c t hz]
      dsimp only
      rw [PhiS4_castSucc V c t, PhiS4_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_B c Set.univ (grid4.coords t) hnc0 hnc1 _ _ _ _ _ _ _ _ _ _ _ _ _ _ (iblk4 V c 0 t) (iblk4 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.RegB5.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out5_5 (x0 : Vec F S5000x128 .f32) (x1 x2 x3 x4 : Vec F S1x128 .f32) : Vec F S5000x128 .f32 :=
  View.canon [⟨r5_0, k5_pay1 (View.ld x2 r5_1) (View.ld x0 r5_0) (View.ld x1 r5_1) (View.ld x3 r5_1) (View.ld x4 r5_1)⟩]

/-- The store tiles the buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 2 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Nothing is owed at any point. -/
theorem owed5 (c : Dev nD) (t) : (dat5 V c).owed t = 0 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in
/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the region's invariant and out -/

/-- Entry: the generator register at some state and the scoped rest make the invariant at the first point. -/
theorem hin5 (c : Dev nD) :
    (iprop((∃ r, prngReg c r) ∗ Pipeline.scopedRest (Ix := Unit) (Name := ℕ) (U := UR sig nD τ) (Lvl := ℕ) spec5 c) : sProp 𝕄)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Exit: the invariant at the last point gives them back. -/
theorem hout5 (c : Dev nD) :
    (dat5 V c).Φ (Fin.last cfg5.N)
      ⊢ (iprop((∃ r, prngReg c r) ∗ Pipeline.scopedRest (Ix := Unit) (Name := ℕ) (U := UR sig nD τ) (Lvl := ℕ) spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.KernelIdeal.Hand
-- ==== Proof.KI.RegM6.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row tile, fetched at every point): its current staging buffer holds its block at every point,
    for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole weight matrix, fetched at the first point only): its staging buffer holds its block at
    every point, fetched there or not — unfetched, the block index has not moved and the body left the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole row tile. -/
abbrev r6_0 : Rect S5000x128 := Rect.unit (s := S5000x128) ![0, 0] S5000x128.size inb_S5000x128_S5000x128_0_0
/-- The whole weight matrix. -/
abbrev r6_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out6_2 (x0 : Vec F S5000x128 .f32) (x1 : Vec F S128x128 .f32) : Vec F S5000x128 .f32 :=
  View.canon [⟨r6_0, k6_pay1 (View.ld x0 r6_0) (View.ld x1 r6_1)⟩]

/-- The one store is the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents x0, x1 and the output's at anything, runs to
    the continuation holding the inputs' as they were and the output's at out6_2 of the inputs'. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 0 on core c: the arrays as the region finds them (V); after the body at point t each
    input's buffer at its block and the output's at out6_2 of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Nothing is owed at any point. -/
theorem owed6 (c : Dev nD) (t) : (dat6 V c).owed t = 0 := rfl

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out -/

/-- Entry: the generator register at some state and the scoped rest are the region's invariant at the first point. -/
theorem hin6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- Exit: the invariant at the last point gives them back. -/
theorem hout6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last _) = Pipeline.ΦA spec6 c from rfl]; unfold Pipeline.ΦA
  iintro ⟨Hr, Hp⟩
  isplitl [Hp]; · iexact Hp
  iexact Hr

end Cert.KernelIdeal.Hand
-- ==== Proof.KI.RegS7.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB7 : Rect S5000x128 := Rect.unit (s := S5000x128) ![0, 0] S5000x128.size inb_S5000x128_S5000x128_0_0
/-- The whole (1,128) row. -/
abbrev rS7 : Rect S1x128 := Rect.unit (s := S1x128) ![0, 0] S1x128.size inb_S1x128_S1x128_0_0

/-! ## The body's branch conditions -/

/-- The first conditional's condition (the point is the first of the grid). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 20 = 0 :=
  (by decide +kernel : ∀ t : Fin grid7.N, cond7_0 (grid7.coords t) ↔ t.val % 20 = 0)
/-- The second conditional's condition (the point is the last of the grid). -/
abbrev cond7_1 (i : grid7.Coords) : Prop := k7_cond2 i = 1#1
theorem hcond7_1 : ∀ t : Fin cfg7.N, cond7_1 (grid7.coords t) ↔ t.val % 20 = 19 :=
  (by decide +kernel : ∀ t : Fin grid7.N, cond7_1 (grid7.coords t) ↔ t.val % 20 = 19)

/-! ## What the body leaves, as closed terms over the payloads -/

/-- Window 2's buffer after the body: the pointwise maximum with zero of (tile + bias row). -/
def out7_2 (x0 : Vec F S5000x128 .f32) (x1 : Vec F S1x128 .f32) : Vec F S5000x128 .f32 :=
  View.canon [⟨rB7, k7_pay3 (View.ld x0 rB7) (View.ld x1 rS7)⟩]

/-- The sum accumulator after the first point: zeroed, then the tile's column sums added. -/
def sA7_0 (x0 : Vec F S5000x128 .f32) (x1 : Vec F S1x128 .f32) : Vec F S1x128 .f32 :=
  View.canon [⟨rS7, k7_pay4 (View.ld x0 rB7) (View.ld x1 rS7) (k7_pay1 (F := F))⟩, ⟨rS7, k7_pay1 (F := F)⟩]
/-- The sum-of-squares accumulator after the first point. -/
def sA7_1 (x0 : Vec F S5000x128 .f32) (x1 : Vec F S1x128 .f32) : Vec F S1x128 .f32 :=
  View.canon [⟨rS7, k7_pay5 (View.ld x0 rB7) (View.ld x1 rS7) (k7_pay2 (F := F))⟩, ⟨rS7, k7_pay2 (F := F)⟩]
/-- The sum accumulator after a later point, from what the point before left (`s`). -/
def sB7_0 (x0 : Vec F S5000x128 .f32) (x1 : Vec F S1x128 .f32) (s : Vec F S1x128 .f32) : Vec F S1x128 .f32 :=
  View.canon [⟨rS7, k7_pay4 (View.ld x0 rB7) (View.ld x1 rS7) (View.ld s rS7)⟩]
/-- The sum-of-squares accumulator after a later point, from what the point before left. -/
def sB7_1 (x0 : Vec F S5000x128 .f32) (x1 : Vec F S1x128 .f32) (s : Vec F S1x128 .f32) : Vec F S1x128 .f32 :=
  View.canon [⟨rS7, k7_pay5 (View.ld x0 rB7) (View.ld x1 rS7) (View.ld s rS7)⟩]
/-- Windows 3 and 4's buffers after the last point: the accumulators as that point leaves them. -/
abbrev out7_3 (x0 : Vec F S5000x128 .f32) (x1 : Vec F S1x128 .f32) (s : Vec F S1x128 .f32) : Vec F S1x128 .f32 := sB7_0 x0 x1 s
abbrev out7_4 (x0 : Vec F S5000x128 .f32) (x1 : Vec F S1x128 .f32) (s : Vec F S1x128 .f32) : Vec F S1x128 .f32 := sB7_1 x0 x1 s

theorem coverB7 (p0 : Vec F S5000x128 .f32) (y : S5000x128.Idx) :
    ∃ pc ∈ ([⟨rB7, p0⟩] : List (View.Piece (Elt F) S5000x128 .f32)), y ∈ pc.1.set :=
  View.cover_of_tiled [⟨rB7, p0⟩] S5000x128.size (by rfl) y
theorem coverS7 (p0 : Vec F S1x128 .f32) (y : S1x128.Idx) :
    ∃ pc ∈ ([⟨rS7, p0⟩] : List (View.Piece (Elt F) S1x128 .f32)), y ∈ pc.1.set :=
  View.cover_of_tiled [⟨rS7, p0⟩] S1x128.size (by rfl) y
theorem coverS7' (p0 p1 : Vec F S1x128 .f32) (y : S1x128.Idx) :
    ∃ pc ∈ ([⟨rS7, p0⟩, ⟨rS7, p1⟩] : List (View.Piece (Elt F) S1x128 .f32)), y ∈ pc.1.set := by
  obtain ⟨pc, hm, hy⟩ := coverS7 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel7_A (c : Dev nD) (E : Set ℕ) (i : grid7.Coords) (hc0 : cond7_0 i) (hc1 : ¬cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare y3 ∗ owns (c : Thread nD τ) arg5 fullShare y4
            ∗ owns (c : Thread nD τ) arg6 fullShare (sA7_0 x0 x1) ∗ owns (c : Thread nD τ) arg7 fullShare (sA7_1 x0 x1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS7' (F := F) _ _)
  iexists _; isplitr
  swap; · iexact H7
  ipureintro; sl_unfold_run_names; rw [View.readCov_cons_toLoadRect]; exact View.read_writes_eq_canon _ _ _ (coverS7' (F := F) _ _)

set_option maxHeartbeats 2000000 in
/-- A MIDDLE POINT: both accumulators, at what the point before left, are added to; windows 3 and 4 are left as found. -/
theorem sound_kernel7_B (c : Dev nD) (E : Set ℕ) (i : grid7.Coords) (hc0 : ¬cond7_0 i) (hc1 : ¬cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare y3 ∗ owns (c : Thread nD τ) arg5 fullShare y4
            ∗ owns (c : Thread nD τ) arg6 fullShare (sB7_0 x0 x1 s0) ∗ owns (c : Thread nD τ) arg7 fullShare (sB7_1 x0 x1 s1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS7 (F := F) _)
  iexists _; isplitr
  swap; · iexact H7
  ipureintro; exact View.read_writes_eq_canon _ _ _ (coverS7 (F := F) _)

set_option maxHeartbeats 2000000 in
/-- THE LAST POINT: both accumulators are added to and then copied into windows 3 and 4, held at anything. -/
theorem sound_kernel7_C (c : Dev nD) (E : Set ℕ) (i : grid7.Coords) (hc0 : ¬cond7_0 i) (hc1 : cond7_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out7_2 x0 x1)
            ∗ owns (c : Thread nD τ) arg4 fullShare (sB7_0 x0 x1 s0) ∗ owns (c : Thread nD τ) arg5 fullShare (sB7_1 x0 x1 s1)
            ∗ owns (c : Thread nD τ) arg6 fullShare (sB7_0 x0 x1 s0) ∗ owns (c : Thread nD τ) arg7 fullShare (sB7_1 x0 x1 s1)) -∗ K ⟨⟩))
      ⊢ wp frame (wpE (defs₀ (F := F)) Variants.none c none) E (cc7__relu_stats_kernel i arg1 harg1 arg2 harg2 arg3 harg3 arg4 harg4 arg5 harg5 arg6 harg6 arg7 harg7) K := by
  simp only [cc7__relu_stats_kernel_eq_skeleton]; unfold cc7__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB7 (F := F) _)
  isplitl [H3]
  · iexists _; isplitr
    swap; · iexact H3
    ipureintro; sl_unfold_run_names; rw [View.readCov_cons_toLoadRect]; exact View.read_writes_eq_canon _ _ _ (coverS7 (F := F) _)
  isplitl [H4]
  · iexists _; isplitr
    swap; · iexact H4
    ipureintro; sl_unfold_run_names; rw [View.readCov_cons_toLoadRect]; exact View.read_writes_eq_canon _ _ _ (coverS7 (F := F) _)
  isplitl [H6]
  · iexists _; isplitr
    swap; · iexact H6
    ipureintro; sl_unfold_run_names; exact View.read_writes_eq_canon _ _ _ (coverS7 (F := F) _)
  iexists _; isplitr
  swap; · iexact H7
  ipureintro; sl_unfold_run_names; exact View.read_writes_eq_canon _ _ _ (coverS7 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is `V`'s and
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, fetched at the first point only: its block index never moves) likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two carried accumulators -/

/-- The two accumulator operands: whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-- THE ACCUMULATION. What the two accumulators (the column sums and the column sums of squares of the tiles so far)
    hold after the body at position `n`: zeroed and added to at the first point, added to at every later one. -/
def souts7 (c : Dev nD) : (n : ℕ) → n < cfg7.N → Vec F S1x128 .f32 × Vec F S1x128 .f32
  | 0, hn => (sA7_0 (iblk7 V c 0 ⟨0, hn⟩) (iblk7 V c 1 ⟨0, hn⟩), sA7_1 (iblk7 V c 0 ⟨0, hn⟩) (iblk7 V c 1 ⟨0, hn⟩))
  | n + 1, hn =>
    (sB7_0 (iblk7 V c 0 ⟨n + 1, hn⟩) (iblk7 V c 1 ⟨n + 1, hn⟩) (souts7 c n (Nat.lt_of_succ_lt hn)).1,
     sB7_1 (iblk7 V c 0 ⟨n + 1, hn⟩) (iblk7 V c 1 ⟨n + 1, hn⟩) (souts7 c n (Nat.lt_of_succ_lt hn)).2)

theorem souts7_zero (c : Dev nD) (t : Fin cfg7.N) (h0 : t.val = 0) :
    souts7 V c t.val t.isLt = (sA7_0 (iblk7 V c 0 t) (iblk7 V c 1 t), sA7_1 (iblk7 V c 0 t) (iblk7 V c 1 t)) := by
  obtain ⟨n, hn⟩ := t
  cases n with
  | zero => exact rfl
  | succ n => exact absurd h0 (Nat.succ_ne_zero _)

theorem souts7_pos (c : Dev nD) (t : Fin cfg7.N) (h0 : t.val ≠ 0) :
    souts7 V c t.val t.isLt =
      (sB7_0 (iblk7 V c 0 t) (iblk7 V c 1 t) (souts7 V c (t.val - 1) (Nat.lt_of_le_of_lt (Nat.sub_le _ _) t.isLt)).1,
       sB7_1 (iblk7 V c 0 t) (iblk7 V c 1 t) (souts7 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts7`), the rest of the scoped rest unopened, and the generator register at some state. -/
def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) spec7 c)
  | n + 1, hn => iprop((owns (c : Thread nD τ) scM7_0 fullShare (souts7 V c n hn).1 ∗ owns (c : Thread nD τ) scM7_1 fullShare (souts7 V c n hn).2)
      ∗ Pipeline.scopedRestBut (Ix := Unit) (Name := ℕ) (U := UR sig nD τ) (Lvl := ℕ) (Val := Elt F) spec7 c [cc7_scratch0, cc7_scratch1] ∗ (∃ r, prngReg c r))

theorem PhiS7_zero (c : Dev nD) (n : ℕ) (h : n ≤ cfg7.N) (hz : n = 0) :
    PhiS7 V c n h = iprop((∃ r, prngReg c r) ∗ Pipeline.scopedRest (Ix := Unit) (Name := ℕ) (U := UR sig nD τ) (Lvl := ℕ) spec7 c) := by
  subst hz; rfl

theorem PhiS7_succ (c : Dev nD) (n : ℕ) (hn : n < cfg7.N) :
    PhiS7 V c (n + 1) hn = iprop((owns (c : Thread nD τ) scM7_0 fullShare (souts7 V c n hn).1 ∗ owns (c : Thread nD τ) scM7_1 fullShare (souts7 V c n hn).2)
      ∗ Pipeline.scopedRestBut (Ix := Unit) (Name := ℕ) (U := UR sig nD τ) (Lvl := ℕ) (Val := Elt F) spec7 c [cc7_scratch0, cc7_scratch1] ∗ (∃ r, prngReg c r)) := rfl

theorem PhiS7_pos (c : Dev nD) (n : ℕ) (h : n ≤ cfg7.N) (hz : n ≠ 0) :
    PhiS7 V c n h = iprop((owns (c : Thread nD τ) scM7_0 fullShare (souts7 V c (n - 1) (by omega)).1 ∗ owns (c : Thread nD τ) scM7_1 fullShare (souts7 V c (n - 1) (by omega)).2)
      ∗ Pipeline.scopedRestBut (Ix := Unit) (Name := ℕ) (U := UR sig nD τ) (Lvl := ℕ) (Val := Elt F) spec7 c [cc7_scratch0, cc7_scratch1] ∗ (∃ r, prngReg c r)) := by
  cases n with
  | zero => exact absurd rfl hz
  | succ n => rfl

/-- The scoped rest with the two accumulators as memrefs owned at some contents. -/
theorem scopedRest7_owns (c : Dev nD) :
    (Pipeline.scopedRest (Ix := Unit) (Name := ℕ) (U := UR sig nD τ) (Lvl := ℕ) (Val := Elt F) spec7 c : sProp 𝕄)
      = iprop(((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
    | ⟨3, _⟩ => (souts7 V c t.val t.isLt).1
    | ⟨4, _⟩ => (souts7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem after7_3 (c : Dev nD) (t : Fin cfg7.N) : (dat7 V c).after 3 t = (souts7 V c t.val t.isLt).1 := by dsimp only [dat7]
theorem after7_4 (c : Dev nD) (t : Fin cfg7.N) : (dat7 V c).after 4 t = (souts7 V c t.val t.isLt).2 := by dsimp only [dat7]

theorem owed7 (c : Dev nD) (t : Fin (cfg7.N + 1)) : (dat7 V c).owed t = 0 := rfl

theorem PhiS7_castSucc (c : Dev nD) (t : Fin cfg7.N) :
    (dat7 V c).Φ t.castSucc = PhiS7 V c t.val (Nat.le_of_lt t.isLt) := by
  dsimp only [dat7]; simp only [Fin.coe_castSucc]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## Entry and exit -/

/-- What the launch hands the region is the invariant before the first point. -/
theorem hin7 (c : Dev nD) :
    (iprop((∃ r, prngReg c r) ∗ Pipeline.scopedRest (Ix := Unit) (Name := ℕ) (U := UR sig nD τ) (Lvl := ℕ) spec7 c) : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives them back: the accumulators' named contents are forgotten. -/
theorem hout7 (c : Dev nD) :
    (dat7 V c).Φ (Fin.last cfg7.N) ⊢ (iprop((∃ r, prngReg c r) ∗ Pipeline.scopedRest (Ix := Unit) (Name := ℕ) (U := UR sig nD τ) (Lvl := ℕ) spec7 c) : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 20 := N_7; omega), scopedRest7_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem idleAt7_4 : ∀ t : Fin cfg7.N, ¬cond7_1 (grid7.coords t) → cfg7.idle 4 (grid7.coords t) = true := by decide +kernel
theorem noFlush7_3 : ∀ t : Fin cfg7.N, ¬cond7_1 (grid7.coords t) → (cfg7.win 3).flush t = false := by decide +kernel
theorem noFlush7_4 : ∀ t : Fin cfg7.N, ¬cond7_1 (grid7.coords t) → (cfg7.win 4).flush t = false := by decide +kernel
theorem liveAt7_3 : ∀ t : Fin cfg7.N, cond7_1 (grid7.coords t) → cfg7.idle 3 (grid7.coords t) = false := by decide +kernel
theorem liveAt7_4 : ∀ t : Fin cfg7.N, cond7_1 (grid7.coords t) → cfg7.idle 4 (grid7.coords t) = false := by decide +kernel

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  by_cases h0 : t.val % 20 = 0
  · have hz : t.val = 0 := by omega
    have hnc1 : ¬cond7_1 (grid7.coords t) := fun h => by have := (hcond7_1 t).mp h; omega
    rw [Dat.leavesExact_idle (dat7 V c) 3 t (idleAt7_3 t hnc1) (noFlush7_3 t hnc1),
      Dat.leavesExact_idle (dat7 V c) 4 t (idleAt7_4 t hnc1) (noFlush7_4 t hnc1)]
    rw [souts7_zero V c t hz]
    dsimp only
    rw [PhiS7_castSucc V c t, PhiS7_zero V c _ _ hz, scopedRest7_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel7_A c Set.univ (grid7.coords t) ((hcond7_0 t).mpr h0) hnc1 _ _ _ _ _ _ _ _ _ _ _ _ _ _ (iblk7 V c 0 t) (iblk7 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond7_0 (grid7.coords t) := fun h => h0 ((hcond7_0 t).mp h)
    by_cases h1 : t.val % 20 = 19
    · have hc1 : cond7_1 (grid7.coords t) := (hcond7_1 t).mpr h1
      rw [show (dat7 V c).leavesExact 3 t = owns (c : Thread nD τ) (st7_3 t) fullShare ((dat7 V c).after 3 t) from by
        unfold Dat.leavesExact; rw [liveAt7_3 t hc1], after7_3]
      rw [show (dat7 V c).leavesExact 4 t = owns (c : Thread nD τ) (st7_4 t) fullShare ((dat7 V c).after 4 t) from by
        unfold Dat.leavesExact; rw [liveAt7_4 t hc1], after7_4]
      rw [souts7_pos V c t hz]
      dsimp only
      rw [PhiS7_castSucc V c t, PhiS7_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel7_C c Set.univ (grid7.coords t) hnc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond7_1 (grid7.coords t) := fun h => h1 ((hcond7_1 t).mp h)
      rw [Dat.leavesExact_idle (dat7 V c) 3 t (idleAt7_3 t hnc1) (noFlush7_3 t hnc1),
        Dat.leavesExact_idle (dat7 V c) 4 t (idleAt7_4 t hnc1) (noFlush7_4 t hnc1)]
      rw [souts7_pos V c t hz]
      dsimp only
      rw [PhiS7_castSucc V c t, PhiS7_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel7_B c Set.univ (grid7.coords t) hnc0 hnc1 _ _ _ _ _ _ _ _ _ _ _ _ _ _ (iblk7 V c 0 t) (iblk7 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.KernelIdeal.Hand

end
-- ==== Proof.KI.RegB8.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: unfetched, the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: unfetched, the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S5000x128 := Rect.unit (s := S5000x128) ![0, 0] S5000x128.size inb_S5000x128_S5000x128_0_0
abbrev r8_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out8_5 (x0 : Vec F S5000x128 .f32) (x1 x2 x3 x4 : Vec F S1x128 .f32) : Vec F S5000x128 .f32 :=
  View.canon [⟨r8_0, k8_pay1 (View.ld x2 r8_1) (View.ld x0 r8_0) (View.ld x1 r8_1) (View.ld x3 r8_1) (View.ld x4 r8_1)⟩]

/-- The store tiles the buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the inputs' at read contents `xW` and the output's at anything, runs to
    the continuation holding the inputs' as they were and the output's at `out8_5` of the inputs'. -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 2 on core `c`: the arrays as the region finds them (`V`); after the body at point
    `t` each input's buffer at its block and the output's at `out8_5` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t =
    out8_5 (iblk8 V c 0 t) (iblk8 V c 1 t) (iblk8 V c 2 t) (iblk8 V c 3 t) (iblk8 V c 4 t) := by dsimp only [dat8]

/-- Nothing is owed at any point. -/
theorem owed8 (c : Dev nD) (t) : (dat8 V c).owed t = 0 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

set_option maxHeartbeats 1000000 in
/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into the region's invariant and out -/

/-- Entry: the generator register at some state and the scoped rest make the invariant at the first point. -/
theorem hin8 (c : Dev nD) :
    (iprop((∃ r, prngReg c r) ∗ Pipeline.scopedRest (Ix := Unit) (Name := ℕ) (U := UR sig nD τ) (Lvl := ℕ) spec8 c) : sProp 𝕄)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Exit: the invariant at the last point gives them back. -/
theorem hout8 (c : Dev nD) :
    (dat8 V c).Φ (Fin.last cfg8.N)
      ⊢ (iprop((∃ r, prngReg c r) ∗ Pipeline.scopedRest (Ix := Unit) (Name := ℕ) (U := UR sig nD τ) (Lvl := ℕ) spec8 c) : sProp 𝕄) := by
  rw [show (dat8 V c).Φ (Fin.last cfg8.N) = Pipeline.ΦA spec8 c from rfl]; unfold Pipeline.ΦA
  iintro ⟨Hr, Hp⟩
  isplitl [Hp]; · iexact Hp
  iexact Hr

end Cert.KernelIdeal.Hand
-- ==== Proof.KI.RegM9.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row tile, fetched at every point): its current staging buffer holds its block at every point,
    for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the whole weight matrix, fetched at the first point only): its staging buffer holds its block at
    every point, fetched there or not — unfetched, the block index has not moved and the body left the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole row tile. -/
abbrev r9_0 : Rect S5000x128 := Rect.unit (s := S5000x128) ![0, 0] S5000x128.size inb_S5000x128_S5000x128_0_0
/-- The whole weight matrix. -/
abbrev r9_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out9_2 (x0 : Vec F S5000x128 .f32) (x1 : Vec F S128x128 .f32) : Vec F S5000x128 .f32 :=
  View.canon [⟨r9_0, k9_pay1 (View.ld x0 r9_0) (View.ld x1 r9_1)⟩]

/-- The one store is the whole buffer, so it covers it. -/
theorem cover9_2 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at read contents x0, x1 and the output's at anything, runs to
    the continuation holding the inputs' as they were and the output's at out9_2 of the inputs'. -/
theorem sound_kernel9 (c : Dev nD) (E : Set ℕ) (i : grid9.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 0 on core c: the arrays as the region finds them (V); after the body at point t each
    input's buffer at its block and the output's at out9_2 of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Nothing is owed at any point. -/
theorem owed9 (c : Dev nD) (t) : (dat9 V c).owed t = 0 := rfl

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## Into the invariant and out -/

/-- Entry: the generator register at some state and the scoped rest are the region's invariant at the first point. -/
theorem hin9 (c : Dev nD) :
    (iprop((∃ r, prngReg c r) ∗ Pipeline.scopedRest (Ix := Unit) (Name := ℕ) (U := UR sig nD τ) (Lvl := ℕ) (Val := Elt F) spec9 c) : sProp 𝕄)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- Exit: the invariant at the last point gives them back. -/
theorem hout9 (c : Dev nD) :
    (dat9 V c).Φ (Fin.last cfg9.N)
      ⊢ (iprop((∃ r, prngReg c r) ∗ Pipeline.scopedRest (Ix := Unit) (Name := ℕ) (U := UR sig nD τ) (Lvl := ℕ) (Val := Elt F) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

end Cert.KernelIdeal.Hand
-- ==== Proof.KI.RegS10.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB10 : Rect S5000x128 := Rect.unit (s := S5000x128) ![0, 0] S5000x128.size inb_S5000x128_S5000x128_0_0
/-- The whole (1,128) row. -/
abbrev rS10 : Rect S1x128 := Rect.unit (s := S1x128) ![0, 0] S1x128.size inb_S1x128_S1x128_0_0

/-! ## The body's branch conditions -/

/-- The first conditional's condition (the point is the first of the grid). -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val % 20 = 0 :=
  (by decide +kernel : ∀ t : Fin grid10.N, cond10_0 (grid10.coords t) ↔ t.val % 20 = 0)
/-- The second conditional's condition (the point is the last of the grid). -/
abbrev cond10_1 (i : grid10.Coords) : Prop := k10_cond2 i = 1#1
theorem hcond10_1 : ∀ t : Fin cfg10.N, cond10_1 (grid10.coords t) ↔ t.val % 20 = 19 :=
  (by decide +kernel : ∀ t : Fin grid10.N, cond10_1 (grid10.coords t) ↔ t.val % 20 = 19)

/-! ## What the body leaves, as closed terms over the payloads -/

/-- Window 2's buffer after the body: the pointwise maximum with zero of (tile + bias row). -/
def out10_2 (x0 : Vec F S5000x128 .f32) (x1 : Vec F S1x128 .f32) : Vec F S5000x128 .f32 :=
  View.canon [⟨rB10, k10_pay3 (View.ld x0 rB10) (View.ld x1 rS10)⟩]

/-- The sum accumulator after the first point: zeroed, then the tile's column sums added. -/
def sA10_0 (x0 : Vec F S5000x128 .f32) (x1 : Vec F S1x128 .f32) : Vec F S1x128 .f32 :=
  View.canon [⟨rS10, k10_pay4 (View.ld x0 rB10) (View.ld x1 rS10) (k10_pay1 (F := F))⟩, ⟨rS10, k10_pay1 (F := F)⟩]
/-- The sum-of-squares accumulator after the first point. -/
def sA10_1 (x0 : Vec F S5000x128 .f32) (x1 : Vec F S1x128 .f32) : Vec F S1x128 .f32 :=
  View.canon [⟨rS10, k10_pay5 (View.ld x0 rB10) (View.ld x1 rS10) (k10_pay2 (F := F))⟩, ⟨rS10, k10_pay2 (F := F)⟩]
/-- The sum accumulator after a later point, from what the point before left (`s`). -/
def sB10_0 (x0 : Vec F S5000x128 .f32) (x1 : Vec F S1x128 .f32) (s : Vec F S1x128 .f32) : Vec F S1x128 .f32 :=
  View.canon [⟨rS10, k10_pay4 (View.ld x0 rB10) (View.ld x1 rS10) (View.ld s rS10)⟩]
/-- The sum-of-squares accumulator after a later point, from what the point before left. -/
def sB10_1 (x0 : Vec F S5000x128 .f32) (x1 : Vec F S1x128 .f32) (s : Vec F S1x128 .f32) : Vec F S1x128 .f32 :=
  View.canon [⟨rS10, k10_pay5 (View.ld x0 rB10) (View.ld x1 rS10) (View.ld s rS10)⟩]
/-- Windows 3 and 4's buffers after the last point: the accumulators as that point leaves them. -/
abbrev out10_3 (x0 : Vec F S5000x128 .f32) (x1 : Vec F S1x128 .f32) (s : Vec F S1x128 .f32) : Vec F S1x128 .f32 := sB10_0 x0 x1 s
abbrev out10_4 (x0 : Vec F S5000x128 .f32) (x1 : Vec F S1x128 .f32) (s : Vec F S1x128 .f32) : Vec F S1x128 .f32 := sB10_1 x0 x1 s

theorem coverB10 (p0 : Vec F S5000x128 .f32) (y : S5000x128.Idx) :
    ∃ pc ∈ ([⟨rB10, p0⟩] : List (View.Piece (Elt F) S5000x128 .f32)), y ∈ pc.1.set :=
  View.cover_of_tiled [⟨rB10, p0⟩] S5000x128.size (by rfl) y
theorem coverS10 (p0 : Vec F S1x128 .f32) (y : S1x128.Idx) :
    ∃ pc ∈ ([⟨rS10, p0⟩] : List (View.Piece (Elt F) S1x128 .f32)), y ∈ pc.1.set :=
  View.cover_of_tiled [⟨rS10, p0⟩] S1x128.size (by rfl) y
theorem coverS10' (p0 p1 : Vec F S1x128 .f32) (y : S1x128.Idx) :
    ∃ pc ∈ ([⟨rS10, p0⟩, ⟨rS10, p1⟩] : List (View.Piece (Elt F) S1x128 .f32)), y ∈ pc.1.set := by
  obtain ⟨pc, hm, hy⟩ := coverS10 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel10_A (c : Dev nD) (E : Set ℕ) (i : grid10.Coords) (hc0 : cond10_0 i) (hc1 : ¬cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare y3 ∗ owns (c : Thread nD τ) arg5 fullShare y4
            ∗ owns (c : Thread nD τ) arg6 fullShare (sA10_0 x0 x1) ∗ owns (c : Thread nD τ) arg7 fullShare (sA10_1 x0 x1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS10' (F := F) _ _)
  iexists _; isplitr
  swap; · iexact H7
  ipureintro; sl_unfold_run_names; rw [View.readCov_cons_toLoadRect]; exact View.read_writes_eq_canon _ _ _ (coverS10' (F := F) _ _)

set_option maxHeartbeats 2000000 in
/-- A MIDDLE POINT: both accumulators, at what the point before left, are added to; windows 3 and 4 are left as found. -/
theorem sound_kernel10_B (c : Dev nD) (E : Set ℕ) (i : grid10.Coords) (hc0 : ¬cond10_0 i) (hc1 : ¬cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare y3 ∗ owns (c : Thread nD τ) arg5 fullShare y4
            ∗ owns (c : Thread nD τ) arg6 fullShare (sB10_0 x0 x1 s0) ∗ owns (c : Thread nD τ) arg7 fullShare (sB10_1 x0 x1 s1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS10 (F := F) _)
  iexists _; isplitr
  swap; · iexact H7
  ipureintro; exact View.read_writes_eq_canon _ _ _ (coverS10 (F := F) _)

set_option maxHeartbeats 2000000 in
/-- THE LAST POINT: both accumulators are added to and then copied into windows 3 and 4, held at anything. -/
theorem sound_kernel10_C (c : Dev nD) (E : Set ℕ) (i : grid10.Coords) (hc0 : ¬cond10_0 i) (hc1 : cond10_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out10_2 x0 x1)
            ∗ owns (c : Thread nD τ) arg4 fullShare (sB10_0 x0 x1 s0) ∗ owns (c : Thread nD τ) arg5 fullShare (sB10_1 x0 x1 s1)
            ∗ owns (c : Thread nD τ) arg6 fullShare (sB10_0 x0 x1 s0) ∗ owns (c : Thread nD τ) arg7 fullShare (sB10_1 x0 x1 s1)) -∗ K ⟨⟩))
      ⊢ wp frame (wpE (defs₀ (F := F)) Variants.none c none) E (cc10__relu_stats_kernel i arg1 harg1 arg2 harg2 arg3 harg3 arg4 harg4 arg5 harg5 arg6 harg6 arg7 harg7) K := by
  simp only [cc10__relu_stats_kernel_eq_skeleton]; unfold cc10__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB10 (F := F) _)
  isplitl [H3]
  · iexists _; isplitr
    swap; · iexact H3
    ipureintro; sl_unfold_run_names; rw [View.readCov_cons_toLoadRect]; exact View.read_writes_eq_canon _ _ _ (coverS10 (F := F) _)
  isplitl [H4]
  · iexists _; isplitr
    swap; · iexact H4
    ipureintro; sl_unfold_run_names; rw [View.readCov_cons_toLoadRect]; exact View.read_writes_eq_canon _ _ _ (coverS10 (F := F) _)
  isplitl [H6]
  · iexists _; isplitr
    swap; · iexact H6
    ipureintro; sl_unfold_run_names; exact View.read_writes_eq_canon _ _ _ (coverS10 (F := F) _)
  iexists _; isplitr
  swap; · iexact H7
  ipureintro; sl_unfold_run_names; exact View.read_writes_eq_canon _ _ _ (coverS10 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is `V`'s and
    whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the bias row, fetched at the first point only: its block index never moves) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The two carried accumulators -/

/-- The two accumulator operands: whole scoped buffers of the kernel's own, passed beside the windows. -/
abbrev scM10_0 : Memref sig .tc .vmem S1x128 .f32 := Memref.whole cc10_scratch0
abbrev scM10_1 : Memref sig .tc .vmem S1x128 .f32 := Memref.whole cc10_scratch1

/-- THE ACCUMULATION. What the two accumulators (the column sums and the column sums of squares of the tiles so far)
    hold after the body at position `n`: zeroed and added to at the first point, added to at every later one. -/
def souts10 (c : Dev nD) : (n : ℕ) → n < cfg10.N → Vec F S1x128 .f32 × Vec F S1x128 .f32
  | 0, hn => (sA10_0 (iblk10 V c 0 ⟨0, hn⟩) (iblk10 V c 1 ⟨0, hn⟩), sA10_1 (iblk10 V c 0 ⟨0, hn⟩) (iblk10 V c 1 ⟨0, hn⟩))
  | n + 1, hn =>
    (sB10_0 (iblk10 V c 0 ⟨n + 1, hn⟩) (iblk10 V c 1 ⟨n + 1, hn⟩) (souts10 c n (Nat.lt_of_succ_lt hn)).1,
     sB10_1 (iblk10 V c 0 ⟨n + 1, hn⟩) (iblk10 V c 1 ⟨n + 1, hn⟩) (souts10 c n (Nat.lt_of_succ_lt hn)).2)

theorem souts10_zero (c : Dev nD) (t : Fin cfg10.N) (h0 : t.val = 0) :
    souts10 V c t.val t.isLt = (sA10_0 (iblk10 V c 0 t) (iblk10 V c 1 t), sA10_1 (iblk10 V c 0 t) (iblk10 V c 1 t)) := by
  obtain ⟨n, hn⟩ := t
  cases n with
  | zero => exact rfl
  | succ n => exact absurd h0 (Nat.succ_ne_zero _)

theorem souts10_pos (c : Dev nD) (t : Fin cfg10.N) (h0 : t.val ≠ 0) :
    souts10 V c t.val t.isLt =
      (sB10_0 (iblk10 V c 0 t) (iblk10 V c 1 t) (souts10 V c (t.val - 1) (Nat.lt_of_le_of_lt (Nat.sub_le _ _) t.isLt)).1,
       sB10_1 (iblk10 V c 0 t) (iblk10 V c 1 t) (souts10 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts10`), the rest of the scoped rest unopened, and the generator register at some state. -/
def PhiS10 (c : Dev nD) : (n : ℕ) → n ≤ cfg10.N → sProp 𝕄
  | 0, _ => iprop((∃ r, prngReg c r) ∗ Pipeline.scopedRest (Ix := Unit) (Name := ℕ) (U := UR sig nD τ) (Lvl := ℕ) spec10 c)
  | n + 1, hn => iprop((owns (c : Thread nD τ) scM10_0 fullShare (souts10 V c n hn).1 ∗ owns (c : Thread nD τ) scM10_1 fullShare (souts10 V c n hn).2)
      ∗ Pipeline.scopedRestBut (Ix := Unit) (Name := ℕ) (U := UR sig nD τ) (Lvl := ℕ) (Val := Elt F) spec10 c [cc10_scratch0, cc10_scratch1] ∗ (∃ r, prngReg c r))

theorem PhiS10_zero (c : Dev nD) (n : ℕ) (h : n ≤ cfg10.N) (hz : n = 0) :
    PhiS10 V c n h = iprop((∃ r, prngReg c r) ∗ Pipeline.scopedRest (Ix := Unit) (Name := ℕ) (U := UR sig nD τ) (Lvl := ℕ) spec10 c) := by
  subst hz; rfl

theorem PhiS10_succ (c : Dev nD) (n : ℕ) (hn : n < cfg10.N) :
    PhiS10 V c (n + 1) hn = iprop((owns (c : Thread nD τ) scM10_0 fullShare (souts10 V c n hn).1 ∗ owns (c : Thread nD τ) scM10_1 fullShare (souts10 V c n hn).2)
      ∗ Pipeline.scopedRestBut (Ix := Unit) (Name := ℕ) (U := UR sig nD τ) (Lvl := ℕ) (Val := Elt F) spec10 c [cc10_scratch0, cc10_scratch1] ∗ (∃ r, prngReg c r)) := rfl

theorem PhiS10_pos (c : Dev nD) (n : ℕ) (h : n ≤ cfg10.N) (hz : n ≠ 0) :
    PhiS10 V c n h = iprop((owns (c : Thread nD τ) scM10_0 fullShare (souts10 V c (n - 1) (by omega)).1 ∗ owns (c : Thread nD τ) scM10_1 fullShare (souts10 V c (n - 1) (by omega)).2)
      ∗ Pipeline.scopedRestBut (Ix := Unit) (Name := ℕ) (U := UR sig nD τ) (Lvl := ℕ) (Val := Elt F) spec10 c [cc10_scratch0, cc10_scratch1] ∗ (∃ r, prngReg c r)) := by
  cases n with
  | zero => exact absurd rfl hz
  | succ n => rfl

/-- The scoped rest with the two accumulators as memrefs owned at some contents. -/
theorem scopedRest10_owns (c : Dev nD) :
    (Pipeline.scopedRest (Ix := Unit) (Name := ℕ) (U := UR sig nD τ) (Lvl := ℕ) (Val := Elt F) spec10 c : sProp 𝕄)
      = iprop(((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) := by
  rw [scopedRest10_split]; simp only [scM10_0, scM10_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS10`;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
    | ⟨3, _⟩ => (souts10 V c t.val t.isLt).1
    | ⟨4, _⟩ => (souts10 V c t.val t.isLt).2
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]
theorem after10_3 (c : Dev nD) (t : Fin cfg10.N) : (dat10 V c).after 3 t = (souts10 V c t.val t.isLt).1 := by dsimp only [dat10]
theorem after10_4 (c : Dev nD) (t : Fin cfg10.N) : (dat10 V c).after 4 t = (souts10 V c t.val t.isLt).2 := by dsimp only [dat10]

theorem owed10 (c : Dev nD) (t : Fin (cfg10.N + 1)) : (dat10 V c).owed t = 0 := rfl

theorem PhiS10_castSucc (c : Dev nD) (t : Fin cfg10.N) :
    (dat10 V c).Φ t.castSucc = PhiS10 V c t.val (Nat.le_of_lt t.isLt) := by
  dsimp only [dat10]; simp only [Fin.coe_castSucc]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## Entry and exit -/

/-- What the launch hands the region is the invariant before the first point. -/
theorem hin10 (c : Dev nD) :
    (iprop((∃ r, prngReg c r) ∗ Pipeline.scopedRest (Ix := Unit) (Name := ℕ) (U := UR sig nD τ) (Lvl := ℕ) spec10 c) : sProp 𝕄) ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives them back: the accumulators' named contents are forgotten. -/
theorem hout10 (c : Dev nD) :
    (dat10 V c).Φ (Fin.last cfg10.N) ⊢ (iprop((∃ r, prngReg c r) ∗ Pipeline.scopedRest (Ix := Unit) (Name := ℕ) (U := UR sig nD τ) (Lvl := ℕ) spec10 c) : sProp 𝕄) := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 20 := N_10; omega), scopedRest10_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem idleAt10_4 : ∀ t : Fin cfg10.N, ¬cond10_1 (grid10.coords t) → cfg10.idle 4 (grid10.coords t) = true := by decide +kernel
theorem noFlush10_3 : ∀ t : Fin cfg10.N, ¬cond10_1 (grid10.coords t) → (cfg10.win 3).flush t = false := by decide +kernel
theorem noFlush10_4 : ∀ t : Fin cfg10.N, ¬cond10_1 (grid10.coords t) → (cfg10.win 4).flush t = false := by decide +kernel
theorem liveAt10_3 : ∀ t : Fin cfg10.N, cond10_1 (grid10.coords t) → cfg10.idle 3 (grid10.coords t) = false := by decide +kernel
theorem liveAt10_4 : ∀ t : Fin cfg10.N, cond10_1 (grid10.coords t) → cfg10.idle 4 (grid10.coords t) = false := by decide +kernel

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 20 := lt_of_lt_of_eq t.isLt (show cfg10.N = 20 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  by_cases h0 : t.val % 20 = 0
  · have hz : t.val = 0 := by omega
    have hnc1 : ¬cond10_1 (grid10.coords t) := fun h => by have := (hcond10_1 t).mp h; omega
    rw [Dat.leavesExact_idle (dat10 V c) 3 t (idleAt10_3 t hnc1) (noFlush10_3 t hnc1),
      Dat.leavesExact_idle (dat10 V c) 4 t (idleAt10_4 t hnc1) (noFlush10_4 t hnc1)]
    rw [souts10_zero V c t hz]
    dsimp only
    rw [PhiS10_castSucc V c t, PhiS10_zero V c _ _ hz, scopedRest10_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel10_A c Set.univ (grid10.coords t) ((hcond10_0 t).mpr h0) hnc1 _ _ _ _ _ _ _ _ _ _ _ _ _ _ (iblk10 V c 0 t) (iblk10 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond10_0 (grid10.coords t) := fun h => h0 ((hcond10_0 t).mp h)
    by_cases h1 : t.val % 20 = 19
    · have hc1 : cond10_1 (grid10.coords t) := (hcond10_1 t).mpr h1
      rw [show (dat10 V c).leavesExact 3 t = owns (c : Thread nD τ) (st10_3 t) fullShare ((dat10 V c).after 3 t) from by
        unfold Dat.leavesExact; rw [liveAt10_3 t hc1], after10_3]
      rw [show (dat10 V c).leavesExact 4 t = owns (c : Thread nD τ) (st10_4 t) fullShare ((dat10 V c).after 4 t) from by
        unfold Dat.leavesExact; rw [liveAt10_4 t hc1], after10_4]
      rw [souts10_pos V c t hz]
      dsimp only
      rw [PhiS10_castSucc V c t, PhiS10_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel10_C c Set.univ (grid10.coords t) hnc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond10_1 (grid10.coords t) := fun h => h1 ((hcond10_1 t).mp h)
      rw [Dat.leavesExact_idle (dat10 V c) 3 t (idleAt10_3 t hnc1) (noFlush10_3 t hnc1),
        Dat.leavesExact_idle (dat10 V c) 4 t (idleAt10_4 t hnc1) (noFlush10_4 t hnc1)]
      rw [souts10_pos V c t hz]
      dsimp only
      rw [PhiS10_castSucc V c t, PhiS10_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel10_B c Set.univ (grid10.coords t) hnc0 hnc1 _ _ _ _ _ _ _ _ _ _ _ _ _ _ (iblk10 V c 0 t) (iblk10 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Region

end Cert.KernelIdeal.Hand

end
-- ==== Proof.KI.RegB11.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s and whose body leaves the block in place: unfetched, the block index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s and whose body leaves the block in place: unfetched, the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s and whose body leaves the block in place: unfetched, the block index has not moved. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s and whose body leaves the block in place: unfetched, the block index has not moved. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s and whose body leaves the block in place: unfetched, the block index has not moved. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x128 := Rect.unit (s := S5000x128) ![0, 0] S5000x128.size inb_S5000x128_S5000x128_0_0
abbrev r11_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out11_5 (x0 : Vec F S5000x128 .f32) (x1 x2 x3 x4 : Vec F S1x128 .f32) : Vec F S5000x128 .f32 :=
  View.canon [⟨r11_0, k11_pay1 (View.ld x2 r11_1) (View.ld x0 r11_0) (View.ld x1 r11_1) (View.ld x3 r11_1) (View.ld x4 r11_1)⟩]

/-- The store tiles the buffer, so it covers it. -/
theorem cover11_5 (p0 : Vec F S5000x128 .f32) (y : S5000x128.Idx) :
    ∃ pc ∈ ([⟨r11_0, p0⟩] : List (View.Piece (Elt F) S5000x128 .f32)), y ∈ pc.1.set :=
  View.cover_of_tiled [⟨r11_0, p0⟩] S5000x128.size (by rfl) y

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E
          (cc11__bn_kernel i arg1 harg1 arg2 harg2 arg3 harg3 arg4 harg4 arg5 harg5 arg6 harg6) K := by
  simp only [cc11__bn_kernel_eq_skeleton]; unfold cc11__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 2 on core `c`: the arrays as the region finds them (`V`); after the body at point
    `t` each input's buffer at its block and the output's at `out11_5` of the input blocks; the invariant the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t =
    out11_5 (iblk11 V c 0 t) (iblk11 V c 1 t) (iblk11 V c 2 t) (iblk11 V c 3 t) (iblk11 V c 4 t) := by dsimp only [dat11]

/-- Nothing is owed at any point. -/
theorem owed11 (c : Dev nD) (t) : (dat11 V c).owed t = 0 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

set_option maxHeartbeats 1000000 in
/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## Into the region's invariant and out -/

/-- Entry: the generator register at some state and the scoped rest make the invariant at the first point. -/
theorem hin11 (c : Dev nD) :
    (iprop((∃ r, prngReg c r) ∗ Pipeline.scopedRest (Ix := Unit) (Name := ℕ) (U := UR sig nD τ) (Lvl := ℕ) spec11 c) : sProp 𝕄)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Exit: the invariant at the last point gives them back. -/
theorem hout11 (c : Dev nD) :
    (dat11 V c).Φ (Fin.last cfg11.N)
      ⊢ (iprop((∃ r, prngReg c r) ∗ Pipeline.scopedRest (Ix := Unit) (Name := ℕ) (U := UR sig nD τ) (Lvl := ℕ) spec11 c) : sProp 𝕄) := by
  rw [show (dat11 V c).Φ (Fin.last cfg11.N) = Pipeline.ΦA spec11 c from rfl]; unfold Pipeline.ΦA
  iintro ⟨Hr, Hp⟩
  isplitl [Hp]; · iexact Hp
  iexact Hr

end Cert.KernelIdeal.Hand
-- ==== Proof.KI.RegM12.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row tile, fetched at every point): its current staging buffer holds its block at every point,
    for any proof data whose array is V's and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the whole weight matrix, fetched at the first point only): its staging buffer holds its block at
    every point, fetched there or not — unfetched, the block index has not moved and the body left the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole row tile. -/
abbrev r12_0 : Rect S5000x128 := Rect.unit (s := S5000x128) ![0, 0] S5000x128.size inb_S5000x128_S5000x128_0_0
/-- The whole weight matrix. -/
abbrev r12_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out12_2 (x0 : Vec F S5000x128 .f32) (x1 : Vec F S128x128 .f32) : Vec F S5000x128 .f32 :=
  View.canon [⟨r12_0, k12_pay1 (View.ld x0 r12_0) (View.ld x1 r12_1)⟩]

/-- The one store is the whole buffer, so it covers it. -/
theorem cover12_2 (p0 : Vec F S5000x128 .f32) (y : S5000x128.Idx) :
    ∃ pc ∈ ([⟨r12_0, p0⟩] : List (View.Piece (Elt F) S5000x128 .f32)), y ∈ pc.1.set :=
  View.cover_of_tiled [⟨r12_0, p0⟩] S5000x128.size (by rfl) y

/-! ## The body's triple -/

set_option maxHeartbeats 1000000 in
/-- The kernel body on whole staging memrefs, the inputs' at read contents x0, x1 and the output's at anything, runs to
    the continuation holding the inputs' as they were and the output's at out12_2 of the inputs'. -/
theorem sound_kernel12 (c : Dev nD) (E : Set ℕ) (i : grid12.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 0 on core c: the arrays as the region finds them (V); after the body at point t each
    input's buffer at its block and the output's at out12_2 of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Nothing is owed at any point. -/
theorem owed12 (c : Dev nD) (t) : (dat12 V c).owed t = 0 := rfl

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the body's triple applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out -/

/-- Entry: the generator register at some state and the scoped rest are the region's invariant at the first point. -/
theorem hin12 (c : Dev nD) :
    (iprop((∃ r, prngReg c r) ∗ Pipeline.scopedRest (Ix := Unit) (Name := ℕ) (U := UR sig nD τ) (Lvl := ℕ) (Val := Elt F) spec12 c) : sProp 𝕄)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

/-- Exit: the invariant at the last point gives them back. -/
theorem hout12 (c : Dev nD) :
    (dat12 V c).Φ (Fin.last cfg12.N)
      ⊢ (iprop((∃ r, prngReg c r) ∗ Pipeline.scopedRest (Ix := Unit) (Name := ℕ) (U := UR sig nD τ) (Lvl := ℕ) (Val := Elt F) spec12 c) : sProp 𝕄) := by
  rw [show (dat12 V c).Φ (Fin.last _) = Pipeline.ΦA spec12 c from rfl]; unfold Pipeline.ΦA
  iintro ⟨Hr, Hp⟩
  isplitl [Hp]; · iexact Hp
  iexact Hr

end Cert.KernelIdeal.Hand
-- ==== Proof.KI.RegS13.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB13 : Rect S5000x128 := Rect.unit (s := S5000x128) ![0, 0] S5000x128.size inb_S5000x128_S5000x128_0_0
/-- The whole (1,128) row. -/
abbrev rS13 : Rect S1x128 := Rect.unit (s := S1x128) ![0, 0] S1x128.size inb_S1x128_S1x128_0_0

/-! ## The body's branch conditions -/

/-- The first conditional's condition (the point is the first of the grid). -/
abbrev cond13_0 (i : grid13.Coords) : Prop := (Scalar.cmpi .ne (Scalar.extui (Scalar.cmpi .eq (BitVec.ofNat 32 (i 0).val) 0#32)) 0#32) = 1#1
theorem hcond13_0 : ∀ t : Fin cfg13.N, cond13_0 (grid13.coords t) ↔ t.val % 20 = 0 :=
  (by decide +kernel : ∀ t : Fin grid13.N, cond13_0 (grid13.coords t) ↔ t.val % 20 = 0)
/-- The second conditional's condition (the point is the last of the grid). -/
abbrev cond13_1 (i : grid13.Coords) : Prop := k13_cond2 i = 1#1
theorem hcond13_1 : ∀ t : Fin cfg13.N, cond13_1 (grid13.coords t) ↔ t.val % 20 = 19 :=
  (by decide +kernel : ∀ t : Fin grid13.N, cond13_1 (grid13.coords t) ↔ t.val % 20 = 19)

/-! ## What the body leaves, as closed terms over the payloads -/

/-- Window 2's buffer after the body: the pointwise maximum with zero of (tile + bias row). -/
def out13_2 (x0 : Vec F S5000x128 .f32) (x1 : Vec F S1x128 .f32) : Vec F S5000x128 .f32 :=
  View.canon [⟨rB13, k13_pay3 (View.ld x0 rB13) (View.ld x1 rS13)⟩]

/-- The sum accumulator after the first point: zeroed, then the tile's column sums added. -/
def sA13_0 (x0 : Vec F S5000x128 .f32) (x1 : Vec F S1x128 .f32) : Vec F S1x128 .f32 :=
  View.canon [⟨rS13, k13_pay4 (View.ld x0 rB13) (View.ld x1 rS13) (k13_pay1 (F := F))⟩, ⟨rS13, k13_pay1 (F := F)⟩]
/-- The sum-of-squares accumulator after the first point. -/
def sA13_1 (x0 : Vec F S5000x128 .f32) (x1 : Vec F S1x128 .f32) : Vec F S1x128 .f32 :=
  View.canon [⟨rS13, k13_pay5 (View.ld x0 rB13) (View.ld x1 rS13) (k13_pay2 (F := F))⟩, ⟨rS13, k13_pay2 (F := F)⟩]
/-- The sum accumulator after a later point, from what the point before left (`s`). -/
def sB13_0 (x0 : Vec F S5000x128 .f32) (x1 : Vec F S1x128 .f32) (s : Vec F S1x128 .f32) : Vec F S1x128 .f32 :=
  View.canon [⟨rS13, k13_pay4 (View.ld x0 rB13) (View.ld x1 rS13) (View.ld s rS13)⟩]
/-- The sum-of-squares accumulator after a later point, from what the point before left. -/
def sB13_1 (x0 : Vec F S5000x128 .f32) (x1 : Vec F S1x128 .f32) (s : Vec F S1x128 .f32) : Vec F S1x128 .f32 :=
  View.canon [⟨rS13, k13_pay5 (View.ld x0 rB13) (View.ld x1 rS13) (View.ld s rS13)⟩]
/-- Windows 3 and 4's buffers after the last point: the accumulators as that point leaves them. -/
abbrev out13_3 (x0 : Vec F S5000x128 .f32) (x1 : Vec F S1x128 .f32) (s : Vec F S1x128 .f32) : Vec F S1x128 .f32 := sB13_0 x0 x1 s
abbrev out13_4 (x0 : Vec F S5000x128 .f32) (x1 : Vec F S1x128 .f32) (s : Vec F S1x128 .f32) : Vec F S1x128 .f32 := sB13_1 x0 x1 s

theorem coverB13 (p0 : Vec F S5000x128 .f32) (y : S5000x128.Idx) :
    ∃ pc ∈ ([⟨rB13, p0⟩] : List (View.Piece (Elt F) S5000x128 .f32)), y ∈ pc.1.set :=
  View.cover_of_tiled [⟨rB13, p0⟩] S5000x128.size (by rfl) y
theorem coverS13 (p0 : Vec F S1x128 .f32) (y : S1x128.Idx) :
    ∃ pc ∈ ([⟨rS13, p0⟩] : List (View.Piece (Elt F) S1x128 .f32)), y ∈ pc.1.set :=
  View.cover_of_tiled [⟨rS13, p0⟩] S1x128.size (by rfl) y
theorem coverS13' (p0 p1 : Vec F S1x128 .f32) (y : S1x128.Idx) :
    ∃ pc ∈ ([⟨rS13, p0⟩, ⟨rS13, p1⟩] : List (View.Piece (Elt F) S1x128 .f32)), y ∈ pc.1.set := by
  obtain ⟨pc, hm, hy⟩ := coverS13 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel13_A (c : Dev nD) (E : Set ℕ) (i : grid13.Coords) (hc0 : cond13_0 i) (hc1 : ¬cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare y3 ∗ owns (c : Thread nD τ) arg5 fullShare y4
            ∗ owns (c : Thread nD τ) arg6 fullShare (sA13_0 x0 x1) ∗ owns (c : Thread nD τ) arg7 fullShare (sA13_1 x0 x1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS13' (F := F) _ _)
  iexists _; isplitr
  swap; · iexact H7
  ipureintro; sl_unfold_run_names; rw [View.readCov_cons_toLoadRect]; exact View.read_writes_eq_canon _ _ _ (coverS13' (F := F) _ _)

set_option maxHeartbeats 2000000 in
/-- A MIDDLE POINT: both accumulators, at what the point before left, are added to; windows 3 and 4 are left as found. -/
theorem sound_kernel13_B (c : Dev nD) (E : Set ℕ) (i : grid13.Coords) (hc0 : ¬cond13_0 i) (hc1 : ¬cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare y3 ∗ owns (c : Thread nD τ) arg5 fullShare y4
            ∗ owns (c : Thread nD τ) arg6 fullShare (sB13_0 x0 x1 s0) ∗ owns (c : Thread nD τ) arg7 fullShare (sB13_1 x0 x1 s1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS13 (F := F) _)
  iexists _; isplitr
  swap; · iexact H7
  ipureintro; exact View.read_writes_eq_canon _ _ _ (coverS13 (F := F) _)

set_option maxHeartbeats 2000000 in
/-- THE LAST POINT: both accumulators are added to and then copied into windows 3 and 4, held at anything. -/
theorem sound_kernel13_C (c : Dev nD) (E : Set ℕ) (i : grid13.Coords) (hc0 : ¬cond13_0 i) (hc1 : cond13_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out13_2 x0 x1)
            ∗ owns (c : Thread nD τ) arg4 fullShare (sB13_0 x0 x1 s0) ∗ owns (c : Thread nD τ) arg5 fullShare (sB13_1 x0 x1 s1)
            ∗ owns (c : Thread nD τ) arg6 fullShare (sB13_0 x0 x1 s0) ∗ owns (c : Thread nD τ) arg7 fullShare (sB13_1 x0 x1 s1)) -∗ K ⟨⟩))
      ⊢ wp frame (wpE (defs₀ (F := F)) Variants.none c none) E (cc13__relu_stats_kernel i arg1 harg1 arg2 harg2 arg3 harg3 arg4 harg4 arg5 harg5 arg6 harg6 arg7 harg7) K := by
  simp only [cc13__relu_stats_kernel_eq_skeleton]; unfold cc13__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB13 (F := F) _)
  isplitl [H3]
  · iexists _; isplitr
    swap; · iexact H3
    ipureintro; sl_unfold_run_names; rw [View.readCov_cons_toLoadRect]; exact View.read_writes_eq_canon _ _ _ (coverS13 (F := F) _)
  isplitl [H4]
  · iexists _; isplitr
    swap; · iexact H4
    ipureintro; sl_unfold_run_names; rw [View.readCov_cons_toLoadRect]; exact View.read_writes_eq_canon _ _ _ (coverS13 (F := F) _)
  isplitl [H6]
  · iexists _; isplitr
    swap; · iexact H6
    ipureintro; sl_unfold_run_names; exact View.read_writes_eq_canon _ _ _ (coverS13 (F := F) _)
  iexists _; isplitr
  swap; · iexact H7
  ipureintro; sl_unfold_run_names; exact View.read_writes_eq_canon _ _ _ (coverS13 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, for any proof data whose array is `V`'s and
    whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1 (the bias row, fetched at the first point only: its block index never moves) likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The two carried accumulators -/

/-- The two accumulator operands: whole scoped buffers of the kernel's own, passed beside the windows. -/
abbrev scM13_0 : Memref sig .tc .vmem S1x128 .f32 := Memref.whole cc13_scratch0
abbrev scM13_1 : Memref sig .tc .vmem S1x128 .f32 := Memref.whole cc13_scratch1

/-- THE ACCUMULATION. What the two accumulators (the column sums and the column sums of squares of the tiles so far)
    hold after the body at position `n`: zeroed and added to at the first point, added to at every later one. -/
def souts13 (c : Dev nD) : (n : ℕ) → n < cfg13.N → Vec F S1x128 .f32 × Vec F S1x128 .f32
  | 0, hn => (sA13_0 (iblk13 V c 0 ⟨0, hn⟩) (iblk13 V c 1 ⟨0, hn⟩), sA13_1 (iblk13 V c 0 ⟨0, hn⟩) (iblk13 V c 1 ⟨0, hn⟩))
  | n + 1, hn =>
    (sB13_0 (iblk13 V c 0 ⟨n + 1, hn⟩) (iblk13 V c 1 ⟨n + 1, hn⟩) (souts13 c n (Nat.lt_of_succ_lt hn)).1,
     sB13_1 (iblk13 V c 0 ⟨n + 1, hn⟩) (iblk13 V c 1 ⟨n + 1, hn⟩) (souts13 c n (Nat.lt_of_succ_lt hn)).2)

theorem souts13_zero (c : Dev nD) (t : Fin cfg13.N) (h0 : t.val = 0) :
    souts13 V c t.val t.isLt = (sA13_0 (iblk13 V c 0 t) (iblk13 V c 1 t), sA13_1 (iblk13 V c 0 t) (iblk13 V c 1 t)) := by
  obtain ⟨n, hn⟩ := t
  cases n with
  | zero => exact rfl
  | succ n => exact absurd h0 (Nat.succ_ne_zero _)

theorem souts13_pos (c : Dev nD) (t : Fin cfg13.N) (h0 : t.val ≠ 0) :
    souts13 V c t.val t.isLt =
      (sB13_0 (iblk13 V c 0 t) (iblk13 V c 1 t) (souts13 V c (t.val - 1) (Nat.lt_of_le_of_lt (Nat.sub_le _ _) t.isLt)).1,
       sB13_1 (iblk13 V c 0 t) (iblk13 V c 1 t) (souts13 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts13`), the rest of the scoped rest unopened, and the generator register at some state. -/
def PhiS13 (c : Dev nD) : (n : ℕ) → n ≤ cfg13.N → sProp 𝕄
  | 0, _ => iprop((∃ r, prngReg c r) ∗ Pipeline.scopedRest (Ix := Unit) (Name := ℕ) (U := UR sig nD τ) (Lvl := ℕ) spec13 c)
  | n + 1, hn => iprop((owns (c : Thread nD τ) scM13_0 fullShare (souts13 V c n hn).1 ∗ owns (c : Thread nD τ) scM13_1 fullShare (souts13 V c n hn).2)
      ∗ Pipeline.scopedRestBut (Ix := Unit) (Name := ℕ) (U := UR sig nD τ) (Lvl := ℕ) (Val := Elt F) spec13 c [cc13_scratch0, cc13_scratch1] ∗ (∃ r, prngReg c r))

theorem PhiS13_zero (c : Dev nD) (n : ℕ) (h : n ≤ cfg13.N) (hz : n = 0) :
    PhiS13 V c n h = iprop((∃ r, prngReg c r) ∗ Pipeline.scopedRest (Ix := Unit) (Name := ℕ) (U := UR sig nD τ) (Lvl := ℕ) spec13 c) := by
  subst hz; rfl

theorem PhiS13_succ (c : Dev nD) (n : ℕ) (hn : n < cfg13.N) :
    PhiS13 V c (n + 1) hn = iprop((owns (c : Thread nD τ) scM13_0 fullShare (souts13 V c n hn).1 ∗ owns (c : Thread nD τ) scM13_1 fullShare (souts13 V c n hn).2)
      ∗ Pipeline.scopedRestBut (Ix := Unit) (Name := ℕ) (U := UR sig nD τ) (Lvl := ℕ) (Val := Elt F) spec13 c [cc13_scratch0, cc13_scratch1] ∗ (∃ r, prngReg c r)) := rfl

theorem PhiS13_pos (c : Dev nD) (n : ℕ) (h : n ≤ cfg13.N) (hz : n ≠ 0) :
    PhiS13 V c n h = iprop((owns (c : Thread nD τ) scM13_0 fullShare (souts13 V c (n - 1) (by omega)).1 ∗ owns (c : Thread nD τ) scM13_1 fullShare (souts13 V c (n - 1) (by omega)).2)
      ∗ Pipeline.scopedRestBut (Ix := Unit) (Name := ℕ) (U := UR sig nD τ) (Lvl := ℕ) (Val := Elt F) spec13 c [cc13_scratch0, cc13_scratch1] ∗ (∃ r, prngReg c r)) := by
  cases n with
  | zero => exact absurd rfl hz
  | succ n => rfl

/-- The scoped rest with the two accumulators as memrefs owned at some contents. -/
theorem scopedRest13_owns (c : Dev nD) :
    (Pipeline.scopedRest (Ix := Unit) (Name := ℕ) (U := UR sig nD τ) (Lvl := ℕ) (Val := Elt F) spec13 c : sProp 𝕄)
      = iprop(((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) := by
  rw [scopedRest13_split]; simp only [scM13_0, scM13_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS13`;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
    | ⟨3, _⟩ => (souts13 V c t.val t.isLt).1
    | ⟨4, _⟩ => (souts13 V c t.val t.isLt).2
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem after13_3 (c : Dev nD) (t : Fin cfg13.N) : (dat13 V c).after 3 t = (souts13 V c t.val t.isLt).1 := by dsimp only [dat13]
theorem after13_4 (c : Dev nD) (t : Fin cfg13.N) : (dat13 V c).after 4 t = (souts13 V c t.val t.isLt).2 := by dsimp only [dat13]

theorem owed13 (c : Dev nD) (t : Fin (cfg13.N + 1)) : (dat13 V c).owed t = 0 := rfl

theorem PhiS13_castSucc (c : Dev nD) (t : Fin cfg13.N) :
    (dat13 V c).Φ t.castSucc = PhiS13 V c t.val (Nat.le_of_lt t.isLt) := by
  dsimp only [dat13]; simp only [Fin.coe_castSucc]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## Entry and exit -/

/-- What the launch hands the region is the invariant before the first point. -/
theorem hin13 (c : Dev nD) :
    (iprop((∃ r, prngReg c r) ∗ Pipeline.scopedRest (Ix := Unit) (Name := ℕ) (U := UR sig nD τ) (Lvl := ℕ) spec13 c) : sProp 𝕄) ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives them back: the accumulators' named contents are forgotten. -/
theorem hout13 (c : Dev nD) :
    (dat13 V c).Φ (Fin.last cfg13.N) ⊢ (iprop((∃ r, prngReg c r) ∗ Pipeline.scopedRest (Ix := Unit) (Name := ℕ) (U := UR sig nD τ) (Lvl := ℕ) spec13 c) : sProp 𝕄) := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 20 := N_13; omega), scopedRest13_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem idleAt13_3 : ∀ t : Fin cfg13.N, ¬cond13_1 (grid13.coords t) → cfg13.idle 3 (grid13.coords t) = true := by decide +kernel
theorem idleAt13_4 : ∀ t : Fin cfg13.N, ¬cond13_1 (grid13.coords t) → cfg13.idle 4 (grid13.coords t) = true := by decide +kernel
theorem noFlush13_3 : ∀ t : Fin cfg13.N, ¬cond13_1 (grid13.coords t) → (cfg13.win 3).flush t = false := by decide +kernel
theorem noFlush13_4 : ∀ t : Fin cfg13.N, ¬cond13_1 (grid13.coords t) → (cfg13.win 4).flush t = false := by decide +kernel
theorem liveAt13_3 : ∀ t : Fin cfg13.N, cond13_1 (grid13.coords t) → cfg13.idle 3 (grid13.coords t) = false := by decide +kernel
theorem liveAt13_4 : ∀ t : Fin cfg13.N, cond13_1 (grid13.coords t) → cfg13.idle 4 (grid13.coords t) = false := by decide +kernel

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [show (dat13 V c).leavesExact 2 t = owns (c : Thread nD τ) (st13_2 t) fullShare ((dat13 V c).after 2 t) from by
    unfold Dat.leavesExact; rw [liveAt13_2 t], after13_2]
  by_cases h0 : t.val % 20 = 0
  · have hz : t.val = 0 := by omega
    have hnc1 : ¬cond13_1 (grid13.coords t) := fun h => by have := (hcond13_1 t).mp h; omega
    rw [Dat.leavesExact_idle (dat13 V c) 3 t (idleAt13_3 t hnc1) (noFlush13_3 t hnc1),
      Dat.leavesExact_idle (dat13 V c) 4 t (idleAt13_4 t hnc1) (noFlush13_4 t hnc1)]
    rw [souts13_zero V c t hz]
    dsimp only
    rw [PhiS13_castSucc V c t, PhiS13_zero V c _ _ hz, scopedRest13_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel13_A c Set.univ (grid13.coords t) ((hcond13_0 t).mpr h0) hnc1 _ _ _ _ _ _ _ _ _ _ _ _ _ _ (iblk13 V c 0 t) (iblk13 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond13_0 (grid13.coords t) := fun h => h0 ((hcond13_0 t).mp h)
    by_cases h1 : t.val % 20 = 19
    · have hc1 : cond13_1 (grid13.coords t) := (hcond13_1 t).mpr h1
      rw [show (dat13 V c).leavesExact 3 t = owns (c : Thread nD τ) (st13_3 t) fullShare ((dat13 V c).after 3 t) from by
        unfold Dat.leavesExact; rw [liveAt13_3 t hc1], after13_3]
      rw [show (dat13 V c).leavesExact 4 t = owns (c : Thread nD τ) (st13_4 t) fullShare ((dat13 V c).after 4 t) from by
        unfold Dat.leavesExact; rw [liveAt13_4 t hc1], after13_4]
      rw [souts13_pos V c t hz]
      dsimp only
      rw [PhiS13_castSucc V c t, PhiS13_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel13_C c Set.univ (grid13.coords t) hnc0 hc1 _ _ _ _ _ _ _ _ _ _ _ _ _ _ (iblk13 V c 0 t) (iblk13 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond13_1 (grid13.coords t) := fun h => h1 ((hcond13_1 t).mp h)
      rw [Dat.leavesExact_idle (dat13 V c) 3 t (idleAt13_3 t hnc1) (noFlush13_3 t hnc1),
        Dat.leavesExact_idle (dat13 V c) 4 t (idleAt13_4 t hnc1) (noFlush13_4 t hnc1)]
      rw [souts13_pos V c t hz]
      dsimp only
      rw [PhiS13_castSucc V c t, PhiS13_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel13_B c Set.univ (grid13.coords t) hnc0 hnc1 _ _ _ _ _ _ _ _ _ _ _ _ _ _ (iblk13 V c 0 t) (iblk13 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region

end Cert.KernelIdeal.Hand

end
-- ==== Proof.KI.RegB14.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s and whose body leaves the block in place: unfetched, the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s and whose body leaves the block in place: unfetched, the block index has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s and whose body leaves the block in place: unfetched, the block index has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s and whose body leaves the block in place: unfetched, the block index has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s and whose body leaves the block in place: unfetched, the block index has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

abbrev r14_0 : Rect S5000x128 := Rect.unit (s := S5000x128) ![0, 0] S5000x128.size inb_S5000x128_S5000x128_0_0
abbrev r14_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out14_5 (x0 : Vec F S5000x128 .f32) (x1 x2 x3 x4 : Vec F S1x128 .f32) : Vec F S5000x128 .f32 :=
  View.canon [⟨r14_0, k14_pay1 (View.ld x2 r14_1) (View.ld x0 r14_0) (View.ld x1 r14_1) (View.ld x3 r14_1) (View.ld x4 r14_1)⟩]

/-- The store tiles the buffer, so it covers it. -/
theorem cover14_5 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `xW` and the output's at anything, runs to
    the continuation holding the inputs' as they were and the output's at `out14_5` of the inputs'. -/
theorem sound_kernel14 (c : Dev nD) (E : Set ℕ) (i : grid14.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__bn_kernel i arg1 harg1 arg2 harg2 arg3 harg3 arg4 harg4 arg5 harg5 arg6 harg6) K := by
  simp only [cc14__bn_kernel_eq_skeleton]; unfold cc14__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 2 on core `c`: the arrays as the region finds them (`V`); after the body at point
    `t` each input's buffer at its block and the output's at `out14_5` of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t =
    out14_5 (iblk14 V c 0 t) (iblk14 V c 1 t) (iblk14 V c 2 t) (iblk14 V c 3 t) (iblk14 V c 4 t) := by dsimp only [dat14]

/-- Nothing is owed at any point. -/
theorem owed14 (c : Dev nD) (t) : (dat14 V c).owed t = 0 := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

set_option maxHeartbeats 1000000 in
/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## Into the region's invariant and out -/

/-- Entry: the generator register at some state and the scoped rest make the invariant at the first point. -/
theorem hin14 (c : Dev nD) :
    (iprop((∃ r, prngReg c r) ∗ Pipeline.scopedRest (Ix := Unit) (Name := ℕ) (U := UR sig nD τ) (Lvl := ℕ) spec14 c) : sProp 𝕄)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- Exit: the invariant at the last point gives them back. -/
theorem hout14 (c : Dev nD) :
    (dat14 V c).Φ (Fin.last cfg14.N)
      ⊢ (iprop((∃ r, prngReg c r) ∗ Pipeline.scopedRest (Ix := Unit) (Name := ℕ) (U := UR sig nD τ) (Lvl := ℕ) spec14 c) : sProp 𝕄) := by
  rw [show (dat14 V c).Φ (Fin.last cfg14.N) = Pipeline.ΦA spec14 c from rfl]; unfold Pipeline.ΦA
  iintro ⟨Hr, Hp⟩
  isplitl [Hp]; · iexact Hp
  iexact Hr

end Cert.KernelIdeal.Hand
-- ==== Proof.KI.RegM15.lean ====
/- The half of region 0 of @main (custom_call 0, the matrix-product kernel, pipeline 0), at a parameter V — the
   TensorCore's buffer contents when the region is entered —, generic in the float interpretation: each window's block
   at a point, what the body leaves in the output window's buffer as a pure function of the two input blocks, the
   body's triple, the proof data, and the body obligation. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the product of a row tile with the whole weight matrix, at the entry contents V -/

/-! ## The windows' blocks -/

/-- Window w's block at point t, read off its array as the region finds it (V). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 (the row tile, fetched at every point): its current staging buffer holds its block at every point,
    for any proof data whose array is V's and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1 (the whole weight matrix, fetched at the first point only): its staging buffer holds its block at
    every point, fetched there or not — unfetched, the block index has not moved and the body left the block in place. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole row tile. -/
abbrev r15_0 : Rect S5000x128 := Rect.unit (s := S5000x128) ![0, 0] S5000x128.size inb_S5000x128_S5000x128_0_0
/-- The whole weight matrix. -/
abbrev r15_1 : Rect S128x128 := Rect.unit (s := S128x128) ![0, 0] S128x128.size inb_S128x128_S128x128_0_0

/-! ## What the body leaves in the output window's buffer -/

/-- Window 2's staging buffer after the body, from the two input blocks: its one whole-block store, whose value is
    the product payload of the two loaded blocks. -/
def out15_2 (x0 : Vec F S5000x128 .f32) (x1 : Vec F S128x128 .f32) : Vec F S5000x128 .f32 :=
  View.canon [⟨r15_0, k15_pay1 (View.ld x0 r15_0) (View.ld x1 r15_1)⟩]

/-- The one store is the whole buffer, so it covers it. -/
theorem cover15_2 (p0 : Vec F S5000x128 .f32) (y : S5000x128.Idx) :
    ∃ pc ∈ ([⟨r15_0, p0⟩] : List (View.Piece (Elt F) S5000x128 .f32)), y ∈ pc.1.set :=
  View.cover_of_tiled [⟨r15_0, p0⟩] S5000x128.size (by rfl) y

/-! ## The body's triple -/

set_option maxHeartbeats 1000000 in
/-- The kernel body on whole staging memrefs, the inputs' at read contents x0, x1 and the output's at anything, runs to
    the continuation holding the inputs' as they were and the output's at out15_2 of the inputs'. -/
theorem sound_kernel15 (c : Dev nD) (E : Set ℕ) (i : grid15.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-! ## The pipeline's proof data -/

/-- The proof data of pipeline 0 on core c: the arrays as the region finds them (V); after the body at point t each
    input's buffer at its block and the output's at out15_2 of the input blocks; the invariant the scoped rest and the
    generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

/-- Nothing is owed at any point. -/
theorem owed15 (c : Dev nD) (t) : (dat15 V c).owed t = 0 := rfl

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so the body's triple applies; the invariant and what
    the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ (grid15.coords t) _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-! ## Into the invariant and out -/

/-- Entry: the generator register at some state and the scoped rest are the region's invariant at the first point. -/
theorem hin15 (c : Dev nD) :
    (iprop((∃ r, prngReg c r) ∗ Pipeline.scopedRest (Ix := Unit) (Name := ℕ) (U := UR sig nD τ) (Lvl := ℕ) (Val := Elt F) spec15 c) : sProp 𝕄)
      ⊢ (dat15 V c).Φ 0 := by
  rw [show (dat15 V c).Φ 0 = Pipeline.ΦA spec15 c from rfl]; unfold Pipeline.ΦA
  iintro ⟨Hp, Hr⟩
  isplitl [Hr]; · iexact Hr
  iexact Hp

/-- Exit: the invariant at the last point gives them back. -/
theorem hout15 (c : Dev nD) :
    (dat15 V c).Φ (Fin.last cfg15.N)
      ⊢ (iprop((∃ r, prngReg c r) ∗ Pipeline.scopedRest (Ix := Unit) (Name := ℕ) (U := UR sig nD τ) (Lvl := ℕ) (Val := Elt F) spec15 c) : sProp 𝕄) := by
  rw [show (dat15 V c).Φ (Fin.last _) = Pipeline.ΦA spec15 c from rfl]; unfold Pipeline.ΦA
  iintro ⟨Hr, Hp⟩
  isplitl [Hp]; · iexact Hp
  iexact Hr

end Cert.KernelIdeal.Hand
-- ==== Proof.KI.RegS16.lean ====
/- The half of region 1 (custom_call 1, the relu-and-statistics kernel, pipeline 1) at a parameter `V`, the
   TensorCore's buffer contents when the region is entered: the windows' blocks, what the body leaves in each
   output window's buffer and in the two carried accumulators, the proof data, and the body obligation. The
   kernel has three control cases over its grid of 20 points: the first point (both accumulators are zeroed, then
   added to), the middle points (added to), the last point (added to, then copied to the two small outputs). -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

/-- The whole (5000,128) tile. -/
abbrev rB16 : Rect S5000x128 := Rect.unit (s := S5000x128) ![0, 0] S5000x128.size inb_S5000x128_S5000x128_0_0
/-- The whole (1,128) row. -/
abbrev rS16 : Rect S1x128 := Rect.unit (s := S1x128) ![0, 0] S1x128.size inb_S1x128_S1x128_0_0

/-! ## The body's branch conditions -/

/-- The first conditional's condition (the point is the first of the grid). -/
abbrev cond16_0 (i : grid16.Coords) : Prop := (Scalar.cmpi .ne (Scalar.extui (Scalar.cmpi .eq (BitVec.ofNat 32 (i 0).val) 0#32)) 0#32) = 1#1
theorem hcond16_0 : ∀ t : Fin cfg16.N, cond16_0 (grid16.coords t) ↔ t.val % 20 = 0 :=
  (by decide +kernel : ∀ t : Fin grid16.N, cond16_0 (grid16.coords t) ↔ t.val % 20 = 0)
/-- The second conditional's condition (the point is the last of the grid). -/
abbrev cond16_1 (i : grid16.Coords) : Prop := k16_cond2 i = 1#1
theorem hcond16_1 : ∀ t : Fin cfg16.N, cond16_1 (grid16.coords t) ↔ t.val % 20 = 19 :=
  (by decide +kernel : ∀ t : Fin grid16.N, cond16_1 (grid16.coords t) ↔ t.val % 20 = 19)

/-! ## What the body leaves, as closed terms over the payloads -/

/-- Window 2's buffer after the body: the pointwise maximum with zero of (tile + bias row). -/
def out16_2 (x0 : Vec F S5000x128 .f32) (x1 : Vec F S1x128 .f32) : Vec F S5000x128 .f32 :=
  View.canon [⟨rB16, k16_pay3 (View.ld x0 rB16) (View.ld x1 rS16)⟩]

/-- The sum accumulator after the first point: zeroed, then the tile's column sums added. -/
def sA16_0 (x0 : Vec F S5000x128 .f32) (x1 : Vec F S1x128 .f32) : Vec F S1x128 .f32 :=
  View.canon [⟨rS16, k16_pay4 (View.ld x0 rB16) (View.ld x1 rS16) (k16_pay1 (F := F))⟩, ⟨rS16, k16_pay1 (F := F)⟩]
/-- The sum-of-squares accumulator after the first point. -/
def sA16_1 (x0 : Vec F S5000x128 .f32) (x1 : Vec F S1x128 .f32) : Vec F S1x128 .f32 :=
  View.canon [⟨rS16, k16_pay5 (View.ld x0 rB16) (View.ld x1 rS16) (k16_pay2 (F := F))⟩, ⟨rS16, k16_pay2 (F := F)⟩]
/-- The sum accumulator after a later point, from what the point before left (`s`). -/
def sB16_0 (x0 : Vec F S5000x128 .f32) (x1 : Vec F S1x128 .f32) (s : Vec F S1x128 .f32) : Vec F S1x128 .f32 :=
  View.canon [⟨rS16, k16_pay4 (View.ld x0 rB16) (View.ld x1 rS16) (View.ld s rS16)⟩]
/-- The sum-of-squares accumulator after a later point, from what the point before left. -/
def sB16_1 (x0 : Vec F S5000x128 .f32) (x1 : Vec F S1x128 .f32) (s : Vec F S1x128 .f32) : Vec F S1x128 .f32 :=
  View.canon [⟨rS16, k16_pay5 (View.ld x0 rB16) (View.ld x1 rS16) (View.ld s rS16)⟩]
/-- Windows 3 and 4's buffers after the last point: the accumulators as that point leaves them. -/
abbrev out16_3 (x0 : Vec F S5000x128 .f32) (x1 : Vec F S1x128 .f32) (s : Vec F S1x128 .f32) : Vec F S1x128 .f32 := sB16_0 x0 x1 s
abbrev out16_4 (x0 : Vec F S5000x128 .f32) (x1 : Vec F S1x128 .f32) (s : Vec F S1x128 .f32) : Vec F S1x128 .f32 := sB16_1 x0 x1 s

theorem coverB16 (p0 : Vec F S5000x128 .f32) (y : S5000x128.Idx) :
    ∃ pc ∈ ([⟨rB16, p0⟩] : List (View.Piece (Elt F) S5000x128 .f32)), y ∈ pc.1.set :=
  View.cover_of_tiled [⟨rB16, p0⟩] S5000x128.size (by rfl) y
theorem coverS16 (p0 : Vec F S1x128 .f32) (y : S1x128.Idx) :
    ∃ pc ∈ ([⟨rS16, p0⟩] : List (View.Piece (Elt F) S1x128 .f32)), y ∈ pc.1.set :=
  View.cover_of_tiled [⟨rS16, p0⟩] S1x128.size (by rfl) y
theorem coverS16' (p0 p1 : Vec F S1x128 .f32) (y : S1x128.Idx) :
    ∃ pc ∈ ([⟨rS16, p0⟩, ⟨rS16, p1⟩] : List (View.Piece (Elt F) S1x128 .f32)), y ∈ pc.1.set := by
  obtain ⟨pc, hm, hy⟩ := coverS16 p0 y
  rw [List.mem_singleton] at hm; subst hm
  exact ⟨_, List.mem_cons_self, hy⟩

/-! ## The body's triple, per control case -/

set_option maxHeartbeats 2000000 in
/-- THE FIRST POINT: both accumulators, at anything, are zeroed and then added to; windows 3 and 4 are left as found. -/
theorem sound_kernel16_A (c : Dev nD) (E : Set ℕ) (i : grid16.Coords) (hc0 : cond16_0 i) (hc1 : ¬cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare y3 ∗ owns (c : Thread nD τ) arg5 fullShare y4
            ∗ owns (c : Thread nD τ) arg6 fullShare (sA16_0 x0 x1) ∗ owns (c : Thread nD τ) arg7 fullShare (sA16_1 x0 x1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; sl_unfold_run_names; rw [View.readCov_cons_toLoadRect]; exact View.read_writes_eq_canon _ _ _ (coverS16' (F := F) _ _)
  iexists _; isplitr
  swap; · iexact H7
  ipureintro; sl_unfold_run_names; rw [View.readCov_cons_toLoadRect]; exact View.read_writes_eq_canon _ _ _ (coverS16' (F := F) _ _)

set_option maxHeartbeats 2000000 in
/-- A MIDDLE POINT: both accumulators, at what the point before left, are added to; windows 3 and 4 are left as found. -/
theorem sound_kernel16_B (c : Dev nD) (E : Set ℕ) (i : grid16.Coords) (hc0 : ¬cond16_0 i) (hc1 : ¬cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (y3 y4 s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare y3 ∗ owns (c : Thread nD τ) arg5 fullShare y4
            ∗ owns (c : Thread nD τ) arg6 fullShare (sB16_0 x0 x1 s0) ∗ owns (c : Thread nD τ) arg7 fullShare (sB16_1 x0 x1 s1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverS16 (F := F) _)
  iexists _; isplitr
  swap; · iexact H7
  ipureintro; exact View.read_writes_eq_canon _ _ _ (coverS16 (F := F) _)

set_option maxHeartbeats 2000000 in
/-- THE LAST POINT: both accumulators are added to and then copied into windows 3 and 4, held at anything. -/
theorem sound_kernel16_C (c : Dev nD) (E : Set ℕ) (i : grid16.Coords) (hc0 : ¬cond16_0 i) (hc1 : cond16_1 i)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole)
    (x0 : Vec F S5000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out16_2 x0 x1)
            ∗ owns (c : Thread nD τ) arg4 fullShare (sB16_0 x0 x1 s0) ∗ owns (c : Thread nD τ) arg5 fullShare (sB16_1 x0 x1 s1)
            ∗ owns (c : Thread nD τ) arg6 fullShare (sB16_0 x0 x1 s0) ∗ owns (c : Thread nD τ) arg7 fullShare (sB16_1 x0 x1 s1)) -∗ K ⟨⟩))
      ⊢ wp frame (wpE (defs₀ (F := F)) Variants.none c none) E (cc16__relu_stats_kernel i arg1 harg1 arg2 harg2 arg3 harg3 arg4 harg4 arg5 harg5 arg6 harg6 arg7 harg7) K := by
  simp only [cc16__relu_stats_kernel_eq_skeleton]; unfold cc16__relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverB16 (F := F) _)
  isplitl [H3]
  · iexists _; isplitr
    swap; · iexact H3
    ipureintro; sl_unfold_run_names; rw [View.readCov_cons_toLoadRect]; exact View.read_writes_eq_canon _ _ _ (coverS16 (F := F) _)
  isplitl [H4]
  · iexists _; isplitr
    swap; · iexact H4
    ipureintro; sl_unfold_run_names; rw [View.readCov_cons_toLoadRect]; exact View.read_writes_eq_canon _ _ _ (coverS16 (F := F) _)
  isplitl [H6]
  · iexists _; isplitr
    swap; · iexact H6
    ipureintro; sl_unfold_run_names; exact View.read_writes_eq_canon _ _ _ (coverS16 (F := F) _)
  iexists _; isplitr
  swap; · iexact H7
  ipureintro; sl_unfold_run_names; exact View.read_writes_eq_canon _ _ _ (coverS16 (F := F) _)

/-! # The region at the entry contents `V` -/

section Region
variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, for any proof data whose array is `V`'s and
    whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1 (the bias row, fetched at the first point only: its block index never moves) likewise. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-! ## The two carried accumulators -/

/-- The two accumulator operands: whole scoped buffers of the kernel's own, passed beside the windows. -/
abbrev scM16_0 : Memref sig .tc .vmem S1x128 .f32 := Memref.whole cc16_scratch0
abbrev scM16_1 : Memref sig .tc .vmem S1x128 .f32 := Memref.whole cc16_scratch1

/-- THE ACCUMULATION. What the two accumulators (the column sums and the column sums of squares of the tiles so far)
    hold after the body at position `n`: zeroed and added to at the first point, added to at every later one. -/
def souts16 (c : Dev nD) : (n : ℕ) → n < cfg16.N → Vec F S1x128 .f32 × Vec F S1x128 .f32
  | 0, hn => (sA16_0 (iblk16 V c 0 ⟨0, hn⟩) (iblk16 V c 1 ⟨0, hn⟩), sA16_1 (iblk16 V c 0 ⟨0, hn⟩) (iblk16 V c 1 ⟨0, hn⟩))
  | n + 1, hn =>
    (sB16_0 (iblk16 V c 0 ⟨n + 1, hn⟩) (iblk16 V c 1 ⟨n + 1, hn⟩) (souts16 c n (Nat.lt_of_succ_lt hn)).1,
     sB16_1 (iblk16 V c 0 ⟨n + 1, hn⟩) (iblk16 V c 1 ⟨n + 1, hn⟩) (souts16 c n (Nat.lt_of_succ_lt hn)).2)

theorem souts16_zero (c : Dev nD) (t : Fin cfg16.N) (h0 : t.val = 0) :
    souts16 V c t.val t.isLt = (sA16_0 (iblk16 V c 0 t) (iblk16 V c 1 t), sA16_1 (iblk16 V c 0 t) (iblk16 V c 1 t)) := by
  obtain ⟨n, hn⟩ := t
  cases n with
  | zero => exact rfl
  | succ n => exact absurd h0 (Nat.succ_ne_zero _)

theorem souts16_pos (c : Dev nD) (t : Fin cfg16.N) (h0 : t.val ≠ 0) :
    souts16 V c t.val t.isLt =
      (sB16_0 (iblk16 V c 0 t) (iblk16 V c 1 t) (souts16 V c (t.val - 1) (Nat.lt_of_le_of_lt (Nat.sub_le _ _) t.isLt)).1,
       sB16_1 (iblk16 V c 0 t) (iblk16 V c 1 t) (souts16 V c (t.val - 1) (Nat.lt_of_le_of_lt (Nat.sub_le _ _) t.isLt)).2) := by
  obtain ⟨n, hn⟩ := t
  cases n with
  | zero => exact absurd rfl h0
  | succ n => exact rfl

/-- The region invariant before position `n`: before the first point the scoped rest whole (the accumulators at
    anything) and the generator register at some state; afterwards the two accumulators at what the point before left
    (`souts16`), the rest of the scoped rest unopened, and the generator register at some state. -/
def PhiS16 (c : Dev nD) : (n : ℕ) → n ≤ cfg16.N → sProp 𝕄
  | 0, _ => iprop((∃ r, prngReg c r) ∗ Pipeline.scopedRest (Ix := Unit) (Name := ℕ) (U := UR sig nD τ) (Lvl := ℕ) spec16 c)
  | n + 1, hn => iprop((owns (c : Thread nD τ) scM16_0 fullShare (souts16 V c n hn).1 ∗ owns (c : Thread nD τ) scM16_1 fullShare (souts16 V c n hn).2)
      ∗ Pipeline.scopedRestBut (Ix := Unit) (Name := ℕ) (U := UR sig nD τ) (Lvl := ℕ) (Val := Elt F) spec16 c [cc16_scratch0, cc16_scratch1] ∗ (∃ r, prngReg c r))

theorem PhiS16_zero (c : Dev nD) (n : ℕ) (h : n ≤ cfg16.N) (hz : n = 0) :
    PhiS16 V c n h = iprop((∃ r, prngReg c r) ∗ Pipeline.scopedRest (Ix := Unit) (Name := ℕ) (U := UR sig nD τ) (Lvl := ℕ) spec16 c) := by
  subst hz; rfl

theorem PhiS16_succ (c : Dev nD) (n : ℕ) (hn : n < cfg16.N) :
    PhiS16 V c (n + 1) hn = iprop((owns (c : Thread nD τ) scM16_0 fullShare (souts16 V c n hn).1 ∗ owns (c : Thread nD τ) scM16_1 fullShare (souts16 V c n hn).2)
      ∗ Pipeline.scopedRestBut (Ix := Unit) (Name := ℕ) (U := UR sig nD τ) (Lvl := ℕ) (Val := Elt F) spec16 c [cc16_scratch0, cc16_scratch1] ∗ (∃ r, prngReg c r)) := rfl

theorem PhiS16_pos (c : Dev nD) (n : ℕ) (h : n ≤ cfg16.N) (hz : n ≠ 0) :
    PhiS16 V c n h = iprop((owns (c : Thread nD τ) scM16_0 fullShare (souts16 V c (n - 1) (by omega)).1 ∗ owns (c : Thread nD τ) scM16_1 fullShare (souts16 V c (n - 1) (by omega)).2)
      ∗ Pipeline.scopedRestBut (Ix := Unit) (Name := ℕ) (U := UR sig nD τ) (Lvl := ℕ) (Val := Elt F) spec16 c [cc16_scratch0, cc16_scratch1] ∗ (∃ r, prngReg c r)) := by
  cases n with
  | zero => exact absurd rfl hz
  | succ n => rfl

/-- The scoped rest with the two accumulators as memrefs owned at some contents. -/
theorem scopedRest16_owns (c : Dev nD) :
    (Pipeline.scopedRest (Ix := Unit) (Name := ℕ) (U := UR sig nD τ) (Lvl := ℕ) (Val := Elt F) spec16 c : sProp 𝕄)
      = iprop(((∃ d, owns (c : Thread nD τ) scM16_0 fullShare d) ∗ (∃ d, owns (c : Thread nD τ) scM16_1 fullShare d))
          ∗ Pipeline.scopedRestBut (Ix := Unit) (Name := ℕ) (U := UR sig nD τ) (Lvl := ℕ) (Val := Elt F) spec16 c [cc16_scratch0, cc16_scratch1]) := by
  rw [scopedRest16_split]; simp only [scM16_0, scM16_1, owns_whole]; try rfl

/-! ## The pipeline's proof data -/

/-- The proof data of pipeline 1 on core `c`: the arrays as the region finds them (`V`); after the body at point `t`
    each input's buffer at its block, window 2's at the pointwise result of the two input blocks, windows 3 and 4's at the
    accumulators' contents after `t` (consulted at the last point only: they are idle before); the invariant `PhiS16`;
    nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
    | ⟨3, _⟩ => (souts16 V c t.val t.isLt).1
    | ⟨4, _⟩ => (souts16 V c t.val t.isLt).2
  Φ t := PhiS16 V c t.val (Nat.le_of_lt_succ t.isLt)
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]
theorem after16_3 (c : Dev nD) (t : Fin cfg16.N) : (dat16 V c).after 3 t = (souts16 V c t.val t.isLt).1 := by dsimp only [dat16]
theorem after16_4 (c : Dev nD) (t : Fin cfg16.N) : (dat16 V c).after 4 t = (souts16 V c t.val t.isLt).2 := by dsimp only [dat16]

theorem owed16 (c : Dev nD) (t : Fin (cfg16.N + 1)) : (dat16 V c).owed t = 0 := rfl

theorem PhiS16_castSucc (c : Dev nD) (t : Fin cfg16.N) :
    (dat16 V c).Φ t.castSucc = PhiS16 V c t.val (Nat.le_of_lt t.isLt) := by
  dsimp only [dat16]; simp only [Fin.coe_castSucc]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-! ## Entry and exit -/

/-- What the launch hands the region is the invariant before the first point. -/
theorem hin16 (c : Dev nD) :
    (iprop((∃ r, prngReg c r) ∗ Pipeline.scopedRest (Ix := Unit) (Name := ℕ) (U := UR sig nD τ) (Lvl := ℕ) spec16 c) : sProp 𝕄) ⊢ (dat16 V c).Φ 0 := by
  rw [show (dat16 V c).Φ 0 = PhiS16 V c 0 (Nat.zero_le _) from rfl, PhiS16_zero V c 0 _ rfl]
  try exact Idealize.SL.BI.Entails.refl _

/-- After the last point the invariant gives them back: the accumulators' named contents are forgotten. -/
theorem hout16 (c : Dev nD) :
    (dat16 V c).Φ (Fin.last cfg16.N) ⊢ (iprop((∃ r, prngReg c r) ∗ Pipeline.scopedRest (Ix := Unit) (Name := ℕ) (U := UR sig nD τ) (Lvl := ℕ) spec16 c) : sProp 𝕄) := by
  rw [show (dat16 V c).Φ (Fin.last cfg16.N) = PhiS16 V c (Fin.last cfg16.N).val (Nat.le_of_lt_succ (Fin.last cfg16.N).isLt) from rfl,
    PhiS16_pos V c _ _ (by rw [Fin.val_last]; have : cfg16.N = 20 := N_16; omega), scopedRest16_owns]
  iintro ⟨⟨HS0, HS1⟩, Hr, Hg⟩
  isplitl [Hg]; · iexact Hg
  isplitl [HS0 HS1]
  · isplitl [HS0]
    · iexists _; iexact HS0
    iexists _; iexact HS1
  iexact Hr

/-! ## The body obligation -/

/-- Where the windows are idle: windows 0, 1, 2 never; windows 3 and 4 everywhere but at the last point, where they are
    written back. -/
theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem idleAt16_3 : ∀ t : Fin cfg16.N, ¬cond16_1 (grid16.coords t) → cfg16.idle 3 (grid16.coords t) = true := by decide +kernel
theorem idleAt16_4 : ∀ t : Fin cfg16.N, ¬cond16_1 (grid16.coords t) → cfg16.idle 4 (grid16.coords t) = true := by decide +kernel
theorem noFlush16_3 : ∀ t : Fin cfg16.N, ¬cond16_1 (grid16.coords t) → (cfg16.win 3).flush t = false := by decide +kernel
theorem noFlush16_4 : ∀ t : Fin cfg16.N, ¬cond16_1 (grid16.coords t) → (cfg16.win 4).flush t = false := by decide +kernel
theorem liveAt16_3 : ∀ t : Fin cfg16.N, cond16_1 (grid16.coords t) → cfg16.idle 3 (grid16.coords t) = false := by decide +kernel
theorem liveAt16_4 : ∀ t : Fin cfg16.N, cond16_1 (grid16.coords t) → cfg16.idle 4 (grid16.coords t) = false := by decide +kernel

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t)

set_option maxHeartbeats 4000000 in
/-- The body at any point: the inputs' memrefs hold their blocks; the closed forms say which case the point is in; the
    invariant hands the body the accumulators at what the point before left (at anything at the first point) and takes
    them back at this point's contents; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  have hN : t.val < 20 := lt_of_lt_of_eq t.isLt (show cfg16.N = 20 from N_16)
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [show (dat16 V c).leavesExact 2 t = owns (c : Thread nD τ) (st16_2 t) fullShare ((dat16 V c).after 2 t) from by
    unfold Dat.leavesExact; rw [liveAt16_2 t], after16_2]
  by_cases h0 : t.val % 20 = 0
  · have hz : t.val = 0 := by omega
    have hnc1 : ¬cond16_1 (grid16.coords t) := fun h => by have := (hcond16_1 t).mp h; omega
    rw [Dat.leavesExact_idle (dat16 V c) 3 t (idleAt16_3 t hnc1) (noFlush16_3 t hnc1),
      Dat.leavesExact_idle (dat16 V c) 4 t (idleAt16_4 t hnc1) (noFlush16_4 t hnc1)]
    rw [souts16_zero V c t hz]
    dsimp only
    rw [PhiS16_castSucc V c t, PhiS16_zero V c _ _ hz, scopedRest16_owns]
    iintro ⟨⟨Hg, ⟨HS0, HS1⟩, Hr⟩, Ho, ⟨%d0, H0⟩, ⟨%d1, H1⟩, ⟨%d2, H2⟩, ⟨%d3, H3⟩, ⟨%d4, H4⟩⟩
    iapply (sound_kernel16_A c Set.univ (grid16.coords t) ((hcond16_0 t).mpr h0) hnc1 _ _ _ _ _ _ _ _ _ _ _ _ _ _ (iblk16 V c 0 t) (iblk16 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hnc0 : ¬cond16_0 (grid16.coords t) := fun h => h0 ((hcond16_0 t).mp h)
    by_cases h1 : t.val % 20 = 19
    · have hc1 : cond16_1 (grid16.coords t) := (hcond16_1 t).mpr h1
      rw [show (dat16 V c).leavesExact 3 t = owns (c : Thread nD τ) (st16_3 t) fullShare ((dat16 V c).after 3 t) from by
        unfold Dat.leavesExact; rw [liveAt16_3 t hc1], after16_3]
      rw [show (dat16 V c).leavesExact 4 t = owns (c : Thread nD τ) (st16_4 t) fullShare ((dat16 V c).after 4 t) from by
        unfold Dat.leavesExact; rw [liveAt16_4 t hc1], after16_4]
      rw [souts16_pos V c t hz]
      dsimp only
      rw [PhiS16_castSucc V c t, PhiS16_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel16_C c Set.univ (grid16.coords t) hnc0 hc1 _ _ _ _ _ _ _ _ _ _ _ _ _ _ (iblk16 V c 0 t) (iblk16 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hnc1 : ¬cond16_1 (grid16.coords t) := fun h => h1 ((hcond16_1 t).mp h)
      rw [Dat.leavesExact_idle (dat16 V c) 3 t (idleAt16_3 t hnc1) (noFlush16_3 t hnc1),
        Dat.leavesExact_idle (dat16 V c) 4 t (idleAt16_4 t hnc1) (noFlush16_4 t hnc1)]
      rw [souts16_pos V c t hz]
      dsimp only
      rw [PhiS16_castSucc V c t, PhiS16_pos V c _ _ hz]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel16_B c Set.univ (grid16.coords t) hnc0 hnc1 _ _ _ _ _ _ _ _ _ _ _ _ _ _ (iblk16 V c 0 t) (iblk16 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region

end Cert.KernelIdeal.Hand

end
-- ==== Proof.KI.RegB17.lean ====
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the batch-normalisation kernel (custom_call 2, pipeline 2), at the entry contents `V`

The kernel is pointwise: at every grid point it reads the (5000,128) tile of the activations and the four (1,128)
rows mean, variance, scale, shift, and writes the tile `(h - mean) * rsqrt (var + eps) * scale + shift` (rows
broadcast along the long axis) over the whole output tile. The region's half of the frame: each window's block at
a point, what the body leaves in each window's buffer, the body's triple, the pipeline's proof data and the body
obligation, all at a parameter `V` (the TensorCore's buffer contents when the region is entered) and at any `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's current staging buffer holds its block at every point, fetched there or not, for any proof
    data whose array is `V`'s and whose body leaves the block in place: unfetched, the block index has not moved. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's current staging buffer holds its block at every point, fetched there or not, for any proof
    data whose array is `V`'s and whose body leaves the block in place: unfetched, the block index has not moved. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's current staging buffer holds its block at every point, fetched there or not, for any proof
    data whose array is `V`'s and whose body leaves the block in place: unfetched, the block index has not moved. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- Input window 3's current staging buffer holds its block at every point, fetched there or not, for any proof
    data whose array is `V`'s and whose body leaves the block in place: unfetched, the block index has not moved. -/
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)

/-- Input window 4's current staging buffer holds its block at every point, fetched there or not, for any proof
    data whose array is `V`'s and whose body leaves the block in place: unfetched, the block index has not moved. -/
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses -/

abbrev r17_0 : Rect S5000x128 := Rect.unit (s := S5000x128) ![0, 0] S5000x128.size inb_S5000x128_S5000x128_0_0
abbrev r17_1 : Rect S1x128 := Rect.unit (s := S1x128) ![0, 0] S1x128.size inb_S1x128_S1x128_0_0

/-! ## What the body leaves in the output window's buffer -/

/-- Window 5's staging buffer after the body, from the input windows' blocks (`x0` the activations' tile, `x1` the
    mean, `x2` the variance, `x3` the scale, `x4` the shift): its one store, of the whole tile. -/
def out17_5 (x0 : Vec F S5000x128 .f32) (x1 x2 x3 x4 : Vec F S1x128 .f32) : Vec F S5000x128 .f32 :=
  View.canon [⟨r17_0, k17_pay1 (View.ld x2 r17_1) (View.ld x0 r17_0) (View.ld x1 r17_1) (View.ld x3 r17_1) (View.ld x4 r17_1)⟩]

/-- The store tiles the buffer, so it covers it. -/
theorem cover17_5 (p0 : Vec F S5000x128 .f32) (y : S5000x128.Idx) :
    ∃ pc ∈ ([⟨r17_0, p0⟩] : List (View.Piece (Elt F) S5000x128 .f32)), y ∈ pc.1.set :=
  View.cover_of_tiled [⟨r17_0, p0⟩] S5000x128.size (by rfl) y

/-! ## The body's triple -/

set_option maxHeartbeats 1000000 in
/-- The kernel body on whole staging memrefs, the inputs' at read contents `xW` and the output's at anything, runs to
    the continuation holding the inputs' as they were and the output's at `out17_5` of the inputs'. -/
theorem sound_kernel17 (c : Dev nD) (E : Set ℕ) (i : grid17.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out17_5 x0 x1 x2 x3 x4)) -∗ K ⟨⟩))
      ⊢ wp frame (wpE (defs₀ (F := F)) Variants.none c none) E
          (cc17__bn_kernel i arg1 harg1 arg2 harg2 arg3 harg3 arg4 harg4 arg5 harg5 arg6 harg6) K := by
  simp only [cc17__bn_kernel_eq_skeleton]; unfold cc17__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-! ## The pipeline's proof data -/

/-- The proof data of pipeline 2 on core `c`: the arrays as the region finds them (`V`); after the body at point
    `t` each input's buffer at its block and the output's at `out17_5` of the input blocks; the invariant the scoped
    rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t =
    out17_5 (iblk17 V c 0 t) (iblk17 V c 1 t) (iblk17 V c 2 t) (iblk17 V c 3 t) (iblk17 V c 4 t) := by dsimp only [dat17]

/-- Nothing is owed at any point. -/
theorem owed17 (c : Dev nD) (t) : (dat17 V c).owed t = 0 := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

set_option maxHeartbeats 1000000 in
/-- The body at any point: the inputs' memrefs hold their blocks (`before17_W`), so `sound_kernel17` applies; the
    invariant and the core's `owes` pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ _ _ _ _ _ _ _ _ _ _ _ _ _ (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation17 (c : Dev nD) : BodyObligation (dat17 (F := F) V c) (defs₀ (F := F)) Variants.none () Set.univ := fun t => by
  rw [bigSep_W17, bigSep_W17]
  exact sound_body17 V c t

/-! ## Into the region's invariant and out -/

/-- Entry: the generator register at some state and the scoped rest make the invariant at the first point. -/
theorem hin17 (c : Dev nD) :
    (iprop((∃ r, prngReg c r) ∗ Pipeline.scopedRest (Ix := Unit) (Name := ℕ) (U := UR sig nD τ) (Lvl := ℕ) spec17 c) : sProp 𝕄)
      ⊢ (dat17 V c).Φ 0 := by
  rw [show (dat17 V c).Φ 0 = Pipeline.ΦA spec17 c from rfl]; unfold Pipeline.ΦA
  iintro ⟨Hp, Hr⟩
  isplitl [Hr]; · iexact Hr
  iexact Hp

/-- Exit: the invariant at the last point gives them back. -/
theorem hout17 (c : Dev nD) :
    (dat17 V c).Φ (Fin.last cfg17.N)
      ⊢ (iprop((∃ r, prngReg c r) ∗ Pipeline.scopedRest (Ix := Unit) (Name := ℕ) (U := UR sig nD τ) (Lvl := ℕ) spec17 c) : sProp 𝕄) := by
  rw [show (dat17 V c).Φ (Fin.last cfg17.N) = Pipeline.ΦA spec17 c from rfl]; unfold Pipeline.ΦA
  iintro ⟨Hr, Hp⟩
  isplitl [Hp]; · iexact Hp
  iexact Hr

end Cert.KernelIdeal.Hand
-- ==== Proof.KI.RegL18.lean ====
/- The half of region 18 of @main (custom_call 18, the MLP head: two matrix products with their biases and a
   log-softmax along the last axis), at a PARAMETER `V`, the TensorCore's buffer contents when the region is entered.
   One grid point; six windows, each a whole array; the body loads the five inputs and stores the whole output block. -/
import proofs.«400512_j87187836109057_1_alg».proof.Proof.Gen.KernelIdeal.Launch
import proofs.«400512_j87187836109057_1_alg».proof.Proof.Gen.KernelIdeal.Skeleton
import proofs.«400512_j87187836109057_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, for any proof data whose array is
    `V`'s and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's current staging buffer holds its block at every point, for any proof data whose array is
    `V`'s and whose body leaves the block in place. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's current staging buffer holds its block at every point, for any proof data whose array is
    `V`'s and whose body leaves the block in place. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's current staging buffer holds its block at every point, for any proof data whose array is
    `V`'s and whose body leaves the block in place. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's current staging buffer holds its block at every point, for any proof data whose array is
    `V`'s and whose body leaves the block in place. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses -/

abbrev r18_0 : Rect S64x4 := Rect.unit (s := S64x4) ![0, 0] S64x4.size inb_S64x4_S64x4_0_0
abbrev r18_1 : Rect S64x128 := Rect.unit (s := S64x128) ![0, 0] S64x128.size inb_S64x128_S64x128_0_0
abbrev r18_2 : Rect S128x64 := Rect.unit (s := S128x64) ![0, 0] S128x64.size inb_S128x64_S128x64_0_0
abbrev r18_3 : Rect S1x64 := Rect.unit (s := S1x64) ![0, 0] S1x64.size inb_S1x64_S1x64_0_0
abbrev r18_4 : Rect S1x4 := Rect.unit (s := S1x4) ![0, 0] S1x4.size inb_S1x4_S1x4_0_0

/-! ## What the body leaves in the output window's buffer -/

/-- Window 5's staging buffer after the body, from the input windows' blocks: its one store, the whole block, of the
    payload of the five whole-block loads. -/
def out18_5 (x0 : Vec F S64x128 .f32) (x1 : Vec F S128x64 .f32) (x2 : Vec F S1x64 .f32) (x3 : Vec F S64x4 .f32) (x4 : Vec F S1x4 .f32) : Vec F S64x4 .f32 :=
  View.canon [⟨r18_0, k18_pay1 (View.ld x0 r18_1) (View.ld x1 r18_2) (View.ld x2 r18_3) (View.ld x3 r18_0) (View.ld x4 r18_4)⟩]

/-- The store tiles the buffer, so it covers it. -/
theorem cover18_5 (p0 : Vec F S64x4 .f32) (y : S64x4.Idx) :
    ∃ pc ∈ ([⟨r18_0, p0⟩] : List (View.Piece (Elt F) S64x4 .f32)), y ∈ pc.1.set :=
  View.cover_of_tiled [⟨r18_0, p0⟩] S64x4.size (by rfl) y

/-! ## The body's triple -/

set_option maxHeartbeats 1000000 in
/-- The kernel body on whole staging memrefs, the inputs' at read contents and the output's at anything, runs to the
    continuation holding the inputs' as they were and the output's at `out18_5` of the inputs'. -/
theorem sound_kernel18 (c : Dev nD) (E : Set ℕ) (i : grid18.Coords)
    (arg0 : Memref sig .tc .vmem S64x128 .f32) (harg0 : arg0.IsWhole) (arg1 : Memref sig .tc .vmem S128x64 .f32) (harg1 : arg1.IsWhole)
    (arg2 : Memref sig .tc .vmem S1x64 .f32) (harg2 : arg2.IsWhole) (arg3 : Memref sig .tc .vmem S64x4 .f32) (harg3 : arg3.IsWhole)
    (arg4 : Memref sig .tc .vmem S1x4 .f32) (harg4 : arg4.IsWhole) (arg5 : Memref sig .tc .vmem S64x4 .f32) (harg5 : arg5.IsWhole)
    (x0 : Vec F S64x128 .f32) (x1 : Vec F S128x64 .f32) (x2 : Vec F S1x64 .f32) (x3 : Vec F S64x4 .f32) (x4 : Vec F S1x4 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out18_5 x0 x1 x2 x3 x4)) -∗ K ⟨⟩))
      ⊢ wp frame (wpE (defs₀ (F := F)) Variants.none c none) E (cc18__mlp_kernel i arg0 harg0 arg1 harg1 arg2 harg2 arg3 harg3 arg4 harg4 arg5 harg5) K := by
  simp only [cc18__mlp_kernel_eq_skeleton]; unfold cc18__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover18_5 (F := F) _)

/-! ## The pipeline's proof data -/

/-- The proof data of pipeline 18 on core `c`: the arrays as the region finds them (`V`); after the body each input's
    buffer at its block and the output's at `out18_5` of the input blocks; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => out18_5 (iblk18 V c 0 t) (iblk18 V c 1 t) (iblk18 V c 2 t) (iblk18 V c 3 t) (iblk18 V c 4 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = out18_5 (iblk18 V c 0 t) (iblk18 V c 1 t) (iblk18 V c 2 t) (iblk18 V c 3 t) (iblk18 V c 4 t) := by dsimp only [dat18]

/-- Nothing is owed at any point. -/
theorem owed18 (c : Dev nD) (t) : (dat18 V c).owed t = 0 := rfl

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t))

set_option maxHeartbeats 1000000 in
/-- The body at any point: the inputs' memrefs hold their blocks, so `sound_kernel18` applies; the invariant and the
    core's `owes` pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4]
  rw [show (dat18 V c).Φ t.succ = (dat18 V c).Φ t.castSucc from rfl,
    show (dat18 V c).owesAt () t.succ = (dat18 V c).owesAt () t.castSucc from rfl,
    after18_0, after18_1, after18_2, after18_3, after18_4, after18_5]
  iintro ⟨HΦ, Ho, ⟨%d0, H0⟩, ⟨%d1, H1⟩, ⟨%d2, H2⟩, ⟨%d3, H3⟩, ⟨%d4, H4⟩, ⟨%d5, H5⟩⟩
  iapply (sound_kernel18 c Set.univ _ _ _ _ _ _ _ _ _ _ _ _ _ (iblk18 V c 0 t) (iblk18 V c 1 t) (iblk18 V c 2 t) (iblk18 V c 3 t) (iblk18 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

/-! ## The invariant at the region's two ends -/

/-- Entry: the generator register at some state and the scoped rest make the invariant. -/
theorem hin18 (c : Dev nD) :
    (iprop((∃ r, prngReg c r) ∗ Pipeline.scopedRest (Ix := Unit) (Name := ℕ) (U := UR sig nD τ) (Lvl := ℕ) spec18 c) : sProp 𝕄) ⊢ (dat18 V c).Φ 0 := by
  rw [show (dat18 V c).Φ 0 = Pipeline.ΦA spec18 c from rfl]; unfold Pipeline.ΦA
  iintro ⟨Hp, Hr⟩
  isplitl [Hr]; · iexact Hr
  iexact Hp

/-- Exit: the invariant gives them back. -/
theorem hout18 (c : Dev nD) :
    (dat18 V c).Φ (Fin.last cfg18.N) ⊢ (iprop((∃ r, prngReg c r) ∗ Pipeline.scopedRest (Ix := Unit) (Name := ℕ) (U := UR sig nD τ) (Lvl := ℕ) spec18 c) : sProp 𝕄) := by
  rw [show (dat18 V c).Φ (Fin.last cfg18.N) = Pipeline.ΦA spec18 c from rfl]; unfold Pipeline.ΦA
  iintro ⟨Hr, Hp⟩
  isplitl [Hp]; · iexact Hp
  iexact Hr

end Cert.KernelIdeal.Hand

end
-- ==== Proof.KI.RunW.lean ====
/- The buffers' contents at every boundary between two items of @main (19 kernel regions among 25 host stretches), as a
   fold from the launch memory: a host stretch's result, a region's arrays at what its write-backs leave. Each
   argument array is read back through the fold to its launch contents. Generic in the float interpretation. -/
import proofs.«400512_j87187836109057_1_alg».proof.Proof.KI.RegionsP
import proofs.«400512_j87187836109057_1_alg».proof.Proof.KI.RegM0
import proofs.«400512_j87187836109057_1_alg».proof.Proof.KI.RegS1
import proofs.«400512_j87187836109057_1_alg».proof.Proof.KI.RegB2
import proofs.«400512_j87187836109057_1_alg».proof.Proof.KI.RegM3
import proofs.«400512_j87187836109057_1_alg».proof.Proof.KI.RegS4
import proofs.«400512_j87187836109057_1_alg».proof.Proof.KI.RegB5
import proofs.«400512_j87187836109057_1_alg».proof.Proof.KI.RegM6
import proofs.«400512_j87187836109057_1_alg».proof.Proof.KI.RegS7
import proofs.«400512_j87187836109057_1_alg».proof.Proof.KI.RegB8
import proofs.«400512_j87187836109057_1_alg».proof.Proof.KI.RegM9
import proofs.«400512_j87187836109057_1_alg».proof.Proof.KI.RegS10
import proofs.«400512_j87187836109057_1_alg».proof.Proof.KI.RegB11
import proofs.«400512_j87187836109057_1_alg».proof.Proof.KI.RegM12
import proofs.«400512_j87187836109057_1_alg».proof.Proof.KI.RegS13
import proofs.«400512_j87187836109057_1_alg».proof.Proof.KI.RegB14
import proofs.«400512_j87187836109057_1_alg».proof.Proof.KI.RegM15
import proofs.«400512_j87187836109057_1_alg».proof.Proof.KI.RegS16
import proofs.«400512_j87187836109057_1_alg».proof.Proof.KI.RegB17
import proofs.«400512_j87187836109057_1_alg».proof.Proof.KI.RegL18
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between two items of the program: a fold from the launch memory -/

/-- Core c's buffers at launch. -/
abbrev W0 : Dev nD → Valuation τ sig (Elt F) := fun c b => m (c, b)

/-- After item 0, the host stretch hostOps0. -/
abbrev W1 : Dev nD → Valuation τ sig (Elt F) := fun c => StableHlo.after hostOps0 (W0 m c)
/-- The stretch leaves every buffer it does not write as it was. -/
theorem W1_of (c : Dev nD) (r : Ref sig .tc) (hr : r ∉ GenP.hostOps0_W) :
    W1 m c (Proc.devRef .tc r) = W0 m c (Proc.devRef .tc r) :=
  StableHlo.after_of_writes_sub hostOps0 _ GenP.hostOps0_writes hr

/-- The contents region 0 is entered from, read at the TensorCore's references. -/
abbrev V1 : (c : Dev nD) → (b : Ref sig .tc) → Buf (Elt F) ((c : Thread nD τ).loc b) := fun c b => W1 m c b
/-- After item 1, region 0: its windows' arrays at what the pipeline leaves (an input as entered, an output with every
    write-back folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The contents region 0 leaves, read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The region leaves every buffer that is no output window's array as it was: an input window's array is only read. -/
theorem W2_of (c : Dev nD) (r : Ref sig .tc) (hr : ∀ w : Fin cfg0.W, (cfg0.win w).isOut = true → Pipeline.arrRef spec0 w ≠ r) :
    W2 m c (Proc.devRef .tc r) = W1 m c (Proc.devRef .tc r) := by
  by_cases hx : ∃ w, Pipeline.arrRef spec0 w = r
  · obtain ⟨w, rfl⟩ := hx
    have hin : (cfg0.win w).isOut = false := by
      cases hb : (cfg0.win w).isOut
      · rfl
      · exact absurd rfl (hr w hb)
    exact (W2_arr m c w).trans (((dat0 (V1 m) c).arrAt_in w hin _).trans (A_eq0 (V1 m) c w))
  · exact W2_of_ne m c r fun w e => hx ⟨w, e⟩

/-- After item 2, the host stretch hostOps1. -/
abbrev W3 : Dev nD → Valuation τ sig (Elt F) := fun c => StableHlo.after hostOps1 (W2 m c)
/-- The stretch leaves every buffer it does not write as it was. -/
theorem W3_of (c : Dev nD) (r : Ref sig .tc) (hr : r ∉ GenP.hostOps1_W) :
    W3 m c (Proc.devRef .tc r) = W2 m c (Proc.devRef .tc r) :=
  StableHlo.after_of_writes_sub hostOps1 _ GenP.hostOps1_writes hr

/-- After item 3, the host stretch hostOps1_1. -/
abbrev W4 : Dev nD → Valuation τ sig (Elt F) := fun c => StableHlo.after hostOps1_1 (W3 m c)
/-- The stretch leaves every buffer it does not write as it was. -/
theorem W4_of (c : Dev nD) (r : Ref sig .tc) (hr : r ∉ GenP.hostOps1_1_W) :
    W4 m c (Proc.devRef .tc r) = W3 m c (Proc.devRef .tc r) :=
  StableHlo.after_of_writes_sub hostOps1_1 _ GenP.hostOps1_1_writes hr

/-- The contents region 1 is entered from, read at the TensorCore's references. -/
abbrev V4 : (c : Dev nD) → (b : Ref sig .tc) → Buf (Elt F) ((c : Thread nD τ).loc b) := fun c b => W4 m c b
/-- After item 4, region 1: its windows' arrays at what the pipeline leaves (an input as entered, an output with every
    write-back folded in), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The contents region 1 leaves, read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- The region leaves every buffer that is no output window's array as it was: an input window's array is only read. -/
theorem W5_of (c : Dev nD) (r : Ref sig .tc) (hr : ∀ w : Fin cfg1.W, (cfg1.win w).isOut = true → Pipeline.arrRef spec1 w ≠ r) :
    W5 m c (Proc.devRef .tc r) = W4 m c (Proc.devRef .tc r) := by
  by_cases hx : ∃ w, Pipeline.arrRef spec1 w = r
  · obtain ⟨w, rfl⟩ := hx
    have hin : (cfg1.win w).isOut = false := by
      cases hb : (cfg1.win w).isOut
      · rfl
      · exact absurd rfl (hr w hb)
    exact (W5_arr m c w).trans (((dat1 (V4 m) c).arrAt_in w hin _).trans (A_eq1 (V4 m) c w))
  · exact W5_of_ne m c r fun w e => hx ⟨w, e⟩

/-- After item 5, the host stretch hostOps2. -/
abbrev W6 : Dev nD → Valuation τ sig (Elt F) := fun c => StableHlo.after hostOps2 (W5 m c)
/-- The stretch leaves every buffer it does not write as it was. -/
theorem W6_of (c : Dev nD) (r : Ref sig .tc) (hr : r ∉ GenP.hostOps2_W) :
    W6 m c (Proc.devRef .tc r) = W5 m c (Proc.devRef .tc r) :=
  StableHlo.after_of_writes_sub hostOps2 _ GenP.hostOps2_writes hr

/-- The contents region 2 is entered from, read at the TensorCore's references. -/
abbrev V6 : (c : Dev nD) → (b : Ref sig .tc) → Buf (Elt F) ((c : Thread nD τ).loc b) := fun c b => W6 m c b
/-- After item 6, region 2: its windows' arrays at what the pipeline leaves (an input as entered, an output with every
    write-back folded in), every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The contents region 2 leaves, read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- The region leaves every buffer that is no output window's array as it was: an input window's array is only read. -/
theorem W7_of (c : Dev nD) (r : Ref sig .tc) (hr : ∀ w : Fin cfg2.W, (cfg2.win w).isOut = true → Pipeline.arrRef spec2 w ≠ r) :
    W7 m c (Proc.devRef .tc r) = W6 m c (Proc.devRef .tc r) := by
  by_cases hx : ∃ w, Pipeline.arrRef spec2 w = r
  · obtain ⟨w, rfl⟩ := hx
    have hin : (cfg2.win w).isOut = false := by
      cases hb : (cfg2.win w).isOut
      · rfl
      · exact absurd rfl (hr w hb)
    exact (W7_arr m c w).trans (((dat2 (V6 m) c).arrAt_in w hin _).trans (A_eq2 (V6 m) c w))
  · exact W7_of_ne m c r fun w e => hx ⟨w, e⟩

/-- After item 7, the host stretch hostOps3. -/
abbrev W8 : Dev nD → Valuation τ sig (Elt F) := fun c => StableHlo.after hostOps3 (W7 m c)
/-- The stretch leaves every buffer it does not write as it was. -/
theorem W8_of (c : Dev nD) (r : Ref sig .tc) (hr : r ∉ GenP.hostOps3_W) :
    W8 m c (Proc.devRef .tc r) = W7 m c (Proc.devRef .tc r) :=
  StableHlo.after_of_writes_sub hostOps3 _ GenP.hostOps3_writes hr

/-- The contents region 3 is entered from, read at the TensorCore's references. -/
abbrev V8 : (c : Dev nD) → (b : Ref sig .tc) → Buf (Elt F) ((c : Thread nD τ).loc b) := fun c b => W8 m c b
/-- After item 8, region 3: its windows' arrays at what the pipeline leaves (an input as entered, an output with every
    write-back folded in), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The contents region 3 leaves, read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)
/-- The region leaves every buffer that is no output window's array as it was: an input window's array is only read. -/
theorem W9_of (c : Dev nD) (r : Ref sig .tc) (hr : ∀ w : Fin cfg3.W, (cfg3.win w).isOut = true → Pipeline.arrRef spec3 w ≠ r) :
    W9 m c (Proc.devRef .tc r) = W8 m c (Proc.devRef .tc r) := by
  by_cases hx : ∃ w, Pipeline.arrRef spec3 w = r
  · obtain ⟨w, rfl⟩ := hx
    have hin : (cfg3.win w).isOut = false := by
      cases hb : (cfg3.win w).isOut
      · rfl
      · exact absurd rfl (hr w hb)
    exact (W9_arr m c w).trans (((dat3 (V8 m) c).arrAt_in w hin _).trans (A_eq3 (V8 m) c w))
  · exact W9_of_ne m c r fun w e => hx ⟨w, e⟩

/-- After item 9, the host stretch hostOps4. -/
abbrev W10 : Dev nD → Valuation τ sig (Elt F) := fun c => StableHlo.after hostOps4 (W9 m c)
/-- The stretch leaves every buffer it does not write as it was. -/
theorem W10_of (c : Dev nD) (r : Ref sig .tc) (hr : r ∉ GenP.hostOps4_W) :
    W10 m c (Proc.devRef .tc r) = W9 m c (Proc.devRef .tc r) :=
  StableHlo.after_of_writes_sub hostOps4 _ GenP.hostOps4_writes hr

/-- After item 10, the host stretch hostOps4_1. -/
abbrev W11 : Dev nD → Valuation τ sig (Elt F) := fun c => StableHlo.after hostOps4_1 (W10 m c)
/-- The stretch leaves every buffer it does not write as it was. -/
theorem W11_of (c : Dev nD) (r : Ref sig .tc) (hr : r ∉ GenP.hostOps4_1_W) :
    W11 m c (Proc.devRef .tc r) = W10 m c (Proc.devRef .tc r) :=
  StableHlo.after_of_writes_sub hostOps4_1 _ GenP.hostOps4_1_writes hr

/-- The contents region 4 is entered from, read at the TensorCore's references. -/
abbrev V11 : (c : Dev nD) → (b : Ref sig .tc) → Buf (Elt F) ((c : Thread nD τ).loc b) := fun c b => W11 m c b
/-- After item 11, region 4: its windows' arrays at what the pipeline leaves (an input as entered, an output with every
    write-back folded in), every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- The contents region 4 leaves, read at the TensorCore's references. -/
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- The region leaves every buffer that is no output window's array as it was: an input window's array is only read. -/
theorem W12_of (c : Dev nD) (r : Ref sig .tc) (hr : ∀ w : Fin cfg4.W, (cfg4.win w).isOut = true → Pipeline.arrRef spec4 w ≠ r) :
    W12 m c (Proc.devRef .tc r) = W11 m c (Proc.devRef .tc r) := by
  by_cases hx : ∃ w, Pipeline.arrRef spec4 w = r
  · obtain ⟨w, rfl⟩ := hx
    have hin : (cfg4.win w).isOut = false := by
      cases hb : (cfg4.win w).isOut
      · rfl
      · exact absurd rfl (hr w hb)
    exact (W12_arr m c w).trans (((dat4 (V11 m) c).arrAt_in w hin _).trans (A_eq4 (V11 m) c w))
  · exact W12_of_ne m c r fun w e => hx ⟨w, e⟩

/-- After item 12, the host stretch hostOps5. -/
abbrev W13 : Dev nD → Valuation τ sig (Elt F) := fun c => StableHlo.after hostOps5 (W12 m c)
/-- The stretch leaves every buffer it does not write as it was. -/
theorem W13_of (c : Dev nD) (r : Ref sig .tc) (hr : r ∉ GenP.hostOps5_W) :
    W13 m c (Proc.devRef .tc r) = W12 m c (Proc.devRef .tc r) :=
  StableHlo.after_of_writes_sub hostOps5 _ GenP.hostOps5_writes hr

/-- The contents region 5 is entered from, read at the TensorCore's references. -/
abbrev V13 : (c : Dev nD) → (b : Ref sig .tc) → Buf (Elt F) ((c : Thread nD τ).loc b) := fun c b => W13 m c b
/-- After item 13, region 5: its windows' arrays at what the pipeline leaves (an input as entered, an output with every
    write-back folded in), every other buffer as entered. -/
def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
/-- The contents region 5 leaves, read at the TensorCore's references. -/
abbrev V14 : (c : Dev nD) → (b : Ref sig .tc) → Buf (Elt F) ((c : Thread nD τ).loc b) := fun c b => W14 m c b
theorem hF5 (c : Dev nD) (w : Fin cfg5.W) : (dat5 (V13 m) c).arrAt w cfg5.N = V14 m c (Pipeline.arrRef spec5 w) :=
  (W14_arr m c w).symm
theorem hrest5 (c : Dev nD) : ∀ b, b ∉ Finset.univ.image (Pipeline.arrRef spec5) → V14 m c b = V13 m c b :=
  fun b hb => W14_of_ne m c b fun w e => hb (Finset.mem_image.mpr ⟨w, Finset.mem_univ _, e⟩)
/-- The region leaves every buffer that is no output window's array as it was: an input window's array is only read. -/
theorem W14_of (c : Dev nD) (r : Ref sig .tc) (hr : ∀ w : Fin cfg5.W, (cfg5.win w).isOut = true → Pipeline.arrRef spec5 w ≠ r) :
    W14 m c (Proc.devRef .tc r) = W13 m c (Proc.devRef .tc r) := by
  by_cases hx : ∃ w, Pipeline.arrRef spec5 w = r
  · obtain ⟨w, rfl⟩ := hx
    have hin : (cfg5.win w).isOut = false := by
      cases hb : (cfg5.win w).isOut
      · rfl
      · exact absurd rfl (hr w hb)
    exact (W14_arr m c w).trans (((dat5 (V13 m) c).arrAt_in w hin _).trans (A_eq5 (V13 m) c w))
  · exact W14_of_ne m c r fun w e => hx ⟨w, e⟩

/-- After item 14, the host stretch hostOps6. -/
abbrev W15 : Dev nD → Valuation τ sig (Elt F) := fun c => StableHlo.after hostOps6 (W14 m c)
/-- The stretch leaves every buffer it does not write as it was. -/
theorem W15_of (c : Dev nD) (r : Ref sig .tc) (hr : r ∉ GenP.hostOps6_W) :
    W15 m c (Proc.devRef .tc r) = W14 m c (Proc.devRef .tc r) :=
  StableHlo.after_of_writes_sub hostOps6 _ GenP.hostOps6_writes hr

/-- The contents region 6 is entered from, read at the TensorCore's references. -/
abbrev V15 : (c : Dev nD) → (b : Ref sig .tc) → Buf (Elt F) ((c : Thread nD τ).loc b) := fun c b => W15 m c b
/-- After item 15, region 6: its windows' arrays at what the pipeline leaves (an input as entered, an output with every
    write-back folded in), every other buffer as entered. -/
def W16 (c : Dev nD) : Valuation τ sig (Elt F) :=
  Pipeline.withArrays spec6 c (W15 m c) fun w => (dat6 (V15 m) c).arrAt w cfg6.N
theorem W16_arr (c : Dev nD) (w : Fin cfg6.W) :
    W16 m c (Proc.devRef .tc (Pipeline.arrRef spec6 w)) = (dat6 (V15 m) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
/-- The contents region 6 leaves, read at the TensorCore's references. -/
abbrev V16 : (c : Dev nD) → (b : Ref sig .tc) → Buf (Elt F) ((c : Thread nD τ).loc b) := fun c b => W16 m c b
theorem hF6 (c : Dev nD) (w : Fin cfg6.W) : (dat6 (V15 m) c).arrAt w cfg6.N = V16 m c (Pipeline.arrRef spec6 w) :=
  (W16_arr m c w).symm
theorem hrest6 (c : Dev nD) : ∀ b, b ∉ Finset.univ.image (Pipeline.arrRef spec6) → V16 m c b = V15 m c b :=
  fun b hb => W16_of_ne m c b fun w e => hb (Finset.mem_image.mpr ⟨w, Finset.mem_univ _, e⟩)
/-- The region leaves every buffer that is no output window's array as it was: an input window's array is only read. -/
theorem W16_of (c : Dev nD) (r : Ref sig .tc) (hr : ∀ w : Fin cfg6.W, (cfg6.win w).isOut = true → Pipeline.arrRef spec6 w ≠ r) :
    W16 m c (Proc.devRef .tc r) = W15 m c (Proc.devRef .tc r) := by
  by_cases hx : ∃ w, Pipeline.arrRef spec6 w = r
  · obtain ⟨w, rfl⟩ := hx
    have hin : (cfg6.win w).isOut = false := by
      cases hb : (cfg6.win w).isOut
      · rfl
      · exact absurd rfl (hr w hb)
    exact (W16_arr m c w).trans (((dat6 (V15 m) c).arrAt_in w hin _).trans (A_eq6 (V15 m) c w))
  · exact W16_of_ne m c r fun w e => hx ⟨w, e⟩

/-- After item 16, the host stretch hostOps7. -/
abbrev W17 : Dev nD → Valuation τ sig (Elt F) := fun c => StableHlo.after hostOps7 (W16 m c)
/-- The stretch leaves every buffer it does not write as it was. -/
theorem W17_of (c : Dev nD) (r : Ref sig .tc) (hr : r ∉ GenP.hostOps7_W) :
    W17 m c (Proc.devRef .tc r) = W16 m c (Proc.devRef .tc r) :=
  StableHlo.after_of_writes_sub hostOps7 _ GenP.hostOps7_writes hr

/-- After item 17, the host stretch hostOps7_1. -/
abbrev W18 : Dev nD → Valuation τ sig (Elt F) := fun c => StableHlo.after hostOps7_1 (W17 m c)
/-- The stretch leaves every buffer it does not write as it was. -/
theorem W18_of (c : Dev nD) (r : Ref sig .tc) (hr : r ∉ GenP.hostOps7_1_W) :
    W18 m c (Proc.devRef .tc r) = W17 m c (Proc.devRef .tc r) :=
  StableHlo.after_of_writes_sub hostOps7_1 _ GenP.hostOps7_1_writes hr

/-- The contents region 7 is entered from, read at the TensorCore's references. -/
abbrev V18 : (c : Dev nD) → (b : Ref sig .tc) → Buf (Elt F) ((c : Thread nD τ).loc b) := fun c b => W18 m c b
/-- After item 18, region 7: its windows' arrays at what the pipeline leaves (an input as entered, an output with every
    write-back folded in), every other buffer as entered. -/
def W19 (c : Dev nD) : Valuation τ sig (Elt F) :=
  Pipeline.withArrays spec7 c (W18 m c) fun w => (dat7 (V18 m) c).arrAt w cfg7.N
theorem W19_arr (c : Dev nD) (w : Fin cfg7.W) :
    W19 m c (Proc.devRef .tc (Pipeline.arrRef spec7 w)) = (dat7 (V18 m) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m c (Proc.devRef .tc b) = W18 m c (Proc.devRef .tc b) := by
  unfold W19; exact Pipeline.withArrays_of_ne spec7 c _ _ b hb
/-- The contents region 7 leaves, read at the TensorCore's references. -/
abbrev V19 : (c : Dev nD) → (b : Ref sig .tc) → Buf (Elt F) ((c : Thread nD τ).loc b) := fun c b => W19 m c b
theorem hF7 (c : Dev nD) (w : Fin cfg7.W) : (dat7 (V18 m) c).arrAt w cfg7.N = V19 m c (Pipeline.arrRef spec7 w) :=
  (W19_arr m c w).symm
theorem hrest7 (c : Dev nD) : ∀ b, b ∉ Finset.univ.image (Pipeline.arrRef spec7) → V19 m c b = V18 m c b :=
  fun b hb => W19_of_ne m c b fun w e => hb (Finset.mem_image.mpr ⟨w, Finset.mem_univ _, e⟩)
/-- The region leaves every buffer that is no output window's array as it was: an input window's array is only read. -/
theorem W19_of (c : Dev nD) (r : Ref sig .tc) (hr : ∀ w : Fin cfg7.W, (cfg7.win w).isOut = true → Pipeline.arrRef spec7 w ≠ r) :
    W19 m c (Proc.devRef .tc r) = W18 m c (Proc.devRef .tc r) := by
  by_cases hx : ∃ w, Pipeline.arrRef spec7 w = r
  · obtain ⟨w, rfl⟩ := hx
    have hin : (cfg7.win w).isOut = false := by
      cases hb : (cfg7.win w).isOut
      · rfl
      · exact absurd rfl (hr w hb)
    exact (W19_arr m c w).trans (((dat7 (V18 m) c).arrAt_in w hin _).trans (A_eq7 (V18 m) c w))
  · exact W19_of_ne m c r fun w e => hx ⟨w, e⟩

/-- After item 19, the host stretch hostOps8. -/
abbrev W20 : Dev nD → Valuation τ sig (Elt F) := fun c => StableHlo.after hostOps8 (W19 m c)
/-- The stretch leaves every buffer it does not write as it was. -/
theorem W20_of (c : Dev nD) (r : Ref sig .tc) (hr : r ∉ GenP.hostOps8_W) :
    W20 m c (Proc.devRef .tc r) = W19 m c (Proc.devRef .tc r) :=
  StableHlo.after_of_writes_sub hostOps8 _ GenP.hostOps8_writes hr

/-- The contents region 8 is entered from, read at the TensorCore's references. -/
abbrev V20 : (c : Dev nD) → (b : Ref sig .tc) → Buf (Elt F) ((c : Thread nD τ).loc b) := fun c b => W20 m c b
/-- After item 20, region 8: its windows' arrays at what the pipeline leaves (an input as entered, an output with every
    write-back folded in), every other buffer as entered. -/
def W21 (c : Dev nD) : Valuation τ sig (Elt F) :=
  Pipeline.withArrays spec8 c (W20 m c) fun w => (dat8 (V20 m) c).arrAt w cfg8.N
theorem W21_arr (c : Dev nD) (w : Fin cfg8.W) :
    W21 m c (Proc.devRef .tc (Pipeline.arrRef spec8 w)) = (dat8 (V20 m) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m c (Proc.devRef .tc b) = W20 m c (Proc.devRef .tc b) := by
  unfold W21; exact Pipeline.withArrays_of_ne spec8 c _ _ b hb
/-- The contents region 8 leaves, read at the TensorCore's references. -/
abbrev V21 : (c : Dev nD) → (b : Ref sig .tc) → Buf (Elt F) ((c : Thread nD τ).loc b) := fun c b => W21 m c b
theorem hF8 (c : Dev nD) (w : Fin cfg8.W) : (dat8 (V20 m) c).arrAt w cfg8.N = V21 m c (Pipeline.arrRef spec8 w) :=
  (W21_arr m c w).symm
theorem hrest8 (c : Dev nD) : ∀ b, b ∉ Finset.univ.image (Pipeline.arrRef spec8) → V21 m c b = V20 m c b :=
  fun b hb => W21_of_ne m c b fun w e => hb (Finset.mem_image.mpr ⟨w, Finset.mem_univ _, e⟩)
/-- The region leaves every buffer that is no output window's array as it was: an input window's array is only read. -/
theorem W21_of (c : Dev nD) (r : Ref sig .tc) (hr : ∀ w : Fin cfg8.W, (cfg8.win w).isOut = true → Pipeline.arrRef spec8 w ≠ r) :
    W21 m c (Proc.devRef .tc r) = W20 m c (Proc.devRef .tc r) := by
  by_cases hx : ∃ w, Pipeline.arrRef spec8 w = r
  · obtain ⟨w, rfl⟩ := hx
    have hin : (cfg8.win w).isOut = false := by
      cases hb : (cfg8.win w).isOut
      · rfl
      · exact absurd rfl (hr w hb)
    exact (W21_arr m c w).trans (((dat8 (V20 m) c).arrAt_in w hin _).trans (A_eq8 (V20 m) c w))
  · exact W21_of_ne m c r fun w e => hx ⟨w, e⟩

/-- After item 21, the host stretch hostOps9. -/
abbrev W22 : Dev nD → Valuation τ sig (Elt F) := fun c => StableHlo.after hostOps9 (W21 m c)
/-- The stretch leaves every buffer it does not write as it was. -/
theorem W22_of (c : Dev nD) (r : Ref sig .tc) (hr : r ∉ GenP.hostOps9_W) :
    W22 m c (Proc.devRef .tc r) = W21 m c (Proc.devRef .tc r) :=
  StableHlo.after_of_writes_sub hostOps9 _ GenP.hostOps9_writes hr

/-- The contents region 9 is entered from, read at the TensorCore's references. -/
abbrev V22 : (c : Dev nD) → (b : Ref sig .tc) → Buf (Elt F) ((c : Thread nD τ).loc b) := fun c b => W22 m c b
/-- After item 22, region 9: its windows' arrays at what the pipeline leaves (an input as entered, an output with every
    write-back folded in), every other buffer as entered. -/
def W23 (c : Dev nD) : Valuation τ sig (Elt F) :=
  Pipeline.withArrays spec9 c (W22 m c) fun w => (dat9 (V22 m) c).arrAt w cfg9.N
theorem W23_arr (c : Dev nD) (w : Fin cfg9.W) :
    W23 m c (Proc.devRef .tc (Pipeline.arrRef spec9 w)) = (dat9 (V22 m) c).arrAt w cfg9.N := by
  unfold W23; exact Pipeline.withArrays_arr spec9 launch9.win.arr_inj c _ _ w
theorem W23_of_ne (c : Dev nD) (b : Ref sig .tc) (hb : ∀ w, Pipeline.arrRef spec9 w ≠ b) :
    W23 m c (Proc.devRef .tc b) = W22 m c (Proc.devRef .tc b) := by
  unfold W23; exact Pipeline.withArrays_of_ne spec9 c _ _ b hb
/-- The contents region 9 leaves, read at the TensorCore's references. -/
abbrev V23 : (c : Dev nD) → (b : Ref sig .tc) → Buf (Elt F) ((c : Thread nD τ).loc b) := fun c b => W23 m c b
theorem hF9 (c : Dev nD) (w : Fin cfg9.W) : (dat9 (V22 m) c).arrAt w cfg9.N = V23 m c (Pipeline.arrRef spec9 w) :=
  (W23_arr m c w).symm
theorem hrest9 (c : Dev nD) : ∀ b, b ∉ Finset.univ.image (Pipeline.arrRef spec9) → V23 m c b = V22 m c b :=
  fun b hb => W23_of_ne m c b fun w e => hb (Finset.mem_image.mpr ⟨w, Finset.mem_univ _, e⟩)
/-- The region leaves every buffer that is no output window's array as it was: an input window's array is only read. -/
theorem W23_of (c : Dev nD) (r : Ref sig .tc) (hr : ∀ w : Fin cfg9.W, (cfg9.win w).isOut = true → Pipeline.arrRef spec9 w ≠ r) :
    W23 m c (Proc.devRef .tc r) = W22 m c (Proc.devRef .tc r) := by
  by_cases hx : ∃ w, Pipeline.arrRef spec9 w = r
  · obtain ⟨w, rfl⟩ := hx
    have hin : (cfg9.win w).isOut = false := by
      cases hb : (cfg9.win w).isOut
      · rfl
      · exact absurd rfl (hr w hb)
    exact (W23_arr m c w).trans (((dat9 (V22 m) c).arrAt_in w hin _).trans (A_eq9 (V22 m) c w))
  · exact W23_of_ne m c r fun w e => hx ⟨w, e⟩

/-- After item 23, the host stretch hostOps10. -/
abbrev W24 : Dev nD → Valuation τ sig (Elt F) := fun c => StableHlo.after hostOps10 (W23 m c)
/-- The stretch leaves every buffer it does not write as it was. -/
theorem W24_of (c : Dev nD) (r : Ref sig .tc) (hr : r ∉ GenP.hostOps10_W) :
    W24 m c (Proc.devRef .tc r) = W23 m c (Proc.devRef .tc r) :=
  StableHlo.after_of_writes_sub hostOps10 _ GenP.hostOps10_writes hr

/-- After item 24, the host stretch hostOps10_1. -/
abbrev W25 : Dev nD → Valuation τ sig (Elt F) := fun c => StableHlo.after hostOps10_1 (W24 m c)
/-- The stretch leaves every buffer it does not write as it was. -/
theorem W25_of (c : Dev nD) (r : Ref sig .tc) (hr : r ∉ GenP.hostOps10_1_W) :
    W25 m c (Proc.devRef .tc r) = W24 m c (Proc.devRef .tc r) :=
  StableHlo.after_of_writes_sub hostOps10_1 _ GenP.hostOps10_1_writes hr

/-- The contents region 10 is entered from, read at the TensorCore's references. -/
abbrev V25 : (c : Dev nD) → (b : Ref sig .tc) → Buf (Elt F) ((c : Thread nD τ).loc b) := fun c b => W25 m c b
/-- After item 25, region 10: its windows' arrays at what the pipeline leaves (an input as entered, an output with every
    write-back folded in), every other buffer as entered. -/
def W26 (c : Dev nD) : Valuation τ sig (Elt F) :=
  Pipeline.withArrays spec10 c (W25 m c) fun w => (dat10 (V25 m) c).arrAt w cfg10.N
theorem W26_arr (c : Dev nD) (w : Fin cfg10.W) :
    W26 m c (Proc.devRef .tc (Pipeline.arrRef spec10 w)) = (dat10 (V25 m) c).arrAt w cfg10.N := by
  unfold W26; exact Pipeline.withArrays_arr spec10 launch10.win.arr_inj c _ _ w
theorem W26_of_ne (c : Dev nD) (b : Ref sig .tc) (hb : ∀ w, Pipeline.arrRef spec10 w ≠ b) :
    W26 m c (Proc.devRef .tc b) = W25 m c (Proc.devRef .tc b) := by
  unfold W26; exact Pipeline.withArrays_of_ne spec10 c _ _ b hb
/-- The contents region 10 leaves, read at the TensorCore's references. -/
abbrev V26 : (c : Dev nD) → (b : Ref sig .tc) → Buf (Elt F) ((c : Thread nD τ).loc b) := fun c b => W26 m c b
theorem hF10 (c : Dev nD) (w : Fin cfg10.W) : (dat10 (V25 m) c).arrAt w cfg10.N = V26 m c (Pipeline.arrRef spec10 w) :=
  (W26_arr m c w).symm
theorem hrest10 (c : Dev nD) : ∀ b, b ∉ Finset.univ.image (Pipeline.arrRef spec10) → V26 m c b = V25 m c b :=
  fun b hb => W26_of_ne m c b fun w e => hb (Finset.mem_image.mpr ⟨w, Finset.mem_univ _, e⟩)
/-- The region leaves every buffer that is no output window's array as it was: an input window's array is only read. -/
theorem W26_of (c : Dev nD) (r : Ref sig .tc) (hr : ∀ w : Fin cfg10.W, (cfg10.win w).isOut = true → Pipeline.arrRef spec10 w ≠ r) :
    W26 m c (Proc.devRef .tc r) = W25 m c (Proc.devRef .tc r) := by
  by_cases hx : ∃ w, Pipeline.arrRef spec10 w = r
  · obtain ⟨w, rfl⟩ := hx
    have hin : (cfg10.win w).isOut = false := by
      cases hb : (cfg10.win w).isOut
      · rfl
      · exact absurd rfl (hr w hb)
    exact (W26_arr m c w).trans (((dat10 (V25 m) c).arrAt_in w hin _).trans (A_eq10 (V25 m) c w))
  · exact W26_of_ne m c r fun w e => hx ⟨w, e⟩

/-- After item 26, the host stretch hostOps11. -/
abbrev W27 : Dev nD → Valuation τ sig (Elt F) := fun c => StableHlo.after hostOps11 (W26 m c)
/-- The stretch leaves every buffer it does not write as it was. -/
theorem W27_of (c : Dev nD) (r : Ref sig .tc) (hr : r ∉ GenP.hostOps11_W) :
    W27 m c (Proc.devRef .tc r) = W26 m c (Proc.devRef .tc r) :=
  StableHlo.after_of_writes_sub hostOps11 _ GenP.hostOps11_writes hr

/-- The contents region 11 is entered from, read at the TensorCore's references. -/
abbrev V27 : (c : Dev nD) → (b : Ref sig .tc) → Buf (Elt F) ((c : Thread nD τ).loc b) := fun c b => W27 m c b
/-- After item 27, region 11: its windows' arrays at what the pipeline leaves (an input as entered, an output with every
    write-back folded in), every other buffer as entered. -/
def W28 (c : Dev nD) : Valuation τ sig (Elt F) :=
  Pipeline.withArrays spec11 c (W27 m c) fun w => (dat11 (V27 m) c).arrAt w cfg11.N
theorem W28_arr (c : Dev nD) (w : Fin cfg11.W) :
    W28 m c (Proc.devRef .tc (Pipeline.arrRef spec11 w)) = (dat11 (V27 m) c).arrAt w cfg11.N := by
  unfold W28; exact Pipeline.withArrays_arr spec11 launch11.win.arr_inj c _ _ w
theorem W28_of_ne (c : Dev nD) (b : Ref sig .tc) (hb : ∀ w, Pipeline.arrRef spec11 w ≠ b) :
    W28 m c (Proc.devRef .tc b) = W27 m c (Proc.devRef .tc b) := by
  unfold W28; exact Pipeline.withArrays_of_ne spec11 c _ _ b hb
/-- The contents region 11 leaves, read at the TensorCore's references. -/
abbrev V28 : (c : Dev nD) → (b : Ref sig .tc) → Buf (Elt F) ((c : Thread nD τ).loc b) := fun c b => W28 m c b
theorem hF11 (c : Dev nD) (w : Fin cfg11.W) : (dat11 (V27 m) c).arrAt w cfg11.N = V28 m c (Pipeline.arrRef spec11 w) :=
  (W28_arr m c w).symm
theorem hrest11 (c : Dev nD) : ∀ b, b ∉ Finset.univ.image (Pipeline.arrRef spec11) → V28 m c b = V27 m c b :=
  fun b hb => W28_of_ne m c b fun w e => hb (Finset.mem_image.mpr ⟨w, Finset.mem_univ _, e⟩)
/-- The region leaves every buffer that is no output window's array as it was: an input window's array is only read. -/
theorem W28_of (c : Dev nD) (r : Ref sig .tc) (hr : ∀ w : Fin cfg11.W, (cfg11.win w).isOut = true → Pipeline.arrRef spec11 w ≠ r) :
    W28 m c (Proc.devRef .tc r) = W27 m c (Proc.devRef .tc r) := by
  by_cases hx : ∃ w, Pipeline.arrRef spec11 w = r
  · obtain ⟨w, rfl⟩ := hx
    have hin : (cfg11.win w).isOut = false := by
      cases hb : (cfg11.win w).isOut
      · rfl
      · exact absurd rfl (hr w hb)
    exact (W28_arr m c w).trans (((dat11 (V27 m) c).arrAt_in w hin _).trans (A_eq11 (V27 m) c w))
  · exact W28_of_ne m c r fun w e => hx ⟨w, e⟩

/-- After item 28, the host stretch hostOps12. -/
abbrev W29 : Dev nD → Valuation τ sig (Elt F) := fun c => StableHlo.after hostOps12 (W28 m c)
/-- The stretch leaves every buffer it does not write as it was. -/
theorem W29_of (c : Dev nD) (r : Ref sig .tc) (hr : r ∉ GenP.hostOps12_W) :
    W29 m c (Proc.devRef .tc r) = W28 m c (Proc.devRef .tc r) :=
  StableHlo.after_of_writes_sub hostOps12 _ GenP.hostOps12_writes hr

/-- The contents region 12 is entered from, read at the TensorCore's references. -/
abbrev V29 : (c : Dev nD) → (b : Ref sig .tc) → Buf (Elt F) ((c : Thread nD τ).loc b) := fun c b => W29 m c b
/-- After item 29, region 12: its windows' arrays at what the pipeline leaves (an input as entered, an output with every
    write-back folded in), every other buffer as entered. -/
def W30 (c : Dev nD) : Valuation τ sig (Elt F) :=
  Pipeline.withArrays spec12 c (W29 m c) fun w => (dat12 (V29 m) c).arrAt w cfg12.N
theorem W30_arr (c : Dev nD) (w : Fin cfg12.W) :
    W30 m c (Proc.devRef .tc (Pipeline.arrRef spec12 w)) = (dat12 (V29 m) c).arrAt w cfg12.N := by
  unfold W30; exact Pipeline.withArrays_arr spec12 launch12.win.arr_inj c _ _ w
theorem W30_of_ne (c : Dev nD) (b : Ref sig .tc) (hb : ∀ w, Pipeline.arrRef spec12 w ≠ b) :
    W30 m c (Proc.devRef .tc b) = W29 m c (Proc.devRef .tc b) := by
  unfold W30; exact Pipeline.withArrays_of_ne spec12 c _ _ b hb
/-- The contents region 12 leaves, read at the TensorCore's references. -/
abbrev V30 : (c : Dev nD) → (b : Ref sig .tc) → Buf (Elt F) ((c : Thread nD τ).loc b) := fun c b => W30 m c b
theorem hF12 (c : Dev nD) (w : Fin cfg12.W) : (dat12 (V29 m) c).arrAt w cfg12.N = V30 m c (Pipeline.arrRef spec12 w) :=
  (W30_arr m c w).symm
theorem hrest12 (c : Dev nD) : ∀ b, b ∉ Finset.univ.image (Pipeline.arrRef spec12) → V30 m c b = V29 m c b :=
  fun b hb => W30_of_ne m c b fun w e => hb (Finset.mem_image.mpr ⟨w, Finset.mem_univ _, e⟩)
/-- The region leaves every buffer that is no output window's array as it was: an input window's array is only read. -/
theorem W30_of (c : Dev nD) (r : Ref sig .tc) (hr : ∀ w : Fin cfg12.W, (cfg12.win w).isOut = true → Pipeline.arrRef spec12 w ≠ r) :
    W30 m c (Proc.devRef .tc r) = W29 m c (Proc.devRef .tc r) := by
  by_cases hx : ∃ w, Pipeline.arrRef spec12 w = r
  · obtain ⟨w, rfl⟩ := hx
    have hin : (cfg12.win w).isOut = false := by
      cases hb : (cfg12.win w).isOut
      · rfl
      · exact absurd rfl (hr w hb)
    exact (W30_arr m c w).trans (((dat12 (V29 m) c).arrAt_in w hin _).trans (A_eq12 (V29 m) c w))
  · exact W30_of_ne m c r fun w e => hx ⟨w, e⟩

/-- After item 30, the host stretch hostOps13. -/
abbrev W31 : Dev nD → Valuation τ sig (Elt F) := fun c => StableHlo.after hostOps13 (W30 m c)
/-- The stretch leaves every buffer it does not write as it was. -/
theorem W31_of (c : Dev nD) (r : Ref sig .tc) (hr : r ∉ GenP.hostOps13_W) :
    W31 m c (Proc.devRef .tc r) = W30 m c (Proc.devRef .tc r) :=
  StableHlo.after_of_writes_sub hostOps13 _ GenP.hostOps13_writes hr

/-- After item 31, the host stretch hostOps13_1. -/
abbrev W32 : Dev nD → Valuation τ sig (Elt F) := fun c => StableHlo.after hostOps13_1 (W31 m c)
/-- The stretch leaves every buffer it does not write as it was. -/
theorem W32_of (c : Dev nD) (r : Ref sig .tc) (hr : r ∉ GenP.hostOps13_1_W) :
    W32 m c (Proc.devRef .tc r) = W31 m c (Proc.devRef .tc r) :=
  StableHlo.after_of_writes_sub hostOps13_1 _ GenP.hostOps13_1_writes hr

/-- The contents region 13 is entered from, read at the TensorCore's references. -/
abbrev V32 : (c : Dev nD) → (b : Ref sig .tc) → Buf (Elt F) ((c : Thread nD τ).loc b) := fun c b => W32 m c b
/-- After item 32, region 13: its windows' arrays at what the pipeline leaves (an input as entered, an output with every
    write-back folded in), every other buffer as entered. -/
def W33 (c : Dev nD) : Valuation τ sig (Elt F) :=
  Pipeline.withArrays spec13 c (W32 m c) fun w => (dat13 (V32 m) c).arrAt w cfg13.N
theorem W33_arr (c : Dev nD) (w : Fin cfg13.W) :
    W33 m c (Proc.devRef .tc (Pipeline.arrRef spec13 w)) = (dat13 (V32 m) c).arrAt w cfg13.N := by
  unfold W33; exact Pipeline.withArrays_arr spec13 launch13.win.arr_inj c _ _ w
theorem W33_of_ne (c : Dev nD) (b : Ref sig .tc) (hb : ∀ w, Pipeline.arrRef spec13 w ≠ b) :
    W33 m c (Proc.devRef .tc b) = W32 m c (Proc.devRef .tc b) := by
  unfold W33; exact Pipeline.withArrays_of_ne spec13 c _ _ b hb
/-- The contents region 13 leaves, read at the TensorCore's references. -/
abbrev V33 : (c : Dev nD) → (b : Ref sig .tc) → Buf (Elt F) ((c : Thread nD τ).loc b) := fun c b => W33 m c b
theorem hF13 (c : Dev nD) (w : Fin cfg13.W) : (dat13 (V32 m) c).arrAt w cfg13.N = V33 m c (Pipeline.arrRef spec13 w) :=
  (W33_arr m c w).symm
theorem hrest13 (c : Dev nD) : ∀ b, b ∉ Finset.univ.image (Pipeline.arrRef spec13) → V33 m c b = V32 m c b :=
  fun b hb => W33_of_ne m c b fun w e => hb (Finset.mem_image.mpr ⟨w, Finset.mem_univ _, e⟩)
/-- The region leaves every buffer that is no output window's array as it was: an input window's array is only read. -/
theorem W33_of (c : Dev nD) (r : Ref sig .tc) (hr : ∀ w : Fin cfg13.W, (cfg13.win w).isOut = true → Pipeline.arrRef spec13 w ≠ r) :
    W33 m c (Proc.devRef .tc r) = W32 m c (Proc.devRef .tc r) := by
  by_cases hx : ∃ w, Pipeline.arrRef spec13 w = r
  · obtain ⟨w, rfl⟩ := hx
    have hin : (cfg13.win w).isOut = false := by
      cases hb : (cfg13.win w).isOut
      · rfl
      · exact absurd rfl (hr w hb)
    exact (W33_arr m c w).trans (((dat13 (V32 m) c).arrAt_in w hin _).trans (A_eq13 (V32 m) c w))
  · exact W33_of_ne m c r fun w e => hx ⟨w, e⟩

/-- After item 33, the host stretch hostOps14. -/
abbrev W34 : Dev nD → Valuation τ sig (Elt F) := fun c => StableHlo.after hostOps14 (W33 m c)
/-- The stretch leaves every buffer it does not write as it was. -/
theorem W34_of (c : Dev nD) (r : Ref sig .tc) (hr : r ∉ GenP.hostOps14_W) :
    W34 m c (Proc.devRef .tc r) = W33 m c (Proc.devRef .tc r) :=
  StableHlo.after_of_writes_sub hostOps14 _ GenP.hostOps14_writes hr

/-- The contents region 14 is entered from, read at the TensorCore's references. -/
abbrev V34 : (c : Dev nD) → (b : Ref sig .tc) → Buf (Elt F) ((c : Thread nD τ).loc b) := fun c b => W34 m c b
/-- After item 34, region 14: its windows' arrays at what the pipeline leaves (an input as entered, an output with every
    write-back folded in), every other buffer as entered. -/
def W35 (c : Dev nD) : Valuation τ sig (Elt F) :=
  Pipeline.withArrays spec14 c (W34 m c) fun w => (dat14 (V34 m) c).arrAt w cfg14.N
theorem W35_arr (c : Dev nD) (w : Fin cfg14.W) :
    W35 m c (Proc.devRef .tc (Pipeline.arrRef spec14 w)) = (dat14 (V34 m) c).arrAt w cfg14.N := by
  unfold W35; exact Pipeline.withArrays_arr spec14 launch14.win.arr_inj c _ _ w
theorem W35_of_ne (c : Dev nD) (b : Ref sig .tc) (hb : ∀ w, Pipeline.arrRef spec14 w ≠ b) :
    W35 m c (Proc.devRef .tc b) = W34 m c (Proc.devRef .tc b) := by
  unfold W35; exact Pipeline.withArrays_of_ne spec14 c _ _ b hb
/-- The contents region 14 leaves, read at the TensorCore's references. -/
abbrev V35 : (c : Dev nD) → (b : Ref sig .tc) → Buf (Elt F) ((c : Thread nD τ).loc b) := fun c b => W35 m c b
theorem hF14 (c : Dev nD) (w : Fin cfg14.W) : (dat14 (V34 m) c).arrAt w cfg14.N = V35 m c (Pipeline.arrRef spec14 w) :=
  (W35_arr m c w).symm
theorem hrest14 (c : Dev nD) : ∀ b, b ∉ Finset.univ.image (Pipeline.arrRef spec14) → V35 m c b = V34 m c b :=
  fun b hb => W35_of_ne m c b fun w e => hb (Finset.mem_image.mpr ⟨w, Finset.mem_univ _, e⟩)
/-- The region leaves every buffer that is no output window's array as it was: an input window's array is only read. -/
theorem W35_of (c : Dev nD) (r : Ref sig .tc) (hr : ∀ w : Fin cfg14.W, (cfg14.win w).isOut = true → Pipeline.arrRef spec14 w ≠ r) :
    W35 m c (Proc.devRef .tc r) = W34 m c (Proc.devRef .tc r) := by
  by_cases hx : ∃ w, Pipeline.arrRef spec14 w = r
  · obtain ⟨w, rfl⟩ := hx
    have hin : (cfg14.win w).isOut = false := by
      cases hb : (cfg14.win w).isOut
      · rfl
      · exact absurd rfl (hr w hb)
    exact (W35_arr m c w).trans (((dat14 (V34 m) c).arrAt_in w hin _).trans (A_eq14 (V34 m) c w))
  · exact W35_of_ne m c r fun w e => hx ⟨w, e⟩

/-- After item 35, the host stretch hostOps15. -/
abbrev W36 : Dev nD → Valuation τ sig (Elt F) := fun c => StableHlo.after hostOps15 (W35 m c)
/-- The stretch leaves every buffer it does not write as it was. -/
theorem W36_of (c : Dev nD) (r : Ref sig .tc) (hr : r ∉ GenP.hostOps15_W) :
    W36 m c (Proc.devRef .tc r) = W35 m c (Proc.devRef .tc r) :=
  StableHlo.after_of_writes_sub hostOps15 _ GenP.hostOps15_writes hr

/-- The contents region 15 is entered from, read at the TensorCore's references. -/
abbrev V36 : (c : Dev nD) → (b : Ref sig .tc) → Buf (Elt F) ((c : Thread nD τ).loc b) := fun c b => W36 m c b
/-- After item 36, region 15: its windows' arrays at what the pipeline leaves (an input as entered, an output with every
    write-back folded in), every other buffer as entered. -/
def W37 (c : Dev nD) : Valuation τ sig (Elt F) :=
  Pipeline.withArrays spec15 c (W36 m c) fun w => (dat15 (V36 m) c).arrAt w cfg15.N
theorem W37_arr (c : Dev nD) (w : Fin cfg15.W) :
    W37 m c (Proc.devRef .tc (Pipeline.arrRef spec15 w)) = (dat15 (V36 m) c).arrAt w cfg15.N := by
  unfold W37; exact Pipeline.withArrays_arr spec15 launch15.win.arr_inj c _ _ w
theorem W37_of_ne (c : Dev nD) (b : Ref sig .tc) (hb : ∀ w, Pipeline.arrRef spec15 w ≠ b) :
    W37 m c (Proc.devRef .tc b) = W36 m c (Proc.devRef .tc b) := by
  unfold W37; exact Pipeline.withArrays_of_ne spec15 c _ _ b hb
/-- The contents region 15 leaves, read at the TensorCore's references. -/
abbrev V37 : (c : Dev nD) → (b : Ref sig .tc) → Buf (Elt F) ((c : Thread nD τ).loc b) := fun c b => W37 m c b
theorem hF15 (c : Dev nD) (w : Fin cfg15.W) : (dat15 (V36 m) c).arrAt w cfg15.N = V37 m c (Pipeline.arrRef spec15 w) :=
  (W37_arr m c w).symm
theorem hrest15 (c : Dev nD) : ∀ b, b ∉ Finset.univ.image (Pipeline.arrRef spec15) → V37 m c b = V36 m c b :=
  fun b hb => W37_of_ne m c b fun w e => hb (Finset.mem_image.mpr ⟨w, Finset.mem_univ _, e⟩)
/-- The region leaves every buffer that is no output window's array as it was: an input window's array is only read. -/
theorem W37_of (c : Dev nD) (r : Ref sig .tc) (hr : ∀ w : Fin cfg15.W, (cfg15.win w).isOut = true → Pipeline.arrRef spec15 w ≠ r) :
    W37 m c (Proc.devRef .tc r) = W36 m c (Proc.devRef .tc r) := by
  by_cases hx : ∃ w, Pipeline.arrRef spec15 w = r
  · obtain ⟨w, rfl⟩ := hx
    have hin : (cfg15.win w).isOut = false := by
      cases hb : (cfg15.win w).isOut
      · rfl
      · exact absurd rfl (hr w hb)
    exact (W37_arr m c w).trans (((dat15 (V36 m) c).arrAt_in w hin _).trans (A_eq15 (V36 m) c w))
  · exact W37_of_ne m c r fun w e => hx ⟨w, e⟩

/-- After item 37, the host stretch hostOps16. -/
abbrev W38 : Dev nD → Valuation τ sig (Elt F) := fun c => StableHlo.after hostOps16 (W37 m c)
/-- The stretch leaves every buffer it does not write as it was. -/
theorem W38_of (c : Dev nD) (r : Ref sig .tc) (hr : r ∉ GenP.hostOps16_W) :
    W38 m c (Proc.devRef .tc r) = W37 m c (Proc.devRef .tc r) :=
  StableHlo.after_of_writes_sub hostOps16 _ GenP.hostOps16_writes hr

/-- After item 38, the host stretch hostOps16_1. -/
abbrev W39 : Dev nD → Valuation τ sig (Elt F) := fun c => StableHlo.after hostOps16_1 (W38 m c)
/-- The stretch leaves every buffer it does not write as it was. -/
theorem W39_of (c : Dev nD) (r : Ref sig .tc) (hr : r ∉ GenP.hostOps16_1_W) :
    W39 m c (Proc.devRef .tc r) = W38 m c (Proc.devRef .tc r) :=
  StableHlo.after_of_writes_sub hostOps16_1 _ GenP.hostOps16_1_writes hr

/-- The contents region 16 is entered from, read at the TensorCore's references. -/
abbrev V39 : (c : Dev nD) → (b : Ref sig .tc) → Buf (Elt F) ((c : Thread nD τ).loc b) := fun c b => W39 m c b
/-- After item 39, region 16: its windows' arrays at what the pipeline leaves (an input as entered, an output with every
    write-back folded in), every other buffer as entered. -/
def W40 (c : Dev nD) : Valuation τ sig (Elt F) :=
  Pipeline.withArrays spec16 c (W39 m c) fun w => (dat16 (V39 m) c).arrAt w cfg16.N
theorem W40_arr (c : Dev nD) (w : Fin cfg16.W) :
    W40 m c (Proc.devRef .tc (Pipeline.arrRef spec16 w)) = (dat16 (V39 m) c).arrAt w cfg16.N := by
  unfold W40; exact Pipeline.withArrays_arr spec16 launch16.win.arr_inj c _ _ w
theorem W40_of_ne (c : Dev nD) (b : Ref sig .tc) (hb : ∀ w, Pipeline.arrRef spec16 w ≠ b) :
    W40 m c (Proc.devRef .tc b) = W39 m c (Proc.devRef .tc b) := by
  unfold W40; exact Pipeline.withArrays_of_ne spec16 c _ _ b hb
/-- The contents region 16 leaves, read at the TensorCore's references. -/
abbrev V40 : (c : Dev nD) → (b : Ref sig .tc) → Buf (Elt F) ((c : Thread nD τ).loc b) := fun c b => W40 m c b
theorem hF16 (c : Dev nD) (w : Fin cfg16.W) : (dat16 (V39 m) c).arrAt w cfg16.N = V40 m c (Pipeline.arrRef spec16 w) :=
  (W40_arr m c w).symm
theorem hrest16 (c : Dev nD) : ∀ b, b ∉ Finset.univ.image (Pipeline.arrRef spec16) → V40 m c b = V39 m c b :=
  fun b hb => W40_of_ne m c b fun w e => hb (Finset.mem_image.mpr ⟨w, Finset.mem_univ _, e⟩)
/-- The region leaves every buffer that is no output window's array as it was: an input window's array is only read. -/
theorem W40_of (c : Dev nD) (r : Ref sig .tc) (hr : ∀ w : Fin cfg16.W, (cfg16.win w).isOut = true → Pipeline.arrRef spec16 w ≠ r) :
    W40 m c (Proc.devRef .tc r) = W39 m c (Proc.devRef .tc r) := by
  by_cases hx : ∃ w, Pipeline.arrRef spec16 w = r
  · obtain ⟨w, rfl⟩ := hx
    have hin : (cfg16.win w).isOut = false := by
      cases hb : (cfg16.win w).isOut
      · rfl
      · exact absurd rfl (hr w hb)
    exact (W40_arr m c w).trans (((dat16 (V39 m) c).arrAt_in w hin _).trans (A_eq16 (V39 m) c w))
  · exact W40_of_ne m c r fun w e => hx ⟨w, e⟩

/-- After item 40, the host stretch hostOps17. -/
abbrev W41 : Dev nD → Valuation τ sig (Elt F) := fun c => StableHlo.after hostOps17 (W40 m c)
/-- The stretch leaves every buffer it does not write as it was. -/
theorem W41_of (c : Dev nD) (r : Ref sig .tc) (hr : r ∉ GenP.hostOps17_W) :
    W41 m c (Proc.devRef .tc r) = W40 m c (Proc.devRef .tc r) :=
  StableHlo.after_of_writes_sub hostOps17 _ GenP.hostOps17_writes hr

/-- The contents region 17 is entered from, read at the TensorCore's references. -/
abbrev V41 : (c : Dev nD) → (b : Ref sig .tc) → Buf (Elt F) ((c : Thread nD τ).loc b) := fun c b => W41 m c b
/-- After item 41, region 17: its windows' arrays at what the pipeline leaves (an input as entered, an output with every
    write-back folded in), every other buffer as entered. -/
def W42 (c : Dev nD) : Valuation τ sig (Elt F) :=
  Pipeline.withArrays spec17 c (W41 m c) fun w => (dat17 (V41 m) c).arrAt w cfg17.N
theorem W42_arr (c : Dev nD) (w : Fin cfg17.W) :
    W42 m c (Proc.devRef .tc (Pipeline.arrRef spec17 w)) = (dat17 (V41 m) c).arrAt w cfg17.N := by
  unfold W42; exact Pipeline.withArrays_arr spec17 launch17.win.arr_inj c _ _ w
theorem W42_of_ne (c : Dev nD) (b : Ref sig .tc) (hb : ∀ w, Pipeline.arrRef spec17 w ≠ b) :
    W42 m c (Proc.devRef .tc b) = W41 m c (Proc.devRef .tc b) := by
  unfold W42; exact Pipeline.withArrays_of_ne spec17 c _ _ b hb
/-- The contents region 17 leaves, read at the TensorCore's references. -/
abbrev V42 : (c : Dev nD) → (b : Ref sig .tc) → Buf (Elt F) ((c : Thread nD τ).loc b) := fun c b => W42 m c b
theorem hF17 (c : Dev nD) (w : Fin cfg17.W) : (dat17 (V41 m) c).arrAt w cfg17.N = V42 m c (Pipeline.arrRef spec17 w) :=
  (W42_arr m c w).symm
theorem hrest17 (c : Dev nD) : ∀ b, b ∉ Finset.univ.image (Pipeline.arrRef spec17) → V42 m c b = V41 m c b :=
  fun b hb => W42_of_ne m c b fun w e => hb (Finset.mem_image.mpr ⟨w, Finset.mem_univ _, e⟩)
/-- The region leaves every buffer that is no output window's array as it was: an input window's array is only read. -/
theorem W42_of (c : Dev nD) (r : Ref sig .tc) (hr : ∀ w : Fin cfg17.W, (cfg17.win w).isOut = true → Pipeline.arrRef spec17 w ≠ r) :
    W42 m c (Proc.devRef .tc r) = W41 m c (Proc.devRef .tc r) := by
  by_cases hx : ∃ w, Pipeline.arrRef spec17 w = r
  · obtain ⟨w, rfl⟩ := hx
    have hin : (cfg17.win w).isOut = false := by
      cases hb : (cfg17.win w).isOut
      · rfl
      · exact absurd rfl (hr w hb)
    exact (W42_arr m c w).trans (((dat17 (V41 m) c).arrAt_in w hin _).trans (A_eq17 (V41 m) c w))
  · exact W42_of_ne m c r fun w e => hx ⟨w, e⟩

/-- After item 42, the host stretch hostOps18. -/
abbrev W43 : Dev nD → Valuation τ sig (Elt F) := fun c => StableHlo.after hostOps18 (W42 m c)
/-- The stretch leaves every buffer it does not write as it was. -/
theorem W43_of (c : Dev nD) (r : Ref sig .tc) (hr : r ∉ GenP.hostOps18_W) :
    W43 m c (Proc.devRef .tc r) = W42 m c (Proc.devRef .tc r) :=
  StableHlo.after_of_writes_sub hostOps18 _ GenP.hostOps18_writes hr

/-- The contents region 18 is entered from, read at the TensorCore's references. -/
abbrev V43 : (c : Dev nD) → (b : Ref sig .tc) → Buf (Elt F) ((c : Thread nD τ).loc b) := fun c b => W43 m c b
/-- After item 43, region 18: its windows' arrays at what the pipeline leaves (an input as entered, an output with every
    write-back folded in), every other buffer as entered. -/
def W44 (c : Dev nD) : Valuation τ sig (Elt F) :=
  Pipeline.withArrays spec18 c (W43 m c) fun w => (dat18 (V43 m) c).arrAt w cfg18.N
theorem W44_arr (c : Dev nD) (w : Fin cfg18.W) :
    W44 m c (Proc.devRef .tc (Pipeline.arrRef spec18 w)) = (dat18 (V43 m) c).arrAt w cfg18.N := by
  unfold W44; exact Pipeline.withArrays_arr spec18 launch18.win.arr_inj c _ _ w
theorem W44_of_ne (c : Dev nD) (b : Ref sig .tc) (hb : ∀ w, Pipeline.arrRef spec18 w ≠ b) :
    W44 m c (Proc.devRef .tc b) = W43 m c (Proc.devRef .tc b) := by
  unfold W44; exact Pipeline.withArrays_of_ne spec18 c _ _ b hb
/-- The contents region 18 leaves, read at the TensorCore's references. -/
abbrev V44 : (c : Dev nD) → (b : Ref sig .tc) → Buf (Elt F) ((c : Thread nD τ).loc b) := fun c b => W44 m c b
theorem hF18 (c : Dev nD) (w : Fin cfg18.W) : (dat18 (V43 m) c).arrAt w cfg18.N = V44 m c (Pipeline.arrRef spec18 w) :=
  (W44_arr m c w).symm
theorem hrest18 (c : Dev nD) : ∀ b, b ∉ Finset.univ.image (Pipeline.arrRef spec18) → V44 m c b = V43 m c b :=
  fun b hb => W44_of_ne m c b fun w e => hb (Finset.mem_image.mpr ⟨w, Finset.mem_univ _, e⟩)
/-- The region leaves every buffer that is no output window's array as it was: an input window's array is only read. -/
theorem W44_of (c : Dev nD) (r : Ref sig .tc) (hr : ∀ w : Fin cfg18.W, (cfg18.win w).isOut = true → Pipeline.arrRef spec18 w ≠ r) :
    W44 m c (Proc.devRef .tc r) = W43 m c (Proc.devRef .tc r) := by
  by_cases hx : ∃ w, Pipeline.arrRef spec18 w = r
  · obtain ⟨w, rfl⟩ := hx
    have hin : (cfg18.win w).isOut = false := by
      cases hb : (cfg18.win w).isOut
      · rfl
      · exact absurd rfl (hr w hb)
    exact (W44_arr m c w).trans (((dat18 (V43 m) c).arrAt_in w hin _).trans (A_eq18 (V43 m) c w))
  · exact W44_of_ne m c r fun w e => hx ⟨w, e⟩

/-! ## The arguments end as launched: no host stretch writes one, and a region reads one at most through an input window -/

theorem W44_main_arg0 (c : Dev nD) : W44 m c (Proc.devRef .tc main_arg0) = m ((c : Thread nD τ).loc main_arg0) :=
  (W44_of m c main_arg0 (by decide)).trans <|
  (W43_of m c main_arg0 (by decide)).trans <|
  (W42_of m c main_arg0 (by decide)).trans <|
  (W41_of m c main_arg0 (by decide)).trans <|
  (W40_of m c main_arg0 (by decide)).trans <|
  (W39_of m c main_arg0 (by decide)).trans <|
  (W38_of m c main_arg0 (by decide)).trans <|
  (W37_of m c main_arg0 (by decide)).trans <|
  (W36_of m c main_arg0 (by decide)).trans <|
  (W35_of m c main_arg0 (by decide)).trans <|
  (W34_of m c main_arg0 (by decide)).trans <|
  (W33_of m c main_arg0 (by decide)).trans <|
  (W32_of m c main_arg0 (by decide)).trans <|
  (W31_of m c main_arg0 (by decide)).trans <|
  (W30_of m c main_arg0 (by decide)).trans <|
  (W29_of m c main_arg0 (by decide)).trans <|
  (W28_of m c main_arg0 (by decide)).trans <|
  (W27_of m c main_arg0 (by decide)).trans <|
  (W26_of m c main_arg0 (by decide)).trans <|
  (W25_of m c main_arg0 (by decide)).trans <|
  (W24_of m c main_arg0 (by decide)).trans <|
  (W23_of m c main_arg0 (by decide)).trans <|
  (W22_of m c main_arg0 (by decide)).trans <|
  (W21_of m c main_arg0 (by decide)).trans <|
  (W20_of m c main_arg0 (by decide)).trans <|
  (W19_of m c main_arg0 (by decide)).trans <|
  (W18_of m c main_arg0 (by decide)).trans <|
  (W17_of m c main_arg0 (by decide)).trans <|
  (W16_of m c main_arg0 (by decide)).trans <|
  (W15_of m c main_arg0 (by decide)).trans <|
  (W14_of m c main_arg0 (by decide)).trans <|
  (W13_of m c main_arg0 (by decide)).trans <|
  (W12_of m c main_arg0 (by decide)).trans <|
  (W11_of m c main_arg0 (by decide)).trans <|
  (W10_of m c main_arg0 (by decide)).trans <|
  (W9_of m c main_arg0 (by decide)).trans <|
  (W8_of m c main_arg0 (by decide)).trans <|
  (W7_of m c main_arg0 (by decide)).trans <|
  (W6_of m c main_arg0 (by decide)).trans <|
  (W5_of m c main_arg0 (by decide)).trans <|
  (W4_of m c main_arg0 (by decide)).trans <|
  (W3_of m c main_arg0 (by decide)).trans <|
  (W2_of m c main_arg0 (by decide)).trans <|
  (W1_of m c main_arg0 (by decide)).trans rfl

theorem W44_main_arg1 (c : Dev nD) : W44 m c (Proc.devRef .tc main_arg1) = m ((c : Thread nD τ).loc main_arg1) :=
  (W44_of m c main_arg1 (by decide)).trans <|
  (W43_of m c main_arg1 (by decide)).trans <|
  (W42_of m c main_arg1 (by decide)).trans <|
  (W41_of m c main_arg1 (by decide)).trans <|
  (W40_of m c main_arg1 (by decide)).trans <|
  (W39_of m c main_arg1 (by decide)).trans <|
  (W38_of m c main_arg1 (by decide)).trans <|
  (W37_of m c main_arg1 (by decide)).trans <|
  (W36_of m c main_arg1 (by decide)).trans <|
  (W35_of m c main_arg1 (by decide)).trans <|
  (W34_of m c main_arg1 (by decide)).trans <|
  (W33_of m c main_arg1 (by decide)).trans <|
  (W32_of m c main_arg1 (by decide)).trans <|
  (W31_of m c main_arg1 (by decide)).trans <|
  (W30_of m c main_arg1 (by decide)).trans <|
  (W29_of m c main_arg1 (by decide)).trans <|
  (W28_of m c main_arg1 (by decide)).trans <|
  (W27_of m c main_arg1 (by decide)).trans <|
  (W26_of m c main_arg1 (by decide)).trans <|
  (W25_of m c main_arg1 (by decide)).trans <|
  (W24_of m c main_arg1 (by decide)).trans <|
  (W23_of m c main_arg1 (by decide)).trans <|
  (W22_of m c main_arg1 (by decide)).trans <|
  (W21_of m c main_arg1 (by decide)).trans <|
  (W20_of m c main_arg1 (by decide)).trans <|
  (W19_of m c main_arg1 (by decide)).trans <|
  (W18_of m c main_arg1 (by decide)).trans <|
  (W17_of m c main_arg1 (by decide)).trans <|
  (W16_of m c main_arg1 (by decide)).trans <|
  (W15_of m c main_arg1 (by decide)).trans <|
  (W14_of m c main_arg1 (by decide)).trans <|
  (W13_of m c main_arg1 (by decide)).trans <|
  (W12_of m c main_arg1 (by decide)).trans <|
  (W11_of m c main_arg1 (by decide)).trans <|
  (W10_of m c main_arg1 (by decide)).trans <|
  (W9_of m c main_arg1 (by decide)).trans <|
  (W8_of m c main_arg1 (by decide)).trans <|
  (W7_of m c main_arg1 (by decide)).trans <|
  (W6_of m c main_arg1 (by decide)).trans <|
  (W5_of m c main_arg1 (by decide)).trans <|
  (W4_of m c main_arg1 (by decide)).trans <|
  (W3_of m c main_arg1 (by decide)).trans <|
  (W2_of m c main_arg1 (by decide)).trans <|
  (W1_of m c main_arg1 (by decide)).trans rfl

theorem W44_main_arg2 (c : Dev nD) : W44 m c (Proc.devRef .tc main_arg2) = m ((c : Thread nD τ).loc main_arg2) :=
  (W44_of m c main_arg2 (by decide)).trans <|
  (W43_of m c main_arg2 (by decide)).trans <|
  (W42_of m c main_arg2 (by decide)).trans <|
  (W41_of m c main_arg2 (by decide)).trans <|
  (W40_of m c main_arg2 (by decide)).trans <|
  (W39_of m c main_arg2 (by decide)).trans <|
  (W38_of m c main_arg2 (by decide)).trans <|
  (W37_of m c main_arg2 (by decide)).trans <|
  (W36_of m c main_arg2 (by decide)).trans <|
  (W35_of m c main_arg2 (by decide)).trans <|
  (W34_of m c main_arg2 (by decide)).trans <|
  (W33_of m c main_arg2 (by decide)).trans <|
  (W32_of m c main_arg2 (by decide)).trans <|
  (W31_of m c main_arg2 (by decide)).trans <|
  (W30_of m c main_arg2 (by decide)).trans <|
  (W29_of m c main_arg2 (by decide)).trans <|
  (W28_of m c main_arg2 (by decide)).trans <|
  (W27_of m c main_arg2 (by decide)).trans <|
  (W26_of m c main_arg2 (by decide)).trans <|
  (W25_of m c main_arg2 (by decide)).trans <|
  (W24_of m c main_arg2 (by decide)).trans <|
  (W23_of m c main_arg2 (by decide)).trans <|
  (W22_of m c main_arg2 (by decide)).trans <|
  (W21_of m c main_arg2 (by decide)).trans <|
  (W20_of m c main_arg2 (by decide)).trans <|
  (W19_of m c main_arg2 (by decide)).trans <|
  (W18_of m c main_arg2 (by decide)).trans <|
  (W17_of m c main_arg2 (by decide)).trans <|
  (W16_of m c main_arg2 (by decide)).trans <|
  (W15_of m c main_arg2 (by decide)).trans <|
  (W14_of m c main_arg2 (by decide)).trans <|
  (W13_of m c main_arg2 (by decide)).trans <|
  (W12_of m c main_arg2 (by decide)).trans <|
  (W11_of m c main_arg2 (by decide)).trans <|
  (W10_of m c main_arg2 (by decide)).trans <|
  (W9_of m c main_arg2 (by decide)).trans <|
  (W8_of m c main_arg2 (by decide)).trans <|
  (W7_of m c main_arg2 (by decide)).trans <|
  (W6_of m c main_arg2 (by decide)).trans <|
  (W5_of m c main_arg2 (by decide)).trans <|
  (W4_of m c main_arg2 (by decide)).trans <|
  (W3_of m c main_arg2 (by decide)).trans <|
  (W2_of m c main_arg2 (by decide)).trans <|
  (W1_of m c main_arg2 (by decide)).trans rfl

theorem W44_main_arg3 (c : Dev nD) : W44 m c (Proc.devRef .tc main_arg3) = m ((c : Thread nD τ).loc main_arg3) :=
  (W44_of m c main_arg3 (by decide)).trans <|
  (W43_of m c main_arg3 (by decide)).trans <|
  (W42_of m c main_arg3 (by decide)).trans <|
  (W41_of m c main_arg3 (by decide)).trans <|
  (W40_of m c main_arg3 (by decide)).trans <|
  (W39_of m c main_arg3 (by decide)).trans <|
  (W38_of m c main_arg3 (by decide)).trans <|
  (W37_of m c main_arg3 (by decide)).trans <|
  (W36_of m c main_arg3 (by decide)).trans <|
  (W35_of m c main_arg3 (by decide)).trans <|
  (W34_of m c main_arg3 (by decide)).trans <|
  (W33_of m c main_arg3 (by decide)).trans <|
  (W32_of m c main_arg3 (by decide)).trans <|
  (W31_of m c main_arg3 (by decide)).trans <|
  (W30_of m c main_arg3 (by decide)).trans <|
  (W29_of m c main_arg3 (by decide)).trans <|
  (W28_of m c main_arg3 (by decide)).trans <|
  (W27_of m c main_arg3 (by decide)).trans <|
  (W26_of m c main_arg3 (by decide)).trans <|
  (W25_of m c main_arg3 (by decide)).trans <|
  (W24_of m c main_arg3 (by decide)).trans <|
  (W23_of m c main_arg3 (by decide)).trans <|
  (W22_of m c main_arg3 (by decide)).trans <|
  (W21_of m c main_arg3 (by decide)).trans <|
  (W20_of m c main_arg3 (by decide)).trans <|
  (W19_of m c main_arg3 (by decide)).trans <|
  (W18_of m c main_arg3 (by decide)).trans <|
  (W17_of m c main_arg3 (by decide)).trans <|
  (W16_of m c main_arg3 (by decide)).trans <|
  (W15_of m c main_arg3 (by decide)).trans <|
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl

theorem W44_main_arg4 (c : Dev nD) : W44 m c (Proc.devRef .tc main_arg4) = m ((c : Thread nD τ).loc main_arg4) :=
  (W44_of m c main_arg4 (by decide)).trans <|
  (W43_of m c main_arg4 (by decide)).trans <|
  (W42_of m c main_arg4 (by decide)).trans <|
  (W41_of m c main_arg4 (by decide)).trans <|
  (W40_of m c main_arg4 (by decide)).trans <|
  (W39_of m c main_arg4 (by decide)).trans <|
  (W38_of m c main_arg4 (by decide)).trans <|
  (W37_of m c main_arg4 (by decide)).trans <|
  (W36_of m c main_arg4 (by decide)).trans <|
  (W35_of m c main_arg4 (by decide)).trans <|
  (W34_of m c main_arg4 (by decide)).trans <|
  (W33_of m c main_arg4 (by decide)).trans <|
  (W32_of m c main_arg4 (by decide)).trans <|
  (W31_of m c main_arg4 (by decide)).trans <|
  (W30_of m c main_arg4 (by decide)).trans <|
  (W29_of m c main_arg4 (by decide)).trans <|
  (W28_of m c main_arg4 (by decide)).trans <|
  (W27_of m c main_arg4 (by decide)).trans <|
  (W26_of m c main_arg4 (by decide)).trans <|
  (W25_of m c main_arg4 (by decide)).trans <|
  (W24_of m c main_arg4 (by decide)).trans <|
  (W23_of m c main_arg4 (by decide)).trans <|
  (W22_of m c main_arg4 (by decide)).trans <|
  (W21_of m c main_arg4 (by decide)).trans <|
  (W20_of m c main_arg4 (by decide)).trans <|
  (W19_of m c main_arg4 (by decide)).trans <|
  (W18_of m c main_arg4 (by decide)).trans <|
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl

theorem W44_main_arg5 (c : Dev nD) : W44 m c (Proc.devRef .tc main_arg5) = m ((c : Thread nD τ).loc main_arg5) :=
  (W44_of m c main_arg5 (by decide)).trans <|
  (W43_of m c main_arg5 (by decide)).trans <|
  (W42_of m c main_arg5 (by decide)).trans <|
  (W41_of m c main_arg5 (by decide)).trans <|
  (W40_of m c main_arg5 (by decide)).trans <|
  (W39_of m c main_arg5 (by decide)).trans <|
  (W38_of m c main_arg5 (by decide)).trans <|
  (W37_of m c main_arg5 (by decide)).trans <|
  (W36_of m c main_arg5 (by decide)).trans <|
  (W35_of m c main_arg5 (by decide)).trans <|
  (W34_of m c main_arg5 (by decide)).trans <|
  (W33_of m c main_arg5 (by decide)).trans <|
  (W32_of m c main_arg5 (by decide)).trans <|
  (W31_of m c main_arg5 (by decide)).trans <|
  (W30_of m c main_arg5 (by decide)).trans <|
  (W29_of m c main_arg5 (by decide)).trans <|
  (W28_of m c main_arg5 (by decide)).trans <|
  (W27_of m c main_arg5 (by decide)).trans <|
  (W26_of m c main_arg5 (by decide)).trans <|
  (W25_of m c main_arg5 (by decide)).trans <|
  (W24_of m c main_arg5 (by decide)).trans <|
  (W23_of m c main_arg5 (by decide)).trans <|
  (W22_of m c main_arg5 (by decide)).trans <|
  (W21_of m c main_arg5 (by decide)).trans <|
  (W20_of m c main_arg5 (by decide)).trans <|
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl

theorem W44_main_arg6 (c : Dev nD) : W44 m c (Proc.devRef .tc main_arg6) = m ((c : Thread nD τ).loc main_arg6) :=
  (W44_of m c main_arg6 (by decide)).trans <|
  (W43_of m c main_arg6 (by decide)).trans <|
  (W42_of m c main_arg6 (by decide)).trans <|
  (W41_of m c main_arg6 (by decide)).trans <|
  (W40_of m c main_arg6 (by decide)).trans <|
  (W39_of m c main_arg6 (by decide)).trans <|
  (W38_of m c main_arg6 (by decide)).trans <|
  (W37_of m c main_arg6 (by decide)).trans <|
  (W36_of m c main_arg6 (by decide)).trans <|
  (W35_of m c main_arg6 (by decide)).trans <|
  (W34_of m c main_arg6 (by decide)).trans <|
  (W33_of m c main_arg6 (by decide)).trans <|
  (W32_of m c main_arg6 (by decide)).trans <|
  (W31_of m c main_arg6 (by decide)).trans <|
  (W30_of m c main_arg6 (by decide)).trans <|
  (W29_of m c main_arg6 (by decide)).trans <|
  (W28_of m c main_arg6 (by decide)).trans <|
  (W27_of m c main_arg6 (by decide)).trans <|
  (W26_of m c main_arg6 (by decide)).trans <|
  (W25_of m c main_arg6 (by decide)).trans <|
  (W24_of m c main_arg6 (by decide)).trans <|
  (W23_of m c main_arg6 (by decide)).trans <|
  (W22_of m c main_arg6 (by decide)).trans <|
  (W21_of m c main_arg6 (by decide)).trans <|
  (W20_of m c main_arg6 (by decide)).trans <|
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl

theorem W44_main_arg7 (c : Dev nD) : W44 m c (Proc.devRef .tc main_arg7) = m ((c : Thread nD τ).loc main_arg7) :=
  (W44_of m c main_arg7 (by decide)).trans <|
  (W43_of m c main_arg7 (by decide)).trans <|
  (W42_of m c main_arg7 (by decide)).trans <|
  (W41_of m c main_arg7 (by decide)).trans <|
  (W40_of m c main_arg7 (by decide)).trans <|
  (W39_of m c main_arg7 (by decide)).trans <|
  (W38_of m c main_arg7 (by decide)).trans <|
  (W37_of m c main_arg7 (by decide)).trans <|
  (W36_of m c main_arg7 (by decide)).trans <|
  (W35_of m c main_arg7 (by decide)).trans <|
  (W34_of m c main_arg7 (by decide)).trans <|
  (W33_of m c main_arg7 (by decide)).trans <|
  (W32_of m c main_arg7 (by decide)).trans <|
  (W31_of m c main_arg7 (by decide)).trans <|
  (W30_of m c main_arg7 (by decide)).trans <|
  (W29_of m c main_arg7 (by decide)).trans <|
  (W28_of m c main_arg7 (by decide)).trans <|
  (W27_of m c main_arg7 (by decide)).trans <|
  (W26_of m c main_arg7 (by decide)).trans <|
  (W25_of m c main_arg7 (by decide)).trans <|
  (W24_of m c main_arg7 (by decide)).trans <|
  (W23_of m c main_arg7 (by decide)).trans <|
  (W22_of m c main_arg7 (by decide)).trans <|
  (W21_of m c main_arg7 (by decide)).trans <|
  (W20_of m c main_arg7 (by decide)).trans <|
  (W19_of m c main_arg7 (by decide)).trans <|
  (W18_of m c main_arg7 (by decide)).trans <|
  (W17_of m c main_arg7 (by decide)).trans <|
  (W16_of m c main_arg7 (by decide)).trans <|
  (W15_of m c main_arg7 (by decide)).trans <|
  (W14_of m c main_arg7 (by decide)).trans <|
  (W13_of m c main_arg7 (by decide)).trans <|
  (W12_of m c main_arg7 (by decide)).trans <|
  (W11_of m c main_arg7 (by decide)).trans <|
  (W10_of m c main_arg7 (by decide)).trans <|
  (W9_of m c main_arg7 (by decide)).trans <|
  (W8_of m c main_arg7 (by decide)).trans <|
  (W7_of m c main_arg7 (by decide)).trans <|
  (W6_of m c main_arg7 (by decide)).trans <|
  (W5_of m c main_arg7 (by decide)).trans <|
  (W4_of m c main_arg7 (by decide)).trans <|
  (W3_of m c main_arg7 (by decide)).trans <|
  (W2_of m c main_arg7 (by decide)).trans <|
  (W1_of m c main_arg7 (by decide)).trans rfl

theorem W44_main_arg8 (c : Dev nD) : W44 m c (Proc.devRef .tc main_arg8) = m ((c : Thread nD τ).loc main_arg8) :=
  (W44_of m c main_arg8 (by decide)).trans <|
  (W43_of m c main_arg8 (by decide)).trans <|
  (W42_of m c main_arg8 (by decide)).trans <|
  (W41_of m c main_arg8 (by decide)).trans <|
  (W40_of m c main_arg8 (by decide)).trans <|
  (W39_of m c main_arg8 (by decide)).trans <|
  (W38_of m c main_arg8 (by decide)).trans <|
  (W37_of m c main_arg8 (by decide)).trans <|
  (W36_of m c main_arg8 (by decide)).trans <|
  (W35_of m c main_arg8 (by decide)).trans <|
  (W34_of m c main_arg8 (by decide)).trans <|
  (W33_of m c main_arg8 (by decide)).trans <|
  (W32_of m c main_arg8 (by decide)).trans <|
  (W31_of m c main_arg8 (by decide)).trans <|
  (W30_of m c main_arg8 (by decide)).trans <|
  (W29_of m c main_arg8 (by decide)).trans <|
  (W28_of m c main_arg8 (by decide)).trans <|
  (W27_of m c main_arg8 (by decide)).trans <|
  (W26_of m c main_arg8 (by decide)).trans <|
  (W25_of m c main_arg8 (by decide)).trans <|
  (W24_of m c main_arg8 (by decide)).trans <|
  (W23_of m c main_arg8 (by decide)).trans <|
  (W22_of m c main_arg8 (by decide)).trans <|
  (W21_of m c main_arg8 (by decide)).trans <|
  (W20_of m c main_arg8 (by decide)).trans <|
  (W19_of m c main_arg8 (by decide)).trans <|
  (W18_of m c main_arg8 (by decide)).trans <|
  (W17_of m c main_arg8 (by decide)).trans <|
  (W16_of m c main_arg8 (by decide)).trans <|
  (W15_of m c main_arg8 (by decide)).trans <|
  (W14_of m c main_arg8 (by decide)).trans <|
  (W13_of m c main_arg8 (by decide)).trans <|
  (W12_of m c main_arg8 (by decide)).trans <|
  (W11_of m c main_arg8 (by decide)).trans <|
  (W10_of m c main_arg8 (by decide)).trans <|
  (W9_of m c main_arg8 (by decide)).trans <|
  (W8_of m c main_arg8 (by decide)).trans <|
  (W7_of m c main_arg8 (by decide)).trans <|
  (W6_of m c main_arg8 (by decide)).trans <|
  (W5_of m c main_arg8 (by decide)).trans <|
  (W4_of m c main_arg8 (by decide)).trans <|
  (W3_of m c main_arg8 (by decide)).trans <|
  (W2_of m c main_arg8 (by decide)).trans <|
  (W1_of m c main_arg8 (by decide)).trans rfl

theorem W44_main_arg9 (c : Dev nD) : W44 m c (Proc.devRef .tc main_arg9) = m ((c : Thread nD τ).loc main_arg9) :=
  (W44_of m c main_arg9 (by decide)).trans <|
  (W43_of m c main_arg9 (by decide)).trans <|
  (W42_of m c main_arg9 (by decide)).trans <|
  (W41_of m c main_arg9 (by decide)).trans <|
  (W40_of m c main_arg9 (by decide)).trans <|
  (W39_of m c main_arg9 (by decide)).trans <|
  (W38_of m c main_arg9 (by decide)).trans <|
  (W37_of m c main_arg9 (by decide)).trans <|
  (W36_of m c main_arg9 (by decide)).trans <|
  (W35_of m c main_arg9 (by decide)).trans <|
  (W34_of m c main_arg9 (by decide)).trans <|
  (W33_of m c main_arg9 (by decide)).trans <|
  (W32_of m c main_arg9 (by decide)).trans <|
  (W31_of m c main_arg9 (by decide)).trans <|
  (W30_of m c main_arg9 (by decide)).trans <|
  (W29_of m c main_arg9 (by decide)).trans <|
  (W28_of m c main_arg9 (by decide)).trans <|
  (W27_of m c main_arg9 (by decide)).trans <|
  (W26_of m c main_arg9 (by decide)).trans <|
  (W25_of m c main_arg9 (by decide)).trans <|
  (W24_of m c main_arg9 (by decide)).trans <|
  (W23_of m c main_arg9 (by decide)).trans <|
  (W22_of m c main_arg9 (by decide)).trans <|
  (W21_of m c main_arg9 (by decide)).trans <|
  (W20_of m c main_arg9 (by decide)).trans <|
  (W19_of m c main_arg9 (by decide)).trans <|
  (W18_of m c main_arg9 (by decide)).trans <|
  (W17_of m c main_arg9 (by decide)).trans <|
  (W16_of m c main_arg9 (by decide)).trans <|
  (W15_of m c main_arg9 (by decide)).trans <|
  (W14_of m c main_arg9 (by decide)).trans <|
  (W13_of m c main_arg9 (by decide)).trans <|
  (W12_of m c main_arg9 (by decide)).trans <|
  (W11_of m c main_arg9 (by decide)).trans <|
  (W10_of m c main_arg9 (by decide)).trans <|
  (W9_of m c main_arg9 (by decide)).trans <|
  (W8_of m c main_arg9 (by decide)).trans <|
  (W7_of m c main_arg9 (by decide)).trans <|
  (W6_of m c main_arg9 (by decide)).trans <|
  (W5_of m c main_arg9 (by decide)).trans <|
  (W4_of m c main_arg9 (by decide)).trans <|
  (W3_of m c main_arg9 (by decide)).trans <|
  (W2_of m c main_arg9 (by decide)).trans <|
  (W1_of m c main_arg9 (by decide)).trans rfl

theorem W44_main_arg10 (c : Dev nD) : W44 m c (Proc.devRef .tc main_arg10) = m ((c : Thread nD τ).loc main_arg10) :=
  (W44_of m c main_arg10 (by decide)).trans <|
  (W43_of m c main_arg10 (by decide)).trans <|
  (W42_of m c main_arg10 (by decide)).trans <|
  (W41_of m c main_arg10 (by decide)).trans <|
  (W40_of m c main_arg10 (by decide)).trans <|
  (W39_of m c main_arg10 (by decide)).trans <|
  (W38_of m c main_arg10 (by decide)).trans <|
  (W37_of m c main_arg10 (by decide)).trans <|
  (W36_of m c main_arg10 (by decide)).trans <|
  (W35_of m c main_arg10 (by decide)).trans <|
  (W34_of m c main_arg10 (by decide)).trans <|
  (W33_of m c main_arg10 (by decide)).trans <|
  (W32_of m c main_arg10 (by decide)).trans <|
  (W31_of m c main_arg10 (by decide)).trans <|
  (W30_of m c main_arg10 (by decide)).trans <|
  (W29_of m c main_arg10 (by decide)).trans <|
  (W28_of m c main_arg10 (by decide)).trans <|
  (W27_of m c main_arg10 (by decide)).trans <|
  (W26_of m c main_arg10 (by decide)).trans <|
  (W25_of m c main_arg10 (by decide)).trans <|
  (W24_of m c main_arg10 (by decide)).trans <|
  (W23_of m c main_arg10 (by decide)).trans <|
  (W22_of m c main_arg10 (by decide)).trans <|
  (W21_of m c main_arg10 (by decide)).trans <|
  (W20_of m c main_arg10 (by decide)).trans <|
  (W19_of m c main_arg10 (by decide)).trans <|
  (W18_of m c main_arg10 (by decide)).trans <|
  (W17_of m c main_arg10 (by decide)).trans <|
  (W16_of m c main_arg10 (by decide)).trans <|
  (W15_of m c main_arg10 (by decide)).trans <|
  (W14_of m c main_arg10 (by decide)).trans <|
  (W13_of m c main_arg10 (by decide)).trans <|
  (W12_of m c main_arg10 (by decide)).trans <|
  (W11_of m c main_arg10 (by decide)).trans <|
  (W10_of m c main_arg10 (by decide)).trans <|
  (W9_of m c main_arg10 (by decide)).trans <|
  (W8_of m c main_arg10 (by decide)).trans <|
  (W7_of m c main_arg10 (by decide)).trans <|
  (W6_of m c main_arg10 (by decide)).trans <|
  (W5_of m c main_arg10 (by decide)).trans <|
  (W4_of m c main_arg10 (by decide)).trans <|
  (W3_of m c main_arg10 (by decide)).trans <|
  (W2_of m c main_arg10 (by decide)).trans <|
  (W1_of m c main_arg10 (by decide)).trans rfl

end Cert.KernelIdeal.Hand

end
-- ==== Proof.KI.RunRegs.lean ====
/- Each of @main's 19 kernel regions as a segment over the thread state "every unscoped buffer at the boundary's
   contents, the generator register at some state, nothing owed": the region's arrays are split out of the unscoped
   buffers at entry and put back at the exit contents. With the proof data family and the host stretches' segments. -/
import proofs.«400512_j87187836109057_1_alg».proof.Proof.KI.RunW
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- The prefetched tables' admissible contents: no pipeline has a table. -/
abbrev adm : (p : Fin 19) → (pcfgs (F := F) p).Adm := fun p => (cfgs p).toPCfg_adm
/-- Every pipeline's proof data, each at its region's entry contents: a literal match, so that the library's pinned
    configuration at a numeral reduces to the printed one. -/
def pdats : (p : Fin 19) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V8 m) c
  | ⟨4, _⟩ => fun c => dat4 (V11 m) c
  | ⟨5, _⟩ => fun c => dat5 (V13 m) c
  | ⟨6, _⟩ => fun c => dat6 (V15 m) c
  | ⟨7, _⟩ => fun c => dat7 (V18 m) c
  | ⟨8, _⟩ => fun c => dat8 (V20 m) c
  | ⟨9, _⟩ => fun c => dat9 (V22 m) c
  | ⟨10, _⟩ => fun c => dat10 (V25 m) c
  | ⟨11, _⟩ => fun c => dat11 (V27 m) c
  | ⟨12, _⟩ => fun c => dat12 (V29 m) c
  | ⟨13, _⟩ => fun c => dat13 (V32 m) c
  | ⟨14, _⟩ => fun c => dat14 (V34 m) c
  | ⟨15, _⟩ => fun c => dat15 (V36 m) c
  | ⟨16, _⟩ => fun c => dat16 (V39 m) c
  | ⟨17, _⟩ => fun c => dat17 (V41 m) c
  | ⟨18, _⟩ => fun c => dat18 (V43 m) c
  | ⟨_ + 19, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends at those
    references at the stretch's result from W, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W44 m c) ∗ ∃ r, prngReg c r)

/-! ## The regions as segments -/

-- applying a library lemma stated over the pinned configuration unifies with the printed one only when unification may
-- unfold plain definitions in a metavariable's type
set_option backward.isDefEq.respectTransparency.types false in
/-- Region 0 over the thread state: entered from every unscoped buffer at W1, left at W2. Its arrays are split out of
    the unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    isplitl [Hp]; · iexact Hp
    iexact Hr
  hout c := by
    rw [Pipeline.ownSems0_none, show (pdats m 0 c).Φ (Fin.last _) = (dat0 (V1 m) c).Φ (Fin.last cfg0.N) from rfl]
    iintro H
    ihave H' := (hout0 (V1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at W4, left at W5. Its arrays are split out of
    the unscoped buffers and put back at the exit contents; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun c t => owed1 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun w => A_eq1 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V4 m) c).Φ 0 from rfl]
    iintro ⟨Hp, -, Hr⟩
    iapply (hin1 (V4 m) c)
    isplitl [Hp]; · iexact Hp
    iexact Hr
  hout c := by
    rw [Pipeline.ownSems0_none, show (pdats m 1 c).Φ (Fin.last _) = (dat1 (V4 m) c).Φ (Fin.last cfg1.N) from rfl]
    iintro H
    ihave H' := (hout1 (V4 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at W6, left at W7. Its arrays are split out of
    the unscoped buffers and put back at the exit contents; the generator register goes into the region's invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun c t => owed2 (V6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun w => A_eq2 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V6 m) c).Φ 0 from rfl]
    iintro ⟨Hp, -, Hr⟩
    iapply (hin2 (V6 m) c)
    isplitl [Hp]; · iexact Hp
    iexact Hr
  hout c := by
    rw [Pipeline.ownSems0_none, show (pdats m 2 c).Φ (Fin.last _) = (dat2 (V6 m) c).Φ (Fin.last cfg2.N) from rfl]
    iintro H
    ihave H' := (hout2 (V6 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at W8, left at W9. Its arrays are split out of
    the unscoped buffers and put back at the exit contents; the generator register goes into the region's invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun c t => owed3 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun w => A_eq3 (V8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    iintro ⟨Hp, -, Hr⟩
    iapply (hin3 (V8 m) c)
    isplitl [Hp]; · iexact Hp
    iexact Hr
  hout c := by
    rw [Pipeline.ownSems0_none, show (pdats m 3 c).Φ (Fin.last _) = (dat3 (V8 m) c).Φ (Fin.last cfg3.N) from rfl]
    iintro H
    ihave H' := (hout3 (V8 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 4 over the thread state: entered from every unscoped buffer at W11, left at W12. Its arrays are split out of
    the unscoped buffers and put back at the exit contents; the generator register goes into the region's invariant and
    comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun c t => owed4 (V11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun w => A_eq4 (V11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V11 m) c).Φ 0 from rfl]
    iintro ⟨Hp, -, Hr⟩
    iapply (hin4 (V11 m) c)
    isplitl [Hp]; · iexact Hp
    iexact Hr
  hout c := by
    rw [Pipeline.ownSems0_none, show (pdats m 4 c).Φ (Fin.last _) = (dat4 (V11 m) c).Φ (Fin.last cfg4.N) from rfl]
    iintro H
    ihave H' := (hout4 (V11 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at W13, left at W14. Its arrays are split out of
    the unscoped buffers and put back at the exit contents; the generator register goes into the region's invariant and
    comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m) c).loose
  hwaits := Pipeline.hwaits_of_owed_zero _ _ _ _ L lv 5 fun c t => owed5 (V13 m) c t
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (V13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V13 m c) fun w => A_eq5 (V13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V13 m) c).Φ 0 from rfl]
    iintro ⟨Hp, -, Hr⟩
    iapply (hin5 (V13 m) c)
    isplitl [Hp]; · iexact Hp
    iexact Hr
  hout c := by
    rw [Pipeline.ownSems0_none, show (pdats m 5 c).Φ (Fin.last _) = (dat5 (V13 m) c).Φ (Fin.last cfg5.N) from rfl]
    iintro H
    ihave H' := (hout5 (V13 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V13 m c) (V14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at W15, left at W16. Its arrays are split out of
    the unscoped buffers and put back at the exit contents; the generator register goes into the region's invariant and
    comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V15 m) c).loose
  hwaits := Pipeline.hwaits_of_owed_zero _ _ _ _ L lv 6 fun c t => owed6 (V15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (V15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V15 m c) fun w => A_eq6 (V15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V15 m) c).Φ 0 from rfl]
    iintro ⟨Hp, -, Hr⟩
    iapply (hin6 (V15 m) c)
    isplitl [Hp]; · iexact Hp
    iexact Hr
  hout c := by
    rw [Pipeline.ownSems0_none, show (pdats m 6 c).Φ (Fin.last _) = (dat6 (V15 m) c).Φ (Fin.last cfg6.N) from rfl]
    iintro H
    ihave H' := (hout6 (V15 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V15 m c) (V16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at W18, left at W19. Its arrays are split out of
    the unscoped buffers and put back at the exit contents; the generator register goes into the region's invariant and
    comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m) c).loose
  hwaits := Pipeline.hwaits_of_owed_zero _ _ _ _ L lv 7 fun c t => owed7 (V18 m) c t
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec7 c (V18 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V18 m c) fun w => A_eq7 (V18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (V18 m) c).Φ 0 from rfl]
    iintro ⟨Hp, -, Hr⟩
    iapply (hin7 (V18 m) c)
    isplitl [Hp]; · iexact Hp
    iexact Hr
  hout c := by
    rw [Pipeline.ownSems0_none, show (pdats m 7 c).Φ (Fin.last _) = (dat7 (V18 m) c).Φ (Fin.last cfg7.N) from rfl]
    iintro H
    ihave H' := (hout7 (V18 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V18 m c) (V19 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 8 over the thread state: entered from every unscoped buffer at W20, left at W21. Its arrays are split out of
    the unscoped buffers and put back at the exit contents; the generator register goes into the region's invariant and
    comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m) c).loose
  hwaits := Pipeline.hwaits_of_owed_zero _ _ _ _ L lv 8 fun c t => owed8 (V20 m) c t
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec8 c (V20 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V20 m c) fun w => A_eq8 (V20 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (V20 m) c).Φ 0 from rfl]
    iintro ⟨Hp, -, Hr⟩
    iapply (hin8 (V20 m) c)
    isplitl [Hp]; · iexact Hp
    iexact Hr
  hout c := by
    rw [Pipeline.ownSems0_none, show (pdats m 8 c).Φ (Fin.last _) = (dat8 (V20 m) c).Φ (Fin.last cfg8.N) from rfl]
    iintro H
    ihave H' := (hout8 (V20 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V20 m c) (V21 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 9 over the thread state: entered from every unscoped buffer at W22, left at W23. Its arrays are split out of
    the unscoped buffers and put back at the exit contents; the generator register goes into the region's invariant and
    comes back; nothing is owed; the kernel has no semaphore of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V22 m) c).loose
  hwaits := Pipeline.hwaits_of_owed_zero _ _ _ _ L lv 9 fun c t => owed9 (V22 m) c t
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec9 c (V22 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V22 m c) fun w => A_eq9 (V22 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (V22 m) c).Φ 0 from rfl]
    iintro ⟨Hp, -, Hr⟩
    iapply (hin9 (V22 m) c)
    isplitl [Hp]; · iexact Hp
    iexact Hr
  hout c := by
    rw [Pipeline.ownSems0_none, show (pdats m 9 c).Φ (Fin.last _) = (dat9 (V22 m) c).Φ (Fin.last cfg9.N) from rfl]
    iintro H
    ihave H' := (hout9 (V22 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V22 m c) (V23 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 10 over the thread state: entered from every unscoped buffer at W25, left at W26. Its arrays are split out of
    the unscoped buffers and put back at the exit contents; the generator register goes into the region's invariant and
    comes back; nothing is owed; the kernel has no semaphore of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V25 m) c).loose
  hwaits := Pipeline.hwaits_of_owed_zero _ _ _ _ L lv 10 fun c t => owed10 (V25 m) c t
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (V25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V25 m c) fun w => A_eq10 (V25 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (V25 m) c).Φ 0 from rfl]
    iintro ⟨Hp, -, Hr⟩
    iapply (hin10 (V25 m) c)
    isplitl [Hp]; · iexact Hp
    iexact Hr
  hout c := by
    rw [Pipeline.ownSems0_none, show (pdats m 10 c).Φ (Fin.last _) = (dat10 (V25 m) c).Φ (Fin.last cfg10.N) from rfl]
    iintro H
    ihave H' := (hout10 (V25 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V25 m c) (V26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 11 over the thread state: entered from every unscoped buffer at W27, left at W28. Its arrays are split out of
    the unscoped buffers and put back at the exit contents; the generator register goes into the region's invariant and
    comes back; nothing is owed; the kernel has no semaphore of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V27 m) c).loose
  hwaits := Pipeline.hwaits_of_owed_zero _ _ _ _ L lv 11 fun c t => owed11 (V27 m) c t
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec11 c (V27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V27 m c) fun w => A_eq11 (V27 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (V27 m) c).Φ 0 from rfl]
    iintro ⟨Hp, -, Hr⟩
    iapply (hin11 (V27 m) c)
    isplitl [Hp]; · iexact Hp
    iexact Hr
  hout c := by
    rw [Pipeline.ownSems0_none, show (pdats m 11 c).Φ (Fin.last _) = (dat11 (V27 m) c).Φ (Fin.last cfg11.N) from rfl]
    iintro H
    ihave H' := (hout11 (V27 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V27 m c) (V28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 12 over the thread state: entered from every unscoped buffer at W29, left at W30. Its arrays are split out of
    the unscoped buffers and put back at the exit contents; the generator register goes into the region's invariant and
    comes back; nothing is owed; the kernel has no semaphore of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V29 m) c).loose
  hwaits := Pipeline.hwaits_of_owed_zero _ _ _ _ L lv 12 fun c t => owed12 (V29 m) c t
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec12 c (V29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V29 m c) fun w => A_eq12 (V29 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (V29 m) c).Φ 0 from rfl]
    iintro ⟨Hp, -, Hr⟩
    iapply (hin12 (V29 m) c)
    isplitl [Hp]; · iexact Hp
    iexact Hr
  hout c := by
    rw [Pipeline.ownSems0_none, show (pdats m 12 c).Φ (Fin.last _) = (dat12 (V29 m) c).Φ (Fin.last cfg12.N) from rfl]
    iintro H
    ihave H' := (hout12 (V29 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V29 m c) (V30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 13 over the thread state: entered from every unscoped buffer at W32, left at W33. Its arrays are split out of
    the unscoped buffers and put back at the exit contents; the generator register goes into the region's invariant and
    comes back; nothing is owed; the kernel has no semaphore of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V32 m) c).loose
  hwaits := Pipeline.hwaits_of_owed_zero _ _ _ _ L lv 13 fun c t => owed13 (V32 m) c t
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec13 c (V32 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V32 m c) fun w => A_eq13 (V32 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (V32 m) c).Φ 0 from rfl]
    iintro ⟨Hp, -, Hr⟩
    iapply (hin13 (V32 m) c)
    isplitl [Hp]; · iexact Hp
    iexact Hr
  hout c := by
    rw [Pipeline.ownSems0_none, show (pdats m 13 c).Φ (Fin.last _) = (dat13 (V32 m) c).Φ (Fin.last cfg13.N) from rfl]
    iintro H
    ihave H' := (hout13 (V32 m) c) $$ H
    icases H' with ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V32 m c) (V33 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 14 over the thread state: entered from every unscoped buffer at W34, left at W35. Its arrays are split out of
    the unscoped buffers and put back at the exit contents; the generator register goes into the region's invariant and
    comes back; nothing is owed; the kernel has no semaphore of its own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V34 m) c).loose
  hwaits := Pipeline.hwaits_of_owed_zero _ _ _ _ L lv 14 fun c t => owed14 (V34 m) c t
  pre c := iprop(StableHlo.held (c : Thread nD τ) (Pipeline.ucRefs τ sig) (W34 m c) ∗ R c)
  post c := iprop(StableHlo.held (c : Thread nD τ) (Pipeline.ucRefs τ sig) (W35 m c) ∗ R c)
  X c := iprop(∃ r, prngReg c r)
  Y c := iprop(∃ r, prngReg c r)
  Z c := Pipeline.unscopedRest (Ix := Unit) (Name := ℕ) (U := UR sig nD τ) (Lvl := ℕ) spec14 c (V34 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V34 m c) fun w => A_eq14 (V34 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = (dat14 (V34 m) c).Φ 0 from rfl]
    iintro ⟨Hp, -, Hr⟩
    iapply (hin14 (V34 m) c)
    isplitl [Hp]; · iexact Hp
    iexact Hr
  hout c := by
    rw [Pipeline.ownSems0_none, show (pdats m 14 c).Φ (Fin.last _) = (dat14 (V34 m) c).Φ (Fin.last cfg14.N) from rfl]
    iintro H
    ihave H' := (hout14 (V34 m) c) $$ H
    icases H' with ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V34 m c) (V35 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 15 over the thread state: entered from every unscoped buffer at W36, left at W37. Its arrays are split out of
    the unscoped buffers and put back at the exit contents; the generator register goes into the region's invariant and
    comes back; nothing is owed; the kernel has no semaphore of its own. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V36 m) c).loose
  hwaits := Pipeline.hwaits_of_owed_zero _ _ _ _ L lv 15 fun c t => owed15 (V36 m) c t
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec15 c (V36 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (V36 m c) fun w => A_eq15 (V36 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = (dat15 (V36 m) c).Φ 0 from rfl]
    iintro ⟨Hp, -, Hr⟩
    iapply (hin15 (V36 m) c)
    isplitl [Hp]; · iexact Hp
    iexact Hr
  hout c := by
    rw [Pipeline.ownSems0_none, show (pdats m 15 c).Φ (Fin.last _) = (dat15 (V36 m) c).Φ (Fin.last cfg15.N) from rfl]
    iintro H
    ihave H' := (hout15 (V36 m) c) $$ H
    icases H' with ⟨Hp, Hr⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (V36 m c) (V37 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 16 over the thread state: entered from every unscoped buffer at W39, left at W40. Its arrays are split out of
    the unscoped buffers and put back at the exit contents; the generator register goes into the region's invariant and
    comes back; nothing is owed; the kernel has no semaphore of its own. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V39 m) c).loose
  hwaits := Pipeline.hwaits_of_owed_zero _ _ _ _ L lv 16 fun c t => owed16 (V39 m) c t
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec16 c (V39 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (V39 m c) fun w => A_eq16 (V39 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = (dat16 (V39 m) c).Φ 0 from rfl]
    iintro ⟨Hp, -, Hr⟩
    iapply (hin16 (V39 m) c)
    isplitl [Hp]; · iexact Hp
    iexact Hr
  hout c := by
    rw [Pipeline.ownSems0_none, show (pdats m 16 c).Φ (Fin.last _) = (dat16 (V39 m) c).Φ (Fin.last cfg16.N) from rfl]
    iintro H
    ihave H' := (hout16 (V39 m) c) $$ H
    icases H' with ⟨Hp, Hr⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (V39 m c) (V40 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 17 over the thread state: entered from every unscoped buffer at W41, left at W42. Its arrays are split out of
    the unscoped buffers and put back at the exit contents; the generator register goes into the region's invariant and
    comes back; nothing is owed; the kernel has no semaphore of its own. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (V41 m) c).loose
  hwaits := Pipeline.hwaits_of_owed_zero _ _ _ _ L lv 17 fun c t => owed17 (V41 m) c t
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec17 c (V41 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (V41 m c) fun w => A_eq17 (V41 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = (dat17 (V41 m) c).Φ 0 from rfl]
    iintro ⟨Hp, -, Hr⟩
    iapply (hin17 (V41 m) c)
    isplitl [Hp]; · iexact Hp
    iexact Hr
  hout c := by
    rw [Pipeline.ownSems0_none, show (pdats m 17 c).Φ (Fin.last _) = (dat17 (V41 m) c).Φ (Fin.last cfg17.N) from rfl]
    iintro H
    ihave H' := (hout17 (V41 m) c) $$ H
    icases H' with ⟨Hp, Hr⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (V41 m c) (V42 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 18 over the thread state: entered from every unscoped buffer at W43, left at W44. Its arrays are split out of
    the unscoped buffers and put back at the exit contents; the generator register goes into the region's invariant and
    comes back; nothing is owed; the kernel has no semaphore of its own. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (V43 m) c).loose
  hwaits := Pipeline.hwaits_of_owed_zero _ _ _ _ L lv 18 fun c t => owed18 (V43 m) c t
  pre c := iprop(StableHlo.held (c : Thread nD τ) (Pipeline.ucRefs τ sig) (W43 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec18 c (V43 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (V43 m c) fun w => A_eq18 (V43 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = (dat18 (V43 m) c).Φ 0 from rfl]
    iintro ⟨Hp, -, Hr⟩
    iapply (hin18 (V43 m) c)
    isplitl [Hp]; · iexact Hp
    iexact Hr
  hout c := by
    rw [Pipeline.ownSems0_none, show (pdats m 18 c).Φ (Fin.last _) = (dat18 (V43 m) c).Φ (Fin.last cfg18.N) from rfl]
    iintro H
    ihave H' := (hout18 (V43 m) c) $$ H
    icases H' with ⟨Hp, Hr⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (V43 m c) (V44 m c) ((pdats m 18 c).arrAt · cfg18.N) (hF18 m c) (hrest18 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/- The run of @main: its 44 items as segments, the program as the run of the segments, and the launch. Every weakly
   fair execution terminates; the result buffer holds what the fold of contents says, every argument is as launched. -/
import proofs.«400512_j87187836109057_1_alg».proof.Proof.KI.RunRegs
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## @main as segments, and the launch -/

/-- @main's 44 items in order: a host segment per stretch from its boundary's contents, a region per kernel call. -/
abbrev segs : List (Pipeline.Seg (pcfgs (F := F)) adm (pdats m) () defs₀ 𝒱₀ L lv) :=
  [
    .host (hseg hostOps0 hostOps0_sub GenP.hostOps0_fresh (W0 m)),
    .region (reg0 m),
    .host (hseg hostOps1 hostOps1_sub GenP.hostOps1_fresh (W2 m)),
    .host (hseg hostOps1_1 hostOps1_1_sub GenP.hostOps1_1_fresh (W3 m)),
    .region (reg1 m),
    .host (hseg hostOps2 hostOps2_sub GenP.hostOps2_fresh (W5 m)),
    .region (reg2 m),
    .host (hseg hostOps3 hostOps3_sub GenP.hostOps3_fresh (W7 m)),
    .region (reg3 m),
    .host (hseg hostOps4 hostOps4_sub GenP.hostOps4_fresh (W9 m)),
    .host (hseg hostOps4_1 hostOps4_1_sub GenP.hostOps4_1_fresh (W10 m)),
    .region (reg4 m),
    .host (hseg hostOps5 hostOps5_sub GenP.hostOps5_fresh (W12 m)),
    .region (reg5 m),
    .host (hseg hostOps6 hostOps6_sub GenP.hostOps6_fresh (W14 m)),
    .region (reg6 m),
    .host (hseg hostOps7 hostOps7_sub GenP.hostOps7_fresh (W16 m)),
    .host (hseg hostOps7_1 hostOps7_1_sub GenP.hostOps7_1_fresh (W17 m)),
    .region (reg7 m),
    .host (hseg hostOps8 hostOps8_sub GenP.hostOps8_fresh (W19 m)),
    .region (reg8 m),
    .host (hseg hostOps9 hostOps9_sub GenP.hostOps9_fresh (W21 m)),
    .region (reg9 m),
    .host (hseg hostOps10 hostOps10_sub GenP.hostOps10_fresh (W23 m)),
    .host (hseg hostOps10_1 hostOps10_1_sub GenP.hostOps10_1_fresh (W24 m)),
    .region (reg10 m),
    .host (hseg hostOps11 hostOps11_sub GenP.hostOps11_fresh (W26 m)),
    .region (reg11 m),
    .host (hseg hostOps12 hostOps12_sub GenP.hostOps12_fresh (W28 m)),
    .region (reg12 m),
    .host (hseg hostOps13 hostOps13_sub GenP.hostOps13_fresh (W30 m)),
    .host (hseg hostOps13_1 hostOps13_1_sub GenP.hostOps13_1_fresh (W31 m)),
    .region (reg13 m),
    .host (hseg hostOps14 hostOps14_sub GenP.hostOps14_fresh (W33 m)),
    .region (reg14 m),
    .host (hseg hostOps15 hostOps15_sub GenP.hostOps15_fresh (W35 m)),
    .region (reg15 m),
    .host (hseg hostOps16 hostOps16_sub GenP.hostOps16_fresh (W37 m)),
    .host (hseg hostOps16_1 hostOps16_1_sub GenP.hostOps16_1_fresh (W38 m)),
    .region (reg16 m),
    .host (hseg hostOps17 hostOps17_sub GenP.hostOps17_fresh (W40 m)),
    .region (reg17 m),
    .host (hseg hostOps18 hostOps18_sub GenP.hostOps18_fresh (W42 m)),
    .region (reg18 m) ]

-- the launch lemma's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting; in every final state the result buffer holds what the fold of contents
    says and every argument array is as launched. -/
theorem run : θ_run defs (onTc (τ := τ) (main (F := F))) ⟨m, fun _ => 0, ρ⟩ (fun r => ∀ c : Dev nD,
      r.2.mem ((c.tc : Thread nD τ).loc main_v186) = W44 m c (Proc.devRef .tc main_v186)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          StableHlo.seq hostOps16_1,
          Prog.lift (.customCall (Pipeline.entry 16) ()),
          StableHlo.seq hostOps17,
          Prog.lift (.customCall (Pipeline.entry 17) ()),
          StableHlo.seq hostOps18,
          Prog.lift (.customCall (Pipeline.entry 18) ()) ] from rfl]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W44 m c b)
    (hfin := fun c s' => by
      iintro ⟨⟨Hh, -⟩, HSI⟩
      unfold StableHlo.held
      imodintro
      iapply (pointsTo_read_all (Pipeline.ucRefs τ sig) (fun b => (((c : Thread nD τ)).1, b)) (W44 m c) s')
      isplitl [Hh] <;> iassumption)
    (hQ := fun s h c =>
      ⟨(h c _ (mem_uc main_v186 (by decide))),
       (h c _ (mem_uc main_arg0 (by decide))).trans (W44_main_arg0 m c),
       (h c _ (mem_uc main_arg1 (by decide))).trans (W44_main_arg1 m c),
       (h c _ (mem_uc main_arg2 (by decide))).trans (W44_main_arg2 m c),
       (h c _ (mem_uc main_arg3 (by decide))).trans (W44_main_arg3 m c),
       (h c _ (mem_uc main_arg4 (by decide))).trans (W44_main_arg4 m c),
       (h c _ (mem_uc main_arg5 (by decide))).trans (W44_main_arg5 m c),
       (h c _ (mem_uc main_arg6 (by decide))).trans (W44_main_arg6 m c),
       (h c _ (mem_uc main_arg7 (by decide))).trans (W44_main_arg7 m c),
       (h c _ (mem_uc main_arg8 (by decide))).trans (W44_main_arg8 m c),
       (h c _ (mem_uc main_arg9 (by decide))).trans (W44_main_arg9 m c),
       (h c _ (mem_uc main_arg10 (by decide))).trans (W44_main_arg10 m c)⟩)

/-- info: 'Cert.KernelIdeal.Hand.run' depends on axioms: [propext, Classical.choice, Quot.sound] -/
#guard_msgs in #print axioms run

end Cert.KernelIdeal.Hand

end
-- ==== Proof.KI.GM0.lean ====
/- The closed form of region 0's output at the ideal values: the node features times the weight matrix, index by index. -/
import proofs.«400512_j87187836109057_1_alg».proof.KernelIdeal
import Idealize.ShloMosaic.PureOps.Ideal
import Idealize.ShloMosaic.Lib.ValueIdx

noncomputable section

namespace Cert.KernelIdeal.Spec

open Cert.KernelIdeal Idealize.ShloMosaic Idealize.ShloMosaic.ValueIdx
open scoped BigOperators

/-- The product of the node features with the weight matrix: entry (r, n) is the sum over k of h[r, k] * W[k, n],
    in the extended reals. -/
def G0_2 (h : FVec Ideal S100000x128 .f32) (W : FVec Ideal S128x128 .f32) : FVec Ideal S100000x128 .f32 :=
  fun i => ∑ k : Fin 128, h (ix2 (n0 := 100000) (i 0) k) * W (ix2 (n0 := 128) k (i 1))

end Cert.KernelIdeal.Spec
-- ==== Proof.KI.GS1.lean ====
/- The closed forms of region 1's three results at the ideal values (the extended reals), index by index: the pointwise
   maximum with zero of (activations + bias row), and per column its sum and the sum of its squares over all rows. -/
import proofs.«400512_j87187836109057_1_alg».proof.KernelIdeal
import Idealize.ShloMosaic.PureOps.Ideal
import Idealize.ShloMosaic.Lib.ValueIdx
import Mathlib.Algebra.BigOperators.Fin

noncomputable section

namespace Cert.KernelIdeal.Spec

open Idealize.ShloMosaic
open scoped BigOperators

/-- Row `i 0`, column `i 1`: max (agg[i] + b[0, i 1], 0). -/
def G1_2 (agg : FVec Ideal S100000x128 .f32) (b : FVec Ideal S1x128 .f32) : FVec Ideal S100000x128 .f32 :=
  fun i => max (agg i + b (ValueIdx.ix2 (n0 := 1) (n1 := 128) 0 (i 1))) 0

/-- Column `j 1`: the sum over all 100000 rows of `G1_2`, as one sum. -/
def G1_3 (agg : FVec Ideal S100000x128 .f32) (b : FVec Ideal S1x128 .f32) : FVec Ideal S1x128 .f32 :=
  fun j => ∑ r : Fin 100000, G1_2 agg b (ValueIdx.ix2 (n0 := 100000) (n1 := 128) r (j 1))

/-- Column `j 1`: the sum over all 100000 rows of the square of `G1_2`, as one sum. -/
def G1_4 (agg : FVec Ideal S100000x128 .f32) (b : FVec Ideal S1x128 .f32) : FVec Ideal S1x128 .f32 :=
  fun j => ∑ r : Fin 100000, G1_2 agg b (ValueIdx.ix2 (n0 := 100000) (n1 := 128) r (j 1)) * G1_2 agg b (ValueIdx.ix2 (n0 := 100000) (n1 := 128) r (j 1))

end Cert.KernelIdeal.Spec

end
-- ==== Proof.KI.GB2.lean ====
import proofs.«400512_j87187836109057_1_alg».proof.KernelIdeal
import Idealize.ShloMosaic.PureOps.Ideal
import Idealize.ShloMosaic.Lib.ValueIdx

/-! # The batch normalisation's result, index by index

At the extended reals: entry `(r, k)` of the normalised activations is
`((h (r, k) - mean k) * rsqrt (var k + eps)) * scale k + shift k`, the four rows read at their one row `0`. -/

noncomputable section

namespace Cert.KernelIdeal.Spec

open Idealize.ShloMosaic Idealize.ShloMosaic.ValueIdx

/-- The normalised activations: `hr` the activations (100000 rows of 128), `mean`, `var`, `gamma`, `beta` the
    per-column mean, variance, scale and shift (one row of 128 each); `eps` is the f32 word `0x3727C5AC`. -/
def G2_5 (hr : FVec Ideal S100000x128 .f32) (mean var gamma beta : FVec Ideal S1x128 .f32) : FVec Ideal S100000x128 .f32 :=
  fun i => ((hr i - mean (ix2 (n0 := 1) (n1 := 128) 0 (i 1)))
      * Ideal.rsqrt (var (ix2 (n0 := 1) (n1 := 128) 0 (i 1)) + Ideal.ofBits .f32 0x3727C5AC#32))
    * gamma (ix2 (n0 := 1) (n1 := 128) 0 (i 1)) + beta (ix2 (n0 := 1) (n1 := 128) 0 (i 1))

end Cert.KernelIdeal.Spec
-- ==== Proof.KI.GL18.lean ====
/- The value of region 18 of @main (the head: two matrix products with their biases, then the log-softmax along the last
   axis) as ONE function of the region's five input arrays, index by index, at the ideal values (extended reals). -/
import proofs.«400512_j87187836109057_1_alg».proof.KernelIdeal
import Idealize.ShloMosaic.PureOps.Ideal
import Idealize.ShloMosaic.Lib.ValueIdx

noncomputable section

namespace Cert.KernelIdeal.Spec

open Idealize.ShloMosaic Idealize.ShloMosaic.ValueIdx

/-- The word of the least value the row maximum starts from (the f32 pattern of minus infinity). -/
abbrev negInf18 : EReal := Ideal.ofBits .f32 0xFF800000#32

/-- The hidden layer at (p, j): row `p` of the pooled features times column `j` of the first weight matrix, summed
    over the 128 features, plus the first bias at `j`. -/
def hidden18 (pooled : FVec Ideal S64x128 .f32) (w1 : FVec Ideal S128x64 .f32) (b1 : FVec Ideal S1x64 .f32)
    (p : Fin 64) (j : Fin 64) : EReal :=
  (∑ k : Fin 128, pooled (ix2 p k) * w1 (ix2 k j)) + b1 (ix2 (0 : Fin 1) j)

/-- The logit at (p, q): row `p` of the hidden layer times column `q` of the second weight matrix, summed over the 64
    hidden units, plus the second bias at `q`. -/
def logit18 (pooled : FVec Ideal S64x128 .f32) (w1 : FVec Ideal S128x64 .f32) (b1 : FVec Ideal S1x64 .f32)
    (w2 : FVec Ideal S64x4 .f32) (b2 : FVec Ideal S1x4 .f32) (p : Fin 64) (q : Fin 4) : EReal :=
  (∑ j : Fin 64, hidden18 pooled w1 b1 p j * w2 (ix2 j q)) + b2 (ix2 (0 : Fin 1) q)

/-- The maximum of row `p`'s four logits, taken from minus infinity, and once more against minus infinity. -/
def rowMax18 (pooled : FVec Ideal S64x128 .f32) (w1 : FVec Ideal S128x64 .f32) (b1 : FVec Ideal S1x64 .f32)
    (w2 : FVec Ideal S64x4 .f32) (b2 : FVec Ideal S1x4 .f32) (p : Fin 64) : EReal :=
  max negInf18 ((Finset.univ : Finset (Fin 4)).fold max negInf18 fun q => logit18 pooled w1 b1 w2 b2 p q)

/-- The head's result at (p, q): the logit less its row's maximum, less the logarithm of the row's sum of the
    exponentials of the logits less the maximum. -/
def G18_5 (pooled : FVec Ideal S64x128 .f32) (w1 : FVec Ideal S128x64 .f32) (b1 : FVec Ideal S1x64 .f32)
    (w2 : FVec Ideal S64x4 .f32) (b2 : FVec Ideal S1x4 .f32) : FVec Ideal S64x4 .f32 := fun i =>
  (logit18 pooled w1 b1 w2 b2 (i 0) (i 1) - rowMax18 pooled w1 b1 w2 b2 (i 0))
    - Ideal.log (∑ q : Fin 4, Ideal.exp (logit18 pooled w1 b1 w2 b2 (i 0) q - rowMax18 pooled w1 b1 w2 b2 (i 0)))

end Cert.KernelIdeal.Spec

end
-- ==== Proof.KI.Take.lean ====
/-
  The row gather "take rows of x at the indices src", as the program prints it, and what it is when every index is in
  range.

  The printed function first normalises each index (a negative index has the table's extent 100000 added), lays the
  indices out as a column, tests that every normalised index lies in [0, 99999], gathers the rows, and replaces a row
  whose index failed the test by a row of NaN. When every index already lies in [0, 100000) the normalisation changes
  nothing, the test passes everywhere, and the result is the plain gather at the column of indices.
-/
import proofs.«400512_j87187836109057_1_alg».proof.KernelIdeal
import Idealize.ShloMosaic.PureOps.Reduce
import Idealize.ShloMosaic.Lib.Affine
import Idealize.ShloMosaic.Lib.ValueIdx

noncomputable section

namespace Cert.KernelIdeal.Hand

open Idealize.ShloMosaic Cert.KernelIdeal

variable [Facts]
open Facts₀ Facts

/-! ## A reduction by "and" of an array of ones is one -/

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l (fun n hn => h n (List.mem_cons_of_mem _ hn))

/-- A reduction by "and", from an initial value 1, of an array whose every element is 1 is 1 at every result index. -/
theorem reduce_andi_of_all {s t u : Shape} {axes : List (Fin s.rank)} (m : s.Idx → BitVec 1) (init : u.Idx → BitVec 1)
    (h : s.ReducesTo axes t) (hu : 0 < u.numel) (hinit : ∀ k, init k = 1#1) (hm : ∀ i, m i = 1#1) (j : t.Idx) :
    Host.reduce IntOp.andi m init h hu j = 1#1 := by
  rw [Host.reduce_eq_foldl, hinit]
  exact foldl_andi_one m _ (fun n _ => hm n)

/-! ## The printed terms -/

/-- The normalised indices as a column: an index below 0 has 100000 added, then the vector is laid out as 600000 × 1. -/
def normIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

section AnyInstance
variable {F : FTy → Type} [FloatOps F]

/-- The printed take: the gather at the normalised indices where the index test passes, NaN elsewhere. -/
def takeTerm (x : FVec F S100000x128 .f32) (src : IVec S600000 32) : FVec F S600000x128 .f32 :=
  select
    (broadcastInDim S600000x128 ![0] bcast_S600000_S600000x128_0
      (Host.reduce IntOp.andi
        (andi (cmpi .sge (normIdx src) (broadcastInDim S600000x1 ![] bcast_S_S600000x1 (constantI S_ 32 0#32)))
          (cmpi .sle (normIdx src)
            (broadcastInDim S600000x1 ![0, 1] bcast_S1x1_S600000x1_0_1
              (broadcastInDim S1x1 ![1] bcast_S1_S1x1_1 (constantI S1 32 99999#32)))))
        (constantI S_ 1 1#1) reducesTo_S600000x1_S600000_d1 h_S_))
    (Host.gather gather_S100000x128_S600000x1_S600000x128_1_0_n_n_0_1_1128 x (normIdx src))
    (broadcastInDim S600000x128 ![] bcast_S_S600000x128 (constant S_ .f32 0x7FC00000#32))

end AnyInstance

/-! ## In range, the normalisation is the identity and the test passes -/

/-- With every index in [0, 100000) the normalised column is the column of the indices themselves. -/
theorem normIdx_eq (src : IVec S600000 32) (h : ∀ e : S600000.Idx, 0 ≤ (src e).toInt ∧ (src e).toInt < 100000) :
    normIdx src = broadcastInDim S600000x1 ![0] bcast_S600000_S600000x1_0 src := by
  unfold normIdx
  congr 1
  funext e
  have hlt : ¬ IntOp.cmpi .slt (src e) 0#32 = 1#1 := by
    rw [IntOp.cmpi_slt, show (0#32 : BitVec 32).toInt = 0 from by decide]
    exact not_lt.2 (h e).1
  exact if_neg hlt

/-- With every index in [0, 100000) every entry of the normalised column is in [0, 99999]. -/
theorem normIdx_range (src : IVec S600000 32) (h : ∀ e : S600000.Idx, 0 ≤ (src e).toInt ∧ (src e).toInt < 100000)
    (p : S600000x1.Idx) : 0 ≤ (normIdx src p).toInt ∧ (normIdx src p).toInt ≤ 99999 := by
  rw [normIdx_eq src h]
  obtain ⟨e, he⟩ : ∃ e, broadcastInDim S600000x1 ![0] bcast_S600000_S600000x1_0 src p = src e := ⟨_, rfl⟩
  rw [he]
  have := h e
  omega

section AnyInstance
variable {F : FTy → Type} [FloatOps F]

/-- THE TAKE IN RANGE: with every index in [0, 100000) the printed take is the plain gather at the normalised column. -/
theorem takeTerm_eq (x : FVec F S100000x128 .f32) (src : IVec S600000 32)
    (h : ∀ e : S600000.Idx, 0 ≤ (src e).toInt ∧ (src e).toInt < 100000) :
    takeTerm x src = Host.gather gather_S100000x128_S600000x1_S600000x128_1_0_n_n_0_1_1128 x (normIdx src) := by
  have hmask : ∀ p : S600000x1.Idx,
      andi (cmpi .sge (normIdx src) (broadcastInDim S600000x1 ![] bcast_S_S600000x1 (constantI S_ 32 0#32)))
        (cmpi .sle (normIdx src)
          (broadcastInDim S600000x1 ![0, 1] bcast_S1x1_S600000x1_0_1
            (broadcastInDim S1x1 ![1] bcast_S1_S1x1_1 (constantI S1 32 99999#32)))) p = 1#1 := by
    intro p
    obtain ⟨h0, h1⟩ := normIdx_range src h p
    change IntOp.andi (IntOp.cmpi .sge (normIdx src p) 0#32) (IntOp.cmpi .sle (normIdx src p) 99999#32) = 1#1
    rw [IntOp.andi_eq_one, IntOp.cmpi_sge, IntOp.cmpi_sle, show (0#32 : BitVec 32).toInt = 0 from by decide,
      show (99999#32 : BitVec 32).toInt = 99999 from by decide]
    exact ⟨h0, h1⟩
  funext j
  unfold takeTerm
  rw [ValueIdx.select_apply]
  have hok : broadcastInDim S600000x128 ![0] bcast_S600000_S600000x128_0
      (Host.reduce IntOp.andi
        (andi (cmpi .sge (normIdx src) (broadcastInDim S600000x1 ![] bcast_S_S600000x1 (constantI S_ 32 0#32)))
          (cmpi .sle (normIdx src)
            (broadcastInDim S600000x1 ![0, 1] bcast_S1x1_S600000x1_0_1
              (broadcastInDim S1x1 ![1] bcast_S1_S1x1_1 (constantI S1 32 99999#32)))))
        (constantI S_ 1 1#1) reducesTo_S600000x1_S600000_d1 h_S_) j = 1#1 :=
    reduce_andi_of_all _ _ _ _ (fun _ => rfl) hmask _
  rw [hok]
  exact ValueIdx.select_one _ _

end AnyInstance

end Cert.KernelIdeal.Hand

end
-- ==== Proof.KI.KSpec.lean ====
/-
  The kernel program's result as ONE term of its eleven argument arrays, at the extended reals.

  One layer: the node features times the layer's weight matrix; the rows gathered at the edges' sources and summed into
  the edges' destinations; the bias added and the negative part cut, with the column sums and the column sums of squares;
  the column mean (the sum over 100000) and variance (the mean of squares less the square of the mean); the
  normalisation by mean, variance, scale and shift. Six layers, each with its own slice of the parameter arrays; then
  the features summed per graph, divided by the graph's node count (at least 1), and the head (two matrix products with
  biases and a log-softmax). Every host operation is spelt as the printed program spells its value function, so that
  reading a host stretch of the program yields these terms with no rewriting.
-/
import proofs.«400512_j87187836109057_1_alg».proof.KernelIdeal
import proofs.«400512_j87187836109057_1_alg».proof.Proof.KI.GM0
import proofs.«400512_j87187836109057_1_alg».proof.Proof.KI.GS1
import proofs.«400512_j87187836109057_1_alg».proof.Proof.KI.GB2
import proofs.«400512_j87187836109057_1_alg».proof.Proof.KI.GL18
import proofs.«400512_j87187836109057_1_alg».proof.Proof.KI.Take

noncomputable section

namespace Cert.KernelIdeal.Spec

open Idealize.ShloMosaic Cert.KernelIdeal Cert.KernelIdeal.Hand

variable [Facts]
open Facts₀ Facts

/-! ## The host operations between the regions of one layer -/

/-- The sum into the destinations: from an array of zeros, row e of the gathered rows is added into row dst e. -/
def kAgg (gathered : FVec Ideal S600000x128 .f32) (dst : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    gathered

/-- A column statistic (one row of 128) divided by the number of rows, 100000 (the f32 word 0x47C35000). -/
def kOverN (s : FVec Ideal S1x128 .f32) : FVec Ideal S128 .f32 :=
  Host.divf (shapeCast S128 s shapeCasts_S1x128_S128)
    (broadcastInDim S128 ![] bcast_S_S128 (constant (F := Ideal) S_ .f32 0x47C35000#32))

/-- The column variance: the mean of the squares less the square of the mean. -/
def kVar (mean ex2 : FVec Ideal S128 .f32) : FVec Ideal S128 .f32 :=
  subf ex2 (mulf mean mean)

/-- A vector of 128 laid out as one row of 128. -/
def kRow (v : FVec Ideal S128 .f32) : FVec Ideal S1x128 .f32 :=
  shapeCast S1x128 v shapeCasts_S128_S1x128

/-! ## One layer -/

/-- The normalisation of the activations hr by the column mean, the column mean of squares ex2 (both 128), the scale g
    and the shift β. -/
def kNormOf (hr : FVec Ideal S100000x128 .f32) (mean ex2 g β : FVec Ideal S128 .f32) : FVec Ideal S100000x128 .f32 :=
  G2_5 hr (kRow mean) (kRow (kVar mean ex2)) (kRow g) (kRow β)

/-- From the aggregated rows agg: the bias added and the negative part cut, the column sums and sums of squares over
    100000, and the normalisation. -/
def kNorm (agg : FVec Ideal S100000x128 .f32) (b g β : FVec Ideal S128 .f32) : FVec Ideal S100000x128 .f32 :=
  kNormOf (G1_2 agg (kRow b)) (kOverN (G1_3 agg (kRow b))) (kOverN (G1_4 agg (kRow b))) g β

/-- One layer: h the node features, W the weight matrix, b, g, β the bias, scale and shift (128 each), src and dst the
    edges' endpoints. -/
def kLayer (h : FVec Ideal S100000x128 .f32) (W : FVec Ideal S128x128 .f32) (b g β : FVec Ideal S128 .f32)
    (src dst : IVec S600000 32) : FVec Ideal S100000x128 .f32 :=
  kNorm (kAgg (takeTerm (G0_2 h W) src) dst) b g β

/-! ## The arguments' slices -/

/-- The edges' sources: row 0 of the 2 × 600000 edge array. -/
def kSrc (edge_index : IVec S2x600000 32) : IVec S600000 32 :=
  shapeCast S600000 (extractStridedSlice S1x600000 ![0, 0] edge_index slices_S2x600000_S1x600000_0_0)
    shapeCasts_S1x600000_S600000

/-- The edges' destinations: row 1 of the edge array. -/
def kDst (edge_index : IVec S2x600000 32) : IVec S600000 32 :=
  shapeCast S600000 (extractStridedSlice S1x600000 ![1, 0] edge_index slices_S2x600000_S1x600000_1_0)
    shapeCasts_S1x600000_S600000

/-- Layer 0 … 5's weight matrix: the i-th 128 × 128 slice of the 6 × 128 × 128 array. -/
def kW0 (conv_w : FVec Ideal S6x128x128 .f32) : FVec Ideal S128x128 .f32 :=
  shapeCast S128x128 (extractStridedSlice S1x128x128 ![0, 0, 0] conv_w slices_S6x128x128_S1x128x128_0_0_0)
    shapeCasts_S1x128x128_S128x128
def kW1 (conv_w : FVec Ideal S6x128x128 .f32) : FVec Ideal S128x128 .f32 :=
  shapeCast S128x128 (extractStridedSlice S1x128x128 ![1, 0, 0] conv_w slices_S6x128x128_S1x128x128_1_0_0)
    shapeCasts_S1x128x128_S128x128
def kW2 (conv_w : FVec Ideal S6x128x128 .f32) : FVec Ideal S128x128 .f32 :=
  shapeCast S128x128 (extractStridedSlice S1x128x128 ![2, 0, 0] conv_w slices_S6x128x128_S1x128x128_2_0_0)
    shapeCasts_S1x128x128_S128x128
def kW3 (conv_w : FVec Ideal S6x128x128 .f32) : FVec Ideal S128x128 .f32 :=
  shapeCast S128x128 (extractStridedSlice S1x128x128 ![3, 0, 0] conv_w slices_S6x128x128_S1x128x128_3_0_0)
    shapeCasts_S1x128x128_S128x128
def kW4 (conv_w : FVec Ideal S6x128x128 .f32) : FVec Ideal S128x128 .f32 :=
  shapeCast S128x128 (extractStridedSlice S1x128x128 ![4, 0, 0] conv_w slices_S6x128x128_S1x128x128_4_0_0)
    shapeCasts_S1x128x128_S128x128
def kW5 (conv_w : FVec Ideal S6x128x128 .f32) : FVec Ideal S128x128 .f32 :=
  shapeCast S128x128 (extractStridedSlice S1x128x128 ![5, 0, 0] conv_w slices_S6x128x128_S1x128x128_5_0_0)
    shapeCasts_S1x128x128_S128x128

/-- Layer 0 … 5's row of a 6 × 128 parameter array (bias, scale or shift), as a vector of 128. -/
def kP0 (p : FVec Ideal S6x128 .f32) : FVec Ideal S128 .f32 :=
  shapeCast S128 (extractStridedSlice S1x128 ![0, 0] p slices_S6x128_S1x128_0_0) shapeCasts_S1x128_S128
def kP1 (p : FVec Ideal S6x128 .f32) : FVec Ideal S128 .f32 :=
  shapeCast S128 (extractStridedSlice S1x128 ![1, 0] p slices_S6x128_S1x128_1_0) shapeCasts_S1x128_S128
def kP2 (p : FVec Ideal S6x128 .f32) : FVec Ideal S128 .f32 :=
  shapeCast S128 (extractStridedSlice S1x128 ![2, 0] p slices_S6x128_S1x128_2_0) shapeCasts_S1x128_S128
def kP3 (p : FVec Ideal S6x128 .f32) : FVec Ideal S128 .f32 :=
  shapeCast S128 (extractStridedSlice S1x128 ![3, 0] p slices_S6x128_S1x128_3_0) shapeCasts_S1x128_S128
def kP4 (p : FVec Ideal S6x128 .f32) : FVec Ideal S128 .f32 :=
  shapeCast S128 (extractStridedSlice S1x128 ![4, 0] p slices_S6x128_S1x128_4_0) shapeCasts_S1x128_S128
def kP5 (p : FVec Ideal S6x128 .f32) : FVec Ideal S128 .f32 :=
  shapeCast S128 (extractStridedSlice S1x128 ![5, 0] p slices_S6x128_S1x128_5_0) shapeCasts_S1x128_S128

/-! ## The pooling and the head -/

/-- The per-graph sums of the node features: from zeros, row r of h is added into row batch r of a 64 × 128 array. -/
def kPoolSum (h : FVec Ideal S100000x128 .f32) (batch : IVec S100000 32) : FVec Ideal S64x128 .f32 :=
  Host.scatterAdd scatter_S64x128_S100000x1_S100000x128_1_0_0_1
    (broadcastInDim S64x128 ![] bcast_S_S64x128 (constant (F := Ideal) S_ .f32 0x00000000#32))
    (broadcastInDim S100000x1 ![0] bcast_S100000_S100000x1_0 batch)
    h

/-- The per-graph node counts: from zeros, 1 is added at batch r for every node r; then the larger of that and 1. -/
def kPoolCnt (batch : IVec S100000 32) : FVec Ideal S64 .f32 :=
  maximumf
    (Host.scatterAdd scatter_S64_S100000x1_S100000_n_0_0_1
      (broadcastInDim S64 ![] bcast_S_S64 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S64 ![] bcast_S_S64 (constant (F := Ideal) S_ .f32 0x3F800000#32))

/-- The per-graph means: the sums divided by the counts, the count of graph p laid along row p. -/
def kPool (h : FVec Ideal S100000x128 .f32) (batch : IVec S100000 32) : FVec Ideal S64x128 .f32 :=
  Host.divf (kPoolSum h batch)
    (broadcastInDim S64x128 ![0, 1] bcast_S64x1_S64x128_0_1
      (broadcastInDim S64x1 ![0] bcast_S64_S64x1_0 (kPoolCnt batch)))

/-- The tail: the pooled features through the head, the two bias vectors laid out as rows. -/
def kTail (h : FVec Ideal S100000x128 .f32) (batch : IVec S100000 32) (lin1_w : FVec Ideal S128x64 .f32)
    (lin1_b : FVec Ideal S64 .f32) (lin2_w : FVec Ideal S64x4 .f32) (lin2_b : FVec Ideal S4 .f32) :
    FVec Ideal S64x4 .f32 :=
  G18_5 (kPool h batch) lin1_w (shapeCast S1x64 lin1_b shapeCasts_S64_S1x64) lin2_w
    (shapeCast S1x4 lin2_b shapeCasts_S4_S1x4)

/-! ## The whole program -/

/-- The node features after the six layers. -/
def kH6 (x : FVec Ideal S100000x128 .f32) (edge_index : IVec S2x600000 32) (conv_w : FVec Ideal S6x128x128 .f32)
    (conv_b bn_g bn_b : FVec Ideal S6x128 .f32) : FVec Ideal S100000x128 .f32 :=
  kLayer (kLayer (kLayer (kLayer (kLayer (kLayer x
    (kW0 conv_w) (kP0 conv_b) (kP0 bn_g) (kP0 bn_b) (kSrc edge_index) (kDst edge_index))
    (kW1 conv_w) (kP1 conv_b) (kP1 bn_g) (kP1 bn_b) (kSrc edge_index) (kDst edge_index))
    (kW2 conv_w) (kP2 conv_b) (kP2 bn_g) (kP2 bn_b) (kSrc edge_index) (kDst edge_index))
    (kW3 conv_w) (kP3 conv_b) (kP3 bn_g) (kP3 bn_b) (kSrc edge_index) (kDst edge_index))
    (kW4 conv_w) (kP4 conv_b) (kP4 bn_g) (kP4 bn_b) (kSrc edge_index) (kDst edge_index))
    (kW5 conv_w) (kP5 conv_b) (kP5 bn_g) (kP5 bn_b) (kSrc edge_index) (kDst edge_index)

/-- The program's result as one term of its eleven arguments. -/
def kOut (x : FVec Ideal S100000x128 .f32) (edge_index : IVec S2x600000 32) (batch : IVec S100000 32)
    (conv_w : FVec Ideal S6x128x128 .f32) (conv_b bn_g bn_b : FVec Ideal S6x128 .f32)
    (lin1_w : FVec Ideal S128x64 .f32) (lin1_b : FVec Ideal S64 .f32) (lin2_w : FVec Ideal S64x4 .f32)
    (lin2_b : FVec Ideal S4 .f32) : FVec Ideal S64x4 .f32 :=
  kTail (kH6 x edge_index conv_w conv_b bn_g bn_b) batch lin1_w lin1_b lin2_w lin2_b

end Cert.KernelIdeal.Spec

end
-- ==== Proof.KI.KRead.lean ====
/-
  The host stretches of the program read at a valuation V: what each buffer a region reads holds after the stretch, as a
  term of what V holds at the buffers the stretch reads. Each right-hand side is the spelling of the closed forms'
  definitions (one layer's aggregation, statistics rows and parameter rows; the pooling), so the statements chain by
  rewriting alone.
-/
import proofs.«400512_j87187836109057_1_alg».proof.Proof.KI.KSpec
import proofs.«400512_j87187836109057_1_alg».proof.Proof.Gen.KernelIdeal.Launch
import Idealize.ShloMosaic.Lib.StableHlo.Run

noncomputable section

namespace Cert.KernelIdeal.Spec

open Idealize.ShloMosaic Idealize.ShloMosaic.TcCoe Cert.KernelIdeal Cert.KernelIdeal.Hand

variable [Facts]
open Facts₀ Facts

/-- Contents sent to a typed reference's buffer and read back are the contents. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

variable (V : Valuation τ sig (Elt Ideal))

/-! ## The edges' endpoints and layer 0's weight matrix -/

theorem read0_v1 : (StableHlo.after Gen.hostOps0 V (Proc.devRef .tc main_v1) : IVec S600000 32)
    = kSrc (V (Proc.devRef .tc main_arg1)) := by
  dsimp only [Gen.hostOps0]; after_results; rfl
theorem read0_v3 : (StableHlo.after Gen.hostOps0 V (Proc.devRef .tc main_v3) : IVec S600000 32)
    = kDst (V (Proc.devRef .tc main_arg1)) := by
  dsimp only [Gen.hostOps0]; after_results; rfl
theorem read0_v5 : (StableHlo.after Gen.hostOps0 V (Proc.devRef .tc main_v5) : FVec Ideal S128x128 .f32)
    = kW0 (V (Proc.devRef .tc main_arg3)) := by
  dsimp only [Gen.hostOps0]; after_results; rfl

/-! ## Layer 0 -/

set_option maxRecDepth 16384 in
set_option maxHeartbeats 1600000 in
theorem read1_v7 : (StableHlo.after Gen.hostOps1 V (Proc.devRef .tc main_v7) : FVec Ideal S600000x128 .f32)
    = takeTerm (F := Ideal) (V (Proc.devRef .tc main_v6)) (V (Proc.devRef .tc main_v1)) := by
  dsimp only [Gen.hostOps1]; after_results_simp; simp only [ofBuf_toBuf]
  simp only [StableHlo.TRef.ofBuf, StableHlo.TRef.toBuf, cast_eq]; rfl
theorem read1_1_v10 : (StableHlo.after Gen.hostOps1_1 V (Proc.devRef .tc main_v10) : FVec Ideal S100000x128 .f32)
    = kAgg (V (Proc.devRef .tc main_v7)) (V (Proc.devRef .tc main_v3)) := by
  dsimp only [Gen.hostOps1_1]; after_results; rfl
theorem read1_1_v13 : (StableHlo.after Gen.hostOps1_1 V (Proc.devRef .tc main_v13) : FVec Ideal S1x128 .f32)
    = kRow (kP0 (V (Proc.devRef .tc main_arg4))) := by
  dsimp only [Gen.hostOps1_1]; after_results; rfl
theorem read2_v27 : (StableHlo.after Gen.hostOps2 V (Proc.devRef .tc main_v27) : FVec Ideal S1x128 .f32)
    = kRow (kOverN (V (Proc.devRef .tc main_v14_1))) := by
  dsimp only [Gen.hostOps2]; after_results; rfl
theorem read2_v28 : (StableHlo.after Gen.hostOps2 V (Proc.devRef .tc main_v28) : FVec Ideal S1x128 .f32)
    = kRow (kVar (kOverN (V (Proc.devRef .tc main_v14_1))) (kOverN (V (Proc.devRef .tc main_v14_2)))) := by
  dsimp only [Gen.hostOps2]; after_results; rfl
theorem read2_v29 : (StableHlo.after Gen.hostOps2 V (Proc.devRef .tc main_v29) : FVec Ideal S1x128 .f32)
    = kRow (kP0 (V (Proc.devRef .tc main_arg5))) := by
  dsimp only [Gen.hostOps2]; after_results; rfl
theorem read2_v30 : (StableHlo.after Gen.hostOps2 V (Proc.devRef .tc main_v30) : FVec Ideal S1x128 .f32)
    = kRow (kP0 (V (Proc.devRef .tc main_arg6))) := by
  dsimp only [Gen.hostOps2]; after_results; rfl
theorem read3_v33 : (StableHlo.after Gen.hostOps3 V (Proc.devRef .tc main_v33) : FVec Ideal S128x128 .f32)
    = kW1 (V (Proc.devRef .tc main_arg3)) := by
  dsimp only [Gen.hostOps3]; after_results; rfl

/-! ## Layer 1 -/

set_option maxRecDepth 16384 in
set_option maxHeartbeats 1600000 in
theorem read4_v35 : (StableHlo.after Gen.hostOps4 V (Proc.devRef .tc main_v35) : FVec Ideal S600000x128 .f32)
    = takeTerm (F := Ideal) (V (Proc.devRef .tc main_v34)) (V (Proc.devRef .tc main_v1)) := by
  dsimp only [Gen.hostOps4]; after_results_simp; simp only [ofBuf_toBuf]
  simp only [StableHlo.TRef.ofBuf, StableHlo.TRef.toBuf, cast_eq]; rfl
theorem read4_1_v38 : (StableHlo.after Gen.hostOps4_1 V (Proc.devRef .tc main_v38) : FVec Ideal S100000x128 .f32)
    = kAgg (V (Proc.devRef .tc main_v35)) (V (Proc.devRef .tc main_v3)) := by
  dsimp only [Gen.hostOps4_1]; after_results; rfl
theorem read4_1_v41 : (StableHlo.after Gen.hostOps4_1 V (Proc.devRef .tc main_v41) : FVec Ideal S1x128 .f32)
    = kRow (kP1 (V (Proc.devRef .tc main_arg4))) := by
  dsimp only [Gen.hostOps4_1]; after_results; rfl
theorem read5_v55 : (StableHlo.after Gen.hostOps5 V (Proc.devRef .tc main_v55) : FVec Ideal S1x128 .f32)
    = kRow (kOverN (V (Proc.devRef .tc main_v42_1))) := by
  dsimp only [Gen.hostOps5]; after_results; rfl
theorem read5_v56 : (StableHlo.after Gen.hostOps5 V (Proc.devRef .tc main_v56) : FVec Ideal S1x128 .f32)
    = kRow (kVar (kOverN (V (Proc.devRef .tc main_v42_1))) (kOverN (V (Proc.devRef .tc main_v42_2)))) := by
  dsimp only [Gen.hostOps5]; after_results; rfl
theorem read5_v57 : (StableHlo.after Gen.hostOps5 V (Proc.devRef .tc main_v57) : FVec Ideal S1x128 .f32)
    = kRow (kP1 (V (Proc.devRef .tc main_arg5))) := by
  dsimp only [Gen.hostOps5]; after_results; rfl
theorem read5_v58 : (StableHlo.after Gen.hostOps5 V (Proc.devRef .tc main_v58) : FVec Ideal S1x128 .f32)
    = kRow (kP1 (V (Proc.devRef .tc main_arg6))) := by
  dsimp only [Gen.hostOps5]; after_results; rfl
theorem read6_v61 : (StableHlo.after Gen.hostOps6 V (Proc.devRef .tc main_v61) : FVec Ideal S128x128 .f32)
    = kW2 (V (Proc.devRef .tc main_arg3)) := by
  dsimp only [Gen.hostOps6]; after_results; rfl

/-! ## Layer 2 -/

set_option maxRecDepth 16384 in
set_option maxHeartbeats 1600000 in
theorem read7_v63 : (StableHlo.after Gen.hostOps7 V (Proc.devRef .tc main_v63) : FVec Ideal S600000x128 .f32)
    = takeTerm (F := Ideal) (V (Proc.devRef .tc main_v62)) (V (Proc.devRef .tc main_v1)) := by
  dsimp only [Gen.hostOps7]; after_results_simp; simp only [ofBuf_toBuf]
  simp only [StableHlo.TRef.ofBuf, StableHlo.TRef.toBuf, cast_eq]; rfl
theorem read7_1_v66 : (StableHlo.after Gen.hostOps7_1 V (Proc.devRef .tc main_v66) : FVec Ideal S100000x128 .f32)
    = kAgg (V (Proc.devRef .tc main_v63)) (V (Proc.devRef .tc main_v3)) := by
  dsimp only [Gen.hostOps7_1]; after_results; rfl
theorem read7_1_v69 : (StableHlo.after Gen.hostOps7_1 V (Proc.devRef .tc main_v69) : FVec Ideal S1x128 .f32)
    = kRow (kP2 (V (Proc.devRef .tc main_arg4))) := by
  dsimp only [Gen.hostOps7_1]; after_results; rfl
theorem read8_v83 : (StableHlo.after Gen.hostOps8 V (Proc.devRef .tc main_v83) : FVec Ideal S1x128 .f32)
    = kRow (kOverN (V (Proc.devRef .tc main_v70_1))) := by
  dsimp only [Gen.hostOps8]; after_results; rfl
theorem read8_v84 : (StableHlo.after Gen.hostOps8 V (Proc.devRef .tc main_v84) : FVec Ideal S1x128 .f32)
    = kRow (kVar (kOverN (V (Proc.devRef .tc main_v70_1))) (kOverN (V (Proc.devRef .tc main_v70_2)))) := by
  dsimp only [Gen.hostOps8]; after_results; rfl
theorem read8_v85 : (StableHlo.after Gen.hostOps8 V (Proc.devRef .tc main_v85) : FVec Ideal S1x128 .f32)
    = kRow (kP2 (V (Proc.devRef .tc main_arg5))) := by
  dsimp only [Gen.hostOps8]; after_results; rfl
theorem read8_v86 : (StableHlo.after Gen.hostOps8 V (Proc.devRef .tc main_v86) : FVec Ideal S1x128 .f32)
    = kRow (kP2 (V (Proc.devRef .tc main_arg6))) := by
  dsimp only [Gen.hostOps8]; after_results; rfl
theorem read9_v89 : (StableHlo.after Gen.hostOps9 V (Proc.devRef .tc main_v89) : FVec Ideal S128x128 .f32)
    = kW3 (V (Proc.devRef .tc main_arg3)) := by
  dsimp only [Gen.hostOps9]; after_results; rfl

/-! ## Layer 3 -/

set_option maxRecDepth 16384 in
set_option maxHeartbeats 1600000 in
theorem read10_v91 : (StableHlo.after Gen.hostOps10 V (Proc.devRef .tc main_v91) : FVec Ideal S600000x128 .f32)
    = takeTerm (F := Ideal) (V (Proc.devRef .tc main_v90)) (V (Proc.devRef .tc main_v1)) := by
  dsimp only [Gen.hostOps10]; after_results_simp; simp only [ofBuf_toBuf]
  simp only [StableHlo.TRef.ofBuf, StableHlo.TRef.toBuf, cast_eq]; rfl
theorem read10_1_v94 : (StableHlo.after Gen.hostOps10_1 V (Proc.devRef .tc main_v94) : FVec Ideal S100000x128 .f32)
    = kAgg (V (Proc.devRef .tc main_v91)) (V (Proc.devRef .tc main_v3)) := by
  dsimp only [Gen.hostOps10_1]; after_results; rfl
theorem read10_1_v97 : (StableHlo.after Gen.hostOps10_1 V (Proc.devRef .tc main_v97) : FVec Ideal S1x128 .f32)
    = kRow (kP3 (V (Proc.devRef .tc main_arg4))) := by
  dsimp only [Gen.hostOps10_1]; after_results; rfl
theorem read11_v111 : (StableHlo.after Gen.hostOps11 V (Proc.devRef .tc main_v111) : FVec Ideal S1x128 .f32)
    = kRow (kOverN (V (Proc.devRef .tc main_v98_1))) := by
  dsimp only [Gen.hostOps11]; after_results; rfl
theorem read11_v112 : (StableHlo.after Gen.hostOps11 V (Proc.devRef .tc main_v112) : FVec Ideal S1x128 .f32)
    = kRow (kVar (kOverN (V (Proc.devRef .tc main_v98_1))) (kOverN (V (Proc.devRef .tc main_v98_2)))) := by
  dsimp only [Gen.hostOps11]; after_results; rfl
theorem read11_v113 : (StableHlo.after Gen.hostOps11 V (Proc.devRef .tc main_v113) : FVec Ideal S1x128 .f32)
    = kRow (kP3 (V (Proc.devRef .tc main_arg5))) := by
  dsimp only [Gen.hostOps11]; after_results; rfl
theorem read11_v114 : (StableHlo.after Gen.hostOps11 V (Proc.devRef .tc main_v114) : FVec Ideal S1x128 .f32)
    = kRow (kP3 (V (Proc.devRef .tc main_arg6))) := by
  dsimp only [Gen.hostOps11]; after_results; rfl
theorem read12_v117 : (StableHlo.after Gen.hostOps12 V (Proc.devRef .tc main_v117) : FVec Ideal S128x128 .f32)
    = kW4 (V (Proc.devRef .tc main_arg3)) := by
  dsimp only [Gen.hostOps12]; after_results; rfl

/-! ## Layer 4 -/

set_option maxRecDepth 16384 in
set_option maxHeartbeats 1600000 in
theorem read13_v119 : (StableHlo.after Gen.hostOps13 V (Proc.devRef .tc main_v119) : FVec Ideal S600000x128 .f32)
    = takeTerm (F := Ideal) (V (Proc.devRef .tc main_v118)) (V (Proc.devRef .tc main_v1)) := by
  dsimp only [Gen.hostOps13]; after_results_simp; simp only [ofBuf_toBuf]
  simp only [StableHlo.TRef.ofBuf, StableHlo.TRef.toBuf, cast_eq]; rfl
theorem read13_1_v122 : (StableHlo.after Gen.hostOps13_1 V (Proc.devRef .tc main_v122) : FVec Ideal S100000x128 .f32)
    = kAgg (V (Proc.devRef .tc main_v119)) (V (Proc.devRef .tc main_v3)) := by
  dsimp only [Gen.hostOps13_1]; after_results; rfl
theorem read13_1_v125 : (StableHlo.after Gen.hostOps13_1 V (Proc.devRef .tc main_v125) : FVec Ideal S1x128 .f32)
    = kRow (kP4 (V (Proc.devRef .tc main_arg4))) := by
  dsimp only [Gen.hostOps13_1]; after_results; rfl
theorem read14_v139 : (StableHlo.after Gen.hostOps14 V (Proc.devRef .tc main_v139) : FVec Ideal S1x128 .f32)
    = kRow (kOverN (V (Proc.devRef .tc main_v126_1))) := by
  dsimp only [Gen.hostOps14]; after_results; rfl
theorem read14_v140 : (StableHlo.after Gen.hostOps14 V (Proc.devRef .tc main_v140) : FVec Ideal S1x128 .f32)
    = kRow (kVar (kOverN (V (Proc.devRef .tc main_v126_1))) (kOverN (V (Proc.devRef .tc main_v126_2)))) := by
  dsimp only [Gen.hostOps14]; after_results; rfl
theorem read14_v141 : (StableHlo.after Gen.hostOps14 V (Proc.devRef .tc main_v141) : FVec Ideal S1x128 .f32)
    = kRow (kP4 (V (Proc.devRef .tc main_arg5))) := by
  dsimp only [Gen.hostOps14]; after_results; rfl
theorem read14_v142 : (StableHlo.after Gen.hostOps14 V (Proc.devRef .tc main_v142) : FVec Ideal S1x128 .f32)
    = kRow (kP4 (V (Proc.devRef .tc main_arg6))) := by
  dsimp only [Gen.hostOps14]; after_results; rfl
theorem read15_v145 : (StableHlo.after Gen.hostOps15 V (Proc.devRef .tc main_v145) : FVec Ideal S128x128 .f32)
    = kW5 (V (Proc.devRef .tc main_arg3)) := by
  dsimp only [Gen.hostOps15]; after_results; rfl

/-! ## Layer 5 -/

set_option maxRecDepth 16384 in
set_option maxHeartbeats 1600000 in
theorem read16_v147 : (StableHlo.after Gen.hostOps16 V (Proc.devRef .tc main_v147) : FVec Ideal S600000x128 .f32)
    = takeTerm (F := Ideal) (V (Proc.devRef .tc main_v146)) (V (Proc.devRef .tc main_v1)) := by
  dsimp only [Gen.hostOps16]; after_results_simp; simp only [ofBuf_toBuf]
  simp only [StableHlo.TRef.ofBuf, StableHlo.TRef.toBuf, cast_eq]; rfl
theorem read16_1_v150 : (StableHlo.after Gen.hostOps16_1 V (Proc.devRef .tc main_v150) : FVec Ideal S100000x128 .f32)
    = kAgg (V (Proc.devRef .tc main_v147)) (V (Proc.devRef .tc main_v3)) := by
  dsimp only [Gen.hostOps16_1]; after_results; rfl
theorem read16_1_v153 : (StableHlo.after Gen.hostOps16_1 V (Proc.devRef .tc main_v153) : FVec Ideal S1x128 .f32)
    = kRow (kP5 (V (Proc.devRef .tc main_arg4))) := by
  dsimp only [Gen.hostOps16_1]; after_results; rfl
theorem read17_v167 : (StableHlo.after Gen.hostOps17 V (Proc.devRef .tc main_v167) : FVec Ideal S1x128 .f32)
    = kRow (kOverN (V (Proc.devRef .tc main_v154_1))) := by
  dsimp only [Gen.hostOps17]; after_results; rfl
theorem read17_v168 : (StableHlo.after Gen.hostOps17 V (Proc.devRef .tc main_v168) : FVec Ideal S1x128 .f32)
    = kRow (kVar (kOverN (V (Proc.devRef .tc main_v154_1))) (kOverN (V (Proc.devRef .tc main_v154_2)))) := by
  dsimp only [Gen.hostOps17]; after_results; rfl
theorem read17_v169 : (StableHlo.after Gen.hostOps17 V (Proc.devRef .tc main_v169) : FVec Ideal S1x128 .f32)
    = kRow (kP5 (V (Proc.devRef .tc main_arg5))) := by
  dsimp only [Gen.hostOps17]; after_results; rfl
theorem read17_v170 : (StableHlo.after Gen.hostOps17 V (Proc.devRef .tc main_v170) : FVec Ideal S1x128 .f32)
    = kRow (kP5 (V (Proc.devRef .tc main_arg6))) := by
  dsimp only [Gen.hostOps17]; after_results; rfl

/-! ## The pooling and the head's bias rows -/

theorem read18_v183 : (StableHlo.after Gen.hostOps18 V (Proc.devRef .tc main_v183) : FVec Ideal S64x128 .f32)
    = kPool (V (Proc.devRef .tc main_v171)) (V (Proc.devRef .tc main_arg2)) := by
  dsimp only [Gen.hostOps18]; after_results; rfl
theorem read18_v184 : (StableHlo.after Gen.hostOps18 V (Proc.devRef .tc main_v184) : FVec Ideal S1x64 .f32)
    = shapeCast S1x64 (V (Proc.devRef .tc main_arg8)) Facts₀.shapeCasts_S64_S1x64 := by
  dsimp only [Gen.hostOps18]; after_results; rfl
theorem read18_v185 : (StableHlo.after Gen.hostOps18 V (Proc.devRef .tc main_v185) : FVec Ideal S1x4 .f32)
    = shapeCast S1x4 (V (Proc.devRef .tc main_arg10)) Facts₀.shapeCasts_S4_S1x4 := by
  dsimp only [Gen.hostOps18]; after_results; rfl

end Cert.KernelIdeal.Spec

end
-- ==== Proof.KI.ValM0.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM0
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM0 : (![0, 0] : Fin 2 → Nat) = fun _ => 0 := funext fun a => by fin_cases a <;> rfl

/-- The output buffer after the body is the payload of the two whole input blocks (at any float interpretation). -/
theorem out0_2_eq {F : FTy → Type} [FloatOps F] (x0 : Vec F S5000x128 .f32) (x1 : Vec F S128x128 .f32) :
    out0_2 x0 x1 = k0_pay1 x0 x1 := by
  unfold out0_2
  rw [View.canon_unit_zero hzM0]
  simp only [View.ld_unit_zero (S := S5000x128) hzM0, View.ld_unit_zero (S := S128x128) hzM0]

/-- The product's operand indices, axis by axis: the left operand reads the output's row and the contracted
    coordinate, the right operand the contracted coordinate and the output's column. -/
theorem lhsM0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay0_apply (x0 : Vec Ideal S5000x128 .f32) (x1 : Vec Ideal S128x128 .f32) (a : Fin 5000) (b : Fin 128) :
    k0_pay1 (F := Ideal) x0 x1 (ix2 a b) = ∑ k : Fin 128, x0 (ix2 a k) * x1 (ix2 k b) := by
  unfold k0_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM0_0 _ _
    | ⟨1, _⟩ => exact (lhsM0_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM0_0 _ _).trans hk
    | ⟨1, _⟩ => exact rhsM0_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- The two input arrays as the region finds them, at their literal types. -/
abbrev harr0 (c : Dev nD) : FVec Ideal S100000x128 .f32 := V c (Pipeline.arrRef spec0 0)
abbrev warr0 (c : Dev nD) : FVec Ideal S128x128 .f32 := V c (Pipeline.arrRef spec0 1)

/-- What point t writes back is block t of the product of the two input arrays as the region finds them. -/
theorem flushed0_2_eq (c : Dev nD) (t : Fin cfg0.N) :
    (dat0 V c).flushed 2 t = ((cfg0.win 2).blk t).view.read (Elt Ideal) (G0_2 (harr0 V c) (warr0 V c)) := by
  show (cfg0.win 2).cut (grid0.coords t) ((dat0 V c).after 2 t) = _
  rw [after0_2, out0_2_eq]
  obtain ⟨e0, e1, e2, e3, e4, e5⟩ := idx_facts0 t
  funext j
  obtain ⟨a, b, rfl⟩ : ∃ (a : Fin 5000) (b : Fin 128), j = ix2 a b := ⟨j 0, j 1, eq_ix2 j⟩
  refine (pay0_apply (iblk0 V c 0 t) (iblk0 V c 1 t) a b).trans ?_
  show ∑ k : Fin 128, harr0 V c (((cfg0.win 0).blk t).view.emb (ix2 a k)) * warr0 V c (((cfg0.win 1).blk t).view.emb (ix2 k b))
    = ∑ k : Fin 128, harr0 V c (ix2 (n0 := 100000) ((((cfg0.win 2).blk t).view.emb (ix2 a b)) 0) k)
        * warr0 V c (ix2 (n0 := 128) k ((((cfg0.win 2).blk t).view.emb (ix2 a b)) 1))
  refine Finset.sum_congr rfl fun k _ => ?_
  have h0 : ((cfg0.win 0).blk t).view.emb (ix2 a k) = ix2 (n0 := 100000) ((((cfg0.win 2).blk t).view.emb (ix2 a b)) 0) k := by
    funext ax; apply Fin.ext
    match ax with
    | ⟨0, _⟩ => show win0_0.index t (0 : Fin 2) * 5000 + 1 * a.val = win0_2.index t (0 : Fin 2) * 5000 + 1 * a.val; omega
    | ⟨1, _⟩ => show win0_0.index t (1 : Fin 2) * 128 + 1 * k.val = k.val; omega
  have h1 : ((cfg0.win 1).blk t).view.emb (ix2 k b) = ix2 (n0 := 128) k ((((cfg0.win 2).blk t).view.emb (ix2 a b)) 1) := by
    funext ax; apply Fin.ext
    match ax with
    | ⟨0, _⟩ => show win0_1.index t (0 : Fin 2) * 128 + 1 * k.val = k.val; omega
    | ⟨1, _⟩ => show win0_1.index t (1 : Fin 2) * 128 + 1 * b.val = win0_2.index t (1 : Fin 2) * 128 + 1 * b.val; omega
  rw [h0, h1]
  rfl

/-- An index of the array is in point t's block iff each coordinate is in the block's range on its axis. -/
theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- The twenty row tiles cover the array: row r is in tile r / 5000. -/
theorem covered0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the two input arrays as the region finds them. -/
theorem final0_2 (c : Dev nD) :
    (dat0 V c).arrAt 2 cfg0.N = G0_2 (V c (Pipeline.arrRef spec0 0)) (V c (Pipeline.arrRef spec0 1)) :=
  (dat0 V c).arrAt_eq_of_cover 2 (G0_2 (harr0 V c) (warr0 V c)) (fun t _ => flushed0_2_eq V c t) covered0_2

end Cert.KernelIdeal.Hand
-- ==== Proof.KI.ValM3.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM3
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM3 : (![0, 0] : Fin 2 → Nat) = fun _ => 0 := funext fun a => by fin_cases a <;> rfl

/-- The output buffer after the body is the payload of the two whole input blocks (at any float interpretation). -/
theorem out3_2_eq {F : FTy → Type} [FloatOps F] (x0 : Vec F S5000x128 .f32) (x1 : Vec F S128x128 .f32) :
    out3_2 x0 x1 = k3_pay1 x0 x1 := by
  unfold out3_2
  rw [View.canon_unit_zero hzM3]
  simp only [View.ld_unit_zero (S := S5000x128) hzM3, View.ld_unit_zero (S := S128x128) hzM3]

/-- The product's operand indices, axis by axis: the left operand reads the output's row and the contracted
    coordinate, the right operand the contracted coordinate and the output's column. -/
theorem lhsM3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay3_apply (x0 : Vec Ideal S5000x128 .f32) (x1 : Vec Ideal S128x128 .f32) (a : Fin 5000) (b : Fin 128) :
    k3_pay1 (F := Ideal) x0 x1 (ix2 a b) = ∑ k : Fin 128, x0 (ix2 a k) * x1 (ix2 k b) := by
  unfold k3_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM3_0 _ _
    | ⟨1, _⟩ => exact (lhsM3_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM3_0 _ _).trans hk
    | ⟨1, _⟩ => exact rhsM3_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every row block of the output is some point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- The two input arrays as the region finds them, at their literal types. -/
abbrev harr3 (c : Dev nD) : FVec Ideal S100000x128 .f32 := V c (Pipeline.arrRef spec3 0)
abbrev warr3 (c : Dev nD) : FVec Ideal S128x128 .f32 := V c (Pipeline.arrRef spec3 1)

/-- What point t writes back is block t of the product of the two input arrays as the region finds them. -/
theorem flushed3_2_eq (c : Dev nD) (t : Fin cfg3.N) :
    (dat3 V c).flushed 2 t = ((cfg3.win 2).blk t).view.read (Elt Ideal) (G0_2 (harr3 V c) (warr3 V c)) := by
  show (cfg3.win 2).cut (grid3.coords t) ((dat3 V c).after 2 t) = _
  rw [after3_2, out3_2_eq]
  obtain ⟨e0, e1, e2, e3, e4, e5⟩ := idx_facts3 t
  funext j
  obtain ⟨a, b, rfl⟩ : ∃ (a : Fin 5000) (b : Fin 128), j = ix2 a b := ⟨j 0, j 1, eq_ix2 j⟩
  refine (pay3_apply (iblk3 V c 0 t) (iblk3 V c 1 t) a b).trans ?_
  show ∑ k : Fin 128, harr3 V c (((cfg3.win 0).blk t).view.emb (ix2 a k)) * warr3 V c (((cfg3.win 1).blk t).view.emb (ix2 k b))
    = ∑ k : Fin 128, harr3 V c (ix2 (n0 := 100000) ((((cfg3.win 2).blk t).view.emb (ix2 a b)) 0) k)
        * warr3 V c (ix2 (n0 := 128) k ((((cfg3.win 2).blk t).view.emb (ix2 a b)) 1))
  refine Finset.sum_congr rfl fun k _ => ?_
  have h0 : ((cfg3.win 0).blk t).view.emb (ix2 a k) = ix2 (n0 := 100000) ((((cfg3.win 2).blk t).view.emb (ix2 a b)) 0) k := by
    funext ax; apply Fin.ext
    match ax with
    | ⟨0, _⟩ => show win3_0.index t (0 : Fin 2) * 5000 + 1 * a.val = win3_2.index t (0 : Fin 2) * 5000 + 1 * a.val; omega
    | ⟨1, _⟩ => show win3_0.index t (1 : Fin 2) * 128 + 1 * k.val = k.val; omega
  have h1 : ((cfg3.win 1).blk t).view.emb (ix2 k b) = ix2 (n0 := 128) k ((((cfg3.win 2).blk t).view.emb (ix2 a b)) 1) := by
    funext ax; apply Fin.ext
    match ax with
    | ⟨0, _⟩ => show win3_1.index t (0 : Fin 2) * 128 + 1 * k.val = k.val; omega
    | ⟨1, _⟩ => show win3_1.index t (1 : Fin 2) * 128 + 1 * b.val = win3_2.index t (1 : Fin 2) * 128 + 1 * b.val; omega
  rw [h0, h1]
  rfl

/-- An index of the array is in point t's block iff each coordinate is in the block's range on its axis. -/
theorem mem_blk3_2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v6).slice (win3_2.rect t)).set ↔ _
  rw [View.set_slice_whole, Rect.mem_set_unit]
  exact Iff.rfl

/-- The twenty row tiles cover the array: row r is in tile r / 5000. -/
theorem covered3_2 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region is the product of the two input arrays as the region finds them. -/
theorem final3_2 (c : Dev nD) :
    (dat3 V c).arrAt 2 cfg3.N = G0_2 (V c (Pipeline.arrRef spec3 0)) (V c (Pipeline.arrRef spec3 1)) :=
  (dat3 V c).arrAt_eq_of_cover 2 (G0_2 (harr3 V c) (warr3 V c)) (fun t _ => flushed3_2_eq V c t) covered3_2

end Cert.KernelIdeal.Hand
-- ==== Proof.KI.ValM6.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM6
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM6 : (![0, 0] : Fin 2 → Nat) = fun _ => 0 := funext fun a => by fin_cases a <;> rfl

/-- The output buffer after the body is the payload of the two whole input blocks (at any float interpretation). -/
theorem out6_2_eq {F : FTy → Type} [FloatOps F] (x0 : Vec F S5000x128 .f32) (x1 : Vec F S128x128 .f32) :
    out6_2 x0 x1 = k6_pay1 x0 x1 := by
  unfold out6_2
  rw [View.canon_unit_zero hzM6]
  simp only [View.ld_unit_zero (S := S5000x128) hzM6, View.ld_unit_zero (S := S128x128) hzM6]

/-- The product's operand indices, axis by axis: the left operand reads the output's row and the contracted
    coordinate, the right operand the contracted coordinate and the output's column. -/
theorem lhsM6_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM6_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM6_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM6_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay6_apply (x0 : Vec Ideal S5000x128 .f32) (x1 : Vec Ideal S128x128 .f32) (a : Fin 5000) (b : Fin 128) :
    k6_pay1 (F := Ideal) x0 x1 (ix2 a b) = ∑ k : Fin 128, x0 (ix2 a k) * x1 (ix2 k b) := by
  unfold k6_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM6_0 _ _
    | ⟨1, _⟩ => exact (lhsM6_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM6_0 _ _).trans hk
    | ⟨1, _⟩ => exact rhsM6_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 19 :=
  (by decide +kernel : ∀ t : Fin grid6.N, _)

/-- Every row block of the output is some point's. -/
theorem idx_onto6 : ∀ q0 : Fin 20, ∃ t : Fin cfg6.N, win6_2.index t = ![q0.val, 0] :=
  (by decide +kernel : ∀ q0 : Fin 20, ∃ t : Fin grid6.N, win6_2.index t = ![q0.val, 0])

/-- The two input arrays as the region finds them, at their literal types. -/
abbrev harr6 (c : Dev nD) : FVec Ideal S100000x128 .f32 := V c (Pipeline.arrRef spec6 0)
abbrev warr6 (c : Dev nD) : FVec Ideal S128x128 .f32 := V c (Pipeline.arrRef spec6 1)

/-- What point t writes back is block t of the product of the two input arrays as the region finds them. -/
theorem flushed6_2_eq (c : Dev nD) (t : Fin cfg6.N) :
    (dat6 V c).flushed 2 t = ((cfg6.win 2).blk t).view.read (Elt Ideal) (G0_2 (harr6 V c) (warr6 V c)) := by
  show (cfg6.win 2).cut (grid6.coords t) ((dat6 V c).after 2 t) = _
  rw [after6_2, out6_2_eq]
  obtain ⟨e0, e1, e2, e3, e4, e5⟩ := idx_facts6 t
  funext j
  obtain ⟨a, b, rfl⟩ : ∃ (a : Fin 5000) (b : Fin 128), j = ix2 a b := ⟨j 0, j 1, eq_ix2 j⟩
  refine (pay6_apply (iblk6 V c 0 t) (iblk6 V c 1 t) a b).trans ?_
  show ∑ k : Fin 128, harr6 V c (((cfg6.win 0).blk t).view.emb (ix2 a k)) * warr6 V c (((cfg6.win 1).blk t).view.emb (ix2 k b))
    = ∑ k : Fin 128, harr6 V c (ix2 (n0 := 100000) ((((cfg6.win 2).blk t).view.emb (ix2 a b)) 0) k)
        * warr6 V c (ix2 (n0 := 128) k ((((cfg6.win 2).blk t).view.emb (ix2 a b)) 1))
  refine Finset.sum_congr rfl fun k _ => ?_
  have h0 : ((cfg6.win 0).blk t).view.emb (ix2 a k) = ix2 (n0 := 100000) ((((cfg6.win 2).blk t).view.emb (ix2 a b)) 0) k := by
    funext ax; apply Fin.ext
    match ax with
    | ⟨0, _⟩ => show win6_0.index t (0 : Fin 2) * 5000 + 1 * a.val = win6_2.index t (0 : Fin 2) * 5000 + 1 * a.val; omega
    | ⟨1, _⟩ => show win6_0.index t (1 : Fin 2) * 128 + 1 * k.val = k.val; omega
  have h1 : ((cfg6.win 1).blk t).view.emb (ix2 k b) = ix2 (n0 := 128) k ((((cfg6.win 2).blk t).view.emb (ix2 a b)) 1) := by
    funext ax; apply Fin.ext
    match ax with
    | ⟨0, _⟩ => show win6_1.index t (0 : Fin 2) * 128 + 1 * k.val = k.val; omega
    | ⟨1, _⟩ => show win6_1.index t (1 : Fin 2) * 128 + 1 * b.val = win6_2.index t (1 : Fin 2) * 128 + 1 * b.val; omega
  rw [h0, h1]
  rfl

/-- An index of the array is in point t's block iff each coordinate is in the block's range on its axis. -/
theorem mem_blk6_2 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v6).slice (win6_2.rect t)).set ↔ _
  rw [View.set_slice_whole, Rect.mem_set_unit]
  exact Iff.rfl

/-- The twenty row tiles cover the array: row r is in tile r / 5000. -/
theorem covered6_2 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6_2]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region is the product of the two input arrays as the region finds them. -/
theorem final6_2 (c : Dev nD) :
    (dat6 V c).arrAt 2 cfg6.N = G0_2 (V c (Pipeline.arrRef spec6 0)) (V c (Pipeline.arrRef spec6 1)) :=
  (dat6 V c).arrAt_eq_of_cover 2 (G0_2 (harr6 V c) (warr6 V c)) (fun t _ => flushed6_2_eq V c t) covered6_2

end Cert.KernelIdeal.Hand
-- ==== Proof.KI.ValM9.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM9
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM9 : (![0, 0] : Fin 2 → Nat) = fun _ => 0 := funext fun a => by fin_cases a <;> rfl

/-- The output buffer after the body is the payload of the two whole input blocks (at any float interpretation). -/
theorem out9_2_eq {F : FTy → Type} [FloatOps F] (x0 : Vec F S5000x128 .f32) (x1 : Vec F S128x128 .f32) :
    out9_2 x0 x1 = k9_pay1 x0 x1 := by
  unfold out9_2
  rw [View.canon_unit_zero hzM9]
  simp only [View.ld_unit_zero (S := S5000x128) hzM9, View.ld_unit_zero (S := S128x128) hzM9]

/-- The product's operand indices, axis by axis: the left operand reads the output's row and the contracted
    coordinate, the right operand the contracted coordinate and the output's column. -/
theorem lhsM9_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM9_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM9_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM9_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay9_apply (x0 : Vec Ideal S5000x128 .f32) (x1 : Vec Ideal S128x128 .f32) (a : Fin 5000) (b : Fin 128) :
    k9_pay1 (F := Ideal) x0 x1 (ix2 a b) = ∑ k : Fin 128, x0 (ix2 a k) * x1 (ix2 k b) := by
  unfold k9_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM9_0 _ _
    | ⟨1, _⟩ => exact (lhsM9_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM9_0 _ _).trans hk
    | ⟨1, _⟩ => exact rhsM9_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts9 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (1 : Fin 2) = 0
    ∧ win9_2.index t (0 : Fin 2) ≤ 19 :=
  (by decide +kernel : ∀ t : Fin grid9.N, _)

/-- Every row block of the output is some point's. -/
theorem idx_onto9 : ∀ q0 : Fin 20, ∃ t : Fin cfg9.N, win9_2.index t = ![q0.val, 0] :=
  (by decide +kernel : ∀ q0 : Fin 20, ∃ t : Fin grid9.N, win9_2.index t = ![q0.val, 0])

/-- The two input arrays as the region finds them, at their literal types. -/
abbrev harr9 (c : Dev nD) : FVec Ideal S100000x128 .f32 := V c (Pipeline.arrRef spec9 0)
abbrev warr9 (c : Dev nD) : FVec Ideal S128x128 .f32 := V c (Pipeline.arrRef spec9 1)

/-- What point t writes back is block t of the product of the two input arrays as the region finds them. -/
theorem flushed9_2_eq (c : Dev nD) (t : Fin cfg9.N) :
    (dat9 V c).flushed 2 t = ((cfg9.win 2).blk t).view.read (Elt Ideal) (G0_2 (harr9 V c) (warr9 V c)) := by
  show (cfg9.win 2).cut (grid9.coords t) ((dat9 V c).after 2 t) = _
  rw [after9_2, out9_2_eq]
  obtain ⟨e0, e1, e2, e3, e4, e5⟩ := idx_facts9 t
  funext j
  obtain ⟨a, b, rfl⟩ : ∃ (a : Fin 5000) (b : Fin 128), j = ix2 a b := ⟨j 0, j 1, eq_ix2 j⟩
  refine (pay9_apply (iblk9 V c 0 t) (iblk9 V c 1 t) a b).trans ?_
  show ∑ k : Fin 128, harr9 V c (((cfg9.win 0).blk t).view.emb (ix2 a k)) * warr9 V c (((cfg9.win 1).blk t).view.emb (ix2 k b))
    = ∑ k : Fin 128, harr9 V c (ix2 (n0 := 100000) ((((cfg9.win 2).blk t).view.emb (ix2 a b)) 0) k)
        * warr9 V c (ix2 (n0 := 128) k ((((cfg9.win 2).blk t).view.emb (ix2 a b)) 1))
  refine Finset.sum_congr rfl fun k _ => ?_
  have h0 : ((cfg9.win 0).blk t).view.emb (ix2 a k) = ix2 (n0 := 100000) ((((cfg9.win 2).blk t).view.emb (ix2 a b)) 0) k := by
    funext ax; apply Fin.ext
    match ax with
    | ⟨0, _⟩ => show win9_0.index t (0 : Fin 2) * 5000 + 1 * a.val = win9_2.index t (0 : Fin 2) * 5000 + 1 * a.val; omega
    | ⟨1, _⟩ => show win9_0.index t (1 : Fin 2) * 128 + 1 * k.val = k.val; omega
  have h1 : ((cfg9.win 1).blk t).view.emb (ix2 k b) = ix2 (n0 := 128) k ((((cfg9.win 2).blk t).view.emb (ix2 a b)) 1) := by
    funext ax; apply Fin.ext
    match ax with
    | ⟨0, _⟩ => show win9_1.index t (0 : Fin 2) * 128 + 1 * k.val = k.val; omega
    | ⟨1, _⟩ => show win9_1.index t (1 : Fin 2) * 128 + 1 * b.val = win9_2.index t (1 : Fin 2) * 128 + 1 * b.val; omega
  rw [h0, h1]
  rfl

/-- An index of the array is in point t's block iff each coordinate is in the block's range on its axis. -/
theorem mem_blk9_2 (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v6).slice (win9_2.rect t)).set ↔ _
  rw [View.set_slice_whole, Rect.mem_set_unit]
  exact Iff.rfl

/-- The twenty row tiles cover the array: row r is in tile r / 5000. -/
theorem covered9_2 (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  obtain ⟨t, ht⟩ := idx_onto9 ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_blk9_2]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- The output array after the region is the product of the two input arrays as the region finds them. -/
theorem final9_2 (c : Dev nD) :
    (dat9 V c).arrAt 2 cfg9.N = G0_2 (V c (Pipeline.arrRef spec9 0)) (V c (Pipeline.arrRef spec9 1)) :=
  (dat9 V c).arrAt_eq_of_cover 2 (G0_2 (harr9 V c) (warr9 V c)) (fun t _ => flushed9_2_eq V c t) covered9_2

end Cert.KernelIdeal.Hand
-- ==== Proof.KI.ValM12.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM12
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM12 : (![0, 0] : Fin 2 → Nat) = fun _ => 0 := funext fun a => by fin_cases a <;> rfl

/-- The output buffer after the body is the payload of the two whole input blocks (at any float interpretation). -/
theorem out12_2_eq {F : FTy → Type} [FloatOps F] (x0 : Vec F S5000x128 .f32) (x1 : Vec F S128x128 .f32) :
    out12_2 x0 x1 = k12_pay1 x0 x1 := by
  unfold out12_2
  rw [View.canon_unit_zero hzM12]
  simp only [View.ld_unit_zero (S := S5000x128) hzM12, View.ld_unit_zero (S := S128x128) hzM12]

/-- The product's operand indices, axis by axis: the left operand reads the output's row and the contracted
    coordinate, the right operand the contracted coordinate and the output's column. -/
theorem lhsM12_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM12_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM12_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM12_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay12_apply (x0 : Vec Ideal S5000x128 .f32) (x1 : Vec Ideal S128x128 .f32) (a : Fin 5000) (b : Fin 128) :
    k12_pay1 (F := Ideal) x0 x1 (ix2 a b) = ∑ k : Fin 128, x0 (ix2 a k) * x1 (ix2 k b) := by
  unfold k12_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM12_0 _ _
    | ⟨1, _⟩ => exact (lhsM12_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM12_0 _ _).trans hk
    | ⟨1, _⟩ => exact rhsM12_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts12 : ∀ t : Fin cfg12.N, win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (1 : Fin 2) = 0
    ∧ win12_2.index t (0 : Fin 2) ≤ 19 :=
  (by decide +kernel : ∀ t : Fin grid12.N, _)

/-- Every row block of the output is some point's. -/
theorem idx_onto12 : ∀ q0 : Fin 20, ∃ t : Fin cfg12.N, win12_2.index t = ![q0.val, 0] :=
  (by decide +kernel : ∀ q0 : Fin 20, ∃ t : Fin grid12.N, win12_2.index t = ![q0.val, 0])

/-- The two input arrays as the region finds them, at their literal types. -/
abbrev harr12 (c : Dev nD) : FVec Ideal S100000x128 .f32 := V c (Pipeline.arrRef spec12 0)
abbrev warr12 (c : Dev nD) : FVec Ideal S128x128 .f32 := V c (Pipeline.arrRef spec12 1)

/-- What point t writes back is block t of the product of the two input arrays as the region finds them. -/
theorem flushed12_2_eq (c : Dev nD) (t : Fin cfg12.N) :
    (dat12 V c).flushed 2 t = ((cfg12.win 2).blk t).view.read (Elt Ideal) (G0_2 (harr12 V c) (warr12 V c)) := by
  show (cfg12.win 2).cut (grid12.coords t) ((dat12 V c).after 2 t) = _
  rw [after12_2, out12_2_eq]
  obtain ⟨e0, e1, e2, e3, e4, e5⟩ := idx_facts12 t
  funext j
  obtain ⟨a, b, rfl⟩ : ∃ (a : Fin 5000) (b : Fin 128), j = ix2 a b := ⟨j 0, j 1, eq_ix2 j⟩
  refine (pay12_apply (iblk12 V c 0 t) (iblk12 V c 1 t) a b).trans ?_
  show ∑ k : Fin 128, harr12 V c (((cfg12.win 0).blk t).view.emb (ix2 a k)) * warr12 V c (((cfg12.win 1).blk t).view.emb (ix2 k b))
    = ∑ k : Fin 128, harr12 V c (ix2 (n0 := 100000) ((((cfg12.win 2).blk t).view.emb (ix2 a b)) 0) k)
        * warr12 V c (ix2 (n0 := 128) k ((((cfg12.win 2).blk t).view.emb (ix2 a b)) 1))
  refine Finset.sum_congr rfl fun k _ => ?_
  have h0 : ((cfg12.win 0).blk t).view.emb (ix2 a k) = ix2 (n0 := 100000) ((((cfg12.win 2).blk t).view.emb (ix2 a b)) 0) k := by
    funext ax; apply Fin.ext
    match ax with
    | ⟨0, _⟩ => show win12_0.index t (0 : Fin 2) * 5000 + 1 * a.val = win12_2.index t (0 : Fin 2) * 5000 + 1 * a.val; omega
    | ⟨1, _⟩ => show win12_0.index t (1 : Fin 2) * 128 + 1 * k.val = k.val; omega
  have h1 : ((cfg12.win 1).blk t).view.emb (ix2 k b) = ix2 (n0 := 128) k ((((cfg12.win 2).blk t).view.emb (ix2 a b)) 1) := by
    funext ax; apply Fin.ext
    match ax with
    | ⟨0, _⟩ => show win12_1.index t (0 : Fin 2) * 128 + 1 * k.val = k.val; omega
    | ⟨1, _⟩ => show win12_1.index t (1 : Fin 2) * 128 + 1 * b.val = win12_2.index t (1 : Fin 2) * 128 + 1 * b.val; omega
  rw [h0, h1]
  rfl

/-- An index of the array is in point t's block iff each coordinate is in the block's range on its axis. -/
theorem mem_blk12_2 (t : Fin cfg12.N) (i : S100000x128.Idx) :
    i ∈ ((cfg12.win 2).blk t).view.set ↔ ∀ a : Fin 2, win12_2.index t a * S5000x128.size a ≤ (i a).val ∧ (i a).val < win12_2.index t a * S5000x128.size a + S5000x128.size a := by
  show i ∈ ((View.whole main_v6).slice (win12_2.rect t)).set ↔ _
  rw [View.set_slice_whole, Rect.mem_set_unit]
  exact Iff.rfl

/-- The twenty row tiles cover the array: row r is in tile r / 5000. -/
theorem covered12_2 (i : S100000x128.Idx) :
    ∃ t : Fin cfg12.N, (cfg12.win 2).flush t = true ∧ i ∈ ((cfg12.win 2).blk t).view.set := by
  have hi0 : (i 0).val < 100000 := (i 0).isLt
  have hi1 : (i 1).val < 128 := (i 1).isLt
  obtain ⟨t, ht⟩ := idx_onto12 ⟨(i 0).val / 5000, by omega⟩
  have q0 : win12_2.index t (0 : Fin 2) = (i 0).val / 5000 := congrFun ht 0
  have q1 : win12_2.index t (1 : Fin 2) = 0 := congrFun ht 1
  refine ⟨t, flush12_2 t, ?_⟩
  rw [mem_blk12_2]
  intro a
  match a with
  | ⟨0, _⟩ => show win12_2.index t (0 : Fin 2) * 5000 ≤ (i 0).val ∧ (i 0).val < win12_2.index t (0 : Fin 2) * 5000 + 5000; omega
  | ⟨1, _⟩ => show win12_2.index t (1 : Fin 2) * 128 ≤ (i 1).val ∧ (i 1).val < win12_2.index t (1 : Fin 2) * 128 + 128; omega

/-- The output array after the region is the product of the two input arrays as the region finds them. -/
theorem final12_2 (c : Dev nD) :
    (dat12 V c).arrAt 2 cfg12.N = G0_2 (V c (Pipeline.arrRef spec12 0)) (V c (Pipeline.arrRef spec12 1)) :=
  (dat12 V c).arrAt_eq_of_cover 2 (G0_2 (harr12 V c) (warr12 V c)) (fun t _ => flushed12_2_eq V c t) covered12_2

end Cert.KernelIdeal.Hand
-- ==== Proof.KI.ValM15.lean ====
/- The value of region 0 at the ideal values: the array its output window leaves, as one function of the two input
   arrays index by index — entry (r, n) is the sum over k of h[r, k] * W[k, n] —, from what each grid point writes
   back and the fact that the row tiles cover the array. -/
import proofs.«400512_j87187836109057_1_alg».proof.Proof.KI.RegM15
import proofs.«400512_j87187836109057_1_alg».proof.Proof.KI.GM0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Spec
open Idealize.ShloMosaic Idealize.ShloMosaic.TcCoe Idealize.SL.Sem
open Idealize.ShloMosaic.Pipeline (Dat)
open Idealize.ShloMosaic.ValueIdx
open scoped BigOperators

/-! ## The body's payload at an index -/

theorem hzM15 : (![0, 0] : Fin 2 → Nat) = fun _ => 0 := funext fun a => by fin_cases a <;> rfl

/-- The output buffer after the body is the payload of the two whole input blocks (at any float interpretation). -/
theorem out15_2_eq {F : FTy → Type} [FloatOps F] (x0 : Vec F S5000x128 .f32) (x1 : Vec F S128x128 .f32) :
    out15_2 x0 x1 = k15_pay1 x0 x1 := by
  unfold out15_2
  rw [View.canon_unit_zero hzM15]
  simp only [View.ld_unit_zero (S := S5000x128) hzM15, View.ld_unit_zero (S := S128x128) hzM15]

/-- The product's operand indices, axis by axis: the left operand reads the output's row and the contracted
    coordinate, the right operand the contracted coordinate and the output's column. -/
theorem lhsM15_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsM15_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsM15_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsM15_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At the ideal values the payload at (a, b) is the sum over k of x0[a, k] * x1[k, b]: the two format changes are the
    identity, the accumulator is zero, and the contraction's one coordinate is k. -/
theorem pay15_apply (x0 : Vec Ideal S5000x128 .f32) (x1 : Vec Ideal S128x128 .f32) (a : Fin 5000) (b : Fin 128) :
    k15_pay1 (F := Ideal) x0 x1 (ix2 a b) = ∑ k : Fin 128, x0 (ix2 a k) * x1 (ix2 k b) := by
  unfold k15_pay1
  refine (Ideal.matmul_constant_zero_apply dot_S5000x128_S128x128_S5000x128_1_0_0_1_n_n none _ _ (ix2 a b)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact lhsM15_0 _ _
    | ⟨1, _⟩ => exact (lhsM15_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (rhsM15_0 _ _).trans hk
    | ⟨1, _⟩ => exact rhsM15_1 _ _)
  rw [el, er]
  simp only [shapeCast_self]
  rfl

/-! ## From the blocks to the array -/

variable (V : (c : Dev nD) → (b : Ref sig .tc) → Buf (Elt Ideal) ((c : Thread nD τ).loc b))

/-- The index maps over the grid: the row tile of the input moves with the output's, on the row axis; every other block
    index is zero; the output's row block index is below 20. -/
theorem idx_facts15 : ∀ t : Fin cfg15.N, win15_0.index t (0 : Fin 2) = win15_2.index t (0 : Fin 2)
    ∧ win15_0.index t (1 : Fin 2) = 0
    ∧ win15_1.index t (0 : Fin 2) = 0
    ∧ win15_1.index t (1 : Fin 2) = 0
    ∧ win15_2.index t (1 : Fin 2) = 0
    ∧ win15_2.index t (0 : Fin 2) ≤ 19 :=
  (by decide +kernel : ∀ t : Fin grid15.N, _)

/-- Every row block of the output is some point's. -/
theorem idx_onto15 : ∀ q0 : Fin 20, ∃ t : Fin cfg15.N, win15_2.index t = ![q0.val, 0] :=
  (by decide +kernel : ∀ q0 : Fin 20, ∃ t : Fin grid15.N, win15_2.index t = ![q0.val, 0])

/-- The two input arrays as the region finds them, at their literal types. -/
abbrev harr15 (c : Dev nD) : FVec Ideal S100000x128 .f32 := V c (Pipeline.arrRef spec15 0)
abbrev warr15 (c : Dev nD) : FVec Ideal S128x128 .f32 := V c (Pipeline.arrRef spec15 1)

/-- What point t writes back is block t of the product of the two input arrays as the region finds them. -/
theorem flushed15_2_eq (c : Dev nD) (t : Fin cfg15.N) :
    (dat15 V c).flushed 2 t = ((cfg15.win 2).blk t).view.read (Elt Ideal) (G0_2 (harr15 V c) (warr15 V c)) := by
  show (cfg15.win 2).cut (grid15.coords t) ((dat15 V c).after 2 t) = _
  rw [after15_2, out15_2_eq]
  obtain ⟨e0, e1, e2, e3, e4, e5⟩ := idx_facts15 t
  funext j
  obtain ⟨a, b, rfl⟩ : ∃ (a : Fin 5000) (b : Fin 128), j = ix2 a b := ⟨j 0, j 1, eq_ix2 j⟩
  refine (pay15_apply (iblk15 V c 0 t) (iblk15 V c 1 t) a b).trans ?_
  show ∑ k : Fin 128, harr15 V c (((cfg15.win 0).blk t).view.emb (ix2 a k)) * warr15 V c (((cfg15.win 1).blk t).view.emb (ix2 k b))
    = ∑ k : Fin 128, harr15 V c (ix2 (n0 := 100000) ((((cfg15.win 2).blk t).view.emb (ix2 a b)) 0) k)
        * warr15 V c (ix2 (n0 := 128) k ((((cfg15.win 2).blk t).view.emb (ix2 a b)) 1))
  refine Finset.sum_congr rfl fun k _ => ?_
  have h0 : ((cfg15.win 0).blk t).view.emb (ix2 a k) = ix2 (n0 := 100000) ((((cfg15.win 2).blk t).view.emb (ix2 a b)) 0) k := by
    funext ax; apply Fin.ext
    match ax with
    | ⟨0, _⟩ => show win15_0.index t (0 : Fin 2) * 5000 + 1 * a.val = win15_2.index t (0 : Fin 2) * 5000 + 1 * a.val; omega
    | ⟨1, _⟩ => show win15_0.index t (1 : Fin 2) * 128 + 1 * k.val = k.val; omega
  have h1 : ((cfg15.win 1).blk t).view.emb (ix2 k b) = ix2 (n0 := 128) k ((((cfg15.win 2).blk t).view.emb (ix2 a b)) 1) := by
    funext ax; apply Fin.ext
    match ax with
    | ⟨0, _⟩ => show win15_1.index t (0 : Fin 2) * 128 + 1 * k.val = k.val; omega
    | ⟨1, _⟩ => show win15_1.index t (1 : Fin 2) * 128 + 1 * b.val = win15_2.index t (1 : Fin 2) * 128 + 1 * b.val; omega
  rw [h0, h1]
  rfl

/-- An index of the array is in point t's block iff each coordinate is in the block's range on its axis. -/
theorem mem_blk15_2 (t : Fin cfg15.N) (i : S100000x128.Idx) :
    i ∈ ((cfg15.win 2).blk t).view.set ↔ ∀ a : Fin 2, win15_2.index t a * S5000x128.size a ≤ (i a).val ∧ (i a).val < win15_2.index t a * S5000x128.size a + S5000x128.size a := by
  show i ∈ ((View.whole main_v6).slice (win15_2.rect t)).set ↔ _
  rw [View.set_slice_whole, Rect.mem_set_unit]
  exact Iff.rfl

/-- The twenty row tiles cover the array: row r is in tile r / 5000. -/
theorem covered15_2 (i : S100000x128.Idx) :
    ∃ t : Fin cfg15.N, (cfg15.win 2).flush t = true ∧ i ∈ ((cfg15.win 2).blk t).view.set := by
  have hi0 : (i 0).val < 100000 := (i 0).isLt
  have hi1 : (i 1).val < 128 := (i 1).isLt
  obtain ⟨t, ht⟩ := idx_onto15 ⟨(i 0).val / 5000, by omega⟩
  have q0 : win15_2.index t (0 : Fin 2) = (i 0).val / 5000 := congrFun ht 0
  have q1 : win15_2.index t (1 : Fin 2) = 0 := congrFun ht 1
  refine ⟨t, flush15_2 t, ?_⟩
  rw [mem_blk15_2]
  intro a
  match a with
  | ⟨0, _⟩ => show win15_2.index t (0 : Fin 2) * 5000 ≤ (i 0).val ∧ (i 0).val < win15_2.index t (0 : Fin 2) * 5000 + 5000; omega
  | ⟨1, _⟩ => show win15_2.index t (1 : Fin 2) * 128 ≤ (i 1).val ∧ (i 1).val < win15_2.index t (1 : Fin 2) * 128 + 128; omega

/-- The output array after the region is the product of the two input arrays as the region finds them. -/
theorem final15_2 (c : Dev nD) :
    (dat15 V c).arrAt 2 cfg15.N = G0_2 (V c (Pipeline.arrRef spec15 0)) (V c (Pipeline.arrRef spec15 1)) :=
  (dat15 V c).arrAt_eq_of_cover 2 (G0_2 (harr15 V c) (warr15 V c)) (fun t _ => flushed15_2_eq V c t) covered15_2

end Cert.KernelIdeal.Hand
-- ==== Proof.KI.ValS1.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS1
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero1 : (![0, 0] : Fin 2 → Nat) = fun _ => 0 := funext fun a => by fin_cases a <;> rfl

/-- The pointwise payload: max (tile + bias row, 0). -/
theorem pay1_3_apply (x0 : Vec Ideal S5000x128 .f32) (x1 : Vec Ideal S1x128 .f32) (j : S5000x128.Idx) :
    k1_pay3 x0 x1 j = max (x0 j + x1 (ix2 (n0 := 1) (n1 := 128) 0 (j 1))) 0 := by
  unfold k1_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay1_4_apply (x0 : Vec Ideal S5000x128 .f32) (x1 : Vec Ideal S1x128 .f32) (s : Vec Ideal S1x128 .f32) (j : S1x128.Idx) :
    k1_pay4 x0 x1 s j = s j + ∑ k : Fin 5000, k1_pay3 x0 x1 (ix2 (n0 := 5000) (n1 := 128) k (j 1)) := by
  unfold k1_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k1_pay3 x0 x1) _ reduces_S5000x128_S128 _ _ (fun a => j a.succ)).trans ?_)
  refine Finset.sum_congr rfl fun k _ => congrArg _ (Shape.idx_ext₂ rfl rfl)

/-- The column-sum-of-squares payload. -/
theorem pay1_5_apply (x0 : Vec Ideal S5000x128 .f32) (x1 : Vec Ideal S1x128 .f32) (s : Vec Ideal S1x128 .f32) (j : S1x128.Idx) :
    k1_pay5 x0 x1 s j = s j + ∑ k : Fin 5000, k1_pay3 x0 x1 (ix2 (n0 := 5000) (n1 := 128) k (j 1)) * k1_pay3 x0 x1 (ix2 (n0 := 5000) (n1 := 128) k (j 1)) := by
  unfold k1_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k1_pay3 x0 x1) (k1_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay1_1_apply (j : S1x128.Idx) : k1_pay1 (F := Ideal) j = 0 := by
  unfold k1_pay1
  simp only [shapeCast_self]
  show Ideal.ofBits .f32 0#32 = 0
  exact Ideal.ofBits_zero_f32
theorem pay1_2_apply (j : S1x128.Idx) : k1_pay2 (F := Ideal) j = 0 := by
  unfold k1_pay2
  simp only [shapeCast_self]
  show Ideal.ofBits .f32 0#32 = 0
  exact Ideal.ofBits_zero_f32

/-- Row `k` of tile `t` in the whole array (a total function of two naturals: in range, `5000 t + k`). -/
def rowIx1 (t k : ℕ) : Fin 100000 := ⟨(5000 * t + k) % 100000, Nat.mod_lt _ (by norm_num)⟩

/-- A sum over 100000 rows is the sum over 20 tiles of 5000 rows. -/
theorem sum_blocks1 (f : Fin 100000 → EReal) :
    ∑ i : Fin 100000, f i = ∑ t : Fin 20, ∑ k : Fin 5000, f (rowIx1 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A1_0 (c : Dev nD) : FVec Ideal S100000x128 .f32 := V c (Pipeline.arrRef spec1 0)
abbrev A1_1 (c : Dev nD) : FVec Ideal S1x128 .f32 := V c (Pipeline.arrRef spec1 1)

/-- The printed index maps, decided over the grid. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Where tile `t`'s elements sit in the whole array (windows 0 and 2 alike). -/
theorem blk1_0_emb (t : Fin cfg1.N) (y : S5000x128.Idx) :
    ((cfg1.win 0).blk t).view.emb y = ix2 (n0 := 100000) (n1 := 128) (rowIx1 t.val (y 0).val) (y 1) := by
  obtain ⟨e0, e1, -⟩ := idx_facts1 t
  have hN : t.val < 20 := lt_of_lt_of_eq t.isLt (show cfg1.N = 20 from N_1)
  have h0 : (y 0).val < 5000 := idx2_lt0 y
  apply Shape.idx_ext₂
  · show win1_0.index t (0 : Fin 2) * 5000 + 1 * (y 0).val = (5000 * t.val + (y 0).val) % 100000; omega
  · show win1_0.index t (1 : Fin 2) * 128 + 1 * (y 1).val = (y 1).val; omega
theorem blk1_2_emb (t : Fin cfg1.N) (y : S5000x128.Idx) :
    ((cfg1.win 2).blk t).view.emb y = ix2 (n0 := 100000) (n1 := 128) (rowIx1 t.val (y 0).val) (y 1) := by
  obtain ⟨-, -, -, -, e0, e1, -⟩ := idx_facts1 t
  have hN : t.val < 20 := lt_of_lt_of_eq t.isLt (show cfg1.N = 20 from N_1)
  have h0 : (y 0).val < 5000 := idx2_lt0 y
  apply Shape.idx_ext₂
  · show win1_2.index t (0 : Fin 2) * 5000 + 1 * (y 0).val = (5000 * t.val + (y 0).val) % 100000; omega
  · show win1_2.index t (1 : Fin 2) * 128 + 1 * (y 1).val = (y 1).val; omega
/-- The small windows' block is their whole array. -/
theorem blk1_1_emb (t : Fin cfg1.N) (y : S1x128.Idx) : ((cfg1.win 1).blk t).view.emb y = y := by
  obtain ⟨-, -, e0, e1, -⟩ := idx_facts1 t
  apply Shape.idx_ext₂
  · show win1_1.index t (0 : Fin 2) * 1 + 1 * (y 0).val = (y 0).val; omega
  · show win1_1.index t (1 : Fin 2) * 128 + 1 * (y 1).val = (y 1).val; omega
theorem blk1_3_emb (t : Fin cfg1.N) (y : S1x128.Idx) : ((cfg1.win 3).blk t).view.emb y = y := by
  obtain ⟨-, -, -, -, -, -, e0, e1, -⟩ := idx_facts1 t
  apply Shape.idx_ext₂
  · show win1_3.index t (0 : Fin 2) * 1 + 1 * (y 0).val = (y 0).val; omega
  · show win1_3.index t (1 : Fin 2) * 128 + 1 * (y 1).val = (y 1).val; omega
theorem blk1_4_emb (t : Fin cfg1.N) (y : S1x128.Idx) : ((cfg1.win 4).blk t).view.emb y = y := by
  obtain ⟨-, -, -, -, -, -, -, -, e0, e1⟩ := idx_facts1 t
  apply Shape.idx_ext₂
  · show win1_4.index t (0 : Fin 2) * 1 + 1 * (y 0).val = (y 0).val; omega
  · show win1_4.index t (1 : Fin 2) * 128 + 1 * (y 1).val = (y 1).val; omega

/-- The input windows' blocks, read at a block index, are the arrays' elements. -/
theorem iblk1_0_apply (c : Dev nD) (t : Fin cfg1.N) (y : S5000x128.Idx) :
    iblk1 V c 0 t y = A1_0 V c (ix2 (n0 := 100000) (n1 := 128) (rowIx1 t.val (y 0).val) (y 1)) := by
  show A1_0 V c (((cfg1.win 0).blk t).view.emb y) = _
  rw [blk1_0_emb]
theorem iblk1_1_apply (c : Dev nD) (t : Fin cfg1.N) (y : S1x128.Idx) : iblk1 V c 1 t y = A1_1 V c y := by
  show A1_1 V c (((cfg1.win 1).blk t).view.emb y) = _
  rw [blk1_1_emb]

/-- ONE ELEMENT of what a point computes pointwise is the closed form's element at its place in the whole array. -/
theorem term_eq1 (c : Dev nD) (t : Fin cfg1.N) (k : Fin 5000) (j1 : Fin 128) :
    k1_pay3 (iblk1 V c 0 t) (iblk1 V c 1 t) (ix2 (n0 := 5000) (n1 := 128) k j1)
      = G1_2 (A1_0 V c) (A1_1 V c) (ix2 (n0 := 100000) (n1 := 128) (rowIx1 t.val k.val) j1) := by
  rw [pay1_3_apply, iblk1_0_apply, iblk1_1_apply]
  rfl

/-! ## A block read back through its window -/

/-- Contents `X` of window 2's buffer, written back at point `t`, are tile `t` of an array `G` when they agree element by
    element. -/
theorem flushed_read1_2 (t : Fin cfg1.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx1 t.val a.val) b)) :
    (cfg1.win 2).cut (grid1.coords t) X = ((cfg1.win 2).blk t).view.read (Elt Ideal) G := by
  refine funext fun (y : S5000x128.Idx) => ?_
  show X y = G (((cfg1.win 2).blk t).view.emb y)
  rw [blk1_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read1_3 (t : Fin cfg1.N) (X G : Vec Ideal S1x128 .f32) (h : ∀ y, X y = G y) :
    (cfg1.win 3).cut (grid1.coords t) X = ((cfg1.win 3).blk t).view.read (Elt Ideal) G := by
  refine funext fun (y : S1x128.Idx) => ?_
  show X y = G (((cfg1.win 3).blk t).view.emb y)
  rw [blk1_3_emb]; exact h y
theorem flushed_read1_4 (t : Fin cfg1.N) (X G : Vec Ideal S1x128 .f32) (h : ∀ y, X y = G y) :
    (cfg1.win 4).cut (grid1.coords t) X = ((cfg1.win 4).blk t).view.read (Elt Ideal) G := by
  refine funext fun (y : S1x128.Idx) => ?_
  show X y = G (((cfg1.win 4).blk t).view.emb y)
  rw [blk1_4_emb]; exact h y

/-- A sum over one tile. -/
theorem sum_one1 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ1 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed1_2_eq (c : Dev nD) (t : Fin cfg1.N) :
    (dat1 V c).flushed 2 t = ((cfg1.win 2).blk t).view.read (Elt Ideal) (G1_2 (A1_0 V c) (A1_1 V c)) := by
  show (cfg1.win 2).cut (grid1.coords t) ((dat1 V c).after 2 t) = _
  rw [after1_2]
  unfold out1_2
  rw [View.canon_unit_zero hzero1]
  simp only [View.ld_unit_zero (S := S5000x128) hzero1, View.ld_unit_zero (S := S1x128) hzero1]
  refine flushed_read1_2 t _ _ fun a b => ?_
  exact term_eq1 V c t a b

/-- Every element of window 2's array is in some tile. -/
theorem cover1_2 (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0).val < 100000 := idx2_lt0 (n0 := 100000) (n1 := 128) i
  have hN : cfg1.N = 20 := N_1
  let t : Fin cfg1.N := ⟨(i 0).val / 5000, by rw [hN]; omega⟩
  let y : S5000x128.Idx := ix2 (n0 := 5000) (n1 := 128) ⟨(i 0).val % 5000, Nat.mod_lt _ (by norm_num)⟩ (i 1)
  refine ⟨t, flush1_2 t, ?_⟩
  have e : ((cfg1.win 2).blk t).view.emb y = i := by
    rw [blk1_2_emb]
    apply Shape.idx_ext₂
    · show (5000 * ((i 0).val / 5000) + (i 0).val % 5000) % 100000 = (i 0).val; omega
    · rfl
  rw [← e]
  exact ((cfg1.win 2).blk t).view.emb_mem_set y

/-- WINDOW 2'S ARRAY after the region. -/
theorem final1_2 (c : Dev nD) :
    (dat1 V c).arrAt 2 cfg1.N = G1_2 (V c (Pipeline.arrRef spec1 0)) (V c (Pipeline.arrRef spec1 1)) :=
  (dat1 V c).arrAt_eq_of_cover 2 (G1_2 (A1_0 V c) (A1_1 V c)) (fun t _ => flushed1_2_eq V c t) (cover1_2 c)

/-! ## The accumulators: after `n + 1` points, the column sums over the first `n + 1` tiles -/

theorem souts1_sum (c : Dev nD) : ∀ (n : ℕ) (hn : n < cfg1.N) (j : S1x128.Idx),
    (souts1 V c n hn).1 j = ∑ t : Fin (n + 1), ∑ k : Fin 5000, G1_2 (A1_0 V c) (A1_1 V c) (ix2 (n0 := 100000) (n1 := 128) (rowIx1 t.val k.val) (j 1))
    ∧ (souts1 V c n hn).2 j = ∑ t : Fin (n + 1), ∑ k : Fin 5000,
        G1_2 (A1_0 V c) (A1_1 V c) (ix2 (n0 := 100000) (n1 := 128) (rowIx1 t.val k.val) (j 1)) * G1_2 (A1_0 V c) (A1_1 V c) (ix2 (n0 := 100000) (n1 := 128) (rowIx1 t.val k.val) (j 1))
  | 0, hn, j => by
    have e : souts1 V c 0 hn = (sA1_0 (iblk1 V c 0 ⟨0, hn⟩) (iblk1 V c 1 ⟨0, hn⟩), sA1_1 (iblk1 V c 0 ⟨0, hn⟩) (iblk1 V c 1 ⟨0, hn⟩)) := rfl
    rw [e]
    dsimp only
    unfold sA1_0 sA1_1
    rw [View.canon_cons_unit_zero hzero1, View.canon_cons_unit_zero hzero1]
    simp only [View.ld_unit_zero (S := S5000x128) hzero1, View.ld_unit_zero (S := S1x128) hzero1]
    rw [pay1_4_apply, pay1_5_apply, pay1_1_apply, pay1_2_apply]
    refine ⟨?_, ?_⟩
    · exact (zero_add _).trans ((Finset.sum_congr rfl fun k _ => term_eq1 V c ⟨0, hn⟩ k (j 1)).trans
        (sum_one1 fun t => ∑ k : Fin 5000, G1_2 (A1_0 V c) (A1_1 V c) (ix2 (n0 := 100000) (n1 := 128) (rowIx1 t k.val) (j 1))).symm)
    · exact (zero_add _).trans ((Finset.sum_congr rfl fun k _ => congrArg₂ (· * ·) (term_eq1 V c ⟨0, hn⟩ k (j 1)) (term_eq1 V c ⟨0, hn⟩ k (j 1))).trans
        (sum_one1 fun t => ∑ k : Fin 5000, G1_2 (A1_0 V c) (A1_1 V c) (ix2 (n0 := 100000) (n1 := 128) (rowIx1 t k.val) (j 1)) * G1_2 (A1_0 V c) (A1_1 V c) (ix2 (n0 := 100000) (n1 := 128) (rowIx1 t k.val) (j 1))).symm)
  | n + 1, hn, j => by
    obtain ⟨ih1, ih2⟩ := souts1_sum c n (Nat.lt_of_succ_lt hn) j
    have e : souts1 V c (n + 1) hn = (sB1_0 (iblk1 V c 0 ⟨n + 1, hn⟩) (iblk1 V c 1 ⟨n + 1, hn⟩) (souts1 V c n (Nat.lt_of_succ_lt hn)).1,
        sB1_1 (iblk1 V c 0 ⟨n + 1, hn⟩) (iblk1 V c 1 ⟨n + 1, hn⟩) (souts1 V c n (Nat.lt_of_succ_lt hn)).2) := rfl
    rw [e]
    dsimp only
    unfold sB1_0 sB1_1
    rw [View.canon_unit_zero hzero1, View.canon_unit_zero hzero1]
    simp only [View.ld_unit_zero (S := S5000x128) hzero1, View.ld_unit_zero (S := S1x128) hzero1]
    rw [pay1_4_apply, pay1_5_apply, ih1, ih2]
    refine ⟨?_, ?_⟩
    · exact (congrArg _ (Finset.sum_congr rfl fun k _ => term_eq1 V c ⟨n + 1, hn⟩ k (j 1))).trans
        (sum_succ1 n fun t => ∑ k : Fin 5000, G1_2 (A1_0 V c) (A1_1 V c) (ix2 (n0 := 100000) (n1 := 128) (rowIx1 t k.val) (j 1))).symm
    · exact (congrArg _ (Finset.sum_congr rfl fun k _ => congrArg₂ (· * ·) (term_eq1 V c ⟨n + 1, hn⟩ k (j 1)) (term_eq1 V c ⟨n + 1, hn⟩ k (j 1)))).trans
        (sum_succ1 n fun t => ∑ k : Fin 5000, G1_2 (A1_0 V c) (A1_1 V c) (ix2 (n0 := 100000) (n1 := 128) (rowIx1 t k.val) (j 1)) * G1_2 (A1_0 V c) (A1_1 V c) (ix2 (n0 := 100000) (n1 := 128) (rowIx1 t k.val) (j 1))).symm

/-- After the last point: the column sums over all 100000 rows. -/
theorem souts1_last (c : Dev nD) (t : Fin cfg1.N) (ht : t.val = 19) (j : S1x128.Idx) :
    (souts1 V c t.val t.isLt).1 j = G1_3 (A1_0 V c) (A1_1 V c) j ∧ (souts1 V c t.val t.isLt).2 j = G1_4 (A1_0 V c) (A1_1 V c) j := by
  obtain ⟨n, hn⟩ := t
  dsimp only at ht
  subst ht
  obtain ⟨h1, h2⟩ := souts1_sum V c 19 hn j
  unfold G1_3 G1_4
  rw [sum_blocks1, sum_blocks1]
  exact ⟨h1, h2⟩

/-! ## Output windows 3 and 4: written back once, at the last point -/

theorem flushed1_3_eq (c : Dev nD) (t : Fin cfg1.N) (hf : (cfg1.win 3).flush t = true) :
    (dat1 V c).flushed 3 t = ((cfg1.win 3).blk t).view.read (Elt Ideal) (G1_3 (A1_0 V c) (A1_1 V c)) := by
  have ht : t.val = 19 := by
    have hN : t.val < 20 := lt_of_lt_of_eq t.isLt (show cfg1.N = 20 from N_1)
    have := (flush1_3 t).mp hf; omega
  show (cfg1.win 3).cut (grid1.coords t) ((dat1 V c).after 3 t) = _
  rw [after1_3]
  exact flushed_read1_3 t _ _ fun y => (souts1_last V c t ht y).1

theorem flushed1_4_eq (c : Dev nD) (t : Fin cfg1.N) (hf : (cfg1.win 4).flush t = true) :
    (dat1 V c).flushed 4 t = ((cfg1.win 4).blk t).view.read (Elt Ideal) (G1_4 (A1_0 V c) (A1_1 V c)) := by
  have ht : t.val = 19 := by
    have hN : t.val < 20 := lt_of_lt_of_eq t.isLt (show cfg1.N = 20 from N_1)
    have := (flush1_4 t).mp hf; omega
  show (cfg1.win 4).cut (grid1.coords t) ((dat1 V c).after 4 t) = _
  rw [after1_4]
  exact flushed_read1_4 t _ _ fun y => (souts1_last V c t ht y).2

/-- The last point's block is the whole array. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 20 := N_1
  let t : Fin cfg1.N := ⟨19, by rw [hN]; norm_num⟩
  refine ⟨t, (flush1_3 t).mpr rfl, ?_⟩
  have e : ((cfg1.win 3).blk t).view.emb (i : S1x128.Idx) = i := blk1_3_emb t i
  rw [← e]
  exact ((cfg1.win 3).blk t).view.emb_mem_set (i : S1x128.Idx)
theorem cover1_4 (c : Dev nD) (i : ((cfg1.win 4).arr.view.loc (c.tc : Thread nD τ)).2.ty.Idx) :
    ∃ t : Fin cfg1.N, (cfg1.win 4).flush t = true ∧ i ∈ ((cfg1.win 4).blk t).view.set := by
  have hN : cfg1.N = 20 := N_1
  let t : Fin cfg1.N := ⟨19, by rw [hN]; norm_num⟩
  refine ⟨t, (flush1_4 t).mpr rfl, ?_⟩
  have e : ((cfg1.win 4).blk t).view.emb (i : S1x128.Idx) = i := blk1_4_emb t i
  rw [← e]
  exact ((cfg1.win 4).blk t).view.emb_mem_set (i : S1x128.Idx)

/-- WINDOWS 3 AND 4'S ARRAYS after the region. -/
theorem final1_3 (c : Dev nD) :
    (dat1 V c).arrAt 3 cfg1.N = G1_3 (V c (Pipeline.arrRef spec1 0)) (V c (Pipeline.arrRef spec1 1)) :=
  (dat1 V c).arrAt_eq_of_cover 3 (G1_3 (A1_0 V c) (A1_1 V c)) (fun t hf => flushed1_3_eq V c t hf) (cover1_3 c)
theorem final1_4 (c : Dev nD) :
    (dat1 V c).arrAt 4 cfg1.N = G1_4 (V c (Pipeline.arrRef spec1 0)) (V c (Pipeline.arrRef spec1 1)) :=
  (dat1 V c).arrAt_eq_of_cover 4 (G1_4 (A1_0 V c) (A1_1 V c)) (fun t hf => flushed1_4_eq V c t hf) (cover1_4 c)

end Value

end Cert.KernelIdeal.Hand

end
-- ==== Proof.KI.ValS4.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS4
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero4 : (![0, 0] : Fin 2 → Nat) = fun _ => 0 := funext fun a => by fin_cases a <;> rfl

/-- The pointwise payload: max (tile + bias row, 0). -/
theorem pay4_3_apply (x0 : Vec Ideal S5000x128 .f32) (x1 : Vec Ideal S1x128 .f32) (j : S5000x128.Idx) :
    k4_pay3 x0 x1 j = max (x0 j + x1 (ix2 (n0 := 1) (n1 := 128) 0 (j 1))) 0 := by
  unfold k4_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay4_4_apply (x0 : Vec Ideal S5000x128 .f32) (x1 : Vec Ideal S1x128 .f32) (s : Vec Ideal S1x128 .f32) (j : S1x128.Idx) :
    k4_pay4 x0 x1 s j = s j + ∑ k : Fin 5000, k4_pay3 x0 x1 (ix2 (n0 := 5000) (n1 := 128) k (j 1)) := by
  unfold k4_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k4_pay3 x0 x1) _ reduces_S5000x128_S128 _ _ (fun a => j a.succ)).trans ?_)
  refine Finset.sum_congr rfl fun k _ => congrArg _ (Shape.idx_ext₂ rfl rfl)

/-- The column-sum-of-squares payload. -/
theorem pay4_5_apply (x0 : Vec Ideal S5000x128 .f32) (x1 : Vec Ideal S1x128 .f32) (s : Vec Ideal S1x128 .f32) (j : S1x128.Idx) :
    k4_pay5 x0 x1 s j = s j + ∑ k : Fin 5000, k4_pay3 x0 x1 (ix2 (n0 := 5000) (n1 := 128) k (j 1)) * k4_pay3 x0 x1 (ix2 (n0 := 5000) (n1 := 128) k (j 1)) := by
  unfold k4_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k4_pay3 x0 x1) (k4_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay4_1_apply (j : S1x128.Idx) : k4_pay1 (F := Ideal) j = 0 := by
  unfold k4_pay1
  simp only [shapeCast_self]
  show Ideal.ofBits .f32 0#32 = 0
  exact Ideal.ofBits_zero_f32
theorem pay4_2_apply (j : S1x128.Idx) : k4_pay2 (F := Ideal) j = 0 := by
  unfold k4_pay2
  simp only [shapeCast_self]
  show Ideal.ofBits .f32 0#32 = 0
  exact Ideal.ofBits_zero_f32

/-- Row `k` of tile `t` in the whole array (a total function of two naturals: in range, `5000 t + k`). -/
def rowIx4 (t k : ℕ) : Fin 100000 := ⟨(5000 * t + k) % 100000, Nat.mod_lt _ (by norm_num)⟩

/-- A sum over 100000 rows is the sum over 20 tiles of 5000 rows. -/
theorem sum_blocks4 (f : Fin 100000 → EReal) :
    ∑ i : Fin 100000, f i = ∑ t : Fin 20, ∑ k : Fin 5000, f (rowIx4 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A4_0 (c : Dev nD) : FVec Ideal S100000x128 .f32 := V c (Pipeline.arrRef spec4 0)
abbrev A4_1 (c : Dev nD) : FVec Ideal S1x128 .f32 := V c (Pipeline.arrRef spec4 1)

/-- The printed index maps, decided over the grid. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Where tile `t`'s elements sit in the whole array (windows 0 and 2 alike). -/
theorem blk4_0_emb (t : Fin cfg4.N) (y : S5000x128.Idx) :
    ((cfg4.win 0).blk t).view.emb y = ix2 (n0 := 100000) (n1 := 128) (rowIx4 t.val (y 0).val) (y 1) := by
  obtain ⟨e0, e1, -⟩ := idx_facts4 t
  have hN : t.val < 20 := lt_of_lt_of_eq t.isLt (show cfg4.N = 20 from N_4)
  have h0 : (y 0).val < 5000 := idx2_lt0 y
  apply Shape.idx_ext₂
  · show win4_0.index t (0 : Fin 2) * 5000 + 1 * (y 0).val = (5000 * t.val + (y 0).val) % 100000; omega
  · show win4_0.index t (1 : Fin 2) * 128 + 1 * (y 1).val = (y 1).val; omega
theorem blk4_2_emb (t : Fin cfg4.N) (y : S5000x128.Idx) :
    ((cfg4.win 2).blk t).view.emb y = ix2 (n0 := 100000) (n1 := 128) (rowIx4 t.val (y 0).val) (y 1) := by
  obtain ⟨-, -, -, -, e0, e1, -⟩ := idx_facts4 t
  have hN : t.val < 20 := lt_of_lt_of_eq t.isLt (show cfg4.N = 20 from N_4)
  have h0 : (y 0).val < 5000 := idx2_lt0 y
  apply Shape.idx_ext₂
  · show win4_2.index t (0 : Fin 2) * 5000 + 1 * (y 0).val = (5000 * t.val + (y 0).val) % 100000; omega
  · show win4_2.index t (1 : Fin 2) * 128 + 1 * (y 1).val = (y 1).val; omega
/-- The small windows' block is their whole array. -/
theorem blk4_1_emb (t : Fin cfg4.N) (y : S1x128.Idx) : ((cfg4.win 1).blk t).view.emb y = y := by
  obtain ⟨-, -, e0, e1, -⟩ := idx_facts4 t
  apply Shape.idx_ext₂
  · show win4_1.index t (0 : Fin 2) * 1 + 1 * (y 0).val = (y 0).val; omega
  · show win4_1.index t (1 : Fin 2) * 128 + 1 * (y 1).val = (y 1).val; omega
theorem blk4_3_emb (t : Fin cfg4.N) (y : S1x128.Idx) : ((cfg4.win 3).blk t).view.emb y = y := by
  obtain ⟨-, -, -, -, -, -, e0, e1, -⟩ := idx_facts4 t
  apply Shape.idx_ext₂
  · show win4_3.index t (0 : Fin 2) * 1 + 1 * (y 0).val = (y 0).val; omega
  · show win4_3.index t (1 : Fin 2) * 128 + 1 * (y 1).val = (y 1).val; omega
theorem blk4_4_emb (t : Fin cfg4.N) (y : S1x128.Idx) : ((cfg4.win 4).blk t).view.emb y = y := by
  obtain ⟨-, -, -, -, -, -, -, -, e0, e1⟩ := idx_facts4 t
  apply Shape.idx_ext₂
  · show win4_4.index t (0 : Fin 2) * 1 + 1 * (y 0).val = (y 0).val; omega
  · show win4_4.index t (1 : Fin 2) * 128 + 1 * (y 1).val = (y 1).val; omega

/-- The input windows' blocks, read at a block index, are the arrays' elements. -/
theorem iblk4_0_apply (c : Dev nD) (t : Fin cfg4.N) (y : S5000x128.Idx) :
    iblk4 V c 0 t y = A4_0 V c (ix2 (n0 := 100000) (n1 := 128) (rowIx4 t.val (y 0).val) (y 1)) := by
  show A4_0 V c (((cfg4.win 0).blk t).view.emb y) = _
  rw [blk4_0_emb]
theorem iblk4_1_apply (c : Dev nD) (t : Fin cfg4.N) (y : S1x128.Idx) : iblk4 V c 1 t y = A4_1 V c y := by
  show A4_1 V c (((cfg4.win 1).blk t).view.emb y) = _
  rw [blk4_1_emb]

/-- ONE ELEMENT of what a point computes pointwise is the closed form's element at its place in the whole array. -/
theorem term_eq4 (c : Dev nD) (t : Fin cfg4.N) (k : Fin 5000) (j1 : Fin 128) :
    k4_pay3 (iblk4 V c 0 t) (iblk4 V c 1 t) (ix2 (n0 := 5000) (n1 := 128) k j1)
      = G1_2 (A4_0 V c) (A4_1 V c) (ix2 (n0 := 100000) (n1 := 128) (rowIx4 t.val k.val) j1) := by
  rw [pay4_3_apply, iblk4_0_apply, iblk4_1_apply]
  rfl

/-! ## A block read back through its window -/

/-- Contents `X` of window 2's buffer, written back at point `t`, are tile `t` of an array `G` when they agree element by
    element. -/
theorem flushed_read4_2 (t : Fin cfg4.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx4 t.val a.val) b)) :
    (cfg4.win 2).cut (grid4.coords t) X = ((cfg4.win 2).blk t).view.read (Elt Ideal) G := by
  refine funext fun (y : S5000x128.Idx) => ?_
  show X y = G (((cfg4.win 2).blk t).view.emb y)
  rw [blk4_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read4_3 (t : Fin cfg4.N) (X G : Vec Ideal S1x128 .f32) (h : ∀ y, X y = G y) :
    (cfg4.win 3).cut (grid4.coords t) X = ((cfg4.win 3).blk t).view.read (Elt Ideal) G := by
  refine funext fun (y : S1x128.Idx) => ?_
  show X y = G (((cfg4.win 3).blk t).view.emb y)
  rw [blk4_3_emb]; exact h y
theorem flushed_read4_4 (t : Fin cfg4.N) (X G : Vec Ideal S1x128 .f32) (h : ∀ y, X y = G y) :
    (cfg4.win 4).cut (grid4.coords t) X = ((cfg4.win 4).blk t).view.read (Elt Ideal) G := by
  refine funext fun (y : S1x128.Idx) => ?_
  show X y = G (((cfg4.win 4).blk t).view.emb y)
  rw [blk4_4_emb]; exact h y

/-- A sum over one tile. -/
theorem sum_one4 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ4 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed4_2_eq (c : Dev nD) (t : Fin cfg4.N) :
    (dat4 V c).flushed 2 t = ((cfg4.win 2).blk t).view.read (Elt Ideal) (G1_2 (A4_0 V c) (A4_1 V c)) := by
  show (cfg4.win 2).cut (grid4.coords t) ((dat4 V c).after 2 t) = _
  rw [after4_2]
  unfold out4_2
  rw [View.canon_unit_zero hzero4]
  simp only [View.ld_unit_zero (S := S5000x128) hzero4, View.ld_unit_zero (S := S1x128) hzero4]
  refine flushed_read4_2 t _ _ fun a b => ?_
  exact term_eq4 V c t a b

/-- Every element of window 2's array is in some tile. -/
theorem cover4_2 (c : Dev nD) (i : ((cfg4.win 2).arr.view.loc (c.tc : Thread nD τ)).2.ty.Idx) :
    ∃ t : Fin cfg4.N, (cfg4.win 2).flush t = true ∧ i ∈ ((cfg4.win 2).blk t).view.set := by
  have hi0 : (i 0).val < 100000 := idx2_lt0 (n0 := 100000) (n1 := 128) i
  have hN : cfg4.N = 20 := N_4
  let t : Fin cfg4.N := ⟨(i 0).val / 5000, by rw [hN]; omega⟩
  let y : S5000x128.Idx := ix2 (n0 := 5000) (n1 := 128) ⟨(i 0).val % 5000, Nat.mod_lt _ (by norm_num)⟩ (i 1)
  refine ⟨t, flush4_2 t, ?_⟩
  have e : ((cfg4.win 2).blk t).view.emb y = i := by
    rw [blk4_2_emb]
    apply Shape.idx_ext₂
    · show (5000 * ((i 0).val / 5000) + (i 0).val % 5000) % 100000 = (i 0).val; omega
    · rfl
  rw [← e]
  exact ((cfg4.win 2).blk t).view.emb_mem_set y

/-- WINDOW 2'S ARRAY after the region. -/
theorem final4_2 (c : Dev nD) :
    (dat4 V c).arrAt 2 cfg4.N = G1_2 (V c (Pipeline.arrRef spec4 0)) (V c (Pipeline.arrRef spec4 1)) :=
  (dat4 V c).arrAt_eq_of_cover 2 (G1_2 (A4_0 V c) (A4_1 V c)) (fun t _ => flushed4_2_eq V c t) (cover4_2 c)

/-! ## The accumulators: after `n + 1` points, the column sums over the first `n + 1` tiles -/

theorem souts4_sum (c : Dev nD) : ∀ (n : ℕ) (hn : n < cfg4.N) (j : S1x128.Idx),
    (souts4 V c n hn).1 j = ∑ t : Fin (n + 1), ∑ k : Fin 5000, G1_2 (A4_0 V c) (A4_1 V c) (ix2 (n0 := 100000) (n1 := 128) (rowIx4 t.val k.val) (j 1))
    ∧ (souts4 V c n hn).2 j = ∑ t : Fin (n + 1), ∑ k : Fin 5000,
        G1_2 (A4_0 V c) (A4_1 V c) (ix2 (n0 := 100000) (n1 := 128) (rowIx4 t.val k.val) (j 1)) * G1_2 (A4_0 V c) (A4_1 V c) (ix2 (n0 := 100000) (n1 := 128) (rowIx4 t.val k.val) (j 1))
  | 0, hn, j => by
    have e : souts4 V c 0 hn = (sA4_0 (iblk4 V c 0 ⟨0, hn⟩) (iblk4 V c 1 ⟨0, hn⟩), sA4_1 (iblk4 V c 0 ⟨0, hn⟩) (iblk4 V c 1 ⟨0, hn⟩)) := rfl
    rw [e]
    dsimp only
    unfold sA4_0 sA4_1
    rw [View.canon_cons_unit_zero hzero4, View.canon_cons_unit_zero hzero4]
    simp only [View.ld_unit_zero (S := S5000x128) hzero4, View.ld_unit_zero (S := S1x128) hzero4]
    rw [pay4_4_apply, pay4_5_apply, pay4_1_apply, pay4_2_apply]
    refine ⟨?_, ?_⟩
    · exact (zero_add _).trans ((Finset.sum_congr rfl fun k _ => term_eq4 V c ⟨0, hn⟩ k (j 1)).trans
        (sum_one4 fun t => ∑ k : Fin 5000, G1_2 (A4_0 V c) (A4_1 V c) (ix2 (n0 := 100000) (n1 := 128) (rowIx4 t k.val) (j 1))).symm)
    · exact (zero_add _).trans ((Finset.sum_congr rfl fun k _ => congrArg₂ (· * ·) (term_eq4 V c ⟨0, hn⟩ k (j 1)) (term_eq4 V c ⟨0, hn⟩ k (j 1))).trans
        (sum_one4 fun t => ∑ k : Fin 5000, G1_2 (A4_0 V c) (A4_1 V c) (ix2 (n0 := 100000) (n1 := 128) (rowIx4 t k.val) (j 1)) * G1_2 (A4_0 V c) (A4_1 V c) (ix2 (n0 := 100000) (n1 := 128) (rowIx4 t k.val) (j 1))).symm)
  | n + 1, hn, j => by
    obtain ⟨ih1, ih2⟩ := souts4_sum c n (Nat.lt_of_succ_lt hn) j
    have e : souts4 V c (n + 1) hn = (sB4_0 (iblk4 V c 0 ⟨n + 1, hn⟩) (iblk4 V c 1 ⟨n + 1, hn⟩) (souts4 V c n (Nat.lt_of_succ_lt hn)).1,
        sB4_1 (iblk4 V c 0 ⟨n + 1, hn⟩) (iblk4 V c 1 ⟨n + 1, hn⟩) (souts4 V c n (Nat.lt_of_succ_lt hn)).2) := rfl
    rw [e]
    dsimp only
    unfold sB4_0 sB4_1
    rw [View.canon_unit_zero hzero4, View.canon_unit_zero hzero4]
    simp only [View.ld_unit_zero (S := S5000x128) hzero4, View.ld_unit_zero (S := S1x128) hzero4]
    rw [pay4_4_apply, pay4_5_apply, ih1, ih2]
    refine ⟨?_, ?_⟩
    · exact (congrArg _ (Finset.sum_congr rfl fun k _ => term_eq4 V c ⟨n + 1, hn⟩ k (j 1))).trans
        (sum_succ4 n fun t => ∑ k : Fin 5000, G1_2 (A4_0 V c) (A4_1 V c) (ix2 (n0 := 100000) (n1 := 128) (rowIx4 t k.val) (j 1))).symm
    · exact (congrArg _ (Finset.sum_congr rfl fun k _ => congrArg₂ (· * ·) (term_eq4 V c ⟨n + 1, hn⟩ k (j 1)) (term_eq4 V c ⟨n + 1, hn⟩ k (j 1)))).trans
        (sum_succ4 n fun t => ∑ k : Fin 5000, G1_2 (A4_0 V c) (A4_1 V c) (ix2 (n0 := 100000) (n1 := 128) (rowIx4 t k.val) (j 1)) * G1_2 (A4_0 V c) (A4_1 V c) (ix2 (n0 := 100000) (n1 := 128) (rowIx4 t k.val) (j 1))).symm

/-- After the last point: the column sums over all 100000 rows. -/
theorem souts4_last (c : Dev nD) (t : Fin cfg4.N) (ht : t.val = 19) (j : S1x128.Idx) :
    (souts4 V c t.val t.isLt).1 j = G1_3 (A4_0 V c) (A4_1 V c) j ∧ (souts4 V c t.val t.isLt).2 j = G1_4 (A4_0 V c) (A4_1 V c) j := by
  obtain ⟨n, hn⟩ := t
  dsimp only at ht
  subst ht
  obtain ⟨h1, h2⟩ := souts4_sum V c 19 hn j
  unfold G1_3 G1_4
  rw [sum_blocks4, sum_blocks4]
  exact ⟨h1, h2⟩

/-! ## Output windows 3 and 4: written back once, at the last point -/

theorem flushed4_3_eq (c : Dev nD) (t : Fin cfg4.N) (hf : (cfg4.win 3).flush t = true) :
    (dat4 V c).flushed 3 t = ((cfg4.win 3).blk t).view.read (Elt Ideal) (G1_3 (A4_0 V c) (A4_1 V c)) := by
  have ht : t.val = 19 := by
    have hN : t.val < 20 := lt_of_lt_of_eq t.isLt (show cfg4.N = 20 from N_4)
    have := (flush4_3 t).mp hf; omega
  show (cfg4.win 3).cut (grid4.coords t) ((dat4 V c).after 3 t) = _
  rw [after4_3]
  exact flushed_read4_3 t _ _ fun y => (souts4_last V c t ht y).1

theorem flushed4_4_eq (c : Dev nD) (t : Fin cfg4.N) (hf : (cfg4.win 4).flush t = true) :
    (dat4 V c).flushed 4 t = ((cfg4.win 4).blk t).view.read (Elt Ideal) (G1_4 (A4_0 V c) (A4_1 V c)) := by
  have ht : t.val = 19 := by
    have hN : t.val < 20 := lt_of_lt_of_eq t.isLt (show cfg4.N = 20 from N_4)
    have := (flush4_4 t).mp hf; omega
  show (cfg4.win 4).cut (grid4.coords t) ((dat4 V c).after 4 t) = _
  rw [after4_4]
  exact flushed_read4_4 t _ _ fun y => (souts4_last V c t ht y).2

/-- The last point's block is the whole array. -/
theorem cover4_3 (c : Dev nD) (i : ((cfg4.win 3).arr.view.loc (c.tc : Thread nD τ)).2.ty.Idx) :
    ∃ t : Fin cfg4.N, (cfg4.win 3).flush t = true ∧ i ∈ ((cfg4.win 3).blk t).view.set := by
  have hN : cfg4.N = 20 := N_4
  let t : Fin cfg4.N := ⟨19, by rw [hN]; norm_num⟩
  refine ⟨t, (flush4_3 t).mpr rfl, ?_⟩
  have e : ((cfg4.win 3).blk t).view.emb (i : S1x128.Idx) = i := blk4_3_emb t i
  rw [← e]
  exact ((cfg4.win 3).blk t).view.emb_mem_set (i : S1x128.Idx)
theorem cover4_4 (c : Dev nD) (i : ((cfg4.win 4).arr.view.loc (c.tc : Thread nD τ)).2.ty.Idx) :
    ∃ t : Fin cfg4.N, (cfg4.win 4).flush t = true ∧ i ∈ ((cfg4.win 4).blk t).view.set := by
  have hN : cfg4.N = 20 := N_4
  let t : Fin cfg4.N := ⟨19, by rw [hN]; norm_num⟩
  refine ⟨t, (flush4_4 t).mpr rfl, ?_⟩
  have e : ((cfg4.win 4).blk t).view.emb (i : S1x128.Idx) = i := blk4_4_emb t i
  rw [← e]
  exact ((cfg4.win 4).blk t).view.emb_mem_set (i : S1x128.Idx)

/-- WINDOWS 3 AND 4'S ARRAYS after the region. -/
theorem final4_3 (c : Dev nD) :
    (dat4 V c).arrAt 3 cfg4.N = G1_3 (V c (Pipeline.arrRef spec4 0)) (V c (Pipeline.arrRef spec4 1)) :=
  (dat4 V c).arrAt_eq_of_cover 3 (G1_3 (A4_0 V c) (A4_1 V c)) (fun t hf => flushed4_3_eq V c t hf) (cover4_3 c)
theorem final4_4 (c : Dev nD) :
    (dat4 V c).arrAt 4 cfg4.N = G1_4 (V c (Pipeline.arrRef spec4 0)) (V c (Pipeline.arrRef spec4 1)) :=
  (dat4 V c).arrAt_eq_of_cover 4 (G1_4 (A4_0 V c) (A4_1 V c)) (fun t hf => flushed4_4_eq V c t hf) (cover4_4 c)

end Value

end Cert.KernelIdeal.Hand

end
-- ==== Proof.KI.ValS7.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS7
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero7 : (![0, 0] : Fin 2 → Nat) = fun _ => 0 := funext fun a => by fin_cases a <;> rfl

/-- The pointwise payload: max (tile + bias row, 0). -/
theorem pay7_3_apply (x0 : Vec Ideal S5000x128 .f32) (x1 : Vec Ideal S1x128 .f32) (j : S5000x128.Idx) :
    k7_pay3 x0 x1 j = max (x0 j + x1 (ix2 (n0 := 1) (n1 := 128) 0 (j 1))) 0 := by
  unfold k7_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay7_4_apply (x0 : Vec Ideal S5000x128 .f32) (x1 : Vec Ideal S1x128 .f32) (s : Vec Ideal S1x128 .f32) (j : S1x128.Idx) :
    k7_pay4 x0 x1 s j = s j + ∑ k : Fin 5000, k7_pay3 x0 x1 (ix2 (n0 := 5000) (n1 := 128) k (j 1)) := by
  unfold k7_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k7_pay3 x0 x1) _ reduces_S5000x128_S128 _ _ (fun a => j a.succ)).trans ?_)
  refine Finset.sum_congr rfl fun k _ => congrArg _ (Shape.idx_ext₂ rfl rfl)

/-- The column-sum-of-squares payload. -/
theorem pay7_5_apply (x0 : Vec Ideal S5000x128 .f32) (x1 : Vec Ideal S1x128 .f32) (s : Vec Ideal S1x128 .f32) (j : S1x128.Idx) :
    k7_pay5 x0 x1 s j = s j + ∑ k : Fin 5000, k7_pay3 x0 x1 (ix2 (n0 := 5000) (n1 := 128) k (j 1)) * k7_pay3 x0 x1 (ix2 (n0 := 5000) (n1 := 128) k (j 1)) := by
  unfold k7_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k7_pay3 x0 x1) (k7_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay7_1_apply (j : S1x128.Idx) : k7_pay1 (F := Ideal) j = 0 := by
  unfold k7_pay1
  simp only [shapeCast_self]
  show Ideal.ofBits .f32 0#32 = 0
  exact Ideal.ofBits_zero_f32
theorem pay7_2_apply (j : S1x128.Idx) : k7_pay2 (F := Ideal) j = 0 := by
  unfold k7_pay2
  simp only [shapeCast_self]
  show Ideal.ofBits .f32 0#32 = 0
  exact Ideal.ofBits_zero_f32

/-- Row `k` of tile `t` in the whole array (a total function of two naturals: in range, `5000 t + k`). -/
def rowIx7 (t k : ℕ) : Fin 100000 := ⟨(5000 * t + k) % 100000, Nat.mod_lt _ (by norm_num)⟩

/-- A sum over 100000 rows is the sum over 20 tiles of 5000 rows. -/
theorem sum_blocks7 (f : Fin 100000 → EReal) :
    ∑ i : Fin 100000, f i = ∑ t : Fin 20, ∑ k : Fin 5000, f (rowIx7 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A7_0 (c : Dev nD) : FVec Ideal S100000x128 .f32 := V c (Pipeline.arrRef spec7 0)
abbrev A7_1 (c : Dev nD) : FVec Ideal S1x128 .f32 := V c (Pipeline.arrRef spec7 1)

/-- The printed index maps, decided over the grid. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Where tile `t`'s elements sit in the whole array (windows 0 and 2 alike). -/
theorem blk7_0_emb (t : Fin cfg7.N) (y : S5000x128.Idx) :
    ((cfg7.win 0).blk t).view.emb y = ix2 (n0 := 100000) (n1 := 128) (rowIx7 t.val (y 0).val) (y 1) := by
  obtain ⟨e0, e1, -⟩ := idx_facts7 t
  have hN : t.val < 20 := lt_of_lt_of_eq t.isLt (show cfg7.N = 20 from N_7)
  have h0 : (y 0).val < 5000 := idx2_lt0 y
  apply Shape.idx_ext₂
  · show win7_0.index t (0 : Fin 2) * 5000 + 1 * (y 0).val = (5000 * t.val + (y 0).val) % 100000; omega
  · show win7_0.index t (1 : Fin 2) * 128 + 1 * (y 1).val = (y 1).val; omega
theorem blk7_2_emb (t : Fin cfg7.N) (y : S5000x128.Idx) :
    ((cfg7.win 2).blk t).view.emb y = ix2 (n0 := 100000) (n1 := 128) (rowIx7 t.val (y 0).val) (y 1) := by
  obtain ⟨-, -, -, -, e0, e1, -⟩ := idx_facts7 t
  have hN : t.val < 20 := lt_of_lt_of_eq t.isLt (show cfg7.N = 20 from N_7)
  have h0 : (y 0).val < 5000 := idx2_lt0 y
  apply Shape.idx_ext₂
  · show win7_2.index t (0 : Fin 2) * 5000 + 1 * (y 0).val = (5000 * t.val + (y 0).val) % 100000; omega
  · show win7_2.index t (1 : Fin 2) * 128 + 1 * (y 1).val = (y 1).val; omega
/-- The small windows' block is their whole array. -/
theorem blk7_1_emb (t : Fin cfg7.N) (y : S1x128.Idx) : ((cfg7.win 1).blk t).view.emb y = y := by
  obtain ⟨-, -, e0, e1, -⟩ := idx_facts7 t
  apply Shape.idx_ext₂
  · show win7_1.index t (0 : Fin 2) * 1 + 1 * (y 0).val = (y 0).val; omega
  · show win7_1.index t (1 : Fin 2) * 128 + 1 * (y 1).val = (y 1).val; omega
theorem blk7_3_emb (t : Fin cfg7.N) (y : S1x128.Idx) : ((cfg7.win 3).blk t).view.emb y = y := by
  obtain ⟨-, -, -, -, -, -, e0, e1, -⟩ := idx_facts7 t
  apply Shape.idx_ext₂
  · show win7_3.index t (0 : Fin 2) * 1 + 1 * (y 0).val = (y 0).val; omega
  · show win7_3.index t (1 : Fin 2) * 128 + 1 * (y 1).val = (y 1).val; omega
theorem blk7_4_emb (t : Fin cfg7.N) (y : S1x128.Idx) : ((cfg7.win 4).blk t).view.emb y = y := by
  obtain ⟨-, -, -, -, -, -, -, -, e0, e1⟩ := idx_facts7 t
  apply Shape.idx_ext₂
  · show win7_4.index t (0 : Fin 2) * 1 + 1 * (y 0).val = (y 0).val; omega
  · show win7_4.index t (1 : Fin 2) * 128 + 1 * (y 1).val = (y 1).val; omega

/-- The input windows' blocks, read at a block index, are the arrays' elements. -/
theorem iblk7_0_apply (c : Dev nD) (t : Fin cfg7.N) (y : S5000x128.Idx) :
    iblk7 V c 0 t y = A7_0 V c (ix2 (n0 := 100000) (n1 := 128) (rowIx7 t.val (y 0).val) (y 1)) := by
  show A7_0 V c (((cfg7.win 0).blk t).view.emb y) = _
  rw [blk7_0_emb]
theorem iblk7_1_apply (c : Dev nD) (t : Fin cfg7.N) (y : S1x128.Idx) : iblk7 V c 1 t y = A7_1 V c y := by
  show A7_1 V c (((cfg7.win 1).blk t).view.emb y) = _
  rw [blk7_1_emb]

/-- ONE ELEMENT of what a point computes pointwise is the closed form's element at its place in the whole array. -/
theorem term_eq7 (c : Dev nD) (t : Fin cfg7.N) (k : Fin 5000) (j1 : Fin 128) :
    k7_pay3 (iblk7 V c 0 t) (iblk7 V c 1 t) (ix2 (n0 := 5000) (n1 := 128) k j1)
      = G1_2 (A7_0 V c) (A7_1 V c) (ix2 (n0 := 100000) (n1 := 128) (rowIx7 t.val k.val) j1) := by
  rw [pay7_3_apply, iblk7_0_apply, iblk7_1_apply]
  rfl

/-! ## A block read back through its window -/

/-- Contents `X` of window 2's buffer, written back at point `t`, are tile `t` of an array `G` when they agree element by
    element. -/
theorem flushed_read7_2 (t : Fin cfg7.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx7 t.val a.val) b)) :
    (cfg7.win 2).cut (grid7.coords t) X = ((cfg7.win 2).blk t).view.read (Elt Ideal) G := by
  refine funext fun (y : S5000x128.Idx) => ?_
  show X y = G (((cfg7.win 2).blk t).view.emb y)
  rw [blk7_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read7_3 (t : Fin cfg7.N) (X G : Vec Ideal S1x128 .f32) (h : ∀ y, X y = G y) :
    (cfg7.win 3).cut (grid7.coords t) X = ((cfg7.win 3).blk t).view.read (Elt Ideal) G := by
  refine funext fun (y : S1x128.Idx) => ?_
  show X y = G (((cfg7.win 3).blk t).view.emb y)
  rw [blk7_3_emb]; exact h y
theorem flushed_read7_4 (t : Fin cfg7.N) (X G : Vec Ideal S1x128 .f32) (h : ∀ y, X y = G y) :
    (cfg7.win 4).cut (grid7.coords t) X = ((cfg7.win 4).blk t).view.read (Elt Ideal) G := by
  refine funext fun (y : S1x128.Idx) => ?_
  show X y = G (((cfg7.win 4).blk t).view.emb y)
  rw [blk7_4_emb]; exact h y

/-- A sum over one tile. -/
theorem sum_one7 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ7 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed7_2_eq (c : Dev nD) (t : Fin cfg7.N) :
    (dat7 V c).flushed 2 t = ((cfg7.win 2).blk t).view.read (Elt Ideal) (G1_2 (A7_0 V c) (A7_1 V c)) := by
  show (cfg7.win 2).cut (grid7.coords t) ((dat7 V c).after 2 t) = _
  rw [after7_2]
  unfold out7_2
  rw [View.canon_unit_zero hzero7]
  simp only [View.ld_unit_zero (S := S5000x128) hzero7, View.ld_unit_zero (S := S1x128) hzero7]
  refine flushed_read7_2 t _ _ fun a b => ?_
  exact term_eq7 V c t a b

/-- Every element of window 2's array is in some tile. -/
theorem cover7_2 (c : Dev nD) (i : ((cfg7.win 2).arr.view.loc (c.tc : Thread nD τ)).2.ty.Idx) :
    ∃ t : Fin cfg7.N, (cfg7.win 2).flush t = true ∧ i ∈ ((cfg7.win 2).blk t).view.set := by
  have hi0 : (i 0).val < 100000 := idx2_lt0 (n0 := 100000) (n1 := 128) i
  have hN : cfg7.N = 20 := N_7
  let t : Fin cfg7.N := ⟨(i 0).val / 5000, by rw [hN]; omega⟩
  let y : S5000x128.Idx := ix2 (n0 := 5000) (n1 := 128) ⟨(i 0).val % 5000, Nat.mod_lt _ (by norm_num)⟩ (i 1)
  refine ⟨t, flush7_2 t, ?_⟩
  have e : ((cfg7.win 2).blk t).view.emb y = i := by
    rw [blk7_2_emb]
    apply Shape.idx_ext₂
    · show (5000 * ((i 0).val / 5000) + (i 0).val % 5000) % 100000 = (i 0).val; omega
    · rfl
  rw [← e]
  exact ((cfg7.win 2).blk t).view.emb_mem_set y

/-- WINDOW 2'S ARRAY after the region. -/
theorem final7_2 (c : Dev nD) :
    (dat7 V c).arrAt 2 cfg7.N = G1_2 (V c (Pipeline.arrRef spec7 0)) (V c (Pipeline.arrRef spec7 1)) :=
  (dat7 V c).arrAt_eq_of_cover 2 (G1_2 (A7_0 V c) (A7_1 V c)) (fun t _ => flushed7_2_eq V c t) (cover7_2 c)

/-! ## The accumulators: after `n + 1` points, the column sums over the first `n + 1` tiles -/

theorem souts7_sum (c : Dev nD) : ∀ (n : ℕ) (hn : n < cfg7.N) (j : S1x128.Idx),
    (souts7 V c n hn).1 j = ∑ t : Fin (n + 1), ∑ k : Fin 5000, G1_2 (A7_0 V c) (A7_1 V c) (ix2 (n0 := 100000) (n1 := 128) (rowIx7 t.val k.val) (j 1))
    ∧ (souts7 V c n hn).2 j = ∑ t : Fin (n + 1), ∑ k : Fin 5000,
        G1_2 (A7_0 V c) (A7_1 V c) (ix2 (n0 := 100000) (n1 := 128) (rowIx7 t.val k.val) (j 1)) * G1_2 (A7_0 V c) (A7_1 V c) (ix2 (n0 := 100000) (n1 := 128) (rowIx7 t.val k.val) (j 1))
  | 0, hn, j => by
    have e : souts7 V c 0 hn = (sA7_0 (iblk7 V c 0 ⟨0, hn⟩) (iblk7 V c 1 ⟨0, hn⟩), sA7_1 (iblk7 V c 0 ⟨0, hn⟩) (iblk7 V c 1 ⟨0, hn⟩)) := rfl
    rw [e]
    dsimp only
    unfold sA7_0 sA7_1
    rw [View.canon_cons_unit_zero hzero7, View.canon_cons_unit_zero hzero7]
    simp only [View.ld_unit_zero (S := S5000x128) hzero7, View.ld_unit_zero (S := S1x128) hzero7]
    rw [pay7_4_apply, pay7_5_apply, pay7_1_apply, pay7_2_apply]
    refine ⟨?_, ?_⟩
    · exact (zero_add _).trans ((Finset.sum_congr rfl fun k _ => term_eq7 V c ⟨0, hn⟩ k (j 1)).trans
        (sum_one7 fun t => ∑ k : Fin 5000, G1_2 (A7_0 V c) (A7_1 V c) (ix2 (n0 := 100000) (n1 := 128) (rowIx7 t k.val) (j 1))).symm)
    · exact (zero_add _).trans ((Finset.sum_congr rfl fun k _ => congrArg₂ (· * ·) (term_eq7 V c ⟨0, hn⟩ k (j 1)) (term_eq7 V c ⟨0, hn⟩ k (j 1))).trans
        (sum_one7 fun t => ∑ k : Fin 5000, G1_2 (A7_0 V c) (A7_1 V c) (ix2 (n0 := 100000) (n1 := 128) (rowIx7 t k.val) (j 1)) * G1_2 (A7_0 V c) (A7_1 V c) (ix2 (n0 := 100000) (n1 := 128) (rowIx7 t k.val) (j 1))).symm)
  | n + 1, hn, j => by
    obtain ⟨ih1, ih2⟩ := souts7_sum c n (Nat.lt_of_succ_lt hn) j
    have e : souts7 V c (n + 1) hn = (sB7_0 (iblk7 V c 0 ⟨n + 1, hn⟩) (iblk7 V c 1 ⟨n + 1, hn⟩) (souts7 V c n (Nat.lt_of_succ_lt hn)).1,
        sB7_1 (iblk7 V c 0 ⟨n + 1, hn⟩) (iblk7 V c 1 ⟨n + 1, hn⟩) (souts7 V c n (Nat.lt_of_succ_lt hn)).2) := rfl
    rw [e]
    dsimp only
    unfold sB7_0 sB7_1
    rw [View.canon_unit_zero hzero7, View.canon_unit_zero hzero7]
    simp only [View.ld_unit_zero (S := S5000x128) hzero7, View.ld_unit_zero (S := S1x128) hzero7]
    rw [pay7_4_apply, pay7_5_apply, ih1, ih2]
    refine ⟨?_, ?_⟩
    · exact (congrArg _ (Finset.sum_congr rfl fun k _ => term_eq7 V c ⟨n + 1, hn⟩ k (j 1))).trans
        (sum_succ7 n fun t => ∑ k : Fin 5000, G1_2 (A7_0 V c) (A7_1 V c) (ix2 (n0 := 100000) (n1 := 128) (rowIx7 t k.val) (j 1))).symm
    · exact (congrArg _ (Finset.sum_congr rfl fun k _ => congrArg₂ (· * ·) (term_eq7 V c ⟨n + 1, hn⟩ k (j 1)) (term_eq7 V c ⟨n + 1, hn⟩ k (j 1)))).trans
        (sum_succ7 n fun t => ∑ k : Fin 5000, G1_2 (A7_0 V c) (A7_1 V c) (ix2 (n0 := 100000) (n1 := 128) (rowIx7 t k.val) (j 1)) * G1_2 (A7_0 V c) (A7_1 V c) (ix2 (n0 := 100000) (n1 := 128) (rowIx7 t k.val) (j 1))).symm

/-- After the last point: the column sums over all 100000 rows. -/
theorem souts7_last (c : Dev nD) (t : Fin cfg7.N) (ht : t.val = 19) (j : S1x128.Idx) :
    (souts7 V c t.val t.isLt).1 j = G1_3 (A7_0 V c) (A7_1 V c) j ∧ (souts7 V c t.val t.isLt).2 j = G1_4 (A7_0 V c) (A7_1 V c) j := by
  obtain ⟨n, hn⟩ := t
  dsimp only at ht
  subst ht
  obtain ⟨h1, h2⟩ := souts7_sum V c 19 hn j
  unfold G1_3 G1_4
  rw [sum_blocks7, sum_blocks7]
  exact ⟨h1, h2⟩

/-! ## Output windows 3 and 4: written back once, at the last point -/

theorem flushed7_3_eq (c : Dev nD) (t : Fin cfg7.N) (hf : (cfg7.win 3).flush t = true) :
    (dat7 V c).flushed 3 t = ((cfg7.win 3).blk t).view.read (Elt Ideal) (G1_3 (A7_0 V c) (A7_1 V c)) := by
  have ht : t.val = 19 := by
    have hN : t.val < 20 := lt_of_lt_of_eq t.isLt (show cfg7.N = 20 from N_7)
    have := (flush7_3 t).mp hf; omega
  show (cfg7.win 3).cut (grid7.coords t) ((dat7 V c).after 3 t) = _
  rw [after7_3]
  exact flushed_read7_3 t _ _ fun y => (souts7_last V c t ht y).1

theorem flushed7_4_eq (c : Dev nD) (t : Fin cfg7.N) (hf : (cfg7.win 4).flush t = true) :
    (dat7 V c).flushed 4 t = ((cfg7.win 4).blk t).view.read (Elt Ideal) (G1_4 (A7_0 V c) (A7_1 V c)) := by
  have ht : t.val = 19 := by
    have hN : t.val < 20 := lt_of_lt_of_eq t.isLt (show cfg7.N = 20 from N_7)
    have := (flush7_4 t).mp hf; omega
  show (cfg7.win 4).cut (grid7.coords t) ((dat7 V c).after 4 t) = _
  rw [after7_4]
  exact flushed_read7_4 t _ _ fun y => (souts7_last V c t ht y).2

/-- The last point's block is the whole array. -/
theorem cover7_3 (c : Dev nD) (i : ((cfg7.win 3).arr.view.loc (c.tc : Thread nD τ)).2.ty.Idx) :
    ∃ t : Fin cfg7.N, (cfg7.win 3).flush t = true ∧ i ∈ ((cfg7.win 3).blk t).view.set := by
  have hN : cfg7.N = 20 := N_7
  let t : Fin cfg7.N := ⟨19, by rw [hN]; norm_num⟩
  refine ⟨t, (flush7_3 t).mpr rfl, ?_⟩
  have e : ((cfg7.win 3).blk t).view.emb (i : S1x128.Idx) = i := blk7_3_emb t i
  rw [← e]
  exact ((cfg7.win 3).blk t).view.emb_mem_set (i : S1x128.Idx)
theorem cover7_4 (c : Dev nD) (i : ((cfg7.win 4).arr.view.loc (c.tc : Thread nD τ)).2.ty.Idx) :
    ∃ t : Fin cfg7.N, (cfg7.win 4).flush t = true ∧ i ∈ ((cfg7.win 4).blk t).view.set := by
  have hN : cfg7.N = 20 := N_7
  let t : Fin cfg7.N := ⟨19, by rw [hN]; norm_num⟩
  refine ⟨t, (flush7_4 t).mpr rfl, ?_⟩
  have e : ((cfg7.win 4).blk t).view.emb (i : S1x128.Idx) = i := blk7_4_emb t i
  rw [← e]
  exact ((cfg7.win 4).blk t).view.emb_mem_set (i : S1x128.Idx)

/-- WINDOWS 3 AND 4'S ARRAYS after the region. -/
theorem final7_3 (c : Dev nD) :
    (dat7 V c).arrAt 3 cfg7.N = G1_3 (V c (Pipeline.arrRef spec7 0)) (V c (Pipeline.arrRef spec7 1)) :=
  (dat7 V c).arrAt_eq_of_cover 3 (G1_3 (A7_0 V c) (A7_1 V c)) (fun t hf => flushed7_3_eq V c t hf) (cover7_3 c)
theorem final7_4 (c : Dev nD) :
    (dat7 V c).arrAt 4 cfg7.N = G1_4 (V c (Pipeline.arrRef spec7 0)) (V c (Pipeline.arrRef spec7 1)) :=
  (dat7 V c).arrAt_eq_of_cover 4 (G1_4 (A7_0 V c) (A7_1 V c)) (fun t hf => flushed7_4_eq V c t hf) (cover7_4 c)

end Value

end Cert.KernelIdeal.Hand

end
-- ==== Proof.KI.ValS10.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS10
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero10 : (![0, 0] : Fin 2 → Nat) = fun _ => 0 := funext fun a => by fin_cases a <;> rfl

/-- The pointwise payload: max (tile + bias row, 0). -/
theorem pay10_3_apply (x0 : Vec Ideal S5000x128 .f32) (x1 : Vec Ideal S1x128 .f32) (j : S5000x128.Idx) :
    k10_pay3 x0 x1 j = max (x0 j + x1 (ix2 (n0 := 1) (n1 := 128) 0 (j 1))) 0 := by
  unfold k10_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay10_4_apply (x0 : Vec Ideal S5000x128 .f32) (x1 : Vec Ideal S1x128 .f32) (s : Vec Ideal S1x128 .f32) (j : S1x128.Idx) :
    k10_pay4 x0 x1 s j = s j + ∑ k : Fin 5000, k10_pay3 x0 x1 (ix2 (n0 := 5000) (n1 := 128) k (j 1)) := by
  unfold k10_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k10_pay3 x0 x1) _ reduces_S5000x128_S128 _ _ (fun a => j a.succ)).trans ?_)
  refine Finset.sum_congr rfl fun k _ => congrArg _ (Shape.idx_ext₂ rfl rfl)

/-- The column-sum-of-squares payload. -/
theorem pay10_5_apply (x0 : Vec Ideal S5000x128 .f32) (x1 : Vec Ideal S1x128 .f32) (s : Vec Ideal S1x128 .f32) (j : S1x128.Idx) :
    k10_pay5 x0 x1 s j = s j + ∑ k : Fin 5000, k10_pay3 x0 x1 (ix2 (n0 := 5000) (n1 := 128) k (j 1)) * k10_pay3 x0 x1 (ix2 (n0 := 5000) (n1 := 128) k (j 1)) := by
  unfold k10_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k10_pay3 x0 x1) (k10_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay10_1_apply (j : S1x128.Idx) : k10_pay1 (F := Ideal) j = 0 := by
  unfold k10_pay1
  simp only [shapeCast_self]
  show Ideal.ofBits .f32 0#32 = 0
  exact Ideal.ofBits_zero_f32
theorem pay10_2_apply (j : S1x128.Idx) : k10_pay2 (F := Ideal) j = 0 := by
  unfold k10_pay2
  simp only [shapeCast_self]
  show Ideal.ofBits .f32 0#32 = 0
  exact Ideal.ofBits_zero_f32

/-- Row `k` of tile `t` in the whole array (a total function of two naturals: in range, `5000 t + k`). -/
def rowIx10 (t k : ℕ) : Fin 100000 := ⟨(5000 * t + k) % 100000, Nat.mod_lt _ (by norm_num)⟩

/-- A sum over 100000 rows is the sum over 20 tiles of 5000 rows. -/
theorem sum_blocks10 (f : Fin 100000 → EReal) :
    ∑ i : Fin 100000, f i = ∑ t : Fin 20, ∑ k : Fin 5000, f (rowIx10 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A10_0 (c : Dev nD) : FVec Ideal S100000x128 .f32 := V c (Pipeline.arrRef spec10 0)
abbrev A10_1 (c : Dev nD) : FVec Ideal S1x128 .f32 := V c (Pipeline.arrRef spec10 1)

/-- The printed index maps, decided over the grid. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Where tile `t`'s elements sit in the whole array (windows 0 and 2 alike). -/
theorem blk10_0_emb (t : Fin cfg10.N) (y : S5000x128.Idx) :
    ((cfg10.win 0).blk t).view.emb y = ix2 (n0 := 100000) (n1 := 128) (rowIx10 t.val (y 0).val) (y 1) := by
  obtain ⟨e0, e1, -⟩ := idx_facts10 t
  have hN : t.val < 20 := lt_of_lt_of_eq t.isLt (show cfg10.N = 20 from N_10)
  have h0 : (y 0).val < 5000 := idx2_lt0 y
  apply Shape.idx_ext₂
  · show win10_0.index t (0 : Fin 2) * 5000 + 1 * (y 0).val = (5000 * t.val + (y 0).val) % 100000; omega
  · show win10_0.index t (1 : Fin 2) * 128 + 1 * (y 1).val = (y 1).val; omega
theorem blk10_2_emb (t : Fin cfg10.N) (y : S5000x128.Idx) :
    ((cfg10.win 2).blk t).view.emb y = ix2 (n0 := 100000) (n1 := 128) (rowIx10 t.val (y 0).val) (y 1) := by
  obtain ⟨-, -, -, -, e0, e1, -⟩ := idx_facts10 t
  have hN : t.val < 20 := lt_of_lt_of_eq t.isLt (show cfg10.N = 20 from N_10)
  have h0 : (y 0).val < 5000 := idx2_lt0 y
  apply Shape.idx_ext₂
  · show win10_2.index t (0 : Fin 2) * 5000 + 1 * (y 0).val = (5000 * t.val + (y 0).val) % 100000; omega
  · show win10_2.index t (1 : Fin 2) * 128 + 1 * (y 1).val = (y 1).val; omega
/-- The small windows' block is their whole array. -/
theorem blk10_1_emb (t : Fin cfg10.N) (y : S1x128.Idx) : ((cfg10.win 1).blk t).view.emb y = y := by
  obtain ⟨-, -, e0, e1, -⟩ := idx_facts10 t
  apply Shape.idx_ext₂
  · show win10_1.index t (0 : Fin 2) * 1 + 1 * (y 0).val = (y 0).val; omega
  · show win10_1.index t (1 : Fin 2) * 128 + 1 * (y 1).val = (y 1).val; omega
theorem blk10_3_emb (t : Fin cfg10.N) (y : S1x128.Idx) : ((cfg10.win 3).blk t).view.emb y = y := by
  obtain ⟨-, -, -, -, -, -, e0, e1, -⟩ := idx_facts10 t
  apply Shape.idx_ext₂
  · show win10_3.index t (0 : Fin 2) * 1 + 1 * (y 0).val = (y 0).val; omega
  · show win10_3.index t (1 : Fin 2) * 128 + 1 * (y 1).val = (y 1).val; omega
theorem blk10_4_emb (t : Fin cfg10.N) (y : S1x128.Idx) : ((cfg10.win 4).blk t).view.emb y = y := by
  obtain ⟨-, -, -, -, -, -, -, -, e0, e1⟩ := idx_facts10 t
  apply Shape.idx_ext₂
  · show win10_4.index t (0 : Fin 2) * 1 + 1 * (y 0).val = (y 0).val; omega
  · show win10_4.index t (1 : Fin 2) * 128 + 1 * (y 1).val = (y 1).val; omega

/-- The input windows' blocks, read at a block index, are the arrays' elements. -/
theorem iblk10_0_apply (c : Dev nD) (t : Fin cfg10.N) (y : S5000x128.Idx) :
    iblk10 V c 0 t y = A10_0 V c (ix2 (n0 := 100000) (n1 := 128) (rowIx10 t.val (y 0).val) (y 1)) := by
  show A10_0 V c (((cfg10.win 0).blk t).view.emb y) = _
  rw [blk10_0_emb]
theorem iblk10_1_apply (c : Dev nD) (t : Fin cfg10.N) (y : S1x128.Idx) : iblk10 V c 1 t y = A10_1 V c y := by
  show A10_1 V c (((cfg10.win 1).blk t).view.emb y) = _
  rw [blk10_1_emb]

/-- ONE ELEMENT of what a point computes pointwise is the closed form's element at its place in the whole array. -/
theorem term_eq10 (c : Dev nD) (t : Fin cfg10.N) (k : Fin 5000) (j1 : Fin 128) :
    k10_pay3 (iblk10 V c 0 t) (iblk10 V c 1 t) (ix2 (n0 := 5000) (n1 := 128) k j1)
      = G1_2 (A10_0 V c) (A10_1 V c) (ix2 (n0 := 100000) (n1 := 128) (rowIx10 t.val k.val) j1) := by
  rw [pay10_3_apply, iblk10_0_apply, iblk10_1_apply]
  rfl

/-! ## A block read back through its window -/

/-- Contents `X` of window 2's buffer, written back at point `t`, are tile `t` of an array `G` when they agree element by
    element. -/
theorem flushed_read10_2 (t : Fin cfg10.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx10 t.val a.val) b)) :
    (cfg10.win 2).cut (grid10.coords t) X = ((cfg10.win 2).blk t).view.read (Elt Ideal) G := by
  refine funext fun (y : S5000x128.Idx) => ?_
  show X y = G (((cfg10.win 2).blk t).view.emb y)
  rw [blk10_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read10_3 (t : Fin cfg10.N) (X G : Vec Ideal S1x128 .f32) (h : ∀ y, X y = G y) :
    (cfg10.win 3).cut (grid10.coords t) X = ((cfg10.win 3).blk t).view.read (Elt Ideal) G := by
  refine funext fun (y : S1x128.Idx) => ?_
  show X y = G (((cfg10.win 3).blk t).view.emb y)
  rw [blk10_3_emb]; exact h y
theorem flushed_read10_4 (t : Fin cfg10.N) (X G : Vec Ideal S1x128 .f32) (h : ∀ y, X y = G y) :
    (cfg10.win 4).cut (grid10.coords t) X = ((cfg10.win 4).blk t).view.read (Elt Ideal) G := by
  refine funext fun (y : S1x128.Idx) => ?_
  show X y = G (((cfg10.win 4).blk t).view.emb y)
  rw [blk10_4_emb]; exact h y

/-- A sum over one tile. -/
theorem sum_one10 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ10 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed10_2_eq (c : Dev nD) (t : Fin cfg10.N) :
    (dat10 V c).flushed 2 t = ((cfg10.win 2).blk t).view.read (Elt Ideal) (G1_2 (A10_0 V c) (A10_1 V c)) := by
  show (cfg10.win 2).cut (grid10.coords t) ((dat10 V c).after 2 t) = _
  rw [after10_2]
  unfold out10_2
  rw [View.canon_unit_zero hzero10]
  simp only [View.ld_unit_zero (S := S5000x128) hzero10, View.ld_unit_zero (S := S1x128) hzero10]
  refine flushed_read10_2 t _ _ fun a b => ?_
  exact term_eq10 V c t a b

/-- Every element of window 2's array is in some tile. -/
theorem cover10_2 (c : Dev nD) (i : ((cfg10.win 2).arr.view.loc (c.tc : Thread nD τ)).2.ty.Idx) :
    ∃ t : Fin cfg10.N, (cfg10.win 2).flush t = true ∧ i ∈ ((cfg10.win 2).blk t).view.set := by
  have hi0 : (i 0).val < 100000 := idx2_lt0 (n0 := 100000) (n1 := 128) i
  have hN : cfg10.N = 20 := N_10
  let t : Fin cfg10.N := ⟨(i 0).val / 5000, by rw [hN]; omega⟩
  let y : S5000x128.Idx := ix2 (n0 := 5000) (n1 := 128) ⟨(i 0).val % 5000, Nat.mod_lt _ (by norm_num)⟩ (i 1)
  refine ⟨t, flush10_2 t, ?_⟩
  have e : ((cfg10.win 2).blk t).view.emb y = i := by
    rw [blk10_2_emb]
    apply Shape.idx_ext₂
    · show (5000 * ((i 0).val / 5000) + (i 0).val % 5000) % 100000 = (i 0).val; omega
    · rfl
  rw [← e]
  exact ((cfg10.win 2).blk t).view.emb_mem_set y

/-- WINDOW 2'S ARRAY after the region. -/
theorem final10_2 (c : Dev nD) :
    (dat10 V c).arrAt 2 cfg10.N = G1_2 (V c (Pipeline.arrRef spec10 0)) (V c (Pipeline.arrRef spec10 1)) :=
  (dat10 V c).arrAt_eq_of_cover 2 (G1_2 (A10_0 V c) (A10_1 V c)) (fun t _ => flushed10_2_eq V c t) (cover10_2 c)

/-! ## The accumulators: after `n + 1` points, the column sums over the first `n + 1` tiles -/

theorem souts10_sum (c : Dev nD) : ∀ (n : ℕ) (hn : n < cfg10.N) (j : S1x128.Idx),
    (souts10 V c n hn).1 j = ∑ t : Fin (n + 1), ∑ k : Fin 5000, G1_2 (A10_0 V c) (A10_1 V c) (ix2 (n0 := 100000) (n1 := 128) (rowIx10 t.val k.val) (j 1))
    ∧ (souts10 V c n hn).2 j = ∑ t : Fin (n + 1), ∑ k : Fin 5000,
        G1_2 (A10_0 V c) (A10_1 V c) (ix2 (n0 := 100000) (n1 := 128) (rowIx10 t.val k.val) (j 1)) * G1_2 (A10_0 V c) (A10_1 V c) (ix2 (n0 := 100000) (n1 := 128) (rowIx10 t.val k.val) (j 1))
  | 0, hn, j => by
    have e : souts10 V c 0 hn = (sA10_0 (iblk10 V c 0 ⟨0, hn⟩) (iblk10 V c 1 ⟨0, hn⟩), sA10_1 (iblk10 V c 0 ⟨0, hn⟩) (iblk10 V c 1 ⟨0, hn⟩)) := rfl
    rw [e]
    dsimp only
    unfold sA10_0 sA10_1
    rw [View.canon_cons_unit_zero hzero10, View.canon_cons_unit_zero hzero10]
    simp only [View.ld_unit_zero (S := S5000x128) hzero10, View.ld_unit_zero (S := S1x128) hzero10]
    rw [pay10_4_apply, pay10_5_apply, pay10_1_apply, pay10_2_apply]
    refine ⟨?_, ?_⟩
    · exact (zero_add _).trans ((Finset.sum_congr rfl fun k _ => term_eq10 V c ⟨0, hn⟩ k (j 1)).trans
        (sum_one10 fun t => ∑ k : Fin 5000, G1_2 (A10_0 V c) (A10_1 V c) (ix2 (n0 := 100000) (n1 := 128) (rowIx10 t k.val) (j 1))).symm)
    · exact (zero_add _).trans ((Finset.sum_congr rfl fun k _ => congrArg₂ (· * ·) (term_eq10 V c ⟨0, hn⟩ k (j 1)) (term_eq10 V c ⟨0, hn⟩ k (j 1))).trans
        (sum_one10 fun t => ∑ k : Fin 5000, G1_2 (A10_0 V c) (A10_1 V c) (ix2 (n0 := 100000) (n1 := 128) (rowIx10 t k.val) (j 1)) * G1_2 (A10_0 V c) (A10_1 V c) (ix2 (n0 := 100000) (n1 := 128) (rowIx10 t k.val) (j 1))).symm)
  | n + 1, hn, j => by
    obtain ⟨ih1, ih2⟩ := souts10_sum c n (Nat.lt_of_succ_lt hn) j
    have e : souts10 V c (n + 1) hn = (sB10_0 (iblk10 V c 0 ⟨n + 1, hn⟩) (iblk10 V c 1 ⟨n + 1, hn⟩) (souts10 V c n (Nat.lt_of_succ_lt hn)).1,
        sB10_1 (iblk10 V c 0 ⟨n + 1, hn⟩) (iblk10 V c 1 ⟨n + 1, hn⟩) (souts10 V c n (Nat.lt_of_succ_lt hn)).2) := rfl
    rw [e]
    dsimp only
    unfold sB10_0 sB10_1
    rw [View.canon_unit_zero hzero10, View.canon_unit_zero hzero10]
    simp only [View.ld_unit_zero (S := S5000x128) hzero10, View.ld_unit_zero (S := S1x128) hzero10]
    rw [pay10_4_apply, pay10_5_apply, ih1, ih2]
    refine ⟨?_, ?_⟩
    · exact (congrArg _ (Finset.sum_congr rfl fun k _ => term_eq10 V c ⟨n + 1, hn⟩ k (j 1))).trans
        (sum_succ10 n fun t => ∑ k : Fin 5000, G1_2 (A10_0 V c) (A10_1 V c) (ix2 (n0 := 100000) (n1 := 128) (rowIx10 t k.val) (j 1))).symm
    · exact (congrArg _ (Finset.sum_congr rfl fun k _ => congrArg₂ (· * ·) (term_eq10 V c ⟨n + 1, hn⟩ k (j 1)) (term_eq10 V c ⟨n + 1, hn⟩ k (j 1)))).trans
        (sum_succ10 n fun t => ∑ k : Fin 5000, G1_2 (A10_0 V c) (A10_1 V c) (ix2 (n0 := 100000) (n1 := 128) (rowIx10 t k.val) (j 1)) * G1_2 (A10_0 V c) (A10_1 V c) (ix2 (n0 := 100000) (n1 := 128) (rowIx10 t k.val) (j 1))).symm

/-- After the last point: the column sums over all 100000 rows. -/
theorem souts10_last (c : Dev nD) (t : Fin cfg10.N) (ht : t.val = 19) (j : S1x128.Idx) :
    (souts10 V c t.val t.isLt).1 j = G1_3 (A10_0 V c) (A10_1 V c) j ∧ (souts10 V c t.val t.isLt).2 j = G1_4 (A10_0 V c) (A10_1 V c) j := by
  obtain ⟨n, hn⟩ := t
  dsimp only at ht
  subst ht
  obtain ⟨h1, h2⟩ := souts10_sum V c 19 hn j
  unfold G1_3 G1_4
  rw [sum_blocks10, sum_blocks10]
  exact ⟨h1, h2⟩

/-! ## Output windows 3 and 4: written back once, at the last point -/

theorem flushed10_3_eq (c : Dev nD) (t : Fin cfg10.N) (hf : (cfg10.win 3).flush t = true) :
    (dat10 V c).flushed 3 t = ((cfg10.win 3).blk t).view.read (Elt Ideal) (G1_3 (A10_0 V c) (A10_1 V c)) := by
  have ht : t.val = 19 := by
    have hN : t.val < 20 := lt_of_lt_of_eq t.isLt (show cfg10.N = 20 from N_10)
    have := (flush10_3 t).mp hf; omega
  show (cfg10.win 3).cut (grid10.coords t) ((dat10 V c).after 3 t) = _
  rw [after10_3]
  exact flushed_read10_3 t _ _ fun y => (souts10_last V c t ht y).1

theorem flushed10_4_eq (c : Dev nD) (t : Fin cfg10.N) (hf : (cfg10.win 4).flush t = true) :
    (dat10 V c).flushed 4 t = ((cfg10.win 4).blk t).view.read (Elt Ideal) (G1_4 (A10_0 V c) (A10_1 V c)) := by
  have ht : t.val = 19 := by
    have hN : t.val < 20 := lt_of_lt_of_eq t.isLt (show cfg10.N = 20 from N_10)
    have := (flush10_4 t).mp hf; omega
  show (cfg10.win 4).cut (grid10.coords t) ((dat10 V c).after 4 t) = _
  rw [after10_4]
  exact flushed_read10_4 t _ _ fun y => (souts10_last V c t ht y).2

/-- The last point's block is the whole array. -/
theorem cover10_3 (c : Dev nD) (i : ((cfg10.win 3).arr.view.loc (c.tc : Thread nD τ)).2.ty.Idx) :
    ∃ t : Fin cfg10.N, (cfg10.win 3).flush t = true ∧ i ∈ ((cfg10.win 3).blk t).view.set := by
  have hN : cfg10.N = 20 := N_10
  let t : Fin cfg10.N := ⟨19, by rw [hN]; norm_num⟩
  refine ⟨t, (flush10_3 t).mpr rfl, ?_⟩
  have e : ((cfg10.win 3).blk t).view.emb (i : S1x128.Idx) = i := blk10_3_emb t i
  rw [← e]
  exact ((cfg10.win 3).blk t).view.emb_mem_set (i : S1x128.Idx)
theorem cover10_4 (c : Dev nD) (i : ((cfg10.win 4).arr.view.loc (c.tc : Thread nD τ)).2.ty.Idx) :
    ∃ t : Fin cfg10.N, (cfg10.win 4).flush t = true ∧ i ∈ ((cfg10.win 4).blk t).view.set := by
  have hN : cfg10.N = 20 := N_10
  let t : Fin cfg10.N := ⟨19, by rw [hN]; norm_num⟩
  refine ⟨t, (flush10_4 t).mpr rfl, ?_⟩
  have e : ((cfg10.win 4).blk t).view.emb (i : S1x128.Idx) = i := blk10_4_emb t i
  rw [← e]
  exact ((cfg10.win 4).blk t).view.emb_mem_set (i : S1x128.Idx)

/-- WINDOWS 3 AND 4'S ARRAYS after the region. -/
theorem final10_3 (c : Dev nD) :
    (dat10 V c).arrAt 3 cfg10.N = G1_3 (V c (Pipeline.arrRef spec10 0)) (V c (Pipeline.arrRef spec10 1)) :=
  (dat10 V c).arrAt_eq_of_cover 3 (G1_3 (A10_0 V c) (A10_1 V c)) (fun t hf => flushed10_3_eq V c t hf) (cover10_3 c)
theorem final10_4 (c : Dev nD) :
    (dat10 V c).arrAt 4 cfg10.N = G1_4 (V c (Pipeline.arrRef spec10 0)) (V c (Pipeline.arrRef spec10 1)) :=
  (dat10 V c).arrAt_eq_of_cover 4 (G1_4 (A10_0 V c) (A10_1 V c)) (fun t hf => flushed10_4_eq V c t hf) (cover10_4 c)

end Value

end Cert.KernelIdeal.Hand

end
-- ==== Proof.KI.ValS13.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS13
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero13 : (![0, 0] : Fin 2 → Nat) = fun _ => 0 := funext fun a => by fin_cases a <;> rfl

/-- The pointwise payload: max (tile + bias row, 0). -/
theorem pay13_3_apply (x0 : Vec Ideal S5000x128 .f32) (x1 : Vec Ideal S1x128 .f32) (j : S5000x128.Idx) :
    k13_pay3 x0 x1 j = max (x0 j + x1 (ix2 (n0 := 1) (n1 := 128) 0 (j 1))) 0 := by
  unfold k13_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay13_4_apply (x0 : Vec Ideal S5000x128 .f32) (x1 : Vec Ideal S1x128 .f32) (s : Vec Ideal S1x128 .f32) (j : S1x128.Idx) :
    k13_pay4 x0 x1 s j = s j + ∑ k : Fin 5000, k13_pay3 x0 x1 (ix2 (n0 := 5000) (n1 := 128) k (j 1)) := by
  unfold k13_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k13_pay3 x0 x1) _ reduces_S5000x128_S128 _ _ (fun a => j a.succ)).trans ?_)
  refine Finset.sum_congr rfl fun k _ => congrArg _ (Shape.idx_ext₂ rfl rfl)

/-- The column-sum-of-squares payload. -/
theorem pay13_5_apply (x0 : Vec Ideal S5000x128 .f32) (x1 : Vec Ideal S1x128 .f32) (s : Vec Ideal S1x128 .f32) (j : S1x128.Idx) :
    k13_pay5 x0 x1 s j = s j + ∑ k : Fin 5000, k13_pay3 x0 x1 (ix2 (n0 := 5000) (n1 := 128) k (j 1)) * k13_pay3 x0 x1 (ix2 (n0 := 5000) (n1 := 128) k (j 1)) := by
  unfold k13_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k13_pay3 x0 x1) (k13_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay13_1_apply (j : S1x128.Idx) : k13_pay1 (F := Ideal) j = 0 := by
  unfold k13_pay1
  simp only [shapeCast_self]
  show Ideal.ofBits .f32 0#32 = 0
  exact Ideal.ofBits_zero_f32
theorem pay13_2_apply (j : S1x128.Idx) : k13_pay2 (F := Ideal) j = 0 := by
  unfold k13_pay2
  simp only [shapeCast_self]
  show Ideal.ofBits .f32 0#32 = 0
  exact Ideal.ofBits_zero_f32

/-- Row `k` of tile `t` in the whole array (a total function of two naturals: in range, `5000 t + k`). -/
def rowIx13 (t k : ℕ) : Fin 100000 := ⟨(5000 * t + k) % 100000, Nat.mod_lt _ (by norm_num)⟩

/-- A sum over 100000 rows is the sum over 20 tiles of 5000 rows. -/
theorem sum_blocks13 (f : Fin 100000 → EReal) :
    ∑ i : Fin 100000, f i = ∑ t : Fin 20, ∑ k : Fin 5000, f (rowIx13 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A13_0 (c : Dev nD) : FVec Ideal S100000x128 .f32 := V c (Pipeline.arrRef spec13 0)
abbrev A13_1 (c : Dev nD) : FVec Ideal S1x128 .f32 := V c (Pipeline.arrRef spec13 1)

/-- The printed index maps, decided over the grid. -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- Where tile `t`'s elements sit in the whole array (windows 0 and 2 alike). -/
theorem blk13_0_emb (t : Fin cfg13.N) (y : S5000x128.Idx) :
    ((cfg13.win 0).blk t).view.emb y = ix2 (n0 := 100000) (n1 := 128) (rowIx13 t.val (y 0).val) (y 1) := by
  obtain ⟨e0, e1, -⟩ := idx_facts13 t
  have hN : t.val < 20 := lt_of_lt_of_eq t.isLt (show cfg13.N = 20 from N_13)
  have h0 : (y 0).val < 5000 := idx2_lt0 y
  apply Shape.idx_ext₂
  · show win13_0.index t (0 : Fin 2) * 5000 + 1 * (y 0).val = (5000 * t.val + (y 0).val) % 100000; omega
  · show win13_0.index t (1 : Fin 2) * 128 + 1 * (y 1).val = (y 1).val; omega
theorem blk13_2_emb (t : Fin cfg13.N) (y : S5000x128.Idx) :
    ((cfg13.win 2).blk t).view.emb y = ix2 (n0 := 100000) (n1 := 128) (rowIx13 t.val (y 0).val) (y 1) := by
  obtain ⟨-, -, -, -, e0, e1, -⟩ := idx_facts13 t
  have hN : t.val < 20 := lt_of_lt_of_eq t.isLt (show cfg13.N = 20 from N_13)
  have h0 : (y 0).val < 5000 := idx2_lt0 y
  apply Shape.idx_ext₂
  · show win13_2.index t (0 : Fin 2) * 5000 + 1 * (y 0).val = (5000 * t.val + (y 0).val) % 100000; omega
  · show win13_2.index t (1 : Fin 2) * 128 + 1 * (y 1).val = (y 1).val; omega
/-- The small windows' block is their whole array. -/
theorem blk13_1_emb (t : Fin cfg13.N) (y : S1x128.Idx) : ((cfg13.win 1).blk t).view.emb y = y := by
  obtain ⟨-, -, e0, e1, -⟩ := idx_facts13 t
  apply Shape.idx_ext₂
  · show win13_1.index t (0 : Fin 2) * 1 + 1 * (y 0).val = (y 0).val; omega
  · show win13_1.index t (1 : Fin 2) * 128 + 1 * (y 1).val = (y 1).val; omega
theorem blk13_3_emb (t : Fin cfg13.N) (y : S1x128.Idx) : ((cfg13.win 3).blk t).view.emb y = y := by
  obtain ⟨-, -, -, -, -, -, e0, e1, -⟩ := idx_facts13 t
  apply Shape.idx_ext₂
  · show win13_3.index t (0 : Fin 2) * 1 + 1 * (y 0).val = (y 0).val; omega
  · show win13_3.index t (1 : Fin 2) * 128 + 1 * (y 1).val = (y 1).val; omega
theorem blk13_4_emb (t : Fin cfg13.N) (y : S1x128.Idx) : ((cfg13.win 4).blk t).view.emb y = y := by
  obtain ⟨-, -, -, -, -, -, -, -, e0, e1⟩ := idx_facts13 t
  apply Shape.idx_ext₂
  · show win13_4.index t (0 : Fin 2) * 1 + 1 * (y 0).val = (y 0).val; omega
  · show win13_4.index t (1 : Fin 2) * 128 + 1 * (y 1).val = (y 1).val; omega

/-- The input windows' blocks, read at a block index, are the arrays' elements. -/
theorem iblk13_0_apply (c : Dev nD) (t : Fin cfg13.N) (y : S5000x128.Idx) :
    iblk13 V c 0 t y = A13_0 V c (ix2 (n0 := 100000) (n1 := 128) (rowIx13 t.val (y 0).val) (y 1)) := by
  show A13_0 V c (((cfg13.win 0).blk t).view.emb y) = _
  rw [blk13_0_emb]
theorem iblk13_1_apply (c : Dev nD) (t : Fin cfg13.N) (y : S1x128.Idx) : iblk13 V c 1 t y = A13_1 V c y := by
  show A13_1 V c (((cfg13.win 1).blk t).view.emb y) = _
  rw [blk13_1_emb]

/-- ONE ELEMENT of what a point computes pointwise is the closed form's element at its place in the whole array. -/
theorem term_eq13 (c : Dev nD) (t : Fin cfg13.N) (k : Fin 5000) (j1 : Fin 128) :
    k13_pay3 (iblk13 V c 0 t) (iblk13 V c 1 t) (ix2 (n0 := 5000) (n1 := 128) k j1)
      = G1_2 (A13_0 V c) (A13_1 V c) (ix2 (n0 := 100000) (n1 := 128) (rowIx13 t.val k.val) j1) := by
  rw [pay13_3_apply, iblk13_0_apply, iblk13_1_apply]
  rfl

/-! ## A block read back through its window -/

/-- Contents `X` of window 2's buffer, written back at point `t`, are tile `t` of an array `G` when they agree element by
    element. -/
theorem flushed_read13_2 (t : Fin cfg13.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx13 t.val a.val) b)) :
    (cfg13.win 2).cut (grid13.coords t) X = ((cfg13.win 2).blk t).view.read (Elt Ideal) G := by
  refine funext fun (y : S5000x128.Idx) => ?_
  show X y = G (((cfg13.win 2).blk t).view.emb y)
  rw [blk13_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read13_3 (t : Fin cfg13.N) (X G : Vec Ideal S1x128 .f32) (h : ∀ y, X y = G y) :
    (cfg13.win 3).cut (grid13.coords t) X = ((cfg13.win 3).blk t).view.read (Elt Ideal) G := by
  refine funext fun (y : S1x128.Idx) => ?_
  show X y = G (((cfg13.win 3).blk t).view.emb y)
  rw [blk13_3_emb]; exact h y
theorem flushed_read13_4 (t : Fin cfg13.N) (X G : Vec Ideal S1x128 .f32) (h : ∀ y, X y = G y) :
    (cfg13.win 4).cut (grid13.coords t) X = ((cfg13.win 4).blk t).view.read (Elt Ideal) G := by
  refine funext fun (y : S1x128.Idx) => ?_
  show X y = G (((cfg13.win 4).blk t).view.emb y)
  rw [blk13_4_emb]; exact h y

/-- A sum over one tile. -/
theorem sum_one13 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ13 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed13_2_eq (c : Dev nD) (t : Fin cfg13.N) :
    (dat13 V c).flushed 2 t = ((cfg13.win 2).blk t).view.read (Elt Ideal) (G1_2 (A13_0 V c) (A13_1 V c)) := by
  show (cfg13.win 2).cut (grid13.coords t) ((dat13 V c).after 2 t) = _
  rw [after13_2]
  unfold out13_2
  rw [View.canon_unit_zero hzero13]
  simp only [View.ld_unit_zero (S := S5000x128) hzero13, View.ld_unit_zero (S := S1x128) hzero13]
  refine flushed_read13_2 t _ _ fun a b => ?_
  exact term_eq13 V c t a b

/-- Every element of window 2's array is in some tile. -/
theorem cover13_2 (c : Dev nD) (i : ((cfg13.win 2).arr.view.loc (c.tc : Thread nD τ)).2.ty.Idx) :
    ∃ t : Fin cfg13.N, (cfg13.win 2).flush t = true ∧ i ∈ ((cfg13.win 2).blk t).view.set := by
  have hi0 : (i 0).val < 100000 := idx2_lt0 (n0 := 100000) (n1 := 128) i
  have hN : cfg13.N = 20 := N_13
  let t : Fin cfg13.N := ⟨(i 0).val / 5000, by rw [hN]; omega⟩
  let y : S5000x128.Idx := ix2 (n0 := 5000) (n1 := 128) ⟨(i 0).val % 5000, Nat.mod_lt _ (by norm_num)⟩ (i 1)
  refine ⟨t, flush13_2 t, ?_⟩
  have e : ((cfg13.win 2).blk t).view.emb y = i := by
    rw [blk13_2_emb]
    apply Shape.idx_ext₂
    · show (5000 * ((i 0).val / 5000) + (i 0).val % 5000) % 100000 = (i 0).val; omega
    · rfl
  rw [← e]
  exact ((cfg13.win 2).blk t).view.emb_mem_set y

/-- WINDOW 2'S ARRAY after the region. -/
theorem final13_2 (c : Dev nD) :
    (dat13 V c).arrAt 2 cfg13.N = G1_2 (V c (Pipeline.arrRef spec13 0)) (V c (Pipeline.arrRef spec13 1)) :=
  (dat13 V c).arrAt_eq_of_cover 2 (G1_2 (A13_0 V c) (A13_1 V c)) (fun t _ => flushed13_2_eq V c t) (cover13_2 c)

/-! ## The accumulators: after `n + 1` points, the column sums over the first `n + 1` tiles -/

theorem souts13_sum (c : Dev nD) : ∀ (n : ℕ) (hn : n < cfg13.N) (j : S1x128.Idx),
    (souts13 V c n hn).1 j = ∑ t : Fin (n + 1), ∑ k : Fin 5000, G1_2 (A13_0 V c) (A13_1 V c) (ix2 (n0 := 100000) (n1 := 128) (rowIx13 t.val k.val) (j 1))
    ∧ (souts13 V c n hn).2 j = ∑ t : Fin (n + 1), ∑ k : Fin 5000,
        G1_2 (A13_0 V c) (A13_1 V c) (ix2 (n0 := 100000) (n1 := 128) (rowIx13 t.val k.val) (j 1)) * G1_2 (A13_0 V c) (A13_1 V c) (ix2 (n0 := 100000) (n1 := 128) (rowIx13 t.val k.val) (j 1))
  | 0, hn, j => by
    have e : souts13 V c 0 hn = (sA13_0 (iblk13 V c 0 ⟨0, hn⟩) (iblk13 V c 1 ⟨0, hn⟩), sA13_1 (iblk13 V c 0 ⟨0, hn⟩) (iblk13 V c 1 ⟨0, hn⟩)) := rfl
    rw [e]
    dsimp only
    unfold sA13_0 sA13_1
    rw [View.canon_cons_unit_zero hzero13, View.canon_cons_unit_zero hzero13]
    simp only [View.ld_unit_zero (S := S5000x128) hzero13, View.ld_unit_zero (S := S1x128) hzero13]
    rw [pay13_4_apply, pay13_5_apply, pay13_1_apply, pay13_2_apply]
    refine ⟨?_, ?_⟩
    · exact (zero_add _).trans ((Finset.sum_congr rfl fun k _ => term_eq13 V c ⟨0, hn⟩ k (j 1)).trans
        (sum_one13 fun t => ∑ k : Fin 5000, G1_2 (A13_0 V c) (A13_1 V c) (ix2 (n0 := 100000) (n1 := 128) (rowIx13 t k.val) (j 1))).symm)
    · exact (zero_add _).trans ((Finset.sum_congr rfl fun k _ => congrArg₂ (· * ·) (term_eq13 V c ⟨0, hn⟩ k (j 1)) (term_eq13 V c ⟨0, hn⟩ k (j 1))).trans
        (sum_one13 fun t => ∑ k : Fin 5000, G1_2 (A13_0 V c) (A13_1 V c) (ix2 (n0 := 100000) (n1 := 128) (rowIx13 t k.val) (j 1)) * G1_2 (A13_0 V c) (A13_1 V c) (ix2 (n0 := 100000) (n1 := 128) (rowIx13 t k.val) (j 1))).symm)
  | n + 1, hn, j => by
    obtain ⟨ih1, ih2⟩ := souts13_sum c n (Nat.lt_of_succ_lt hn) j
    have e : souts13 V c (n + 1) hn = (sB13_0 (iblk13 V c 0 ⟨n + 1, hn⟩) (iblk13 V c 1 ⟨n + 1, hn⟩) (souts13 V c n (Nat.lt_of_succ_lt hn)).1,
        sB13_1 (iblk13 V c 0 ⟨n + 1, hn⟩) (iblk13 V c 1 ⟨n + 1, hn⟩) (souts13 V c n (Nat.lt_of_succ_lt hn)).2) := rfl
    rw [e]
    dsimp only
    unfold sB13_0 sB13_1
    rw [View.canon_unit_zero hzero13, View.canon_unit_zero hzero13]
    simp only [View.ld_unit_zero (S := S5000x128) hzero13, View.ld_unit_zero (S := S1x128) hzero13]
    rw [pay13_4_apply, pay13_5_apply, ih1, ih2]
    refine ⟨?_, ?_⟩
    · exact (congrArg _ (Finset.sum_congr rfl fun k _ => term_eq13 V c ⟨n + 1, hn⟩ k (j 1))).trans
        (sum_succ13 n fun t => ∑ k : Fin 5000, G1_2 (A13_0 V c) (A13_1 V c) (ix2 (n0 := 100000) (n1 := 128) (rowIx13 t k.val) (j 1))).symm
    · exact (congrArg _ (Finset.sum_congr rfl fun k _ => congrArg₂ (· * ·) (term_eq13 V c ⟨n + 1, hn⟩ k (j 1)) (term_eq13 V c ⟨n + 1, hn⟩ k (j 1)))).trans
        (sum_succ13 n fun t => ∑ k : Fin 5000, G1_2 (A13_0 V c) (A13_1 V c) (ix2 (n0 := 100000) (n1 := 128) (rowIx13 t k.val) (j 1)) * G1_2 (A13_0 V c) (A13_1 V c) (ix2 (n0 := 100000) (n1 := 128) (rowIx13 t k.val) (j 1))).symm

/-- After the last point: the column sums over all 100000 rows. -/
theorem souts13_last (c : Dev nD) (t : Fin cfg13.N) (ht : t.val = 19) (j : S1x128.Idx) :
    (souts13 V c t.val t.isLt).1 j = G1_3 (A13_0 V c) (A13_1 V c) j ∧ (souts13 V c t.val t.isLt).2 j = G1_4 (A13_0 V c) (A13_1 V c) j := by
  obtain ⟨n, hn⟩ := t
  dsimp only at ht
  subst ht
  obtain ⟨h1, h2⟩ := souts13_sum V c 19 hn j
  unfold G1_3 G1_4
  rw [sum_blocks13, sum_blocks13]
  exact ⟨h1, h2⟩

/-! ## Output windows 3 and 4: written back once, at the last point -/

theorem flushed13_3_eq (c : Dev nD) (t : Fin cfg13.N) (hf : (cfg13.win 3).flush t = true) :
    (dat13 V c).flushed 3 t = ((cfg13.win 3).blk t).view.read (Elt Ideal) (G1_3 (A13_0 V c) (A13_1 V c)) := by
  have ht : t.val = 19 := by
    have hN : t.val < 20 := lt_of_lt_of_eq t.isLt (show cfg13.N = 20 from N_13)
    have := (flush13_3 t).mp hf; omega
  show (cfg13.win 3).cut (grid13.coords t) ((dat13 V c).after 3 t) = _
  rw [after13_3]
  exact flushed_read13_3 t _ _ fun y => (souts13_last V c t ht y).1

theorem flushed13_4_eq (c : Dev nD) (t : Fin cfg13.N) (hf : (cfg13.win 4).flush t = true) :
    (dat13 V c).flushed 4 t = ((cfg13.win 4).blk t).view.read (Elt Ideal) (G1_4 (A13_0 V c) (A13_1 V c)) := by
  have ht : t.val = 19 := by
    have hN : t.val < 20 := lt_of_lt_of_eq t.isLt (show cfg13.N = 20 from N_13)
    have := (flush13_4 t).mp hf; omega
  show (cfg13.win 4).cut (grid13.coords t) ((dat13 V c).after 4 t) = _
  rw [after13_4]
  exact flushed_read13_4 t _ _ fun y => (souts13_last V c t ht y).2

/-- The last point's block is the whole array. -/
theorem cover13_3 (c : Dev nD) (i : ((cfg13.win 3).arr.view.loc (c.tc : Thread nD τ)).2.ty.Idx) :
    ∃ t : Fin cfg13.N, (cfg13.win 3).flush t = true ∧ i ∈ ((cfg13.win 3).blk t).view.set := by
  have hN : cfg13.N = 20 := N_13
  let t : Fin cfg13.N := ⟨19, by rw [hN]; norm_num⟩
  refine ⟨t, (flush13_3 t).mpr rfl, ?_⟩
  have e : ((cfg13.win 3).blk t).view.emb (i : S1x128.Idx) = i := blk13_3_emb t i
  rw [← e]
  exact ((cfg13.win 3).blk t).view.emb_mem_set (i : S1x128.Idx)
theorem cover13_4 (c : Dev nD) (i : ((cfg13.win 4).arr.view.loc (c.tc : Thread nD τ)).2.ty.Idx) :
    ∃ t : Fin cfg13.N, (cfg13.win 4).flush t = true ∧ i ∈ ((cfg13.win 4).blk t).view.set := by
  have hN : cfg13.N = 20 := N_13
  let t : Fin cfg13.N := ⟨19, by rw [hN]; norm_num⟩
  refine ⟨t, (flush13_4 t).mpr rfl, ?_⟩
  have e : ((cfg13.win 4).blk t).view.emb (i : S1x128.Idx) = i := blk13_4_emb t i
  rw [← e]
  exact ((cfg13.win 4).blk t).view.emb_mem_set (i : S1x128.Idx)

/-- WINDOWS 3 AND 4'S ARRAYS after the region. -/
theorem final13_3 (c : Dev nD) :
    (dat13 V c).arrAt 3 cfg13.N = G1_3 (V c (Pipeline.arrRef spec13 0)) (V c (Pipeline.arrRef spec13 1)) :=
  (dat13 V c).arrAt_eq_of_cover 3 (G1_3 (A13_0 V c) (A13_1 V c)) (fun t hf => flushed13_3_eq V c t hf) (cover13_3 c)
theorem final13_4 (c : Dev nD) :
    (dat13 V c).arrAt 4 cfg13.N = G1_4 (V c (Pipeline.arrRef spec13 0)) (V c (Pipeline.arrRef spec13 1)) :=
  (dat13 V c).arrAt_eq_of_cover 4 (G1_4 (A13_0 V c) (A13_1 V c)) (fun t hf => flushed13_4_eq V c t hf) (cover13_4 c)

end Value

end Cert.KernelIdeal.Hand

end
-- ==== Proof.KI.ValS16.lean ====
/- The VALUE of region 1 at the ideal values (the extended reals): after the region, each output array as one
   index-by-index function of the region's two input arrays — the pointwise maximum with zero of (activations + bias
   row), and per column its sum and the sum of its squares over all 100000 rows (20 tiles of 5000 rows). -/
import proofs.«400512_j87187836109057_1_alg».proof.Proof.KI.RegS16
import proofs.«400512_j87187836109057_1_alg».proof.Proof.KI.GS1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.ShloMosaic.Pipeline (Dat Cfg Window)
open scoped BigOperators

/-! ## The payloads at an index, at the ideal values -/

theorem hzero16 : (![0, 0] : Fin 2 → Nat) = fun _ => 0 := funext fun a => by fin_cases a <;> rfl

/-- The pointwise payload: max (tile + bias row, 0). -/
theorem pay16_3_apply (x0 : Vec Ideal S5000x128 .f32) (x1 : Vec Ideal S1x128 .f32) (j : S5000x128.Idx) :
    k16_pay3 x0 x1 j = max (x0 j + x1 (ix2 (n0 := 1) (n1 := 128) 0 (j 1))) 0 := by
  unfold k16_pay3
  simp only [shapeCast_self]
  show max (x0 j + broadcastTo S5000x128 x1 broadcasts_S1x128_S5000x128 j) (Ideal.ofBits .f32 0#32) = _
  rw [broadcastTo_apply x1 broadcasts_S1x128_S5000x128 j (ix2 (n0 := 1) (n1 := 128) 0 (j 1))
    (fun a => by match a with | ⟨0, _⟩ => rfl | ⟨1, _⟩ => rfl), Ideal.ofBits_zero_f32]

/-- The column-sum payload: the accumulator plus the column's sum over the tile's 5000 rows. -/
theorem pay16_4_apply (x0 : Vec Ideal S5000x128 .f32) (x1 : Vec Ideal S1x128 .f32) (s : Vec Ideal S1x128 .f32) (j : S1x128.Idx) :
    k16_pay4 x0 x1 s j = s j + ∑ k : Fin 5000, k16_pay3 x0 x1 (ix2 (n0 := 5000) (n1 := 128) k (j 1)) := by
  unfold k16_pay4
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (k16_pay3 x0 x1) _ reduces_S5000x128_S128 _ _ (fun a => j a.succ)).trans ?_)
  refine Finset.sum_congr rfl fun k _ => congrArg _ (Shape.idx_ext₂ rfl rfl)

/-- The column-sum-of-squares payload. -/
theorem pay16_5_apply (x0 : Vec Ideal S5000x128 .f32) (x1 : Vec Ideal S1x128 .f32) (s : Vec Ideal S1x128 .f32) (j : S1x128.Idx) :
    k16_pay5 x0 x1 s j = s j + ∑ k : Fin 5000, k16_pay3 x0 x1 (ix2 (n0 := 5000) (n1 := 128) k (j 1)) * k16_pay3 x0 x1 (ix2 (n0 := 5000) (n1 := 128) k (j 1)) := by
  unfold k16_pay5
  simp only [shapeCast_self]
  show s j + shapeCast S1x128 _ shapeCasts_S128_S1x128 j = _
  rw [shapeCast_addUnit_apply ![128] _ shapeCasts_S128_S1x128 j]
  refine congrArg (s j + ·) ((Ideal.multiReduction_add_single (φ := .f32) (mulf (k16_pay3 x0 x1) (k16_pay3 x0 x1)) _ reduces_S5000x128_S128 _ _ (fun a => j a.succ)).trans ?_)
  refine Finset.sum_congr rfl fun k _ => ?_
  rw [mulf_apply]
  rw [show (reduces_S5000x128_S128.lift (fun a => j a.succ) k) = ix2 (n0 := 5000) (n1 := 128) k (j 1) from Shape.idx_ext₂ rfl rfl]

/-- The zeroed accumulator reads zero. -/
theorem pay16_1_apply (j : S1x128.Idx) : k16_pay1 (F := Ideal) j = 0 := by
  unfold k16_pay1
  simp only [shapeCast_self]
  show Ideal.ofBits .f32 0#32 = 0
  exact Ideal.ofBits_zero_f32
theorem pay16_2_apply (j : S1x128.Idx) : k16_pay2 (F := Ideal) j = 0 := by
  unfold k16_pay2
  simp only [shapeCast_self]
  show Ideal.ofBits .f32 0#32 = 0
  exact Ideal.ofBits_zero_f32

/-- Row `k` of tile `t` in the whole array (a total function of two naturals: in range, `5000 t + k`). -/
def rowIx16 (t k : ℕ) : Fin 100000 := ⟨(5000 * t + k) % 100000, Nat.mod_lt _ (by norm_num)⟩

/-- A sum over 100000 rows is the sum over 20 tiles of 5000 rows. -/
theorem sum_blocks16 (f : Fin 100000 → EReal) :
    ∑ i : Fin 100000, f i = ∑ t : Fin 20, ∑ k : Fin 5000, f (rowIx16 t.val k.val) := by
  have h := (finProdFinEquiv (m := 20) (n := 5000)).sum_comp f
  rw [← h, Fintype.sum_prod_type]
  refine Finset.sum_congr rfl fun t _ => Finset.sum_congr rfl fun k _ => ?_
  congr 1
  apply Fin.ext
  show k.val + 5000 * t.val = (5000 * t.val + k.val) % 100000
  have := t.isLt; have := k.isLt; omega

/-! ## The region's value at the entry contents `V` -/

section Value
variable (V : (c : Dev nD) → (b : Ref sig .tc) → Buf (Elt Ideal) ((c : Thread nD τ).loc b))

/-- The region's two input arrays as it finds them. -/
abbrev A16_0 (c : Dev nD) : FVec Ideal S100000x128 .f32 := V c (Pipeline.arrRef spec16 0)
abbrev A16_1 (c : Dev nD) : FVec Ideal S1x128 .f32 := V c (Pipeline.arrRef spec16 1)

/-- The printed index maps, decided over the grid. -/
theorem idx_facts16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0 :=
  (by decide +kernel : ∀ t : Fin grid16.N, _)

/-- Where tile `t`'s elements sit in the whole array (windows 0 and 2 alike). -/
theorem blk16_0_emb (t : Fin cfg16.N) (y : S5000x128.Idx) :
    ((cfg16.win 0).blk t).view.emb y = ix2 (n0 := 100000) (n1 := 128) (rowIx16 t.val (y 0).val) (y 1) := by
  obtain ⟨e0, e1, -⟩ := idx_facts16 t
  have hN : t.val < 20 := lt_of_lt_of_eq t.isLt (show cfg16.N = 20 from N_16)
  have h0 : (y 0).val < 5000 := idx2_lt0 y
  apply Shape.idx_ext₂
  · show win16_0.index t (0 : Fin 2) * 5000 + 1 * (y 0).val = (5000 * t.val + (y 0).val) % 100000; omega
  · show win16_0.index t (1 : Fin 2) * 128 + 1 * (y 1).val = (y 1).val; omega
theorem blk16_2_emb (t : Fin cfg16.N) (y : S5000x128.Idx) :
    ((cfg16.win 2).blk t).view.emb y = ix2 (n0 := 100000) (n1 := 128) (rowIx16 t.val (y 0).val) (y 1) := by
  obtain ⟨-, -, -, -, e0, e1, -⟩ := idx_facts16 t
  have hN : t.val < 20 := lt_of_lt_of_eq t.isLt (show cfg16.N = 20 from N_16)
  have h0 : (y 0).val < 5000 := idx2_lt0 y
  apply Shape.idx_ext₂
  · show win16_2.index t (0 : Fin 2) * 5000 + 1 * (y 0).val = (5000 * t.val + (y 0).val) % 100000; omega
  · show win16_2.index t (1 : Fin 2) * 128 + 1 * (y 1).val = (y 1).val; omega
/-- The small windows' block is their whole array. -/
theorem blk16_1_emb (t : Fin cfg16.N) (y : S1x128.Idx) : ((cfg16.win 1).blk t).view.emb y = y := by
  obtain ⟨-, -, e0, e1, -⟩ := idx_facts16 t
  apply Shape.idx_ext₂
  · show win16_1.index t (0 : Fin 2) * 1 + 1 * (y 0).val = (y 0).val; omega
  · show win16_1.index t (1 : Fin 2) * 128 + 1 * (y 1).val = (y 1).val; omega
theorem blk16_3_emb (t : Fin cfg16.N) (y : S1x128.Idx) : ((cfg16.win 3).blk t).view.emb y = y := by
  obtain ⟨-, -, -, -, -, -, e0, e1, -⟩ := idx_facts16 t
  apply Shape.idx_ext₂
  · show win16_3.index t (0 : Fin 2) * 1 + 1 * (y 0).val = (y 0).val; omega
  · show win16_3.index t (1 : Fin 2) * 128 + 1 * (y 1).val = (y 1).val; omega
theorem blk16_4_emb (t : Fin cfg16.N) (y : S1x128.Idx) : ((cfg16.win 4).blk t).view.emb y = y := by
  obtain ⟨-, -, -, -, -, -, -, -, e0, e1⟩ := idx_facts16 t
  apply Shape.idx_ext₂
  · show win16_4.index t (0 : Fin 2) * 1 + 1 * (y 0).val = (y 0).val; omega
  · show win16_4.index t (1 : Fin 2) * 128 + 1 * (y 1).val = (y 1).val; omega

/-- The input windows' blocks, read at a block index, are the arrays' elements. -/
theorem iblk16_0_apply (c : Dev nD) (t : Fin cfg16.N) (y : S5000x128.Idx) :
    iblk16 V c 0 t y = A16_0 V c (ix2 (n0 := 100000) (n1 := 128) (rowIx16 t.val (y 0).val) (y 1)) := by
  show A16_0 V c (((cfg16.win 0).blk t).view.emb y) = _
  rw [blk16_0_emb]
theorem iblk16_1_apply (c : Dev nD) (t : Fin cfg16.N) (y : S1x128.Idx) : iblk16 V c 1 t y = A16_1 V c y := by
  show A16_1 V c (((cfg16.win 1).blk t).view.emb y) = _
  rw [blk16_1_emb]

/-- ONE ELEMENT of what a point computes pointwise is the closed form's element at its place in the whole array. -/
theorem term_eq16 (c : Dev nD) (t : Fin cfg16.N) (k : Fin 5000) (j1 : Fin 128) :
    k16_pay3 (iblk16 V c 0 t) (iblk16 V c 1 t) (ix2 (n0 := 5000) (n1 := 128) k j1)
      = G1_2 (A16_0 V c) (A16_1 V c) (ix2 (n0 := 100000) (n1 := 128) (rowIx16 t.val k.val) j1) := by
  rw [pay16_3_apply, iblk16_0_apply, iblk16_1_apply]
  rfl

/-! ## A block read back through its window -/

/-- Contents `X` of window 2's buffer, written back at point `t`, are tile `t` of an array `G` when they agree element by
    element. -/
theorem flushed_read16_2 (t : Fin cfg16.N) (X : Vec Ideal S5000x128 .f32) (G : FVec Ideal S100000x128 .f32)
    (h : ∀ (a : Fin 5000) (b : Fin 128), X (ix2 (n0 := 5000) (n1 := 128) a b) = G (ix2 (n0 := 100000) (n1 := 128) (rowIx16 t.val a.val) b)) :
    (cfg16.win 2).cut (grid16.coords t) X = ((cfg16.win 2).blk t).view.read (Elt Ideal) G := by
  refine funext fun (y : S5000x128.Idx) => ?_
  show X y = G (((cfg16.win 2).blk t).view.emb y)
  rw [blk16_2_emb]
  obtain ⟨a, b, rfl⟩ : ∃ a b, y = ix2 (n0 := 5000) (n1 := 128) a b := ⟨y 0, y 1, eq_ix2 y⟩
  exact h a b
/-- The same for the small windows 3 and 4, whose block is their whole array. -/
theorem flushed_read16_3 (t : Fin cfg16.N) (X G : Vec Ideal S1x128 .f32) (h : ∀ y, X y = G y) :
    (cfg16.win 3).cut (grid16.coords t) X = ((cfg16.win 3).blk t).view.read (Elt Ideal) G := by
  refine funext fun (y : S1x128.Idx) => ?_
  show X y = G (((cfg16.win 3).blk t).view.emb y)
  rw [blk16_3_emb]; exact h y
theorem flushed_read16_4 (t : Fin cfg16.N) (X G : Vec Ideal S1x128 .f32) (h : ∀ y, X y = G y) :
    (cfg16.win 4).cut (grid16.coords t) X = ((cfg16.win 4).blk t).view.read (Elt Ideal) G := by
  refine funext fun (y : S1x128.Idx) => ?_
  show X y = G (((cfg16.win 4).blk t).view.emb y)
  rw [blk16_4_emb]; exact h y

/-- A sum over one tile. -/
theorem sum_one16 (F : ℕ → EReal) : ∑ t : Fin (0 + 1), F t.val = F 0 := by
  show ∑ t : Fin 1, F t.val = F 0
  rw [Fin.sum_univ_one]; rfl

/-- A sum over `n + 2` tiles is the sum over the first `n + 1` plus the last. -/
theorem sum_succ16 (n : ℕ) (F : ℕ → EReal) : ∑ t : Fin (n + 1 + 1), F t.val = ∑ t : Fin (n + 1), F t.val + F (n + 1) := by
  rw [Fin.sum_univ_castSucc]; simp only [Fin.coe_castSucc, Fin.val_last]

/-! ## Output window 2: the pointwise result, tile by tile -/

/-- WHAT POINT `t` WRITES BACK to window 2's array is tile `t` of the closed form. -/
theorem flushed16_2_eq (c : Dev nD) (t : Fin cfg16.N) :
    (dat16 V c).flushed 2 t = ((cfg16.win 2).blk t).view.read (Elt Ideal) (G1_2 (A16_0 V c) (A16_1 V c)) := by
  show (cfg16.win 2).cut (grid16.coords t) ((dat16 V c).after 2 t) = _
  rw [after16_2]
  unfold out16_2
  rw [View.canon_unit_zero hzero16]
  simp only [View.ld_unit_zero (S := S5000x128) hzero16, View.ld_unit_zero (S := S1x128) hzero16]
  refine flushed_read16_2 t _ _ fun a b => ?_
  exact term_eq16 V c t a b

/-- Every element of window 2's array is in some tile. -/
theorem cover16_2 (c : Dev nD) (i : ((cfg16.win 2).arr.view.loc (c.tc : Thread nD τ)).2.ty.Idx) :
    ∃ t : Fin cfg16.N, (cfg16.win 2).flush t = true ∧ i ∈ ((cfg16.win 2).blk t).view.set := by
  have hi0 : (i 0).val < 100000 := idx2_lt0 (n0 := 100000) (n1 := 128) i
  have hN : cfg16.N = 20 := N_16
  let t : Fin cfg16.N := ⟨(i 0).val / 5000, by rw [hN]; omega⟩
  let y : S5000x128.Idx := ix2 (n0 := 5000) (n1 := 128) ⟨(i 0).val % 5000, Nat.mod_lt _ (by norm_num)⟩ (i 1)
  refine ⟨t, flush16_2 t, ?_⟩
  have e : ((cfg16.win 2).blk t).view.emb y = i := by
    rw [blk16_2_emb]
    apply Shape.idx_ext₂
    · show (5000 * ((i 0).val / 5000) + (i 0).val % 5000) % 100000 = (i 0).val; omega
    · rfl
  rw [← e]
  exact ((cfg16.win 2).blk t).view.emb_mem_set y

/-- WINDOW 2'S ARRAY after the region. -/
theorem final16_2 (c : Dev nD) :
    (dat16 V c).arrAt 2 cfg16.N = G1_2 (V c (Pipeline.arrRef spec16 0)) (V c (Pipeline.arrRef spec16 1)) :=
  (dat16 V c).arrAt_eq_of_cover 2 (G1_2 (A16_0 V c) (A16_1 V c)) (fun t _ => flushed16_2_eq V c t) (cover16_2 c)

/-! ## The accumulators: after `n + 1` points, the column sums over the first `n + 1` tiles -/

theorem souts16_sum (c : Dev nD) : ∀ (n : ℕ) (hn : n < cfg16.N) (j : S1x128.Idx),
    (souts16 V c n hn).1 j = ∑ t : Fin (n + 1), ∑ k : Fin 5000, G1_2 (A16_0 V c) (A16_1 V c) (ix2 (n0 := 100000) (n1 := 128) (rowIx16 t.val k.val) (j 1))
    ∧ (souts16 V c n hn).2 j = ∑ t : Fin (n + 1), ∑ k : Fin 5000,
        G1_2 (A16_0 V c) (A16_1 V c) (ix2 (n0 := 100000) (n1 := 128) (rowIx16 t.val k.val) (j 1)) * G1_2 (A16_0 V c) (A16_1 V c) (ix2 (n0 := 100000) (n1 := 128) (rowIx16 t.val k.val) (j 1))
  | 0, hn, j => by
    have e : souts16 V c 0 hn = (sA16_0 (iblk16 V c 0 ⟨0, hn⟩) (iblk16 V c 1 ⟨0, hn⟩), sA16_1 (iblk16 V c 0 ⟨0, hn⟩) (iblk16 V c 1 ⟨0, hn⟩)) := rfl
    rw [e]
    dsimp only
    unfold sA16_0 sA16_1
    rw [View.canon_cons_unit_zero hzero16, View.canon_cons_unit_zero hzero16]
    simp only [View.ld_unit_zero (S := S5000x128) hzero16, View.ld_unit_zero (S := S1x128) hzero16]
    rw [pay16_4_apply, pay16_5_apply, pay16_1_apply, pay16_2_apply]
    refine ⟨?_, ?_⟩
    · exact (zero_add _).trans ((Finset.sum_congr rfl fun k _ => term_eq16 V c ⟨0, hn⟩ k (j 1)).trans
        (sum_one16 fun t => ∑ k : Fin 5000, G1_2 (A16_0 V c) (A16_1 V c) (ix2 (n0 := 100000) (n1 := 128) (rowIx16 t k.val) (j 1))).symm)
    · exact (zero_add _).trans ((Finset.sum_congr rfl fun k _ => congrArg₂ (· * ·) (term_eq16 V c ⟨0, hn⟩ k (j 1)) (term_eq16 V c ⟨0, hn⟩ k (j 1))).trans
        (sum_one16 fun t => ∑ k : Fin 5000, G1_2 (A16_0 V c) (A16_1 V c) (ix2 (n0 := 100000) (n1 := 128) (rowIx16 t k.val) (j 1)) * G1_2 (A16_0 V c) (A16_1 V c) (ix2 (n0 := 100000) (n1 := 128) (rowIx16 t k.val) (j 1))).symm)
  | n + 1, hn, j => by
    obtain ⟨ih1, ih2⟩ := souts16_sum c n (Nat.lt_of_succ_lt hn) j
    have e : souts16 V c (n + 1) hn = (sB16_0 (iblk16 V c 0 ⟨n + 1, hn⟩) (iblk16 V c 1 ⟨n + 1, hn⟩) (souts16 V c n (Nat.lt_of_succ_lt hn)).1,
        sB16_1 (iblk16 V c 0 ⟨n + 1, hn⟩) (iblk16 V c 1 ⟨n + 1, hn⟩) (souts16 V c n (Nat.lt_of_succ_lt hn)).2) := rfl
    rw [e]
    dsimp only
    unfold sB16_0 sB16_1
    rw [View.canon_unit_zero hzero16, View.canon_unit_zero hzero16]
    simp only [View.ld_unit_zero (S := S5000x128) hzero16, View.ld_unit_zero (S := S1x128) hzero16]
    rw [pay16_4_apply, pay16_5_apply, ih1, ih2]
    refine ⟨?_, ?_⟩
    · exact (congrArg _ (Finset.sum_congr rfl fun k _ => term_eq16 V c ⟨n + 1, hn⟩ k (j 1))).trans
        (sum_succ16 n fun t => ∑ k : Fin 5000, G1_2 (A16_0 V c) (A16_1 V c) (ix2 (n0 := 100000) (n1 := 128) (rowIx16 t k.val) (j 1))).symm
    · exact (congrArg _ (Finset.sum_congr rfl fun k _ => congrArg₂ (· * ·) (term_eq16 V c ⟨n + 1, hn⟩ k (j 1)) (term_eq16 V c ⟨n + 1, hn⟩ k (j 1)))).trans
        (sum_succ16 n fun t => ∑ k : Fin 5000, G1_2 (A16_0 V c) (A16_1 V c) (ix2 (n0 := 100000) (n1 := 128) (rowIx16 t k.val) (j 1)) * G1_2 (A16_0 V c) (A16_1 V c) (ix2 (n0 := 100000) (n1 := 128) (rowIx16 t k.val) (j 1))).symm

/-- After the last point: the column sums over all 100000 rows. -/
theorem souts16_last (c : Dev nD) (t : Fin cfg16.N) (ht : t.val = 19) (j : S1x128.Idx) :
    (souts16 V c t.val t.isLt).1 j = G1_3 (A16_0 V c) (A16_1 V c) j ∧ (souts16 V c t.val t.isLt).2 j = G1_4 (A16_0 V c) (A16_1 V c) j := by
  obtain ⟨n, hn⟩ := t
  dsimp only at ht
  subst ht
  obtain ⟨h1, h2⟩ := souts16_sum V c 19 hn j
  unfold G1_3 G1_4
  rw [sum_blocks16, sum_blocks16]
  exact ⟨h1, h2⟩

/-! ## Output windows 3 and 4: written back once, at the last point -/

theorem flushed16_3_eq (c : Dev nD) (t : Fin cfg16.N) (hf : (cfg16.win 3).flush t = true) :
    (dat16 V c).flushed 3 t = ((cfg16.win 3).blk t).view.read (Elt Ideal) (G1_3 (A16_0 V c) (A16_1 V c)) := by
  have ht : t.val = 19 := by
    have hN : t.val < 20 := lt_of_lt_of_eq t.isLt (show cfg16.N = 20 from N_16)
    have := (flush16_3 t).mp hf; omega
  show (cfg16.win 3).cut (grid16.coords t) ((dat16 V c).after 3 t) = _
  rw [after16_3]
  exact flushed_read16_3 t _ _ fun y => (souts16_last V c t ht y).1

theorem flushed16_4_eq (c : Dev nD) (t : Fin cfg16.N) (hf : (cfg16.win 4).flush t = true) :
    (dat16 V c).flushed 4 t = ((cfg16.win 4).blk t).view.read (Elt Ideal) (G1_4 (A16_0 V c) (A16_1 V c)) := by
  have ht : t.val = 19 := by
    have hN : t.val < 20 := lt_of_lt_of_eq t.isLt (show cfg16.N = 20 from N_16)
    have := (flush16_4 t).mp hf; omega
  show (cfg16.win 4).cut (grid16.coords t) ((dat16 V c).after 4 t) = _
  rw [after16_4]
  exact flushed_read16_4 t _ _ fun y => (souts16_last V c t ht y).2

/-- The last point's block is the whole array. -/
theorem cover16_3 (c : Dev nD) (i : ((cfg16.win 3).arr.view.loc (c.tc : Thread nD τ)).2.ty.Idx) :
    ∃ t : Fin cfg16.N, (cfg16.win 3).flush t = true ∧ i ∈ ((cfg16.win 3).blk t).view.set := by
  have hN : cfg16.N = 20 := N_16
  let t : Fin cfg16.N := ⟨19, by rw [hN]; norm_num⟩
  refine ⟨t, (flush16_3 t).mpr rfl, ?_⟩
  have e : ((cfg16.win 3).blk t).view.emb (i : S1x128.Idx) = i := blk16_3_emb t i
  rw [← e]
  exact ((cfg16.win 3).blk t).view.emb_mem_set (i : S1x128.Idx)
theorem cover16_4 (c : Dev nD) (i : ((cfg16.win 4).arr.view.loc (c.tc : Thread nD τ)).2.ty.Idx) :
    ∃ t : Fin cfg16.N, (cfg16.win 4).flush t = true ∧ i ∈ ((cfg16.win 4).blk t).view.set := by
  have hN : cfg16.N = 20 := N_16
  let t : Fin cfg16.N := ⟨19, by rw [hN]; norm_num⟩
  refine ⟨t, (flush16_4 t).mpr rfl, ?_⟩
  have e : ((cfg16.win 4).blk t).view.emb (i : S1x128.Idx) = i := blk16_4_emb t i
  rw [← e]
  exact ((cfg16.win 4).blk t).view.emb_mem_set (i : S1x128.Idx)

/-- WINDOWS 3 AND 4'S ARRAYS after the region. -/
theorem final16_3 (c : Dev nD) :
    (dat16 V c).arrAt 3 cfg16.N = G1_3 (V c (Pipeline.arrRef spec16 0)) (V c (Pipeline.arrRef spec16 1)) :=
  (dat16 V c).arrAt_eq_of_cover 3 (G1_3 (A16_0 V c) (A16_1 V c)) (fun t hf => flushed16_3_eq V c t hf) (cover16_3 c)
theorem final16_4 (c : Dev nD) :
    (dat16 V c).arrAt 4 cfg16.N = G1_4 (V c (Pipeline.arrRef spec16 0)) (V c (Pipeline.arrRef spec16 1)) :=
  (dat16 V c).arrAt_eq_of_cover 4 (G1_4 (A16_0 V c) (A16_1 V c)) (fun t hf => flushed16_4_eq V c t hf) (cover16_4 c)

end Value

end Cert.KernelIdeal.Hand

end
-- ==== Proof.KI.ValB2.lean ====
import proofs.«400512_j87187836109057_1_alg».proof.Proof.KI.RegB2
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets2 : (![0, 0] : Fin 2 → Nat) = fun _ => 0 := funext fun a => by fin_cases a <;> rfl

/-- The payload at entry `(p, k)` of the tile: the rows are read at their one row. -/
theorem norm2_apply (v0 : Vec Ideal S1x128 .f32) (v5 : Vec Ideal S5000x128 .f32) (v7 v13 v17 : Vec Ideal S1x128 .f32)
    (p : Fin 5000) (k : Fin 128) :
    k2_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k2_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm2_at (A0 : FVec Ideal S100000x128 .f32) (A1 A2 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A2 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k2_pay1 (F := Ideal) x2 x0 x1 x3 x4 (ix2 p k) = Spec.G2_5 A0 A1 A2 A3 A4 i := by
  rw [norm2_apply, h0, h1, h2, h3, h4]
  rfl

/-- The printed index maps over the grid's 20 points: the activations' tile moves with the output's, whose row-block
    index is the point's number and whose column-block index is zero; the four rows stay at block (0, 0). -/
theorem indexFacts2 : ∀ t : Fin cfg2.N,
    win2_0.index t (0 : Fin 2) = win2_5.index t (0 : Fin 2) ∧ win2_0.index t (1 : Fin 2) = win2_5.index t (1 : Fin 2)
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

set_option maxHeartbeats 1000000 in
/-- What point `t` writes back is tile `t` of the normalised activations of the region's input arrays. -/
theorem written2_5 (c : Dev nD) (t : Fin cfg2.N) :
    (dat2 V c).flushed 5 t = ((cfg2.win 5).blk t).view.read (Elt Ideal)
      (Spec.G2_5 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zeroOffsets2]
  simp only [View.ld_unit_zero (S := S5000x128) zeroOffsets2, View.ld_unit_zero (S := S1x128) zeroOffsets2]
  obtain ⟨e0, e1, e2, e3, e4, e5, e6, e7, e8, e9, e10, e11⟩ := indexFacts2 t
  have key : ∀ (p : Fin 5000) (k : Fin 128),
      k2_pay1 (iblk2 V c 2 t) (iblk2 V c 0 t) (iblk2 V c 1 t) (iblk2 V c 3 t) (iblk2 V c 4 t) (ix2 p k)
        = Spec.G2_5 (V c (Pipeline.arrRef spec2 0)) (V c (Pipeline.arrRef spec2 1)) (V c (Pipeline.arrRef spec2 2))
            (V c (Pipeline.arrRef spec2 3)) (V c (Pipeline.arrRef spec2 4))
            (((cfg2.win 5).blk t).view.emb (ix2 (n0 := 5000) (n1 := 128) p k)) := by
    intro p k
    have h0 : ((cfg2.win 0).blk t).view.emb (ix2 (n0 := 5000) (n1 := 128) p k)
        = ((cfg2.win 5).blk t).view.emb (ix2 (n0 := 5000) (n1 := 128) p k) := by
      funext a; apply Fin.ext
      match a with
      | ⟨0, _⟩ => show win2_0.index t (0 : Fin 2) * 5000 + 1 * p.val = win2_5.index t (0 : Fin 2) * 5000 + 1 * p.val; omega
      | ⟨1, _⟩ => show win2_0.index t (1 : Fin 2) * 128 + 1 * k.val = win2_5.index t (1 : Fin 2) * 128 + 1 * k.val; omega
    have h1 : ((cfg2.win 1).blk t).view.emb (ix2 (n0 := 1) (n1 := 128) 0 k)
        = ix2 (n0 := 1) (n1 := 128) 0 ((((cfg2.win 5).blk t).view.emb (ix2 (n0 := 5000) (n1 := 128) p k)) 1) := by
      funext a; apply Fin.ext
      match a with
      | ⟨0, _⟩ => show win2_1.index t (0 : Fin 2) * 1 + 1 * 0 = 0; omega
      | ⟨1, _⟩ => show win2_1.index t (1 : Fin 2) * 128 + 1 * k.val = win2_5.index t (1 : Fin 2) * 128 + 1 * k.val; omega
    have h2 : ((cfg2.win 2).blk t).view.emb (ix2 (n0 := 1) (n1 := 128) 0 k)
        = ix2 (n0 := 1) (n1 := 128) 0 ((((cfg2.win 5).blk t).view.emb (ix2 (n0 := 5000) (n1 := 128) p k)) 1) := by
      funext a; apply Fin.ext
      match a with
      | ⟨0, _⟩ => show win2_2.index t (0 : Fin 2) * 1 + 1 * 0 = 0; omega
      | ⟨1, _⟩ => show win2_2.index t (1 : Fin 2) * 128 + 1 * k.val = win2_5.index t (1 : Fin 2) * 128 + 1 * k.val; omega
    have h3 : ((cfg2.win 3).blk t).view.emb (ix2 (n0 := 1) (n1 := 128) 0 k)
        = ix2 (n0 := 1) (n1 := 128) 0 ((((cfg2.win 5).blk t).view.emb (ix2 (n0 := 5000) (n1 := 128) p k)) 1) := by
      funext a; apply Fin.ext
      match a with
      | ⟨0, _⟩ => show win2_3.index t (0 : Fin 2) * 1 + 1 * 0 = 0; omega
      | ⟨1, _⟩ => show win2_3.index t (1 : Fin 2) * 128 + 1 * k.val = win2_5.index t (1 : Fin 2) * 128 + 1 * k.val; omega
    have h4 : ((cfg2.win 4).blk t).view.emb (ix2 (n0 := 1) (n1 := 128) 0 k)
        = ix2 (n0 := 1) (n1 := 128) 0 ((((cfg2.win 5).blk t).view.emb (ix2 (n0 := 5000) (n1 := 128) p k)) 1) := by
      funext a; apply Fin.ext
      match a with
      | ⟨0, _⟩ => show win2_4.index t (0 : Fin 2) * 1 + 1 * 0 = 0; omega
      | ⟨1, _⟩ => show win2_4.index t (1 : Fin 2) * 128 + 1 * k.val = win2_5.index t (1 : Fin 2) * 128 + 1 * k.val; omega
    exact norm2_at _ _ _ _ _ _ _ _ _ _ _ p k
      (congrArg (V c (Pipeline.arrRef spec2 0)) h0) (congrArg (V c (Pipeline.arrRef spec2 1)) h1) (congrArg (V c (Pipeline.arrRef spec2 2)) h2)
      (congrArg (V c (Pipeline.arrRef spec2 3)) h3) (congrArg (V c (Pipeline.arrRef spec2 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Every index of the array is in some point's tile: row `r` in tile `r / 5000`. -/
theorem tiles_cover2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_5 _, ?_⟩
  obtain ⟨e0, e1, e2, e3, e4, e5, e6, e7, e8, e9, e10, e11⟩ := indexFacts2 ⟨(i 0).val / 5000, ht⟩
  rw [mem_tile2_5]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e3]; omega

/-- The output array after the region: the normalised activations of the region's input arrays, at every index. -/
theorem arrAt2_5 (c : Dev nD) :
    (dat2 V c).arrAt 5 cfg2.N
      = Spec.G2_5 (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => written2_5 V c t) tiles_cover2_5

end Cert.KernelIdeal.Hand
-- ==== Proof.KI.ValB5.lean ====
import proofs.«400512_j87187836109057_1_alg».proof.Proof.KI.RegB5
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets5 : (![0, 0] : Fin 2 → Nat) = fun _ => 0 := funext fun a => by fin_cases a <;> rfl

/-- The payload at entry `(p, k)` of the tile: the rows are read at their one row. -/
theorem norm5_apply (v0 : Vec Ideal S1x128 .f32) (v5 : Vec Ideal S5000x128 .f32) (v7 v13 v17 : Vec Ideal S1x128 .f32)
    (p : Fin 5000) (k : Fin 128) :
    k5_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k5_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm5_at (A0 : FVec Ideal S100000x128 .f32) (A1 A5 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A5 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k5_pay1 (F := Ideal) x2 x0 x1 x3 x4 (ix2 p k) = Spec.G2_5 A0 A1 A5 A3 A4 i := by
  rw [norm5_apply, h0, h1, h2, h3, h4]
  rfl

/-- The printed index maps over the grid's 20 points: the activations' tile moves with the output's, whose row-block
    index is the point's number and whose column-block index is zero; the four rows stay at block (0, 0). -/
theorem indexFacts5 : ∀ t : Fin cfg5.N,
    win5_0.index t (0 : Fin 2) = win5_5.index t (0 : Fin 2) ∧ win5_0.index t (1 : Fin 2) = win5_5.index t (1 : Fin 2)
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

set_option maxHeartbeats 1000000 in
/-- What point `t` writes back is tile `t` of the normalised activations of the region's input arrays. -/
theorem written5_5 (c : Dev nD) (t : Fin cfg5.N) :
    (dat5 V c).flushed 5 t = ((cfg5.win 5).blk t).view.read (Elt Ideal)
      (Spec.G2_5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zeroOffsets5]
  simp only [View.ld_unit_zero (S := S5000x128) zeroOffsets5, View.ld_unit_zero (S := S1x128) zeroOffsets5]
  obtain ⟨e0, e1, e2, e3, e4, e5, e6, e7, e8, e9, e10, e11⟩ := indexFacts5 t
  have key : ∀ (p : Fin 5000) (k : Fin 128),
      k5_pay1 (iblk5 V c 2 t) (iblk5 V c 0 t) (iblk5 V c 1 t) (iblk5 V c 3 t) (iblk5 V c 4 t) (ix2 p k)
        = Spec.G2_5 (V c (Pipeline.arrRef spec5 0)) (V c (Pipeline.arrRef spec5 1)) (V c (Pipeline.arrRef spec5 2))
            (V c (Pipeline.arrRef spec5 3)) (V c (Pipeline.arrRef spec5 4))
            (((cfg5.win 5).blk t).view.emb (ix2 (n0 := 5000) (n1 := 128) p k)) := by
    intro p k
    have h0 : ((cfg5.win 0).blk t).view.emb (ix2 (n0 := 5000) (n1 := 128) p k)
        = ((cfg5.win 5).blk t).view.emb (ix2 (n0 := 5000) (n1 := 128) p k) := by
      funext a; apply Fin.ext
      match a with
      | ⟨0, _⟩ => show win5_0.index t (0 : Fin 2) * 5000 + 1 * p.val = win5_5.index t (0 : Fin 2) * 5000 + 1 * p.val; omega
      | ⟨1, _⟩ => show win5_0.index t (1 : Fin 2) * 128 + 1 * k.val = win5_5.index t (1 : Fin 2) * 128 + 1 * k.val; omega
    have h1 : ((cfg5.win 1).blk t).view.emb (ix2 (n0 := 1) (n1 := 128) 0 k)
        = ix2 (n0 := 1) (n1 := 128) 0 ((((cfg5.win 5).blk t).view.emb (ix2 (n0 := 5000) (n1 := 128) p k)) 1) := by
      funext a; apply Fin.ext
      match a with
      | ⟨0, _⟩ => show win5_1.index t (0 : Fin 2) * 1 + 1 * 0 = 0; omega
      | ⟨1, _⟩ => show win5_1.index t (1 : Fin 2) * 128 + 1 * k.val = win5_5.index t (1 : Fin 2) * 128 + 1 * k.val; omega
    have h2 : ((cfg5.win 2).blk t).view.emb (ix2 (n0 := 1) (n1 := 128) 0 k)
        = ix2 (n0 := 1) (n1 := 128) 0 ((((cfg5.win 5).blk t).view.emb (ix2 (n0 := 5000) (n1 := 128) p k)) 1) := by
      funext a; apply Fin.ext
      match a with
      | ⟨0, _⟩ => show win5_2.index t (0 : Fin 2) * 1 + 1 * 0 = 0; omega
      | ⟨1, _⟩ => show win5_2.index t (1 : Fin 2) * 128 + 1 * k.val = win5_5.index t (1 : Fin 2) * 128 + 1 * k.val; omega
    have h3 : ((cfg5.win 3).blk t).view.emb (ix2 (n0 := 1) (n1 := 128) 0 k)
        = ix2 (n0 := 1) (n1 := 128) 0 ((((cfg5.win 5).blk t).view.emb (ix2 (n0 := 5000) (n1 := 128) p k)) 1) := by
      funext a; apply Fin.ext
      match a with
      | ⟨0, _⟩ => show win5_3.index t (0 : Fin 2) * 1 + 1 * 0 = 0; omega
      | ⟨1, _⟩ => show win5_3.index t (1 : Fin 2) * 128 + 1 * k.val = win5_5.index t (1 : Fin 2) * 128 + 1 * k.val; omega
    have h4 : ((cfg5.win 4).blk t).view.emb (ix2 (n0 := 1) (n1 := 128) 0 k)
        = ix2 (n0 := 1) (n1 := 128) 0 ((((cfg5.win 5).blk t).view.emb (ix2 (n0 := 5000) (n1 := 128) p k)) 1) := by
      funext a; apply Fin.ext
      match a with
      | ⟨0, _⟩ => show win5_4.index t (0 : Fin 2) * 1 + 1 * 0 = 0; omega
      | ⟨1, _⟩ => show win5_4.index t (1 : Fin 2) * 128 + 1 * k.val = win5_5.index t (1 : Fin 2) * 128 + 1 * k.val; omega
    exact norm5_at _ _ _ _ _ _ _ _ _ _ _ p k
      (congrArg (V c (Pipeline.arrRef spec5 0)) h0) (congrArg (V c (Pipeline.arrRef spec5 1)) h1) (congrArg (V c (Pipeline.arrRef spec5 2)) h2)
      (congrArg (V c (Pipeline.arrRef spec5 3)) h3) (congrArg (V c (Pipeline.arrRef spec5 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile5_5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Every index of the array is in some point's tile: row `r` in tile `r / 5000`. -/
theorem tiles_cover5_5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have ht : (i 0).val / 5000 < cfg5.N := by rw [hN]; omega
  refine ⟨⟨(i 0).val / 5000, ht⟩, flush5_5 _, ?_⟩
  obtain ⟨e0, e1, e2, e3, e4, e5, e6, e7, e8, e9, e10, e11⟩ := indexFacts5 ⟨(i 0).val / 5000, ht⟩
  rw [mem_tile5_5]
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e3]; omega

/-- The output array after the region: the normalised activations of the region's input arrays, at every index. -/
theorem arrAt5_5 (c : Dev nD) :
    (dat5 V c).arrAt 5 cfg5.N
      = Spec.G2_5 (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => written5_5 V c t) tiles_cover5_5

end Cert.KernelIdeal.Hand
-- ==== Proof.KI.ValB8.lean ====
import proofs.«400512_j87187836109057_1_alg».proof.Proof.KI.RegB8
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets8 : (![0, 0] : Fin 2 → Nat) = fun _ => 0 := funext fun a => by fin_cases a <;> rfl

/-- The payload at entry `(p, k)` of the tile: the rows are read at their one row. -/
theorem norm8_apply (v0 : Vec Ideal S1x128 .f32) (v5 : Vec Ideal S5000x128 .f32) (v7 v13 v17 : Vec Ideal S1x128 .f32)
    (p : Fin 5000) (k : Fin 128) :
    k8_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k8_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm8_at (A0 : FVec Ideal S100000x128 .f32) (A1 A8 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A8 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k8_pay1 (F := Ideal) x2 x0 x1 x3 x4 (ix2 p k) = Spec.G2_5 A0 A1 A8 A3 A4 i := by
  rw [norm8_apply, h0, h1, h2, h3, h4]
  rfl

/-- The printed index maps over the grid's 20 points: the activations' tile moves with the output's, whose row-block
    index is the point's number and whose column-block index is zero; the four rows stay at block (0, 0). -/
theorem indexFacts8 : ∀ t : Fin cfg8.N,
    win8_0.index t (0 : Fin 2) = win8_5.index t (0 : Fin 2) ∧ win8_0.index t (1 : Fin 2) = win8_5.index t (1 : Fin 2)
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

set_option maxHeartbeats 1000000 in
/-- What point `t` writes back is tile `t` of the normalised activations of the region's input arrays. -/
theorem written8_5 (c : Dev nD) (t : Fin cfg8.N) :
    (dat8 V c).flushed 5 t = ((cfg8.win 5).blk t).view.read (Elt Ideal)
      (Spec.G2_5 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero zeroOffsets8]
  simp only [View.ld_unit_zero (S := S5000x128) zeroOffsets8, View.ld_unit_zero (S := S1x128) zeroOffsets8]
  obtain ⟨e0, e1, e2, e3, e4, e5, e6, e7, e8, e9, e10, e11⟩ := indexFacts8 t
  have key : ∀ (p : Fin 5000) (k : Fin 128),
      k8_pay1 (iblk8 V c 2 t) (iblk8 V c 0 t) (iblk8 V c 1 t) (iblk8 V c 3 t) (iblk8 V c 4 t) (ix2 p k)
        = Spec.G2_5 (V c (Pipeline.arrRef spec8 0)) (V c (Pipeline.arrRef spec8 1)) (V c (Pipeline.arrRef spec8 2))
            (V c (Pipeline.arrRef spec8 3)) (V c (Pipeline.arrRef spec8 4))
            (((cfg8.win 5).blk t).view.emb (ix2 (n0 := 5000) (n1 := 128) p k)) := by
    intro p k
    have h0 : ((cfg8.win 0).blk t).view.emb (ix2 (n0 := 5000) (n1 := 128) p k)
        = ((cfg8.win 5).blk t).view.emb (ix2 (n0 := 5000) (n1 := 128) p k) := by
      funext a; apply Fin.ext
      match a with
      | ⟨0, _⟩ => show win8_0.index t (0 : Fin 2) * 5000 + 1 * p.val = win8_5.index t (0 : Fin 2) * 5000 + 1 * p.val; omega
      | ⟨1, _⟩ => show win8_0.index t (1 : Fin 2) * 128 + 1 * k.val = win8_5.index t (1 : Fin 2) * 128 + 1 * k.val; omega
    have h1 : ((cfg8.win 1).blk t).view.emb (ix2 (n0 := 1) (n1 := 128) 0 k)
        = ix2 (n0 := 1) (n1 := 128) 0 ((((cfg8.win 5).blk t).view.emb (ix2 (n0 := 5000) (n1 := 128) p k)) 1) := by
      funext a; apply Fin.ext
      match a with
      | ⟨0, _⟩ => show win8_1.index t (0 : Fin 2) * 1 + 1 * 0 = 0; omega
      | ⟨1, _⟩ => show win8_1.index t (1 : Fin 2) * 128 + 1 * k.val = win8_5.index t (1 : Fin 2) * 128 + 1 * k.val; omega
    have h2 : ((cfg8.win 2).blk t).view.emb (ix2 (n0 := 1) (n1 := 128) 0 k)
        = ix2 (n0 := 1) (n1 := 128) 0 ((((cfg8.win 5).blk t).view.emb (ix2 (n0 := 5000) (n1 := 128) p k)) 1) := by
      funext a; apply Fin.ext
      match a with
      | ⟨0, _⟩ => show win8_2.index t (0 : Fin 2) * 1 + 1 * 0 = 0; omega
      | ⟨1, _⟩ => show win8_2.index t (1 : Fin 2) * 128 + 1 * k.val = win8_5.index t (1 : Fin 2) * 128 + 1 * k.val; omega
    have h3 : ((cfg8.win 3).blk t).view.emb (ix2 (n0 := 1) (n1 := 128) 0 k)
        = ix2 (n0 := 1) (n1 := 128) 0 ((((cfg8.win 5).blk t).view.emb (ix2 (n0 := 5000) (n1 := 128) p k)) 1) := by
      funext a; apply Fin.ext
      match a with
      | ⟨0, _⟩ => show win8_3.index t (0 : Fin 2) * 1 + 1 * 0 = 0; omega
      | ⟨1, _⟩ => show win8_3.index t (1 : Fin 2) * 128 + 1 * k.val = win8_5.index t (1 : Fin 2) * 128 + 1 * k.val; omega
    have h4 : ((cfg8.win 4).blk t).view.emb (ix2 (n0 := 1) (n1 := 128) 0 k)
        = ix2 (n0 := 1) (n1 := 128) 0 ((((cfg8.win 5).blk t).view.emb (ix2 (n0 := 5000) (n1 := 128) p k)) 1) := by
      funext a; apply Fin.ext
      match a with
      | ⟨0, _⟩ => show win8_4.index t (0 : Fin 2) * 1 + 1 * 0 = 0; omega
      | ⟨1, _⟩ => show win8_4.index t (1 : Fin 2) * 128 + 1 * k.val = win8_5.index t (1 : Fin 2) * 128 + 1 * k.val; omega
    exact norm8_at _ _ _ _ _ _ _ _ _ _ _ p k
      (congrArg (V c (Pipeline.arrRef spec8 0)) h0) (congrArg (V c (Pipeline.arrRef spec8 1)) h1) (congrArg (V c (Pipeline.arrRef spec8 2)) h2)
      (congrArg (V c (Pipeline.arrRef spec8 3)) h3) (congrArg (V c (Pipeline.arrRef spec8 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile8_5 (t : Fin cfg8.N) (i : S100000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole (Pipeline.arrRef spec8 5)).slice (win8_5.rect t)).set ↔ _
  rw [View.set_slice_whole, Rect.mem_set_unit]
  exact Iff.rfl

/-- Every index of the array is in some point's tile: row `r` in tile `r / 5000`. -/
theorem tiles_cover8_5 (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  have hN : cfg8.N = 20 := N_8
  have ht : (i 0).val / 5000 < cfg8.N := by rw [hN]; omega
  refine ⟨⟨(i 0).val / 5000, ht⟩, flush8_5 _, ?_⟩
  obtain ⟨e0, e1, e2, e3, e4, e5, e6, e7, e8, e9, e10, e11⟩ := indexFacts8 ⟨(i 0).val / 5000, ht⟩
  rw [mem_tile8_5]
  intro a
  match a with
  | ⟨0, _⟩ =>
    show win8_5.index ⟨(i 0).val / 5000, ht⟩ (0 : Fin 2) * 5000 ≤ (i 0).val ∧ (i 0).val < win8_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win8_5.index ⟨(i 0).val / 5000, ht⟩ (1 : Fin 2) * 128 ≤ (i 1).val ∧ (i 1).val < win8_5.index ⟨(i 0).val / 5000, ht⟩ (1 : Fin 2) * 128 + 128
    rw [e3]; omega

/-- The output array after the region: the normalised activations of the region's input arrays, at every index. -/
theorem arrAt8_5 (c : Dev nD) :
    (dat8 V c).arrAt 5 cfg8.N
      = Spec.G2_5 (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => written8_5 V c t) tiles_cover8_5

end Cert.KernelIdeal.Hand
-- ==== Proof.KI.ValB11.lean ====
import proofs.«400512_j87187836109057_1_alg».proof.Proof.KI.RegB11
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets11 : (![0, 0] : Fin 2 → Nat) = fun _ => 0 := funext fun a => by fin_cases a <;> rfl

/-- The payload at entry `(p, k)` of the tile: the rows are read at their one row. -/
theorem norm11_apply (v0 : Vec Ideal S1x128 .f32) (v5 : Vec Ideal S5000x128 .f32) (v7 v13 v17 : Vec Ideal S1x128 .f32)
    (p : Fin 5000) (k : Fin 128) :
    k11_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k11_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm11_at (A0 : FVec Ideal S100000x128 .f32) (A1 A11 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A11 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k11_pay1 (F := Ideal) x2 x0 x1 x3 x4 (ix2 p k) = Spec.G2_5 A0 A1 A11 A3 A4 i := by
  rw [norm11_apply, h0, h1, h2, h3, h4]
  rfl

/-- The printed index maps over the grid's 20 points: the activations' tile moves with the output's, whose row-block
    index is the point's number and whose column-block index is zero; the four rows stay at block (0, 0). -/
theorem indexFacts11 : ∀ t : Fin cfg11.N,
    win11_0.index t (0 : Fin 2) = win11_5.index t (0 : Fin 2) ∧ win11_0.index t (1 : Fin 2) = win11_5.index t (1 : Fin 2)
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

set_option maxHeartbeats 1000000 in
/-- What point `t` writes back is tile `t` of the normalised activations of the region's input arrays. -/
theorem written11_5 (c : Dev nD) (t : Fin cfg11.N) :
    (dat11 V c).flushed 5 t = ((cfg11.win 5).blk t).view.read (Elt Ideal)
      (Spec.G2_5 (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero zeroOffsets11]
  simp only [View.ld_unit_zero (S := S5000x128) zeroOffsets11, View.ld_unit_zero (S := S1x128) zeroOffsets11]
  obtain ⟨e0, e1, e2, e3, e4, e5, e6, e7, e8, e9, e10, e11⟩ := indexFacts11 t
  have key : ∀ (p : Fin 5000) (k : Fin 128),
      k11_pay1 (iblk11 V c 2 t) (iblk11 V c 0 t) (iblk11 V c 1 t) (iblk11 V c 3 t) (iblk11 V c 4 t) (ix2 p k)
        = Spec.G2_5 (V c (Pipeline.arrRef spec11 0)) (V c (Pipeline.arrRef spec11 1)) (V c (Pipeline.arrRef spec11 2))
            (V c (Pipeline.arrRef spec11 3)) (V c (Pipeline.arrRef spec11 4))
            (((cfg11.win 5).blk t).view.emb (ix2 (n0 := 5000) (n1 := 128) p k)) := by
    intro p k
    have h0 : ((cfg11.win 0).blk t).view.emb (ix2 (n0 := 5000) (n1 := 128) p k)
        = ((cfg11.win 5).blk t).view.emb (ix2 (n0 := 5000) (n1 := 128) p k) := by
      funext a; apply Fin.ext
      match a with
      | ⟨0, _⟩ => show win11_0.index t (0 : Fin 2) * 5000 + 1 * p.val = win11_5.index t (0 : Fin 2) * 5000 + 1 * p.val; omega
      | ⟨1, _⟩ => show win11_0.index t (1 : Fin 2) * 128 + 1 * k.val = win11_5.index t (1 : Fin 2) * 128 + 1 * k.val; omega
    have h1 : ((cfg11.win 1).blk t).view.emb (ix2 (n0 := 1) (n1 := 128) 0 k)
        = ix2 (n0 := 1) (n1 := 128) 0 ((((cfg11.win 5).blk t).view.emb (ix2 (n0 := 5000) (n1 := 128) p k)) 1) := by
      funext a; apply Fin.ext
      match a with
      | ⟨0, _⟩ => show win11_1.index t (0 : Fin 2) * 1 + 1 * 0 = 0; omega
      | ⟨1, _⟩ => show win11_1.index t (1 : Fin 2) * 128 + 1 * k.val = win11_5.index t (1 : Fin 2) * 128 + 1 * k.val; omega
    have h2 : ((cfg11.win 2).blk t).view.emb (ix2 (n0 := 1) (n1 := 128) 0 k)
        = ix2 (n0 := 1) (n1 := 128) 0 ((((cfg11.win 5).blk t).view.emb (ix2 (n0 := 5000) (n1 := 128) p k)) 1) := by
      funext a; apply Fin.ext
      match a with
      | ⟨0, _⟩ => show win11_2.index t (0 : Fin 2) * 1 + 1 * 0 = 0; omega
      | ⟨1, _⟩ => show win11_2.index t (1 : Fin 2) * 128 + 1 * k.val = win11_5.index t (1 : Fin 2) * 128 + 1 * k.val; omega
    have h3 : ((cfg11.win 3).blk t).view.emb (ix2 (n0 := 1) (n1 := 128) 0 k)
        = ix2 (n0 := 1) (n1 := 128) 0 ((((cfg11.win 5).blk t).view.emb (ix2 (n0 := 5000) (n1 := 128) p k)) 1) := by
      funext a; apply Fin.ext
      match a with
      | ⟨0, _⟩ => show win11_3.index t (0 : Fin 2) * 1 + 1 * 0 = 0; omega
      | ⟨1, _⟩ => show win11_3.index t (1 : Fin 2) * 128 + 1 * k.val = win11_5.index t (1 : Fin 2) * 128 + 1 * k.val; omega
    have h4 : ((cfg11.win 4).blk t).view.emb (ix2 (n0 := 1) (n1 := 128) 0 k)
        = ix2 (n0 := 1) (n1 := 128) 0 ((((cfg11.win 5).blk t).view.emb (ix2 (n0 := 5000) (n1 := 128) p k)) 1) := by
      funext a; apply Fin.ext
      match a with
      | ⟨0, _⟩ => show win11_4.index t (0 : Fin 2) * 1 + 1 * 0 = 0; omega
      | ⟨1, _⟩ => show win11_4.index t (1 : Fin 2) * 128 + 1 * k.val = win11_5.index t (1 : Fin 2) * 128 + 1 * k.val; omega
    exact norm11_at _ _ _ _ _ _ _ _ _ _ _ p k
      (congrArg (V c (Pipeline.arrRef spec11 0)) h0) (congrArg (V c (Pipeline.arrRef spec11 1)) h1) (congrArg (V c (Pipeline.arrRef spec11 2)) h2)
      (congrArg (V c (Pipeline.arrRef spec11 3)) h3) (congrArg (V c (Pipeline.arrRef spec11 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile11_5 (t : Fin cfg11.N) (i : S100000x128.Idx) :
    i ∈ ((cfg11.win 5).blk t).view.set ↔ ∀ a : Fin 2, win11_5.index t a * S5000x128.size a ≤ (i a).val ∧ (i a).val < win11_5.index t a * S5000x128.size a + S5000x128.size a := by
  show i ∈ ((View.whole (Pipeline.arrRef spec11 5)).slice (win11_5.rect t)).set ↔ _
  rw [View.set_slice_whole, Rect.mem_set_unit]
  exact Iff.rfl

/-- Every index of the array is in some point's tile: row `r` in tile `r / 5000`. -/
theorem tiles_cover11_5 (i : S100000x128.Idx) :
    ∃ t : Fin cfg11.N, (cfg11.win 5).flush t = true ∧ i ∈ ((cfg11.win 5).blk t).view.set := by
  have hi0 : (i 0).val < 100000 := (i 0).isLt
  have hi1 : (i 1).val < 128 := (i 1).isLt
  have hN : cfg11.N = 20 := N_11
  have ht : (i 0).val / 5000 < cfg11.N := by rw [hN]; omega
  refine ⟨⟨(i 0).val / 5000, ht⟩, flush11_5 _, ?_⟩
  obtain ⟨e0, e1, e2, e3, e4, e5, e6, e7, e8, e9, e10, e11⟩ := indexFacts11 ⟨(i 0).val / 5000, ht⟩
  rw [mem_tile11_5]
  intro a
  match a with
  | ⟨0, _⟩ =>
    show win11_5.index ⟨(i 0).val / 5000, ht⟩ (0 : Fin 2) * 5000 ≤ (i 0).val ∧ (i 0).val < win11_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win11_5.index ⟨(i 0).val / 5000, ht⟩ (1 : Fin 2) * 128 ≤ (i 1).val ∧ (i 1).val < win11_5.index ⟨(i 0).val / 5000, ht⟩ (1 : Fin 2) * 128 + 128
    rw [e3]; omega

/-- The output array after the region: the normalised activations of the region's input arrays, at every index. -/
theorem arrAt11_5 (c : Dev nD) :
    (dat11 V c).arrAt 5 cfg11.N
      = Spec.G2_5 (V c (Pipeline.arrRef spec11 0)) (V c (Pipeline.arrRef spec11 1)) (V c (Pipeline.arrRef spec11 2))
          (V c (Pipeline.arrRef spec11 3)) (V c (Pipeline.arrRef spec11 4)) :=
  (dat11 V c).arrAt_eq_of_cover 5 _ (fun t _ => written11_5 V c t) tiles_cover11_5

end Cert.KernelIdeal.Hand
-- ==== Proof.KI.ValB14.lean ====
import proofs.«400512_j87187836109057_1_alg».proof.Proof.KI.RegB14
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets14 : (![0, 0] : Fin 2 → Nat) = fun _ => 0 := funext fun a => by fin_cases a <;> rfl

/-- The payload at entry `(p, k)` of the tile: the rows are read at their one row. -/
theorem norm14_apply (v0 : Vec Ideal S1x128 .f32) (v5 : Vec Ideal S5000x128 .f32) (v7 v13 v17 : Vec Ideal S1x128 .f32)
    (p : Fin 5000) (k : Fin 128) :
    k14_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k14_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm14_at (A0 : FVec Ideal S100000x128 .f32) (A1 A14 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A14 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k14_pay1 (F := Ideal) x2 x0 x1 x3 x4 (ix2 p k) = Spec.G2_5 A0 A1 A14 A3 A4 i := by
  rw [norm14_apply, h0, h1, h2, h3, h4]
  rfl

/-- The printed index maps over the grid's 20 points: the activations' tile moves with the output's, whose row-block
    index is the point's number and whose column-block index is zero; the four rows stay at block (0, 0). -/
theorem indexFacts14 : ∀ t : Fin cfg14.N,
    win14_0.index t (0 : Fin 2) = win14_5.index t (0 : Fin 2) ∧ win14_0.index t (1 : Fin 2) = win14_5.index t (1 : Fin 2)
    ∧ win14_5.index t (0 : Fin 2) = t.val ∧ win14_5.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

set_option maxHeartbeats 1000000 in
/-- What point `t` writes back is tile `t` of the normalised activations of the region's input arrays. -/
theorem written14_5 (c : Dev nD) (t : Fin cfg14.N) :
    (dat14 V c).flushed 5 t = ((cfg14.win 5).blk t).view.read (Elt Ideal)
      (Spec.G2_5 (V c (Pipeline.arrRef spec14 0)) (V c (Pipeline.arrRef spec14 1)) (V c (Pipeline.arrRef spec14 2))
        (V c (Pipeline.arrRef spec14 3)) (V c (Pipeline.arrRef spec14 4))) := by
  show (cfg14.win 5).cut (grid14.coords t) ((dat14 V c).after 5 t) = _
  rw [after14_5]
  unfold out14_5
  rw [View.canon_unit_zero zeroOffsets14]
  simp only [View.ld_unit_zero (S := S5000x128) zeroOffsets14, View.ld_unit_zero (S := S1x128) zeroOffsets14]
  obtain ⟨e0, e1, e2, e3, e4, e5, e6, e7, e8, e9, e10, e11⟩ := indexFacts14 t
  have key : ∀ (p : Fin 5000) (k : Fin 128),
      k14_pay1 (iblk14 V c 2 t) (iblk14 V c 0 t) (iblk14 V c 1 t) (iblk14 V c 3 t) (iblk14 V c 4 t) (ix2 p k)
        = Spec.G2_5 (V c (Pipeline.arrRef spec14 0)) (V c (Pipeline.arrRef spec14 1)) (V c (Pipeline.arrRef spec14 2))
            (V c (Pipeline.arrRef spec14 3)) (V c (Pipeline.arrRef spec14 4))
            (((cfg14.win 5).blk t).view.emb (ix2 (n0 := 5000) (n1 := 128) p k)) := by
    intro p k
    have h0 : ((cfg14.win 0).blk t).view.emb (ix2 (n0 := 5000) (n1 := 128) p k)
        = ((cfg14.win 5).blk t).view.emb (ix2 (n0 := 5000) (n1 := 128) p k) := by
      funext a; apply Fin.ext
      match a with
      | ⟨0, _⟩ => show win14_0.index t (0 : Fin 2) * 5000 + 1 * p.val = win14_5.index t (0 : Fin 2) * 5000 + 1 * p.val; omega
      | ⟨1, _⟩ => show win14_0.index t (1 : Fin 2) * 128 + 1 * k.val = win14_5.index t (1 : Fin 2) * 128 + 1 * k.val; omega
    have h1 : ((cfg14.win 1).blk t).view.emb (ix2 (n0 := 1) (n1 := 128) 0 k)
        = ix2 (n0 := 1) (n1 := 128) 0 ((((cfg14.win 5).blk t).view.emb (ix2 (n0 := 5000) (n1 := 128) p k)) 1) := by
      funext a; apply Fin.ext
      match a with
      | ⟨0, _⟩ => show win14_1.index t (0 : Fin 2) * 1 + 1 * 0 = 0; omega
      | ⟨1, _⟩ => show win14_1.index t (1 : Fin 2) * 128 + 1 * k.val = win14_5.index t (1 : Fin 2) * 128 + 1 * k.val; omega
    have h2 : ((cfg14.win 2).blk t).view.emb (ix2 (n0 := 1) (n1 := 128) 0 k)
        = ix2 (n0 := 1) (n1 := 128) 0 ((((cfg14.win 5).blk t).view.emb (ix2 (n0 := 5000) (n1 := 128) p k)) 1) := by
      funext a; apply Fin.ext
      match a with
      | ⟨0, _⟩ => show win14_2.index t (0 : Fin 2) * 1 + 1 * 0 = 0; omega
      | ⟨1, _⟩ => show win14_2.index t (1 : Fin 2) * 128 + 1 * k.val = win14_5.index t (1 : Fin 2) * 128 + 1 * k.val; omega
    have h3 : ((cfg14.win 3).blk t).view.emb (ix2 (n0 := 1) (n1 := 128) 0 k)
        = ix2 (n0 := 1) (n1 := 128) 0 ((((cfg14.win 5).blk t).view.emb (ix2 (n0 := 5000) (n1 := 128) p k)) 1) := by
      funext a; apply Fin.ext
      match a with
      | ⟨0, _⟩ => show win14_3.index t (0 : Fin 2) * 1 + 1 * 0 = 0; omega
      | ⟨1, _⟩ => show win14_3.index t (1 : Fin 2) * 128 + 1 * k.val = win14_5.index t (1 : Fin 2) * 128 + 1 * k.val; omega
    have h4 : ((cfg14.win 4).blk t).view.emb (ix2 (n0 := 1) (n1 := 128) 0 k)
        = ix2 (n0 := 1) (n1 := 128) 0 ((((cfg14.win 5).blk t).view.emb (ix2 (n0 := 5000) (n1 := 128) p k)) 1) := by
      funext a; apply Fin.ext
      match a with
      | ⟨0, _⟩ => show win14_4.index t (0 : Fin 2) * 1 + 1 * 0 = 0; omega
      | ⟨1, _⟩ => show win14_4.index t (1 : Fin 2) * 128 + 1 * k.val = win14_5.index t (1 : Fin 2) * 128 + 1 * k.val; omega
    exact norm14_at _ _ _ _ _ _ _ _ _ _ _ p k
      (congrArg (V c (Pipeline.arrRef spec14 0)) h0) (congrArg (V c (Pipeline.arrRef spec14 1)) h1) (congrArg (V c (Pipeline.arrRef spec14 2)) h2)
      (congrArg (V c (Pipeline.arrRef spec14 3)) h3) (congrArg (V c (Pipeline.arrRef spec14 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile14_5 (t : Fin cfg14.N) (i : S100000x128.Idx) :
    i ∈ ((cfg14.win 5).blk t).view.set ↔ ∀ a : Fin 2, win14_5.index t a * S5000x128.size a ≤ (i a).val ∧ (i a).val < win14_5.index t a * S5000x128.size a + S5000x128.size a := by
  show i ∈ ((View.whole (Pipeline.arrRef spec14 5)).slice (win14_5.rect t)).set ↔ _
  rw [View.set_slice_whole, Rect.mem_set_unit]
  exact Iff.rfl

/-- Every index of the array is in some point's tile: row `r` in tile `r / 5000`. -/
theorem tiles_cover14_5 (i : S100000x128.Idx) :
    ∃ t : Fin cfg14.N, (cfg14.win 5).flush t = true ∧ i ∈ ((cfg14.win 5).blk t).view.set := by
  have hi0 : (i 0).val < 100000 := (i 0).isLt
  have hi1 : (i 1).val < 128 := (i 1).isLt
  have hN : cfg14.N = 20 := N_14
  have ht : (i 0).val / 5000 < cfg14.N := by rw [hN]; omega
  refine ⟨⟨(i 0).val / 5000, ht⟩, flush14_5 _, ?_⟩
  obtain ⟨e0, e1, e2, e3, e4, e5, e6, e7, e8, e9, e10, e11⟩ := indexFacts14 ⟨(i 0).val / 5000, ht⟩
  rw [mem_tile14_5]
  intro a
  match a with
  | ⟨0, _⟩ =>
    show win14_5.index ⟨(i 0).val / 5000, ht⟩ (0 : Fin 2) * 5000 ≤ (i 0).val ∧ (i 0).val < win14_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win14_5.index ⟨(i 0).val / 5000, ht⟩ (1 : Fin 2) * 128 ≤ (i 1).val ∧ (i 1).val < win14_5.index ⟨(i 0).val / 5000, ht⟩ (1 : Fin 2) * 128 + 128
    rw [e3]; omega

/-- The output array after the region: the normalised activations of the region's input arrays, at every index. -/
theorem arrAt14_5 (c : Dev nD) :
    (dat14 V c).arrAt 5 cfg14.N
      = Spec.G2_5 (V c (Pipeline.arrRef spec14 0)) (V c (Pipeline.arrRef spec14 1)) (V c (Pipeline.arrRef spec14 2))
          (V c (Pipeline.arrRef spec14 3)) (V c (Pipeline.arrRef spec14 4)) :=
  (dat14 V c).arrAt_eq_of_cover 5 _ (fun t _ => written14_5 V c t) tiles_cover14_5

end Cert.KernelIdeal.Hand
-- ==== Proof.KI.ValB17.lean ====
import proofs.«400512_j87187836109057_1_alg».proof.Proof.KI.RegB17
import proofs.«400512_j87187836109057_1_alg».proof.Proof.KI.GB2
import Idealize.ShloMosaic.Lib.Pipeline.Value
import Idealize.ShloMosaic.Lib.ValueLayout
import Idealize.ShloMosaic.Lib.ValueIdx

/-! # Region 2's value at the extended reals: the normalised activations, index by index

Every grid point writes one tile of 5000 rows; the tiles' rows are consecutive, so together they are the whole
array, and entry `(r, k)` of it is `((h (r, k) - mean k) * rsqrt (var k + eps)) * scale k + shift k` of the region's
input arrays. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zeroOffsets17 : (![0, 0] : Fin 2 → Nat) = fun _ => 0 := funext fun a => by fin_cases a <;> rfl

/-- The payload at entry `(p, k)` of the tile: the rows are read at their one row. -/
theorem norm17_apply (v0 : Vec Ideal S1x128 .f32) (v5 : Vec Ideal S5000x128 .f32) (v7 v13 v17 : Vec Ideal S1x128 .f32)
    (p : Fin 5000) (k : Fin 128) :
    k17_pay1 (F := Ideal) v0 v5 v7 v13 v17 (ix2 p k)
      = ((v5 (ix2 p k) - v7 (ix2 (0 : Fin 1) k)) * Ideal.rsqrt (v0 (ix2 (0 : Fin 1) k) + Ideal.ofBits .f32 0x3727C5AC#32))
          * v13 (ix2 (0 : Fin 1) k) + v17 (ix2 (0 : Fin 1) k) := by
  unfold k17_pay1
  simp only [shapeCast_self, addf, subf, mulf, rsqrt, broadcast, broadcastTo_1b_ab_apply,
    Ideal.addf_def, Ideal.subf_def, Ideal.mulf_def, Ideal.rsqrt_def, Ideal.ofBits_def]

/-- The payload at tile entry `(p, k)` is the normalised activations at array index `i`, whenever the tile's entry is
    the activations' at `i` and the rows' entries at `k` are the rows' at `i`'s column. -/
theorem norm17_at (A0 : FVec Ideal S100000x128 .f32) (A1 A17 A3 A4 : FVec Ideal S1x128 .f32)
    (x0 : Vec Ideal S5000x128 .f32) (x1 x2 x3 x4 : Vec Ideal S1x128 .f32) (i : S100000x128.Idx) (p : Fin 5000) (k : Fin 128)
    (h0 : x0 (ix2 p k) = A0 i)
    (h1 : x1 (ix2 (0 : Fin 1) k) = A1 (ix2 (n0 := 1) (n1 := 128) 0 (i 1)))
    (h2 : x2 (ix2 (0 : Fin 1) k) = A17 (ix2 (n0 := 1) (n1 := 128) 0 (i 1)))
    (h3 : x3 (ix2 (0 : Fin 1) k) = A3 (ix2 (n0 := 1) (n1 := 128) 0 (i 1)))
    (h4 : x4 (ix2 (0 : Fin 1) k) = A4 (ix2 (n0 := 1) (n1 := 128) 0 (i 1))) :
    k17_pay1 (F := Ideal) x2 x0 x1 x3 x4 (ix2 p k) = Spec.G2_5 A0 A1 A17 A3 A4 i := by
  rw [norm17_apply, h0, h1, h2, h3, h4]
  rfl

/-- The printed index maps over the grid's 20 points: the activations' tile moves with the output's, whose row-block
    index is the point's number and whose column-block index is zero; the four rows stay at block (0, 0). -/
theorem indexFacts17 : ∀ t : Fin cfg17.N,
    win17_0.index t (0 : Fin 2) = win17_5.index t (0 : Fin 2) ∧ win17_0.index t (1 : Fin 2) = win17_5.index t (1 : Fin 2)
    ∧ win17_5.index t (0 : Fin 2) = t.val ∧ win17_5.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0 :=
  (by decide +kernel : ∀ t : Fin grid17.N, _)

set_option maxHeartbeats 1000000 in
/-- What point `t` writes back is tile `t` of the normalised activations of the region's input arrays. -/
theorem written17_5 (c : Dev nD) (t : Fin cfg17.N) :
    (dat17 V c).flushed 5 t = ((cfg17.win 5).blk t).view.read (Elt Ideal)
      (Spec.G2_5 (V c (Pipeline.arrRef spec17 0)) (V c (Pipeline.arrRef spec17 1)) (V c (Pipeline.arrRef spec17 2))
        (V c (Pipeline.arrRef spec17 3)) (V c (Pipeline.arrRef spec17 4))) := by
  show (cfg17.win 5).cut (grid17.coords t) ((dat17 V c).after 5 t) = _
  rw [after17_5]
  unfold out17_5
  rw [View.canon_unit_zero zeroOffsets17]
  simp only [View.ld_unit_zero (S := S5000x128) zeroOffsets17, View.ld_unit_zero (S := S1x128) zeroOffsets17]
  obtain ⟨e0, e1, e2, e3, e4, e5, e6, e7, e8, e9, e10, e11⟩ := indexFacts17 t
  have key : ∀ (p : Fin 5000) (k : Fin 128),
      k17_pay1 (iblk17 V c 2 t) (iblk17 V c 0 t) (iblk17 V c 1 t) (iblk17 V c 3 t) (iblk17 V c 4 t) (ix2 p k)
        = Spec.G2_5 (V c (Pipeline.arrRef spec17 0)) (V c (Pipeline.arrRef spec17 1)) (V c (Pipeline.arrRef spec17 2))
            (V c (Pipeline.arrRef spec17 3)) (V c (Pipeline.arrRef spec17 4))
            (((cfg17.win 5).blk t).view.emb (ix2 (n0 := 5000) (n1 := 128) p k)) := by
    intro p k
    have h0 : ((cfg17.win 0).blk t).view.emb (ix2 (n0 := 5000) (n1 := 128) p k)
        = ((cfg17.win 5).blk t).view.emb (ix2 (n0 := 5000) (n1 := 128) p k) := by
      funext a; apply Fin.ext
      match a with
      | ⟨0, _⟩ => show win17_0.index t (0 : Fin 2) * 5000 + 1 * p.val = win17_5.index t (0 : Fin 2) * 5000 + 1 * p.val; omega
      | ⟨1, _⟩ => show win17_0.index t (1 : Fin 2) * 128 + 1 * k.val = win17_5.index t (1 : Fin 2) * 128 + 1 * k.val; omega
    have h1 : ((cfg17.win 1).blk t).view.emb (ix2 (n0 := 1) (n1 := 128) 0 k)
        = ix2 (n0 := 1) (n1 := 128) 0 ((((cfg17.win 5).blk t).view.emb (ix2 (n0 := 5000) (n1 := 128) p k)) 1) := by
      funext a; apply Fin.ext
      match a with
      | ⟨0, _⟩ => show win17_1.index t (0 : Fin 2) * 1 + 1 * 0 = 0; omega
      | ⟨1, _⟩ => show win17_1.index t (1 : Fin 2) * 128 + 1 * k.val = win17_5.index t (1 : Fin 2) * 128 + 1 * k.val; omega
    have h2 : ((cfg17.win 2).blk t).view.emb (ix2 (n0 := 1) (n1 := 128) 0 k)
        = ix2 (n0 := 1) (n1 := 128) 0 ((((cfg17.win 5).blk t).view.emb (ix2 (n0 := 5000) (n1 := 128) p k)) 1) := by
      funext a; apply Fin.ext
      match a with
      | ⟨0, _⟩ => show win17_2.index t (0 : Fin 2) * 1 + 1 * 0 = 0; omega
      | ⟨1, _⟩ => show win17_2.index t (1 : Fin 2) * 128 + 1 * k.val = win17_5.index t (1 : Fin 2) * 128 + 1 * k.val; omega
    have h3 : ((cfg17.win 3).blk t).view.emb (ix2 (n0 := 1) (n1 := 128) 0 k)
        = ix2 (n0 := 1) (n1 := 128) 0 ((((cfg17.win 5).blk t).view.emb (ix2 (n0 := 5000) (n1 := 128) p k)) 1) := by
      funext a; apply Fin.ext
      match a with
      | ⟨0, _⟩ => show win17_3.index t (0 : Fin 2) * 1 + 1 * 0 = 0; omega
      | ⟨1, _⟩ => show win17_3.index t (1 : Fin 2) * 128 + 1 * k.val = win17_5.index t (1 : Fin 2) * 128 + 1 * k.val; omega
    have h4 : ((cfg17.win 4).blk t).view.emb (ix2 (n0 := 1) (n1 := 128) 0 k)
        = ix2 (n0 := 1) (n1 := 128) 0 ((((cfg17.win 5).blk t).view.emb (ix2 (n0 := 5000) (n1 := 128) p k)) 1) := by
      funext a; apply Fin.ext
      match a with
      | ⟨0, _⟩ => show win17_4.index t (0 : Fin 2) * 1 + 1 * 0 = 0; omega
      | ⟨1, _⟩ => show win17_4.index t (1 : Fin 2) * 128 + 1 * k.val = win17_5.index t (1 : Fin 2) * 128 + 1 * k.val; omega
    exact norm17_at _ _ _ _ _ _ _ _ _ _ _ p k
      (congrArg (V c (Pipeline.arrRef spec17 0)) h0) (congrArg (V c (Pipeline.arrRef spec17 1)) h1) (congrArg (V c (Pipeline.arrRef spec17 2)) h2)
      (congrArg (V c (Pipeline.arrRef spec17 3)) h3) (congrArg (V c (Pipeline.arrRef spec17 4)) h4)
  funext j
  have hj : j = ix2 (n0 := 5000) (n1 := 128) (j 0) (j 1) := eq_ix2 (n0 := 5000) (n1 := 128) j
  rw [hj]
  exact key (j 0) (j 1)

/-- An index of the array is in point `t`'s tile iff each coordinate is in the tile's range on its axis. -/
theorem mem_tile17_5 (t : Fin cfg17.N) (i : S100000x128.Idx) :
    i ∈ ((cfg17.win 5).blk t).view.set ↔ ∀ a : Fin 2, win17_5.index t a * S5000x128.size a ≤ (i a).val ∧ (i a).val < win17_5.index t a * S5000x128.size a + S5000x128.size a := by
  show i ∈ ((View.whole (Pipeline.arrRef spec17 5)).slice (win17_5.rect t)).set ↔ _
  rw [View.set_slice_whole, Rect.mem_set_unit]
  exact Iff.rfl

/-- Every index of the array is in some point's tile: row `r` in tile `r / 5000`. -/
theorem tiles_cover17_5 (i : S100000x128.Idx) :
    ∃ t : Fin cfg17.N, (cfg17.win 5).flush t = true ∧ i ∈ ((cfg17.win 5).blk t).view.set := by
  have hi0 : (i 0).val < 100000 := (i 0).isLt
  have hi1 : (i 1).val < 128 := (i 1).isLt
  have hN : cfg17.N = 20 := N_17
  have ht : (i 0).val / 5000 < cfg17.N := by rw [hN]; omega
  refine ⟨⟨(i 0).val / 5000, ht⟩, flush17_5 _, ?_⟩
  obtain ⟨e0, e1, e2, e3, e4, e5, e6, e7, e8, e9, e10, e11⟩ := indexFacts17 ⟨(i 0).val / 5000, ht⟩
  rw [mem_tile17_5]
  intro a
  match a with
  | ⟨0, _⟩ =>
    show win17_5.index ⟨(i 0).val / 5000, ht⟩ (0 : Fin 2) * 5000 ≤ (i 0).val ∧ (i 0).val < win17_5.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win17_5.index ⟨(i 0).val / 5000, ht⟩ (1 : Fin 2) * 128 ≤ (i 1).val ∧ (i 1).val < win17_5.index ⟨(i 0).val / 5000, ht⟩ (1 : Fin 2) * 128 + 128
    rw [e3]; omega

/-- The output array after the region: the normalised activations of the region's input arrays, at every index. -/
theorem arrAt17_5 (c : Dev nD) :
    (dat17 V c).arrAt 5 cfg17.N
      = Spec.G2_5 (V c (Pipeline.arrRef spec17 0)) (V c (Pipeline.arrRef spec17 1)) (V c (Pipeline.arrRef spec17 2))
          (V c (Pipeline.arrRef spec17 3)) (V c (Pipeline.arrRef spec17 4)) :=
  (dat17 V c).arrAt_eq_of_cover 5 _ (fun t _ => written17_5 V c t) tiles_cover17_5

end Cert.KernelIdeal.Hand
-- ==== Proof.KI.ValL18.lean ====
/- The VALUE of region 18 of @main at the ideal values: after the region the output array is the closed form
   `Spec.G18_5` (two matrix products with their biases, then the log-softmax along the last axis) of the region's five
   input arrays as the region finds them. First the body's payload at an index (each product as a sum over the
   contracted coordinate, each lane reduction as a fold or a sum over the four lanes, the layout operations read at
   coordinates), then the one block as the whole array, then the array after the one write-back. -/
import proofs.«400512_j87187836109057_1_alg».proof.Proof.KI.RegL18
import proofs.«400512_j87187836109057_1_alg».proof.Proof.KI.GL18
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The two products at an index -/

/-- The product read at (p, j): the sum over the contracted coordinate of the entries' products. -/
theorem matmul18a_apply (A : FVec Ideal S64x128 .f32) (B : FVec Ideal S128x64 .f32) (p : Fin 64) (j : Fin 64) :
    matmul dot_S64x128_S128x64_S64x64_1_0_0_1_n_n (some .fp32) A B (constant (F := Ideal) S64x64 .f32 0x00000000#32) (ix2 p j)
      = ∑ k : Fin 128, A (ix2 p k) * B (ix2 k j) := by
  show FloatOps.matmul dot_S64x128_S128x64_S64x64_1_0_0_1_n_n (some .fp32) A B (constant (F := Ideal) S64x64 .f32 0x00000000#32) (ix2 p j) = _
  rw [Ideal.matmul_constant_zero_apply, ← Equiv.sum_comp (contrEquiv1 dot_S64x128_S128x64_S64x64_1_0_0_1_n_n 128 rfl rfl).symm]
  refine Finset.sum_congr rfl fun c _ => ?_
  have c2 := contrEquiv1_symm_val dot_S64x128_S128x64_S64x64_1_0_0_1_n_n 128 rfl rfl c
  have l2 : (dot_S64x128_S128x64_S64x64_1_0_0_1_n_n).lhsIdx (ix2 p j) ((contrEquiv1 _ 128 rfl rfl).symm c) = ix2 p c := by
    funext ax; apply Fin.ext
    match ax with
    | ⟨0, _⟩ => simp [DotDims.lhsIdx, dot_S64x128_S128x64_S64x64_1_0_0_1_n_n]; rfl
    | ⟨1, _⟩ => simp [DotDims.lhsIdx, dot_S64x128_S128x64_S64x64_1_0_0_1_n_n]; exact c2
  have r2 : (dot_S64x128_S128x64_S64x64_1_0_0_1_n_n).rhsIdx (ix2 p j) ((contrEquiv1 _ 128 rfl rfl).symm c) = ix2 c j := by
    funext ax; apply Fin.ext
    match ax with
    | ⟨0, _⟩ => simp [DotDims.rhsIdx, dot_S64x128_S128x64_S64x64_1_0_0_1_n_n]; exact c2
    | ⟨1, _⟩ => simp [DotDims.rhsIdx, dot_S64x128_S128x64_S64x64_1_0_0_1_n_n]; rfl
  rw [l2, r2]

/-- The product read at (p, j): the sum over the contracted coordinate of the entries' products. -/
theorem matmul18b_apply (A : FVec Ideal S64x64 .f32) (B : FVec Ideal S64x4 .f32) (p : Fin 64) (j : Fin 4) :
    matmul dot_S64x64_S64x4_S64x4_1_0_0_1_n_n (some .fp32) A B (constant (F := Ideal) S64x4 .f32 0x00000000#32) (ix2 p j)
      = ∑ k : Fin 64, A (ix2 p k) * B (ix2 k j) := by
  show FloatOps.matmul dot_S64x64_S64x4_S64x4_1_0_0_1_n_n (some .fp32) A B (constant (F := Ideal) S64x4 .f32 0x00000000#32) (ix2 p j) = _
  rw [Ideal.matmul_constant_zero_apply, ← Equiv.sum_comp (contrEquiv1 dot_S64x64_S64x4_S64x4_1_0_0_1_n_n 64 rfl rfl).symm]
  refine Finset.sum_congr rfl fun c _ => ?_
  have c2 := contrEquiv1_symm_val dot_S64x64_S64x4_S64x4_1_0_0_1_n_n 64 rfl rfl c
  have l2 : (dot_S64x64_S64x4_S64x4_1_0_0_1_n_n).lhsIdx (ix2 p j) ((contrEquiv1 _ 64 rfl rfl).symm c) = ix2 p c := by
    funext ax; apply Fin.ext
    match ax with
    | ⟨0, _⟩ => simp [DotDims.lhsIdx, dot_S64x64_S64x4_S64x4_1_0_0_1_n_n]; rfl
    | ⟨1, _⟩ => simp [DotDims.lhsIdx, dot_S64x64_S64x4_S64x4_1_0_0_1_n_n]; exact c2
  have r2 : (dot_S64x64_S64x4_S64x4_1_0_0_1_n_n).rhsIdx (ix2 p j) ((contrEquiv1 _ 64 rfl rfl).symm c) = ix2 c j := by
    funext ax; apply Fin.ext
    match ax with
    | ⟨0, _⟩ => simp [DotDims.rhsIdx, dot_S64x64_S64x4_S64x4_1_0_0_1_n_n]; exact c2
    | ⟨1, _⟩ => simp [DotDims.rhsIdx, dot_S64x64_S64x4_S64x4_1_0_0_1_n_n]; rfl
  rw [l2, r2]

/-! ## The layout operations of the log-softmax at an index -/

/-- The source index over row `p` with lane `q` inserted is (p, q). -/
theorem lift18 (h : S64x4.Reduces [1] S64) (p : Fin 64) (q : Fin 4) : h.lift (ix1 p) q = ix2 p q := by
  funext c; apply Fin.ext
  match c with
  | ⟨0, _⟩ => rfl
  | ⟨1, _⟩ => rfl

/-- A length-64 vector cast to a 64 × 1 column reads, at (p, u), the vector at p. -/
theorem colCast18 {α : Type} (x : S64.Idx → α) (h : S64.ShapeCasts S64x1) (p : Fin 64) (u : Fin 1) :
    shapeCast S64x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 64 × 1 column broadcast to 64 × 4 reads, at (p, q), the column at p. -/
theorem colBcast18 {α : Type} (x : S64x1.Idx → α) (h : S64x1.Broadcasts S64x4) (p : Fin 64) (q : Fin 4) :
    broadcastTo S64x4 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- A 1 × 64 row broadcast to 64 × 64 reads, at (p, j), the row at j; a 1 × 4 row to 64 × 4 likewise. -/
theorem rowBcast18a {α : Type} (x : S1x64.Idx → α) (h : S1x64.Broadcasts S64x64) (p : Fin 64) (j : Fin 64) :
    broadcastTo S64x64 x h (ix2 p j) = x (ix2 (0 : Fin 1) j) := broadcastTo_1b_ab_apply x h p j
theorem rowBcast18b {α : Type} (x : S1x4.Idx → α) (h : S1x4.Broadcasts S64x4) (p : Fin 64) (q : Fin 4) :
    broadcastTo S64x4 x h (ix2 p q) = x (ix2 (0 : Fin 1) q) := broadcastTo_1b_ab_apply x h p q

/-! ## The payload at an index -/

/-- The logits as the body computes them: the two products with their biases. -/
def head18 (v0 : FVec Ideal S64x128 .f32) (v2 : FVec Ideal S128x64 .f32) (v4 : FVec Ideal S1x64 .f32) (v8 : FVec Ideal S64x4 .f32)
    (v10 : FVec Ideal S1x4 .f32) : FVec Ideal S64x4 .f32 :=
  have v1 : FVec Ideal S64x128 .f32 := shapeCast S64x128 v0 shapeCasts_S64x128_S64x128
  have cst : FVec Ideal S64x64 .f32 := constant S64x64 .f32 0x00000000#32
  have v3 : FVec Ideal S64x64 .f32 := matmul dot_S64x128_S128x64_S64x64_1_0_0_1_n_n (some .fp32) v1 v2 cst
  have v5 : FVec Ideal S1x64 .f32 := shapeCast S1x64 v4 shapeCasts_S1x64_S1x64
  have v6 : FVec Ideal S64x64 .f32 := broadcastTo S64x64 v5 broadcasts_S1x64_S64x64
  have v7 : FVec Ideal S64x64 .f32 := addf v3 v6
  have cst_7 : FVec Ideal S64x4 .f32 := constant S64x4 .f32 0x00000000#32
  have v9 : FVec Ideal S64x4 .f32 := matmul dot_S64x64_S64x4_S64x4_1_0_0_1_n_n (some .fp32) v7 v8 cst_7
  have v11 : FVec Ideal S1x4 .f32 := shapeCast S1x4 v10 shapeCasts_S1x4_S1x4
  have v12 : FVec Ideal S64x4 .f32 := broadcastTo S64x4 v11 broadcasts_S1x4_S64x4
  have v13 : FVec Ideal S64x4 .f32 := addf v9 v12
  v13

/-- The log-softmax along the last axis as the body computes it, of any logits. -/
def tail18 (v13 : FVec Ideal S64x4 .f32) : FVec Ideal S64x4 .f32 :=
  have v14 : FVec Ideal S64 .f32 := multiReduction .maximumf [1] S64 v13 0xFF800000#32 reduces_S64x4_S64 (.inl rfl) rfl
  have cst_11 : Ideal .f32 := Scalar.ofBits .f32 0xFF800000#32
  have v15 : FVec Ideal S64 .f32 := broadcast S64 cst_11
  have v16 : FVec Ideal S64 .f32 := maximumf v15 v14
  have v17 : FVec Ideal S64x1 .f32 := shapeCast S64x1 v16 shapeCasts_S64_S64x1
  have v18 : FVec Ideal S64x4 .f32 := broadcastTo S64x4 v17 broadcasts_S64x1_S64x4
  have v19 : FVec Ideal S64x4 .f32 := subf v13 v18
  have v20 : FVec Ideal S64x4 .f32 := exp v19
  have v21 : FVec Ideal S64 .f32 := multiReduction .add [1] S64 v20 0x00000000#32 reduces_S64x4_S64 (.inl rfl) rfl
  have v22 : FVec Ideal S64x1 .f32 := shapeCast S64x1 v21 shapeCasts_S64_S64x1
  have v23 : FVec Ideal S64x1 .f32 := log v22
  have v24 : FVec Ideal S64x4 .f32 := broadcastTo S64x4 v23 broadcasts_S64x1_S64x4
  have v25 : FVec Ideal S64x4 .f32 := subf v19 v24
  v25

/-- The payload is the log-softmax of the logits. -/
theorem pay18_split (v0 : FVec Ideal S64x128 .f32) (v2 : FVec Ideal S128x64 .f32) (v4 : FVec Ideal S1x64 .f32) (v8 : FVec Ideal S64x4 .f32)
    (v10 : FVec Ideal S1x4 .f32) : k18_pay1 (F := Ideal) v0 v2 v4 v8 v10 = tail18 (head18 v0 v2 v4 v8 v10) := rfl

/-- The logits at (p, q). -/
theorem head18_apply (v0 : FVec Ideal S64x128 .f32) (v2 : FVec Ideal S128x64 .f32) (v4 : FVec Ideal S1x64 .f32) (v8 : FVec Ideal S64x4 .f32)
    (v10 : FVec Ideal S1x4 .f32) (p : Fin 64) (q : Fin 4) :
    head18 v0 v2 v4 v8 v10 (ix2 p q) = Spec.logit18 v0 v2 v4 v8 v10 p q := by
  unfold head18 Spec.logit18
  simp only [shapeCast_self]
  rw [addf_apply, matmul18b_apply, rowBcast18b]
  refine congrArg (· + v10 (ix2 (0 : Fin 1) q)) (Finset.sum_congr rfl fun j _ => ?_)
  unfold Spec.hidden18
  rw [addf_apply, matmul18a_apply, rowBcast18a]

/-- The row maximum at p. -/
theorem rowMax18_apply (z : FVec Ideal S64x4 .f32) (h : S64x4.Reduces [1] S64) (hφ : FKind.Formats .f32)
    (hacc : (0xFF800000#32 : BitVec 32) = 0xFF800000#32) (p : Fin 64) :
    multiReduction .maximumf [1] S64 z 0xFF800000#32 h hφ hacc (ix1 p)
      = (Finset.univ : Finset (Fin 4)).fold max (Ideal.ofBits .f32 0xFF800000#32) fun q => z (ix2 p q) := by
  refine (Ideal.multiReduction_maximumf_single z 0xFF800000#32 h hφ hacc (ix1 p)).trans ?_
  refine congrArg (fun f => (Finset.univ : Finset (Fin 4)).fold max (Ideal.ofBits .f32 0xFF800000#32) f) (funext fun q => ?_)
  exact congrArg z (lift18 h p q)

/-- The row sum at p. -/
theorem rowSum18_apply (z : FVec Ideal S64x4 .f32) (h : S64x4.Reduces [1] S64) (hφ : FKind.Formats .f32)
    (hacc : (0x00000000#32 : BitVec 32) = 0x00000000#32) (p : Fin 64) :
    multiReduction .add [1] S64 z 0x00000000#32 h hφ hacc (ix1 p) = ∑ q : Fin 4, z (ix2 p q) := by
  refine (Ideal.multiReduction_add_single z 0x00000000#32 h hφ hacc (ix1 p)).trans ?_
  exact Finset.sum_congr rfl fun q _ => congrArg z (lift18 h p q)

/-- The exponential and the logarithm of a vector at an index are those of the element. -/
theorem exp18_apply {s : Shape} (v : FVec Ideal s .f32) (i : s.Idx) : exp v i = Ideal.exp (v i) := rfl
theorem log18_apply {s : Shape} (v : FVec Ideal s .f32) (i : s.Idx) : log v i = Ideal.log (v i) := rfl

/-- The log-softmax of any logits at (p, q): the logit less its row's maximum, less the logarithm of the row's sum of
    exponentials. -/
theorem tail18_apply (z : FVec Ideal S64x4 .f32) (p : Fin 64) (q : Fin 4) :
    tail18 z (ix2 p q)
      = (z (ix2 p q) - max Spec.negInf18 ((Finset.univ : Finset (Fin 4)).fold max Spec.negInf18 fun q' => z (ix2 p q')))
        - Ideal.log (∑ q' : Fin 4, Ideal.exp (z (ix2 p q')
            - max Spec.negInf18 ((Finset.univ : Finset (Fin 4)).fold max Spec.negInf18 fun q' => z (ix2 p q')))) := by
  unfold tail18
  simp only [subf_apply, colBcast18, colCast18, maximumf_apply, broadcast_apply, log18_apply]
  rw [rowSum18_apply]
  simp only [exp18_apply, subf_apply, colBcast18, colCast18, maximumf_apply, broadcast_apply]
  rw [rowMax18_apply]
  rfl

/-- The payload at (p, q) is the closed form there. -/
theorem pay18_apply (v0 : FVec Ideal S64x128 .f32) (v2 : FVec Ideal S128x64 .f32) (v4 : FVec Ideal S1x64 .f32) (v8 : FVec Ideal S64x4 .f32)
    (v10 : FVec Ideal S1x4 .f32) (p : Fin 64) (q : Fin 4) :
    k18_pay1 (F := Ideal) v0 v2 v4 v8 v10 (ix2 p q) = Spec.G18_5 v0 v2 v4 v8 v10 (ix2 p q) := by
  rw [pay18_split, tail18_apply]
  simp only [head18_apply]
  rfl

/-! ## From the block to the array -/

variable (V : (c : Dev nD) → (b : Ref sig .tc) → Buf (Elt Ideal) ((c : Thread nD τ).loc b))

theorem hz18 : (![0, 0] : Fin 2 → Nat) = fun _ => 0 := funext fun a => by fin_cases a <;> rfl

/-- Every window's block index is zero on both axes at every point of the one-point grid. -/
theorem idx_facts18 : ∀ t : Fin cfg18.N,
    win18_0.index t (0 : Fin 2) = 0 ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = 0 ∧ win18_5.index t (1 : Fin 2) = 0 :=
  (by decide +kernel : ∀ t : Fin grid18.N, _)

/-- The body's result block, of any five input blocks, is the closed form of them. -/
theorem out18_5_eq (A0 : FVec Ideal S64x128 .f32) (A1 : FVec Ideal S128x64 .f32) (A2 : FVec Ideal S1x64 .f32) (A3 : FVec Ideal S64x4 .f32)
    (A4 : FVec Ideal S1x4 .f32) : out18_5 (F := Ideal) A0 A1 A2 A3 A4 = Spec.G18_5 A0 A1 A2 A3 A4 := by
  unfold out18_5
  rw [View.canon_unit_zero hz18]
  simp only [View.ld_unit_zero (S := S64x128) hz18, View.ld_unit_zero (S := S128x64) hz18, View.ld_unit_zero (S := S1x64) hz18,
    View.ld_unit_zero (S := S64x4) hz18, View.ld_unit_zero (S := S1x4) hz18]
  funext i
  obtain ⟨p, q, rfl⟩ : ∃ (p : Fin 64) (q : Fin 4), i = ix2 p q := ⟨i 0, i 1, eq_ix2 i⟩
  exact pay18_apply A0 A1 A2 A3 A4 p q

/-- Window 0's block at the one point is its whole array: read through the block, any contents are themselves. -/
theorem read18_0 (t : Fin cfg18.N) (X : S64x128.Idx → EReal) : ((cfg18.win 0).blk t).view.read (Elt Ideal) X = X := by
  obtain ⟨e0, e1, e2, e3, e4, e5, e6, e7, e8, e9, e10, e11⟩ := idx_facts18 t
  funext j
  show X (((cfg18.win 0).blk t).view.emb j) = X j
  refine congrArg X (funext fun a => Fin.ext ?_)
  match a with
  | ⟨0, _⟩ => show win18_0.index t (0 : Fin 2) * 64 + 1 * (j 0).val = (j 0).val; omega
  | ⟨1, _⟩ => show win18_0.index t (1 : Fin 2) * 128 + 1 * (j 1).val = (j 1).val; omega

/-- Window 1's block at the one point is its whole array: read through the block, any contents are themselves. -/
theorem read18_1 (t : Fin cfg18.N) (X : S128x64.Idx → EReal) : ((cfg18.win 1).blk t).view.read (Elt Ideal) X = X := by
  obtain ⟨e0, e1, e2, e3, e4, e5, e6, e7, e8, e9, e10, e11⟩ := idx_facts18 t
  funext j
  show X (((cfg18.win 1).blk t).view.emb j) = X j
  refine congrArg X (funext fun a => Fin.ext ?_)
  match a with
  | ⟨0, _⟩ => show win18_1.index t (0 : Fin 2) * 128 + 1 * (j 0).val = (j 0).val; omega
  | ⟨1, _⟩ => show win18_1.index t (1 : Fin 2) * 64 + 1 * (j 1).val = (j 1).val; omega

/-- Window 2's block at the one point is its whole array: read through the block, any contents are themselves. -/
theorem read18_2 (t : Fin cfg18.N) (X : S1x64.Idx → EReal) : ((cfg18.win 2).blk t).view.read (Elt Ideal) X = X := by
  obtain ⟨e0, e1, e2, e3, e4, e5, e6, e7, e8, e9, e10, e11⟩ := idx_facts18 t
  funext j
  show X (((cfg18.win 2).blk t).view.emb j) = X j
  refine congrArg X (funext fun a => Fin.ext ?_)
  match a with
  | ⟨0, _⟩ => show win18_2.index t (0 : Fin 2) * 1 + 1 * (j 0).val = (j 0).val; omega
  | ⟨1, _⟩ => show win18_2.index t (1 : Fin 2) * 64 + 1 * (j 1).val = (j 1).val; omega

/-- Window 3's block at the one point is its whole array: read through the block, any contents are themselves. -/
theorem read18_3 (t : Fin cfg18.N) (X : S64x4.Idx → EReal) : ((cfg18.win 3).blk t).view.read (Elt Ideal) X = X := by
  obtain ⟨e0, e1, e2, e3, e4, e5, e6, e7, e8, e9, e10, e11⟩ := idx_facts18 t
  funext j
  show X (((cfg18.win 3).blk t).view.emb j) = X j
  refine congrArg X (funext fun a => Fin.ext ?_)
  match a with
  | ⟨0, _⟩ => show win18_3.index t (0 : Fin 2) * 64 + 1 * (j 0).val = (j 0).val; omega
  | ⟨1, _⟩ => show win18_3.index t (1 : Fin 2) * 4 + 1 * (j 1).val = (j 1).val; omega

/-- Window 4's block at the one point is its whole array: read through the block, any contents are themselves. -/
theorem read18_4 (t : Fin cfg18.N) (X : S1x4.Idx → EReal) : ((cfg18.win 4).blk t).view.read (Elt Ideal) X = X := by
  obtain ⟨e0, e1, e2, e3, e4, e5, e6, e7, e8, e9, e10, e11⟩ := idx_facts18 t
  funext j
  show X (((cfg18.win 4).blk t).view.emb j) = X j
  refine congrArg X (funext fun a => Fin.ext ?_)
  match a with
  | ⟨0, _⟩ => show win18_4.index t (0 : Fin 2) * 1 + 1 * (j 0).val = (j 0).val; omega
  | ⟨1, _⟩ => show win18_4.index t (1 : Fin 2) * 4 + 1 * (j 1).val = (j 1).val; omega

/-- Window 5's block at the one point is its whole array: read through the block, any contents are themselves. -/
theorem read18_5 (t : Fin cfg18.N) (X : S64x4.Idx → EReal) : ((cfg18.win 5).blk t).view.read (Elt Ideal) X = X := by
  obtain ⟨e0, e1, e2, e3, e4, e5, e6, e7, e8, e9, e10, e11⟩ := idx_facts18 t
  funext j
  show X (((cfg18.win 5).blk t).view.emb j) = X j
  refine congrArg X (funext fun a => Fin.ext ?_)
  match a with
  | ⟨0, _⟩ => show win18_5.index t (0 : Fin 2) * 64 + 1 * (j 0).val = (j 0).val; omega
  | ⟨1, _⟩ => show win18_5.index t (1 : Fin 2) * 4 + 1 * (j 1).val = (j 1).val; omega

/-- So each input window's block at the one point is its array as the region finds it. -/
theorem iblk18_0_eq (c : Dev nD) (t : Fin cfg18.N) : iblk18 V c 0 t = V c (Pipeline.arrRef spec18 0) := read18_0 t _
theorem iblk18_1_eq (c : Dev nD) (t : Fin cfg18.N) : iblk18 V c 1 t = V c (Pipeline.arrRef spec18 1) := read18_1 t _
theorem iblk18_2_eq (c : Dev nD) (t : Fin cfg18.N) : iblk18 V c 2 t = V c (Pipeline.arrRef spec18 2) := read18_2 t _
theorem iblk18_3_eq (c : Dev nD) (t : Fin cfg18.N) : iblk18 V c 3 t = V c (Pipeline.arrRef spec18 3) := read18_3 t _
theorem iblk18_4_eq (c : Dev nD) (t : Fin cfg18.N) : iblk18 V c 4 t = V c (Pipeline.arrRef spec18 4) := read18_4 t _

/-- What the one point writes back is the closed form of the region's input arrays, read through the output's block. -/
theorem flushed18_5_eq (c : Dev nD) (t : Fin cfg18.N) :
    (dat18 V c).flushed 5 t = ((cfg18.win 5).blk t).view.read (Elt Ideal)
      (Spec.G18_5 (V c (Pipeline.arrRef spec18 0)) (V c (Pipeline.arrRef spec18 1)) (V c (Pipeline.arrRef spec18 2))
        (V c (Pipeline.arrRef spec18 3)) (V c (Pipeline.arrRef spec18 4))) := by
  show (cfg18.win 5).cut (grid18.coords t) ((dat18 V c).after 5 t) = _
  rw [after18_5, iblk18_0_eq, iblk18_1_eq, iblk18_2_eq, iblk18_3_eq, iblk18_4_eq, out18_5_eq, read18_5]
  rfl

/-- An index of the output array is in point `t`'s block iff each coordinate is in the block's range on its axis. -/
theorem mem_blk18_5 (t : Fin cfg18.N) (i : S64x4.Idx) :
    i ∈ ((cfg18.win 5).blk t).view.set ↔ ∀ a : Fin 2, win18_5.index t a * S64x4.size a ≤ (i a).val ∧ (i a).val < win18_5.index t a * S64x4.size a + S64x4.size a := by
  show i ∈ ((View.whole main_v186).slice (win18_5.rect t)).set ↔ _
  rw [View.set_slice_whole, Rect.mem_set_unit]
  exact Iff.rfl

/-- THE OUTPUT ARRAY after the region: the closed form of the region's five input arrays. -/
theorem final18_5 (c : Dev nD) :
    (dat18 V c).arrAt 5 cfg18.N
      = Spec.G18_5 (V c (Pipeline.arrRef spec18 0)) (V c (Pipeline.arrRef spec18 1)) (V c (Pipeline.arrRef spec18 2))
          (V c (Pipeline.arrRef spec18 3)) (V c (Pipeline.arrRef spec18 4)) :=
  (dat18 V c).arrAt_eq_of_cover 5 _ (fun t _ => flushed18_5_eq V c t) fun i => ⟨t18_0, flush18_5 t18_0, by
    obtain ⟨e0, e1, e2, e3, e4, e5, e6, e7, e8, e9, e10, e11⟩ := idx_facts18 t18_0
    rw [mem_blk18_5]
    intro a
    match a with
    | ⟨0, _⟩ => show win18_5.index t18_0 (0 : Fin 2) * 64 ≤ (i 0).val ∧ (i 0).val < win18_5.index t18_0 (0 : Fin 2) * 64 + 64; have h0 : (i 0).val < 64 := (i 0).isLt; omega
    | ⟨1, _⟩ => show win18_5.index t18_0 (1 : Fin 2) * 4 ≤ (i 1).val ∧ (i 1).val < win18_5.index t18_0 (1 : Fin 2) * 4 + 4; have h1 : (i 1).val < 4 := (i 1).isLt; omega⟩

end Cert.KernelIdeal.Hand

end
-- ==== Proof.KI.KChain.lean ====
/-
  The program's result as the closed term of its arguments. The buffers' contents at each boundary between two items of
  the program form a fold from the launch memory; a host stretch is read by its reading lemma, a region's output by the
  region's value; a buffer nothing writes in between is read through. One lemma per layer (the layer's input stays one
  opaque term), then the pooling and the head.
-/
import proofs.«400512_j87187836109057_1_alg».proof.Proof.KI.KSpec
import proofs.«400512_j87187836109057_1_alg».proof.Proof.KI.KRead
import proofs.«400512_j87187836109057_1_alg».proof.Proof.KI.RunW
import proofs.«400512_j87187836109057_1_alg».proof.Proof.KI.ValM0
import proofs.«400512_j87187836109057_1_alg».proof.Proof.KI.ValM3
import proofs.«400512_j87187836109057_1_alg».proof.Proof.KI.ValM6
import proofs.«400512_j87187836109057_1_alg».proof.Proof.KI.ValM9
import proofs.«400512_j87187836109057_1_alg».proof.Proof.KI.ValM12
import proofs.«400512_j87187836109057_1_alg».proof.Proof.KI.ValM15
import proofs.«400512_j87187836109057_1_alg».proof.Proof.KI.ValS1
import proofs.«400512_j87187836109057_1_alg».proof.Proof.KI.ValS4
import proofs.«400512_j87187836109057_1_alg».proof.Proof.KI.ValS7
import proofs.«400512_j87187836109057_1_alg».proof.Proof.KI.ValS10
import proofs.«400512_j87187836109057_1_alg».proof.Proof.KI.ValS13
import proofs.«400512_j87187836109057_1_alg».proof.Proof.KI.ValS16
import proofs.«400512_j87187836109057_1_alg».proof.Proof.KI.ValB2
import proofs.«400512_j87187836109057_1_alg».proof.Proof.KI.ValB5
import proofs.«400512_j87187836109057_1_alg».proof.Proof.KI.ValB8
import proofs.«400512_j87187836109057_1_alg».proof.Proof.KI.ValB11
import proofs.«400512_j87187836109057_1_alg».proof.Proof.KI.ValB14
import proofs.«400512_j87187836109057_1_alg».proof.Proof.KI.ValB17
import proofs.«400512_j87187836109057_1_alg».proof.Proof.KI.ValL18

set_option maxRecDepth 16384

noncomputable section

namespace Cert.KernelIdeal.Hand

open Cert.KernelIdeal Cert.KernelIdeal.Gen Cert.KernelIdeal.Spec
open Idealize.ShloMosaic Idealize.ShloMosaic.TcCoe

variable (m : (ℓ : Loc nD τ sig) → Buf (Elt Ideal) ℓ)

/-! ## A buffer no item writes in between is read through -/

theorem thru2_v1 (c : Dev nD) : W2 m c (Proc.devRef .tc main_v1) = W1 m c (Proc.devRef .tc main_v1) :=
  (W2_of m c main_v1 (by decide))
theorem thru3_v3 (c : Dev nD) : W3 m c (Proc.devRef .tc main_v3) = W1 m c (Proc.devRef .tc main_v3) :=
  (W3_of m c main_v3 (by decide)).trans <|
  (W2_of m c main_v3 (by decide))
theorem thru3_arg4 (c : Dev nD) : W3 m c (Proc.devRef .tc main_arg4) = m ((c : Thread nD τ).loc main_arg4) :=
  (W3_of m c main_arg4 (by decide)).trans <|
  (W2_of m c main_arg4 (by decide)).trans <|
  (W1_of m c main_arg4 (by decide)).trans rfl
theorem thru5_arg5 (c : Dev nD) : W5 m c (Proc.devRef .tc main_arg5) = m ((c : Thread nD τ).loc main_arg5) :=
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru5_arg6 (c : Dev nD) : W5 m c (Proc.devRef .tc main_arg6) = m ((c : Thread nD τ).loc main_arg6) :=
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru7_arg3 (c : Dev nD) : W7 m c (Proc.devRef .tc main_arg3) = m ((c : Thread nD τ).loc main_arg3) :=
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl
theorem thru9_v1 (c : Dev nD) : W9 m c (Proc.devRef .tc main_v1) = W1 m c (Proc.devRef .tc main_v1) :=
  (W9_of m c main_v1 (by decide)).trans <|
  (W8_of m c main_v1 (by decide)).trans <|
  (W7_of m c main_v1 (by decide)).trans <|
  (W6_of m c main_v1 (by decide)).trans <|
  (W5_of m c main_v1 (by decide)).trans <|
  (W4_of m c main_v1 (by decide)).trans <|
  (W3_of m c main_v1 (by decide)).trans <|
  (W2_of m c main_v1 (by decide))
theorem thru10_v3 (c : Dev nD) : W10 m c (Proc.devRef .tc main_v3) = W1 m c (Proc.devRef .tc main_v3) :=
  (W10_of m c main_v3 (by decide)).trans <|
  (W9_of m c main_v3 (by decide)).trans <|
  (W8_of m c main_v3 (by decide)).trans <|
  (W7_of m c main_v3 (by decide)).trans <|
  (W6_of m c main_v3 (by decide)).trans <|
  (W5_of m c main_v3 (by decide)).trans <|
  (W4_of m c main_v3 (by decide)).trans <|
  (W3_of m c main_v3 (by decide)).trans <|
  (W2_of m c main_v3 (by decide))
theorem thru10_arg4 (c : Dev nD) : W10 m c (Proc.devRef .tc main_arg4) = m ((c : Thread nD τ).loc main_arg4) :=
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl
theorem thru12_arg5 (c : Dev nD) : W12 m c (Proc.devRef .tc main_arg5) = m ((c : Thread nD τ).loc main_arg5) :=
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru12_arg6 (c : Dev nD) : W12 m c (Proc.devRef .tc main_arg6) = m ((c : Thread nD τ).loc main_arg6) :=
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru14_arg3 (c : Dev nD) : W14 m c (Proc.devRef .tc main_arg3) = m ((c : Thread nD τ).loc main_arg3) :=
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl
theorem thru16_v1 (c : Dev nD) : W16 m c (Proc.devRef .tc main_v1) = W1 m c (Proc.devRef .tc main_v1) :=
  (W16_of m c main_v1 (by decide)).trans <|
  (W15_of m c main_v1 (by decide)).trans <|
  (W14_of m c main_v1 (by decide)).trans <|
  (W13_of m c main_v1 (by decide)).trans <|
  (W12_of m c main_v1 (by decide)).trans <|
  (W11_of m c main_v1 (by decide)).trans <|
  (W10_of m c main_v1 (by decide)).trans <|
  (W9_of m c main_v1 (by decide)).trans <|
  (W8_of m c main_v1 (by decide)).trans <|
  (W7_of m c main_v1 (by decide)).trans <|
  (W6_of m c main_v1 (by decide)).trans <|
  (W5_of m c main_v1 (by decide)).trans <|
  (W4_of m c main_v1 (by decide)).trans <|
  (W3_of m c main_v1 (by decide)).trans <|
  (W2_of m c main_v1 (by decide))
theorem thru17_v3 (c : Dev nD) : W17 m c (Proc.devRef .tc main_v3) = W1 m c (Proc.devRef .tc main_v3) :=
  (W17_of m c main_v3 (by decide)).trans <|
  (W16_of m c main_v3 (by decide)).trans <|
  (W15_of m c main_v3 (by decide)).trans <|
  (W14_of m c main_v3 (by decide)).trans <|
  (W13_of m c main_v3 (by decide)).trans <|
  (W12_of m c main_v3 (by decide)).trans <|
  (W11_of m c main_v3 (by decide)).trans <|
  (W10_of m c main_v3 (by decide)).trans <|
  (W9_of m c main_v3 (by decide)).trans <|
  (W8_of m c main_v3 (by decide)).trans <|
  (W7_of m c main_v3 (by decide)).trans <|
  (W6_of m c main_v3 (by decide)).trans <|
  (W5_of m c main_v3 (by decide)).trans <|
  (W4_of m c main_v3 (by decide)).trans <|
  (W3_of m c main_v3 (by decide)).trans <|
  (W2_of m c main_v3 (by decide))
theorem thru17_arg4 (c : Dev nD) : W17 m c (Proc.devRef .tc main_arg4) = m ((c : Thread nD τ).loc main_arg4) :=
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl
theorem thru19_arg5 (c : Dev nD) : W19 m c (Proc.devRef .tc main_arg5) = m ((c : Thread nD τ).loc main_arg5) :=
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru19_arg6 (c : Dev nD) : W19 m c (Proc.devRef .tc main_arg6) = m ((c : Thread nD τ).loc main_arg6) :=
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru21_arg3 (c : Dev nD) : W21 m c (Proc.devRef .tc main_arg3) = m ((c : Thread nD τ).loc main_arg3) :=
  (W21_of m c main_arg3 (by decide)).trans <|
  (W20_of m c main_arg3 (by decide)).trans <|
  (W19_of m c main_arg3 (by decide)).trans <|
  (W18_of m c main_arg3 (by decide)).trans <|
  (W17_of m c main_arg3 (by decide)).trans <|
  (W16_of m c main_arg3 (by decide)).trans <|
  (W15_of m c main_arg3 (by decide)).trans <|
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl
theorem thru23_v1 (c : Dev nD) : W23 m c (Proc.devRef .tc main_v1) = W1 m c (Proc.devRef .tc main_v1) :=
  (W23_of m c main_v1 (by decide)).trans <|
  (W22_of m c main_v1 (by decide)).trans <|
  (W21_of m c main_v1 (by decide)).trans <|
  (W20_of m c main_v1 (by decide)).trans <|
  (W19_of m c main_v1 (by decide)).trans <|
  (W18_of m c main_v1 (by decide)).trans <|
  (W17_of m c main_v1 (by decide)).trans <|
  (W16_of m c main_v1 (by decide)).trans <|
  (W15_of m c main_v1 (by decide)).trans <|
  (W14_of m c main_v1 (by decide)).trans <|
  (W13_of m c main_v1 (by decide)).trans <|
  (W12_of m c main_v1 (by decide)).trans <|
  (W11_of m c main_v1 (by decide)).trans <|
  (W10_of m c main_v1 (by decide)).trans <|
  (W9_of m c main_v1 (by decide)).trans <|
  (W8_of m c main_v1 (by decide)).trans <|
  (W7_of m c main_v1 (by decide)).trans <|
  (W6_of m c main_v1 (by decide)).trans <|
  (W5_of m c main_v1 (by decide)).trans <|
  (W4_of m c main_v1 (by decide)).trans <|
  (W3_of m c main_v1 (by decide)).trans <|
  (W2_of m c main_v1 (by decide))
theorem thru24_v3 (c : Dev nD) : W24 m c (Proc.devRef .tc main_v3) = W1 m c (Proc.devRef .tc main_v3) :=
  (W24_of m c main_v3 (by decide)).trans <|
  (W23_of m c main_v3 (by decide)).trans <|
  (W22_of m c main_v3 (by decide)).trans <|
  (W21_of m c main_v3 (by decide)).trans <|
  (W20_of m c main_v3 (by decide)).trans <|
  (W19_of m c main_v3 (by decide)).trans <|
  (W18_of m c main_v3 (by decide)).trans <|
  (W17_of m c main_v3 (by decide)).trans <|
  (W16_of m c main_v3 (by decide)).trans <|
  (W15_of m c main_v3 (by decide)).trans <|
  (W14_of m c main_v3 (by decide)).trans <|
  (W13_of m c main_v3 (by decide)).trans <|
  (W12_of m c main_v3 (by decide)).trans <|
  (W11_of m c main_v3 (by decide)).trans <|
  (W10_of m c main_v3 (by decide)).trans <|
  (W9_of m c main_v3 (by decide)).trans <|
  (W8_of m c main_v3 (by decide)).trans <|
  (W7_of m c main_v3 (by decide)).trans <|
  (W6_of m c main_v3 (by decide)).trans <|
  (W5_of m c main_v3 (by decide)).trans <|
  (W4_of m c main_v3 (by decide)).trans <|
  (W3_of m c main_v3 (by decide)).trans <|
  (W2_of m c main_v3 (by decide))
theorem thru24_arg4 (c : Dev nD) : W24 m c (Proc.devRef .tc main_arg4) = m ((c : Thread nD τ).loc main_arg4) :=
  (W24_of m c main_arg4 (by decide)).trans <|
  (W23_of m c main_arg4 (by decide)).trans <|
  (W22_of m c main_arg4 (by decide)).trans <|
  (W21_of m c main_arg4 (by decide)).trans <|
  (W20_of m c main_arg4 (by decide)).trans <|
  (W19_of m c main_arg4 (by decide)).trans <|
  (W18_of m c main_arg4 (by decide)).trans <|
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl
theorem thru26_arg5 (c : Dev nD) : W26 m c (Proc.devRef .tc main_arg5) = m ((c : Thread nD τ).loc main_arg5) :=
  (W26_of m c main_arg5 (by decide)).trans <|
  (W25_of m c main_arg5 (by decide)).trans <|
  (W24_of m c main_arg5 (by decide)).trans <|
  (W23_of m c main_arg5 (by decide)).trans <|
  (W22_of m c main_arg5 (by decide)).trans <|
  (W21_of m c main_arg5 (by decide)).trans <|
  (W20_of m c main_arg5 (by decide)).trans <|
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru26_arg6 (c : Dev nD) : W26 m c (Proc.devRef .tc main_arg6) = m ((c : Thread nD τ).loc main_arg6) :=
  (W26_of m c main_arg6 (by decide)).trans <|
  (W25_of m c main_arg6 (by decide)).trans <|
  (W24_of m c main_arg6 (by decide)).trans <|
  (W23_of m c main_arg6 (by decide)).trans <|
  (W22_of m c main_arg6 (by decide)).trans <|
  (W21_of m c main_arg6 (by decide)).trans <|
  (W20_of m c main_arg6 (by decide)).trans <|
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru28_arg3 (c : Dev nD) : W28 m c (Proc.devRef .tc main_arg3) = m ((c : Thread nD τ).loc main_arg3) :=
  (W28_of m c main_arg3 (by decide)).trans <|
  (W27_of m c main_arg3 (by decide)).trans <|
  (W26_of m c main_arg3 (by decide)).trans <|
  (W25_of m c main_arg3 (by decide)).trans <|
  (W24_of m c main_arg3 (by decide)).trans <|
  (W23_of m c main_arg3 (by decide)).trans <|
  (W22_of m c main_arg3 (by decide)).trans <|
  (W21_of m c main_arg3 (by decide)).trans <|
  (W20_of m c main_arg3 (by decide)).trans <|
  (W19_of m c main_arg3 (by decide)).trans <|
  (W18_of m c main_arg3 (by decide)).trans <|
  (W17_of m c main_arg3 (by decide)).trans <|
  (W16_of m c main_arg3 (by decide)).trans <|
  (W15_of m c main_arg3 (by decide)).trans <|
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl
theorem thru30_v1 (c : Dev nD) : W30 m c (Proc.devRef .tc main_v1) = W1 m c (Proc.devRef .tc main_v1) :=
  (W30_of m c main_v1 (by decide)).trans <|
  (W29_of m c main_v1 (by decide)).trans <|
  (W28_of m c main_v1 (by decide)).trans <|
  (W27_of m c main_v1 (by decide)).trans <|
  (W26_of m c main_v1 (by decide)).trans <|
  (W25_of m c main_v1 (by decide)).trans <|
  (W24_of m c main_v1 (by decide)).trans <|
  (W23_of m c main_v1 (by decide)).trans <|
  (W22_of m c main_v1 (by decide)).trans <|
  (W21_of m c main_v1 (by decide)).trans <|
  (W20_of m c main_v1 (by decide)).trans <|
  (W19_of m c main_v1 (by decide)).trans <|
  (W18_of m c main_v1 (by decide)).trans <|
  (W17_of m c main_v1 (by decide)).trans <|
  (W16_of m c main_v1 (by decide)).trans <|
  (W15_of m c main_v1 (by decide)).trans <|
  (W14_of m c main_v1 (by decide)).trans <|
  (W13_of m c main_v1 (by decide)).trans <|
  (W12_of m c main_v1 (by decide)).trans <|
  (W11_of m c main_v1 (by decide)).trans <|
  (W10_of m c main_v1 (by decide)).trans <|
  (W9_of m c main_v1 (by decide)).trans <|
  (W8_of m c main_v1 (by decide)).trans <|
  (W7_of m c main_v1 (by decide)).trans <|
  (W6_of m c main_v1 (by decide)).trans <|
  (W5_of m c main_v1 (by decide)).trans <|
  (W4_of m c main_v1 (by decide)).trans <|
  (W3_of m c main_v1 (by decide)).trans <|
  (W2_of m c main_v1 (by decide))
theorem thru31_v3 (c : Dev nD) : W31 m c (Proc.devRef .tc main_v3) = W1 m c (Proc.devRef .tc main_v3) :=
  (W31_of m c main_v3 (by decide)).trans <|
  (W30_of m c main_v3 (by decide)).trans <|
  (W29_of m c main_v3 (by decide)).trans <|
  (W28_of m c main_v3 (by decide)).trans <|
  (W27_of m c main_v3 (by decide)).trans <|
  (W26_of m c main_v3 (by decide)).trans <|
  (W25_of m c main_v3 (by decide)).trans <|
  (W24_of m c main_v3 (by decide)).trans <|
  (W23_of m c main_v3 (by decide)).trans <|
  (W22_of m c main_v3 (by decide)).trans <|
  (W21_of m c main_v3 (by decide)).trans <|
  (W20_of m c main_v3 (by decide)).trans <|
  (W19_of m c main_v3 (by decide)).trans <|
  (W18_of m c main_v3 (by decide)).trans <|
  (W17_of m c main_v3 (by decide)).trans <|
  (W16_of m c main_v3 (by decide)).trans <|
  (W15_of m c main_v3 (by decide)).trans <|
  (W14_of m c main_v3 (by decide)).trans <|
  (W13_of m c main_v3 (by decide)).trans <|
  (W12_of m c main_v3 (by decide)).trans <|
  (W11_of m c main_v3 (by decide)).trans <|
  (W10_of m c main_v3 (by decide)).trans <|
  (W9_of m c main_v3 (by decide)).trans <|
  (W8_of m c main_v3 (by decide)).trans <|
  (W7_of m c main_v3 (by decide)).trans <|
  (W6_of m c main_v3 (by decide)).trans <|
  (W5_of m c main_v3 (by decide)).trans <|
  (W4_of m c main_v3 (by decide)).trans <|
  (W3_of m c main_v3 (by decide)).trans <|
  (W2_of m c main_v3 (by decide))
theorem thru31_arg4 (c : Dev nD) : W31 m c (Proc.devRef .tc main_arg4) = m ((c : Thread nD τ).loc main_arg4) :=
  (W31_of m c main_arg4 (by decide)).trans <|
  (W30_of m c main_arg4 (by decide)).trans <|
  (W29_of m c main_arg4 (by decide)).trans <|
  (W28_of m c main_arg4 (by decide)).trans <|
  (W27_of m c main_arg4 (by decide)).trans <|
  (W26_of m c main_arg4 (by decide)).trans <|
  (W25_of m c main_arg4 (by decide)).trans <|
  (W24_of m c main_arg4 (by decide)).trans <|
  (W23_of m c main_arg4 (by decide)).trans <|
  (W22_of m c main_arg4 (by decide)).trans <|
  (W21_of m c main_arg4 (by decide)).trans <|
  (W20_of m c main_arg4 (by decide)).trans <|
  (W19_of m c main_arg4 (by decide)).trans <|
  (W18_of m c main_arg4 (by decide)).trans <|
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl
theorem thru33_arg5 (c : Dev nD) : W33 m c (Proc.devRef .tc main_arg5) = m ((c : Thread nD τ).loc main_arg5) :=
  (W33_of m c main_arg5 (by decide)).trans <|
  (W32_of m c main_arg5 (by decide)).trans <|
  (W31_of m c main_arg5 (by decide)).trans <|
  (W30_of m c main_arg5 (by decide)).trans <|
  (W29_of m c main_arg5 (by decide)).trans <|
  (W28_of m c main_arg5 (by decide)).trans <|
  (W27_of m c main_arg5 (by decide)).trans <|
  (W26_of m c main_arg5 (by decide)).trans <|
  (W25_of m c main_arg5 (by decide)).trans <|
  (W24_of m c main_arg5 (by decide)).trans <|
  (W23_of m c main_arg5 (by decide)).trans <|
  (W22_of m c main_arg5 (by decide)).trans <|
  (W21_of m c main_arg5 (by decide)).trans <|
  (W20_of m c main_arg5 (by decide)).trans <|
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru33_arg6 (c : Dev nD) : W33 m c (Proc.devRef .tc main_arg6) = m ((c : Thread nD τ).loc main_arg6) :=
  (W33_of m c main_arg6 (by decide)).trans <|
  (W32_of m c main_arg6 (by decide)).trans <|
  (W31_of m c main_arg6 (by decide)).trans <|
  (W30_of m c main_arg6 (by decide)).trans <|
  (W29_of m c main_arg6 (by decide)).trans <|
  (W28_of m c main_arg6 (by decide)).trans <|
  (W27_of m c main_arg6 (by decide)).trans <|
  (W26_of m c main_arg6 (by decide)).trans <|
  (W25_of m c main_arg6 (by decide)).trans <|
  (W24_of m c main_arg6 (by decide)).trans <|
  (W23_of m c main_arg6 (by decide)).trans <|
  (W22_of m c main_arg6 (by decide)).trans <|
  (W21_of m c main_arg6 (by decide)).trans <|
  (W20_of m c main_arg6 (by decide)).trans <|
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru35_arg3 (c : Dev nD) : W35 m c (Proc.devRef .tc main_arg3) = m ((c : Thread nD τ).loc main_arg3) :=
  (W35_of m c main_arg3 (by decide)).trans <|
  (W34_of m c main_arg3 (by decide)).trans <|
  (W33_of m c main_arg3 (by decide)).trans <|
  (W32_of m c main_arg3 (by decide)).trans <|
  (W31_of m c main_arg3 (by decide)).trans <|
  (W30_of m c main_arg3 (by decide)).trans <|
  (W29_of m c main_arg3 (by decide)).trans <|
  (W28_of m c main_arg3 (by decide)).trans <|
  (W27_of m c main_arg3 (by decide)).trans <|
  (W26_of m c main_arg3 (by decide)).trans <|
  (W25_of m c main_arg3 (by decide)).trans <|
  (W24_of m c main_arg3 (by decide)).trans <|
  (W23_of m c main_arg3 (by decide)).trans <|
  (W22_of m c main_arg3 (by decide)).trans <|
  (W21_of m c main_arg3 (by decide)).trans <|
  (W20_of m c main_arg3 (by decide)).trans <|
  (W19_of m c main_arg3 (by decide)).trans <|
  (W18_of m c main_arg3 (by decide)).trans <|
  (W17_of m c main_arg3 (by decide)).trans <|
  (W16_of m c main_arg3 (by decide)).trans <|
  (W15_of m c main_arg3 (by decide)).trans <|
  (W14_of m c main_arg3 (by decide)).trans <|
  (W13_of m c main_arg3 (by decide)).trans <|
  (W12_of m c main_arg3 (by decide)).trans <|
  (W11_of m c main_arg3 (by decide)).trans <|
  (W10_of m c main_arg3 (by decide)).trans <|
  (W9_of m c main_arg3 (by decide)).trans <|
  (W8_of m c main_arg3 (by decide)).trans <|
  (W7_of m c main_arg3 (by decide)).trans <|
  (W6_of m c main_arg3 (by decide)).trans <|
  (W5_of m c main_arg3 (by decide)).trans <|
  (W4_of m c main_arg3 (by decide)).trans <|
  (W3_of m c main_arg3 (by decide)).trans <|
  (W2_of m c main_arg3 (by decide)).trans <|
  (W1_of m c main_arg3 (by decide)).trans rfl
theorem thru37_v1 (c : Dev nD) : W37 m c (Proc.devRef .tc main_v1) = W1 m c (Proc.devRef .tc main_v1) :=
  (W37_of m c main_v1 (by decide)).trans <|
  (W36_of m c main_v1 (by decide)).trans <|
  (W35_of m c main_v1 (by decide)).trans <|
  (W34_of m c main_v1 (by decide)).trans <|
  (W33_of m c main_v1 (by decide)).trans <|
  (W32_of m c main_v1 (by decide)).trans <|
  (W31_of m c main_v1 (by decide)).trans <|
  (W30_of m c main_v1 (by decide)).trans <|
  (W29_of m c main_v1 (by decide)).trans <|
  (W28_of m c main_v1 (by decide)).trans <|
  (W27_of m c main_v1 (by decide)).trans <|
  (W26_of m c main_v1 (by decide)).trans <|
  (W25_of m c main_v1 (by decide)).trans <|
  (W24_of m c main_v1 (by decide)).trans <|
  (W23_of m c main_v1 (by decide)).trans <|
  (W22_of m c main_v1 (by decide)).trans <|
  (W21_of m c main_v1 (by decide)).trans <|
  (W20_of m c main_v1 (by decide)).trans <|
  (W19_of m c main_v1 (by decide)).trans <|
  (W18_of m c main_v1 (by decide)).trans <|
  (W17_of m c main_v1 (by decide)).trans <|
  (W16_of m c main_v1 (by decide)).trans <|
  (W15_of m c main_v1 (by decide)).trans <|
  (W14_of m c main_v1 (by decide)).trans <|
  (W13_of m c main_v1 (by decide)).trans <|
  (W12_of m c main_v1 (by decide)).trans <|
  (W11_of m c main_v1 (by decide)).trans <|
  (W10_of m c main_v1 (by decide)).trans <|
  (W9_of m c main_v1 (by decide)).trans <|
  (W8_of m c main_v1 (by decide)).trans <|
  (W7_of m c main_v1 (by decide)).trans <|
  (W6_of m c main_v1 (by decide)).trans <|
  (W5_of m c main_v1 (by decide)).trans <|
  (W4_of m c main_v1 (by decide)).trans <|
  (W3_of m c main_v1 (by decide)).trans <|
  (W2_of m c main_v1 (by decide))
theorem thru38_v3 (c : Dev nD) : W38 m c (Proc.devRef .tc main_v3) = W1 m c (Proc.devRef .tc main_v3) :=
  (W38_of m c main_v3 (by decide)).trans <|
  (W37_of m c main_v3 (by decide)).trans <|
  (W36_of m c main_v3 (by decide)).trans <|
  (W35_of m c main_v3 (by decide)).trans <|
  (W34_of m c main_v3 (by decide)).trans <|
  (W33_of m c main_v3 (by decide)).trans <|
  (W32_of m c main_v3 (by decide)).trans <|
  (W31_of m c main_v3 (by decide)).trans <|
  (W30_of m c main_v3 (by decide)).trans <|
  (W29_of m c main_v3 (by decide)).trans <|
  (W28_of m c main_v3 (by decide)).trans <|
  (W27_of m c main_v3 (by decide)).trans <|
  (W26_of m c main_v3 (by decide)).trans <|
  (W25_of m c main_v3 (by decide)).trans <|
  (W24_of m c main_v3 (by decide)).trans <|
  (W23_of m c main_v3 (by decide)).trans <|
  (W22_of m c main_v3 (by decide)).trans <|
  (W21_of m c main_v3 (by decide)).trans <|
  (W20_of m c main_v3 (by decide)).trans <|
  (W19_of m c main_v3 (by decide)).trans <|
  (W18_of m c main_v3 (by decide)).trans <|
  (W17_of m c main_v3 (by decide)).trans <|
  (W16_of m c main_v3 (by decide)).trans <|
  (W15_of m c main_v3 (by decide)).trans <|
  (W14_of m c main_v3 (by decide)).trans <|
  (W13_of m c main_v3 (by decide)).trans <|
  (W12_of m c main_v3 (by decide)).trans <|
  (W11_of m c main_v3 (by decide)).trans <|
  (W10_of m c main_v3 (by decide)).trans <|
  (W9_of m c main_v3 (by decide)).trans <|
  (W8_of m c main_v3 (by decide)).trans <|
  (W7_of m c main_v3 (by decide)).trans <|
  (W6_of m c main_v3 (by decide)).trans <|
  (W5_of m c main_v3 (by decide)).trans <|
  (W4_of m c main_v3 (by decide)).trans <|
  (W3_of m c main_v3 (by decide)).trans <|
  (W2_of m c main_v3 (by decide))
theorem thru38_arg4 (c : Dev nD) : W38 m c (Proc.devRef .tc main_arg4) = m ((c : Thread nD τ).loc main_arg4) :=
  (W38_of m c main_arg4 (by decide)).trans <|
  (W37_of m c main_arg4 (by decide)).trans <|
  (W36_of m c main_arg4 (by decide)).trans <|
  (W35_of m c main_arg4 (by decide)).trans <|
  (W34_of m c main_arg4 (by decide)).trans <|
  (W33_of m c main_arg4 (by decide)).trans <|
  (W32_of m c main_arg4 (by decide)).trans <|
  (W31_of m c main_arg4 (by decide)).trans <|
  (W30_of m c main_arg4 (by decide)).trans <|
  (W29_of m c main_arg4 (by decide)).trans <|
  (W28_of m c main_arg4 (by decide)).trans <|
  (W27_of m c main_arg4 (by decide)).trans <|
  (W26_of m c main_arg4 (by decide)).trans <|
  (W25_of m c main_arg4 (by decide)).trans <|
  (W24_of m c main_arg4 (by decide)).trans <|
  (W23_of m c main_arg4 (by decide)).trans <|
  (W22_of m c main_arg4 (by decide)).trans <|
  (W21_of m c main_arg4 (by decide)).trans <|
  (W20_of m c main_arg4 (by decide)).trans <|
  (W19_of m c main_arg4 (by decide)).trans <|
  (W18_of m c main_arg4 (by decide)).trans <|
  (W17_of m c main_arg4 (by decide)).trans <|
  (W16_of m c main_arg4 (by decide)).trans <|
  (W15_of m c main_arg4 (by decide)).trans <|
  (W14_of m c main_arg4 (by decide)).trans <|
  (W13_of m c main_arg4 (by decide)).trans <|
  (W12_of m c main_arg4 (by decide)).trans <|
  (W11_of m c main_arg4 (by decide)).trans <|
  (W10_of m c main_arg4 (by decide)).trans <|
  (W9_of m c main_arg4 (by decide)).trans <|
  (W8_of m c main_arg4 (by decide)).trans <|
  (W7_of m c main_arg4 (by decide)).trans <|
  (W6_of m c main_arg4 (by decide)).trans <|
  (W5_of m c main_arg4 (by decide)).trans <|
  (W4_of m c main_arg4 (by decide)).trans <|
  (W3_of m c main_arg4 (by decide)).trans <|
  (W2_of m c main_arg4 (by decide)).trans <|
  (W1_of m c main_arg4 (by decide)).trans rfl
theorem thru40_arg5 (c : Dev nD) : W40 m c (Proc.devRef .tc main_arg5) = m ((c : Thread nD τ).loc main_arg5) :=
  (W40_of m c main_arg5 (by decide)).trans <|
  (W39_of m c main_arg5 (by decide)).trans <|
  (W38_of m c main_arg5 (by decide)).trans <|
  (W37_of m c main_arg5 (by decide)).trans <|
  (W36_of m c main_arg5 (by decide)).trans <|
  (W35_of m c main_arg5 (by decide)).trans <|
  (W34_of m c main_arg5 (by decide)).trans <|
  (W33_of m c main_arg5 (by decide)).trans <|
  (W32_of m c main_arg5 (by decide)).trans <|
  (W31_of m c main_arg5 (by decide)).trans <|
  (W30_of m c main_arg5 (by decide)).trans <|
  (W29_of m c main_arg5 (by decide)).trans <|
  (W28_of m c main_arg5 (by decide)).trans <|
  (W27_of m c main_arg5 (by decide)).trans <|
  (W26_of m c main_arg5 (by decide)).trans <|
  (W25_of m c main_arg5 (by decide)).trans <|
  (W24_of m c main_arg5 (by decide)).trans <|
  (W23_of m c main_arg5 (by decide)).trans <|
  (W22_of m c main_arg5 (by decide)).trans <|
  (W21_of m c main_arg5 (by decide)).trans <|
  (W20_of m c main_arg5 (by decide)).trans <|
  (W19_of m c main_arg5 (by decide)).trans <|
  (W18_of m c main_arg5 (by decide)).trans <|
  (W17_of m c main_arg5 (by decide)).trans <|
  (W16_of m c main_arg5 (by decide)).trans <|
  (W15_of m c main_arg5 (by decide)).trans <|
  (W14_of m c main_arg5 (by decide)).trans <|
  (W13_of m c main_arg5 (by decide)).trans <|
  (W12_of m c main_arg5 (by decide)).trans <|
  (W11_of m c main_arg5 (by decide)).trans <|
  (W10_of m c main_arg5 (by decide)).trans <|
  (W9_of m c main_arg5 (by decide)).trans <|
  (W8_of m c main_arg5 (by decide)).trans <|
  (W7_of m c main_arg5 (by decide)).trans <|
  (W6_of m c main_arg5 (by decide)).trans <|
  (W5_of m c main_arg5 (by decide)).trans <|
  (W4_of m c main_arg5 (by decide)).trans <|
  (W3_of m c main_arg5 (by decide)).trans <|
  (W2_of m c main_arg5 (by decide)).trans <|
  (W1_of m c main_arg5 (by decide)).trans rfl
theorem thru40_arg6 (c : Dev nD) : W40 m c (Proc.devRef .tc main_arg6) = m ((c : Thread nD τ).loc main_arg6) :=
  (W40_of m c main_arg6 (by decide)).trans <|
  (W39_of m c main_arg6 (by decide)).trans <|
  (W38_of m c main_arg6 (by decide)).trans <|
  (W37_of m c main_arg6 (by decide)).trans <|
  (W36_of m c main_arg6 (by decide)).trans <|
  (W35_of m c main_arg6 (by decide)).trans <|
  (W34_of m c main_arg6 (by decide)).trans <|
  (W33_of m c main_arg6 (by decide)).trans <|
  (W32_of m c main_arg6 (by decide)).trans <|
  (W31_of m c main_arg6 (by decide)).trans <|
  (W30_of m c main_arg6 (by decide)).trans <|
  (W29_of m c main_arg6 (by decide)).trans <|
  (W28_of m c main_arg6 (by decide)).trans <|
  (W27_of m c main_arg6 (by decide)).trans <|
  (W26_of m c main_arg6 (by decide)).trans <|
  (W25_of m c main_arg6 (by decide)).trans <|
  (W24_of m c main_arg6 (by decide)).trans <|
  (W23_of m c main_arg6 (by decide)).trans <|
  (W22_of m c main_arg6 (by decide)).trans <|
  (W21_of m c main_arg6 (by decide)).trans <|
  (W20_of m c main_arg6 (by decide)).trans <|
  (W19_of m c main_arg6 (by decide)).trans <|
  (W18_of m c main_arg6 (by decide)).trans <|
  (W17_of m c main_arg6 (by decide)).trans <|
  (W16_of m c main_arg6 (by decide)).trans <|
  (W15_of m c main_arg6 (by decide)).trans <|
  (W14_of m c main_arg6 (by decide)).trans <|
  (W13_of m c main_arg6 (by decide)).trans <|
  (W12_of m c main_arg6 (by decide)).trans <|
  (W11_of m c main_arg6 (by decide)).trans <|
  (W10_of m c main_arg6 (by decide)).trans <|
  (W9_of m c main_arg6 (by decide)).trans <|
  (W8_of m c main_arg6 (by decide)).trans <|
  (W7_of m c main_arg6 (by decide)).trans <|
  (W6_of m c main_arg6 (by decide)).trans <|
  (W5_of m c main_arg6 (by decide)).trans <|
  (W4_of m c main_arg6 (by decide)).trans <|
  (W3_of m c main_arg6 (by decide)).trans <|
  (W2_of m c main_arg6 (by decide)).trans <|
  (W1_of m c main_arg6 (by decide)).trans rfl
theorem thru42_arg2 (c : Dev nD) : W42 m c (Proc.devRef .tc main_arg2) = m ((c : Thread nD τ).loc main_arg2) :=
  (W42_of m c main_arg2 (by decide)).trans <|
  (W41_of m c main_arg2 (by decide)).trans <|
  (W40_of m c main_arg2 (by decide)).trans <|
  (W39_of m c main_arg2 (by decide)).trans <|
  (W38_of m c main_arg2 (by decide)).trans <|
  (W37_of m c main_arg2 (by decide)).trans <|
  (W36_of m c main_arg2 (by decide)).trans <|
  (W35_of m c main_arg2 (by decide)).trans <|
  (W34_of m c main_arg2 (by decide)).trans <|
  (W33_of m c main_arg2 (by decide)).trans <|
  (W32_of m c main_arg2 (by decide)).trans <|
  (W31_of m c main_arg2 (by decide)).trans <|
  (W30_of m c main_arg2 (by decide)).trans <|
  (W29_of m c main_arg2 (by decide)).trans <|
  (W28_of m c main_arg2 (by decide)).trans <|
  (W27_of m c main_arg2 (by decide)).trans <|
  (W26_of m c main_arg2 (by decide)).trans <|
  (W25_of m c main_arg2 (by decide)).trans <|
  (W24_of m c main_arg2 (by decide)).trans <|
  (W23_of m c main_arg2 (by decide)).trans <|
  (W22_of m c main_arg2 (by decide)).trans <|
  (W21_of m c main_arg2 (by decide)).trans <|
  (W20_of m c main_arg2 (by decide)).trans <|
  (W19_of m c main_arg2 (by decide)).trans <|
  (W18_of m c main_arg2 (by decide)).trans <|
  (W17_of m c main_arg2 (by decide)).trans <|
  (W16_of m c main_arg2 (by decide)).trans <|
  (W15_of m c main_arg2 (by decide)).trans <|
  (W14_of m c main_arg2 (by decide)).trans <|
  (W13_of m c main_arg2 (by decide)).trans <|
  (W12_of m c main_arg2 (by decide)).trans <|
  (W11_of m c main_arg2 (by decide)).trans <|
  (W10_of m c main_arg2 (by decide)).trans <|
  (W9_of m c main_arg2 (by decide)).trans <|
  (W8_of m c main_arg2 (by decide)).trans <|
  (W7_of m c main_arg2 (by decide)).trans <|
  (W6_of m c main_arg2 (by decide)).trans <|
  (W5_of m c main_arg2 (by decide)).trans <|
  (W4_of m c main_arg2 (by decide)).trans <|
  (W3_of m c main_arg2 (by decide)).trans <|
  (W2_of m c main_arg2 (by decide)).trans <|
  (W1_of m c main_arg2 (by decide)).trans rfl
theorem thru42_arg8 (c : Dev nD) : W42 m c (Proc.devRef .tc main_arg8) = m ((c : Thread nD τ).loc main_arg8) :=
  (W42_of m c main_arg8 (by decide)).trans <|
  (W41_of m c main_arg8 (by decide)).trans <|
  (W40_of m c main_arg8 (by decide)).trans <|
  (W39_of m c main_arg8 (by decide)).trans <|
  (W38_of m c main_arg8 (by decide)).trans <|
  (W37_of m c main_arg8 (by decide)).trans <|
  (W36_of m c main_arg8 (by decide)).trans <|
  (W35_of m c main_arg8 (by decide)).trans <|
  (W34_of m c main_arg8 (by decide)).trans <|
  (W33_of m c main_arg8 (by decide)).trans <|
  (W32_of m c main_arg8 (by decide)).trans <|
  (W31_of m c main_arg8 (by decide)).trans <|
  (W30_of m c main_arg8 (by decide)).trans <|
  (W29_of m c main_arg8 (by decide)).trans <|
  (W28_of m c main_arg8 (by decide)).trans <|
  (W27_of m c main_arg8 (by decide)).trans <|
  (W26_of m c main_arg8 (by decide)).trans <|
  (W25_of m c main_arg8 (by decide)).trans <|
  (W24_of m c main_arg8 (by decide)).trans <|
  (W23_of m c main_arg8 (by decide)).trans <|
  (W22_of m c main_arg8 (by decide)).trans <|
  (W21_of m c main_arg8 (by decide)).trans <|
  (W20_of m c main_arg8 (by decide)).trans <|
  (W19_of m c main_arg8 (by decide)).trans <|
  (W18_of m c main_arg8 (by decide)).trans <|
  (W17_of m c main_arg8 (by decide)).trans <|
  (W16_of m c main_arg8 (by decide)).trans <|
  (W15_of m c main_arg8 (by decide)).trans <|
  (W14_of m c main_arg8 (by decide)).trans <|
  (W13_of m c main_arg8 (by decide)).trans <|
  (W12_of m c main_arg8 (by decide)).trans <|
  (W11_of m c main_arg8 (by decide)).trans <|
  (W10_of m c main_arg8 (by decide)).trans <|
  (W9_of m c main_arg8 (by decide)).trans <|
  (W8_of m c main_arg8 (by decide)).trans <|
  (W7_of m c main_arg8 (by decide)).trans <|
  (W6_of m c main_arg8 (by decide)).trans <|
  (W5_of m c main_arg8 (by decide)).trans <|
  (W4_of m c main_arg8 (by decide)).trans <|
  (W3_of m c main_arg8 (by decide)).trans <|
  (W2_of m c main_arg8 (by decide)).trans <|
  (W1_of m c main_arg8 (by decide)).trans rfl
theorem thru42_arg10 (c : Dev nD) : W42 m c (Proc.devRef .tc main_arg10) = m ((c : Thread nD τ).loc main_arg10) :=
  (W42_of m c main_arg10 (by decide)).trans <|
  (W41_of m c main_arg10 (by decide)).trans <|
  (W40_of m c main_arg10 (by decide)).trans <|
  (W39_of m c main_arg10 (by decide)).trans <|
  (W38_of m c main_arg10 (by decide)).trans <|
  (W37_of m c main_arg10 (by decide)).trans <|
  (W36_of m c main_arg10 (by decide)).trans <|
  (W35_of m c main_arg10 (by decide)).trans <|
  (W34_of m c main_arg10 (by decide)).trans <|
  (W33_of m c main_arg10 (by decide)).trans <|
  (W32_of m c main_arg10 (by decide)).trans <|
  (W31_of m c main_arg10 (by decide)).trans <|
  (W30_of m c main_arg10 (by decide)).trans <|
  (W29_of m c main_arg10 (by decide)).trans <|
  (W28_of m c main_arg10 (by decide)).trans <|
  (W27_of m c main_arg10 (by decide)).trans <|
  (W26_of m c main_arg10 (by decide)).trans <|
  (W25_of m c main_arg10 (by decide)).trans <|
  (W24_of m c main_arg10 (by decide)).trans <|
  (W23_of m c main_arg10 (by decide)).trans <|
  (W22_of m c main_arg10 (by decide)).trans <|
  (W21_of m c main_arg10 (by decide)).trans <|
  (W20_of m c main_arg10 (by decide)).trans <|
  (W19_of m c main_arg10 (by decide)).trans <|
  (W18_of m c main_arg10 (by decide)).trans <|
  (W17_of m c main_arg10 (by decide)).trans <|
  (W16_of m c main_arg10 (by decide)).trans <|
  (W15_of m c main_arg10 (by decide)).trans <|
  (W14_of m c main_arg10 (by decide)).trans <|
  (W13_of m c main_arg10 (by decide)).trans <|
  (W12_of m c main_arg10 (by decide)).trans <|
  (W11_of m c main_arg10 (by decide)).trans <|
  (W10_of m c main_arg10 (by decide)).trans <|
  (W9_of m c main_arg10 (by decide)).trans <|
  (W8_of m c main_arg10 (by decide)).trans <|
  (W7_of m c main_arg10 (by decide)).trans <|
  (W6_of m c main_arg10 (by decide)).trans <|
  (W5_of m c main_arg10 (by decide)).trans <|
  (W4_of m c main_arg10 (by decide)).trans <|
  (W3_of m c main_arg10 (by decide)).trans <|
  (W2_of m c main_arg10 (by decide)).trans <|
  (W1_of m c main_arg10 (by decide)).trans rfl
theorem thru43_arg7 (c : Dev nD) : W43 m c (Proc.devRef .tc main_arg7) = m ((c : Thread nD τ).loc main_arg7) :=
  (W43_of m c main_arg7 (by decide)).trans <|
  (W42_of m c main_arg7 (by decide)).trans <|
  (W41_of m c main_arg7 (by decide)).trans <|
  (W40_of m c main_arg7 (by decide)).trans <|
  (W39_of m c main_arg7 (by decide)).trans <|
  (W38_of m c main_arg7 (by decide)).trans <|
  (W37_of m c main_arg7 (by decide)).trans <|
  (W36_of m c main_arg7 (by decide)).trans <|
  (W35_of m c main_arg7 (by decide)).trans <|
  (W34_of m c main_arg7 (by decide)).trans <|
  (W33_of m c main_arg7 (by decide)).trans <|
  (W32_of m c main_arg7 (by decide)).trans <|
  (W31_of m c main_arg7 (by decide)).trans <|
  (W30_of m c main_arg7 (by decide)).trans <|
  (W29_of m c main_arg7 (by decide)).trans <|
  (W28_of m c main_arg7 (by decide)).trans <|
  (W27_of m c main_arg7 (by decide)).trans <|
  (W26_of m c main_arg7 (by decide)).trans <|
  (W25_of m c main_arg7 (by decide)).trans <|
  (W24_of m c main_arg7 (by decide)).trans <|
  (W23_of m c main_arg7 (by decide)).trans <|
  (W22_of m c main_arg7 (by decide)).trans <|
  (W21_of m c main_arg7 (by decide)).trans <|
  (W20_of m c main_arg7 (by decide)).trans <|
  (W19_of m c main_arg7 (by decide)).trans <|
  (W18_of m c main_arg7 (by decide)).trans <|
  (W17_of m c main_arg7 (by decide)).trans <|
  (W16_of m c main_arg7 (by decide)).trans <|
  (W15_of m c main_arg7 (by decide)).trans <|
  (W14_of m c main_arg7 (by decide)).trans <|
  (W13_of m c main_arg7 (by decide)).trans <|
  (W12_of m c main_arg7 (by decide)).trans <|
  (W11_of m c main_arg7 (by decide)).trans <|
  (W10_of m c main_arg7 (by decide)).trans <|
  (W9_of m c main_arg7 (by decide)).trans <|
  (W8_of m c main_arg7 (by decide)).trans <|
  (W7_of m c main_arg7 (by decide)).trans <|
  (W6_of m c main_arg7 (by decide)).trans <|
  (W5_of m c main_arg7 (by decide)).trans <|
  (W4_of m c main_arg7 (by decide)).trans <|
  (W3_of m c main_arg7 (by decide)).trans <|
  (W2_of m c main_arg7 (by decide)).trans <|
  (W1_of m c main_arg7 (by decide)).trans rfl
theorem thru43_arg9 (c : Dev nD) : W43 m c (Proc.devRef .tc main_arg9) = m ((c : Thread nD τ).loc main_arg9) :=
  (W43_of m c main_arg9 (by decide)).trans <|
  (W42_of m c main_arg9 (by decide)).trans <|
  (W41_of m c main_arg9 (by decide)).trans <|
  (W40_of m c main_arg9 (by decide)).trans <|
  (W39_of m c main_arg9 (by decide)).trans <|
  (W38_of m c main_arg9 (by decide)).trans <|
  (W37_of m c main_arg9 (by decide)).trans <|
  (W36_of m c main_arg9 (by decide)).trans <|
  (W35_of m c main_arg9 (by decide)).trans <|
  (W34_of m c main_arg9 (by decide)).trans <|
  (W33_of m c main_arg9 (by decide)).trans <|
  (W32_of m c main_arg9 (by decide)).trans <|
  (W31_of m c main_arg9 (by decide)).trans <|
  (W30_of m c main_arg9 (by decide)).trans <|
  (W29_of m c main_arg9 (by decide)).trans <|
  (W28_of m c main_arg9 (by decide)).trans <|
  (W27_of m c main_arg9 (by decide)).trans <|
  (W26_of m c main_arg9 (by decide)).trans <|
  (W25_of m c main_arg9 (by decide)).trans <|
  (W24_of m c main_arg9 (by decide)).trans <|
  (W23_of m c main_arg9 (by decide)).trans <|
  (W22_of m c main_arg9 (by decide)).trans <|
  (W21_of m c main_arg9 (by decide)).trans <|
  (W20_of m c main_arg9 (by decide)).trans <|
  (W19_of m c main_arg9 (by decide)).trans <|
  (W18_of m c main_arg9 (by decide)).trans <|
  (W17_of m c main_arg9 (by decide)).trans <|
  (W16_of m c main_arg9 (by decide)).trans <|
  (W15_of m c main_arg9 (by decide)).trans <|
  (W14_of m c main_arg9 (by decide)).trans <|
  (W13_of m c main_arg9 (by decide)).trans <|
  (W12_of m c main_arg9 (by decide)).trans <|
  (W11_of m c main_arg9 (by decide)).trans <|
  (W10_of m c main_arg9 (by decide)).trans <|
  (W9_of m c main_arg9 (by decide)).trans <|
  (W8_of m c main_arg9 (by decide)).trans <|
  (W7_of m c main_arg9 (by decide)).trans <|
  (W6_of m c main_arg9 (by decide)).trans <|
  (W5_of m c main_arg9 (by decide)).trans <|
  (W4_of m c main_arg9 (by decide)).trans <|
  (W3_of m c main_arg9 (by decide)).trans <|
  (W2_of m c main_arg9 (by decide)).trans <|
  (W1_of m c main_arg9 (by decide)).trans rfl

/-- The edges' endpoints after the first host stretch. -/
theorem src1 (c : Dev nD) : (W1 m c (Proc.devRef .tc main_v1) : IVec S600000 32) = kSrc (m ((c : Thread nD τ).loc main_arg1)) := read0_v1 (W0 m c)
theorem dst1 (c : Dev nD) : (W1 m c (Proc.devRef .tc main_v3) : IVec S600000 32) = kDst (m ((c : Thread nD τ).loc main_arg1)) := read0_v3 (W0 m c)

/-! ## The six layers -/

/-- Layer 0: what the normalisation region leaves is one layer applied to what the layer found. -/
theorem layer0 (c : Dev nD) :
    (W7 m c (Proc.devRef .tc main_v31) : FVec Ideal S100000x128 .f32)
      = kLayer (W0 m c (Proc.devRef .tc main_arg0)) (kW0 (m ((c : Thread nD τ).loc main_arg3))) (kP0 (m ((c : Thread nD τ).loc main_arg4))) (kP0 (m ((c : Thread nD τ).loc main_arg5))) (kP0 (m ((c : Thread nD τ).loc main_arg6)))
          (kSrc (m ((c : Thread nD τ).loc main_arg1))) (kDst (m ((c : Thread nD τ).loc main_arg1))) := by
  have hW : (W1 m c (Proc.devRef .tc main_v5) : FVec Ideal S128x128 .f32) = kW0 (m ((c : Thread nD τ).loc main_arg3)) := by
    refine (read0_v5 (W0 m c)).trans ?_
    rfl
  have hh : W1 m c (Proc.devRef .tc main_arg0) = W0 m c (Proc.devRef .tc main_arg0) := W1_of m c main_arg0 (by decide)
  have hm : (W2 m c (Proc.devRef .tc main_v6) : FVec Ideal S100000x128 .f32) = G0_2 (W0 m c (Proc.devRef .tc main_arg0)) (kW0 (m ((c : Thread nD τ).loc main_arg3))) := by
    refine ((W2_arr m c 2).trans (final0_2 (V1 m) c)).trans ?_
    show G0_2 (W1 m c (Proc.devRef .tc main_arg0)) (W1 m c (Proc.devRef .tc main_v5)) = _
    rw [hh, hW]
  have hs : (W2 m c (Proc.devRef .tc main_v1) : IVec S600000 32) = kSrc (m ((c : Thread nD τ).loc main_arg1)) :=
    (thru2_v1 m c).trans (src1 m c)
  have hd : (W3 m c (Proc.devRef .tc main_v3) : IVec S600000 32) = kDst (m ((c : Thread nD τ).loc main_arg1)) :=
    (thru3_v3 m c).trans (dst1 m c)
  have hg : (W3 m c (Proc.devRef .tc main_v7) : FVec Ideal S600000x128 .f32) = takeTerm (F := Ideal) (G0_2 (W0 m c (Proc.devRef .tc main_arg0)) (kW0 (m ((c : Thread nD τ).loc main_arg3)))) (kSrc (m ((c : Thread nD τ).loc main_arg1))) := by
    refine (read1_v7 (W2 m c)).trans ?_
    rw [hm, hs]
  have hagg : (W4 m c (Proc.devRef .tc main_v10) : FVec Ideal S100000x128 .f32) = kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1))) := by
    refine (read1_1_v10 (W3 m c)).trans ?_
    rw [hg, hd]
  have hb : (W4 m c (Proc.devRef .tc main_v13) : FVec Ideal S1x128 .f32) = kRow (kP0 (m ((c : Thread nD τ).loc main_arg4))) := by
    refine (read1_1_v13 (W3 m c)).trans ?_
    rw [thru3_arg4 m c]
  have hx0 : (W5 m c (Proc.devRef .tc main_v14_0) : FVec Ideal S100000x128 .f32) = G1_2 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4)))) := by
    refine ((W5_arr m c 2).trans (final1_2 (V4 m) c)).trans ?_
    show G1_2 (W4 m c (Proc.devRef .tc main_v10)) (W4 m c (Proc.devRef .tc main_v13)) = _
    rw [hagg, hb]
  have hx1 : (W5 m c (Proc.devRef .tc main_v14_1) : FVec Ideal S1x128 .f32) = G1_3 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4)))) := by
    refine ((W5_arr m c 3).trans (final1_3 (V4 m) c)).trans ?_
    show G1_3 (W4 m c (Proc.devRef .tc main_v10)) (W4 m c (Proc.devRef .tc main_v13)) = _
    rw [hagg, hb]
  have hx2 : (W5 m c (Proc.devRef .tc main_v14_2) : FVec Ideal S1x128 .f32) = G1_4 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4)))) := by
    refine ((W5_arr m c 4).trans (final1_4 (V4 m) c)).trans ?_
    show G1_4 (W4 m c (Proc.devRef .tc main_v10)) (W4 m c (Proc.devRef .tc main_v13)) = _
    rw [hagg, hb]
  have hmean : (W6 m c (Proc.devRef .tc main_v27) : FVec Ideal S1x128 .f32) = kRow (kOverN (G1_3 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4)))))) := by
    refine (read2_v27 (W5 m c)).trans ?_
    rw [hx1]
  have hvar : (W6 m c (Proc.devRef .tc main_v28) : FVec Ideal S1x128 .f32) = kRow (kVar (kOverN (G1_3 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4)))))) (kOverN (G1_4 (kAgg (takeTerm (F := Ideal) (G0_2 (W0 m c (Proc.devRef .tc main_arg0)) (kW0 (m ((c : Thread nD τ).loc main_arg3)))) (kSrc (m ((c : Thread nD τ).loc main_arg1)))) (kDst (m ((c : Thread nD τ).loc main_arg1)))) (kRow (kP0 (m ((c : Thread nD τ).loc main_arg4))))))) := by
    refine (read2_v28 (W5 m c)).trans ?_
    rw [hx1, hx2]
  have hgr : (W6 m c (Proc.devRef .tc main_v29) : FVec Ideal S1x128 .f32) = kRow (kP0 (m ((c : Thread nD τ).loc main_arg5))) := by
    refine (read2_v29 (W5 m c)).trans ?_
    rw [thru5_arg5 m c]
  have hsr : (W6 m c (Proc.devRef .tc main_v30) : FVec Ideal S1x128 .f32) = kRow (kP0 (m ((c : Thread nD τ).loc main_arg6))) := by
    refine (read2_v30 (W5 m c)).trans ?_
    rw [thru5_arg6 m c]
  have hx0' : W6 m c (Proc.devRef .tc main_v14_0) = W5 m c (Proc.devRef .tc main_v14_0) := W6_of m c main_v14_0 (by decide)
  refine ((W7_arr m c 5).trans (arrAt2_5 (V6 m) c)).trans ?_
  show G2_5 (W6 m c (Proc.devRef .tc main_v14_0)) (W6 m c (Proc.devRef .tc main_v27)) (W6 m c (Proc.devRef .tc main_v28)) (W6 m c (Proc.devRef .tc main_v29)) (W6 m c (Proc.devRef .tc main_v30)) = _
  rw [hx0', hx0, hmean, hvar, hgr, hsr]
  rfl

/-- Layer 1: what the normalisation region leaves is one layer applied to what the layer found. -/
theorem layer1 (c : Dev nD) :
    (W14 m c (Proc.devRef .tc main_v59) : FVec Ideal S100000x128 .f32)
      = kLayer (W7 m c (Proc.devRef .tc main_v31)) (kW1 (m ((c : Thread nD τ).loc main_arg3))) (kP1 (m ((c : Thread nD τ).loc main_arg4))) (kP1 (m ((c : Thread nD τ).loc main_arg5))) (kP1 (m ((c : Thread nD τ).loc main_arg6)))
          (kSrc (m ((c : Thread nD τ).loc main_arg1))) (kDst (m ((c : Thread nD τ).loc main_arg1))) := by
  have hW : (W8 m c (Proc.devRef .tc main_v33) : FVec Ideal S128x128 .f32) = kW1 (m ((c : Thread nD τ).loc main_arg3)) := by
    refine (read3_v33 (W7 m c)).trans ?_
    rw [thru7_arg3 m c]
  have hh : W8 m c (Proc.devRef .tc main_v31) = W7 m c (Proc.devRef .tc main_v31) := W8_of m c main_v31 (by decide)
  have hm : (W9 m c (Proc.devRef .tc main_v34) : FVec Ideal S100000x128 .f32) = G0_2 (W7 m c (Proc.devRef .tc main_v31)) (kW1 (m ((c : Thread nD τ).loc main_arg3))) := by
    refine ((W9_arr m c 2).trans (final3_2 (V8 m) c)).trans ?_
    show G0_2 (W8 m c (Proc.devRef .tc main_v31)) (W8 m c (Proc.devRef .tc main_v33)) = _
    rw [hh, hW]
  have hs : (W9 m c (Proc.devRef .tc main_v1) : IVec S600000 32) = kSrc (m ((c : Thread nD τ).loc main_arg1)) :=
    (thru9_v1 m c).trans (src1 m c)
  have hd : (W10 m c (Proc.devRef .tc main_v3) : IVec S600000 32) = kDst (m ((c : Thread nD τ).loc main_arg1)) :=
    (thru10_v3 m c).trans (dst1 m c)
  have hg : (W10 m c (Proc.devRef .tc main_v35) : FVec Ideal S600000x128 .f32) = takeTerm (F := Ideal) (G0_2 (W7 m c (Proc.devRef .tc main_v31)) (kW1 (m ((c : Thread nD τ).loc main_arg3)))) (kSrc (m ((c : Thread nD τ).loc main_arg1))) := by
    refine (read4_v35 (W9 m c)).trans ?_
    rw [hm, hs]
  have hagg : (W11 m c (Proc.devRef .tc main_v38) : FVec Ideal S100000x128 .f32) = kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1))) := by
    refine (read4_1_v38 (W10 m c)).trans ?_
    rw [hg, hd]
  have hb : (W11 m c (Proc.devRef .tc main_v41) : FVec Ideal S1x128 .f32) = kRow (kP1 (m ((c : Thread nD τ).loc main_arg4))) := by
    refine (read4_1_v41 (W10 m c)).trans ?_
    rw [thru10_arg4 m c]
  have hx0 : (W12 m c (Proc.devRef .tc main_v42_0) : FVec Ideal S100000x128 .f32) = G1_2 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4)))) := by
    refine ((W12_arr m c 2).trans (final4_2 (V11 m) c)).trans ?_
    show G1_2 (W11 m c (Proc.devRef .tc main_v38)) (W11 m c (Proc.devRef .tc main_v41)) = _
    rw [hagg, hb]
  have hx1 : (W12 m c (Proc.devRef .tc main_v42_1) : FVec Ideal S1x128 .f32) = G1_3 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4)))) := by
    refine ((W12_arr m c 3).trans (final4_3 (V11 m) c)).trans ?_
    show G1_3 (W11 m c (Proc.devRef .tc main_v38)) (W11 m c (Proc.devRef .tc main_v41)) = _
    rw [hagg, hb]
  have hx2 : (W12 m c (Proc.devRef .tc main_v42_2) : FVec Ideal S1x128 .f32) = G1_4 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4)))) := by
    refine ((W12_arr m c 4).trans (final4_4 (V11 m) c)).trans ?_
    show G1_4 (W11 m c (Proc.devRef .tc main_v38)) (W11 m c (Proc.devRef .tc main_v41)) = _
    rw [hagg, hb]
  have hmean : (W13 m c (Proc.devRef .tc main_v55) : FVec Ideal S1x128 .f32) = kRow (kOverN (G1_3 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4)))))) := by
    refine (read5_v55 (W12 m c)).trans ?_
    rw [hx1]
  have hvar : (W13 m c (Proc.devRef .tc main_v56) : FVec Ideal S1x128 .f32) = kRow (kVar (kOverN (G1_3 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4)))))) (kOverN (G1_4 (kAgg (takeTerm (F := Ideal) (G0_2 (W7 m c (Proc.devRef .tc main_v31)) (kW1 (m ((c : Thread nD τ).loc main_arg3)))) (kSrc (m ((c : Thread nD τ).loc main_arg1)))) (kDst (m ((c : Thread nD τ).loc main_arg1)))) (kRow (kP1 (m ((c : Thread nD τ).loc main_arg4))))))) := by
    refine (read5_v56 (W12 m c)).trans ?_
    rw [hx1, hx2]
  have hgr : (W13 m c (Proc.devRef .tc main_v57) : FVec Ideal S1x128 .f32) = kRow (kP1 (m ((c : Thread nD τ).loc main_arg5))) := by
    refine (read5_v57 (W12 m c)).trans ?_
    rw [thru12_arg5 m c]
  have hsr : (W13 m c (Proc.devRef .tc main_v58) : FVec Ideal S1x128 .f32) = kRow (kP1 (m ((c : Thread nD τ).loc main_arg6))) := by
    refine (read5_v58 (W12 m c)).trans ?_
    rw [thru12_arg6 m c]
  have hx0' : W13 m c (Proc.devRef .tc main_v42_0) = W12 m c (Proc.devRef .tc main_v42_0) := W13_of m c main_v42_0 (by decide)
  refine ((W14_arr m c 5).trans (arrAt5_5 (V13 m) c)).trans ?_
  show G2_5 (W13 m c (Proc.devRef .tc main_v42_0)) (W13 m c (Proc.devRef .tc main_v55)) (W13 m c (Proc.devRef .tc main_v56)) (W13 m c (Proc.devRef .tc main_v57)) (W13 m c (Proc.devRef .tc main_v58)) = _
  rw [hx0', hx0, hmean, hvar, hgr, hsr]
  rfl

/-- Layer 2: what the normalisation region leaves is one layer applied to what the layer found. -/
theorem layer2 (c : Dev nD) :
    (W21 m c (Proc.devRef .tc main_v87) : FVec Ideal S100000x128 .f32)
      = kLayer (W14 m c (Proc.devRef .tc main_v59)) (kW2 (m ((c : Thread nD τ).loc main_arg3))) (kP2 (m ((c : Thread nD τ).loc main_arg4))) (kP2 (m ((c : Thread nD τ).loc main_arg5))) (kP2 (m ((c : Thread nD τ).loc main_arg6)))
          (kSrc (m ((c : Thread nD τ).loc main_arg1))) (kDst (m ((c : Thread nD τ).loc main_arg1))) := by
  have hW : (W15 m c (Proc.devRef .tc main_v61) : FVec Ideal S128x128 .f32) = kW2 (m ((c : Thread nD τ).loc main_arg3)) := by
    refine (read6_v61 (W14 m c)).trans ?_
    rw [thru14_arg3 m c]
  have hh : W15 m c (Proc.devRef .tc main_v59) = W14 m c (Proc.devRef .tc main_v59) := W15_of m c main_v59 (by decide)
  have hm : (W16 m c (Proc.devRef .tc main_v62) : FVec Ideal S100000x128 .f32) = G0_2 (W14 m c (Proc.devRef .tc main_v59)) (kW2 (m ((c : Thread nD τ).loc main_arg3))) := by
    refine ((W16_arr m c 2).trans (final6_2 (V15 m) c)).trans ?_
    show G0_2 (W15 m c (Proc.devRef .tc main_v59)) (W15 m c (Proc.devRef .tc main_v61)) = _
    rw [hh, hW]
  have hs : (W16 m c (Proc.devRef .tc main_v1) : IVec S600000 32) = kSrc (m ((c : Thread nD τ).loc main_arg1)) :=
    (thru16_v1 m c).trans (src1 m c)
  have hd : (W17 m c (Proc.devRef .tc main_v3) : IVec S600000 32) = kDst (m ((c : Thread nD τ).loc main_arg1)) :=
    (thru17_v3 m c).trans (dst1 m c)
  have hg : (W17 m c (Proc.devRef .tc main_v63) : FVec Ideal S600000x128 .f32) = takeTerm (F := Ideal) (G0_2 (W14 m c (Proc.devRef .tc main_v59)) (kW2 (m ((c : Thread nD τ).loc main_arg3)))) (kSrc (m ((c : Thread nD τ).loc main_arg1))) := by
    refine (read7_v63 (W16 m c)).trans ?_
    rw [hm, hs]
  have hagg : (W18 m c (Proc.devRef .tc main_v66) : FVec Ideal S100000x128 .f32) = kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1))) := by
    refine (read7_1_v66 (W17 m c)).trans ?_
    rw [hg, hd]
  have hb : (W18 m c (Proc.devRef .tc main_v69) : FVec Ideal S1x128 .f32) = kRow (kP2 (m ((c : Thread nD τ).loc main_arg4))) := by
    refine (read7_1_v69 (W17 m c)).trans ?_
    rw [thru17_arg4 m c]
  have hx0 : (W19 m c (Proc.devRef .tc main_v70_0) : FVec Ideal S100000x128 .f32) = G1_2 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4)))) := by
    refine ((W19_arr m c 2).trans (final7_2 (V18 m) c)).trans ?_
    show G1_2 (W18 m c (Proc.devRef .tc main_v66)) (W18 m c (Proc.devRef .tc main_v69)) = _
    rw [hagg, hb]
  have hx1 : (W19 m c (Proc.devRef .tc main_v70_1) : FVec Ideal S1x128 .f32) = G1_3 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4)))) := by
    refine ((W19_arr m c 3).trans (final7_3 (V18 m) c)).trans ?_
    show G1_3 (W18 m c (Proc.devRef .tc main_v66)) (W18 m c (Proc.devRef .tc main_v69)) = _
    rw [hagg, hb]
  have hx2 : (W19 m c (Proc.devRef .tc main_v70_2) : FVec Ideal S1x128 .f32) = G1_4 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4)))) := by
    refine ((W19_arr m c 4).trans (final7_4 (V18 m) c)).trans ?_
    show G1_4 (W18 m c (Proc.devRef .tc main_v66)) (W18 m c (Proc.devRef .tc main_v69)) = _
    rw [hagg, hb]
  have hmean : (W20 m c (Proc.devRef .tc main_v83) : FVec Ideal S1x128 .f32) = kRow (kOverN (G1_3 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4)))))) := by
    refine (read8_v83 (W19 m c)).trans ?_
    rw [hx1]
  have hvar : (W20 m c (Proc.devRef .tc main_v84) : FVec Ideal S1x128 .f32) = kRow (kVar (kOverN (G1_3 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4)))))) (kOverN (G1_4 (kAgg (takeTerm (F := Ideal) (G0_2 (W14 m c (Proc.devRef .tc main_v59)) (kW2 (m ((c : Thread nD τ).loc main_arg3)))) (kSrc (m ((c : Thread nD τ).loc main_arg1)))) (kDst (m ((c : Thread nD τ).loc main_arg1)))) (kRow (kP2 (m ((c : Thread nD τ).loc main_arg4))))))) := by
    refine (read8_v84 (W19 m c)).trans ?_
    rw [hx1, hx2]
  have hgr : (W20 m c (Proc.devRef .tc main_v85) : FVec Ideal S1x128 .f32) = kRow (kP2 (m ((c : Thread nD τ).loc main_arg5))) := by
    refine (read8_v85 (W19 m c)).trans ?_
    rw [thru19_arg5 m c]
  have hsr : (W20 m c (Proc.devRef .tc main_v86) : FVec Ideal S1x128 .f32) = kRow (kP2 (m ((c : Thread nD τ).loc main_arg6))) := by
    refine (read8_v86 (W19 m c)).trans ?_
    rw [thru19_arg6 m c]
  have hx0' : W20 m c (Proc.devRef .tc main_v70_0) = W19 m c (Proc.devRef .tc main_v70_0) := W20_of m c main_v70_0 (by decide)
  refine ((W21_arr m c 5).trans (arrAt8_5 (V20 m) c)).trans ?_
  show G2_5 (W20 m c (Proc.devRef .tc main_v70_0)) (W20 m c (Proc.devRef .tc main_v83)) (W20 m c (Proc.devRef .tc main_v84)) (W20 m c (Proc.devRef .tc main_v85)) (W20 m c (Proc.devRef .tc main_v86)) = _
  rw [hx0', hx0, hmean, hvar, hgr, hsr]
  rfl

/-- Layer 3: what the normalisation region leaves is one layer applied to what the layer found. -/
theorem layer3 (c : Dev nD) :
    (W28 m c (Proc.devRef .tc main_v115) : FVec Ideal S100000x128 .f32)
      = kLayer (W21 m c (Proc.devRef .tc main_v87)) (kW3 (m ((c : Thread nD τ).loc main_arg3))) (kP3 (m ((c : Thread nD τ).loc main_arg4))) (kP3 (m ((c : Thread nD τ).loc main_arg5))) (kP3 (m ((c : Thread nD τ).loc main_arg6)))
          (kSrc (m ((c : Thread nD τ).loc main_arg1))) (kDst (m ((c : Thread nD τ).loc main_arg1))) := by
  have hW : (W22 m c (Proc.devRef .tc main_v89) : FVec Ideal S128x128 .f32) = kW3 (m ((c : Thread nD τ).loc main_arg3)) := by
    refine (read9_v89 (W21 m c)).trans ?_
    rw [thru21_arg3 m c]
  have hh : W22 m c (Proc.devRef .tc main_v87) = W21 m c (Proc.devRef .tc main_v87) := W22_of m c main_v87 (by decide)
  have hm : (W23 m c (Proc.devRef .tc main_v90) : FVec Ideal S100000x128 .f32) = G0_2 (W21 m c (Proc.devRef .tc main_v87)) (kW3 (m ((c : Thread nD τ).loc main_arg3))) := by
    refine ((W23_arr m c 2).trans (final9_2 (V22 m) c)).trans ?_
    show G0_2 (W22 m c (Proc.devRef .tc main_v87)) (W22 m c (Proc.devRef .tc main_v89)) = _
    rw [hh, hW]
  have hs : (W23 m c (Proc.devRef .tc main_v1) : IVec S600000 32) = kSrc (m ((c : Thread nD τ).loc main_arg1)) :=
    (thru23_v1 m c).trans (src1 m c)
  have hd : (W24 m c (Proc.devRef .tc main_v3) : IVec S600000 32) = kDst (m ((c : Thread nD τ).loc main_arg1)) :=
    (thru24_v3 m c).trans (dst1 m c)
  have hg : (W24 m c (Proc.devRef .tc main_v91) : FVec Ideal S600000x128 .f32) = takeTerm (F := Ideal) (G0_2 (W21 m c (Proc.devRef .tc main_v87)) (kW3 (m ((c : Thread nD τ).loc main_arg3)))) (kSrc (m ((c : Thread nD τ).loc main_arg1))) := by
    refine (read10_v91 (W23 m c)).trans ?_
    rw [hm, hs]
  have hagg : (W25 m c (Proc.devRef .tc main_v94) : FVec Ideal S100000x128 .f32) = kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1))) := by
    refine (read10_1_v94 (W24 m c)).trans ?_
    rw [hg, hd]
  have hb : (W25 m c (Proc.devRef .tc main_v97) : FVec Ideal S1x128 .f32) = kRow (kP3 (m ((c : Thread nD τ).loc main_arg4))) := by
    refine (read10_1_v97 (W24 m c)).trans ?_
    rw [thru24_arg4 m c]
  have hx0 : (W26 m c (Proc.devRef .tc main_v98_0) : FVec Ideal S100000x128 .f32) = G1_2 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4)))) := by
    refine ((W26_arr m c 2).trans (final10_2 (V25 m) c)).trans ?_
    show G1_2 (W25 m c (Proc.devRef .tc main_v94)) (W25 m c (Proc.devRef .tc main_v97)) = _
    rw [hagg, hb]
  have hx1 : (W26 m c (Proc.devRef .tc main_v98_1) : FVec Ideal S1x128 .f32) = G1_3 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4)))) := by
    refine ((W26_arr m c 3).trans (final10_3 (V25 m) c)).trans ?_
    show G1_3 (W25 m c (Proc.devRef .tc main_v94)) (W25 m c (Proc.devRef .tc main_v97)) = _
    rw [hagg, hb]
  have hx2 : (W26 m c (Proc.devRef .tc main_v98_2) : FVec Ideal S1x128 .f32) = G1_4 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4)))) := by
    refine ((W26_arr m c 4).trans (final10_4 (V25 m) c)).trans ?_
    show G1_4 (W25 m c (Proc.devRef .tc main_v94)) (W25 m c (Proc.devRef .tc main_v97)) = _
    rw [hagg, hb]
  have hmean : (W27 m c (Proc.devRef .tc main_v111) : FVec Ideal S1x128 .f32) = kRow (kOverN (G1_3 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4)))))) := by
    refine (read11_v111 (W26 m c)).trans ?_
    rw [hx1]
  have hvar : (W27 m c (Proc.devRef .tc main_v112) : FVec Ideal S1x128 .f32) = kRow (kVar (kOverN (G1_3 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4)))))) (kOverN (G1_4 (kAgg (takeTerm (F := Ideal) (G0_2 (W21 m c (Proc.devRef .tc main_v87)) (kW3 (m ((c : Thread nD τ).loc main_arg3)))) (kSrc (m ((c : Thread nD τ).loc main_arg1)))) (kDst (m ((c : Thread nD τ).loc main_arg1)))) (kRow (kP3 (m ((c : Thread nD τ).loc main_arg4))))))) := by
    refine (read11_v112 (W26 m c)).trans ?_
    rw [hx1, hx2]
  have hgr : (W27 m c (Proc.devRef .tc main_v113) : FVec Ideal S1x128 .f32) = kRow (kP3 (m ((c : Thread nD τ).loc main_arg5))) := by
    refine (read11_v113 (W26 m c)).trans ?_
    rw [thru26_arg5 m c]
  have hsr : (W27 m c (Proc.devRef .tc main_v114) : FVec Ideal S1x128 .f32) = kRow (kP3 (m ((c : Thread nD τ).loc main_arg6))) := by
    refine (read11_v114 (W26 m c)).trans ?_
    rw [thru26_arg6 m c]
  have hx0' : W27 m c (Proc.devRef .tc main_v98_0) = W26 m c (Proc.devRef .tc main_v98_0) := W27_of m c main_v98_0 (by decide)
  refine ((W28_arr m c 5).trans (arrAt11_5 (V27 m) c)).trans ?_
  show G2_5 (W27 m c (Proc.devRef .tc main_v98_0)) (W27 m c (Proc.devRef .tc main_v111)) (W27 m c (Proc.devRef .tc main_v112)) (W27 m c (Proc.devRef .tc main_v113)) (W27 m c (Proc.devRef .tc main_v114)) = _
  rw [hx0', hx0, hmean, hvar, hgr, hsr]
  rfl

/-- Layer 4: what the normalisation region leaves is one layer applied to what the layer found. -/
theorem layer4 (c : Dev nD) :
    (W35 m c (Proc.devRef .tc main_v143) : FVec Ideal S100000x128 .f32)
      = kLayer (W28 m c (Proc.devRef .tc main_v115)) (kW4 (m ((c : Thread nD τ).loc main_arg3))) (kP4 (m ((c : Thread nD τ).loc main_arg4))) (kP4 (m ((c : Thread nD τ).loc main_arg5))) (kP4 (m ((c : Thread nD τ).loc main_arg6)))
          (kSrc (m ((c : Thread nD τ).loc main_arg1))) (kDst (m ((c : Thread nD τ).loc main_arg1))) := by
  have hW : (W29 m c (Proc.devRef .tc main_v117) : FVec Ideal S128x128 .f32) = kW4 (m ((c : Thread nD τ).loc main_arg3)) := by
    refine (read12_v117 (W28 m c)).trans ?_
    rw [thru28_arg3 m c]
  have hh : W29 m c (Proc.devRef .tc main_v115) = W28 m c (Proc.devRef .tc main_v115) := W29_of m c main_v115 (by decide)
  have hm : (W30 m c (Proc.devRef .tc main_v118) : FVec Ideal S100000x128 .f32) = G0_2 (W28 m c (Proc.devRef .tc main_v115)) (kW4 (m ((c : Thread nD τ).loc main_arg3))) := by
    refine ((W30_arr m c 2).trans (final12_2 (V29 m) c)).trans ?_
    show G0_2 (W29 m c (Proc.devRef .tc main_v115)) (W29 m c (Proc.devRef .tc main_v117)) = _
    rw [hh, hW]
  have hs : (W30 m c (Proc.devRef .tc main_v1) : IVec S600000 32) = kSrc (m ((c : Thread nD τ).loc main_arg1)) :=
    (thru30_v1 m c).trans (src1 m c)
  have hd : (W31 m c (Proc.devRef .tc main_v3) : IVec S600000 32) = kDst (m ((c : Thread nD τ).loc main_arg1)) :=
    (thru31_v3 m c).trans (dst1 m c)
  have hg : (W31 m c (Proc.devRef .tc main_v119) : FVec Ideal S600000x128 .f32) = takeTerm (F := Ideal) (G0_2 (W28 m c (Proc.devRef .tc main_v115)) (kW4 (m ((c : Thread nD τ).loc main_arg3)))) (kSrc (m ((c : Thread nD τ).loc main_arg1))) := by
    refine (read13_v119 (W30 m c)).trans ?_
    rw [hm, hs]
  have hagg : (W32 m c (Proc.devRef .tc main_v122) : FVec Ideal S100000x128 .f32) = kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1))) := by
    refine (read13_1_v122 (W31 m c)).trans ?_
    rw [hg, hd]
  have hb : (W32 m c (Proc.devRef .tc main_v125) : FVec Ideal S1x128 .f32) = kRow (kP4 (m ((c : Thread nD τ).loc main_arg4))) := by
    refine (read13_1_v125 (W31 m c)).trans ?_
    rw [thru31_arg4 m c]
  have hx0 : (W33 m c (Proc.devRef .tc main_v126_0) : FVec Ideal S100000x128 .f32) = G1_2 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4)))) := by
    refine ((W33_arr m c 2).trans (final13_2 (V32 m) c)).trans ?_
    show G1_2 (W32 m c (Proc.devRef .tc main_v122)) (W32 m c (Proc.devRef .tc main_v125)) = _
    rw [hagg, hb]
  have hx1 : (W33 m c (Proc.devRef .tc main_v126_1) : FVec Ideal S1x128 .f32) = G1_3 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4)))) := by
    refine ((W33_arr m c 3).trans (final13_3 (V32 m) c)).trans ?_
    show G1_3 (W32 m c (Proc.devRef .tc main_v122)) (W32 m c (Proc.devRef .tc main_v125)) = _
    rw [hagg, hb]
  have hx2 : (W33 m c (Proc.devRef .tc main_v126_2) : FVec Ideal S1x128 .f32) = G1_4 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4)))) := by
    refine ((W33_arr m c 4).trans (final13_4 (V32 m) c)).trans ?_
    show G1_4 (W32 m c (Proc.devRef .tc main_v122)) (W32 m c (Proc.devRef .tc main_v125)) = _
    rw [hagg, hb]
  have hmean : (W34 m c (Proc.devRef .tc main_v139) : FVec Ideal S1x128 .f32) = kRow (kOverN (G1_3 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4)))))) := by
    refine (read14_v139 (W33 m c)).trans ?_
    rw [hx1]
  have hvar : (W34 m c (Proc.devRef .tc main_v140) : FVec Ideal S1x128 .f32) = kRow (kVar (kOverN (G1_3 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4)))))) (kOverN (G1_4 (kAgg (takeTerm (F := Ideal) (G0_2 (W28 m c (Proc.devRef .tc main_v115)) (kW4 (m ((c : Thread nD τ).loc main_arg3)))) (kSrc (m ((c : Thread nD τ).loc main_arg1)))) (kDst (m ((c : Thread nD τ).loc main_arg1)))) (kRow (kP4 (m ((c : Thread nD τ).loc main_arg4))))))) := by
    refine (read14_v140 (W33 m c)).trans ?_
    rw [hx1, hx2]
  have hgr : (W34 m c (Proc.devRef .tc main_v141) : FVec Ideal S1x128 .f32) = kRow (kP4 (m ((c : Thread nD τ).loc main_arg5))) := by
    refine (read14_v141 (W33 m c)).trans ?_
    rw [thru33_arg5 m c]
  have hsr : (W34 m c (Proc.devRef .tc main_v142) : FVec Ideal S1x128 .f32) = kRow (kP4 (m ((c : Thread nD τ).loc main_arg6))) := by
    refine (read14_v142 (W33 m c)).trans ?_
    rw [thru33_arg6 m c]
  have hx0' : W34 m c (Proc.devRef .tc main_v126_0) = W33 m c (Proc.devRef .tc main_v126_0) := W34_of m c main_v126_0 (by decide)
  refine ((W35_arr m c 5).trans (arrAt14_5 (V34 m) c)).trans ?_
  show G2_5 (W34 m c (Proc.devRef .tc main_v126_0)) (W34 m c (Proc.devRef .tc main_v139)) (W34 m c (Proc.devRef .tc main_v140)) (W34 m c (Proc.devRef .tc main_v141)) (W34 m c (Proc.devRef .tc main_v142)) = _
  rw [hx0', hx0, hmean, hvar, hgr, hsr]
  rfl

/-- Layer 5: what the normalisation region leaves is one layer applied to what the layer found. -/
theorem layer5 (c : Dev nD) :
    (W42 m c (Proc.devRef .tc main_v171) : FVec Ideal S100000x128 .f32)
      = kLayer (W35 m c (Proc.devRef .tc main_v143)) (kW5 (m ((c : Thread nD τ).loc main_arg3))) (kP5 (m ((c : Thread nD τ).loc main_arg4))) (kP5 (m ((c : Thread nD τ).loc main_arg5))) (kP5 (m ((c : Thread nD τ).loc main_arg6)))
          (kSrc (m ((c : Thread nD τ).loc main_arg1))) (kDst (m ((c : Thread nD τ).loc main_arg1))) := by
  have hW : (W36 m c (Proc.devRef .tc main_v145) : FVec Ideal S128x128 .f32) = kW5 (m ((c : Thread nD τ).loc main_arg3)) := by
    refine (read15_v145 (W35 m c)).trans ?_
    rw [thru35_arg3 m c]
  have hh : W36 m c (Proc.devRef .tc main_v143) = W35 m c (Proc.devRef .tc main_v143) := W36_of m c main_v143 (by decide)
  have hm : (W37 m c (Proc.devRef .tc main_v146) : FVec Ideal S100000x128 .f32) = G0_2 (W35 m c (Proc.devRef .tc main_v143)) (kW5 (m ((c : Thread nD τ).loc main_arg3))) := by
    refine ((W37_arr m c 2).trans (final15_2 (V36 m) c)).trans ?_
    show G0_2 (W36 m c (Proc.devRef .tc main_v143)) (W36 m c (Proc.devRef .tc main_v145)) = _
    rw [hh, hW]
  have hs : (W37 m c (Proc.devRef .tc main_v1) : IVec S600000 32) = kSrc (m ((c : Thread nD τ).loc main_arg1)) :=
    (thru37_v1 m c).trans (src1 m c)
  have hd : (W38 m c (Proc.devRef .tc main_v3) : IVec S600000 32) = kDst (m ((c : Thread nD τ).loc main_arg1)) :=
    (thru38_v3 m c).trans (dst1 m c)
  have hg : (W38 m c (Proc.devRef .tc main_v147) : FVec Ideal S600000x128 .f32) = takeTerm (F := Ideal) (G0_2 (W35 m c (Proc.devRef .tc main_v143)) (kW5 (m ((c : Thread nD τ).loc main_arg3)))) (kSrc (m ((c : Thread nD τ).loc main_arg1))) := by
    refine (read16_v147 (W37 m c)).trans ?_
    rw [hm, hs]
  have hagg : (W39 m c (Proc.devRef .tc main_v150) : FVec Ideal S100000x128 .f32) = kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1))) := by
    refine (read16_1_v150 (W38 m c)).trans ?_
    rw [hg, hd]
  have hb : (W39 m c (Proc.devRef .tc main_v153) : FVec Ideal S1x128 .f32) = kRow (kP5 (m ((c : Thread nD τ).loc main_arg4))) := by
    refine (read16_1_v153 (W38 m c)).trans ?_
    rw [thru38_arg4 m c]
  have hx0 : (W40 m c (Proc.devRef .tc main_v154_0) : FVec Ideal S100000x128 .f32) = G1_2 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4)))) := by
    refine ((W40_arr m c 2).trans (final16_2 (V39 m) c)).trans ?_
    show G1_2 (W39 m c (Proc.devRef .tc main_v150)) (W39 m c (Proc.devRef .tc main_v153)) = _
    rw [hagg, hb]
  have hx1 : (W40 m c (Proc.devRef .tc main_v154_1) : FVec Ideal S1x128 .f32) = G1_3 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4)))) := by
    refine ((W40_arr m c 3).trans (final16_3 (V39 m) c)).trans ?_
    show G1_3 (W39 m c (Proc.devRef .tc main_v150)) (W39 m c (Proc.devRef .tc main_v153)) = _
    rw [hagg, hb]
  have hx2 : (W40 m c (Proc.devRef .tc main_v154_2) : FVec Ideal S1x128 .f32) = G1_4 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4)))) := by
    refine ((W40_arr m c 4).trans (final16_4 (V39 m) c)).trans ?_
    show G1_4 (W39 m c (Proc.devRef .tc main_v150)) (W39 m c (Proc.devRef .tc main_v153)) = _
    rw [hagg, hb]
  have hmean : (W41 m c (Proc.devRef .tc main_v167) : FVec Ideal S1x128 .f32) = kRow (kOverN (G1_3 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4)))))) := by
    refine (read17_v167 (W40 m c)).trans ?_
    rw [hx1]
  have hvar : (W41 m c (Proc.devRef .tc main_v168) : FVec Ideal S1x128 .f32) = kRow (kVar (kOverN (G1_3 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4)))))) (kOverN (G1_4 (kAgg (takeTerm (F := Ideal) (G0_2 (W35 m c (Proc.devRef .tc main_v143)) (kW5 (m ((c : Thread nD τ).loc main_arg3)))) (kSrc (m ((c : Thread nD τ).loc main_arg1)))) (kDst (m ((c : Thread nD τ).loc main_arg1)))) (kRow (kP5 (m ((c : Thread nD τ).loc main_arg4))))))) := by
    refine (read17_v168 (W40 m c)).trans ?_
    rw [hx1, hx2]
  have hgr : (W41 m c (Proc.devRef .tc main_v169) : FVec Ideal S1x128 .f32) = kRow (kP5 (m ((c : Thread nD τ).loc main_arg5))) := by
    refine (read17_v169 (W40 m c)).trans ?_
    rw [thru40_arg5 m c]
  have hsr : (W41 m c (Proc.devRef .tc main_v170) : FVec Ideal S1x128 .f32) = kRow (kP5 (m ((c : Thread nD τ).loc main_arg6))) := by
    refine (read17_v170 (W40 m c)).trans ?_
    rw [thru40_arg6 m c]
  have hx0' : W41 m c (Proc.devRef .tc main_v154_0) = W40 m c (Proc.devRef .tc main_v154_0) := W41_of m c main_v154_0 (by decide)
  refine ((W42_arr m c 5).trans (arrAt17_5 (V41 m) c)).trans ?_
  show G2_5 (W41 m c (Proc.devRef .tc main_v154_0)) (W41 m c (Proc.devRef .tc main_v167)) (W41 m c (Proc.devRef .tc main_v168)) (W41 m c (Proc.devRef .tc main_v169)) (W41 m c (Proc.devRef .tc main_v170)) = _
  rw [hx0', hx0, hmean, hvar, hgr, hsr]
  rfl

/-! ## The pooling and the head -/

/-- THE PROGRAM'S RESULT: what the head region leaves is the closed term of the eleven arguments as launched. -/
theorem kernel_value (c : Dev nD) :
    (W44 m c (Proc.devRef .tc main_v186) : FVec Ideal S64x4 .f32)
      = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hp : (W43 m c (Proc.devRef .tc main_v183) : FVec Ideal S64x128 .f32) = kPool (W42 m c (Proc.devRef .tc main_v171)) (m ((c : Thread nD τ).loc main_arg2)) := by
    refine (read18_v183 (W42 m c)).trans ?_
    rw [thru42_arg2 m c]
  have h184 : (W43 m c (Proc.devRef .tc main_v184) : FVec Ideal S1x64 .f32) = shapeCast S1x64 (m ((c : Thread nD τ).loc main_arg8)) Facts₀.shapeCasts_S64_S1x64 := by
    refine (read18_v184 (W42 m c)).trans ?_
    rw [thru42_arg8 m c]
  have h185 : (W43 m c (Proc.devRef .tc main_v185) : FVec Ideal S1x4 .f32) = shapeCast S1x4 (m ((c : Thread nD τ).loc main_arg10)) Facts₀.shapeCasts_S4_S1x4 := by
    refine (read18_v185 (W42 m c)).trans ?_
    rw [thru42_arg10 m c]
  refine ((W44_arr m c 5).trans (final18_5 (V43 m) c)).trans ?_
  show G18_5 (W43 m c (Proc.devRef .tc main_v183)) (W43 m c (Proc.devRef .tc main_arg7)) (W43 m c (Proc.devRef .tc main_v184)) (W43 m c (Proc.devRef .tc main_arg9)) (W43 m c (Proc.devRef .tc main_v185)) = _
  rw [hp, thru43_arg7 m c, h184, thru43_arg9 m c, h185, layer5 m c, layer4 m c, layer3 m c, layer2 m c, layer1 m c, layer0 m c]
  rfl

end Cert.KernelIdeal.Hand

end
-- ==== Proof.KI.PreRange.lean ====
/-
  What the printed precondition says of the arrays, read back at one element.

  The precondition is a conjunction of ten "all" reductions. Nine say that every entry of a float array has absolute
  value below +infinity; at the extended-real instance that makes each entry a real number. The tenth says that every
  entry of row 0 of the integer edge table, read as a signed 32-bit integer, lies in [0, 100000).
-/
import proofs.«400512_j87187836109057_1_alg».proof.Pre_finite_inputs
import Idealize.ShloMosaic.PureOps.Ideal
import Idealize.ShloMosaic.Lib.ReduceAll
import Idealize.ShloMosaic.Lib.ValueIdx

noncomputable section

namespace Cert.Pre_finite_inputs.Hand

open Idealize.ShloMosaic Cert.Pre_finite_inputs

variable [Facts]
open Facts

/-- The scalar shape has one index. -/
instance subsingleton_S_ : Subsingleton S_.Idx := ⟨fun a b => funext fun d => d.elim0⟩

/-- Row 0 of the edge table as a vector of 600000 words: the term the precondition compares. -/
def srcOf (edge_index : IVec S2x600000 32) : IVec S600000 32 :=
  shapeCast S600000 ((extractStridedSlice S1x600000 ![0, 0] · slices_S2x600000_S1x600000_0_0) edge_index) shapeCasts_S1x600000_S600000

section AnyInstance
variable {F : FTy → Type} [FloatOps F]

/-- "Every entry has absolute value below +infinity", as the precondition prints it for one float array. -/
def AbsLtInf {s : Shape} (hb : S_.BroadcastsInDim s (![] : Fin 0 → Fin s.rank)) (v : FVec F s .f32) : Prop :=
  ∀ i : s.Idx, cmpf .olt (Host.absf v) (broadcastInDim s ![] hb (constant S_ .f32 0x7F800000#32)) i = 1#1

/-- The precondition split into its ten conjuncts, each "all" read back at every element. -/
theorem decode (x : FVec F S100000x128 .f32) (edge_index : IVec S2x600000 32) (batch : IVec S100000 32)
    (conv_w : FVec F S6x128x128 .f32) (conv_b : FVec F S6x128 .f32) (bn_g : FVec F S6x128 .f32) (bn_b : FVec F S6x128 .f32)
    (lin1_w : FVec F S128x64 .f32) (lin1_b : FVec F S64 .f32) (lin2_w : FVec F S64x4 .f32) (lin2_b : FVec F S4 .f32)
    (h : fn (F := F) x edge_index batch conv_w conv_b bn_g bn_b lin1_w lin1_b lin2_w lin2_b = fun _ => 1#1) :
    AbsLtInf bcast_S_S100000x128 x ∧ AbsLtInf bcast_S_S6x128x128 conv_w ∧ AbsLtInf bcast_S_S6x128 conv_b
      ∧ AbsLtInf bcast_S_S6x128 bn_g ∧ AbsLtInf bcast_S_S6x128 bn_b ∧ AbsLtInf bcast_S_S128x64 lin1_w
      ∧ AbsLtInf bcast_S_S64 lin1_b ∧ AbsLtInf bcast_S_S64x4 lin2_w ∧ AbsLtInf bcast_S_S4 lin2_b
      ∧ ∀ e : S600000.Idx, 0 ≤ (srcOf edge_index e).toInt ∧ (srcOf edge_index e).toInt < 100000 := by
  have h0 := congrFun h ValueIdx.ix0
  dsimp only [fn, fn_part1, fn_part2, fn_part3] at h0
  change IntOp.andi _ _ = 1#1 at h0
  obtain ⟨h43, h53⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  clear h0 h43 h38 h33 h28 h23 h18 h13 h8
  refine ⟨fun i => Host.reduce_andi_all _ _ _ _ _ h3 i, fun i => Host.reduce_andi_all _ _ _ _ _ h7 i,
    fun i => Host.reduce_andi_all _ _ _ _ _ h12 i, fun i => Host.reduce_andi_all _ _ _ _ _ h17 i,
    fun i => Host.reduce_andi_all _ _ _ _ _ h22 i, fun i => Host.reduce_andi_all _ _ _ _ _ h27 i,
    fun i => Host.reduce_andi_all _ _ _ _ _ h32 i, fun i => Host.reduce_andi_all _ _ _ _ _ h37 i,
    fun i => Host.reduce_andi_all _ _ _ _ _ h42 i, fun e => ?_⟩
  have he := Host.reduce_andi_all _ _ _ _ _ h53 e
  change IntOp.andi (IntOp.cmpi .sge (srcOf edge_index e) 0#32) (IntOp.cmpi .slt (srcOf edge_index e) 100000#32) = 1#1 at he
  obtain ⟨ha, hb⟩ := IntOp.andi_eq_one.1 he
  have ha' := IntOp.cmpi_sge.1 ha
  have hb' := IntOp.cmpi_slt.1 hb
  rw [show (0#32 : BitVec 32).toInt = 0 from by decide] at ha'
  rw [show (100000#32 : BitVec 32).toInt = 100000 from by decide] at hb'
  exact ⟨ha', hb'⟩

/-- ROW 0 OF THE EDGE TABLE IS IN RANGE: under the precondition every entry of row 0 of the edge table, read as a signed
    32-bit integer, is at least 0 and below 100000. -/
theorem src_range (x : FVec F S100000x128 .f32) (edge_index : IVec S2x600000 32) (batch : IVec S100000 32)
    (conv_w : FVec F S6x128x128 .f32) (conv_b : FVec F S6x128 .f32) (bn_g : FVec F S6x128 .f32) (bn_b : FVec F S6x128 .f32)
    (lin1_w : FVec F S128x64 .f32) (lin1_b : FVec F S64 .f32) (lin2_w : FVec F S64x4 .f32) (lin2_b : FVec F S4 .f32)
    (h : fn (F := F) x edge_index batch conv_w conv_b bn_g bn_b lin1_w lin1_b lin2_w lin2_b = fun _ => 1#1) (e : S600000.Idx) :
    0 ≤ (shapeCast S600000 ((extractStridedSlice S1x600000 ![0, 0] · slices_S2x600000_S1x600000_0_0) edge_index)
          shapeCasts_S1x600000_S600000 e).toInt
      ∧ (shapeCast S600000 ((extractStridedSlice S1x600000 ![0, 0] · slices_S2x600000_S1x600000_0_0) edge_index)
          shapeCasts_S1x600000_S600000 e).toInt < 100000 :=
  (decode x edge_index batch conv_w conv_b bn_g bn_b lin1_w lin1_b lin2_w lin2_b h).2.2.2.2.2.2.2.2.2 e

end AnyInstance

/-! ## At the extended reals: an entry of absolute value below +infinity is a real number -/

/-- The word 0x7F800000 denotes +infinity. -/
theorem ofBits_inf : Ideal.ofBits .f32 0x7F800000#32 = (⊤ : EReal) := by
  simp [Ideal.ofBits, Ideal.ieee]

/-- An extended real whose absolute value max v (−v) is below +infinity is a real number. -/
theorem real_of_abs_lt_top (v : EReal) (h : max v (-v) < ⊤) : ∃ r : ℝ, v = (r : EReal) := by
  induction v using EReal.rec with
  | bot => simp at h
  | coe r => exact ⟨r, rfl⟩
  | top => simp at h

/-- One float array: every entry below +infinity in absolute value, so every entry a real number. -/
theorem real_of_absLtInf {s : Shape} (hb : S_.BroadcastsInDim s (![] : Fin 0 → Fin s.rank)) (v : FVec Ideal s .f32)
    (h : AbsLtInf (F := Ideal) hb v) (i : s.Idx) : ∃ r : ℝ, v i = (r : EReal) := by
  have hi := h i
  change Ideal.cmp .olt (max (v i) (-(v i))) (Ideal.ofBits .f32 0x7F800000#32) = 1#1 at hi
  rw [ofBits_inf] at hi
  refine real_of_abs_lt_top (v i) ?_
  by_contra hn
  simp only [Ideal.cmp, hn, decide_false] at hi
  exact absurd hi (by decide)

section AtIdeal
variable (x : FVec Ideal S100000x128 .f32) (edge_index : IVec S2x600000 32) (batch : IVec S100000 32)
  (conv_w : FVec Ideal S6x128x128 .f32) (conv_b : FVec Ideal S6x128 .f32) (bn_g : FVec Ideal S6x128 .f32) (bn_b : FVec Ideal S6x128 .f32)
  (lin1_w : FVec Ideal S128x64 .f32) (lin1_b : FVec Ideal S64 .f32) (lin2_w : FVec Ideal S64x4 .f32) (lin2_b : FVec Ideal S4 .f32)
  (h : fn (F := Ideal) x edge_index batch conv_w conv_b bn_g bn_b lin1_w lin1_b lin2_w lin2_b = fun _ => 1#1)
include h

theorem finite_x (i : S100000x128.Idx) : ∃ r : ℝ, x i = (r : EReal) :=
  real_of_absLtInf _ _ (decode x edge_index batch conv_w conv_b bn_g bn_b lin1_w lin1_b lin2_w lin2_b h).1 i
theorem finite_conv_w (i : S6x128x128.Idx) : ∃ r : ℝ, conv_w i = (r : EReal) :=
  real_of_absLtInf _ _ (decode x edge_index batch conv_w conv_b bn_g bn_b lin1_w lin1_b lin2_w lin2_b h).2.1 i
theorem finite_conv_b (i : S6x128.Idx) : ∃ r : ℝ, conv_b i = (r : EReal) :=
  real_of_absLtInf _ _ (decode x edge_index batch conv_w conv_b bn_g bn_b lin1_w lin1_b lin2_w lin2_b h).2.2.1 i
theorem finite_bn_g (i : S6x128.Idx) : ∃ r : ℝ, bn_g i = (r : EReal) :=
  real_of_absLtInf _ _ (decode x edge_index batch conv_w conv_b bn_g bn_b lin1_w lin1_b lin2_w lin2_b h).2.2.2.1 i
theorem finite_bn_b (i : S6x128.Idx) : ∃ r : ℝ, bn_b i = (r : EReal) :=
  real_of_absLtInf _ _ (decode x edge_index batch conv_w conv_b bn_g bn_b lin1_w lin1_b lin2_w lin2_b h).2.2.2.2.1 i
theorem finite_lin1_w (i : S128x64.Idx) : ∃ r : ℝ, lin1_w i = (r : EReal) :=
  real_of_absLtInf _ _ (decode x edge_index batch conv_w conv_b bn_g bn_b lin1_w lin1_b lin2_w lin2_b h).2.2.2.2.2.1 i
theorem finite_lin1_b (i : S64.Idx) : ∃ r : ℝ, lin1_b i = (r : EReal) :=
  real_of_absLtInf _ _ (decode x edge_index batch conv_w conv_b bn_g bn_b lin1_w lin1_b lin2_w lin2_b h).2.2.2.2.2.2.1 i
theorem finite_lin2_w (i : S64x4.Idx) : ∃ r : ℝ, lin2_w i = (r : EReal) :=
  real_of_absLtInf _ _ (decode x edge_index batch conv_w conv_b bn_g bn_b lin1_w lin1_b lin2_w lin2_b h).2.2.2.2.2.2.2.1 i
theorem finite_lin2_b (i : S4.Idx) : ∃ r : ℝ, lin2_b i = (r : EReal) :=
  real_of_absLtInf _ _ (decode x edge_index batch conv_w conv_b bn_g bn_b lin1_w lin1_b lin2_w lin2_b h).2.2.2.2.2.2.2.2.1 i

end AtIdeal

end Cert.Pre_finite_inputs.Hand

end
-- ==== Proof.Ref.Run.lean ====
/-
  The reference's run. @main of the reference program is a straight line of host operations: the six windows of its
  statements, with the operations of each called function written inline at the call site over that call's buffers.
  Every weakly fair execution terminates; the result buffer ends at the fold of the operations' results over the launch
  contents, and no operation writes an argument's buffer, so every argument ends unchanged.
-/
import proofs.«400512_j87187836109057_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Lists: a property of every element of two lists holds of every element of their concatenation -/

theorem forall_app {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

/-- The fold of the operations' results over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The arguments: no operation writes one -/

/-- @main's argument buffers. -/
abbrev argRefs : List (Ref sig .tc) := [main_arg0, main_arg1, main_arg2, main_arg3, main_arg4, main_arg5, main_arg6, main_arg7, main_arg8, main_arg9, main_arg10]

/-- An operation whose one written buffer is not an argument's writes no argument's buffer. -/
theorem keep_args {op : HloOp τ sig (Elt F)} {y : Ref sig .tc} (hw : op.writes = {(Proc.devRef .tc y : DevRef τ sig)})
    (h : y ∉ argRefs) : ∀ r ∈ argRefs, (Proc.devRef .tc r : DevRef τ sig) ∉ op.writes := by
  intro r hr hm
  rw [hw, Finset.mem_singleton] at hm
  exact h (Proc.devRef_injective _ hm ▸ hr)

/-! ## The operations, window by window -/

/-- The host operations of statements window 0 of @main, the callees' operations inline at their call sites. -/
abbrev ops_part0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg3 main_v4 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v4 main_v5 rfl shapeCasts_S1x128x128_S128x128,
    StableHlo.binary main_arg0 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v7 (broadcastInDim S600000 ![] bcast_S_S600000 : (⟨S_, .i32⟩ : BufTy).Contents (Elt F) → (⟨S600000, .i32⟩ : BufTy).Contents (Elt F)),
    StableHlo.binary main_v1 main_v7 main_v8 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v9 (broadcastInDim S600000 ![] bcast_S_S600000 : (⟨S_, .i32⟩ : BufTy).Contents (Elt F) → (⟨S600000, .i32⟩ : BufTy).Contents (Elt F)),
    StableHlo.binary main_v1 main_v9 main_v10 (addi : (⟨S600000, .i32⟩ : BufTy).Contents (Elt F) → (⟨S600000, .i32⟩ : BufTy).Contents (Elt F) → (⟨S600000, .i32⟩ : BufTy).Contents (Elt F)),
    StableHlo.ternary main_v8 main_v10 main_v1 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v11 main_v12 (broadcastInDim S600000x1 ![0] bcast_S600000_S600000x1_0 : (⟨S600000, .i32⟩ : BufTy).Contents (Elt F) → (⟨S600000x1, .i32⟩ : BufTy).Contents (Elt F)),
    StableHlo.binary main_v6 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v14 (broadcastInDim S100000x128 ![] bcast_S_S100000x128 : (⟨S_, .f32⟩ : BufTy).Contents (Elt F) → (⟨S100000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v17 ((extractStridedSlice S1x128 ![0, 0] · slices_S6x128_S1x128_0_0) : (⟨S6x128, .f32⟩ : BufTy).Contents (Elt F) → (⟨S1x128, .f32⟩ : BufTy).Contents (Elt F)),
    StableHlo.reshape main_v17 main_v18 rfl shapeCasts_S1x128_S128,
    StableHlo.unary main_v18 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v21 : StableHlo.TRef sig ⟨S100000x128, .f32⟩) main_call0.v0 main_call0.v1 maximumf,
    StableHlo.nullary main_cst_1 (constant S_ .f32 0x00000000#32),
    StableHlo.binary main_v22 main_cst_1 main_v23 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v22 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v22 : StableHlo.TRef sig ⟨S100000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v28 main_v29 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg5 main_v36 ((extractStridedSlice S1x128 ![0, 0] · slices_S6x128_S1x128_0_0) : (⟨S6x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg6 main_v41 ((extractStridedSlice S1x128 ![0, 0] · slices_S6x128_S1x128_0_0) : (⟨S6x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg3 main_v46 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v46 main_v47 rfl shapeCasts_S1x128x128_S128x128,
    StableHlo.binary main_v45 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_5 (constantI S_ 32 0#32),
    StableHlo.unary main_c_5 main_v49 (broadcastInDim S600000 ![] bcast_S_S600000 : (⟨S_, .i32⟩ : BufTy).Contents (Elt F) → (⟨S600000, .i32⟩ : BufTy).Contents (Elt F)),
    StableHlo.binary main_v1 main_v49 main_v50 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32) ]

set_option maxRecDepth 16384 in
/-- Window 0 of @main is that straight line: the called functions' definitions unfolded at their calls, the sequencing reassociated. -/
theorem main_part0_eq (c : Dev nD) : main_part0 (F := F) c = seq ops_part0 := by
  simp only [main_part0, fn_relu.body, fn_var.body, fn_where.body, seq, bind_assoc, pure_bind] <;> rfl

set_option maxRecDepth 8192 in
/-- Every buffer an operation of window 0 touches is a TensorCore buffer of the signature. -/
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., nullary_bufs_sub ..⟩

set_option maxRecDepth 8192 in
/-- Every operation of window 0 determines what it writes. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 0 writes an argument's buffer. -/
theorem ops_part0_keep : (ops_part0 : List (HloOp τ sig (Elt F))).Forall fun op => ∀ r ∈ argRefs, (Proc.devRef .tc r : DevRef τ sig) ∉ op.writes :=
  ⟨keep_args (y := main_v0) rfl (by decide),
    keep_args (y := main_v1) rfl (by decide),
    keep_args (y := main_v2) rfl (by decide),
    keep_args (y := main_v3) rfl (by decide),
    keep_args (y := main_v4) rfl (by decide),
    keep_args (y := main_v5) rfl (by decide),
    keep_args (y := main_v6) rfl (by decide),
    keep_args (y := main_c) rfl (by decide),
    keep_args (y := main_v7) rfl (by decide),
    keep_args (y := main_v8) rfl (by decide),
    keep_args (y := main_c_0) rfl (by decide),
    keep_args (y := main_v9) rfl (by decide),
    keep_args (y := main_v10) rfl (by decide),
    keep_args (y := main_v11) rfl (by decide),
    keep_args (y := main_v12) rfl (by decide),
    keep_args (y := main_v13) rfl (by decide),
    keep_args (y := main_cst) rfl (by decide),
    keep_args (y := main_v14) rfl (by decide),
    keep_args (y := main_v15) rfl (by decide),
    keep_args (y := main_v16) rfl (by decide),
    keep_args (y := main_v17) rfl (by decide),
    keep_args (y := main_v18) rfl (by decide),
    keep_args (y := main_v19) rfl (by decide),
    keep_args (y := main_v20) rfl (by decide),
    keep_args (y := main_v21) rfl (by decide),
    keep_args (y := main_call0.cst.ref) rfl (by decide),
    keep_args (y := main_call0.v0.ref) rfl (by decide),
    keep_args (y := main_call0.v1.ref) rfl (by decide),
    keep_args (y := main_cst_1) rfl (by decide),
    keep_args (y := main_v23) rfl (by decide),
    keep_args (y := main_cst_2) rfl (by decide),
    keep_args (y := main_v24) rfl (by decide),
    keep_args (y := main_v25) rfl (by decide),
    keep_args (y := main_c_3) rfl (by decide),
    keep_args (y := main_call1.cst.ref) rfl (by decide),
    keep_args (y := main_call1.v0.ref) rfl (by decide),
    keep_args (y := main_call1.v1.ref) rfl (by decide),
    keep_args (y := main_call1.cst_0.ref) rfl (by decide),
    keep_args (y := main_call1.v2.ref) rfl (by decide),
    keep_args (y := main_call1.v3.ref) rfl (by decide),
    keep_args (y := main_call1.v4.ref) rfl (by decide),
    keep_args (y := main_call1.v5.ref) rfl (by decide),
    keep_args (y := main_call1.v6.ref) rfl (by decide),
    keep_args (y := main_call1.v7.ref) rfl (by decide),
    keep_args (y := main_call1.cst_1.ref) rfl (by decide),
    keep_args (y := main_call1.v8.ref) rfl (by decide),
    keep_args (y := main_call1.cst_2.ref) rfl (by decide),
    keep_args (y := main_call1.v9.ref) rfl (by decide),
    keep_args (y := main_call1.v10.ref) rfl (by decide),
    keep_args (y := main_call1.v11.ref) rfl (by decide),
    keep_args (y := main_call1.cst_3.ref) rfl (by decide),
    keep_args (y := main_call1.v12.ref) rfl (by decide),
    keep_args (y := main_call1.cst_4.ref) rfl (by decide),
    keep_args (y := main_call1.call0.v0.ref) rfl (by decide),
    keep_args (y := main_call1.call0.v1.ref) rfl (by decide),
    keep_args (y := main_call1.call0.v2.ref) rfl (by decide),
    keep_args (y := main_v27) rfl (by decide),
    keep_args (y := main_v28) rfl (by decide),
    keep_args (y := main_v29) rfl (by decide),
    keep_args (y := main_cst_4) rfl (by decide),
    keep_args (y := main_v30) rfl (by decide),
    keep_args (y := main_v31) rfl (by decide),
    keep_args (y := main_v32) rfl (by decide),
    keep_args (y := main_v33) rfl (by decide),
    keep_args (y := main_v34) rfl (by decide),
    keep_args (y := main_v35) rfl (by decide),
    keep_args (y := main_v36) rfl (by decide),
    keep_args (y := main_v37) rfl (by decide),
    keep_args (y := main_v38) rfl (by decide),
    keep_args (y := main_v39) rfl (by decide),
    keep_args (y := main_v40) rfl (by decide),
    keep_args (y := main_v41) rfl (by decide),
    keep_args (y := main_v42) rfl (by decide),
    keep_args (y := main_v43) rfl (by decide),
    keep_args (y := main_v44) rfl (by decide),
    keep_args (y := main_v45) rfl (by decide),
    keep_args (y := main_v46) rfl (by decide),
    keep_args (y := main_v47) rfl (by decide),
    keep_args (y := main_v48) rfl (by decide),
    keep_args (y := main_c_5) rfl (by decide),
    keep_args (y := main_v49) rfl (by decide),
    keep_args (y := main_v50) rfl (by decide),
    keep_args (y := main_c_6) rfl (by decide)⟩

/-- The host operations of statements window 1 of @main, the callees' operations inline at their call sites. -/
abbrev ops_part1 : List (HloOp τ sig (Elt F)) :=
  [ StableHlo.unary main_c_6 main_v51 (broadcastInDim S600000 ![] bcast_S_S600000 : (⟨S_, .i32⟩ : BufTy).Contents (Elt F) → (⟨S600000, .i32⟩ : BufTy).Contents (Elt F)),
    StableHlo.binary main_v1 main_v51 main_v52 (addi : (⟨S600000, .i32⟩ : BufTy).Contents (Elt F) → (⟨S600000, .i32⟩ : BufTy).Contents (Elt F) → (⟨S600000, .i32⟩ : BufTy).Contents (Elt F)),
    StableHlo.ternary main_v50 main_v52 main_v1 main_v53 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v53 main_v54 (broadcastInDim S600000x1 ![0] bcast_S600000_S600000x1_0 : (⟨S600000, .i32⟩ : BufTy).Contents (Elt F) → (⟨S600000x1, .i32⟩ : BufTy).Contents (Elt F)),
    StableHlo.binary main_v48 main_v54 main_v55 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S600000x1 ![0] bcast_S600000_S600000x1_0 : (⟨S600000, .i32⟩ : BufTy).Contents (Elt F) → (⟨S600000x1, .i32⟩ : BufTy).Contents (Elt F)),
    StableHlo.ternary main_v56 main_v57 main_v55 main_v58 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v59 ((extractStridedSlice S1x128 ![1, 0] · slices_S6x128_S1x128_1_0) : (⟨S6x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v63 : StableHlo.TRef sig ⟨S100000x128, .f32⟩) main_call2.v0 main_call2.v1 maximumf,
    StableHlo.nullary main_cst_8 (constant S_ .f32 0x00000000#32),
    StableHlo.binary main_v64 main_cst_8 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (.of main_v64 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v64 : StableHlo.TRef sig ⟨S100000x128, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S128 ![] bcast_S_S128 : (⟨S_, .f32⟩ : BufTy).Contents (Elt F) → (⟨S128, .f32⟩ : BufTy).Contents (Elt F)),
    StableHlo.binary main_v68 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg5 main_v78 ((extractStridedSlice S1x128 ![1, 0] · slices_S6x128_S1x128_1_0) : (⟨S6x128, .f32⟩ : BufTy).Contents (Elt F) → (⟨S1x128, .f32⟩ : BufTy).Contents (Elt F)),
    StableHlo.reshape main_v78 main_v79 rfl shapeCasts_S1x128_S128,
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v81 main_v82 (mulf : (⟨S100000x128, .f32⟩ : BufTy).Contents (Elt F) → (⟨S100000x128, .f32⟩ : BufTy).Contents (Elt F) → (⟨S100000x128, .f32⟩ : BufTy).Contents (Elt F)),
    StableHlo.unary main_arg6 main_v83 ((extractStridedSlice S1x128 ![1, 0] · slices_S6x128_S1x128_1_0) : (⟨S6x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v86 main_v87 (addf : (⟨S100000x128, .f32⟩ : BufTy).Contents (Elt F) → (⟨S100000x128, .f32⟩ : BufTy).Contents (Elt F) → (⟨S100000x128, .f32⟩ : BufTy).Contents (Elt F)),
    StableHlo.unary main_arg3 main_v88 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v88 main_v89 rfl shapeCasts_S1x128x128_S128x128,
    StableHlo.binary main_v87 main_v89 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_12 (constantI S_ 32 0#32),
    StableHlo.unary main_c_12 main_v91 (broadcastInDim S600000 ![] bcast_S_S600000 : (⟨S_, .i32⟩ : BufTy).Contents (Elt F) → (⟨S600000, .i32⟩ : BufTy).Contents (Elt F)),
    StableHlo.binary main_v1 main_v91 main_v92 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v93 (broadcastInDim S600000 ![] bcast_S_S600000 : (⟨S_, .i32⟩ : BufTy).Contents (Elt F) → (⟨S600000, .i32⟩ : BufTy).Contents (Elt F)),
    StableHlo.binary main_v1 main_v93 main_v94 (addi : (⟨S600000, .i32⟩ : BufTy).Contents (Elt F) → (⟨S600000, .i32⟩ : BufTy).Contents (Elt F) → (⟨S600000, .i32⟩ : BufTy).Contents (Elt F)),
    StableHlo.ternary main_v92 main_v94 main_v1 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v95 main_v96 (broadcastInDim S600000x1 ![0] bcast_S600000_S600000x1_0 : (⟨S600000, .i32⟩ : BufTy).Contents (Elt F) → (⟨S600000x1, .i32⟩ : BufTy).Contents (Elt F)),
    StableHlo.binary main_v90 main_v96 main_v97 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v98 (broadcastInDim S100000x128 ![] bcast_S_S100000x128 : (⟨S_, .f32⟩ : BufTy).Contents (Elt F) → (⟨S100000x128, .f32⟩ : BufTy).Contents (Elt F)),
    StableHlo.unary main_v3 main_v99 (broadcastInDim S600000x1 ![0] bcast_S600000_S600000x1_0 : (⟨S600000, .i32⟩ : BufTy).Contents (Elt F) → (⟨S600000x1, .i32⟩ : BufTy).Contents (Elt F)),
    StableHlo.ternary main_v98 main_v99 main_v97 main_v100 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v101 ((extractStridedSlice S1x128 ![2, 0] · slices_S6x128_S1x128_2_0) : (⟨S6x128, .f32⟩ : BufTy).Contents (Elt F) → (⟨S1x128, .f32⟩ : BufTy).Contents (Elt F)),
    StableHlo.reshape main_v101 main_v102 rfl shapeCasts_S1x128_S128 ]

set_option maxRecDepth 16384 in
/-- Window 1 of @main is that straight line: the called functions' definitions unfolded at their calls, the sequencing reassociated. -/
theorem main_part1_eq (c : Dev nD) : main_part1 (F := F) c = seq ops_part1 := by
  simp only [main_part1, fn_relu.body, fn_var.body, fn_where.body, seq, bind_assoc, pure_bind] <;> rfl

set_option maxRecDepth 8192 in
/-- Every buffer an operation of window 1 touches is a TensorCore buffer of the signature. -/
theorem ops_part1_sub : (ops_part1 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub ..⟩

set_option maxRecDepth 8192 in
/-- Every operation of window 1 determines what it writes. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 1 writes an argument's buffer. -/
theorem ops_part1_keep : (ops_part1 : List (HloOp τ sig (Elt F))).Forall fun op => ∀ r ∈ argRefs, (Proc.devRef .tc r : DevRef τ sig) ∉ op.writes :=
  ⟨keep_args (y := main_v51) rfl (by decide),
    keep_args (y := main_v52) rfl (by decide),
    keep_args (y := main_v53) rfl (by decide),
    keep_args (y := main_v54) rfl (by decide),
    keep_args (y := main_v55) rfl (by decide),
    keep_args (y := main_cst_7) rfl (by decide),
    keep_args (y := main_v56) rfl (by decide),
    keep_args (y := main_v57) rfl (by decide),
    keep_args (y := main_v58) rfl (by decide),
    keep_args (y := main_v59) rfl (by decide),
    keep_args (y := main_v60) rfl (by decide),
    keep_args (y := main_v61) rfl (by decide),
    keep_args (y := main_v62) rfl (by decide),
    keep_args (y := main_v63) rfl (by decide),
    keep_args (y := main_call2.cst.ref) rfl (by decide),
    keep_args (y := main_call2.v0.ref) rfl (by decide),
    keep_args (y := main_call2.v1.ref) rfl (by decide),
    keep_args (y := main_cst_8) rfl (by decide),
    keep_args (y := main_v65) rfl (by decide),
    keep_args (y := main_cst_9) rfl (by decide),
    keep_args (y := main_v66) rfl (by decide),
    keep_args (y := main_v67) rfl (by decide),
    keep_args (y := main_c_10) rfl (by decide),
    keep_args (y := main_call3.cst.ref) rfl (by decide),
    keep_args (y := main_call3.v0.ref) rfl (by decide),
    keep_args (y := main_call3.v1.ref) rfl (by decide),
    keep_args (y := main_call3.cst_0.ref) rfl (by decide),
    keep_args (y := main_call3.v2.ref) rfl (by decide),
    keep_args (y := main_call3.v3.ref) rfl (by decide),
    keep_args (y := main_call3.v4.ref) rfl (by decide),
    keep_args (y := main_call3.v5.ref) rfl (by decide),
    keep_args (y := main_call3.v6.ref) rfl (by decide),
    keep_args (y := main_call3.v7.ref) rfl (by decide),
    keep_args (y := main_call3.cst_1.ref) rfl (by decide),
    keep_args (y := main_call3.v8.ref) rfl (by decide),
    keep_args (y := main_call3.cst_2.ref) rfl (by decide),
    keep_args (y := main_call3.v9.ref) rfl (by decide),
    keep_args (y := main_call3.v10.ref) rfl (by decide),
    keep_args (y := main_call3.v11.ref) rfl (by decide),
    keep_args (y := main_call3.cst_3.ref) rfl (by decide),
    keep_args (y := main_call3.v12.ref) rfl (by decide),
    keep_args (y := main_call3.cst_4.ref) rfl (by decide),
    keep_args (y := main_call3.call0.v0.ref) rfl (by decide),
    keep_args (y := main_call3.call0.v1.ref) rfl (by decide),
    keep_args (y := main_call3.call0.v2.ref) rfl (by decide),
    keep_args (y := main_v69) rfl (by decide),
    keep_args (y := main_v70) rfl (by decide),
    keep_args (y := main_v71) rfl (by decide),
    keep_args (y := main_cst_11) rfl (by decide),
    keep_args (y := main_v72) rfl (by decide),
    keep_args (y := main_v73) rfl (by decide),
    keep_args (y := main_v74) rfl (by decide),
    keep_args (y := main_v75) rfl (by decide),
    keep_args (y := main_v76) rfl (by decide),
    keep_args (y := main_v77) rfl (by decide),
    keep_args (y := main_v78) rfl (by decide),
    keep_args (y := main_v79) rfl (by decide),
    keep_args (y := main_v80) rfl (by decide),
    keep_args (y := main_v81) rfl (by decide),
    keep_args (y := main_v82) rfl (by decide),
    keep_args (y := main_v83) rfl (by decide),
    keep_args (y := main_v84) rfl (by decide),
    keep_args (y := main_v85) rfl (by decide),
    keep_args (y := main_v86) rfl (by decide),
    keep_args (y := main_v87) rfl (by decide),
    keep_args (y := main_v88) rfl (by decide),
    keep_args (y := main_v89) rfl (by decide),
    keep_args (y := main_v90) rfl (by decide),
    keep_args (y := main_c_12) rfl (by decide),
    keep_args (y := main_v91) rfl (by decide),
    keep_args (y := main_v92) rfl (by decide),
    keep_args (y := main_c_13) rfl (by decide),
    keep_args (y := main_v93) rfl (by decide),
    keep_args (y := main_v94) rfl (by decide),
    keep_args (y := main_v95) rfl (by decide),
    keep_args (y := main_v96) rfl (by decide),
    keep_args (y := main_v97) rfl (by decide),
    keep_args (y := main_cst_14) rfl (by decide),
    keep_args (y := main_v98) rfl (by decide),
    keep_args (y := main_v99) rfl (by decide),
    keep_args (y := main_v100) rfl (by decide),
    keep_args (y := main_v101) rfl (by decide),
    keep_args (y := main_v102) rfl (by decide)⟩

/-- The host operations of statements window 2 of @main, the callees' operations inline at their call sites. -/
abbrev ops_part2 : List (HloOp τ sig (Elt F)) :=
  [ StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v104 main_v105 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v105 : StableHlo.TRef sig ⟨S100000x128, .f32⟩) main_call4.v0 main_call4.v1 maximumf,
    StableHlo.nullary main_cst_15 (constant S_ .f32 0x00000000#32),
    StableHlo.binary main_v106 main_cst_15 main_v107 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v108 (broadcastInDim S128 ![] bcast_S_S128 : (⟨S_, .f32⟩ : BufTy).Contents (Elt F) → (⟨S128, .f32⟩ : BufTy).Contents (Elt F)),
    StableHlo.binary main_v107 main_v108 main_v109 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call5.cst (constant S_ .f32 0x00000000#32),
    StableHlo.TRef.binary (.of main_v106 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v106 : StableHlo.TRef sig ⟨S100000x128, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v109 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v112 main_v113 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v114 (broadcastInDim S128 ![] bcast_S_S128 : (⟨S_, .f32⟩ : BufTy).Contents (Elt F) → (⟨S128, .f32⟩ : BufTy).Contents (Elt F)),
    StableHlo.binary main_v110 main_v114 main_v115 (addf : (⟨S128, .f32⟩ : BufTy).Contents (Elt F) → (⟨S128, .f32⟩ : BufTy).Contents (Elt F) → (⟨S128, .f32⟩ : BufTy).Contents (Elt F)),
    StableHlo.unary main_v115 main_v116 (Host.rsqrt : (⟨S128, .f32⟩ : BufTy).Contents (Elt F) → (⟨S128, .f32⟩ : BufTy).Contents (Elt F)),
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v118 main_v119 (mulf : (⟨S100000x128, .f32⟩ : BufTy).Contents (Elt F) → (⟨S100000x128, .f32⟩ : BufTy).Contents (Elt F) → (⟨S100000x128, .f32⟩ : BufTy).Contents (Elt F)),
    StableHlo.unary main_arg5 main_v120 ((extractStridedSlice S1x128 ![2, 0] · slices_S6x128_S1x128_2_0) : (⟨S6x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg6 main_v125 ((extractStridedSlice S1x128 ![2, 0] · slices_S6x128_S1x128_2_0) : (⟨S6x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)),
    StableHlo.unary main_arg3 main_v130 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v130 main_v131 rfl shapeCasts_S1x128x128_S128x128,
    StableHlo.binary main_v129 main_v131 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_19 (constantI S_ 32 0#32),
    StableHlo.unary main_c_19 main_v133 (broadcastInDim S600000 ![] bcast_S_S600000 : (⟨S_, .i32⟩ : BufTy).Contents (Elt F) → (⟨S600000, .i32⟩ : BufTy).Contents (Elt F)),
    StableHlo.binary main_v1 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 100000#32),
    StableHlo.unary main_c_20 main_v135 (broadcastInDim S600000 ![] bcast_S_S600000 : (⟨S_, .i32⟩ : BufTy).Contents (Elt F) → (⟨S600000, .i32⟩ : BufTy).Contents (Elt F)),
    StableHlo.binary main_v1 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v1 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v132 main_v138 main_v139 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_21 (constant S_ .f32 0x00000000#32),
    StableHlo.unary main_cst_21 main_v140 (broadcastInDim S100000x128 ![] bcast_S_S100000x128 : (⟨S_, .f32⟩ : BufTy).Contents (Elt F) → (⟨S100000x128, .f32⟩ : BufTy).Contents (Elt F)),
    StableHlo.unary main_v3 main_v141 (broadcastInDim S600000x1 ![0] bcast_S600000_S600000x1_0 : (⟨S600000, .i32⟩ : BufTy).Contents (Elt F) → (⟨S600000x1, .i32⟩ : BufTy).Contents (Elt F)),
    StableHlo.ternary main_v140 main_v141 main_v139 main_v142 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v143 ((extractStridedSlice S1x128 ![3, 0] · slices_S6x128_S1x128_3_0) : (⟨S6x128, .f32⟩ : BufTy).Contents (Elt F) → (⟨S1x128, .f32⟩ : BufTy).Contents (Elt F)),
    StableHlo.reshape main_v143 main_v144 rfl shapeCasts_S1x128_S128,
    StableHlo.unary main_v144 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v146 main_v147 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v147 : StableHlo.TRef sig ⟨S100000x128, .f32⟩) main_call6.v0 main_call6.v1 maximumf,
    StableHlo.nullary main_cst_22 (constant S_ .f32 0x00000000#32),
    StableHlo.binary main_v148 main_cst_22 main_v149 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v150 (broadcastInDim S128 ![] bcast_S_S128 : (⟨S_, .f32⟩ : BufTy).Contents (Elt F) → (⟨S128, .f32⟩ : BufTy).Contents (Elt F)),
    StableHlo.binary main_v149 main_v150 main_v151 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call7.cst (constant S_ .f32 0x00000000#32),
    StableHlo.TRef.binary (.of main_v148 : StableHlo.TRef sig ⟨S100000x128, .f32⟩) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v148 : StableHlo.TRef sig ⟨S100000x128, .f32⟩) main_call7.v4 main_call7.v5 subf,
    StableHlo.TRef.binary main_call7.v5 main_call7.v5 main_call7.v6 mulf,
    StableHlo.TRef.unary (.of main_c_24 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]

set_option maxRecDepth 16384 in
/-- Window 2 of @main is that straight line: the called functions' definitions unfolded at their calls, the sequencing reassociated. -/
theorem main_part2_eq (c : Dev nD) : main_part2 (F := F) c = seq ops_part2 := by
  simp only [main_part2, fn_relu.body, fn_var.body, fn_where.body, seq, bind_assoc, pure_bind] <;> rfl

set_option maxRecDepth 8192 in
/-- Every buffer an operation of window 2 touches is a TensorCore buffer of the signature. -/
theorem ops_part2_sub : (ops_part2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
/-- Every operation of window 2 determines what it writes. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 2 writes an argument's buffer. -/
theorem ops_part2_keep : (ops_part2 : List (HloOp τ sig (Elt F))).Forall fun op => ∀ r ∈ argRefs, (Proc.devRef .tc r : DevRef τ sig) ∉ op.writes :=
  ⟨keep_args (y := main_v103) rfl (by decide),
    keep_args (y := main_v104) rfl (by decide),
    keep_args (y := main_v105) rfl (by decide),
    keep_args (y := main_call4.cst.ref) rfl (by decide),
    keep_args (y := main_call4.v0.ref) rfl (by decide),
    keep_args (y := main_call4.v1.ref) rfl (by decide),
    keep_args (y := main_cst_15) rfl (by decide),
    keep_args (y := main_v107) rfl (by decide),
    keep_args (y := main_cst_16) rfl (by decide),
    keep_args (y := main_v108) rfl (by decide),
    keep_args (y := main_v109) rfl (by decide),
    keep_args (y := main_c_17) rfl (by decide),
    keep_args (y := main_call5.cst.ref) rfl (by decide),
    keep_args (y := main_call5.v0.ref) rfl (by decide),
    keep_args (y := main_call5.v1.ref) rfl (by decide),
    keep_args (y := main_call5.cst_0.ref) rfl (by decide),
    keep_args (y := main_call5.v2.ref) rfl (by decide),
    keep_args (y := main_call5.v3.ref) rfl (by decide),
    keep_args (y := main_call5.v4.ref) rfl (by decide),
    keep_args (y := main_call5.v5.ref) rfl (by decide),
    keep_args (y := main_call5.v6.ref) rfl (by decide),
    keep_args (y := main_call5.v7.ref) rfl (by decide),
    keep_args (y := main_call5.cst_1.ref) rfl (by decide),
    keep_args (y := main_call5.v8.ref) rfl (by decide),
    keep_args (y := main_call5.cst_2.ref) rfl (by decide),
    keep_args (y := main_call5.v9.ref) rfl (by decide),
    keep_args (y := main_call5.v10.ref) rfl (by decide),
    keep_args (y := main_call5.v11.ref) rfl (by decide),
    keep_args (y := main_call5.cst_3.ref) rfl (by decide),
    keep_args (y := main_call5.v12.ref) rfl (by decide),
    keep_args (y := main_call5.cst_4.ref) rfl (by decide),
    keep_args (y := main_call5.call0.v0.ref) rfl (by decide),
    keep_args (y := main_call5.call0.v1.ref) rfl (by decide),
    keep_args (y := main_call5.call0.v2.ref) rfl (by decide),
    keep_args (y := main_v111) rfl (by decide),
    keep_args (y := main_v112) rfl (by decide),
    keep_args (y := main_v113) rfl (by decide),
    keep_args (y := main_cst_18) rfl (by decide),
    keep_args (y := main_v114) rfl (by decide),
    keep_args (y := main_v115) rfl (by decide),
    keep_args (y := main_v116) rfl (by decide),
    keep_args (y := main_v117) rfl (by decide),
    keep_args (y := main_v118) rfl (by decide),
    keep_args (y := main_v119) rfl (by decide),
    keep_args (y := main_v120) rfl (by decide),
    keep_args (y := main_v121) rfl (by decide),
    keep_args (y := main_v122) rfl (by decide),
    keep_args (y := main_v123) rfl (by decide),
    keep_args (y := main_v124) rfl (by decide),
    keep_args (y := main_v125) rfl (by decide),
    keep_args (y := main_v126) rfl (by decide),
    keep_args (y := main_v127) rfl (by decide),
    keep_args (y := main_v128) rfl (by decide),
    keep_args (y := main_v129) rfl (by decide),
    keep_args (y := main_v130) rfl (by decide),
    keep_args (y := main_v131) rfl (by decide),
    keep_args (y := main_v132) rfl (by decide),
    keep_args (y := main_c_19) rfl (by decide),
    keep_args (y := main_v133) rfl (by decide),
    keep_args (y := main_v134) rfl (by decide),
    keep_args (y := main_c_20) rfl (by decide),
    keep_args (y := main_v135) rfl (by decide),
    keep_args (y := main_v136) rfl (by decide),
    keep_args (y := main_v137) rfl (by decide),
    keep_args (y := main_v138) rfl (by decide),
    keep_args (y := main_v139) rfl (by decide),
    keep_args (y := main_cst_21) rfl (by decide),
    keep_args (y := main_v140) rfl (by decide),
    keep_args (y := main_v141) rfl (by decide),
    keep_args (y := main_v142) rfl (by decide),
    keep_args (y := main_v143) rfl (by decide),
    keep_args (y := main_v144) rfl (by decide),
    keep_args (y := main_v145) rfl (by decide),
    keep_args (y := main_v146) rfl (by decide),
    keep_args (y := main_v147) rfl (by decide),
    keep_args (y := main_call6.cst.ref) rfl (by decide),
    keep_args (y := main_call6.v0.ref) rfl (by decide),
    keep_args (y := main_call6.v1.ref) rfl (by decide),
    keep_args (y := main_cst_22) rfl (by decide),
    keep_args (y := main_v149) rfl (by decide),
    keep_args (y := main_cst_23) rfl (by decide),
    keep_args (y := main_v150) rfl (by decide),
    keep_args (y := main_v151) rfl (by decide),
    keep_args (y := main_c_24) rfl (by decide),
    keep_args (y := main_call7.cst.ref) rfl (by decide),
    keep_args (y := main_call7.v0.ref) rfl (by decide),
    keep_args (y := main_call7.v1.ref) rfl (by decide),
    keep_args (y := main_call7.cst_0.ref) rfl (by decide),
    keep_args (y := main_call7.v2.ref) rfl (by decide),
    keep_args (y := main_call7.v3.ref) rfl (by decide),
    keep_args (y := main_call7.v4.ref) rfl (by decide),
    keep_args (y := main_call7.v5.ref) rfl (by decide),
    keep_args (y := main_call7.v6.ref) rfl (by decide),
    keep_args (y := main_call7.v7.ref) rfl (by decide),
    keep_args (y := main_call7.cst_1.ref) rfl (by decide),
    keep_args (y := main_call7.v8.ref) rfl (by decide),
    keep_args (y := main_call7.cst_2.ref) rfl (by decide),
    keep_args (y := main_call7.v9.ref) rfl (by decide),
    keep_args (y := main_call7.v10.ref) rfl (by decide),
    keep_args (y := main_call7.v11.ref) rfl (by decide),
    keep_args (y := main_call7.cst_3.ref) rfl (by decide),
    keep_args (y := main_call7.v12.ref) rfl (by decide),
    keep_args (y := main_call7.cst_4.ref) rfl (by decide),
    keep_args (y := main_call7.call0.v0.ref) rfl (by decide),
    keep_args (y := main_call7.call0.v1.ref) rfl (by decide),
    keep_args (y := main_call7.call0.v2.ref) rfl (by decide)⟩

/-- The host operations of statements window 3 of @main, the callees' operations inline at their call sites. -/
abbrev ops_part3 : List (HloOp τ sig (Elt F)) :=
  [ StableHlo.unary main_v151 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v154 main_v155 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v156 (broadcastInDim S128 ![] bcast_S_S128 : (⟨S_, .f32⟩ : BufTy).Contents (Elt F) → (⟨S128, .f32⟩ : BufTy).Contents (Elt F)),
    StableHlo.binary main_v152 main_v156 main_v157 (addf : (⟨S128, .f32⟩ : BufTy).Contents (Elt F) → (⟨S128, .f32⟩ : BufTy).Contents (Elt F) → (⟨S128, .f32⟩ : BufTy).Contents (Elt F)),
    StableHlo.unary main_v157 main_v158 (Host.rsqrt : (⟨S128, .f32⟩ : BufTy).Contents (Elt F) → (⟨S128, .f32⟩ : BufTy).Contents (Elt F)),
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v160 main_v161 (mulf : (⟨S100000x128, .f32⟩ : BufTy).Contents (Elt F) → (⟨S100000x128, .f32⟩ : BufTy).Contents (Elt F) → (⟨S100000x128, .f32⟩ : BufTy).Contents (Elt F)),
    StableHlo.unary main_arg5 main_v162 ((extractStridedSlice S1x128 ![3, 0] · slices_S6x128_S1x128_3_0) : (⟨S6x128, .f32⟩ : BufTy).Contents (Elt F) → (⟨S1x128, .f32⟩ : BufTy).Contents (Elt F)),
    StableHlo.reshape main_v162 main_v163 rfl shapeCasts_S1x128_S128,
    StableHlo.unary main_v163 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v165 main_v166 (mulf : (⟨S100000x128, .f32⟩ : BufTy).Contents (Elt F) → (⟨S100000x128, .f32⟩ : BufTy).Contents (Elt F) → (⟨S100000x128, .f32⟩ : BufTy).Contents (Elt F)),
    StableHlo.unary main_arg6 main_v167 ((extractStridedSlice S1x128 ![3, 0] · slices_S6x128_S1x128_3_0) : (⟨S6x128, .f32⟩ : BufTy).Contents (Elt F) → (⟨S1x128, .f32⟩ : BufTy).Contents (Elt F)),
    StableHlo.reshape main_v167 main_v168 rfl shapeCasts_S1x128_S128,
    StableHlo.unary main_v168 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S100000x128 ![0, 1] bcast_S1x128_S100000x128_0_1 : (⟨S1x128, .f32⟩ : BufTy).Contents (Elt F) → (⟨S100000x128, .f32⟩ : BufTy).Contents (Elt F)),
    StableHlo.binary main_v166 main_v170 main_v171 (addf : (⟨S100000x128, .f32⟩ : BufTy).Contents (Elt F) → (⟨S100000x128, .f32⟩ : BufTy).Contents (Elt F) → (⟨S100000x128, .f32⟩ : BufTy).Contents (Elt F)),
    StableHlo.unary main_arg3 main_v172 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v172 main_v173 rfl shapeCasts_S1x128x128_S128x128,
    StableHlo.binary main_v171 main_v173 main_v174 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_26 (constantI S_ 32 0#32),
    StableHlo.unary main_c_26 main_v175 (broadcastInDim S600000 ![] bcast_S_S600000 : (⟨S_, .i32⟩ : BufTy).Contents (Elt F) → (⟨S600000, .i32⟩ : BufTy).Contents (Elt F)),
    StableHlo.binary main_v1 main_v175 main_v176 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 100000#32),
    StableHlo.unary main_c_27 main_v177 (broadcastInDim S600000 ![] bcast_S_S600000 : (⟨S_, .i32⟩ : BufTy).Contents (Elt F) → (⟨S600000, .i32⟩ : BufTy).Contents (Elt F)),
    StableHlo.binary main_v1 main_v177 main_v178 (addi : (⟨S600000, .i32⟩ : BufTy).Contents (Elt F) → (⟨S600000, .i32⟩ : BufTy).Contents (Elt F) → (⟨S600000, .i32⟩ : BufTy).Contents (Elt F)),
    StableHlo.ternary main_v176 main_v178 main_v1 main_v179 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v179 main_v180 (broadcastInDim S600000x1 ![0] bcast_S600000_S600000x1_0 : (⟨S600000, .i32⟩ : BufTy).Contents (Elt F) → (⟨S600000x1, .i32⟩ : BufTy).Contents (Elt F)),
    StableHlo.binary main_v174 main_v180 main_v181 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_28 (constant S_ .f32 0x00000000#32),
    StableHlo.unary main_cst_28 main_v182 (broadcastInDim S100000x128 ![] bcast_S_S100000x128 : (⟨S_, .f32⟩ : BufTy).Contents (Elt F) → (⟨S100000x128, .f32⟩ : BufTy).Contents (Elt F)),
    StableHlo.unary main_v3 main_v183 (broadcastInDim S600000x1 ![0] bcast_S600000_S600000x1_0 : (⟨S600000, .i32⟩ : BufTy).Contents (Elt F) → (⟨S600000x1, .i32⟩ : BufTy).Contents (Elt F)),
    StableHlo.ternary main_v182 main_v183 main_v181 main_v184 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v185 ((extractStridedSlice S1x128 ![4, 0] · slices_S6x128_S1x128_4_0) : (⟨S6x128, .f32⟩ : BufTy).Contents (Elt F) → (⟨S1x128, .f32⟩ : BufTy).Contents (Elt F)),
    StableHlo.reshape main_v185 main_v186 rfl shapeCasts_S1x128_S128,
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v188 main_v189 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v189 : StableHlo.TRef sig ⟨S100000x128, .f32⟩) main_call8.v0 main_call8.v1 maximumf,
    StableHlo.nullary main_cst_29 (constant S_ .f32 0x00000000#32),
    StableHlo.binary main_v190 main_cst_29 main_v191 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v192 (broadcastInDim S128 ![] bcast_S_S128 : (⟨S_, .f32⟩ : BufTy).Contents (Elt F) → (⟨S128, .f32⟩ : BufTy).Contents (Elt F)),
    StableHlo.binary main_v191 main_v192 main_v193 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call9.cst (constant S_ .f32 0x00000000#32),
    StableHlo.TRef.binary (.of main_v190 : StableHlo.TRef sig ⟨S100000x128, .f32⟩) main_call9.cst main_call9.v0 (fun x v => Host.reduceAdd x v reducesTo_S100000x128_S128_d0 h_S_),
    StableHlo.TRef.unary main_call9.v0 main_call9.v1 (broadcastInDim S1x128 ![1] bcast_S128_S1x128_1),
    StableHlo.TRef.nullary main_call9.cst_0 (constant S_ .f32 0x47C35000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S100000x128 ![0, 1] bcast_S1x128_S100000x128_0_1),
    StableHlo.TRef.binary (.of main_v190 : StableHlo.TRef sig ⟨S100000x128, .f32⟩) main_call9.v4 main_call9.v5 subf,
    StableHlo.TRef.binary main_call9.v5 main_call9.v5 main_call9.v6 mulf,
    StableHlo.TRef.unary (.of main_c_31 : StableHlo.TRef sig ⟨S_, .i32⟩) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v193 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v196 main_v197 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v198 (broadcastInDim S128 ![] bcast_S_S128 : (⟨S_, .f32⟩ : BufTy).Contents (Elt F) → (⟨S128, .f32⟩ : BufTy).Contents (Elt F)),
    StableHlo.binary main_v194 main_v198 main_v199 (addf : (⟨S128, .f32⟩ : BufTy).Contents (Elt F) → (⟨S128, .f32⟩ : BufTy).Contents (Elt F) → (⟨S128, .f32⟩ : BufTy).Contents (Elt F)),
    StableHlo.unary main_v199 main_v200 (Host.rsqrt : (⟨S128, .f32⟩ : BufTy).Contents (Elt F) → (⟨S128, .f32⟩ : BufTy).Contents (Elt F)),
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v197 main_v202 main_v203 (mulf : (⟨S100000x128, .f32⟩ : BufTy).Contents (Elt F) → (⟨S100000x128, .f32⟩ : BufTy).Contents (Elt F) → (⟨S100000x128, .f32⟩ : BufTy).Contents (Elt F)),
    StableHlo.unary main_arg5 main_v204 ((extractStridedSlice S1x128 ![4, 0] · slices_S6x128_S1x128_4_0) : (⟨S6x128, .f32⟩ : BufTy).Contents (Elt F) → (⟨S1x128, .f32⟩ : BufTy).Contents (Elt F)) ]

set_option maxRecDepth 16384 in
/-- Window 3 of @main is that straight line: the called functions' definitions unfolded at their calls, the sequencing reassociated. -/
theorem main_part3_eq (c : Dev nD) : main_part3 (F := F) c = seq ops_part3 := by
  simp only [main_part3, fn_relu.body, fn_var.body, fn_where.body, seq, bind_assoc, pure_bind] <;> rfl

set_option maxRecDepth 8192 in
/-- Every buffer an operation of window 3 touches is a TensorCore buffer of the signature. -/
theorem ops_part3_sub : (ops_part3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

set_option maxRecDepth 8192 in
/-- Every operation of window 3 determines what it writes. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 3 writes an argument's buffer. -/
theorem ops_part3_keep : (ops_part3 : List (HloOp τ sig (Elt F))).Forall fun op => ∀ r ∈ argRefs, (Proc.devRef .tc r : DevRef τ sig) ∉ op.writes :=
  ⟨keep_args (y := main_v153) rfl (by decide),
    keep_args (y := main_v154) rfl (by decide),
    keep_args (y := main_v155) rfl (by decide),
    keep_args (y := main_cst_25) rfl (by decide),
    keep_args (y := main_v156) rfl (by decide),
    keep_args (y := main_v157) rfl (by decide),
    keep_args (y := main_v158) rfl (by decide),
    keep_args (y := main_v159) rfl (by decide),
    keep_args (y := main_v160) rfl (by decide),
    keep_args (y := main_v161) rfl (by decide),
    keep_args (y := main_v162) rfl (by decide),
    keep_args (y := main_v163) rfl (by decide),
    keep_args (y := main_v164) rfl (by decide),
    keep_args (y := main_v165) rfl (by decide),
    keep_args (y := main_v166) rfl (by decide),
    keep_args (y := main_v167) rfl (by decide),
    keep_args (y := main_v168) rfl (by decide),
    keep_args (y := main_v169) rfl (by decide),
    keep_args (y := main_v170) rfl (by decide),
    keep_args (y := main_v171) rfl (by decide),
    keep_args (y := main_v172) rfl (by decide),
    keep_args (y := main_v173) rfl (by decide),
    keep_args (y := main_v174) rfl (by decide),
    keep_args (y := main_c_26) rfl (by decide),
    keep_args (y := main_v175) rfl (by decide),
    keep_args (y := main_v176) rfl (by decide),
    keep_args (y := main_c_27) rfl (by decide),
    keep_args (y := main_v177) rfl (by decide),
    keep_args (y := main_v178) rfl (by decide),
    keep_args (y := main_v179) rfl (by decide),
    keep_args (y := main_v180) rfl (by decide),
    keep_args (y := main_v181) rfl (by decide),
    keep_args (y := main_cst_28) rfl (by decide),
    keep_args (y := main_v182) rfl (by decide),
    keep_args (y := main_v183) rfl (by decide),
    keep_args (y := main_v184) rfl (by decide),
    keep_args (y := main_v185) rfl (by decide),
    keep_args (y := main_v186) rfl (by decide),
    keep_args (y := main_v187) rfl (by decide),
    keep_args (y := main_v188) rfl (by decide),
    keep_args (y := main_v189) rfl (by decide),
    keep_args (y := main_call8.cst.ref) rfl (by decide),
    keep_args (y := main_call8.v0.ref) rfl (by decide),
    keep_args (y := main_call8.v1.ref) rfl (by decide),
    keep_args (y := main_cst_29) rfl (by decide),
    keep_args (y := main_v191) rfl (by decide),
    keep_args (y := main_cst_30) rfl (by decide),
    keep_args (y := main_v192) rfl (by decide),
    keep_args (y := main_v193) rfl (by decide),
    keep_args (y := main_c_31) rfl (by decide),
    keep_args (y := main_call9.cst.ref) rfl (by decide),
    keep_args (y := main_call9.v0.ref) rfl (by decide),
    keep_args (y := main_call9.v1.ref) rfl (by decide),
    keep_args (y := main_call9.cst_0.ref) rfl (by decide),
    keep_args (y := main_call9.v2.ref) rfl (by decide),
    keep_args (y := main_call9.v3.ref) rfl (by decide),
    keep_args (y := main_call9.v4.ref) rfl (by decide),
    keep_args (y := main_call9.v5.ref) rfl (by decide),
    keep_args (y := main_call9.v6.ref) rfl (by decide),
    keep_args (y := main_call9.v7.ref) rfl (by decide),
    keep_args (y := main_call9.cst_1.ref) rfl (by decide),
    keep_args (y := main_call9.v8.ref) rfl (by decide),
    keep_args (y := main_call9.cst_2.ref) rfl (by decide),
    keep_args (y := main_call9.v9.ref) rfl (by decide),
    keep_args (y := main_call9.v10.ref) rfl (by decide),
    keep_args (y := main_call9.v11.ref) rfl (by decide),
    keep_args (y := main_call9.cst_3.ref) rfl (by decide),
    keep_args (y := main_call9.v12.ref) rfl (by decide),
    keep_args (y := main_call9.cst_4.ref) rfl (by decide),
    keep_args (y := main_call9.call0.v0.ref) rfl (by decide),
    keep_args (y := main_call9.call0.v1.ref) rfl (by decide),
    keep_args (y := main_call9.call0.v2.ref) rfl (by decide),
    keep_args (y := main_v195) rfl (by decide),
    keep_args (y := main_v196) rfl (by decide),
    keep_args (y := main_v197) rfl (by decide),
    keep_args (y := main_cst_32) rfl (by decide),
    keep_args (y := main_v198) rfl (by decide),
    keep_args (y := main_v199) rfl (by decide),
    keep_args (y := main_v200) rfl (by decide),
    keep_args (y := main_v201) rfl (by decide),
    keep_args (y := main_v202) rfl (by decide),
    keep_args (y := main_v203) rfl (by decide),
    keep_args (y := main_v204) rfl (by decide)⟩

/-- The host operations of statements window 4 of @main, the callees' operations inline at their call sites. -/
abbrev ops_part4 : List (HloOp τ sig (Elt F)) :=
  [ StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v207 main_v208 (mulf : (⟨S100000x128, .f32⟩ : BufTy).Contents (Elt F) → (⟨S100000x128, .f32⟩ : BufTy).Contents (Elt F) → (⟨S100000x128, .f32⟩ : BufTy).Contents (Elt F)),
    StableHlo.unary main_arg6 main_v209 ((extractStridedSlice S1x128 ![4, 0] · slices_S6x128_S1x128_4_0) : (⟨S6x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v212 main_v213 (addf : (⟨S100000x128, .f32⟩ : BufTy).Contents (Elt F) → (⟨S100000x128, .f32⟩ : BufTy).Contents (Elt F) → (⟨S100000x128, .f32⟩ : BufTy).Contents (Elt F)),
    StableHlo.unary main_arg3 main_v214 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_33 (constantI S_ 32 0#32),
    StableHlo.unary main_c_33 main_v217 (broadcastInDim S600000 ![] bcast_S_S600000 : (⟨S_, .i32⟩ : BufTy).Contents (Elt F) → (⟨S600000, .i32⟩ : BufTy).Contents (Elt F)),
    StableHlo.binary main_v1 main_v217 main_v218 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 100000#32),
    StableHlo.unary main_c_34 main_v219 (broadcastInDim S600000 ![] bcast_S_S600000 : (⟨S_, .i32⟩ : BufTy).Contents (Elt F) → (⟨S600000, .i32⟩ : BufTy).Contents (Elt F)),
    StableHlo.binary main_v1 main_v219 main_v220 (addi : (⟨S600000, .i32⟩ : BufTy).Contents (Elt F) → (⟨S600000, .i32⟩ : BufTy).Contents (Elt F) → (⟨S600000, .i32⟩ : BufTy).Contents (Elt F)),
    StableHlo.ternary main_v218 main_v220 main_v1 main_v221 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v221 main_v222 (broadcastInDim S600000x1 ![0] bcast_S600000_S600000x1_0 : (⟨S600000, .i32⟩ : BufTy).Contents (Elt F) → (⟨S600000x1, .i32⟩ : BufTy).Contents (Elt F)),
    StableHlo.binary main_v216 main_v222 main_v223 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_35 (constant S_ .f32 0x00000000#32),
    StableHlo.unary main_cst_35 main_v224 (broadcastInDim S100000x128 ![] bcast_S_S100000x128 : (⟨S_, .f32⟩ : BufTy).Contents (Elt F) → (⟨S100000x128, .f32⟩ : BufTy).Contents (Elt F)),
    StableHlo.unary main_v3 main_v225 (broadcastInDim S600000x1 ![0] bcast_S600000_S600000x1_0 : (⟨S600000, .i32⟩ : BufTy).Contents (Elt F) → (⟨S600000x1, .i32⟩ : BufTy).Contents (Elt F)),
    StableHlo.ternary main_v224 main_v225 main_v223 main_v226 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v227 ((extractStridedSlice S1x128 ![5, 0] · slices_S6x128_S1x128_5_0) : (⟨S6x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v231 : StableHlo.TRef sig ⟨S100000x128, .f32⟩) main_call10.v0 main_call10.v1 maximumf,
    StableHlo.nullary main_cst_36 (constant S_ .f32 0x00000000#32),
    StableHlo.binary main_v232 main_cst_36 main_v233 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v234 (broadcastInDim S128 ![] bcast_S_S128 : (⟨S_, .f32⟩ : BufTy).Contents (Elt F) → (⟨S128, .f32⟩ : BufTy).Contents (Elt F)),
    StableHlo.binary main_v233 main_v234 main_v235 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call11.cst (constant S_ .f32 0x00000000#32),
    StableHlo.TRef.binary (.of main_v232 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v232 : StableHlo.TRef sig ⟨S100000x128, .f32⟩) main_call11.v4 main_call11.v5 subf,
    StableHlo.TRef.binary main_call11.v5 main_call11.v5 main_call11.v6 mulf,
    StableHlo.TRef.unary (.of main_c_38 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v235 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v232 main_v238 main_v239 (subf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v240 (broadcastInDim S128 ![] bcast_S_S128 : (⟨S_, .f32⟩ : BufTy).Contents (Elt F) → (⟨S128, .f32⟩ : BufTy).Contents (Elt F)),
    StableHlo.binary main_v236 main_v240 main_v241 (addf : (⟨S128, .f32⟩ : BufTy).Contents (Elt F) → (⟨S128, .f32⟩ : BufTy).Contents (Elt F) → (⟨S128, .f32⟩ : BufTy).Contents (Elt F)),
    StableHlo.unary main_v241 main_v242 (Host.rsqrt : (⟨S128, .f32⟩ : BufTy).Contents (Elt F) → (⟨S128, .f32⟩ : BufTy).Contents (Elt F)),
    StableHlo.unary main_v242 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S100000x128 ![0, 1] bcast_S1x128_S100000x128_0_1 : (⟨S1x128, .f32⟩ : BufTy).Contents (Elt F) → (⟨S100000x128, .f32⟩ : BufTy).Contents (Elt F)),
    StableHlo.binary main_v239 main_v244 main_v245 (mulf : (⟨S100000x128, .f32⟩ : BufTy).Contents (Elt F) → (⟨S100000x128, .f32⟩ : BufTy).Contents (Elt F) → (⟨S100000x128, .f32⟩ : BufTy).Contents (Elt F)),
    StableHlo.unary main_arg5 main_v246 ((extractStridedSlice S1x128 ![5, 0] · slices_S6x128_S1x128_5_0) : (⟨S6x128, .f32⟩ : BufTy).Contents (Elt F) → (⟨S1x128, .f32⟩ : BufTy).Contents (Elt F)),
    StableHlo.reshape main_v246 main_v247 rfl shapeCasts_S1x128_S128,
    StableHlo.unary main_v247 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S100000x128 ![0, 1] bcast_S1x128_S100000x128_0_1 : (⟨S1x128, .f32⟩ : BufTy).Contents (Elt F) → (⟨S100000x128, .f32⟩ : BufTy).Contents (Elt F)),
    StableHlo.binary main_v245 main_v249 main_v250 (mulf : (⟨S100000x128, .f32⟩ : BufTy).Contents (Elt F) → (⟨S100000x128, .f32⟩ : BufTy).Contents (Elt F) → (⟨S100000x128, .f32⟩ : BufTy).Contents (Elt F)),
    StableHlo.unary main_arg6 main_v251 ((extractStridedSlice S1x128 ![5, 0] · slices_S6x128_S1x128_5_0) : (⟨S6x128, .f32⟩ : BufTy).Contents (Elt F) → (⟨S1x128, .f32⟩ : BufTy).Contents (Elt F)),
    StableHlo.reshape main_v251 main_v252 rfl shapeCasts_S1x128_S128,
    StableHlo.unary main_v252 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S100000x128 ![0, 1] bcast_S1x128_S100000x128_0_1 : (⟨S1x128, .f32⟩ : BufTy).Contents (Elt F) → (⟨S100000x128, .f32⟩ : BufTy).Contents (Elt F)),
    StableHlo.binary main_v250 main_v254 main_v255 (addf : (⟨S100000x128, .f32⟩ : BufTy).Contents (Elt F) → (⟨S100000x128, .f32⟩ : BufTy).Contents (Elt F) → (⟨S100000x128, .f32⟩ : BufTy).Contents (Elt F)),
    StableHlo.nullary main_cst_40 (constant S_ .f32 0x00000000#32),
    StableHlo.unary main_cst_40 main_v256 (broadcastInDim S64x128 ![] bcast_S_S64x128 : (⟨S_, .f32⟩ : BufTy).Contents (Elt F) → (⟨S64x128, .f32⟩ : BufTy).Contents (Elt F)) ]

set_option maxRecDepth 16384 in
/-- Window 4 of @main is that straight line: the called functions' definitions unfolded at their calls, the sequencing reassociated. -/
theorem main_part4_eq (c : Dev nD) : main_part4 (F := F) c = seq ops_part4 := by
  simp only [main_part4, fn_relu.body, fn_var.body, fn_where.body, seq, bind_assoc, pure_bind] <;> rfl

set_option maxRecDepth 8192 in
/-- Every buffer an operation of window 4 touches is a TensorCore buffer of the signature. -/
theorem ops_part4_sub : (ops_part4 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub ..⟩

set_option maxRecDepth 8192 in
/-- Every operation of window 4 determines what it writes. -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 4 writes an argument's buffer. -/
theorem ops_part4_keep : (ops_part4 : List (HloOp τ sig (Elt F))).Forall fun op => ∀ r ∈ argRefs, (Proc.devRef .tc r : DevRef τ sig) ∉ op.writes :=
  ⟨keep_args (y := main_v205) rfl (by decide),
    keep_args (y := main_v206) rfl (by decide),
    keep_args (y := main_v207) rfl (by decide),
    keep_args (y := main_v208) rfl (by decide),
    keep_args (y := main_v209) rfl (by decide),
    keep_args (y := main_v210) rfl (by decide),
    keep_args (y := main_v211) rfl (by decide),
    keep_args (y := main_v212) rfl (by decide),
    keep_args (y := main_v213) rfl (by decide),
    keep_args (y := main_v214) rfl (by decide),
    keep_args (y := main_v215) rfl (by decide),
    keep_args (y := main_v216) rfl (by decide),
    keep_args (y := main_c_33) rfl (by decide),
    keep_args (y := main_v217) rfl (by decide),
    keep_args (y := main_v218) rfl (by decide),
    keep_args (y := main_c_34) rfl (by decide),
    keep_args (y := main_v219) rfl (by decide),
    keep_args (y := main_v220) rfl (by decide),
    keep_args (y := main_v221) rfl (by decide),
    keep_args (y := main_v222) rfl (by decide),
    keep_args (y := main_v223) rfl (by decide),
    keep_args (y := main_cst_35) rfl (by decide),
    keep_args (y := main_v224) rfl (by decide),
    keep_args (y := main_v225) rfl (by decide),
    keep_args (y := main_v226) rfl (by decide),
    keep_args (y := main_v227) rfl (by decide),
    keep_args (y := main_v228) rfl (by decide),
    keep_args (y := main_v229) rfl (by decide),
    keep_args (y := main_v230) rfl (by decide),
    keep_args (y := main_v231) rfl (by decide),
    keep_args (y := main_call10.cst.ref) rfl (by decide),
    keep_args (y := main_call10.v0.ref) rfl (by decide),
    keep_args (y := main_call10.v1.ref) rfl (by decide),
    keep_args (y := main_cst_36) rfl (by decide),
    keep_args (y := main_v233) rfl (by decide),
    keep_args (y := main_cst_37) rfl (by decide),
    keep_args (y := main_v234) rfl (by decide),
    keep_args (y := main_v235) rfl (by decide),
    keep_args (y := main_c_38) rfl (by decide),
    keep_args (y := main_call11.cst.ref) rfl (by decide),
    keep_args (y := main_call11.v0.ref) rfl (by decide),
    keep_args (y := main_call11.v1.ref) rfl (by decide),
    keep_args (y := main_call11.cst_0.ref) rfl (by decide),
    keep_args (y := main_call11.v2.ref) rfl (by decide),
    keep_args (y := main_call11.v3.ref) rfl (by decide),
    keep_args (y := main_call11.v4.ref) rfl (by decide),
    keep_args (y := main_call11.v5.ref) rfl (by decide),
    keep_args (y := main_call11.v6.ref) rfl (by decide),
    keep_args (y := main_call11.v7.ref) rfl (by decide),
    keep_args (y := main_call11.cst_1.ref) rfl (by decide),
    keep_args (y := main_call11.v8.ref) rfl (by decide),
    keep_args (y := main_call11.cst_2.ref) rfl (by decide),
    keep_args (y := main_call11.v9.ref) rfl (by decide),
    keep_args (y := main_call11.v10.ref) rfl (by decide),
    keep_args (y := main_call11.v11.ref) rfl (by decide),
    keep_args (y := main_call11.cst_3.ref) rfl (by decide),
    keep_args (y := main_call11.v12.ref) rfl (by decide),
    keep_args (y := main_call11.cst_4.ref) rfl (by decide),
    keep_args (y := main_call11.call0.v0.ref) rfl (by decide),
    keep_args (y := main_call11.call0.v1.ref) rfl (by decide),
    keep_args (y := main_call11.call0.v2.ref) rfl (by decide),
    keep_args (y := main_v237) rfl (by decide),
    keep_args (y := main_v238) rfl (by decide),
    keep_args (y := main_v239) rfl (by decide),
    keep_args (y := main_cst_39) rfl (by decide),
    keep_args (y := main_v240) rfl (by decide),
    keep_args (y := main_v241) rfl (by decide),
    keep_args (y := main_v242) rfl (by decide),
    keep_args (y := main_v243) rfl (by decide),
    keep_args (y := main_v244) rfl (by decide),
    keep_args (y := main_v245) rfl (by decide),
    keep_args (y := main_v246) rfl (by decide),
    keep_args (y := main_v247) rfl (by decide),
    keep_args (y := main_v248) rfl (by decide),
    keep_args (y := main_v249) rfl (by decide),
    keep_args (y := main_v250) rfl (by decide),
    keep_args (y := main_v251) rfl (by decide),
    keep_args (y := main_v252) rfl (by decide),
    keep_args (y := main_v253) rfl (by decide),
    keep_args (y := main_v254) rfl (by decide),
    keep_args (y := main_v255) rfl (by decide),
    keep_args (y := main_cst_40) rfl (by decide),
    keep_args (y := main_v256) rfl (by decide)⟩

/-- The host operations of statements window 5 of @main, the callees' operations inline at their call sites. -/
abbrev ops_part5 : List (HloOp τ sig (Elt F)) :=
  [ StableHlo.unary main_arg2 main_v257 (broadcastInDim S100000x1 ![0] bcast_S100000_S100000x1_0 : (⟨S100000, .i32⟩ : BufTy).Contents (Elt F) → (⟨S100000x1, .i32⟩ : BufTy).Contents (Elt F)),
    StableHlo.ternary main_v256 main_v257 main_v255 main_v258 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_41 (constant S_ .f32 0x3F800000#32),
    StableHlo.unary main_cst_41 main_v259 (broadcastInDim S100000 ![] bcast_S_S100000 : (⟨S_, .f32⟩ : BufTy).Contents (Elt F) → (⟨S100000, .f32⟩ : BufTy).Contents (Elt F)),
    StableHlo.nullary main_cst_42 (constant S_ .f32 0x00000000#32),
    StableHlo.unary main_cst_42 main_v260 (broadcastInDim S64 ![] bcast_S_S64 : (⟨S_, .f32⟩ : BufTy).Contents (Elt F) → (⟨S64, .f32⟩ : BufTy).Contents (Elt F)),
    StableHlo.unary main_arg2 main_v261 (broadcastInDim S100000x1 ![0] bcast_S100000_S100000x1_0 : (⟨S100000, .i32⟩ : BufTy).Contents (Elt F) → (⟨S100000x1, .i32⟩ : BufTy).Contents (Elt F)),
    StableHlo.ternary main_v260 main_v261 main_v259 main_v262 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_43 (constant S_ .f32 0x3F800000#32),
    StableHlo.unary main_cst_43 main_v263 (broadcastInDim S64 ![] bcast_S_S64 : (⟨S_, .f32⟩ : BufTy).Contents (Elt F) → (⟨S64, .f32⟩ : BufTy).Contents (Elt F)),
    StableHlo.binary main_v262 main_v263 main_v264 (maximumf : (⟨S64, .f32⟩ : BufTy).Contents (Elt F) → (⟨S64, .f32⟩ : BufTy).Contents (Elt F) → (⟨S64, .f32⟩ : BufTy).Contents (Elt F)),
    StableHlo.unary main_v264 main_v265 (broadcastInDim S64x1 ![0] bcast_S64_S64x1_0 : (⟨S64, .f32⟩ : BufTy).Contents (Elt F) → (⟨S64x1, .f32⟩ : BufTy).Contents (Elt F)),
    StableHlo.unary main_v265 main_v266 (broadcastInDim S64x128 ![0, 1] bcast_S64x1_S64x128_0_1 : (⟨S64x1, .f32⟩ : BufTy).Contents (Elt F) → (⟨S64x128, .f32⟩ : BufTy).Contents (Elt F)),
    StableHlo.binary main_v258 main_v266 main_v267 (Host.divf : (⟨S64x128, .f32⟩ : BufTy).Contents (Elt F) → (⟨S64x128, .f32⟩ : BufTy).Contents (Elt F) → (⟨S64x128, .f32⟩ : BufTy).Contents (Elt F)),
    StableHlo.binary main_v267 main_arg7 main_v268 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg8 main_v269 (broadcastInDim S1x64 ![1] bcast_S64_S1x64_1 : (⟨S64, .f32⟩ : BufTy).Contents (Elt F) → (⟨S1x64, .f32⟩ : BufTy).Contents (Elt F)),
    StableHlo.unary main_v269 main_v270 (broadcastInDim S64x64 ![0, 1] bcast_S1x64_S64x64_0_1 : (⟨S1x64, .f32⟩ : BufTy).Contents (Elt F) → (⟨S64x64, .f32⟩ : BufTy).Contents (Elt F)),
    StableHlo.binary main_v268 main_v270 main_v271 (addf : (⟨S64x64, .f32⟩ : BufTy).Contents (Elt F) → (⟨S64x64, .f32⟩ : BufTy).Contents (Elt F) → (⟨S64x64, .f32⟩ : BufTy).Contents (Elt F)),
    StableHlo.binary main_v271 main_arg9 main_v272 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F)),
    StableHlo.unary main_arg10 main_v273 (broadcastInDim S1x4 ![1] bcast_S4_S1x4_1 : (⟨S4, .f32⟩ : BufTy).Contents (Elt F) → (⟨S1x4, .f32⟩ : BufTy).Contents (Elt F)),
    StableHlo.unary main_v273 main_v274 (broadcastInDim S64x4 ![0, 1] bcast_S1x4_S64x4_0_1 : (⟨S1x4, .f32⟩ : BufTy).Contents (Elt F) → (⟨S64x4, .f32⟩ : BufTy).Contents (Elt F)),
    StableHlo.binary main_v272 main_v274 main_v275 (addf : (⟨S64x4, .f32⟩ : BufTy).Contents (Elt F) → (⟨S64x4, .f32⟩ : BufTy).Contents (Elt F) → (⟨S64x4, .f32⟩ : BufTy).Contents (Elt F)),
    StableHlo.TRef.nullary main_call12.cst (constant S_ .f32 0xFF800000#32),
    StableHlo.TRef.binary (.of main_v275 : StableHlo.TRef sig ⟨S64x4, .f32⟩) main_call12.cst main_call12.v0 (fun x v => Host.reduce FloatOps.maximumf x v reducesTo_S64x4_S64_d1 h_S_),
    StableHlo.TRef.nullary main_call12.cst_0 (constant S_ .f32 0xFF800000#32),
    StableHlo.TRef.unary main_call12.cst_0 main_call12.v1 (broadcastInDim S64 ![] bcast_S_S64),
    StableHlo.TRef.binary main_call12.v1 main_call12.v0 main_call12.v2 maximumf,
    StableHlo.TRef.unary main_call12.v2 main_call12.v3 (broadcastInDim S64x1 ![0] bcast_S64_S64x1_0),
    StableHlo.TRef.unary main_call12.v3 main_call12.v4 (broadcastInDim S64x4 ![0, 1] bcast_S64x1_S64x4_0_1),
    StableHlo.TRef.binary (.of main_v275 : StableHlo.TRef sig ⟨S64x4, .f32⟩) main_call12.v4 main_call12.v5 subf,
    StableHlo.TRef.unary main_call12.v5 main_call12.v6 Host.exp,
    StableHlo.TRef.nullary main_call12.cst_1 (constant S_ .f32 0x00000000#32),
    StableHlo.TRef.binary main_call12.v6 main_call12.cst_1 main_call12.v7 (fun x v => Host.reduceAdd x v reducesTo_S64x4_S64_d1 h_S_),
    StableHlo.TRef.unary main_call12.v7 main_call12.v8 (broadcastInDim S64x1 ![0] bcast_S64_S64x1_0),
    StableHlo.TRef.unary main_call12.v8 main_call12.v9 Host.log,
    StableHlo.TRef.unary main_call12.v9 main_call12.v10 (broadcastInDim S64x4 ![0, 1] bcast_S64x1_S64x4_0_1),
    StableHlo.TRef.binary main_call12.v5 main_call12.v10 main_call12.v11 subf ]

set_option maxRecDepth 16384 in
/-- Window 5 of @main is that straight line: the called functions' definitions unfolded at their calls, the sequencing reassociated. -/
theorem main_part5_eq (c : Dev nD) : main_part5 (F := F) c = seq ops_part5 := by
  simp only [main_part5, fn_log_softmax.body, seq, bind_assoc, pure_bind] <;> rfl

set_option maxRecDepth 8192 in
/-- Every buffer an operation of window 5 touches is a TensorCore buffer of the signature. -/
theorem ops_part5_sub : (ops_part5 : List (HloOp τ sig (Elt F))).Forall fun op => op.bufs ⊆ tcRefs τ sig :=
  ⟨unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- Every operation of window 5 determines what it writes. -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of window 5 writes an argument's buffer. -/
theorem ops_part5_keep : (ops_part5 : List (HloOp τ sig (Elt F))).Forall fun op => ∀ r ∈ argRefs, (Proc.devRef .tc r : DevRef τ sig) ∉ op.writes :=
  ⟨keep_args (y := main_v257) rfl (by decide),
    keep_args (y := main_v258) rfl (by decide),
    keep_args (y := main_cst_41) rfl (by decide),
    keep_args (y := main_v259) rfl (by decide),
    keep_args (y := main_cst_42) rfl (by decide),
    keep_args (y := main_v260) rfl (by decide),
    keep_args (y := main_v261) rfl (by decide),
    keep_args (y := main_v262) rfl (by decide),
    keep_args (y := main_cst_43) rfl (by decide),
    keep_args (y := main_v263) rfl (by decide),
    keep_args (y := main_v264) rfl (by decide),
    keep_args (y := main_v265) rfl (by decide),
    keep_args (y := main_v266) rfl (by decide),
    keep_args (y := main_v267) rfl (by decide),
    keep_args (y := main_v268) rfl (by decide),
    keep_args (y := main_v269) rfl (by decide),
    keep_args (y := main_v270) rfl (by decide),
    keep_args (y := main_v271) rfl (by decide),
    keep_args (y := main_v272) rfl (by decide),
    keep_args (y := main_v273) rfl (by decide),
    keep_args (y := main_v274) rfl (by decide),
    keep_args (y := main_v275) rfl (by decide),
    keep_args (y := main_call12.cst.ref) rfl (by decide),
    keep_args (y := main_call12.v0.ref) rfl (by decide),
    keep_args (y := main_call12.cst_0.ref) rfl (by decide),
    keep_args (y := main_call12.v1.ref) rfl (by decide),
    keep_args (y := main_call12.v2.ref) rfl (by decide),
    keep_args (y := main_call12.v3.ref) rfl (by decide),
    keep_args (y := main_call12.v4.ref) rfl (by decide),
    keep_args (y := main_call12.v5.ref) rfl (by decide),
    keep_args (y := main_call12.v6.ref) rfl (by decide),
    keep_args (y := main_call12.cst_1.ref) rfl (by decide),
    keep_args (y := main_call12.v7.ref) rfl (by decide),
    keep_args (y := main_call12.v8.ref) rfl (by decide),
    keep_args (y := main_call12.v9.ref) rfl (by decide),
    keep_args (y := main_call12.v10.ref) rfl (by decide),
    keep_args (y := main_call12.v11.ref) rfl (by decide)⟩

/-! ## @main -/

/-- @main's 475 host operations, in order: its windows' one after the other. -/
abbrev ops : List (HloOp τ sig (Elt F)) :=
  ops_part0 ++ (ops_part1 ++ (ops_part2 ++ (ops_part3 ++ (ops_part4 ++ (ops_part5)))))

/-- @main is the straight line of its operations. -/
theorem main_eq (c : Dev nD) : main (F := F) c = seq ops := by
  simp only [ops, seq_append, ← main_part0_eq c, ← main_part1_eq c, ← main_part2_eq c, ← main_part3_eq c, ← main_part4_eq c, ← main_part5_eq c]
  rfl

/-- The fold over @main's operations is the windows' folds, each from the one before. -/
theorem after_ops (V : Valuation τ sig (Elt F)) :
    after ops V = after ops_part5 (after ops_part4 (after ops_part3 (after ops_part2 (after ops_part1 (after ops_part0 (V)))))) := by
  simp only [ops, after_app]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app ops_part0_sub (forall_app ops_part1_sub (forall_app ops_part2_sub (forall_app ops_part3_sub (forall_app ops_part4_sub (ops_part5_sub)))))

theorem ops_fresh : ∀ op ∈ (ops : List (HloOp τ sig (Elt F))), op.fresh = ∅ :=
  List.forall_iff_forall_mem.mp (forall_app ops_part0_fresh (forall_app ops_part1_fresh (forall_app ops_part2_fresh (forall_app ops_part3_fresh (forall_app ops_part4_fresh (ops_part5_fresh))))))

/-- An argument's buffer holds after @main's operations what it held before them. -/
theorem ops_keep (V : Valuation τ sig (Elt F)) {r : Ref sig .tc} (hr : r ∈ argRefs) :
    after ops V (Proc.devRef .tc r) = V (Proc.devRef .tc r) :=
  after_of_forall_not_mem ops V fun op hop =>
    List.forall_iff_forall_mem.mp (forall_app ops_part0_keep (forall_app ops_part1_keep (forall_app ops_part2_keep (forall_app ops_part3_keep (forall_app ops_part4_keep (ops_part5_keep)))))) op hop r hr

/-- On every device, for any float values, from any memory with zero counters: every weakly fair execution of @main
    terminates with the result buffer at the fold of the operations' results over the launch contents and every
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v276) = after ops (launchContents m c) (Proc.devRef .tc main_v276)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v276,
      (h c main_arg0).trans (ops_keep (launchContents m c) (by decide)),
      (h c main_arg1).trans (ops_keep (launchContents m c) (by decide)),
      (h c main_arg2).trans (ops_keep (launchContents m c) (by decide)),
      (h c main_arg3).trans (ops_keep (launchContents m c) (by decide)),
      (h c main_arg4).trans (ops_keep (launchContents m c) (by decide)),
      (h c main_arg5).trans (ops_keep (launchContents m c) (by decide)),
      (h c main_arg6).trans (ops_keep (launchContents m c) (by decide)),
      (h c main_arg7).trans (ops_keep (launchContents m c) (by decide)),
      (h c main_arg8).trans (ops_keep (launchContents m c) (by decide)),
      (h c main_arg9).trans (ops_keep (launchContents m c) (by decide)),
      (h c main_arg10).trans (ops_keep (launchContents m c) (by decide))⟩)
    (run_seq scopedRefs_eq scopedSems_eq defs main (fun _ => ops) main_eq (fun _ => ops_sub) m ρ (fun _ => ops_fresh))

end Cert.ReferenceIdeal.Hand

end
-- ==== Proof.Ref.RCut.lean ====
/-
  @main's operations of the reference cut where the layers' two halves begin and end: the edge-index rows, then per layer
  the transform, aggregation, bias and rectification, and the batch normalisation, then the pooling, dense layers and
  log-softmax. The cuts in order are the operation list; a buffer a cut does not write holds after it what it held before.
-/
import proofs.«400512_j87187836109057_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is in a list writes only buffers of the list. -/
theorem writes_sub_of_mem {W : List (Ref sig .tc)} {op : HloOp τ sig (Elt F)} {y : Ref sig .tc}
    (hw : op.writes = {(Proc.devRef .tc y : DevRef τ sig)}) (h : y ∈ W) :
    op.writes ⊆ (W.map (Proc.devRef (τ := τ) .tc)).toFinset := by
  rw [hw, Finset.singleton_subset_iff, List.mem_toFinset]
  exact List.mem_map.mpr ⟨y, h, rfl⟩

/-- @main's operations 1 … 4. -/
abbrev pre : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- The buffers they write. -/
abbrev pre_W : List (Ref sig .tc) := [main_v0, main_v1, main_v2, main_v3]

set_option maxRecDepth 8192 in
theorem pre_writes : (pre : List (HloOp τ sig (Elt F))).Forall fun op => op.writes ⊆ (pre_W.map (Proc.devRef (τ := τ) .tc)).toFinset :=
  ⟨writes_sub_of_mem (y := main_v0) rfl (by decide),
    writes_sub_of_mem (y := main_v1) rfl (by decide),
    writes_sub_of_mem (y := main_v2) rfl (by decide),
    writes_sub_of_mem (y := main_v3) rfl (by decide)⟩

/-- A buffer they do not write holds after them what it held before. -/
theorem pre_keep (V : Valuation τ sig (Elt F)) (r : Ref sig .tc) (h : r ∉ pre_W) :
    after pre V (Proc.devRef .tc r) = V (Proc.devRef .tc r) :=
  after_of_writes_sub pre V pre_writes h

/-- @main's operations 5 … 28. -/
abbrev A0 : List (HloOp τ sig (Elt F)) :=
  [ StableHlo.unary main_arg3 main_v4 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v4 main_v5 rfl shapeCasts_S1x128x128_S128x128,
    StableHlo.binary main_arg0 main_v5 main_v6 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v7 (broadcastInDim S600000 ![] bcast_S_S600000 : (⟨S_, .i32⟩ : BufTy).Contents (Elt F) → (⟨S600000, .i32⟩ : BufTy).Contents (Elt F)),
    StableHlo.binary main_v1 main_v7 main_v8 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v9 (broadcastInDim S600000 ![] bcast_S_S600000 : (⟨S_, .i32⟩ : BufTy).Contents (Elt F) → (⟨S600000, .i32⟩ : BufTy).Contents (Elt F)),
    StableHlo.binary main_v1 main_v9 main_v10 (addi : (⟨S600000, .i32⟩ : BufTy).Contents (Elt F) → (⟨S600000, .i32⟩ : BufTy).Contents (Elt F) → (⟨S600000, .i32⟩ : BufTy).Contents (Elt F)),
    StableHlo.ternary main_v8 main_v10 main_v1 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v11 main_v12 (broadcastInDim S600000x1 ![0] bcast_S600000_S600000x1_0 : (⟨S600000, .i32⟩ : BufTy).Contents (Elt F) → (⟨S600000x1, .i32⟩ : BufTy).Contents (Elt F)),
    StableHlo.binary main_v6 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v14 (broadcastInDim S100000x128 ![] bcast_S_S100000x128 : (⟨S_, .f32⟩ : BufTy).Contents (Elt F) → (⟨S100000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v17 ((extractStridedSlice S1x128 ![0, 0] · slices_S6x128_S1x128_0_0) : (⟨S6x128, .f32⟩ : BufTy).Contents (Elt F) → (⟨S1x128, .f32⟩ : BufTy).Contents (Elt F)),
    StableHlo.reshape main_v17 main_v18 rfl shapeCasts_S1x128_S128,
    StableHlo.unary main_v18 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v21 : StableHlo.TRef sig ⟨S100000x128, .f32⟩) main_call0.v0 main_call0.v1 maximumf ]

/-- The buffers they write. -/
abbrev A0_W : List (Ref sig .tc) := [main_v4, main_v5, main_v6, main_c, main_v7, main_v8, main_c_0, main_v9, main_v10, main_v11, main_v12, main_v13, main_cst, main_v14, main_v15, main_v16, main_v17, main_v18, main_v19, main_v20, main_v21, main_call0_cst, main_call0_v0, main_v22]

set_option maxRecDepth 8192 in
theorem A0_writes : (A0 : List (HloOp τ sig (Elt F))).Forall fun op => op.writes ⊆ (A0_W.map (Proc.devRef (τ := τ) .tc)).toFinset :=
  ⟨writes_sub_of_mem (y := main_v4) rfl (by decide),
    writes_sub_of_mem (y := main_v5) rfl (by decide),
    writes_sub_of_mem (y := main_v6) rfl (by decide),
    writes_sub_of_mem (y := main_c) rfl (by decide),
    writes_sub_of_mem (y := main_v7) rfl (by decide),
    writes_sub_of_mem (y := main_v8) rfl (by decide),
    writes_sub_of_mem (y := main_c_0) rfl (by decide),
    writes_sub_of_mem (y := main_v9) rfl (by decide),
    writes_sub_of_mem (y := main_v10) rfl (by decide),
    writes_sub_of_mem (y := main_v11) rfl (by decide),
    writes_sub_of_mem (y := main_v12) rfl (by decide),
    writes_sub_of_mem (y := main_v13) rfl (by decide),
    writes_sub_of_mem (y := main_cst) rfl (by decide),
    writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide),
    writes_sub_of_mem (y := main_v19) rfl (by decide),
    writes_sub_of_mem (y := main_v20) rfl (by decide),
    writes_sub_of_mem (y := main_v21) rfl (by decide),
    writes_sub_of_mem (y := main_call0_cst) rfl (by decide),
    writes_sub_of_mem (y := main_call0_v0) rfl (by decide),
    writes_sub_of_mem (y := main_v22) rfl (by decide)⟩

/-- A buffer they do not write holds after them what it held before. -/
theorem A0_keep (V : Valuation τ sig (Elt F)) (r : Ref sig .tc) (h : r ∉ A0_W) :
    after A0 V (Proc.devRef .tc r) = V (Proc.devRef .tc r) :=
  after_of_writes_sub A0 V A0_writes h

/-- @main's operations 29 … 76. -/
abbrev B0 : List (HloOp τ sig (Elt F)) :=
  [ StableHlo.nullary main_cst_1 (constant S_ .f32 0x00000000#32),
    StableHlo.binary main_v22 main_cst_1 main_v23 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v22 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v22 : StableHlo.TRef sig ⟨S100000x128, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v28 main_v29 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg5 main_v36 ((extractStridedSlice S1x128 ![0, 0] · slices_S6x128_S1x128_0_0) : (⟨S6x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg6 main_v41 ((extractStridedSlice S1x128 ![0, 0] · slices_S6x128_S1x128_0_0) : (⟨S6x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v44 main_v45 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B0_W : List (Ref sig .tc) := [main_cst_1, main_v23, main_cst_2, main_v24, main_v25, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v26, main_v27, main_v28, main_v29, main_cst_4, main_v30, main_v31, main_v32, main_v33, main_v34, main_v35, main_v36, main_v37, main_v38, main_v39, main_v40, main_v41, main_v42, main_v43, main_v44, main_v45]

set_option maxRecDepth 8192 in
theorem B0_writes : (B0 : List (HloOp τ sig (Elt F))).Forall fun op => op.writes ⊆ (B0_W.map (Proc.devRef (τ := τ) .tc)).toFinset :=
  ⟨writes_sub_of_mem (y := main_cst_1) rfl (by decide),
    writes_sub_of_mem (y := main_v23) rfl (by decide),
    writes_sub_of_mem (y := main_cst_2) rfl (by decide),
    writes_sub_of_mem (y := main_v24) rfl (by decide),
    writes_sub_of_mem (y := main_v25) rfl (by decide),
    writes_sub_of_mem (y := main_c_3) rfl (by decide),
    writes_sub_of_mem (y := main_call1_cst) rfl (by decide),
    writes_sub_of_mem (y := main_call1_v0) rfl (by decide),
    writes_sub_of_mem (y := main_call1_v1) rfl (by decide),
    writes_sub_of_mem (y := main_call1_cst_0) rfl (by decide),
    writes_sub_of_mem (y := main_call1_v2) rfl (by decide),
    writes_sub_of_mem (y := main_call1_v3) rfl (by decide),
    writes_sub_of_mem (y := main_call1_v4) rfl (by decide),
    writes_sub_of_mem (y := main_call1_v5) rfl (by decide),
    writes_sub_of_mem (y := main_call1_v6) rfl (by decide),
    writes_sub_of_mem (y := main_call1_v7) rfl (by decide),
    writes_sub_of_mem (y := main_call1_cst_1) rfl (by decide),
    writes_sub_of_mem (y := main_call1_v8) rfl (by decide),
    writes_sub_of_mem (y := main_call1_cst_2) rfl (by decide),
    writes_sub_of_mem (y := main_call1_v9) rfl (by decide),
    writes_sub_of_mem (y := main_call1_v10) rfl (by decide),
    writes_sub_of_mem (y := main_call1_v11) rfl (by decide),
    writes_sub_of_mem (y := main_call1_cst_3) rfl (by decide),
    writes_sub_of_mem (y := main_call1_v12) rfl (by decide),
    writes_sub_of_mem (y := main_call1_cst_4) rfl (by decide),
    writes_sub_of_mem (y := main_call1_call0_v0) rfl (by decide),
    writes_sub_of_mem (y := main_call1_call0_v1) rfl (by decide),
    writes_sub_of_mem (y := main_v26) rfl (by decide),
    writes_sub_of_mem (y := main_v27) rfl (by decide),
    writes_sub_of_mem (y := main_v28) rfl (by decide),
    writes_sub_of_mem (y := main_v29) rfl (by decide),
    writes_sub_of_mem (y := main_cst_4) rfl (by decide),
    writes_sub_of_mem (y := main_v30) rfl (by decide),
    writes_sub_of_mem (y := main_v31) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_v43) rfl (by decide),
    writes_sub_of_mem (y := main_v44) rfl (by decide),
    writes_sub_of_mem (y := main_v45) rfl (by decide)⟩

/-- A buffer they do not write holds after them what it held before. -/
theorem B0_keep (V : Valuation τ sig (Elt F)) (r : Ref sig .tc) (h : r ∉ B0_W) :
    after B0 V (Proc.devRef .tc r) = V (Proc.devRef .tc r) :=
  after_of_writes_sub B0 V B0_writes h

/-- @main's operations 77 … 100. -/
abbrev A1 : List (HloOp τ sig (Elt F)) :=
  [ StableHlo.unary main_arg3 main_v46 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v46 main_v47 rfl shapeCasts_S1x128x128_S128x128,
    StableHlo.binary main_v45 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_5 (constantI S_ 32 0#32),
    StableHlo.unary main_c_5 main_v49 (broadcastInDim S600000 ![] bcast_S_S600000 : (⟨S_, .i32⟩ : BufTy).Contents (Elt F) → (⟨S600000, .i32⟩ : BufTy).Contents (Elt F)),
    StableHlo.binary main_v1 main_v49 main_v50 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v51 (broadcastInDim S600000 ![] bcast_S_S600000 : (⟨S_, .i32⟩ : BufTy).Contents (Elt F) → (⟨S600000, .i32⟩ : BufTy).Contents (Elt F)),
    StableHlo.binary main_v1 main_v51 main_v52 (addi : (⟨S600000, .i32⟩ : BufTy).Contents (Elt F) → (⟨S600000, .i32⟩ : BufTy).Contents (Elt F) → (⟨S600000, .i32⟩ : BufTy).Contents (Elt F)),
    StableHlo.ternary main_v50 main_v52 main_v1 main_v53 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v53 main_v54 (broadcastInDim S600000x1 ![0] bcast_S600000_S600000x1_0 : (⟨S600000, .i32⟩ : BufTy).Contents (Elt F) → (⟨S600000x1, .i32⟩ : BufTy).Contents (Elt F)),
    StableHlo.binary main_v48 main_v54 main_v55 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S600000x1 ![0] bcast_S600000_S600000x1_0 : (⟨S600000, .i32⟩ : BufTy).Contents (Elt F) → (⟨S600000x1, .i32⟩ : BufTy).Contents (Elt F)),
    StableHlo.ternary main_v56 main_v57 main_v55 main_v58 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v59 ((extractStridedSlice S1x128 ![1, 0] · slices_S6x128_S1x128_1_0) : (⟨S6x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v63 : StableHlo.TRef sig ⟨S100000x128, .f32⟩) main_call2.v0 main_call2.v1 maximumf ]

/-- The buffers they write. -/
abbrev A1_W : List (Ref sig .tc) := [main_v46, main_v47, main_v48, main_c_5, main_v49, main_v50, main_c_6, main_v51, main_v52, main_v53, main_v54, main_v55, main_cst_7, main_v56, main_v57, main_v58, main_v59, main_v60, main_v61, main_v62, main_v63, main_call2_cst, main_call2_v0, main_v64]

set_option maxRecDepth 8192 in
theorem A1_writes : (A1 : List (HloOp τ sig (Elt F))).Forall fun op => op.writes ⊆ (A1_W.map (Proc.devRef (τ := τ) .tc)).toFinset :=
  ⟨writes_sub_of_mem (y := main_v46) rfl (by decide),
    writes_sub_of_mem (y := main_v47) rfl (by decide),
    writes_sub_of_mem (y := main_v48) rfl (by decide),
    writes_sub_of_mem (y := main_c_5) rfl (by decide),
    writes_sub_of_mem (y := main_v49) rfl (by decide),
    writes_sub_of_mem (y := main_v50) rfl (by decide),
    writes_sub_of_mem (y := main_c_6) rfl (by decide),
    writes_sub_of_mem (y := main_v51) rfl (by decide),
    writes_sub_of_mem (y := main_v52) rfl (by decide),
    writes_sub_of_mem (y := main_v53) rfl (by decide),
    writes_sub_of_mem (y := main_v54) rfl (by decide),
    writes_sub_of_mem (y := main_v55) rfl (by decide),
    writes_sub_of_mem (y := main_cst_7) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_v61) rfl (by decide),
    writes_sub_of_mem (y := main_v62) rfl (by decide),
    writes_sub_of_mem (y := main_v63) rfl (by decide),
    writes_sub_of_mem (y := main_call2_cst) rfl (by decide),
    writes_sub_of_mem (y := main_call2_v0) rfl (by decide),
    writes_sub_of_mem (y := main_v64) rfl (by decide)⟩

/-- A buffer they do not write holds after them what it held before. -/
theorem A1_keep (V : Valuation τ sig (Elt F)) (r : Ref sig .tc) (h : r ∉ A1_W) :
    after A1 V (Proc.devRef .tc r) = V (Proc.devRef .tc r) :=
  after_of_writes_sub A1 V A1_writes h

/-- @main's operations 101 … 148. -/
abbrev B1 : List (HloOp τ sig (Elt F)) :=
  [ StableHlo.nullary main_cst_8 (constant S_ .f32 0x00000000#32),
    StableHlo.binary main_v64 main_cst_8 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (.of main_v64 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v64 : StableHlo.TRef sig ⟨S100000x128, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S128 ![] bcast_S_S128 : (⟨S_, .f32⟩ : BufTy).Contents (Elt F) → (⟨S128, .f32⟩ : BufTy).Contents (Elt F)),
    StableHlo.binary main_v68 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg5 main_v78 ((extractStridedSlice S1x128 ![1, 0] · slices_S6x128_S1x128_1_0) : (⟨S6x128, .f32⟩ : BufTy).Contents (Elt F) → (⟨S1x128, .f32⟩ : BufTy).Contents (Elt F)),
    StableHlo.reshape main_v78 main_v79 rfl shapeCasts_S1x128_S128,
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v81 main_v82 (mulf : (⟨S100000x128, .f32⟩ : BufTy).Contents (Elt F) → (⟨S100000x128, .f32⟩ : BufTy).Contents (Elt F) → (⟨S100000x128, .f32⟩ : BufTy).Contents (Elt F)),
    StableHlo.unary main_arg6 main_v83 ((extractStridedSlice S1x128 ![1, 0] · slices_S6x128_S1x128_1_0) : (⟨S6x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v86 main_v87 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B1_W : List (Ref sig .tc) := [main_cst_8, main_v65, main_cst_9, main_v66, main_v67, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v68, main_v69, main_v70, main_v71, main_cst_11, main_v72, main_v73, main_v74, main_v75, main_v76, main_v77, main_v78, main_v79, main_v80, main_v81, main_v82, main_v83, main_v84, main_v85, main_v86, main_v87]

set_option maxRecDepth 8192 in
theorem B1_writes : (B1 : List (HloOp τ sig (Elt F))).Forall fun op => op.writes ⊆ (B1_W.map (Proc.devRef (τ := τ) .tc)).toFinset :=
  ⟨writes_sub_of_mem (y := main_cst_8) rfl (by decide),
    writes_sub_of_mem (y := main_v65) rfl (by decide),
    writes_sub_of_mem (y := main_cst_9) rfl (by decide),
    writes_sub_of_mem (y := main_v66) rfl (by decide),
    writes_sub_of_mem (y := main_v67) rfl (by decide),
    writes_sub_of_mem (y := main_c_10) rfl (by decide),
    writes_sub_of_mem (y := main_call3_cst) rfl (by decide),
    writes_sub_of_mem (y := main_call3_v0) rfl (by decide),
    writes_sub_of_mem (y := main_call3_v1) rfl (by decide),
    writes_sub_of_mem (y := main_call3_cst_0) rfl (by decide),
    writes_sub_of_mem (y := main_call3_v2) rfl (by decide),
    writes_sub_of_mem (y := main_call3_v3) rfl (by decide),
    writes_sub_of_mem (y := main_call3_v4) rfl (by decide),
    writes_sub_of_mem (y := main_call3_v5) rfl (by decide),
    writes_sub_of_mem (y := main_call3_v6) rfl (by decide),
    writes_sub_of_mem (y := main_call3_v7) rfl (by decide),
    writes_sub_of_mem (y := main_call3_cst_1) rfl (by decide),
    writes_sub_of_mem (y := main_call3_v8) rfl (by decide),
    writes_sub_of_mem (y := main_call3_cst_2) rfl (by decide),
    writes_sub_of_mem (y := main_call3_v9) rfl (by decide),
    writes_sub_of_mem (y := main_call3_v10) rfl (by decide),
    writes_sub_of_mem (y := main_call3_v11) rfl (by decide),
    writes_sub_of_mem (y := main_call3_cst_3) rfl (by decide),
    writes_sub_of_mem (y := main_call3_v12) rfl (by decide),
    writes_sub_of_mem (y := main_call3_cst_4) rfl (by decide),
    writes_sub_of_mem (y := main_call3_call0_v0) rfl (by decide),
    writes_sub_of_mem (y := main_call3_call0_v1) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_cst_11) rfl (by decide),
    writes_sub_of_mem (y := main_v72) rfl (by decide),
    writes_sub_of_mem (y := main_v73) rfl (by decide),
    writes_sub_of_mem (y := main_v74) rfl (by decide),
    writes_sub_of_mem (y := main_v75) rfl (by decide),
    writes_sub_of_mem (y := main_v76) rfl (by decide),
    writes_sub_of_mem (y := main_v77) rfl (by decide),
    writes_sub_of_mem (y := main_v78) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_v84) rfl (by decide),
    writes_sub_of_mem (y := main_v85) rfl (by decide),
    writes_sub_of_mem (y := main_v86) rfl (by decide),
    writes_sub_of_mem (y := main_v87) rfl (by decide)⟩

/-- A buffer they do not write holds after them what it held before. -/
theorem B1_keep (V : Valuation τ sig (Elt F)) (r : Ref sig .tc) (h : r ∉ B1_W) :
    after B1 V (Proc.devRef .tc r) = V (Proc.devRef .tc r) :=
  after_of_writes_sub B1 V B1_writes h

/-- @main's operations 149 … 172. -/
abbrev A2 : List (HloOp τ sig (Elt F)) :=
  [ StableHlo.unary main_arg3 main_v88 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v88 main_v89 rfl shapeCasts_S1x128x128_S128x128,
    StableHlo.binary main_v87 main_v89 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_12 (constantI S_ 32 0#32),
    StableHlo.unary main_c_12 main_v91 (broadcastInDim S600000 ![] bcast_S_S600000 : (⟨S_, .i32⟩ : BufTy).Contents (Elt F) → (⟨S600000, .i32⟩ : BufTy).Contents (Elt F)),
    StableHlo.binary main_v1 main_v91 main_v92 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v93 (broadcastInDim S600000 ![] bcast_S_S600000 : (⟨S_, .i32⟩ : BufTy).Contents (Elt F) → (⟨S600000, .i32⟩ : BufTy).Contents (Elt F)),
    StableHlo.binary main_v1 main_v93 main_v94 (addi : (⟨S600000, .i32⟩ : BufTy).Contents (Elt F) → (⟨S600000, .i32⟩ : BufTy).Contents (Elt F) → (⟨S600000, .i32⟩ : BufTy).Contents (Elt F)),
    StableHlo.ternary main_v92 main_v94 main_v1 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v95 main_v96 (broadcastInDim S600000x1 ![0] bcast_S600000_S600000x1_0 : (⟨S600000, .i32⟩ : BufTy).Contents (Elt F) → (⟨S600000x1, .i32⟩ : BufTy).Contents (Elt F)),
    StableHlo.binary main_v90 main_v96 main_v97 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v98 (broadcastInDim S100000x128 ![] bcast_S_S100000x128 : (⟨S_, .f32⟩ : BufTy).Contents (Elt F) → (⟨S100000x128, .f32⟩ : BufTy).Contents (Elt F)),
    StableHlo.unary main_v3 main_v99 (broadcastInDim S600000x1 ![0] bcast_S600000_S600000x1_0 : (⟨S600000, .i32⟩ : BufTy).Contents (Elt F) → (⟨S600000x1, .i32⟩ : BufTy).Contents (Elt F)),
    StableHlo.ternary main_v98 main_v99 main_v97 main_v100 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v101 ((extractStridedSlice S1x128 ![2, 0] · slices_S6x128_S1x128_2_0) : (⟨S6x128, .f32⟩ : BufTy).Contents (Elt F) → (⟨S1x128, .f32⟩ : BufTy).Contents (Elt F)),
    StableHlo.reshape main_v101 main_v102 rfl shapeCasts_S1x128_S128,
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v104 main_v105 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v105 : StableHlo.TRef sig ⟨S100000x128, .f32⟩) main_call4.v0 main_call4.v1 maximumf ]

/-- The buffers they write. -/
abbrev A2_W : List (Ref sig .tc) := [main_v88, main_v89, main_v90, main_c_12, main_v91, main_v92, main_c_13, main_v93, main_v94, main_v95, main_v96, main_v97, main_cst_14, main_v98, main_v99, main_v100, main_v101, main_v102, main_v103, main_v104, main_v105, main_call4_cst, main_call4_v0, main_v106]

set_option maxRecDepth 8192 in
theorem A2_writes : (A2 : List (HloOp τ sig (Elt F))).Forall fun op => op.writes ⊆ (A2_W.map (Proc.devRef (τ := τ) .tc)).toFinset :=
  ⟨writes_sub_of_mem (y := main_v88) rfl (by decide),
    writes_sub_of_mem (y := main_v89) rfl (by decide),
    writes_sub_of_mem (y := main_v90) rfl (by decide),
    writes_sub_of_mem (y := main_c_12) rfl (by decide),
    writes_sub_of_mem (y := main_v91) rfl (by decide),
    writes_sub_of_mem (y := main_v92) rfl (by decide),
    writes_sub_of_mem (y := main_c_13) rfl (by decide),
    writes_sub_of_mem (y := main_v93) rfl (by decide),
    writes_sub_of_mem (y := main_v94) rfl (by decide),
    writes_sub_of_mem (y := main_v95) rfl (by decide),
    writes_sub_of_mem (y := main_v96) rfl (by decide),
    writes_sub_of_mem (y := main_v97) rfl (by decide),
    writes_sub_of_mem (y := main_cst_14) rfl (by decide),
    writes_sub_of_mem (y := main_v98) rfl (by decide),
    writes_sub_of_mem (y := main_v99) rfl (by decide),
    writes_sub_of_mem (y := main_v100) rfl (by decide),
    writes_sub_of_mem (y := main_v101) rfl (by decide),
    writes_sub_of_mem (y := main_v102) rfl (by decide),
    writes_sub_of_mem (y := main_v103) rfl (by decide),
    writes_sub_of_mem (y := main_v104) rfl (by decide),
    writes_sub_of_mem (y := main_v105) rfl (by decide),
    writes_sub_of_mem (y := main_call4_cst) rfl (by decide),
    writes_sub_of_mem (y := main_call4_v0) rfl (by decide),
    writes_sub_of_mem (y := main_v106) rfl (by decide)⟩

/-- A buffer they do not write holds after them what it held before. -/
theorem A2_keep (V : Valuation τ sig (Elt F)) (r : Ref sig .tc) (h : r ∉ A2_W) :
    after A2 V (Proc.devRef .tc r) = V (Proc.devRef .tc r) :=
  after_of_writes_sub A2 V A2_writes h

/-- @main's operations 173 … 220. -/
abbrev B2 : List (HloOp τ sig (Elt F)) :=
  [ StableHlo.nullary main_cst_15 (constant S_ .f32 0x00000000#32),
    StableHlo.binary main_v106 main_cst_15 main_v107 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v108 (broadcastInDim S128 ![] bcast_S_S128 : (⟨S_, .f32⟩ : BufTy).Contents (Elt F) → (⟨S128, .f32⟩ : BufTy).Contents (Elt F)),
    StableHlo.binary main_v107 main_v108 main_v109 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call5.cst (constant S_ .f32 0x00000000#32),
    StableHlo.TRef.binary (.of main_v106 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v106 : StableHlo.TRef sig ⟨S100000x128, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v109 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v112 main_v113 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v114 (broadcastInDim S128 ![] bcast_S_S128 : (⟨S_, .f32⟩ : BufTy).Contents (Elt F) → (⟨S128, .f32⟩ : BufTy).Contents (Elt F)),
    StableHlo.binary main_v110 main_v114 main_v115 (addf : (⟨S128, .f32⟩ : BufTy).Contents (Elt F) → (⟨S128, .f32⟩ : BufTy).Contents (Elt F) → (⟨S128, .f32⟩ : BufTy).Contents (Elt F)),
    StableHlo.unary main_v115 main_v116 (Host.rsqrt : (⟨S128, .f32⟩ : BufTy).Contents (Elt F) → (⟨S128, .f32⟩ : BufTy).Contents (Elt F)),
    StableHlo.unary main_v116 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v118 main_v119 (mulf : (⟨S100000x128, .f32⟩ : BufTy).Contents (Elt F) → (⟨S100000x128, .f32⟩ : BufTy).Contents (Elt F) → (⟨S100000x128, .f32⟩ : BufTy).Contents (Elt F)),
    StableHlo.unary main_arg5 main_v120 ((extractStridedSlice S1x128 ![2, 0] · slices_S6x128_S1x128_2_0) : (⟨S6x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg6 main_v125 ((extractStridedSlice S1x128 ![2, 0] · slices_S6x128_S1x128_2_0) : (⟨S6x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B2_W : List (Ref sig .tc) := [main_cst_15, main_v107, main_cst_16, main_v108, main_v109, main_c_17, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v110, main_v111, main_v112, main_v113, main_cst_18, main_v114, main_v115, main_v116, main_v117, main_v118, main_v119, main_v120, main_v121, main_v122, main_v123, main_v124, main_v125, main_v126, main_v127, main_v128, main_v129]

set_option maxRecDepth 8192 in
theorem B2_writes : (B2 : List (HloOp τ sig (Elt F))).Forall fun op => op.writes ⊆ (B2_W.map (Proc.devRef (τ := τ) .tc)).toFinset :=
  ⟨writes_sub_of_mem (y := main_cst_15) rfl (by decide),
    writes_sub_of_mem (y := main_v107) rfl (by decide),
    writes_sub_of_mem (y := main_cst_16) rfl (by decide),
    writes_sub_of_mem (y := main_v108) rfl (by decide),
    writes_sub_of_mem (y := main_v109) rfl (by decide),
    writes_sub_of_mem (y := main_c_17) rfl (by decide),
    writes_sub_of_mem (y := main_call5_cst) rfl (by decide),
    writes_sub_of_mem (y := main_call5_v0) rfl (by decide),
    writes_sub_of_mem (y := main_call5_v1) rfl (by decide),
    writes_sub_of_mem (y := main_call5_cst_0) rfl (by decide),
    writes_sub_of_mem (y := main_call5_v2) rfl (by decide),
    writes_sub_of_mem (y := main_call5_v3) rfl (by decide),
    writes_sub_of_mem (y := main_call5_v4) rfl (by decide),
    writes_sub_of_mem (y := main_call5_v5) rfl (by decide),
    writes_sub_of_mem (y := main_call5_v6) rfl (by decide),
    writes_sub_of_mem (y := main_call5_v7) rfl (by decide),
    writes_sub_of_mem (y := main_call5_cst_1) rfl (by decide),
    writes_sub_of_mem (y := main_call5_v8) rfl (by decide),
    writes_sub_of_mem (y := main_call5_cst_2) rfl (by decide),
    writes_sub_of_mem (y := main_call5_v9) rfl (by decide),
    writes_sub_of_mem (y := main_call5_v10) rfl (by decide),
    writes_sub_of_mem (y := main_call5_v11) rfl (by decide),
    writes_sub_of_mem (y := main_call5_cst_3) rfl (by decide),
    writes_sub_of_mem (y := main_call5_v12) rfl (by decide),
    writes_sub_of_mem (y := main_call5_cst_4) rfl (by decide),
    writes_sub_of_mem (y := main_call5_call0_v0) rfl (by decide),
    writes_sub_of_mem (y := main_call5_call0_v1) rfl (by decide),
    writes_sub_of_mem (y := main_v110) rfl (by decide),
    writes_sub_of_mem (y := main_v111) rfl (by decide),
    writes_sub_of_mem (y := main_v112) rfl (by decide),
    writes_sub_of_mem (y := main_v113) rfl (by decide),
    writes_sub_of_mem (y := main_cst_18) rfl (by decide),
    writes_sub_of_mem (y := main_v114) rfl (by decide),
    writes_sub_of_mem (y := main_v115) rfl (by decide),
    writes_sub_of_mem (y := main_v116) rfl (by decide),
    writes_sub_of_mem (y := main_v117) rfl (by decide),
    writes_sub_of_mem (y := main_v118) rfl (by decide),
    writes_sub_of_mem (y := main_v119) rfl (by decide),
    writes_sub_of_mem (y := main_v120) rfl (by decide),
    writes_sub_of_mem (y := main_v121) rfl (by decide),
    writes_sub_of_mem (y := main_v122) rfl (by decide),
    writes_sub_of_mem (y := main_v123) rfl (by decide),
    writes_sub_of_mem (y := main_v124) rfl (by decide),
    writes_sub_of_mem (y := main_v125) rfl (by decide),
    writes_sub_of_mem (y := main_v126) rfl (by decide),
    writes_sub_of_mem (y := main_v127) rfl (by decide),
    writes_sub_of_mem (y := main_v128) rfl (by decide),
    writes_sub_of_mem (y := main_v129) rfl (by decide)⟩

/-- A buffer they do not write holds after them what it held before. -/
theorem B2_keep (V : Valuation τ sig (Elt F)) (r : Ref sig .tc) (h : r ∉ B2_W) :
    after B2 V (Proc.devRef .tc r) = V (Proc.devRef .tc r) :=
  after_of_writes_sub B2 V B2_writes h

/-- @main's operations 221 … 244. -/
abbrev A3 : List (HloOp τ sig (Elt F)) :=
  [ StableHlo.unary main_arg3 main_v130 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v130 main_v131 rfl shapeCasts_S1x128x128_S128x128,
    StableHlo.binary main_v129 main_v131 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_19 (constantI S_ 32 0#32),
    StableHlo.unary main_c_19 main_v133 (broadcastInDim S600000 ![] bcast_S_S600000 : (⟨S_, .i32⟩ : BufTy).Contents (Elt F) → (⟨S600000, .i32⟩ : BufTy).Contents (Elt F)),
    StableHlo.binary main_v1 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 100000#32),
    StableHlo.unary main_c_20 main_v135 (broadcastInDim S600000 ![] bcast_S_S600000 : (⟨S_, .i32⟩ : BufTy).Contents (Elt F) → (⟨S600000, .i32⟩ : BufTy).Contents (Elt F)),
    StableHlo.binary main_v1 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v1 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v132 main_v138 main_v139 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_21 (constant S_ .f32 0x00000000#32),
    StableHlo.unary main_cst_21 main_v140 (broadcastInDim S100000x128 ![] bcast_S_S100000x128 : (⟨S_, .f32⟩ : BufTy).Contents (Elt F) → (⟨S100000x128, .f32⟩ : BufTy).Contents (Elt F)),
    StableHlo.unary main_v3 main_v141 (broadcastInDim S600000x1 ![0] bcast_S600000_S600000x1_0 : (⟨S600000, .i32⟩ : BufTy).Contents (Elt F) → (⟨S600000x1, .i32⟩ : BufTy).Contents (Elt F)),
    StableHlo.ternary main_v140 main_v141 main_v139 main_v142 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v143 ((extractStridedSlice S1x128 ![3, 0] · slices_S6x128_S1x128_3_0) : (⟨S6x128, .f32⟩ : BufTy).Contents (Elt F) → (⟨S1x128, .f32⟩ : BufTy).Contents (Elt F)),
    StableHlo.reshape main_v143 main_v144 rfl shapeCasts_S1x128_S128,
    StableHlo.unary main_v144 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v146 main_v147 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v147 : StableHlo.TRef sig ⟨S100000x128, .f32⟩) main_call6.v0 main_call6.v1 maximumf ]

/-- The buffers they write. -/
abbrev A3_W : List (Ref sig .tc) := [main_v130, main_v131, main_v132, main_c_19, main_v133, main_v134, main_c_20, main_v135, main_v136, main_v137, main_v138, main_v139, main_cst_21, main_v140, main_v141, main_v142, main_v143, main_v144, main_v145, main_v146, main_v147, main_call6_cst, main_call6_v0, main_v148]

set_option maxRecDepth 8192 in
theorem A3_writes : (A3 : List (HloOp τ sig (Elt F))).Forall fun op => op.writes ⊆ (A3_W.map (Proc.devRef (τ := τ) .tc)).toFinset :=
  ⟨writes_sub_of_mem (y := main_v130) rfl (by decide),
    writes_sub_of_mem (y := main_v131) rfl (by decide),
    writes_sub_of_mem (y := main_v132) rfl (by decide),
    writes_sub_of_mem (y := main_c_19) rfl (by decide),
    writes_sub_of_mem (y := main_v133) rfl (by decide),
    writes_sub_of_mem (y := main_v134) rfl (by decide),
    writes_sub_of_mem (y := main_c_20) rfl (by decide),
    writes_sub_of_mem (y := main_v135) rfl (by decide),
    writes_sub_of_mem (y := main_v136) rfl (by decide),
    writes_sub_of_mem (y := main_v137) rfl (by decide),
    writes_sub_of_mem (y := main_v138) rfl (by decide),
    writes_sub_of_mem (y := main_v139) rfl (by decide),
    writes_sub_of_mem (y := main_cst_21) rfl (by decide),
    writes_sub_of_mem (y := main_v140) rfl (by decide),
    writes_sub_of_mem (y := main_v141) rfl (by decide),
    writes_sub_of_mem (y := main_v142) rfl (by decide),
    writes_sub_of_mem (y := main_v143) rfl (by decide),
    writes_sub_of_mem (y := main_v144) rfl (by decide),
    writes_sub_of_mem (y := main_v145) rfl (by decide),
    writes_sub_of_mem (y := main_v146) rfl (by decide),
    writes_sub_of_mem (y := main_v147) rfl (by decide),
    writes_sub_of_mem (y := main_call6_cst) rfl (by decide),
    writes_sub_of_mem (y := main_call6_v0) rfl (by decide),
    writes_sub_of_mem (y := main_v148) rfl (by decide)⟩

/-- A buffer they do not write holds after them what it held before. -/
theorem A3_keep (V : Valuation τ sig (Elt F)) (r : Ref sig .tc) (h : r ∉ A3_W) :
    after A3 V (Proc.devRef .tc r) = V (Proc.devRef .tc r) :=
  after_of_writes_sub A3 V A3_writes h

/-- @main's operations 245 … 292. -/
abbrev B3 : List (HloOp τ sig (Elt F)) :=
  [ StableHlo.nullary main_cst_22 (constant S_ .f32 0x00000000#32),
    StableHlo.binary main_v148 main_cst_22 main_v149 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v150 (broadcastInDim S128 ![] bcast_S_S128 : (⟨S_, .f32⟩ : BufTy).Contents (Elt F) → (⟨S128, .f32⟩ : BufTy).Contents (Elt F)),
    StableHlo.binary main_v149 main_v150 main_v151 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call7.cst (constant S_ .f32 0x00000000#32),
    StableHlo.TRef.binary (.of main_v148 : StableHlo.TRef sig ⟨S100000x128, .f32⟩) main_call7.cst main_call7.v0 (fun x v => Host.reduceAdd x v reducesTo_S100000x128_S128_d0 h_S_),
    StableHlo.TRef.unary main_call7.v0 main_call7.v1 (broadcastInDim S1x128 ![1] bcast_S128_S1x128_1),
    StableHlo.TRef.nullary main_call7.cst_0 (constant S_ .f32 0x47C35000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S100000x128 ![0, 1] bcast_S1x128_S100000x128_0_1),
    StableHlo.TRef.binary (.of main_v148 : StableHlo.TRef sig ⟨S100000x128, .f32⟩) main_call7.v4 main_call7.v5 subf,
    StableHlo.TRef.binary main_call7.v5 main_call7.v5 main_call7.v6 mulf,
    StableHlo.TRef.unary (.of main_c_24 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v151 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v154 main_v155 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v156 (broadcastInDim S128 ![] bcast_S_S128 : (⟨S_, .f32⟩ : BufTy).Contents (Elt F) → (⟨S128, .f32⟩ : BufTy).Contents (Elt F)),
    StableHlo.binary main_v152 main_v156 main_v157 (addf : (⟨S128, .f32⟩ : BufTy).Contents (Elt F) → (⟨S128, .f32⟩ : BufTy).Contents (Elt F) → (⟨S128, .f32⟩ : BufTy).Contents (Elt F)),
    StableHlo.unary main_v157 main_v158 (Host.rsqrt : (⟨S128, .f32⟩ : BufTy).Contents (Elt F) → (⟨S128, .f32⟩ : BufTy).Contents (Elt F)),
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v155 main_v160 main_v161 (mulf : (⟨S100000x128, .f32⟩ : BufTy).Contents (Elt F) → (⟨S100000x128, .f32⟩ : BufTy).Contents (Elt F) → (⟨S100000x128, .f32⟩ : BufTy).Contents (Elt F)),
    StableHlo.unary main_arg5 main_v162 ((extractStridedSlice S1x128 ![3, 0] · slices_S6x128_S1x128_3_0) : (⟨S6x128, .f32⟩ : BufTy).Contents (Elt F) → (⟨S1x128, .f32⟩ : BufTy).Contents (Elt F)),
    StableHlo.reshape main_v162 main_v163 rfl shapeCasts_S1x128_S128,
    StableHlo.unary main_v163 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v165 main_v166 (mulf : (⟨S100000x128, .f32⟩ : BufTy).Contents (Elt F) → (⟨S100000x128, .f32⟩ : BufTy).Contents (Elt F) → (⟨S100000x128, .f32⟩ : BufTy).Contents (Elt F)),
    StableHlo.unary main_arg6 main_v167 ((extractStridedSlice S1x128 ![3, 0] · slices_S6x128_S1x128_3_0) : (⟨S6x128, .f32⟩ : BufTy).Contents (Elt F) → (⟨S1x128, .f32⟩ : BufTy).Contents (Elt F)),
    StableHlo.reshape main_v167 main_v168 rfl shapeCasts_S1x128_S128,
    StableHlo.unary main_v168 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S100000x128 ![0, 1] bcast_S1x128_S100000x128_0_1 : (⟨S1x128, .f32⟩ : BufTy).Contents (Elt F) → (⟨S100000x128, .f32⟩ : BufTy).Contents (Elt F)),
    StableHlo.binary main_v166 main_v170 main_v171 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B3_W : List (Ref sig .tc) := [main_cst_22, main_v149, main_cst_23, main_v150, main_v151, main_c_24, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v152, main_v153, main_v154, main_v155, main_cst_25, main_v156, main_v157, main_v158, main_v159, main_v160, main_v161, main_v162, main_v163, main_v164, main_v165, main_v166, main_v167, main_v168, main_v169, main_v170, main_v171]

set_option maxRecDepth 8192 in
theorem B3_writes : (B3 : List (HloOp τ sig (Elt F))).Forall fun op => op.writes ⊆ (B3_W.map (Proc.devRef (τ := τ) .tc)).toFinset :=
  ⟨writes_sub_of_mem (y := main_cst_22) rfl (by decide),
    writes_sub_of_mem (y := main_v149) rfl (by decide),
    writes_sub_of_mem (y := main_cst_23) rfl (by decide),
    writes_sub_of_mem (y := main_v150) rfl (by decide),
    writes_sub_of_mem (y := main_v151) rfl (by decide),
    writes_sub_of_mem (y := main_c_24) rfl (by decide),
    writes_sub_of_mem (y := main_call7_cst) rfl (by decide),
    writes_sub_of_mem (y := main_call7_v0) rfl (by decide),
    writes_sub_of_mem (y := main_call7_v1) rfl (by decide),
    writes_sub_of_mem (y := main_call7_cst_0) rfl (by decide),
    writes_sub_of_mem (y := main_call7_v2) rfl (by decide),
    writes_sub_of_mem (y := main_call7_v3) rfl (by decide),
    writes_sub_of_mem (y := main_call7_v4) rfl (by decide),
    writes_sub_of_mem (y := main_call7_v5) rfl (by decide),
    writes_sub_of_mem (y := main_call7_v6) rfl (by decide),
    writes_sub_of_mem (y := main_call7_v7) rfl (by decide),
    writes_sub_of_mem (y := main_call7_cst_1) rfl (by decide),
    writes_sub_of_mem (y := main_call7_v8) rfl (by decide),
    writes_sub_of_mem (y := main_call7_cst_2) rfl (by decide),
    writes_sub_of_mem (y := main_call7_v9) rfl (by decide),
    writes_sub_of_mem (y := main_call7_v10) rfl (by decide),
    writes_sub_of_mem (y := main_call7_v11) rfl (by decide),
    writes_sub_of_mem (y := main_call7_cst_3) rfl (by decide),
    writes_sub_of_mem (y := main_call7_v12) rfl (by decide),
    writes_sub_of_mem (y := main_call7_cst_4) rfl (by decide),
    writes_sub_of_mem (y := main_call7_call0_v0) rfl (by decide),
    writes_sub_of_mem (y := main_call7_call0_v1) rfl (by decide),
    writes_sub_of_mem (y := main_v152) rfl (by decide),
    writes_sub_of_mem (y := main_v153) rfl (by decide),
    writes_sub_of_mem (y := main_v154) rfl (by decide),
    writes_sub_of_mem (y := main_v155) rfl (by decide),
    writes_sub_of_mem (y := main_cst_25) rfl (by decide),
    writes_sub_of_mem (y := main_v156) rfl (by decide),
    writes_sub_of_mem (y := main_v157) rfl (by decide),
    writes_sub_of_mem (y := main_v158) rfl (by decide),
    writes_sub_of_mem (y := main_v159) rfl (by decide),
    writes_sub_of_mem (y := main_v160) rfl (by decide),
    writes_sub_of_mem (y := main_v161) rfl (by decide),
    writes_sub_of_mem (y := main_v162) rfl (by decide),
    writes_sub_of_mem (y := main_v163) rfl (by decide),
    writes_sub_of_mem (y := main_v164) rfl (by decide),
    writes_sub_of_mem (y := main_v165) rfl (by decide),
    writes_sub_of_mem (y := main_v166) rfl (by decide),
    writes_sub_of_mem (y := main_v167) rfl (by decide),
    writes_sub_of_mem (y := main_v168) rfl (by decide),
    writes_sub_of_mem (y := main_v169) rfl (by decide),
    writes_sub_of_mem (y := main_v170) rfl (by decide),
    writes_sub_of_mem (y := main_v171) rfl (by decide)⟩

/-- A buffer they do not write holds after them what it held before. -/
theorem B3_keep (V : Valuation τ sig (Elt F)) (r : Ref sig .tc) (h : r ∉ B3_W) :
    after B3 V (Proc.devRef .tc r) = V (Proc.devRef .tc r) :=
  after_of_writes_sub B3 V B3_writes h

/-- @main's operations 293 … 316. -/
abbrev A4 : List (HloOp τ sig (Elt F)) :=
  [ StableHlo.unary main_arg3 main_v172 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v172 main_v173 rfl shapeCasts_S1x128x128_S128x128,
    StableHlo.binary main_v171 main_v173 main_v174 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_26 (constantI S_ 32 0#32),
    StableHlo.unary main_c_26 main_v175 (broadcastInDim S600000 ![] bcast_S_S600000 : (⟨S_, .i32⟩ : BufTy).Contents (Elt F) → (⟨S600000, .i32⟩ : BufTy).Contents (Elt F)),
    StableHlo.binary main_v1 main_v175 main_v176 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 100000#32),
    StableHlo.unary main_c_27 main_v177 (broadcastInDim S600000 ![] bcast_S_S600000 : (⟨S_, .i32⟩ : BufTy).Contents (Elt F) → (⟨S600000, .i32⟩ : BufTy).Contents (Elt F)),
    StableHlo.binary main_v1 main_v177 main_v178 (addi : (⟨S600000, .i32⟩ : BufTy).Contents (Elt F) → (⟨S600000, .i32⟩ : BufTy).Contents (Elt F) → (⟨S600000, .i32⟩ : BufTy).Contents (Elt F)),
    StableHlo.ternary main_v176 main_v178 main_v1 main_v179 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v179 main_v180 (broadcastInDim S600000x1 ![0] bcast_S600000_S600000x1_0 : (⟨S600000, .i32⟩ : BufTy).Contents (Elt F) → (⟨S600000x1, .i32⟩ : BufTy).Contents (Elt F)),
    StableHlo.binary main_v174 main_v180 main_v181 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_28 (constant S_ .f32 0x00000000#32),
    StableHlo.unary main_cst_28 main_v182 (broadcastInDim S100000x128 ![] bcast_S_S100000x128 : (⟨S_, .f32⟩ : BufTy).Contents (Elt F) → (⟨S100000x128, .f32⟩ : BufTy).Contents (Elt F)),
    StableHlo.unary main_v3 main_v183 (broadcastInDim S600000x1 ![0] bcast_S600000_S600000x1_0 : (⟨S600000, .i32⟩ : BufTy).Contents (Elt F) → (⟨S600000x1, .i32⟩ : BufTy).Contents (Elt F)),
    StableHlo.ternary main_v182 main_v183 main_v181 main_v184 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v185 ((extractStridedSlice S1x128 ![4, 0] · slices_S6x128_S1x128_4_0) : (⟨S6x128, .f32⟩ : BufTy).Contents (Elt F) → (⟨S1x128, .f32⟩ : BufTy).Contents (Elt F)),
    StableHlo.reshape main_v185 main_v186 rfl shapeCasts_S1x128_S128,
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v184 main_v188 main_v189 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v189 : StableHlo.TRef sig ⟨S100000x128, .f32⟩) main_call8.v0 main_call8.v1 maximumf ]

/-- The buffers they write. -/
abbrev A4_W : List (Ref sig .tc) := [main_v172, main_v173, main_v174, main_c_26, main_v175, main_v176, main_c_27, main_v177, main_v178, main_v179, main_v180, main_v181, main_cst_28, main_v182, main_v183, main_v184, main_v185, main_v186, main_v187, main_v188, main_v189, main_call8_cst, main_call8_v0, main_v190]

set_option maxRecDepth 8192 in
theorem A4_writes : (A4 : List (HloOp τ sig (Elt F))).Forall fun op => op.writes ⊆ (A4_W.map (Proc.devRef (τ := τ) .tc)).toFinset :=
  ⟨writes_sub_of_mem (y := main_v172) rfl (by decide),
    writes_sub_of_mem (y := main_v173) rfl (by decide),
    writes_sub_of_mem (y := main_v174) rfl (by decide),
    writes_sub_of_mem (y := main_c_26) rfl (by decide),
    writes_sub_of_mem (y := main_v175) rfl (by decide),
    writes_sub_of_mem (y := main_v176) rfl (by decide),
    writes_sub_of_mem (y := main_c_27) rfl (by decide),
    writes_sub_of_mem (y := main_v177) rfl (by decide),
    writes_sub_of_mem (y := main_v178) rfl (by decide),
    writes_sub_of_mem (y := main_v179) rfl (by decide),
    writes_sub_of_mem (y := main_v180) rfl (by decide),
    writes_sub_of_mem (y := main_v181) rfl (by decide),
    writes_sub_of_mem (y := main_cst_28) rfl (by decide),
    writes_sub_of_mem (y := main_v182) rfl (by decide),
    writes_sub_of_mem (y := main_v183) rfl (by decide),
    writes_sub_of_mem (y := main_v184) rfl (by decide),
    writes_sub_of_mem (y := main_v185) rfl (by decide),
    writes_sub_of_mem (y := main_v186) rfl (by decide),
    writes_sub_of_mem (y := main_v187) rfl (by decide),
    writes_sub_of_mem (y := main_v188) rfl (by decide),
    writes_sub_of_mem (y := main_v189) rfl (by decide),
    writes_sub_of_mem (y := main_call8_cst) rfl (by decide),
    writes_sub_of_mem (y := main_call8_v0) rfl (by decide),
    writes_sub_of_mem (y := main_v190) rfl (by decide)⟩

/-- A buffer they do not write holds after them what it held before. -/
theorem A4_keep (V : Valuation τ sig (Elt F)) (r : Ref sig .tc) (h : r ∉ A4_W) :
    after A4 V (Proc.devRef .tc r) = V (Proc.devRef .tc r) :=
  after_of_writes_sub A4 V A4_writes h

/-- @main's operations 317 … 364. -/
abbrev B4 : List (HloOp τ sig (Elt F)) :=
  [ StableHlo.nullary main_cst_29 (constant S_ .f32 0x00000000#32),
    StableHlo.binary main_v190 main_cst_29 main_v191 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v192 (broadcastInDim S128 ![] bcast_S_S128 : (⟨S_, .f32⟩ : BufTy).Contents (Elt F) → (⟨S128, .f32⟩ : BufTy).Contents (Elt F)),
    StableHlo.binary main_v191 main_v192 main_v193 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call9.cst (constant S_ .f32 0x00000000#32),
    StableHlo.TRef.binary (.of main_v190 : StableHlo.TRef sig ⟨S100000x128, .f32⟩) main_call9.cst main_call9.v0 (fun x v => Host.reduceAdd x v reducesTo_S100000x128_S128_d0 h_S_),
    StableHlo.TRef.unary main_call9.v0 main_call9.v1 (broadcastInDim S1x128 ![1] bcast_S128_S1x128_1),
    StableHlo.TRef.nullary main_call9.cst_0 (constant S_ .f32 0x47C35000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S100000x128 ![0, 1] bcast_S1x128_S100000x128_0_1),
    StableHlo.TRef.binary (.of main_v190 : StableHlo.TRef sig ⟨S100000x128, .f32⟩) main_call9.v4 main_call9.v5 subf,
    StableHlo.TRef.binary main_call9.v5 main_call9.v5 main_call9.v6 mulf,
    StableHlo.TRef.unary (.of main_c_31 : StableHlo.TRef sig ⟨S_, .i32⟩) main_call9.v7 (sitofp .f32),
    StableHlo.TRef.nullary main_call9.cst_1 (constant S_ .f32 0x47C35000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v193 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v196 main_v197 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v198 (broadcastInDim S128 ![] bcast_S_S128 : (⟨S_, .f32⟩ : BufTy).Contents (Elt F) → (⟨S128, .f32⟩ : BufTy).Contents (Elt F)),
    StableHlo.binary main_v194 main_v198 main_v199 (addf : (⟨S128, .f32⟩ : BufTy).Contents (Elt F) → (⟨S128, .f32⟩ : BufTy).Contents (Elt F) → (⟨S128, .f32⟩ : BufTy).Contents (Elt F)),
    StableHlo.unary main_v199 main_v200 (Host.rsqrt : (⟨S128, .f32⟩ : BufTy).Contents (Elt F) → (⟨S128, .f32⟩ : BufTy).Contents (Elt F)),
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v197 main_v202 main_v203 (mulf : (⟨S100000x128, .f32⟩ : BufTy).Contents (Elt F) → (⟨S100000x128, .f32⟩ : BufTy).Contents (Elt F) → (⟨S100000x128, .f32⟩ : BufTy).Contents (Elt F)),
    StableHlo.unary main_arg5 main_v204 ((extractStridedSlice S1x128 ![4, 0] · slices_S6x128_S1x128_4_0) : (⟨S6x128, .f32⟩ : BufTy).Contents (Elt F) → (⟨S1x128, .f32⟩ : BufTy).Contents (Elt F)),
    StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v207 main_v208 (mulf : (⟨S100000x128, .f32⟩ : BufTy).Contents (Elt F) → (⟨S100000x128, .f32⟩ : BufTy).Contents (Elt F) → (⟨S100000x128, .f32⟩ : BufTy).Contents (Elt F)),
    StableHlo.unary main_arg6 main_v209 ((extractStridedSlice S1x128 ![4, 0] · slices_S6x128_S1x128_4_0) : (⟨S6x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v212 main_v213 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B4_W : List (Ref sig .tc) := [main_cst_29, main_v191, main_cst_30, main_v192, main_v193, main_c_31, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v194, main_v195, main_v196, main_v197, main_cst_32, main_v198, main_v199, main_v200, main_v201, main_v202, main_v203, main_v204, main_v205, main_v206, main_v207, main_v208, main_v209, main_v210, main_v211, main_v212, main_v213]

set_option maxRecDepth 8192 in
theorem B4_writes : (B4 : List (HloOp τ sig (Elt F))).Forall fun op => op.writes ⊆ (B4_W.map (Proc.devRef (τ := τ) .tc)).toFinset :=
  ⟨writes_sub_of_mem (y := main_cst_29) rfl (by decide),
    writes_sub_of_mem (y := main_v191) rfl (by decide),
    writes_sub_of_mem (y := main_cst_30) rfl (by decide),
    writes_sub_of_mem (y := main_v192) rfl (by decide),
    writes_sub_of_mem (y := main_v193) rfl (by decide),
    writes_sub_of_mem (y := main_c_31) rfl (by decide),
    writes_sub_of_mem (y := main_call9_cst) rfl (by decide),
    writes_sub_of_mem (y := main_call9_v0) rfl (by decide),
    writes_sub_of_mem (y := main_call9_v1) rfl (by decide),
    writes_sub_of_mem (y := main_call9_cst_0) rfl (by decide),
    writes_sub_of_mem (y := main_call9_v2) rfl (by decide),
    writes_sub_of_mem (y := main_call9_v3) rfl (by decide),
    writes_sub_of_mem (y := main_call9_v4) rfl (by decide),
    writes_sub_of_mem (y := main_call9_v5) rfl (by decide),
    writes_sub_of_mem (y := main_call9_v6) rfl (by decide),
    writes_sub_of_mem (y := main_call9_v7) rfl (by decide),
    writes_sub_of_mem (y := main_call9_cst_1) rfl (by decide),
    writes_sub_of_mem (y := main_call9_v8) rfl (by decide),
    writes_sub_of_mem (y := main_call9_cst_2) rfl (by decide),
    writes_sub_of_mem (y := main_call9_v9) rfl (by decide),
    writes_sub_of_mem (y := main_call9_v10) rfl (by decide),
    writes_sub_of_mem (y := main_call9_v11) rfl (by decide),
    writes_sub_of_mem (y := main_call9_cst_3) rfl (by decide),
    writes_sub_of_mem (y := main_call9_v12) rfl (by decide),
    writes_sub_of_mem (y := main_call9_cst_4) rfl (by decide),
    writes_sub_of_mem (y := main_call9_call0_v0) rfl (by decide),
    writes_sub_of_mem (y := main_call9_call0_v1) rfl (by decide),
    writes_sub_of_mem (y := main_v194) rfl (by decide),
    writes_sub_of_mem (y := main_v195) rfl (by decide),
    writes_sub_of_mem (y := main_v196) rfl (by decide),
    writes_sub_of_mem (y := main_v197) rfl (by decide),
    writes_sub_of_mem (y := main_cst_32) rfl (by decide),
    writes_sub_of_mem (y := main_v198) rfl (by decide),
    writes_sub_of_mem (y := main_v199) rfl (by decide),
    writes_sub_of_mem (y := main_v200) rfl (by decide),
    writes_sub_of_mem (y := main_v201) rfl (by decide),
    writes_sub_of_mem (y := main_v202) rfl (by decide),
    writes_sub_of_mem (y := main_v203) rfl (by decide),
    writes_sub_of_mem (y := main_v204) rfl (by decide),
    writes_sub_of_mem (y := main_v205) rfl (by decide),
    writes_sub_of_mem (y := main_v206) rfl (by decide),
    writes_sub_of_mem (y := main_v207) rfl (by decide),
    writes_sub_of_mem (y := main_v208) rfl (by decide),
    writes_sub_of_mem (y := main_v209) rfl (by decide),
    writes_sub_of_mem (y := main_v210) rfl (by decide),
    writes_sub_of_mem (y := main_v211) rfl (by decide),
    writes_sub_of_mem (y := main_v212) rfl (by decide),
    writes_sub_of_mem (y := main_v213) rfl (by decide)⟩

/-- A buffer they do not write holds after them what it held before. -/
theorem B4_keep (V : Valuation τ sig (Elt F)) (r : Ref sig .tc) (h : r ∉ B4_W) :
    after B4 V (Proc.devRef .tc r) = V (Proc.devRef .tc r) :=
  after_of_writes_sub B4 V B4_writes h

/-- @main's operations 365 … 388. -/
abbrev A5 : List (HloOp τ sig (Elt F)) :=
  [ StableHlo.unary main_arg3 main_v214 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_33 (constantI S_ 32 0#32),
    StableHlo.unary main_c_33 main_v217 (broadcastInDim S600000 ![] bcast_S_S600000 : (⟨S_, .i32⟩ : BufTy).Contents (Elt F) → (⟨S600000, .i32⟩ : BufTy).Contents (Elt F)),
    StableHlo.binary main_v1 main_v217 main_v218 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 100000#32),
    StableHlo.unary main_c_34 main_v219 (broadcastInDim S600000 ![] bcast_S_S600000 : (⟨S_, .i32⟩ : BufTy).Contents (Elt F) → (⟨S600000, .i32⟩ : BufTy).Contents (Elt F)),
    StableHlo.binary main_v1 main_v219 main_v220 (addi : (⟨S600000, .i32⟩ : BufTy).Contents (Elt F) → (⟨S600000, .i32⟩ : BufTy).Contents (Elt F) → (⟨S600000, .i32⟩ : BufTy).Contents (Elt F)),
    StableHlo.ternary main_v218 main_v220 main_v1 main_v221 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v221 main_v222 (broadcastInDim S600000x1 ![0] bcast_S600000_S600000x1_0 : (⟨S600000, .i32⟩ : BufTy).Contents (Elt F) → (⟨S600000x1, .i32⟩ : BufTy).Contents (Elt F)),
    StableHlo.binary main_v216 main_v222 main_v223 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_35 (constant S_ .f32 0x00000000#32),
    StableHlo.unary main_cst_35 main_v224 (broadcastInDim S100000x128 ![] bcast_S_S100000x128 : (⟨S_, .f32⟩ : BufTy).Contents (Elt F) → (⟨S100000x128, .f32⟩ : BufTy).Contents (Elt F)),
    StableHlo.unary main_v3 main_v225 (broadcastInDim S600000x1 ![0] bcast_S600000_S600000x1_0 : (⟨S600000, .i32⟩ : BufTy).Contents (Elt F) → (⟨S600000x1, .i32⟩ : BufTy).Contents (Elt F)),
    StableHlo.ternary main_v224 main_v225 main_v223 main_v226 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg4 main_v227 ((extractStridedSlice S1x128 ![5, 0] · slices_S6x128_S1x128_5_0) : (⟨S6x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v231 : StableHlo.TRef sig ⟨S100000x128, .f32⟩) main_call10.v0 main_call10.v1 maximumf ]

/-- The buffers they write. -/
abbrev A5_W : List (Ref sig .tc) := [main_v214, main_v215, main_v216, main_c_33, main_v217, main_v218, main_c_34, main_v219, main_v220, main_v221, main_v222, main_v223, main_cst_35, main_v224, main_v225, main_v226, main_v227, main_v228, main_v229, main_v230, main_v231, main_call10_cst, main_call10_v0, main_v232]

set_option maxRecDepth 8192 in
theorem A5_writes : (A5 : List (HloOp τ sig (Elt F))).Forall fun op => op.writes ⊆ (A5_W.map (Proc.devRef (τ := τ) .tc)).toFinset :=
  ⟨writes_sub_of_mem (y := main_v214) rfl (by decide),
    writes_sub_of_mem (y := main_v215) rfl (by decide),
    writes_sub_of_mem (y := main_v216) rfl (by decide),
    writes_sub_of_mem (y := main_c_33) rfl (by decide),
    writes_sub_of_mem (y := main_v217) rfl (by decide),
    writes_sub_of_mem (y := main_v218) rfl (by decide),
    writes_sub_of_mem (y := main_c_34) rfl (by decide),
    writes_sub_of_mem (y := main_v219) rfl (by decide),
    writes_sub_of_mem (y := main_v220) rfl (by decide),
    writes_sub_of_mem (y := main_v221) rfl (by decide),
    writes_sub_of_mem (y := main_v222) rfl (by decide),
    writes_sub_of_mem (y := main_v223) rfl (by decide),
    writes_sub_of_mem (y := main_cst_35) rfl (by decide),
    writes_sub_of_mem (y := main_v224) rfl (by decide),
    writes_sub_of_mem (y := main_v225) rfl (by decide),
    writes_sub_of_mem (y := main_v226) rfl (by decide),
    writes_sub_of_mem (y := main_v227) rfl (by decide),
    writes_sub_of_mem (y := main_v228) rfl (by decide),
    writes_sub_of_mem (y := main_v229) rfl (by decide),
    writes_sub_of_mem (y := main_v230) rfl (by decide),
    writes_sub_of_mem (y := main_v231) rfl (by decide),
    writes_sub_of_mem (y := main_call10_cst) rfl (by decide),
    writes_sub_of_mem (y := main_call10_v0) rfl (by decide),
    writes_sub_of_mem (y := main_v232) rfl (by decide)⟩

/-- A buffer they do not write holds after them what it held before. -/
theorem A5_keep (V : Valuation τ sig (Elt F)) (r : Ref sig .tc) (h : r ∉ A5_W) :
    after A5 V (Proc.devRef .tc r) = V (Proc.devRef .tc r) :=
  after_of_writes_sub A5 V A5_writes h

/-- @main's operations 389 … 436. -/
abbrev B5 : List (HloOp τ sig (Elt F)) :=
  [ StableHlo.nullary main_cst_36 (constant S_ .f32 0x00000000#32),
    StableHlo.binary main_v232 main_cst_36 main_v233 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v234 (broadcastInDim S128 ![] bcast_S_S128 : (⟨S_, .f32⟩ : BufTy).Contents (Elt F) → (⟨S128, .f32⟩ : BufTy).Contents (Elt F)),
    StableHlo.binary main_v233 main_v234 main_v235 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call11.cst (constant S_ .f32 0x00000000#32),
    StableHlo.TRef.binary (.of main_v232 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v232 : StableHlo.TRef sig ⟨S100000x128, .f32⟩) main_call11.v4 main_call11.v5 subf,
    StableHlo.TRef.binary main_call11.v5 main_call11.v5 main_call11.v6 mulf,
    StableHlo.TRef.unary (.of main_c_38 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v235 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S100000x128 ![0, 1] bcast_S1x128_S100000x128_0_1 : (⟨S1x128, .f32⟩ : BufTy).Contents (Elt F) → (⟨S100000x128, .f32⟩ : BufTy).Contents (Elt F)),
    StableHlo.binary main_v232 main_v238 main_v239 (subf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v240 (broadcastInDim S128 ![] bcast_S_S128 : (⟨S_, .f32⟩ : BufTy).Contents (Elt F) → (⟨S128, .f32⟩ : BufTy).Contents (Elt F)),
    StableHlo.binary main_v236 main_v240 main_v241 (addf : (⟨S128, .f32⟩ : BufTy).Contents (Elt F) → (⟨S128, .f32⟩ : BufTy).Contents (Elt F) → (⟨S128, .f32⟩ : BufTy).Contents (Elt F)),
    StableHlo.unary main_v241 main_v242 (Host.rsqrt : (⟨S128, .f32⟩ : BufTy).Contents (Elt F) → (⟨S128, .f32⟩ : BufTy).Contents (Elt F)),
    StableHlo.unary main_v242 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S100000x128 ![0, 1] bcast_S1x128_S100000x128_0_1 : (⟨S1x128, .f32⟩ : BufTy).Contents (Elt F) → (⟨S100000x128, .f32⟩ : BufTy).Contents (Elt F)),
    StableHlo.binary main_v239 main_v244 main_v245 (mulf : (⟨S100000x128, .f32⟩ : BufTy).Contents (Elt F) → (⟨S100000x128, .f32⟩ : BufTy).Contents (Elt F) → (⟨S100000x128, .f32⟩ : BufTy).Contents (Elt F)),
    StableHlo.unary main_arg5 main_v246 ((extractStridedSlice S1x128 ![5, 0] · slices_S6x128_S1x128_5_0) : (⟨S6x128, .f32⟩ : BufTy).Contents (Elt F) → (⟨S1x128, .f32⟩ : BufTy).Contents (Elt F)),
    StableHlo.reshape main_v246 main_v247 rfl shapeCasts_S1x128_S128,
    StableHlo.unary main_v247 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S100000x128 ![0, 1] bcast_S1x128_S100000x128_0_1 : (⟨S1x128, .f32⟩ : BufTy).Contents (Elt F) → (⟨S100000x128, .f32⟩ : BufTy).Contents (Elt F)),
    StableHlo.binary main_v245 main_v249 main_v250 (mulf : (⟨S100000x128, .f32⟩ : BufTy).Contents (Elt F) → (⟨S100000x128, .f32⟩ : BufTy).Contents (Elt F) → (⟨S100000x128, .f32⟩ : BufTy).Contents (Elt F)),
    StableHlo.unary main_arg6 main_v251 ((extractStridedSlice S1x128 ![5, 0] · slices_S6x128_S1x128_5_0) : (⟨S6x128, .f32⟩ : BufTy).Contents (Elt F) → (⟨S1x128, .f32⟩ : BufTy).Contents (Elt F)),
    StableHlo.reshape main_v251 main_v252 rfl shapeCasts_S1x128_S128,
    StableHlo.unary main_v252 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S100000x128 ![0, 1] bcast_S1x128_S100000x128_0_1 : (⟨S1x128, .f32⟩ : BufTy).Contents (Elt F) → (⟨S100000x128, .f32⟩ : BufTy).Contents (Elt F)),
    StableHlo.binary main_v250 main_v254 main_v255 (addf : (⟨S100000x128, .f32⟩ : BufTy).Contents (Elt F) → (⟨S100000x128, .f32⟩ : BufTy).Contents (Elt F) → (⟨S100000x128, .f32⟩ : BufTy).Contents (Elt F)) ]

/-- The buffers they write. -/
abbrev B5_W : List (Ref sig .tc) := [main_cst_36, main_v233, main_cst_37, main_v234, main_v235, main_c_38, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v236, main_v237, main_v238, main_v239, main_cst_39, main_v240, main_v241, main_v242, main_v243, main_v244, main_v245, main_v246, main_v247, main_v248, main_v249, main_v250, main_v251, main_v252, main_v253, main_v254, main_v255]

set_option maxRecDepth 8192 in
theorem B5_writes : (B5 : List (HloOp τ sig (Elt F))).Forall fun op => op.writes ⊆ (B5_W.map (Proc.devRef (τ := τ) .tc)).toFinset :=
  ⟨writes_sub_of_mem (y := main_cst_36) rfl (by decide),
    writes_sub_of_mem (y := main_v233) rfl (by decide),
    writes_sub_of_mem (y := main_cst_37) rfl (by decide),
    writes_sub_of_mem (y := main_v234) rfl (by decide),
    writes_sub_of_mem (y := main_v235) rfl (by decide),
    writes_sub_of_mem (y := main_c_38) rfl (by decide),
    writes_sub_of_mem (y := main_call11_cst) rfl (by decide),
    writes_sub_of_mem (y := main_call11_v0) rfl (by decide),
    writes_sub_of_mem (y := main_call11_v1) rfl (by decide),
    writes_sub_of_mem (y := main_call11_cst_0) rfl (by decide),
    writes_sub_of_mem (y := main_call11_v2) rfl (by decide),
    writes_sub_of_mem (y := main_call11_v3) rfl (by decide),
    writes_sub_of_mem (y := main_call11_v4) rfl (by decide),
    writes_sub_of_mem (y := main_call11_v5) rfl (by decide),
    writes_sub_of_mem (y := main_call11_v6) rfl (by decide),
    writes_sub_of_mem (y := main_call11_v7) rfl (by decide),
    writes_sub_of_mem (y := main_call11_cst_1) rfl (by decide),
    writes_sub_of_mem (y := main_call11_v8) rfl (by decide),
    writes_sub_of_mem (y := main_call11_cst_2) rfl (by decide),
    writes_sub_of_mem (y := main_call11_v9) rfl (by decide),
    writes_sub_of_mem (y := main_call11_v10) rfl (by decide),
    writes_sub_of_mem (y := main_call11_v11) rfl (by decide),
    writes_sub_of_mem (y := main_call11_cst_3) rfl (by decide),
    writes_sub_of_mem (y := main_call11_v12) rfl (by decide),
    writes_sub_of_mem (y := main_call11_cst_4) rfl (by decide),
    writes_sub_of_mem (y := main_call11_call0_v0) rfl (by decide),
    writes_sub_of_mem (y := main_call11_call0_v1) rfl (by decide),
    writes_sub_of_mem (y := main_v236) rfl (by decide),
    writes_sub_of_mem (y := main_v237) rfl (by decide),
    writes_sub_of_mem (y := main_v238) rfl (by decide),
    writes_sub_of_mem (y := main_v239) rfl (by decide),
    writes_sub_of_mem (y := main_cst_39) rfl (by decide),
    writes_sub_of_mem (y := main_v240) rfl (by decide),
    writes_sub_of_mem (y := main_v241) rfl (by decide),
    writes_sub_of_mem (y := main_v242) rfl (by decide),
    writes_sub_of_mem (y := main_v243) rfl (by decide),
    writes_sub_of_mem (y := main_v244) rfl (by decide),
    writes_sub_of_mem (y := main_v245) rfl (by decide),
    writes_sub_of_mem (y := main_v246) rfl (by decide),
    writes_sub_of_mem (y := main_v247) rfl (by decide),
    writes_sub_of_mem (y := main_v248) rfl (by decide),
    writes_sub_of_mem (y := main_v249) rfl (by decide),
    writes_sub_of_mem (y := main_v250) rfl (by decide),
    writes_sub_of_mem (y := main_v251) rfl (by decide),
    writes_sub_of_mem (y := main_v252) rfl (by decide),
    writes_sub_of_mem (y := main_v253) rfl (by decide),
    writes_sub_of_mem (y := main_v254) rfl (by decide),
    writes_sub_of_mem (y := main_v255) rfl (by decide)⟩

/-- A buffer they do not write holds after them what it held before. -/
theorem B5_keep (V : Valuation τ sig (Elt F)) (r : Ref sig .tc) (h : r ∉ B5_W) :
    after B5 V (Proc.devRef .tc r) = V (Proc.devRef .tc r) :=
  after_of_writes_sub B5 V B5_writes h

/-- @main's operations 437 … 475. -/
abbrev tail : List (HloOp τ sig (Elt F)) :=
  [ StableHlo.nullary main_cst_40 (constant S_ .f32 0x00000000#32),
    StableHlo.unary main_cst_40 main_v256 (broadcastInDim S64x128 ![] bcast_S_S64x128 : (⟨S_, .f32⟩ : BufTy).Contents (Elt F) → (⟨S64x128, .f32⟩ : BufTy).Contents (Elt F)),
    StableHlo.unary main_arg2 main_v257 (broadcastInDim S100000x1 ![0] bcast_S100000_S100000x1_0 : (⟨S100000, .i32⟩ : BufTy).Contents (Elt F) → (⟨S100000x1, .i32⟩ : BufTy).Contents (Elt F)),
    StableHlo.ternary main_v256 main_v257 main_v255 main_v258 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_41 (constant S_ .f32 0x3F800000#32),
    StableHlo.unary main_cst_41 main_v259 (broadcastInDim S100000 ![] bcast_S_S100000 : (⟨S_, .f32⟩ : BufTy).Contents (Elt F) → (⟨S100000, .f32⟩ : BufTy).Contents (Elt F)),
    StableHlo.nullary main_cst_42 (constant S_ .f32 0x00000000#32),
    StableHlo.unary main_cst_42 main_v260 (broadcastInDim S64 ![] bcast_S_S64 : (⟨S_, .f32⟩ : BufTy).Contents (Elt F) → (⟨S64, .f32⟩ : BufTy).Contents (Elt F)),
    StableHlo.unary main_arg2 main_v261 (broadcastInDim S100000x1 ![0] bcast_S100000_S100000x1_0 : (⟨S100000, .i32⟩ : BufTy).Contents (Elt F) → (⟨S100000x1, .i32⟩ : BufTy).Contents (Elt F)),
    StableHlo.ternary main_v260 main_v261 main_v259 main_v262 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_43 (constant S_ .f32 0x3F800000#32),
    StableHlo.unary main_cst_43 main_v263 (broadcastInDim S64 ![] bcast_S_S64 : (⟨S_, .f32⟩ : BufTy).Contents (Elt F) → (⟨S64, .f32⟩ : BufTy).Contents (Elt F)),
    StableHlo.binary main_v262 main_v263 main_v264 (maximumf : (⟨S64, .f32⟩ : BufTy).Contents (Elt F) → (⟨S64, .f32⟩ : BufTy).Contents (Elt F) → (⟨S64, .f32⟩ : BufTy).Contents (Elt F)),
    StableHlo.unary main_v264 main_v265 (broadcastInDim S64x1 ![0] bcast_S64_S64x1_0 : (⟨S64, .f32⟩ : BufTy).Contents (Elt F) → (⟨S64x1, .f32⟩ : BufTy).Contents (Elt F)),
    StableHlo.unary main_v265 main_v266 (broadcastInDim S64x128 ![0, 1] bcast_S64x1_S64x128_0_1 : (⟨S64x1, .f32⟩ : BufTy).Contents (Elt F) → (⟨S64x128, .f32⟩ : BufTy).Contents (Elt F)),
    StableHlo.binary main_v258 main_v266 main_v267 (Host.divf : (⟨S64x128, .f32⟩ : BufTy).Contents (Elt F) → (⟨S64x128, .f32⟩ : BufTy).Contents (Elt F) → (⟨S64x128, .f32⟩ : BufTy).Contents (Elt F)),
    StableHlo.binary main_v267 main_arg7 main_v268 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg8 main_v269 (broadcastInDim S1x64 ![1] bcast_S64_S1x64_1 : (⟨S64, .f32⟩ : BufTy).Contents (Elt F) → (⟨S1x64, .f32⟩ : BufTy).Contents (Elt F)),
    StableHlo.unary main_v269 main_v270 (broadcastInDim S64x64 ![0, 1] bcast_S1x64_S64x64_0_1 : (⟨S1x64, .f32⟩ : BufTy).Contents (Elt F) → (⟨S64x64, .f32⟩ : BufTy).Contents (Elt F)),
    StableHlo.binary main_v268 main_v270 main_v271 (addf : (⟨S64x64, .f32⟩ : BufTy).Contents (Elt F) → (⟨S64x64, .f32⟩ : BufTy).Contents (Elt F) → (⟨S64x64, .f32⟩ : BufTy).Contents (Elt F)),
    StableHlo.binary main_v271 main_arg9 main_v272 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F)),
    StableHlo.unary main_arg10 main_v273 (broadcastInDim S1x4 ![1] bcast_S4_S1x4_1 : (⟨S4, .f32⟩ : BufTy).Contents (Elt F) → (⟨S1x4, .f32⟩ : BufTy).Contents (Elt F)),
    StableHlo.unary main_v273 main_v274 (broadcastInDim S64x4 ![0, 1] bcast_S1x4_S64x4_0_1 : (⟨S1x4, .f32⟩ : BufTy).Contents (Elt F) → (⟨S64x4, .f32⟩ : BufTy).Contents (Elt F)),
    StableHlo.binary main_v272 main_v274 main_v275 (addf : (⟨S64x4, .f32⟩ : BufTy).Contents (Elt F) → (⟨S64x4, .f32⟩ : BufTy).Contents (Elt F) → (⟨S64x4, .f32⟩ : BufTy).Contents (Elt F)),
    StableHlo.TRef.nullary main_call12.cst (constant S_ .f32 0xFF800000#32),
    StableHlo.TRef.binary (.of main_v275 : StableHlo.TRef sig ⟨S64x4, .f32⟩) main_call12.cst main_call12.v0 (fun x v => Host.reduce FloatOps.maximumf x v reducesTo_S64x4_S64_d1 h_S_),
    StableHlo.TRef.nullary main_call12.cst_0 (constant S_ .f32 0xFF800000#32),
    StableHlo.TRef.unary main_call12.cst_0 main_call12.v1 (broadcastInDim S64 ![] bcast_S_S64),
    StableHlo.TRef.binary main_call12.v1 main_call12.v0 main_call12.v2 maximumf,
    StableHlo.TRef.unary main_call12.v2 main_call12.v3 (broadcastInDim S64x1 ![0] bcast_S64_S64x1_0),
    StableHlo.TRef.unary main_call12.v3 main_call12.v4 (broadcastInDim S64x4 ![0, 1] bcast_S64x1_S64x4_0_1),
    StableHlo.TRef.binary (.of main_v275 : StableHlo.TRef sig ⟨S64x4, .f32⟩) main_call12.v4 main_call12.v5 subf,
    StableHlo.TRef.unary main_call12.v5 main_call12.v6 Host.exp,
    StableHlo.TRef.nullary main_call12.cst_1 (constant S_ .f32 0x00000000#32),
    StableHlo.TRef.binary main_call12.v6 main_call12.cst_1 main_call12.v7 (fun x v => Host.reduceAdd x v reducesTo_S64x4_S64_d1 h_S_),
    StableHlo.TRef.unary main_call12.v7 main_call12.v8 (broadcastInDim S64x1 ![0] bcast_S64_S64x1_0),
    StableHlo.TRef.unary main_call12.v8 main_call12.v9 Host.log,
    StableHlo.TRef.unary main_call12.v9 main_call12.v10 (broadcastInDim S64x4 ![0, 1] bcast_S64x1_S64x4_0_1),
    StableHlo.TRef.binary main_call12.v5 main_call12.v10 main_call12.v11 subf ]

/-- The buffers they write. -/
abbrev tail_W : List (Ref sig .tc) := [main_cst_40, main_v256, main_v257, main_v258, main_cst_41, main_v259, main_cst_42, main_v260, main_v261, main_v262, main_cst_43, main_v263, main_v264, main_v265, main_v266, main_v267, main_v268, main_v269, main_v270, main_v271, main_v272, main_v273, main_v274, main_v275, main_call12_cst, main_call12_v0, main_call12_cst_0, main_call12_v1, main_call12_v2, main_call12_v3, main_call12_v4, main_call12_v5, main_call12_v6, main_call12_cst_1, main_call12_v7, main_call12_v8, main_call12_v9, main_call12_v10, main_v276]

set_option maxRecDepth 8192 in
theorem tail_writes : (tail : List (HloOp τ sig (Elt F))).Forall fun op => op.writes ⊆ (tail_W.map (Proc.devRef (τ := τ) .tc)).toFinset :=
  ⟨writes_sub_of_mem (y := main_cst_40) rfl (by decide),
    writes_sub_of_mem (y := main_v256) rfl (by decide),
    writes_sub_of_mem (y := main_v257) rfl (by decide),
    writes_sub_of_mem (y := main_v258) rfl (by decide),
    writes_sub_of_mem (y := main_cst_41) rfl (by decide),
    writes_sub_of_mem (y := main_v259) rfl (by decide),
    writes_sub_of_mem (y := main_cst_42) rfl (by decide),
    writes_sub_of_mem (y := main_v260) rfl (by decide),
    writes_sub_of_mem (y := main_v261) rfl (by decide),
    writes_sub_of_mem (y := main_v262) rfl (by decide),
    writes_sub_of_mem (y := main_cst_43) rfl (by decide),
    writes_sub_of_mem (y := main_v263) rfl (by decide),
    writes_sub_of_mem (y := main_v264) rfl (by decide),
    writes_sub_of_mem (y := main_v265) rfl (by decide),
    writes_sub_of_mem (y := main_v266) rfl (by decide),
    writes_sub_of_mem (y := main_v267) rfl (by decide),
    writes_sub_of_mem (y := main_v268) rfl (by decide),
    writes_sub_of_mem (y := main_v269) rfl (by decide),
    writes_sub_of_mem (y := main_v270) rfl (by decide),
    writes_sub_of_mem (y := main_v271) rfl (by decide),
    writes_sub_of_mem (y := main_v272) rfl (by decide),
    writes_sub_of_mem (y := main_v273) rfl (by decide),
    writes_sub_of_mem (y := main_v274) rfl (by decide),
    writes_sub_of_mem (y := main_v275) rfl (by decide),
    writes_sub_of_mem (y := main_call12_cst) rfl (by decide),
    writes_sub_of_mem (y := main_call12_v0) rfl (by decide),
    writes_sub_of_mem (y := main_call12_cst_0) rfl (by decide),
    writes_sub_of_mem (y := main_call12_v1) rfl (by decide),
    writes_sub_of_mem (y := main_call12_v2) rfl (by decide),
    writes_sub_of_mem (y := main_call12_v3) rfl (by decide),
    writes_sub_of_mem (y := main_call12_v4) rfl (by decide),
    writes_sub_of_mem (y := main_call12_v5) rfl (by decide),
    writes_sub_of_mem (y := main_call12_v6) rfl (by decide),
    writes_sub_of_mem (y := main_call12_cst_1) rfl (by decide),
    writes_sub_of_mem (y := main_call12_v7) rfl (by decide),
    writes_sub_of_mem (y := main_call12_v8) rfl (by decide),
    writes_sub_of_mem (y := main_call12_v9) rfl (by decide),
    writes_sub_of_mem (y := main_call12_v10) rfl (by decide),
    writes_sub_of_mem (y := main_v276) rfl (by decide)⟩

/-- A buffer they do not write holds after them what it held before. -/
theorem tail_keep (V : Valuation τ sig (Elt F)) (r : Ref sig .tc) (h : r ∉ tail_W) :
    after tail V (Proc.devRef .tc r) = V (Proc.devRef .tc r) :=
  after_of_writes_sub tail V tail_writes h

set_option maxRecDepth 65536 in
/-- @main's operations are the cuts in order. -/
theorem ops_eq_cut : (ops : List (HloOp τ sig (Elt F))) = pre ++ (A0 ++ (B0 ++ (A1 ++ (B1 ++ (A2 ++ (B2 ++ (A3 ++ (B3 ++ (A4 ++ (B4 ++ (A5 ++ (B5 ++ (tail))))))))))))) := rfl

/-- The fold over @main's operations is the cuts' folds, each from the one before. -/
theorem after_cut (V : Valuation τ sig (Elt F)) :
    after ops V = after tail (after B5 (after A5 (after B4 (after A4 (after B3 (after A3 (after B2 (after A2 (after B1 (after A1 (after B0 (after A0 (after pre (V)))))))))))))) := by
  rw [ops_eq_cut]
  simp only [after_app]

end Cert.ReferenceIdeal.Hand

end
-- ==== Proof.Ref.RSpec.lean ====
import proofs.«400512_j87187836109057_1_alg».proof.ReferenceIdeal

/-! The reference's value as a function of its eleven arguments: the composition of the operations
    the printed @main lists, the callees' operations in place of their calls, in the operations' own
    spelling. One graph-convolution layer is rLayer; the pooling, the two dense layers and the
    log-softmax are rTail; the whole is rOut. Every definition is stated for any float values F
    (the ideal instance is the case F := Ideal, inferred from the arguments' types). -/

noncomputable section

namespace Cert.ReferenceIdeal.Spec

open Idealize.ShloMosaic Idealize.SL.Sem
open Cert.ReferenceIdeal
open Cert.ReferenceIdeal.Facts₀ Cert.ReferenceIdeal.Facts

variable {F : FTy → Type} [FloatOps F] [Facts]

/-! ## The arguments' slices -/

/-- Row 0 of edge_index: each edge's source node. -/
def rSrc (ei : IVec S2x600000 32) : IVec S600000 32 :=
  shapeCast S600000 (extractStridedSlice S1x600000 ![0, 0] ei slices_S2x600000_S1x600000_0_0) shapeCasts_S1x600000_S600000
/-- Row 1 of edge_index: each edge's destination node. -/
def rDst (ei : IVec S2x600000 32) : IVec S600000 32 :=
  shapeCast S600000 (extractStridedSlice S1x600000 ![1, 0] ei slices_S2x600000_S1x600000_1_0) shapeCasts_S1x600000_S600000

/-- Layer i's weight matrix conv_w[i], for i = 0 … 5. -/
def rW0 (w : FVec F S6x128x128 .f32) : FVec F S128x128 .f32 :=
  shapeCast S128x128 (extractStridedSlice S1x128x128 ![0, 0, 0] w slices_S6x128x128_S1x128x128_0_0_0) shapeCasts_S1x128x128_S128x128
def rW1 (w : FVec F S6x128x128 .f32) : FVec F S128x128 .f32 :=
  shapeCast S128x128 (extractStridedSlice S1x128x128 ![1, 0, 0] w slices_S6x128x128_S1x128x128_1_0_0) shapeCasts_S1x128x128_S128x128
def rW2 (w : FVec F S6x128x128 .f32) : FVec F S128x128 .f32 :=
  shapeCast S128x128 (extractStridedSlice S1x128x128 ![2, 0, 0] w slices_S6x128x128_S1x128x128_2_0_0) shapeCasts_S1x128x128_S128x128
def rW3 (w : FVec F S6x128x128 .f32) : FVec F S128x128 .f32 :=
  shapeCast S128x128 (extractStridedSlice S1x128x128 ![3, 0, 0] w slices_S6x128x128_S1x128x128_3_0_0) shapeCasts_S1x128x128_S128x128
def rW4 (w : FVec F S6x128x128 .f32) : FVec F S128x128 .f32 :=
  shapeCast S128x128 (extractStridedSlice S1x128x128 ![4, 0, 0] w slices_S6x128x128_S1x128x128_4_0_0) shapeCasts_S1x128x128_S128x128
def rW5 (w : FVec F S6x128x128 .f32) : FVec F S128x128 .f32 :=
  shapeCast S128x128 (extractStridedSlice S1x128x128 ![5, 0, 0] w slices_S6x128x128_S1x128x128_5_0_0) shapeCasts_S1x128x128_S128x128

/-- Row i of a 6 × 128 parameter (conv_b, bn_g, bn_b), for i = 0 … 5. -/
def rRow0 (p : FVec F S6x128 .f32) : FVec F S128 .f32 :=
  shapeCast S128 (extractStridedSlice S1x128 ![0, 0] p slices_S6x128_S1x128_0_0) shapeCasts_S1x128_S128
def rRow1 (p : FVec F S6x128 .f32) : FVec F S128 .f32 :=
  shapeCast S128 (extractStridedSlice S1x128 ![1, 0] p slices_S6x128_S1x128_1_0) shapeCasts_S1x128_S128
def rRow2 (p : FVec F S6x128 .f32) : FVec F S128 .f32 :=
  shapeCast S128 (extractStridedSlice S1x128 ![2, 0] p slices_S6x128_S1x128_2_0) shapeCasts_S1x128_S128
def rRow3 (p : FVec F S6x128 .f32) : FVec F S128 .f32 :=
  shapeCast S128 (extractStridedSlice S1x128 ![3, 0] p slices_S6x128_S1x128_3_0) shapeCasts_S1x128_S128
def rRow4 (p : FVec F S6x128 .f32) : FVec F S128 .f32 :=
  shapeCast S128 (extractStridedSlice S1x128 ![4, 0] p slices_S6x128_S1x128_4_0) shapeCasts_S1x128_S128
def rRow5 (p : FVec F S6x128 .f32) : FVec F S128 .f32 :=
  shapeCast S128 (extractStridedSlice S1x128 ![5, 0] p slices_S6x128_S1x128_5_0) shapeCasts_S1x128_S128

/-! ## One layer -/

/-- A 128-vector as a 100000 × 128 array constant down the rows. -/
def rBc (v : FVec F S128 .f32) : FVec F S100000x128 .f32 :=
  broadcastInDim S100000x128 ![0, 1] bcast_S1x128_S100000x128_0_1 (broadcastInDim S1x128 ![1] bcast_S128_S1x128_1 v)

/-- The gather's index column: a negative source index wrapped by the row count, the others as they are. -/
def rIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- segment_sum((h · W)[src], dst) + b: the transformed rows gathered along the edges' sources and
    summed into the edges' destinations, plus the bias. -/
def rAgg (h : FVec F S100000x128 .f32) (W : FVec F S128x128 .f32) (b : FVec F S128 .f32)
    (src dst : IVec S600000 32) : FVec F S100000x128 .f32 :=
  addf
    (Host.scatterAdd scatter_S100000x128_S600000x1_S600000x128_1_0_0_1
      (broadcastInDim S100000x128 ![] bcast_S_S100000x128 (constant (F := F) S_ .f32 0x00000000#32))
      (broadcastInDim S600000x1 ![0] bcast_S600000_S600000x1_0 dst)
      (Host.gather gather_S100000x128_S600000x1_S600000x128_1_0_n_n_0_1_1128
        (Host.dotGeneral dot_S100000x128_S128x128_S100000x128_1_0_0_1_n_n none h W) (rIdx src)))
    (rBc b)

/-- max(a, 0). -/
def rRelu (a : FVec F S100000x128 .f32) : FVec F S100000x128 .f32 :=
  maximumf a (broadcastInDim S100000x128 ![] bcast_S_S100000x128 (constant (F := F) S_ .f32 0x00000000#32))

/-- The column means: the column sums over 100000. -/
def rMean (x : FVec F S100000x128 .f32) : FVec F S128 .f32 :=
  Host.divf (Host.reduceAdd x (constant (F := F) S_ .f32 0x00000000#32) reducesTo_S100000x128_S128_d0 h_S_)
    (broadcastInDim S128 ![] bcast_S_S128 (constant (F := F) S_ .f32 0x47C35000#32))

/-- The centred array of the variance: x minus its column means (those computed at shape 1 × 128). -/
def rCen (x : FVec F S100000x128 .f32) : FVec F S100000x128 .f32 :=
  subf x (broadcastInDim S100000x128 ![0, 1] bcast_S1x128_S100000x128_0_1
    (Host.divf
      (broadcastInDim S1x128 ![1] bcast_S128_S1x128_1
        (Host.reduceAdd x (constant (F := F) S_ .f32 0x00000000#32) reducesTo_S100000x128_S128_d0 h_S_))
      (broadcastInDim S1x128 ![] bcast_S_S1x128 (constant (F := F) S_ .f32 0x47C35000#32))))

/-- The variance's divisor: 100000 - ddof with ddof = 0, as the float it is computed as. -/
def rDen : FVec F S_ .f32 :=
  subf (constant (F := F) S_ .f32 0x47C35000#32) (sitofp .f32 (constantI S_ 32 0#32))

/-- The biased column variances: the column sums of the squared centred array over the
    divisor, where the divisor is positive (else the not-a-number constant). -/
def rVar (x : FVec F S100000x128 .f32) : FVec F S128 .f32 :=
  select (broadcastInDim S128 ![] bcast_S_S128 (cmpf .ogt (rDen (F := F)) (constant (F := F) S_ .f32 0x00000000#32)))
    (Host.divf
      (Host.reduceAdd (mulf (rCen x) (rCen x)) (constant (F := F) S_ .f32 0x00000000#32) reducesTo_S100000x128_S128_d0 h_S_)
      (broadcastInDim S128 ![] bcast_S_S128 (rDen (F := F))))
    (broadcastInDim S128 ![] bcast_S_S128 (constant (F := F) S_ .f32 0x7FC00000#32))

/-- Batch normalisation with the batch's own statistics: (x - mean) · rsqrt(var + ε) · γ + β. -/
def rBn (x : FVec F S100000x128 .f32) (g β : FVec F S128 .f32) : FVec F S100000x128 .f32 :=
  addf
    (mulf
      (mulf (subf x (rBc (rMean x)))
        (rBc (Host.rsqrt (addf (rVar x) (broadcastInDim S128 ![] bcast_S_S128 (constant (F := F) S_ .f32 0x3727C5AC#32))))))
      (rBc g))
    (rBc β)

/-- One layer: transform, aggregate along the edges, bias, rectify, normalise. -/
def rLayer (h : FVec F S100000x128 .f32) (W : FVec F S128x128 .f32) (b g β : FVec F S128 .f32)
    (src dst : IVec S600000 32) : FVec F S100000x128 .f32 :=
  rBn (rRelu (rAgg h W b src dst)) g β

/-! ## The tail -/

/-- The mean of each graph's rows: the rows summed by graph over the graphs' row counts (at least one). -/
def rPool (h : FVec F S100000x128 .f32) (batch : IVec S100000 32) : FVec F S64x128 .f32 :=
  Host.divf
    (Host.scatterAdd scatter_S64x128_S100000x1_S100000x128_1_0_0_1
      (broadcastInDim S64x128 ![] bcast_S_S64x128 (constant (F := F) S_ .f32 0x00000000#32))
      (broadcastInDim S100000x1 ![0] bcast_S100000_S100000x1_0 batch) h)
    (broadcastInDim S64x128 ![0, 1] bcast_S64x1_S64x128_0_1
      (broadcastInDim S64x1 ![0] bcast_S64_S64x1_0
        (maximumf
          (Host.scatterAdd scatter_S64_S100000x1_S100000_n_0_0_1
            (broadcastInDim S64 ![] bcast_S_S64 (constant (F := F) S_ .f32 0x00000000#32))
            (broadcastInDim S100000x1 ![0] bcast_S100000_S100000x1_0 batch)
            (broadcastInDim S100000 ![] bcast_S_S100000 (constant (F := F) S_ .f32 0x3F800000#32)))
          (broadcastInDim S64 ![] bcast_S_S64 (constant (F := F) S_ .f32 0x3F800000#32)))))

/-- The two dense layers on the pooled rows. -/
def rLin (p : FVec F S64x128 .f32) (lin1_w : FVec F S128x64 .f32) (lin1_b : FVec F S64 .f32)
    (lin2_w : FVec F S64x4 .f32) (lin2_b : FVec F S4 .f32) : FVec F S64x4 .f32 :=
  addf
    (Host.dotGeneral dot_S64x64_S64x4_S64x4_1_0_0_1_n_n none
      (addf (Host.dotGeneral dot_S64x128_S128x64_S64x64_1_0_0_1_n_n none p lin1_w)
        (broadcastInDim S64x64 ![0, 1] bcast_S1x64_S64x64_0_1 (broadcastInDim S1x64 ![1] bcast_S64_S1x64_1 lin1_b)))
      lin2_w)
    (broadcastInDim S64x4 ![0, 1] bcast_S1x4_S64x4_0_1 (broadcastInDim S1x4 ![1] bcast_S4_S1x4_1 lin2_b))

/-- A 64-vector as a 64 × 4 array constant along the rows. -/
def rBc4 (v : FVec F S64 .f32) : FVec F S64x4 .f32 :=
  broadcastInDim S64x4 ![0, 1] bcast_S64x1_S64x4_0_1 (broadcastInDim S64x1 ![0] bcast_S64_S64x1_0 v)

/-- x minus its row maxima. -/
def rShift (x : FVec F S64x4 .f32) : FVec F S64x4 .f32 :=
  subf x (rBc4
    (maximumf (broadcastInDim S64 ![] bcast_S_S64 (constant (F := F) S_ .f32 0xFF800000#32))
      (Host.reduce FloatOps.maximumf x (constant (F := F) S_ .f32 0xFF800000#32) reducesTo_S64x4_S64_d1 h_S_)))

/-- The log-softmax along the rows. -/
def rLogSoftmax (x : FVec F S64x4 .f32) : FVec F S64x4 .f32 :=
  subf (rShift x)
    (broadcastInDim S64x4 ![0, 1] bcast_S64x1_S64x4_0_1
      (Host.log (broadcastInDim S64x1 ![0] bcast_S64_S64x1_0
        (Host.reduceAdd (Host.exp (rShift x)) (constant (F := F) S_ .f32 0x00000000#32) reducesTo_S64x4_S64_d1 h_S_))))

/-- Pooling, the two dense layers, the log-softmax. -/
def rTail (h : FVec F S100000x128 .f32) (batch : IVec S100000 32) (lin1_w : FVec F S128x64 .f32)
    (lin1_b : FVec F S64 .f32) (lin2_w : FVec F S64x4 .f32) (lin2_b : FVec F S4 .f32) : FVec F S64x4 .f32 :=
  rLogSoftmax (rLin (rPool h batch) lin1_w lin1_b lin2_w lin2_b)

/-! ## The whole -/

/-- The reference's result as a function of its eleven arguments. -/
def rOut (x : FVec F S100000x128 .f32) (edge_index : IVec S2x600000 32) (batch : IVec S100000 32)
    (conv_w : FVec F S6x128x128 .f32) (conv_b bn_g bn_b : FVec F S6x128 .f32)
    (lin1_w : FVec F S128x64 .f32) (lin1_b : FVec F S64 .f32) (lin2_w : FVec F S64x4 .f32) (lin2_b : FVec F S4 .f32) :
    FVec F S64x4 .f32 :=
  rTail
    (rLayer
      (rLayer
        (rLayer
          (rLayer
            (rLayer
              (rLayer x (rW0 conv_w) (rRow0 conv_b) (rRow0 bn_g) (rRow0 bn_b) (rSrc edge_index) (rDst edge_index))
              (rW1 conv_w) (rRow1 conv_b) (rRow1 bn_g) (rRow1 bn_b) (rSrc edge_index) (rDst edge_index))
            (rW2 conv_w) (rRow2 conv_b) (rRow2 bn_g) (rRow2 bn_b) (rSrc edge_index) (rDst edge_index))
          (rW3 conv_w) (rRow3 conv_b) (rRow3 bn_g) (rRow3 bn_b) (rSrc edge_index) (rDst edge_index))
        (rW4 conv_w) (rRow4 conv_b) (rRow4 bn_g) (rRow4 bn_b) (rSrc edge_index) (rDst edge_index))
      (rW5 conv_w) (rRow5 conv_b) (rRow5 bn_g) (rRow5 bn_b) (rSrc edge_index) (rDst edge_index))
    batch lin1_w lin1_b lin2_w lin2_b

end Cert.ReferenceIdeal.Spec

end
-- ==== Proof.Ref.RValue.lean ====
import proofs.«400512_j87187836109057_1_alg».proof.Proof.Ref.RCut
import proofs.«400512_j87187836109057_1_alg».proof.Proof.Ref.RSpec

/-! The reference's result as a function of its arguments. The operations of @main, cut into a prelude, the two
    halves of each of the six layers and the tail, are read piece by piece at an arbitrary valuation: each piece
    leaves its last buffer at the corresponding function of the Spec module applied to what the piece reads, and
    leaves every buffer it does not write as it was. Composed along the cut, the result buffer holds rOut of the
    eleven arguments' contents. -/

noncomputable section

namespace Cert.ReferenceIdeal.Hand

open Cert.ReferenceIdeal Cert.ReferenceIdeal.Gen Cert.ReferenceIdeal.Spec Idealize.ShloMosaic Idealize.ShloMosaic.TcCoe Idealize.SL.Sem Idealize.ShloMosaic.StableHlo

variable {F : FTy → Type} [FloatOps F]

/-- The prelude leaves the edges' sources in main_v1 and their destinations in main_v3. -/
theorem pre_v1 (V : Valuation τ sig (Elt F)) : after pre V (Proc.devRef .tc main_v1) = rSrc (V (Proc.devRef .tc main_arg1)) := by
  after_results
  rfl
theorem pre_v3 (V : Valuation τ sig (Elt F)) : after pre V (Proc.devRef .tc main_v3) = rDst (V (Proc.devRef .tc main_arg1)) := by
  after_results
  rfl

/-- Layer 0, first half: the rectified aggregate of the layer's input. -/
theorem A0_val (V : Valuation τ sig (Elt F)) :
    after A0 V (Proc.devRef .tc main_v22)
      = rRelu (rAgg (V (Proc.devRef .tc main_arg0)) (rW0 (V (Proc.devRef .tc main_arg3))) (rRow0 (V (Proc.devRef .tc main_arg4)))
          (V (Proc.devRef .tc main_v1)) (V (Proc.devRef .tc main_v3))) := by
  after_results_simp
  rfl

/-- Layer 0, second half: the rectified aggregate normalised by its own column statistics. -/
theorem B0_val (V : Valuation τ sig (Elt F)) :
    after B0 V (Proc.devRef .tc main_v45)
      = rBn (V (Proc.devRef .tc main_v22)) (rRow0 (V (Proc.devRef .tc main_arg5))) (rRow0 (V (Proc.devRef .tc main_arg6))) := by
  after_results_simp
  rfl

/-- Layer 1, first half: the rectified aggregate of the layer's input. -/
theorem A1_val (V : Valuation τ sig (Elt F)) :
    after A1 V (Proc.devRef .tc main_v64)
      = rRelu (rAgg (V (Proc.devRef .tc main_v45)) (rW1 (V (Proc.devRef .tc main_arg3))) (rRow1 (V (Proc.devRef .tc main_arg4)))
          (V (Proc.devRef .tc main_v1)) (V (Proc.devRef .tc main_v3))) := by
  after_results_simp
  rfl

/-- Layer 1, second half: the rectified aggregate normalised by its own column statistics. -/
theorem B1_val (V : Valuation τ sig (Elt F)) :
    after B1 V (Proc.devRef .tc main_v87)
      = rBn (V (Proc.devRef .tc main_v64)) (rRow1 (V (Proc.devRef .tc main_arg5))) (rRow1 (V (Proc.devRef .tc main_arg6))) := by
  after_results_simp
  rfl

/-- Layer 2, first half: the rectified aggregate of the layer's input. -/
theorem A2_val (V : Valuation τ sig (Elt F)) :
    after A2 V (Proc.devRef .tc main_v106)
      = rRelu (rAgg (V (Proc.devRef .tc main_v87)) (rW2 (V (Proc.devRef .tc main_arg3))) (rRow2 (V (Proc.devRef .tc main_arg4)))
          (V (Proc.devRef .tc main_v1)) (V (Proc.devRef .tc main_v3))) := by
  after_results_simp
  rfl

/-- Layer 2, second half: the rectified aggregate normalised by its own column statistics. -/
theorem B2_val (V : Valuation τ sig (Elt F)) :
    after B2 V (Proc.devRef .tc main_v129)
      = rBn (V (Proc.devRef .tc main_v106)) (rRow2 (V (Proc.devRef .tc main_arg5))) (rRow2 (V (Proc.devRef .tc main_arg6))) := by
  after_results_simp
  rfl

/-- Layer 3, first half: the rectified aggregate of the layer's input. -/
theorem A3_val (V : Valuation τ sig (Elt F)) :
    after A3 V (Proc.devRef .tc main_v148)
      = rRelu (rAgg (V (Proc.devRef .tc main_v129)) (rW3 (V (Proc.devRef .tc main_arg3))) (rRow3 (V (Proc.devRef .tc main_arg4)))
          (V (Proc.devRef .tc main_v1)) (V (Proc.devRef .tc main_v3))) := by
  after_results_simp
  rfl

/-- Layer 3, second half: the rectified aggregate normalised by its own column statistics. -/
theorem B3_val (V : Valuation τ sig (Elt F)) :
    after B3 V (Proc.devRef .tc main_v171)
      = rBn (V (Proc.devRef .tc main_v148)) (rRow3 (V (Proc.devRef .tc main_arg5))) (rRow3 (V (Proc.devRef .tc main_arg6))) := by
  after_results_simp
  rfl

/-- Layer 4, first half: the rectified aggregate of the layer's input. -/
theorem A4_val (V : Valuation τ sig (Elt F)) :
    after A4 V (Proc.devRef .tc main_v190)
      = rRelu (rAgg (V (Proc.devRef .tc main_v171)) (rW4 (V (Proc.devRef .tc main_arg3))) (rRow4 (V (Proc.devRef .tc main_arg4)))
          (V (Proc.devRef .tc main_v1)) (V (Proc.devRef .tc main_v3))) := by
  after_results_simp
  rfl

/-- Layer 4, second half: the rectified aggregate normalised by its own column statistics. -/
theorem B4_val (V : Valuation τ sig (Elt F)) :
    after B4 V (Proc.devRef .tc main_v213)
      = rBn (V (Proc.devRef .tc main_v190)) (rRow4 (V (Proc.devRef .tc main_arg5))) (rRow4 (V (Proc.devRef .tc main_arg6))) := by
  after_results_simp
  rfl

/-- Layer 5, first half: the rectified aggregate of the layer's input. -/
theorem A5_val (V : Valuation τ sig (Elt F)) :
    after A5 V (Proc.devRef .tc main_v232)
      = rRelu (rAgg (V (Proc.devRef .tc main_v213)) (rW5 (V (Proc.devRef .tc main_arg3))) (rRow5 (V (Proc.devRef .tc main_arg4)))
          (V (Proc.devRef .tc main_v1)) (V (Proc.devRef .tc main_v3))) := by
  after_results_simp
  rfl

/-- Layer 5, second half: the rectified aggregate normalised by its own column statistics. -/
theorem B5_val (V : Valuation τ sig (Elt F)) :
    after B5 V (Proc.devRef .tc main_v255)
      = rBn (V (Proc.devRef .tc main_v232)) (rRow5 (V (Proc.devRef .tc main_arg5))) (rRow5 (V (Proc.devRef .tc main_arg6))) := by
  after_results_simp
  rfl

/-- The tail: pooling, the dense layers, the log-softmax of the last layer's output. -/
theorem tail_val (V : Valuation τ sig (Elt F)) :
    after tail V (Proc.devRef .tc main_v276)
      = rTail (V (Proc.devRef .tc main_v255)) (V (Proc.devRef .tc main_arg2)) (V (Proc.devRef .tc main_arg7)) (V (Proc.devRef .tc main_arg8))
          (V (Proc.devRef .tc main_arg9)) (V (Proc.devRef .tc main_arg10)) := by
  after_results_simp
  rfl

/-! The same facts with the buffer's position un-indexed (a reference's device form is reducible), so that one rewriting pass finds them. -/
theorem pre_v1' (V : Valuation τ sig (Elt F)) : after pre V (no_index (Proc.devRef .tc main_v1)) = rSrc (V (Proc.devRef .tc main_arg1)) := pre_v1 V
theorem pre_v3' (V : Valuation τ sig (Elt F)) : after pre V (no_index (Proc.devRef .tc main_v3)) = rDst (V (Proc.devRef .tc main_arg1)) := pre_v3 V
theorem A0_val' (V : Valuation τ sig (Elt F)) :
    after A0 V (no_index (Proc.devRef .tc main_v22))
      = rRelu (rAgg (V (Proc.devRef .tc main_arg0)) (rW0 (V (Proc.devRef .tc main_arg3))) (rRow0 (V (Proc.devRef .tc main_arg4)))
          (V (Proc.devRef .tc main_v1)) (V (Proc.devRef .tc main_v3))) := A0_val V
theorem B0_val' (V : Valuation τ sig (Elt F)) :
    after B0 V (no_index (Proc.devRef .tc main_v45))
      = rBn (V (Proc.devRef .tc main_v22)) (rRow0 (V (Proc.devRef .tc main_arg5))) (rRow0 (V (Proc.devRef .tc main_arg6))) := B0_val V
theorem A1_val' (V : Valuation τ sig (Elt F)) :
    after A1 V (no_index (Proc.devRef .tc main_v64))
      = rRelu (rAgg (V (Proc.devRef .tc main_v45)) (rW1 (V (Proc.devRef .tc main_arg3))) (rRow1 (V (Proc.devRef .tc main_arg4)))
          (V (Proc.devRef .tc main_v1)) (V (Proc.devRef .tc main_v3))) := A1_val V
theorem B1_val' (V : Valuation τ sig (Elt F)) :
    after B1 V (no_index (Proc.devRef .tc main_v87))
      = rBn (V (Proc.devRef .tc main_v64)) (rRow1 (V (Proc.devRef .tc main_arg5))) (rRow1 (V (Proc.devRef .tc main_arg6))) := B1_val V
theorem A2_val' (V : Valuation τ sig (Elt F)) :
    after A2 V (no_index (Proc.devRef .tc main_v106))
      = rRelu (rAgg (V (Proc.devRef .tc main_v87)) (rW2 (V (Proc.devRef .tc main_arg3))) (rRow2 (V (Proc.devRef .tc main_arg4)))
          (V (Proc.devRef .tc main_v1)) (V (Proc.devRef .tc main_v3))) := A2_val V
theorem B2_val' (V : Valuation τ sig (Elt F)) :
    after B2 V (no_index (Proc.devRef .tc main_v129))
      = rBn (V (Proc.devRef .tc main_v106)) (rRow2 (V (Proc.devRef .tc main_arg5))) (rRow2 (V (Proc.devRef .tc main_arg6))) := B2_val V
theorem A3_val' (V : Valuation τ sig (Elt F)) :
    after A3 V (no_index (Proc.devRef .tc main_v148))
      = rRelu (rAgg (V (Proc.devRef .tc main_v129)) (rW3 (V (Proc.devRef .tc main_arg3))) (rRow3 (V (Proc.devRef .tc main_arg4)))
          (V (Proc.devRef .tc main_v1)) (V (Proc.devRef .tc main_v3))) := A3_val V
theorem B3_val' (V : Valuation τ sig (Elt F)) :
    after B3 V (no_index (Proc.devRef .tc main_v171))
      = rBn (V (Proc.devRef .tc main_v148)) (rRow3 (V (Proc.devRef .tc main_arg5))) (rRow3 (V (Proc.devRef .tc main_arg6))) := B3_val V
theorem A4_val' (V : Valuation τ sig (Elt F)) :
    after A4 V (no_index (Proc.devRef .tc main_v190))
      = rRelu (rAgg (V (Proc.devRef .tc main_v171)) (rW4 (V (Proc.devRef .tc main_arg3))) (rRow4 (V (Proc.devRef .tc main_arg4)))
          (V (Proc.devRef .tc main_v1)) (V (Proc.devRef .tc main_v3))) := A4_val V
theorem B4_val' (V : Valuation τ sig (Elt F)) :
    after B4 V (no_index (Proc.devRef .tc main_v213))
      = rBn (V (Proc.devRef .tc main_v190)) (rRow4 (V (Proc.devRef .tc main_arg5))) (rRow4 (V (Proc.devRef .tc main_arg6))) := B4_val V
theorem A5_val' (V : Valuation τ sig (Elt F)) :
    after A5 V (no_index (Proc.devRef .tc main_v232))
      = rRelu (rAgg (V (Proc.devRef .tc main_v213)) (rW5 (V (Proc.devRef .tc main_arg3))) (rRow5 (V (Proc.devRef .tc main_arg4)))
          (V (Proc.devRef .tc main_v1)) (V (Proc.devRef .tc main_v3))) := A5_val V
theorem B5_val' (V : Valuation τ sig (Elt F)) :
    after B5 V (no_index (Proc.devRef .tc main_v255))
      = rBn (V (Proc.devRef .tc main_v232)) (rRow5 (V (Proc.devRef .tc main_arg5))) (rRow5 (V (Proc.devRef .tc main_arg6))) := B5_val V
theorem tail_val' (V : Valuation τ sig (Elt F)) :
    after tail V (no_index (Proc.devRef .tc main_v276))
      = rTail (V (Proc.devRef .tc main_v255)) (V (Proc.devRef .tc main_arg2)) (V (Proc.devRef .tc main_arg7)) (V (Proc.devRef .tc main_arg8))
          (V (Proc.devRef .tc main_arg9)) (V (Proc.devRef .tc main_arg10)) := tail_val V
theorem pre_keep' (V : Valuation τ sig (Elt F)) (r : Ref sig .tc) (h : r ∉ pre_W) :
    after pre V (no_index (Proc.devRef .tc r)) = V (Proc.devRef .tc r) := pre_keep V r h
theorem A0_keep' (V : Valuation τ sig (Elt F)) (r : Ref sig .tc) (h : r ∉ A0_W) :
    after A0 V (no_index (Proc.devRef .tc r)) = V (Proc.devRef .tc r) := A0_keep V r h
theorem B0_keep' (V : Valuation τ sig (Elt F)) (r : Ref sig .tc) (h : r ∉ B0_W) :
    after B0 V (no_index (Proc.devRef .tc r)) = V (Proc.devRef .tc r) := B0_keep V r h
theorem A1_keep' (V : Valuation τ sig (Elt F)) (r : Ref sig .tc) (h : r ∉ A1_W) :
    after A1 V (no_index (Proc.devRef .tc r)) = V (Proc.devRef .tc r) := A1_keep V r h
theorem B1_keep' (V : Valuation τ sig (Elt F)) (r : Ref sig .tc) (h : r ∉ B1_W) :
    after B1 V (no_index (Proc.devRef .tc r)) = V (Proc.devRef .tc r) := B1_keep V r h
theorem A2_keep' (V : Valuation τ sig (Elt F)) (r : Ref sig .tc) (h : r ∉ A2_W) :
    after A2 V (no_index (Proc.devRef .tc r)) = V (Proc.devRef .tc r) := A2_keep V r h
theorem B2_keep' (V : Valuation τ sig (Elt F)) (r : Ref sig .tc) (h : r ∉ B2_W) :
    after B2 V (no_index (Proc.devRef .tc r)) = V (Proc.devRef .tc r) := B2_keep V r h
theorem A3_keep' (V : Valuation τ sig (Elt F)) (r : Ref sig .tc) (h : r ∉ A3_W) :
    after A3 V (no_index (Proc.devRef .tc r)) = V (Proc.devRef .tc r) := A3_keep V r h
theorem B3_keep' (V : Valuation τ sig (Elt F)) (r : Ref sig .tc) (h : r ∉ B3_W) :
    after B3 V (no_index (Proc.devRef .tc r)) = V (Proc.devRef .tc r) := B3_keep V r h
theorem A4_keep' (V : Valuation τ sig (Elt F)) (r : Ref sig .tc) (h : r ∉ A4_W) :
    after A4 V (no_index (Proc.devRef .tc r)) = V (Proc.devRef .tc r) := A4_keep V r h
theorem B4_keep' (V : Valuation τ sig (Elt F)) (r : Ref sig .tc) (h : r ∉ B4_W) :
    after B4 V (no_index (Proc.devRef .tc r)) = V (Proc.devRef .tc r) := B4_keep V r h
theorem A5_keep' (V : Valuation τ sig (Elt F)) (r : Ref sig .tc) (h : r ∉ A5_W) :
    after A5 V (no_index (Proc.devRef .tc r)) = V (Proc.devRef .tc r) := A5_keep V r h
theorem B5_keep' (V : Valuation τ sig (Elt F)) (r : Ref sig .tc) (h : r ∉ B5_W) :
    after B5 V (no_index (Proc.devRef .tc r)) = V (Proc.devRef .tc r) := B5_keep V r h
theorem tail_keep' (V : Valuation τ sig (Elt F)) (r : Ref sig .tc) (h : r ∉ tail_W) :
    after tail V (no_index (Proc.devRef .tc r)) = V (Proc.devRef .tc r) := tail_keep V r h

/-- The folds of the fourteen pieces, one after the other, leave the result buffer at the reference's value of the arguments. -/
theorem cut_value (V : Valuation τ sig (Elt F)) :
    after tail (after B5 (after A5 (after B4 (after A4 (after B3 (after A3 (after B2 (after A2 (after B1 (after A1 (after B0 (after A0 (after pre V))))))))))))) (Proc.devRef .tc main_v276)
      = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp (disch := decide) only [pre_v1', pre_v3', A0_val', B0_val', A1_val', B1_val', A2_val', B2_val', A3_val', B3_val', A4_val', B4_val', A5_val', B5_val', tail_val', pre_keep', A0_keep', B0_keep', A1_keep', B1_keep', A2_keep', B2_keep', A3_keep', B3_keep', A4_keep', B4_keep', A5_keep', B5_keep', tail_keep']
  rfl

/-- After @main's operations from any valuation, the result buffer holds the reference's value of the arguments' contents. -/
theorem ref_value_V (V : Valuation τ sig (Elt F)) :
    after ops V (Proc.devRef .tc main_v276) = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_cut]
  exact cut_value V

/-- From the launch contents of a memory, on every device: the result buffer's final contents are the reference's
    value of the arguments' launch contents. -/
theorem ref_value (m : (ℓ : Loc nD τ sig) → Buf (Elt F) ℓ) (c : Dev nD) :
    after ops (launchContents m c) (Proc.devRef .tc main_v276)
      = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  ref_value_V (launchContents m c)

end Cert.ReferenceIdeal.Hand

end
-- ==== Proof.Bridge.Algebra.lean ====
/-
  The algebra the bridge between the two programs needs, on the extended reals: which extended reals are
  reals and how the operations keep them so; a finite sum of coerced reals; the quotient by a nonzero real;
  the reciprocal square root of a positive real; the two float words 100000.0 and 1e-5 as reals; and the
  variance identity, (Σ x²)/n − ((Σ x)/n)² = (Σ (x − (Σ x)/n)²)/n, first over ℝ, then over extended reals
  that are reals.
-/
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Positivity
import Mathlib.Tactic.NormNum
import Mathlib.Tactic.Linarith
import Idealize.ShloMosaic.PureOps.Ideal
import Idealize.ShloMosaic.PureOps.Ideal.Laws

namespace Cert.Bridge

open Idealize.ShloMosaic
open scoped BigOperators

/-- An extended real that is a real. -/
def IsReal (e : EReal) : Prop := ∃ r : ℝ, e = (r : EReal)

theorem isReal_coe (r : ℝ) : IsReal (r : EReal) := ⟨r, rfl⟩
theorem isReal_zero : IsReal 0 := ⟨0, rfl⟩
theorem isReal_one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩

/-- The coercion commutes with the maximum. -/
theorem coe_max (x y : ℝ) : ((max x y : ℝ) : EReal) = max (x : EReal) (y : EReal) :=
  EReal.coe_strictMono.monotone.map_max

theorem IsReal.max {a b : EReal} (ha : IsReal a) (hb : IsReal b) : IsReal (max a b) := by
  obtain ⟨x, rfl⟩ := ha; obtain ⟨y, rfl⟩ := hb; exact ⟨Max.max x y, (coe_max x y).symm⟩

/-- The coercion commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem IsReal.div_coe {a : EReal} (ha : IsReal a) {y : ℝ} (hy : y ≠ 0) : IsReal (Ideal.div a (y : EReal)) := by
  obtain ⟨x, rfl⟩ := ha; exact ⟨x / y, div_coe_coe x hy⟩

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_pos {r : ℝ} (hr : 0 < r) : IsReal (Ideal.rsqrt (r : EReal)) :=
  ⟨_, rsqrt_coe_pos hr⟩

/-- The float word of 100000.0. -/
theorem ofBits_100000 : Ideal.ofBits .f32 0x47C35000#32 = ((100000 : ℝ) : EReal) := by
  simp [Ideal.ofBits, Ideal.ieee, -EReal.coe_mul]; norm_num

/-- The float word of 1e-5 (rounded to f32) is a positive real. -/
theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ## The variance identity -/

/-- Over the reals: the mean of the squares less the square of the mean is the mean of the squared
    deviations from the mean, for n numbers, n nonzero. -/
theorem var_identity_real {ι : Type*} [Fintype ι] (x : ι → ℝ) (N : ℝ) (hN : (Fintype.card ι : ℝ) = N) (hN0 : N ≠ 0) :
    (∑ r, x r * x r) / N - ((∑ r, x r) / N) * ((∑ r, x r) / N)
      = (∑ r, (x r - (∑ r, x r) / N) * (x r - (∑ r, x r) / N)) / N := by
  have h : ∀ r, (x r - (∑ r, x r) / N) * (x r - (∑ r, x r) / N)
      = x r * x r - 2 * ((∑ r, x r) / N) * x r + ((∑ r, x r) / N) * ((∑ r, x r) / N) := fun r => by ring
  simp_rw [h, Finset.sum_add_distrib, Finset.sum_sub_distrib, ← Finset.mul_sum, Finset.sum_const, Finset.card_univ,
    nsmul_eq_mul, hN]
  field_simp
  ring

/-- Over extended reals that are reals, with the quotient of this instance. -/
theorem var_identity {ι : Type*} [Fintype ι] (x : ι → EReal) (hx : ∀ r, IsReal (x r)) (N : ℝ)
    (hN : (Fintype.card ι : ℝ) = N) (hN0 : N ≠ 0) :
    Ideal.div (∑ r, x r * x r) (N : EReal)
        - Ideal.div (∑ r, x r) (N : EReal) * Ideal.div (∑ r, x r) (N : EReal)
      = Ideal.div (∑ r, (x r - Ideal.div (∑ r, x r) (N : EReal)) * (x r - Ideal.div (∑ r, x r) (N : EReal))) (N : EReal) := by
  choose y hy using hx
  have hx' : x = fun r => (y r : EReal) := funext hy
  subst hx'
  simp only [← EReal.coe_mul, ← coe_sum, div_coe_coe _ hN0, ← EReal.coe_sub]
  exact congrArg _ (var_identity_real y N hN hN0)

/-- The mean of the squares less the square of the mean, of reals, is a real that is not negative. -/
theorem var_real_nonneg {ι : Type*} [Fintype ι] (x : ι → EReal) (hx : ∀ r, IsReal (x r)) (N : ℝ)
    (hN : (Fintype.card ι : ℝ) = N) (hN0 : 0 < N) :
    ∃ v : ℝ, 0 ≤ v ∧ Ideal.div (∑ r, x r * x r) (N : EReal)
        - Ideal.div (∑ r, x r) (N : EReal) * Ideal.div (∑ r, x r) (N : EReal) = (v : EReal) := by
  choose y hy using hx
  have hx' : x = fun r => (y r : EReal) := funext hy
  subst hx'
  simp only [← EReal.coe_mul, ← coe_sum, div_coe_coe _ hN0.ne', ← EReal.coe_sub]
  refine ⟨_, ?_, rfl⟩
  rw [var_identity_real y N hN hN0.ne']
  exact div_nonneg (Finset.sum_nonneg fun r _ => mul_self_nonneg _) hN0.le

/-- The reciprocal square root of a real that is not negative plus a positive real is a real. -/
theorem isReal_rsqrt_add {v e : ℝ} (hv : 0 ≤ v) (he : 0 < e) : IsReal (Ideal.rsqrt ((v : EReal) + (e : EReal))) := by
  rw [← EReal.coe_add]
  exact isReal_rsqrt_pos (by linarith)

end Cert.Bridge
-- ==== Proof.Bridge.Norm.lean ====
/-
  One layer's rectification and normalisation: the reference's spelling and the kernel's are one array.

  Both take the aggregated rows A (100000 rows of 128) and a bias, scale and shift (128 each). The rectified
  activations max (A + bias, 0) are the same on both sides. The kernel's column mean is the column sum over 100000 and
  its variance the mean of the squares less the square of the mean; the reference's variance is the mean of the squared
  deviations from the mean. On activations that are reals the two variances agree (the variance identity), so the
  normalised activations ((x − mean) · rsqrt (var + ε)) · scale + shift agree. On reals the variance is a real that is
  not negative, so var + ε is positive, its reciprocal square root a real, and the normalised activations are reals.
-/
import proofs.«400512_j87187836109057_1_alg».proof.Proof.KI.KSpec
import proofs.«400512_j87187836109057_1_alg».proof.Proof.Ref.RSpec
import proofs.«400512_j87187836109057_1_alg».proof.Proof.Bridge.Algebra
import Idealize.ShloMosaic.Lib.ValueIdx
import Idealize.ShloMosaic.Lib.ValueLayout
import Idealize.ShloMosaic.Lib.IdealHost

namespace Cert.Bridge

open Idealize.ShloMosaic Idealize.ShloMosaic.ValueIdx
open Cert.KernelIdeal.Spec Cert.ReferenceIdeal.Spec
open scoped BigOperators

variable [Cert.KernelIdeal.Facts] [Cert.ReferenceIdeal.Facts]

/-! ## The layout operations of the two spellings, read at an index -/

/-- A vector of 128 laid down the 100000 rows reads, at (r, c), its entry c. -/
theorem rBc_apply (v : FVec Ideal Cert.ReferenceIdeal.S128 .f32) (r : Fin 100000) (c : Fin 128) :
    rBc v (ix2 r c) = v (ix1 c) := by
  unfold rBc
  rw [broadcastInDim_apply _ _ _ (ix2 r c) (ix2 (0 : Fin 1) c) (fun a => by match a with | ⟨0, _⟩ => rfl | ⟨1, _⟩ => rfl),
    broadcastInDim_apply _ _ _ (ix2 (0 : Fin 1) c) (ix1 c) (fun a => by match a with | ⟨0, _⟩ => rfl)]

/-- A vector of 128 laid out as one row reads, at (0, c), its entry c. -/
theorem kRow_apply (v : FVec Ideal Cert.KernelIdeal.S128 .f32) (c : Fin 128) :
    kRow v (ix2 (0 : Fin 1) c) = v (ix1 c) := by
  unfold kRow
  exact shapeCast_a_1a_apply v _ 0 c

/-- A row of column statistics over the row count, at column c. -/
theorem kOverN_apply (s : FVec Ideal Cert.KernelIdeal.S1x128 .f32) (c : Fin 128) :
    kOverN s (ix1 c) = Ideal.div (s (ix2 (0 : Fin 1) c)) ((100000 : ℝ) : EReal) := by
  unfold kOverN
  rw [hostDivf_apply, shapeCast_1a_a_apply, broadcastInDim_scalar_apply, constant_apply, ofBits_100000]

/-- The bias added and the negative part cut: the two spellings are one array. -/
theorem relu_eq (A : FVec Ideal Cert.ReferenceIdeal.S100000x128 .f32) (b : FVec Ideal Cert.ReferenceIdeal.S128 .f32) :
    rRelu (addf A (rBc b)) = G1_2 A (kRow b) := by
  funext i
  obtain ⟨r, c, rfl⟩ : ∃ (r : Fin 100000) (c : Fin 128), i = ix2 r c := ⟨i 0, i 1, eq_ix2 i⟩
  unfold rRelu G1_2
  rw [maximumf_apply, addf_apply, rBc_apply, broadcastInDim_scalar_apply, constant_apply, Ideal.ofBits_zero_f32]
  show _ = max (A (ix2 r c) + kRow b (ix2 (0 : Fin 1) c)) 0
  rw [kRow_apply]

/-- The host's sum down the 100000 rows, at column c. -/
theorem reduceAdd_col (X : FVec Ideal Cert.ReferenceIdeal.S100000x128 .f32) (c : Fin 128) :
    Host.reduceAdd X (constant (F := Ideal) Cert.ReferenceIdeal.S_ .f32 0x00000000#32)
        Cert.ReferenceIdeal.Facts₀.reducesTo_S100000x128_S128_d0 Cert.ReferenceIdeal.Facts₀.h_S_ (ix1 c)
      = ∑ r : Fin 100000, X (ix2 r c) := by
  rw [hostReduceAdd_apply,
    Ideal.hostReduceAdd_single _ (by decide : Cert.ReferenceIdeal.S100000x128.Reduces [0] Cert.ReferenceIdeal.S128),
    constant_apply, Ideal.ofBits_zero_f32, zero_add]
  refine Finset.sum_congr rfl fun k _ => congrArg X ?_
  funext a
  match a with
  | ⟨0, _⟩ => exact Fin.ext rfl
  | ⟨1, _⟩ => exact Fin.ext rfl

/-- The column means of the reference, at column c. -/
theorem rMean_apply (X : FVec Ideal Cert.ReferenceIdeal.S100000x128 .f32) (c : Fin 128) :
    rMean X (ix1 c) = Ideal.div (∑ r : Fin 100000, X (ix2 r c)) ((100000 : ℝ) : EReal) := by
  unfold rMean
  rw [hostDivf_apply, reduceAdd_col, broadcastInDim_scalar_apply, constant_apply, ofBits_100000]

/-- The centred array of the reference's variance, at (r, c). -/
theorem rCen_apply (X : FVec Ideal Cert.ReferenceIdeal.S100000x128 .f32) (r : Fin 100000) (c : Fin 128) :
    rCen X (ix2 r c) = X (ix2 r c) - Ideal.div (∑ r : Fin 100000, X (ix2 r c)) ((100000 : ℝ) : EReal) := by
  unfold rCen
  rw [subf_apply,
    broadcastInDim_apply _ _ _ (ix2 r c) (ix2 (0 : Fin 1) c) (fun a => by match a with | ⟨0, _⟩ => rfl | ⟨1, _⟩ => rfl),
    hostDivf_apply,
    broadcastInDim_apply _ _ _ (ix2 (0 : Fin 1) c) (ix1 c) (fun a => by match a with | ⟨0, _⟩ => rfl),
    reduceAdd_col, broadcastInDim_scalar_apply, constant_apply, ofBits_100000]

/-- The reference's divisor of the variance, 100000 − 0, is 100000. -/
theorem rDen_apply : rDen (F := Ideal) ix0 = ((100000 : ℝ) : EReal) := by
  unfold rDen
  rw [subf_apply, constant_apply, ofBits_100000]
  show ((100000 : ℝ) : EReal) - ((((0#32 : BitVec 32).toInt : ℤ) : ℝ) : EReal) = _
  simp

/-- The reference's column variance, at column c: the mean of the squared deviations from the column mean. -/
theorem rVar_apply (X : FVec Ideal Cert.ReferenceIdeal.S100000x128 .f32) (c : Fin 128) :
    rVar X (ix1 c)
      = Ideal.div (∑ r : Fin 100000,
          (X (ix2 r c) - Ideal.div (∑ r : Fin 100000, X (ix2 r c)) ((100000 : ℝ) : EReal))
            * (X (ix2 r c) - Ideal.div (∑ r : Fin 100000, X (ix2 r c)) ((100000 : ℝ) : EReal)))
          ((100000 : ℝ) : EReal) := by
  have hgt : FloatOps.cmpf .ogt (((100000 : ℝ) : EReal) : Ideal .f32) (Ideal.ofBits .f32 0x00000000#32) = 1#1 := by
    rw [Ideal.ofBits_zero_f32]
    show Ideal.cmp .ogt ((100000 : ℝ) : EReal) 0 = 1#1
    unfold Ideal.cmp
    have : (0 : EReal) < ((100000 : ℝ) : EReal) := EReal.coe_pos.mpr (by norm_num)
    simp [this]
  unfold rVar
  rw [select_apply, broadcastInDim_scalar_apply, cmpf_apply, rDen_apply, constant_apply, hgt, select_one,
    hostDivf_apply, reduceAdd_col, broadcastInDim_scalar_apply, rDen_apply]
  refine congrArg (fun s => Ideal.div s ((100000 : ℝ) : EReal)) (Finset.sum_congr rfl fun r _ => ?_)
  rw [mulf_apply, rCen_apply]

/-! ## The column statistics of the kernel -/

/-- The kernel's column mean at column c. -/
theorem kMean_apply (A : FVec Ideal Cert.KernelIdeal.S100000x128 .f32) (b' : FVec Ideal Cert.KernelIdeal.S1x128 .f32) (c : Fin 128) :
    kOverN (G1_3 A b') (ix1 c) = Ideal.div (∑ r : Fin 100000, G1_2 A b' (ix2 r c)) ((100000 : ℝ) : EReal) := by
  rw [kOverN_apply]
  rfl

/-- The kernel's column mean of squares at column c. -/
theorem kEx2_apply (A : FVec Ideal Cert.KernelIdeal.S100000x128 .f32) (b' : FVec Ideal Cert.KernelIdeal.S1x128 .f32) (c : Fin 128) :
    kOverN (G1_4 A b') (ix1 c)
      = Ideal.div (∑ r : Fin 100000, G1_2 A b' (ix2 r c) * G1_2 A b' (ix2 r c)) ((100000 : ℝ) : EReal) := by
  rw [kOverN_apply]
  rfl

/-- THE VARIANCE: on activations that are reals, the kernel's mean of squares less the square of the mean is the
    reference's mean of the squared deviations. -/
theorem var_eq (A : FVec Ideal Cert.KernelIdeal.S100000x128 .f32) (b' : FVec Ideal Cert.KernelIdeal.S1x128 .f32)
    (hX : ∀ i, IsReal (G1_2 A b' i)) (c : Fin 128) :
    kVar (kOverN (G1_3 A b')) (kOverN (G1_4 A b')) (ix1 c) = rVar (G1_2 A b') (ix1 c) := by
  unfold kVar
  rw [subf_apply, mulf_apply, kMean_apply, kEx2_apply, rVar_apply]
  exact var_identity (fun r : Fin 100000 => G1_2 A b' (ix2 r c)) (fun r => hX _) 100000 (by simp) (by norm_num)

/-- The reciprocal square root of a vector plus a splat word, at an entry. -/
theorem rsqrt_add_apply (v : FVec Ideal Cert.ReferenceIdeal.S128 .f32) (w : BitVec 32) (c : Fin 128) :
    Host.rsqrt (addf v (broadcastInDim Cert.ReferenceIdeal.S128 ![] Cert.ReferenceIdeal.Facts₀.bcast_S_S128
        (constant (F := Ideal) Cert.ReferenceIdeal.S_ .f32 w))) (ix1 c)
      = Ideal.rsqrt (v (ix1 c) + Ideal.ofBits .f32 w) := by
  show Ideal.rsqrt (addf v _ (ix1 c)) = _
  rw [addf_apply, broadcastInDim_scalar_apply, constant_apply]

/-! ## The normalisation -/

/-- From aggregated rows and a bias that are reals, the reference's rectification and normalisation is the kernel's. -/
theorem norm_eq (A : FVec Ideal Cert.KernelIdeal.S100000x128 .f32) (b g β : FVec Ideal Cert.KernelIdeal.S128 .f32)
    (hA : ∀ i, IsReal (A i)) (hb : ∀ i, IsReal (b i)) :
    rBn (rRelu (addf A (rBc b))) g β = kNorm A b g β := by
  rw [relu_eq]
  have hX : ∀ i, IsReal (G1_2 A (kRow b) i) := fun i => ((hA i).add (hb _)).max isReal_zero
  funext i
  obtain ⟨r, c, rfl⟩ : ∃ (r : Fin 100000) (c : Fin 128), i = ix2 r c := ⟨i 0, i 1, eq_ix2 i⟩
  unfold kNorm kNormOf G2_5 rBn
  rw [addf_apply, mulf_apply, mulf_apply, subf_apply, rBc_apply, rBc_apply, rBc_apply, rBc_apply, rMean_apply,
    rsqrt_add_apply]
  show _ = ((G1_2 A (kRow b) (ix2 r c) - kRow (kOverN (G1_3 A (kRow b))) (ix2 (0 : Fin 1) c))
      * Ideal.rsqrt (kRow (kVar (kOverN (G1_3 A (kRow b))) (kOverN (G1_4 A (kRow b)))) (ix2 (0 : Fin 1) c)
          + Ideal.ofBits .f32 0x3727C5AC#32))
    * kRow g (ix2 (0 : Fin 1) c) + kRow β (ix2 (0 : Fin 1) c)
  rw [kRow_apply, kRow_apply, kRow_apply, kRow_apply, kMean_apply, var_eq A (kRow b) hX c]

/-- From aggregated rows, bias, scale and shift that are reals, the kernel's normalised activations are reals: the
    variance is a real that is not negative, so its sum with the positive word under the reciprocal square root is
    positive. -/
theorem norm_real (A : FVec Ideal Cert.KernelIdeal.S100000x128 .f32) (b g β : FVec Ideal Cert.KernelIdeal.S128 .f32)
    (hA : ∀ i, IsReal (A i)) (hb : ∀ i, IsReal (b i)) (hg : ∀ i, IsReal (g i)) (hβ : ∀ i, IsReal (β i)) :
    ∀ i, IsReal (kNorm A b g β i) := by
  have hX : ∀ i, IsReal (G1_2 A (kRow b) i) := fun i => ((hA i).add (hb _)).max isReal_zero
  intro i
  obtain ⟨r, c, rfl⟩ : ∃ (r : Fin 100000) (c : Fin 128), i = ix2 r c := ⟨i 0, i 1, eq_ix2 i⟩
  unfold kNorm kNormOf G2_5
  show IsReal (((G1_2 A (kRow b) (ix2 r c) - kRow (kOverN (G1_3 A (kRow b))) (ix2 (0 : Fin 1) c))
      * Ideal.rsqrt (kRow (kVar (kOverN (G1_3 A (kRow b))) (kOverN (G1_4 A (kRow b)))) (ix2 (0 : Fin 1) c)
          + Ideal.ofBits .f32 0x3727C5AC#32))
    * kRow g (ix2 (0 : Fin 1) c) + kRow β (ix2 (0 : Fin 1) c))
  rw [kRow_apply, kRow_apply, kRow_apply, kRow_apply, kMean_apply]
  obtain ⟨v, hv0, hv⟩ := var_real_nonneg (fun r : Fin 100000 => G1_2 A (kRow b) (ix2 r c)) (fun r => hX _) 100000
    (by simp) (by norm_num)
  have hvar : kVar (kOverN (G1_3 A (kRow b))) (kOverN (G1_4 A (kRow b))) (ix1 c) = (v : EReal) := by
    unfold kVar
    rw [subf_apply, mulf_apply, kMean_apply, kEx2_apply]
    exact hv
  obtain ⟨e, he0, he⟩ := ofBits_eps
  rw [hvar, he]
  exact ((((hX _).sub ((isReal_sum _ _ fun r _ => hX _).div_coe (by norm_num))).mul (isReal_rsqrt_add hv0 he0)).mul
    (hg _)).add (hβ _)

end Cert.Bridge
-- ==== Proof.Bridge.Dot.lean ====
/- The reference's three matrix products at the ideal values, each read at an index as the sum over the contracted
   coordinate of the products of the entries; the layers' product is the closed form of the kernel's product regions,
   and that closed form's entries are reals when the operands' are. -/
import proofs.«400512_j87187836109057_1_alg».proof.ReferenceIdeal
import proofs.«400512_j87187836109057_1_alg».proof.Proof.KI.GM0
import proofs.«400512_j87187836109057_1_alg».proof.Proof.Bridge.Algebra
import Idealize.ShloMosaic.PureOps.Ideal.Laws
import Idealize.ShloMosaic.Lib.ValueIdx

noncomputable section

namespace Cert.Bridge

open Idealize.ShloMosaic Idealize.ShloMosaic.ValueIdx
open scoped BigOperators

variable [Cert.ReferenceIdeal.Facts]

/-! ## The product S100000x128 × S128x128 at an index -/

/-- Its operand indices, axis by axis: the left operand reads the output's row and the contracted coordinate, the right
    operand the contracted coordinate and the output's column. -/
theorem dotL_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch from fun h => List.not_mem_nil h),
    dif_pos (show (0 : Fin Cert.ReferenceIdeal.S100000x128.rank) ∈ Cert.ReferenceIdeal.dot_S100000x128_S128x128_S100000x128_1_0_0_1_n_n.lhsNonContracting from List.mem_singleton_self _)]
  rfl
theorem dotL_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, (Nat.one_pos : 0 < Cert.ReferenceIdeal.dot_S100000x128_S128x128_S100000x128_1_0_0_1_n_n.contr.rank)⟩).val :=
  Cert.ReferenceIdeal.dot_S100000x128_S128x128_S100000x128_1_0_0_1_n_n.lhsIdx_val_of_single rfl i q
theorem dotL_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, (Nat.one_pos : 0 < Cert.ReferenceIdeal.dot_S100000x128_S128x128_S100000x128_1_0_0_1_n_n.contr.rank)⟩).val :=
  Cert.ReferenceIdeal.dot_S100000x128_S128x128_S100000x128_1_0_0_1_n_n.rhsIdx_val_of_single rfl i q
theorem dotL_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch from fun h => List.not_mem_nil h),
    dif_pos (show (1 : Fin Cert.ReferenceIdeal.S128x128.rank) ∈ Cert.ReferenceIdeal.dot_S100000x128_S128x128_S100000x128_1_0_0_1_n_n.rhsNonContracting from List.mem_singleton_self _)]
  rfl

/-- At the ideal values the product at (a, b) is the sum over k of l[a, k] * r[k, b]. -/
theorem dotL_apply (l : FVec Ideal Cert.ReferenceIdeal.S100000x128 .f32) (r : FVec Ideal Cert.ReferenceIdeal.S128x128 .f32) (a : Fin 100000) (b : Fin 128) :
    Host.dotGeneral (F := Ideal) Cert.ReferenceIdeal.dot_S100000x128_S128x128_S100000x128_1_0_0_1_n_n none l r (ix2 a b) = ∑ k : Fin 128, l (ix2 a k) * r (ix2 k b) := by
  show FloatOps.dotGeneral Cert.ReferenceIdeal.dot_S100000x128_S128x128_S100000x128_1_0_0_1_n_n none .single l r (ix2 a b) = _
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 a b) ((contrEquiv1 Cert.ReferenceIdeal.dot_S100000x128_S128x128_S100000x128_1_0_0_1_n_n 128 rfl rfl).symm k) = ix2 a k := funext fun ax => Fin.ext (by
    match ax with
    | ⟨0, _⟩ => exact dotL_lhs_0 _ _
    | ⟨1, _⟩ => exact (dotL_lhs_1 _ _).trans hk)
  have er : Cert.ReferenceIdeal.dot_S100000x128_S128x128_S100000x128_1_0_0_1_n_n.rhsIdx (ix2 a b) ((contrEquiv1 Cert.ReferenceIdeal.dot_S100000x128_S128x128_S100000x128_1_0_0_1_n_n 128 rfl rfl).symm k) = ix2 k b := funext fun ax => Fin.ext (by
    match ax with
    | ⟨0, _⟩ => exact (dotL_rhs_0 _ _).trans hk
    | ⟨1, _⟩ => exact dotL_rhs_1 _ _)
  rw [el, er]

/-! ## The product S64x128 × S128x64 at an index -/

/-- Its operand indices, axis by axis: the left operand reads the output's row and the contracted coordinate, the right
    operand the contracted coordinate and the output's column. -/
theorem dotP_lhs_0 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.lhsIdx i q 0).val = (i 0).val := by
  unfold DotDims.lhsIdx
  rw [dif_neg (show ¬(0 : Fin Cert.ReferenceIdeal.S64x128.rank) ∈ Cert.ReferenceIdeal.dot_S64x128_S128x64_S64x64_1_0_0_1_n_n.lhsBatch from fun h => List.not_mem_nil h),
    dif_pos (show (0 : Fin Cert.ReferenceIdeal.S64x128.rank) ∈ Cert.ReferenceIdeal.dot_S64x128_S128x64_S64x64_1_0_0_1_n_n.lhsNonContracting from List.mem_singleton_self _)]
  rfl
theorem dotP_lhs_1 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.lhsIdx i q 1).val = (q ⟨0, (Nat.one_pos : 0 < Cert.ReferenceIdeal.dot_S64x128_S128x64_S64x64_1_0_0_1_n_n.contr.rank)⟩).val :=
  Cert.ReferenceIdeal.dot_S64x128_S128x64_S64x64_1_0_0_1_n_n.lhsIdx_val_of_single rfl i q
theorem dotP_rhs_0 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.rhsIdx i q 0).val = (q ⟨0, (Nat.one_pos : 0 < Cert.ReferenceIdeal.dot_S64x128_S128x64_S64x64_1_0_0_1_n_n.contr.rank)⟩).val :=
  Cert.ReferenceIdeal.dot_S64x128_S128x64_S64x64_1_0_0_1_n_n.rhsIdx_val_of_single rfl i q
theorem dotP_rhs_1 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.rhsIdx i q 1).val = (i 1).val := by
  unfold DotDims.rhsIdx
  rw [dif_neg (show ¬(1 : Fin Cert.ReferenceIdeal.S128x64.rank) ∈ Cert.ReferenceIdeal.dot_S64x128_S128x64_S64x64_1_0_0_1_n_n.rhsBatch from fun h => List.not_mem_nil h),
    dif_pos (show (1 : Fin Cert.ReferenceIdeal.S128x64.rank) ∈ Cert.ReferenceIdeal.dot_S64x128_S128x64_S64x64_1_0_0_1_n_n.rhsNonContracting from List.mem_singleton_self _)]
  rfl

/-- At the ideal values the product at (a, b) is the sum over k of l[a, k] * r[k, b]. -/
theorem dotP_apply (l : FVec Ideal Cert.ReferenceIdeal.S64x128 .f32) (r : FVec Ideal Cert.ReferenceIdeal.S128x64 .f32) (a : Fin 64) (b : Fin 64) :
    Host.dotGeneral (F := Ideal) Cert.ReferenceIdeal.dot_S64x128_S128x64_S64x64_1_0_0_1_n_n none l r (ix2 a b) = ∑ k : Fin 128, l (ix2 a k) * r (ix2 k b) := by
  show FloatOps.dotGeneral Cert.ReferenceIdeal.dot_S64x128_S128x64_S64x64_1_0_0_1_n_n none .single l r (ix2 a b) = _
  rw [Ideal.dotGeneral_apply, ← Equiv.sum_comp (contrEquiv1 Cert.ReferenceIdeal.dot_S64x128_S128x64_S64x64_1_0_0_1_n_n 128 rfl rfl).symm]
  refine Finset.sum_congr rfl fun k _ => ?_
  have hk := contrEquiv1_symm_val Cert.ReferenceIdeal.dot_S64x128_S128x64_S64x64_1_0_0_1_n_n 128 rfl rfl k
  have el : Cert.ReferenceIdeal.dot_S64x128_S128x64_S64x64_1_0_0_1_n_n.lhsIdx (ix2 a b) ((contrEquiv1 Cert.ReferenceIdeal.dot_S64x128_S128x64_S64x64_1_0_0_1_n_n 128 rfl rfl).symm k) = ix2 a k := funext fun ax => Fin.ext (by
    match ax with
    | ⟨0, _⟩ => exact dotP_lhs_0 _ _
    | ⟨1, _⟩ => exact (dotP_lhs_1 _ _).trans hk)
  have er : Cert.ReferenceIdeal.dot_S64x128_S128x64_S64x64_1_0_0_1_n_n.rhsIdx (ix2 a b) ((contrEquiv1 Cert.ReferenceIdeal.dot_S64x128_S128x64_S64x64_1_0_0_1_n_n 128 rfl rfl).symm k) = ix2 k b := funext fun ax => Fin.ext (by
    match ax with
    | ⟨0, _⟩ => exact (dotP_rhs_0 _ _).trans hk
    | ⟨1, _⟩ => exact dotP_rhs_1 _ _)
  rw [el, er]

/-! ## The product S64x64 × S64x4 at an index -/

/-- Its operand indices, axis by axis: the left operand reads the output's row and the contracted coordinate, the right
    operand the contracted coordinate and the output's column. -/
theorem dotQ_lhs_0 (i : Cert.ReferenceIdeal.S64x4.Idx) (q : Cert.ReferenceIdeal.dot_S64x64_S64x4_S64x4_1_0_0_1_n_n.contr.Idx) :
    (Cert.ReferenceIdeal.dot_S64x64_S64x4_S64x4_1_0_0_1_n_n.lhsIdx i q 0).val = (i 0).val := by
  unfold DotDims.lhsIdx
  rw [dif_neg (show ¬(0 : Fin Cert.ReferenceIdeal.S64x64.rank) ∈ Cert.ReferenceIdeal.dot_S64x64_S64x4_S64x4_1_0_0_1_n_n.lhsBatch from fun h => List.not_mem_nil h),
    dif_pos (show (0 : Fin Cert.ReferenceIdeal.S64x64.rank) ∈ Cert.ReferenceIdeal.dot_S64x64_S64x4_S64x4_1_0_0_1_n_n.lhsNonContracting from List.mem_singleton_self _)]
  rfl
theorem dotQ_lhs_1 (i : Cert.ReferenceIdeal.S64x4.Idx) (q : Cert.ReferenceIdeal.dot_S64x64_S64x4_S64x4_1_0_0_1_n_n.contr.Idx) :
    (Cert.ReferenceIdeal.dot_S64x64_S64x4_S64x4_1_0_0_1_n_n.lhsIdx i q 1).val = (q ⟨0, (Nat.one_pos : 0 < Cert.ReferenceIdeal.dot_S64x64_S64x4_S64x4_1_0_0_1_n_n.contr.rank)⟩).val :=
  Cert.ReferenceIdeal.dot_S64x64_S64x4_S64x4_1_0_0_1_n_n.lhsIdx_val_of_single rfl i q
theorem dotQ_rhs_0 (i : Cert.ReferenceIdeal.S64x4.Idx) (q : Cert.ReferenceIdeal.dot_S64x64_S64x4_S64x4_1_0_0_1_n_n.contr.Idx) :
    (Cert.ReferenceIdeal.dot_S64x64_S64x4_S64x4_1_0_0_1_n_n.rhsIdx i q 0).val = (q ⟨0, (Nat.one_pos : 0 < Cert.ReferenceIdeal.dot_S64x64_S64x4_S64x4_1_0_0_1_n_n.contr.rank)⟩).val :=
  Cert.ReferenceIdeal.dot_S64x64_S64x4_S64x4_1_0_0_1_n_n.rhsIdx_val_of_single rfl i q
theorem dotQ_rhs_1 (i : Cert.ReferenceIdeal.S64x4.Idx) (q : Cert.ReferenceIdeal.dot_S64x64_S64x4_S64x4_1_0_0_1_n_n.contr.Idx) :
    (Cert.ReferenceIdeal.dot_S64x64_S64x4_S64x4_1_0_0_1_n_n.rhsIdx i q 1).val = (i 1).val := by
  unfold DotDims.rhsIdx
  rw [dif_neg (show ¬(1 : Fin Cert.ReferenceIdeal.S64x4.rank) ∈ Cert.ReferenceIdeal.dot_S64x64_S64x4_S64x4_1_0_0_1_n_n.rhsBatch from fun h => List.not_mem_nil h),
    dif_pos (show (1 : Fin Cert.ReferenceIdeal.S64x4.rank) ∈ Cert.ReferenceIdeal.dot_S64x64_S64x4_S64x4_1_0_0_1_n_n.rhsNonContracting from List.mem_singleton_self _)]
  rfl

/-- At the ideal values the product at (a, b) is the sum over k of l[a, k] * r[k, b]. -/
theorem dotQ_apply (l : FVec Ideal Cert.ReferenceIdeal.S64x64 .f32) (r : FVec Ideal Cert.ReferenceIdeal.S64x4 .f32) (a : Fin 64) (b : Fin 4) :
    Host.dotGeneral (F := Ideal) Cert.ReferenceIdeal.dot_S64x64_S64x4_S64x4_1_0_0_1_n_n none l r (ix2 a b) = ∑ k : Fin 64, l (ix2 a k) * r (ix2 k b) := by
  show FloatOps.dotGeneral Cert.ReferenceIdeal.dot_S64x64_S64x4_S64x4_1_0_0_1_n_n none .single l r (ix2 a b) = _
  rw [Ideal.dotGeneral_apply, ← Equiv.sum_comp (contrEquiv1 Cert.ReferenceIdeal.dot_S64x64_S64x4_S64x4_1_0_0_1_n_n 64 rfl rfl).symm]
  refine Finset.sum_congr rfl fun k _ => ?_
  have hk := contrEquiv1_symm_val Cert.ReferenceIdeal.dot_S64x64_S64x4_S64x4_1_0_0_1_n_n 64 rfl rfl k
  have el : Cert.ReferenceIdeal.dot_S64x64_S64x4_S64x4_1_0_0_1_n_n.lhsIdx (ix2 a b) ((contrEquiv1 Cert.ReferenceIdeal.dot_S64x64_S64x4_S64x4_1_0_0_1_n_n 64 rfl rfl).symm k) = ix2 a k := funext fun ax => Fin.ext (by
    match ax with
    | ⟨0, _⟩ => exact dotQ_lhs_0 _ _
    | ⟨1, _⟩ => exact (dotQ_lhs_1 _ _).trans hk)
  have er : Cert.ReferenceIdeal.dot_S64x64_S64x4_S64x4_1_0_0_1_n_n.rhsIdx (ix2 a b) ((contrEquiv1 Cert.ReferenceIdeal.dot_S64x64_S64x4_S64x4_1_0_0_1_n_n 64 rfl rfl).symm k) = ix2 k b := funext fun ax => Fin.ext (by
    match ax with
    | ⟨0, _⟩ => exact (dotQ_rhs_0 _ _).trans hk
    | ⟨1, _⟩ => exact dotQ_rhs_1 _ _)
  rw [el, er]

/-! ## The three products as the bridge uses them -/

/-- A layer's product of the node features h with the weight matrix W is the closed form of the kernel's product regions. -/
theorem dot_layer (h : FVec Ideal Cert.ReferenceIdeal.S100000x128 .f32) (W : FVec Ideal Cert.ReferenceIdeal.S128x128 .f32) :
    Host.dotGeneral Cert.ReferenceIdeal.dot_S100000x128_S128x128_S100000x128_1_0_0_1_n_n none h W = Cert.KernelIdeal.Spec.G0_2 h W := by
  funext i
  obtain ⟨a, b, rfl⟩ : ∃ (a : Fin 100000) (b : Fin 128), i = ix2 a b := ⟨i 0, i 1, eq_ix2 i⟩
  exact dotL_apply h W a b

/-- The first linear layer's product, at an index. -/
theorem dot_lin1 (p : FVec Ideal Cert.ReferenceIdeal.S64x128 .f32) (w1 : FVec Ideal Cert.ReferenceIdeal.S128x64 .f32) (j : Cert.ReferenceIdeal.S64x64.Idx) :
    Host.dotGeneral Cert.ReferenceIdeal.dot_S64x128_S128x64_S64x64_1_0_0_1_n_n none p w1 j
      = ∑ k : Fin 128, p (ix2 (n0 := 64) (j 0) k) * w1 (ix2 (n0 := 128) k (j 1)) := by
  obtain ⟨a, b, rfl⟩ : ∃ (a : Fin 64) (b : Fin 64), j = ix2 a b := ⟨j 0, j 1, eq_ix2 j⟩
  exact dotP_apply p w1 a b

/-- The second linear layer's product, at an index. -/
theorem dot_lin2 (x : FVec Ideal Cert.ReferenceIdeal.S64x64 .f32) (w2 : FVec Ideal Cert.ReferenceIdeal.S64x4 .f32) (j : Cert.ReferenceIdeal.S64x4.Idx) :
    Host.dotGeneral Cert.ReferenceIdeal.dot_S64x64_S64x4_S64x4_1_0_0_1_n_n none x w2 j
      = ∑ k : Fin 64, x (ix2 (n0 := 64) (j 0) k) * w2 (ix2 (n0 := 64) k (j 1)) := by
  obtain ⟨a, b, rfl⟩ : ∃ (a : Fin 64) (b : Fin 4), j = ix2 a b := ⟨j 0, j 1, eq_ix2 j⟩
  exact dotQ_apply x w2 a b

omit [Cert.ReferenceIdeal.Facts] in
/-- The product of operands whose entries are reals has real entries. -/
theorem G0_2_real (h : FVec Ideal Cert.ReferenceIdeal.S100000x128 .f32) (W : FVec Ideal Cert.ReferenceIdeal.S128x128 .f32)
    (hh : ∀ i, IsReal (h i)) (hW : ∀ i, IsReal (W i)) : ∀ i, IsReal (Cert.KernelIdeal.Spec.G0_2 h W i) := by
  intro i
  unfold Cert.KernelIdeal.Spec.G0_2
  exact isReal_sum _ _ fun k _ => (hh _).mul (hW _)

end Cert.Bridge
-- ==== Proof.Bridge.HostReal.lean ====
/-
  The host operations between the two programs' kernels, at the extended reals: the two programs name the same gather,
  scatter and contraction dimension records and the same slices of their arguments; a gather of an array of reals is an
  array of reals; a scatter-add of reals into reals (in particular into zeros) is an array of reals; and, when every
  source index lies in [0, 100000), the kernel program's "take rows, then sum into the destinations" is the reference's
  "gather rows, then sum into the destinations", term for term.
-/
import proofs.«400512_j87187836109057_1_alg».proof.Proof.KI.KSpec
import proofs.«400512_j87187836109057_1_alg».proof.Proof.Ref.RSpec
import proofs.«400512_j87187836109057_1_alg».proof.Proof.Bridge.Algebra
import Idealize.ShloMosaic.PureOps.Ideal
import Idealize.ShloMosaic.PureOps.Ideal.Laws

noncomputable section

namespace Cert.Bridge

open Idealize.ShloMosaic
open Cert.KernelIdeal.Hand Cert.KernelIdeal.Spec Cert.ReferenceIdeal.Spec
open scoped BigOperators

/-! ## The two programs' dimension records are the same records -/

section Records
variable [Cert.KernelIdeal.Facts] [Cert.ReferenceIdeal.Facts]

/-- The row gather's dimension numbers. -/
theorem gather_eq : Cert.KernelIdeal.gather_S100000x128_S600000x1_S600000x128_1_0_n_n_0_1_1128
    = Cert.ReferenceIdeal.gather_S100000x128_S600000x1_S600000x128_1_0_n_n_0_1_1128 := rfl
/-- The edge aggregation's scatter dimension numbers. -/
theorem scatter_agg_eq : Cert.KernelIdeal.scatter_S100000x128_S600000x1_S600000x128_1_0_0_1
    = Cert.ReferenceIdeal.scatter_S100000x128_S600000x1_S600000x128_1_0_0_1 := rfl
/-- The per-graph sum's scatter dimension numbers. -/
theorem scatter_pool_eq : Cert.KernelIdeal.scatter_S64x128_S100000x1_S100000x128_1_0_0_1
    = Cert.ReferenceIdeal.scatter_S64x128_S100000x1_S100000x128_1_0_0_1 := rfl
/-- The per-graph count's scatter dimension numbers. -/
theorem scatter_cnt_eq : Cert.KernelIdeal.scatter_S64_S100000x1_S100000_n_0_0_1
    = Cert.ReferenceIdeal.scatter_S64_S100000x1_S100000_n_0_0_1 := rfl
/-- The head's two contractions' dimension numbers. -/
theorem dot_lin1_eq : Cert.KernelIdeal.dot_S64x128_S128x64_S64x64_1_0_0_1_n_n
    = Cert.ReferenceIdeal.dot_S64x128_S128x64_S64x64_1_0_0_1_n_n := rfl
theorem dot_lin2_eq : Cert.KernelIdeal.dot_S64x64_S64x4_S64x4_1_0_0_1_n_n
    = Cert.ReferenceIdeal.dot_S64x64_S64x4_S64x4_1_0_0_1_n_n := rfl

end Records

/-! ## Reals through the host's gather and scatter-add -/

/-- A gather reads entries of its operand: of an array of reals it is an array of reals. -/
theorem isReal_gather {s si t : Shape} {w : Nat} (d : GatherDims s si t) (x : s.Idx → EReal) (idx : IVec si w)
    (hx : ∀ i, IsReal (x i)) (j : t.Idx) : IsReal (Host.gather d x idx j) := hx _

/-- The scatter-add read at an index: the operand's entry plus the sum of the updates landing there. -/
theorem scatterAdd_apply {s si u : Shape} {w : Nat} {φ : FTy} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-- A scatter-add of reals into reals is an array of reals. -/
theorem isReal_scatterAdd {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (isReal_sum _ _ fun j _ => hu j)

/-- The array of zeros the host sums into: every entry the real 0. -/
theorem zeros_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = 0 :=
  Ideal.ofBits_zero_f32

/-- From zeros: the scatter-add read at an index is the sum of the updates landing there. -/
theorem scatterAdd_zeros_apply {s si u : Shape} {w : Nat} (d : ScatterDims s si u)
    (hb : (⟨0, ![]⟩ : Shape).BroadcastsInDim s (![] : Fin 0 → Fin s.rank)) (idx : IVec si w) (upd : FVec Ideal u .f32) (i : s.Idx) :
    Host.scatterAdd d (broadcastInDim s ![] hb (constant (F := Ideal) ⟨0, ![]⟩ .f32 0x00000000#32)) idx upd i
      = ∑ j ∈ Finset.univ.filter (fun j => d.resultIdx? j idx = some i), upd j := by
  rw [scatterAdd_apply, zeros_apply, zero_add]

/-- From zeros, of reals: an array of reals. -/
theorem isReal_scatterAdd_zeros {s si u : Shape} {w : Nat} (d : ScatterDims s si u)
    (hb : (⟨0, ![]⟩ : Shape).BroadcastsInDim s (![] : Fin 0 → Fin s.rank)) (idx : IVec si w) (upd : FVec Ideal u .f32)
    (hu : ∀ j, IsReal (upd j)) (i : s.Idx) :
    IsReal (Host.scatterAdd d (broadcastInDim s ![] hb (constant (F := Ideal) ⟨0, ![]⟩ .f32 0x00000000#32)) idx upd i) :=
  isReal_scatterAdd d _ idx upd (fun i => by rw [zeros_apply]; exact isReal_zero) hu i

/-! ## The aggregation along the edges -/

section Agg
variable [Cert.KernelIdeal.Facts] [Cert.ReferenceIdeal.Facts]

/-- The two programs' index columns are the same term. -/
theorem normIdx_eq_rIdx (src : IVec Cert.KernelIdeal.S600000 32) : normIdx src = rIdx src := rfl

/-- In range the take of an array of reals is an array of reals. -/
theorem isReal_takeTerm (m : FVec Ideal Cert.KernelIdeal.S100000x128 .f32) (src : IVec Cert.KernelIdeal.S600000 32)
    (hsrc : ∀ e : Cert.KernelIdeal.S600000.Idx, 0 ≤ (src e).toInt ∧ (src e).toInt < 100000) (hm : ∀ i, IsReal (m i))
    (j : Cert.KernelIdeal.S600000x128.Idx) : IsReal (takeTerm m src j) := by
  rw [takeTerm_eq m src hsrc]
  exact isReal_gather _ m _ hm j

/-- THE AGGREGATION, IN RANGE: the kernel program's sum into the destinations of the rows taken at the sources is the
    reference's sum into the destinations of the rows gathered at its index column. -/
theorem agg_eq (m : FVec Ideal Cert.KernelIdeal.S100000x128 .f32) (src dst : IVec Cert.KernelIdeal.S600000 32)
    (hsrc : ∀ e : Cert.KernelIdeal.S600000.Idx, 0 ≤ (src e).toInt ∧ (src e).toInt < 100000) :
    kAgg (takeTerm m src) dst
      = Host.scatterAdd Cert.ReferenceIdeal.scatter_S100000x128_S600000x1_S600000x128_1_0_0_1
        (broadcastInDim Cert.ReferenceIdeal.S100000x128 ![] Cert.ReferenceIdeal.Facts₀.bcast_S_S100000x128
          (constant (F := Ideal) Cert.ReferenceIdeal.S_ .f32 0x00000000#32))
        (broadcastInDim Cert.ReferenceIdeal.S600000x1 ![0] Cert.ReferenceIdeal.Facts₀.bcast_S600000_S600000x1_0 dst)
        (Host.gather Cert.ReferenceIdeal.gather_S100000x128_S600000x1_S600000x128_1_0_n_n_0_1_1128 m (rIdx src)) := by
  rw [takeTerm_eq m src hsrc]
  rfl

/-- In range, of reals: the aggregated rows are reals. -/
theorem agg_real (m : FVec Ideal Cert.KernelIdeal.S100000x128 .f32) (src dst : IVec Cert.KernelIdeal.S600000 32)
    (hsrc : ∀ e : Cert.KernelIdeal.S600000.Idx, 0 ≤ (src e).toInt ∧ (src e).toInt < 100000) (hm : ∀ i, IsReal (m i)) :
    ∀ i, IsReal (kAgg (takeTerm m src) dst i) := fun i =>
  isReal_scatterAdd_zeros _ _ _ _ (isReal_takeTerm m src hsrc hm) i

end Agg

/-! ## The arguments' slices -/

section Slices
variable [Cert.KernelIdeal.Facts] [Cert.ReferenceIdeal.Facts]

theorem kW0_eq (w : FVec Ideal Cert.KernelIdeal.S6x128x128 .f32) : kW0 w = rW0 w := rfl
theorem kW1_eq (w : FVec Ideal Cert.KernelIdeal.S6x128x128 .f32) : kW1 w = rW1 w := rfl
theorem kW2_eq (w : FVec Ideal Cert.KernelIdeal.S6x128x128 .f32) : kW2 w = rW2 w := rfl
theorem kW3_eq (w : FVec Ideal Cert.KernelIdeal.S6x128x128 .f32) : kW3 w = rW3 w := rfl
theorem kW4_eq (w : FVec Ideal Cert.KernelIdeal.S6x128x128 .f32) : kW4 w = rW4 w := rfl
theorem kW5_eq (w : FVec Ideal Cert.KernelIdeal.S6x128x128 .f32) : kW5 w = rW5 w := rfl

theorem kP0_eq (p : FVec Ideal Cert.KernelIdeal.S6x128 .f32) : kP0 p = rRow0 p := rfl
theorem kP1_eq (p : FVec Ideal Cert.KernelIdeal.S6x128 .f32) : kP1 p = rRow1 p := rfl
theorem kP2_eq (p : FVec Ideal Cert.KernelIdeal.S6x128 .f32) : kP2 p = rRow2 p := rfl
theorem kP3_eq (p : FVec Ideal Cert.KernelIdeal.S6x128 .f32) : kP3 p = rRow3 p := rfl
theorem kP4_eq (p : FVec Ideal Cert.KernelIdeal.S6x128 .f32) : kP4 p = rRow4 p := rfl
theorem kP5_eq (p : FVec Ideal Cert.KernelIdeal.S6x128 .f32) : kP5 p = rRow5 p := rfl

theorem kSrc_eq (ei : IVec Cert.KernelIdeal.S2x600000 32) : kSrc ei = rSrc ei := rfl
theorem kDst_eq (ei : IVec Cert.KernelIdeal.S2x600000 32) : kDst ei = rDst ei := rfl

end Slices

section SlicesReal
variable [Cert.KernelIdeal.Facts]

/-- A slice of an array of reals is an array of reals: every entry of a slice is an entry of the array. -/
theorem kW_real (w : FVec Ideal Cert.KernelIdeal.S6x128x128 .f32) (hw : ∀ i, IsReal (w i)) :
    (∀ i, IsReal (kW0 w i)) ∧ (∀ i, IsReal (kW1 w i)) ∧ (∀ i, IsReal (kW2 w i)) ∧ (∀ i, IsReal (kW3 w i))
      ∧ (∀ i, IsReal (kW4 w i)) ∧ (∀ i, IsReal (kW5 w i)) :=
  ⟨fun _ => hw _, fun _ => hw _, fun _ => hw _, fun _ => hw _, fun _ => hw _, fun _ => hw _⟩

theorem kP_real (p : FVec Ideal Cert.KernelIdeal.S6x128 .f32) (hp : ∀ i, IsReal (p i)) :
    (∀ i, IsReal (kP0 p i)) ∧ (∀ i, IsReal (kP1 p i)) ∧ (∀ i, IsReal (kP2 p i)) ∧ (∀ i, IsReal (kP3 p i))
      ∧ (∀ i, IsReal (kP4 p i)) ∧ (∀ i, IsReal (kP5 p i)) :=
  ⟨fun _ => hp _, fun _ => hp _, fun _ => hp _, fun _ => hp _, fun _ => hp _, fun _ => hp _⟩

end SlicesReal

/-! ## The pooling -/

section Pool
variable [Cert.KernelIdeal.Facts] [Cert.ReferenceIdeal.Facts]

/-- The per-graph means are the same operations in the two programs. -/
theorem pool_eq (h : FVec Ideal Cert.KernelIdeal.S100000x128 .f32) (batch : IVec Cert.KernelIdeal.S100000 32) :
    kPool h batch = rPool h batch := rfl

end Pool

end Cert.Bridge

end
-- ==== Proof.Bridge.Layer.lean ====
/-
  One layer of the two programs: the same array, and an array of reals.

  The kernel's layer is: the node features times the weight matrix (a sum of products over 128), the rows gathered at
  the edges' sources, summed into the edges' destinations, then the rectification and normalisation. The reference's
  layer is the host's matrix product, gather and accumulating scatter of the same operands, the bias added, then its
  own rectification and normalisation. With the edges' sources in range the gathers agree; the products agree at the
  extended reals; and on features, weights and bias that are reals the normalisations agree. Reals stay reals through a
  layer: sums and products of reals, a gather of reals, a sum of reals into each destination, and the normalisation.
-/
import proofs.«400512_j87187836109057_1_alg».proof.Proof.Bridge.Norm
import proofs.«400512_j87187836109057_1_alg».proof.Proof.Bridge.Dot
import proofs.«400512_j87187836109057_1_alg».proof.Proof.Bridge.HostReal

namespace Cert.Bridge

open Idealize.ShloMosaic
open Cert.KernelIdeal.Spec Cert.KernelIdeal.Hand Cert.ReferenceIdeal.Spec

variable [Cert.KernelIdeal.Facts] [Cert.ReferenceIdeal.Facts]

/-- ONE LAYER: on node features, weights and a bias that are reals, with every edge's source in [0, 100000), the
    kernel's layer is the reference's. -/
theorem layer_eq (h : FVec Ideal Cert.KernelIdeal.S100000x128 .f32) (W : FVec Ideal Cert.KernelIdeal.S128x128 .f32)
    (b g β : FVec Ideal Cert.KernelIdeal.S128 .f32) (src dst : IVec Cert.KernelIdeal.S600000 32)
    (hh : ∀ i, IsReal (h i)) (hW : ∀ i, IsReal (W i)) (hb : ∀ i, IsReal (b i))
    (hsrc : ∀ e : Cert.KernelIdeal.S600000.Idx, 0 ≤ (src e).toInt ∧ (src e).toInt < 100000) :
    kLayer h W b g β src dst = rLayer h W b g β src dst := by
  unfold kLayer rLayer rAgg
  rw [dot_layer h W, ← agg_eq (G0_2 h W) src dst hsrc]
  exact (norm_eq _ b g β (agg_real _ src dst hsrc (G0_2_real h W hh hW)) hb).symm

/-- REALS STAY REALS through a layer. -/
theorem layer_real (h : FVec Ideal Cert.KernelIdeal.S100000x128 .f32) (W : FVec Ideal Cert.KernelIdeal.S128x128 .f32)
    (b g β : FVec Ideal Cert.KernelIdeal.S128 .f32) (src dst : IVec Cert.KernelIdeal.S600000 32)
    (hh : ∀ i, IsReal (h i)) (hW : ∀ i, IsReal (W i)) (hb : ∀ i, IsReal (b i)) (hg : ∀ i, IsReal (g i))
    (hβ : ∀ i, IsReal (β i))
    (hsrc : ∀ e : Cert.KernelIdeal.S600000.Idx, 0 ≤ (src e).toInt ∧ (src e).toInt < 100000) :
    ∀ i, IsReal (kLayer h W b g β src dst i) := by
  unfold kLayer
  exact norm_real _ b g β (agg_real _ src dst hsrc (G0_2_real h W hh hW)) hb hg hβ

end Cert.Bridge
-- ==== Proof.Bridge.Tail.lean ====
/- The tail of the two programs at the extended reals: the kernel program's pooling and head (the closed form of the
   head's region: two matrix products with their biases, then the log-softmax along the last axis) is the reference's
   pooling, two dense layers and log-softmax. Index by index: the reference's products as sums over the contracted
   coordinate, its bias vectors laid out as rows, its row maximum as the fold of max over the four lanes from the word of
   minus infinity, its row sum of exponentials as the sum over the four lanes. -/
import proofs.«400512_j87187836109057_1_alg».proof.Proof.KI.KSpec
import proofs.«400512_j87187836109057_1_alg».proof.Proof.Ref.RSpec
import proofs.«400512_j87187836109057_1_alg».proof.Proof.Bridge.Dot
import proofs.«400512_j87187836109057_1_alg».proof.Proof.Bridge.HostReal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

namespace Cert.Bridge

open Idealize.ShloMosaic Idealize.ShloMosaic.ValueIdx
open Cert.KernelIdeal.Spec Cert.ReferenceIdeal.Spec
open scoped BigOperators

variable [Cert.KernelIdeal.Facts] [Cert.ReferenceIdeal.Facts]

namespace Tail

/-! ## The layout operations of the head at an index -/

/-- A vector of 64 laid along the rows of a 64 × 64 array reads, at (p, j), the vector at j. -/
theorem rowBc64_apply (b : FVec Ideal Cert.ReferenceIdeal.S64 .f32) (p : Fin 64) (j : Fin 64) :
    broadcastInDim Cert.ReferenceIdeal.S64x64 ![0, 1] Cert.ReferenceIdeal.Facts₀.bcast_S1x64_S64x64_0_1
      (broadcastInDim Cert.ReferenceIdeal.S1x64 ![1] Cert.ReferenceIdeal.Facts₀.bcast_S64_S1x64_1 b) (ix2 p j) = b (ix1 j) := by
  rw [broadcastInDim_apply _ _ _ (ix2 p j) (ix2 (0 : Fin 1) j) (fun a => by
    match a with
    | ⟨0, _⟩ => rfl
    | ⟨1, _⟩ => rfl)]
  exact broadcastInDim_apply _ _ b (ix2 (0 : Fin 1) j) (ix1 j) (fun a => by
    match a with
    | ⟨0, _⟩ => rfl)

/-- A vector of 4 laid along the rows of a 64 × 4 array reads, at (p, q), the vector at q. -/
theorem rowBc4_apply (b : FVec Ideal Cert.ReferenceIdeal.S4 .f32) (p : Fin 64) (q : Fin 4) :
    broadcastInDim Cert.ReferenceIdeal.S64x4 ![0, 1] Cert.ReferenceIdeal.Facts₀.bcast_S1x4_S64x4_0_1
      (broadcastInDim Cert.ReferenceIdeal.S1x4 ![1] Cert.ReferenceIdeal.Facts₀.bcast_S4_S1x4_1 b) (ix2 p q) = b (ix1 q) := by
  rw [broadcastInDim_apply _ _ _ (ix2 p q) (ix2 (0 : Fin 1) q) (fun a => by
    match a with
    | ⟨0, _⟩ => rfl
    | ⟨1, _⟩ => rfl)]
  exact broadcastInDim_apply _ _ b (ix2 (0 : Fin 1) q) (ix1 q) (fun a => by
    match a with
    | ⟨0, _⟩ => rfl)

/-- A 64 × 1 column laid across the four lanes reads, at (p, q), the column at p. -/
theorem colBcOuter_apply (y : FVec Ideal Cert.ReferenceIdeal.S64x1 .f32) (p : Fin 64) (q : Fin 4) :
    broadcastInDim Cert.ReferenceIdeal.S64x4 ![0, 1] Cert.ReferenceIdeal.Facts₀.bcast_S64x1_S64x4_0_1 y (ix2 p q)
      = y (ix2 p (0 : Fin 1)) :=
  broadcastInDim_apply _ _ y (ix2 p q) (ix2 p (0 : Fin 1)) (fun a => by
    match a with
    | ⟨0, _⟩ => rfl
    | ⟨1, _⟩ => rfl)

/-- A vector of 64 as a 64 × 1 column reads, at (p, 0), the vector at p. -/
theorem colBcInner_apply (v : FVec Ideal Cert.ReferenceIdeal.S64 .f32) (p : Fin 64) :
    broadcastInDim Cert.ReferenceIdeal.S64x1 ![0] Cert.ReferenceIdeal.Facts₀.bcast_S64_S64x1_0 v (ix2 p (0 : Fin 1)) = v (ix1 p) :=
  broadcastInDim_apply _ _ v (ix2 p (0 : Fin 1)) (ix1 p) (fun a => by
    match a with
    | ⟨0, _⟩ => rfl)

/-- A vector of 64 laid down the columns of a 64 × 4 array reads, at (p, q), the vector at p. -/
theorem colBc_apply (v : FVec Ideal Cert.ReferenceIdeal.S64 .f32) (p : Fin 64) (q : Fin 4) :
    broadcastInDim Cert.ReferenceIdeal.S64x4 ![0, 1] Cert.ReferenceIdeal.Facts₀.bcast_S64x1_S64x4_0_1
      (broadcastInDim Cert.ReferenceIdeal.S64x1 ![0] Cert.ReferenceIdeal.Facts₀.bcast_S64_S64x1_0 v) (ix2 p q) = v (ix1 p) := by
  rw [colBcOuter_apply, colBcInner_apply]

/-- The source index over row p with lane q inserted is (p, q). -/
theorem lift_row (h : Cert.ReferenceIdeal.S64x4.Reduces [1] Cert.ReferenceIdeal.S64) (p : Fin 64) (q : Fin 4) :
    h.lift (ix1 p) q = ix2 p q := by
  funext a
  match a with
  | ⟨0, _⟩ => exact Fin.ext rfl
  | ⟨1, _⟩ => exact Fin.ext rfl

theorem reduces_row : Cert.ReferenceIdeal.S64x4.Reduces [1] Cert.ReferenceIdeal.S64 := by decide

/-! ## The two dense layers at an index -/

/-- The reference's two dense layers at (p, q) are the logit of the closed form, the bias vectors laid out as rows. -/
theorem lin_apply (P : FVec Ideal Cert.ReferenceIdeal.S64x128 .f32) (w1 : FVec Ideal Cert.ReferenceIdeal.S128x64 .f32)
    (b1 : FVec Ideal Cert.ReferenceIdeal.S64 .f32) (w2 : FVec Ideal Cert.ReferenceIdeal.S64x4 .f32) (b2 : FVec Ideal Cert.ReferenceIdeal.S4 .f32)
    (p : Fin 64) (q : Fin 4) :
    rLin P w1 b1 w2 b2 (ix2 p q)
      = logit18 P w1 (shapeCast Cert.KernelIdeal.S1x64 b1 Cert.KernelIdeal.Facts₀.shapeCasts_S64_S1x64) w2
          (shapeCast Cert.KernelIdeal.S1x4 b2 Cert.KernelIdeal.Facts₀.shapeCasts_S4_S1x4) p q := by
  unfold rLin logit18
  rw [addf_apply, dot_lin2, rowBc4_apply, shapeCast_a_1a_apply]
  refine congrArg (· + b2 (ix1 q)) (Finset.sum_congr rfl fun j _ => ?_)
  unfold hidden18
  show (addf (Host.dotGeneral Cert.ReferenceIdeal.dot_S64x128_S128x64_S64x64_1_0_0_1_n_n none P w1) _ (ix2 p j)) * w2 (ix2 j q) = _
  rw [addf_apply, dot_lin1, rowBc64_apply, shapeCast_a_1a_apply]

/-! ## The log-softmax at an index -/

/-- The reference's row maximum at p: the fold of max over the four lanes from the word of minus infinity. -/
theorem rowMax_apply (x : FVec Ideal Cert.ReferenceIdeal.S64x4 .f32) (p : Fin 64) :
    Host.reduce FloatOps.maximumf x (constant (F := Ideal) Cert.ReferenceIdeal.S_ .f32 0xFF800000#32)
        Cert.ReferenceIdeal.Facts₀.reducesTo_S64x4_S64_d1 Cert.ReferenceIdeal.Facts₀.h_S_ (ix1 p)
      = (Finset.univ : Finset (Fin 4)).fold max negInf18 fun q => x (ix2 p q) := by
  refine (Host.reduce_eq_fold_single FloatOps.maximumf x _ _ reduces_row _ (ix1 p)).trans ?_
  refine congrArg (fun f => (Finset.univ : Finset (Fin 4)).fold max negInf18 f) (funext fun q => ?_)
  exact congrArg x (lift_row reduces_row p q)

/-- The reference's shifted logits at (p, q): the entry less its row's maximum. -/
theorem shift_apply (x : FVec Ideal Cert.ReferenceIdeal.S64x4 .f32) (p : Fin 64) (q : Fin 4) :
    rShift x (ix2 p q) = x (ix2 p q) - max negInf18 ((Finset.univ : Finset (Fin 4)).fold max negInf18 fun q' => x (ix2 p q')) := by
  unfold rShift rBc4
  rw [subf_apply, colBc_apply, maximumf_apply, broadcastInDim_scalar_apply, rowMax_apply]
  rfl

/-- The reference's row sum of exponentials at p. -/
theorem rowSum_apply (y : FVec Ideal Cert.ReferenceIdeal.S64x4 .f32) (p : Fin 64) :
    Host.reduceAdd y (constant (F := Ideal) Cert.ReferenceIdeal.S_ .f32 0x00000000#32)
        Cert.ReferenceIdeal.Facts₀.reducesTo_S64x4_S64_d1 Cert.ReferenceIdeal.Facts₀.h_S_ (ix1 p)
      = ∑ q : Fin 4, y (ix2 p q) := by
  rw [hostReduceAdd_apply, Ideal.hostReduceAdd_single _ reduces_row]
  show Ideal.ofBits .f32 0x00000000#32 + _ = _
  rw [Ideal.ofBits_zero_f32, zero_add]
  exact Finset.sum_congr rfl fun q _ => congrArg y (lift_row reduces_row p q)

/-- The host's exponential and logarithm of a vector at an index are those of the element. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The reference's log-softmax at (p, q). -/
theorem logSoftmax_apply (x : FVec Ideal Cert.ReferenceIdeal.S64x4 .f32) (p : Fin 64) (q : Fin 4) :
    rLogSoftmax x (ix2 p q)
      = (x (ix2 p q) - max negInf18 ((Finset.univ : Finset (Fin 4)).fold max negInf18 fun q' => x (ix2 p q')))
        - Ideal.log (∑ q' : Fin 4, Ideal.exp (x (ix2 p q')
            - max negInf18 ((Finset.univ : Finset (Fin 4)).fold max negInf18 fun q' => x (ix2 p q')))) := by
  unfold rLogSoftmax
  rw [subf_apply, shift_apply, colBcOuter_apply]
  rw [hostLog_apply, colBcInner_apply, rowSum_apply]
  refine congrArg (fun s => _ - Ideal.log s) (Finset.sum_congr rfl fun q' _ => ?_)
  rw [hostExp_apply, shift_apply]

/-! ## The head and the tail -/

/-- The closed form of the head, of any pooled features, is the reference's log-softmax of its two dense layers. -/
theorem head_eq (P : FVec Ideal Cert.ReferenceIdeal.S64x128 .f32) (w1 : FVec Ideal Cert.ReferenceIdeal.S128x64 .f32)
    (b1 : FVec Ideal Cert.ReferenceIdeal.S64 .f32) (w2 : FVec Ideal Cert.ReferenceIdeal.S64x4 .f32) (b2 : FVec Ideal Cert.ReferenceIdeal.S4 .f32) :
    G18_5 P w1 (shapeCast Cert.KernelIdeal.S1x64 b1 Cert.KernelIdeal.Facts₀.shapeCasts_S64_S1x64) w2
        (shapeCast Cert.KernelIdeal.S1x4 b2 Cert.KernelIdeal.Facts₀.shapeCasts_S4_S1x4)
      = rLogSoftmax (rLin P w1 b1 w2 b2) := by
  funext i
  obtain ⟨p, q, rfl⟩ : ∃ (p : Fin 64) (q : Fin 4), i = ix2 p q := ⟨i 0, i 1, eq_ix2 i⟩
  rw [logSoftmax_apply]
  simp only [lin_apply]
  rfl

end Tail

/-- THE TAIL: the kernel program's pooling and head is the reference's pooling, dense layers and log-softmax. -/
theorem tail_eq (h : FVec Ideal Cert.KernelIdeal.S100000x128 .f32) (batch : IVec Cert.KernelIdeal.S100000 32)
    (lin1_w : FVec Ideal Cert.KernelIdeal.S128x64 .f32) (lin1_b : FVec Ideal Cert.KernelIdeal.S64 .f32)
    (lin2_w : FVec Ideal Cert.KernelIdeal.S64x4 .f32) (lin2_b : FVec Ideal Cert.KernelIdeal.S4 .f32) :
    kTail h batch lin1_w lin1_b lin2_w lin2_b = rTail h batch lin1_w lin1_b lin2_w lin2_b := by
  unfold kTail rTail
  rw [pool_eq]
  exact Tail.head_eq (rPool h batch) lin1_w lin1_b lin2_w lin2_b

end Cert.Bridge

end
-- ==== Proof.Bridge.Out.lean ====
/-
  The two programs' results are one array.

  Under the precondition's consequences (every entry of the node features and of the three layer parameter arrays is a
  real, and every edge's source lies in [0, 100000)) the kernel program's result, six layers then the pooling and the
  head, is the reference's: layer by layer the node features agree and stay reals, the two programs take the same slices
  of their parameter arrays, and the tails agree on equal node features.
-/
import proofs.«400512_j87187836109057_1_alg».proof.Proof.Bridge.Layer
import proofs.«400512_j87187836109057_1_alg».proof.Proof.Bridge.Tail
import proofs.«400512_j87187836109057_1_alg».proof.Proof.KI.PreRange

namespace Cert.Bridge

open Idealize.ShloMosaic
open Cert.KernelIdeal.Spec Cert.ReferenceIdeal.Spec

variable [Cert.KernelIdeal.Facts] [Cert.ReferenceIdeal.Facts]

/-- One layer on equal operands: the kernel's layer of the one is the reference's layer of the other. -/
theorem layer_step (h h' : FVec Ideal Cert.KernelIdeal.S100000x128 .f32) (W W' : FVec Ideal Cert.KernelIdeal.S128x128 .f32)
    (b b' g g' β β' : FVec Ideal Cert.KernelIdeal.S128 .f32) (src src' dst dst' : IVec Cert.KernelIdeal.S600000 32)
    (eh : h = h') (eW : W = W') (eb : b = b') (eg : g = g') (eβ : β = β') (es : src = src') (ed : dst = dst')
    (hh : ∀ i, IsReal (h i)) (hW : ∀ i, IsReal (W i)) (hb : ∀ i, IsReal (b i))
    (hsrc : ∀ e : Cert.KernelIdeal.S600000.Idx, 0 ≤ (src e).toInt ∧ (src e).toInt < 100000) :
    kLayer h W b g β src dst = rLayer h' W' b' g' β' src' dst' := by
  subst eh eW eb eg eβ es ed
  exact layer_eq h W b g β src dst hh hW hb hsrc

/-- THE RESULTS AGREE: with the node features and the layers' weights, biases, scales and shifts reals, and every
    edge's source in [0, 100000), the kernel program's result is the reference's. -/
theorem out_eq (x : FVec Ideal Cert.KernelIdeal.S100000x128 .f32) (edge_index : IVec Cert.KernelIdeal.S2x600000 32)
    (batch : IVec Cert.KernelIdeal.S100000 32) (conv_w : FVec Ideal Cert.KernelIdeal.S6x128x128 .f32)
    (conv_b bn_g bn_b : FVec Ideal Cert.KernelIdeal.S6x128 .f32) (lin1_w : FVec Ideal Cert.KernelIdeal.S128x64 .f32)
    (lin1_b : FVec Ideal Cert.KernelIdeal.S64 .f32) (lin2_w : FVec Ideal Cert.KernelIdeal.S64x4 .f32)
    (lin2_b : FVec Ideal Cert.KernelIdeal.S4 .f32)
    (hx : ∀ i, ∃ r : ℝ, x i = (r : EReal)) (hw : ∀ i, ∃ r : ℝ, conv_w i = (r : EReal))
    (hcb : ∀ i, ∃ r : ℝ, conv_b i = (r : EReal)) (hgm : ∀ i, ∃ r : ℝ, bn_g i = (r : EReal))
    (hbt : ∀ i, ∃ r : ℝ, bn_b i = (r : EReal))
    (hsrc : ∀ e : Cert.KernelIdeal.S600000.Idx,
      0 ≤ (kSrc edge_index e).toInt ∧ (kSrc edge_index e).toInt < 100000) :
    kOut x edge_index batch conv_w conv_b bn_g bn_b lin1_w lin1_b lin2_w lin2_b
      = rOut x edge_index batch conv_w conv_b bn_g bn_b lin1_w lin1_b lin2_w lin2_b := by
  obtain ⟨hW0, hW1, hW2, hW3, hW4, hW5⟩ := kW_real conv_w hw
  obtain ⟨hb0, hb1, hb2, hb3, hb4, hb5⟩ := kP_real conv_b hcb
  obtain ⟨hg0, hg1, hg2, hg3, hg4, hg5⟩ := kP_real bn_g hgm
  obtain ⟨hβ0, hβ1, hβ2, hβ3, hβ4, hβ5⟩ := kP_real bn_b hbt
  have r1 := layer_real x (kW0 conv_w) (kP0 conv_b) (kP0 bn_g) (kP0 bn_b) (kSrc edge_index) (kDst edge_index)
    hx hW0 hb0 hg0 hβ0 hsrc
  have e1 := layer_step x x (kW0 conv_w) (rW0 conv_w) (kP0 conv_b) (rRow0 conv_b) (kP0 bn_g) (rRow0 bn_g)
    (kP0 bn_b) (rRow0 bn_b) (kSrc edge_index) (rSrc edge_index) (kDst edge_index) (rDst edge_index)
    rfl (kW0_eq conv_w) (kP0_eq conv_b) (kP0_eq bn_g) (kP0_eq bn_b) (kSrc_eq edge_index) (kDst_eq edge_index)
    hx hW0 hb0 hsrc
  have r2 := layer_real _ (kW1 conv_w) (kP1 conv_b) (kP1 bn_g) (kP1 bn_b) (kSrc edge_index) (kDst edge_index)
    r1 hW1 hb1 hg1 hβ1 hsrc
  have e2 := layer_step _ _ (kW1 conv_w) (rW1 conv_w) (kP1 conv_b) (rRow1 conv_b) (kP1 bn_g) (rRow1 bn_g)
    (kP1 bn_b) (rRow1 bn_b) (kSrc edge_index) (rSrc edge_index) (kDst edge_index) (rDst edge_index)
    e1 (kW1_eq conv_w) (kP1_eq conv_b) (kP1_eq bn_g) (kP1_eq bn_b) (kSrc_eq edge_index) (kDst_eq edge_index)
    r1 hW1 hb1 hsrc
  have r3 := layer_real _ (kW2 conv_w) (kP2 conv_b) (kP2 bn_g) (kP2 bn_b) (kSrc edge_index) (kDst edge_index)
    r2 hW2 hb2 hg2 hβ2 hsrc
  have e3 := layer_step _ _ (kW2 conv_w) (rW2 conv_w) (kP2 conv_b) (rRow2 conv_b) (kP2 bn_g) (rRow2 bn_g)
    (kP2 bn_b) (rRow2 bn_b) (kSrc edge_index) (rSrc edge_index) (kDst edge_index) (rDst edge_index)
    e2 (kW2_eq conv_w) (kP2_eq conv_b) (kP2_eq bn_g) (kP2_eq bn_b) (kSrc_eq edge_index) (kDst_eq edge_index)
    r2 hW2 hb2 hsrc
  have r4 := layer_real _ (kW3 conv_w) (kP3 conv_b) (kP3 bn_g) (kP3 bn_b) (kSrc edge_index) (kDst edge_index)
    r3 hW3 hb3 hg3 hβ3 hsrc
  have e4 := layer_step _ _ (kW3 conv_w) (rW3 conv_w) (kP3 conv_b) (rRow3 conv_b) (kP3 bn_g) (rRow3 bn_g)
    (kP3 bn_b) (rRow3 bn_b) (kSrc edge_index) (rSrc edge_index) (kDst edge_index) (rDst edge_index)
    e3 (kW3_eq conv_w) (kP3_eq conv_b) (kP3_eq bn_g) (kP3_eq bn_b) (kSrc_eq edge_index) (kDst_eq edge_index)
    r3 hW3 hb3 hsrc
  have r5 := layer_real _ (kW4 conv_w) (kP4 conv_b) (kP4 bn_g) (kP4 bn_b) (kSrc edge_index) (kDst edge_index)
    r4 hW4 hb4 hg4 hβ4 hsrc
  have e5 := layer_step _ _ (kW4 conv_w) (rW4 conv_w) (kP4 conv_b) (rRow4 conv_b) (kP4 bn_g) (rRow4 bn_g)
    (kP4 bn_b) (rRow4 bn_b) (kSrc edge_index) (rSrc edge_index) (kDst edge_index) (rDst edge_index)
    e4 (kW4_eq conv_w) (kP4_eq conv_b) (kP4_eq bn_g) (kP4_eq bn_b) (kSrc_eq edge_index) (kDst_eq edge_index)
    r4 hW4 hb4 hsrc
  have e6 := layer_step _ _ (kW5 conv_w) (rW5 conv_w) (kP5 conv_b) (rRow5 conv_b) (kP5 bn_g) (rRow5 bn_g)
    (kP5 bn_b) (rRow5 bn_b) (kSrc edge_index) (rSrc edge_index) (kDst edge_index) (rDst edge_index)
    e5 (kW5_eq conv_w) (kP5_eq conv_b) (kP5_eq bn_g) (kP5_eq bn_b) (kSrc_eq edge_index) (kDst_eq edge_index)
    r5 hW5 hb5 hsrc
  unfold kOut rOut kH6
  exact (tail_eq _ batch lin1_w lin1_b lin2_w lin2_b).trans
    (congrArg (fun H => rTail H batch lin1_w lin1_b lin2_w lin2_b) e6)

/-- The same from the printed precondition itself. -/
theorem out_eq_of_pre [Cert.Pre_finite_inputs.Facts] (x : FVec Ideal Cert.KernelIdeal.S100000x128 .f32)
    (edge_index : IVec Cert.KernelIdeal.S2x600000 32) (batch : IVec Cert.KernelIdeal.S100000 32)
    (conv_w : FVec Ideal Cert.KernelIdeal.S6x128x128 .f32) (conv_b bn_g bn_b : FVec Ideal Cert.KernelIdeal.S6x128 .f32)
    (lin1_w : FVec Ideal Cert.KernelIdeal.S128x64 .f32) (lin1_b : FVec Ideal Cert.KernelIdeal.S64 .f32)
    (lin2_w : FVec Ideal Cert.KernelIdeal.S64x4 .f32) (lin2_b : FVec Ideal Cert.KernelIdeal.S4 .f32)
    (h : Cert.Pre_finite_inputs.fn (F := Ideal) x edge_index batch conv_w conv_b bn_g bn_b lin1_w lin1_b lin2_w lin2_b
      = fun _ => 1#1) :
    kOut x edge_index batch conv_w conv_b bn_g bn_b lin1_w lin1_b lin2_w lin2_b
      = rOut x edge_index batch conv_w conv_b bn_g bn_b lin1_w lin1_b lin2_w lin2_b :=
  out_eq x edge_index batch conv_w conv_b bn_g bn_b lin1_w lin1_b lin2_w lin2_b
    (Cert.Pre_finite_inputs.Hand.finite_x x edge_index batch conv_w conv_b bn_g bn_b lin1_w lin1_b lin2_w lin2_b h)
    (Cert.Pre_finite_inputs.Hand.finite_conv_w x edge_index batch conv_w conv_b bn_g bn_b lin1_w lin1_b lin2_w lin2_b h)
    (Cert.Pre_finite_inputs.Hand.finite_conv_b x edge_index batch conv_w conv_b bn_g bn_b lin1_w lin1_b lin2_w lin2_b h)
    (Cert.Pre_finite_inputs.Hand.finite_bn_g x edge_index batch conv_w conv_b bn_g bn_b lin1_w lin1_b lin2_w lin2_b h)
    (Cert.Pre_finite_inputs.Hand.finite_bn_b x edge_index batch conv_w conv_b bn_g bn_b lin1_w lin1_b lin2_w lin2_b h)
    (fun e => Cert.Pre_finite_inputs.Hand.src_range x edge_index batch conv_w conv_b bn_g bn_b lin1_w lin1_b lin2_w
      lin2_b h e)

end Cert.Bridge
-- ==== Proof.lean ====
/- The claim of this certificate, assembled.

   Both kernel programs are one text (the ideal pass changed nothing), a six-layer graph convolution of 19 kernel regions:
   per layer a row-tiled product h · W, a gather along the edges' sources and a sum into their destinations on the host,
   a rectifier with running column sums and sums of squares, the column mean and variance on the host, and the
   normalisation; then a mean pool by graph and a two-layer head with a log-softmax. The reference does the same on the
   host alone. Under the precondition (every float input finite, every edge's source index inside the node range) the two
   results agree over the extended reals: the gather's out-of-range mask never fires, the tiled sums are the whole sums,
   and the variance taken as the mean of squares less the squared mean is the mean of the squared deviations because every
   entry involved is a real number.

   The frames are the runs with the result dropped; preserves is trivial (the ideal pass recorded no rewrite). -/
import proofs.«400512_j87187836109057_1_alg».proof.Defs
import proofs.«400512_j87187836109057_1_alg».proof.Proof.Gen.Kernel
import proofs.«400512_j87187836109057_1_alg».proof.Proof.Gen.KernelIdeal
import proofs.«400512_j87187836109057_1_alg».proof.Proof.Gen.ReferenceIdeal
import proofs.«400512_j87187836109057_1_alg».proof.Proof.Gen.Pre_finite_inputs
import proofs.«400512_j87187836109057_1_alg».proof.Proof.K.Run
import proofs.«400512_j87187836109057_1_alg».proof.Proof.KI.Run
import proofs.«400512_j87187836109057_1_alg».proof.Proof.KI.KChain
import proofs.«400512_j87187836109057_1_alg».proof.Proof.KI.PreRange
import proofs.«400512_j87187836109057_1_alg».proof.Proof.Ref.Run
import proofs.«400512_j87187836109057_1_alg».proof.Proof.Ref.RValue
import proofs.«400512_j87187836109057_1_alg».proof.Proof.Bridge.Out

noncomputable section

namespace Cert.Proof

open Idealize.ShloMosaic Idealize.SL.Sem

/-- The word-level program runs to the end with its arguments unchanged: its run, the result dropped. -/
theorem frame_k : Cert.frame_Kernel := fun m ρ _ =>
  (θ_run Cert.Kernel.defs _ _).mono (fun _ h c => (h c).2) (Cert.Kernel.Hand.run (F := Bits) m ρ)

/-- The idealized program likewise. -/
theorem frame_ki : Cert.frame_KernelIdeal := fun m ρ _ =>
  (θ_run Cert.KernelIdeal.defs _ _).mono (fun _ h c => (h c).2) (Cert.KernelIdeal.Hand.run (F := Ideal) m ρ)

/-- The reference likewise. -/
theorem frame_r : Cert.frame_ReferenceIdeal := fun m ρ _ =>
  (θ_run Cert.ReferenceIdeal.defs _ _).mono (fun _ h c => (h c).2) (Cert.ReferenceIdeal.Hand.run (F := Ideal) m ρ)

/-- The two idealized programs end with one result: the kernel program's fold of region results and host stretches is
    its closed term of the arguments, the reference's operation list is its own, and the two terms are equal where the
    floats are real and the sources in range. -/
theorem algebraic : Cert.algebraic_KernelIdeal_ReferenceIdeal := by
  intro m ρ m' ρ' hpre hagree
  refine ⟨fun c => Cert.KernelIdeal.Hand.W44 m c (Proc.devRef .tc Cert.KernelIdeal.main_v186),
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10⟩ := hagree c
  have hr := Cert.ReferenceIdeal.Hand.ref_value m' c
  rw [e0, e1, e2, e3, e4, e5, e6, e7, e8, e9, e10] at hr
  exact hr.trans ((Cert.Bridge.out_eq_of_pre _ _ _ _ _ _ _ _ _ _ _ (hpre c)).symm.trans
    (Cert.KernelIdeal.Hand.kernel_value m c).symm)

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
